-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000x156 : Shape := ⟨2, ![2000, 156]⟩
abbrev S1000x156 : Shape := ⟨2, ![1000, 156]⟩
abbrev S500x156 : Shape := ⟨2, ![500, 156]⟩
abbrev S2000x2000 : Shape := ⟨2, ![2000, 2000]⟩
abbrev S1000x1000 : Shape := ⟨2, ![1000, 1000]⟩
abbrev S500x500 : Shape := ⟨2, ![500, 500]⟩
abbrev S1024x1024 : Shape := ⟨2, ![1024, 1024]⟩
abbrev S156x64 : Shape := ⟨2, ![156, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S2000x156 : S_.BroadcastsInDim S2000x156 (![] : Fin 0 → Fin S2000x156.rank)
  reducesTo_S2000x156_S_d0_1 : S2000x156.ReducesTo [0, 1] S_
  h_S_ : 0 < S_.numel
  bcast_S_S1000x156 : S_.BroadcastsInDim S1000x156 (![] : Fin 0 → Fin S1000x156.rank)
  reducesTo_S1000x156_S_d0_1 : S1000x156.ReducesTo [0, 1] S_
  bcast_S_S500x156 : S_.BroadcastsInDim S500x156 (![] : Fin 0 → Fin S500x156.rank)
  reducesTo_S500x156_S_d0_1 : S500x156.ReducesTo [0, 1] S_
  bcast_S_S156x64 : S_.BroadcastsInDim S156x64 (![] : Fin 0 → Fin S156x64.rank)
  reducesTo_S156x64_S_d0_1 : S156x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part4 {F : FTy → Type} [FloatOps F] (main_arg20 : FVec F S3 .f32) (main_arg21 : FVec F S3 .f32) (main_v63 : IVec S_ 1) (main_v67 : IVec S_ 1) : IVec S_ 1 :=
  let main_v68 : IVec S_ 1 := andi main_v63 main_v67
  let main_v69 : FVec F S3 .f32 := Host.absf main_arg20
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  let main_v74 : FVec F S3 .f32 := Host.absf main_arg21
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  main_v78

def fn_part3 {F : FTy → Type} [FloatOps F] (main_arg17 : FVec F S156x64 .f32) (main_arg18 : FVec F S64 .f32) (main_arg19 : FVec F S64x3 .f32) (main_arg20 : FVec F S3 .f32) (main_arg21 : FVec F S3 .f32) (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  let main_v54 : FVec F S156x64 .f32 := Host.absf main_arg17
  let main_cst_20 : FVec F S_ .f32 := constant S_ .f32 0x7F800000#32
  let main_v55 : FVec F S156x64 .f32 := broadcastInDim S156x64 ![] bcast_S_S156x64 main_cst_20
  let main_v56 : IVec S156x64 1 := cmpf .olt main_v54 main_v55
  let main_c_21 : IVec S_ 1 := constantI S_ 1 1#1
  let main_v57 : IVec S_ 1 := (fun x v => Host.reduce IntOp.andi x v reducesTo_S156x64_S_d0_1 h_S_) main_v56 main_c_21
  let main_v58 : IVec S_ 1 := andi main_v53 main_v57
  let main_v59 : FVec F S64 .f32 := Host.absf main_arg18
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x3 .f32 := Host.absf main_arg19
  let main_cst_24 : FVec F S_ .f32 := constant S_ .f32 0x7F800000#32
  let main_v65 : FVec F S64x3 .f32 := broadcastInDim S64x3 ![] bcast_S_S64x3 main_cst_24
  let main_v66 : IVec S64x3 1 := cmpf .olt main_v64 main_v65
  let main_c_25 : IVec S_ 1 := constantI S_ 1 1#1
  let main_v67 : IVec S_ 1 := (fun x v => Host.reduce IntOp.andi x v reducesTo_S64x3_S_d0_1 h_S_) main_v66 main_c_25
  fn_part4 (F := F) main_arg20 main_arg21 main_v63 main_v67

def fn_part2 {F : FTy → Type} [FloatOps F] (main_arg13 : FVec F S156x64 .f32) (main_arg14 : FVec F S64 .f32) (main_arg15 : FVec F S64x3 .f32) (main_arg16 : FVec F S3 .f32) (main_arg17 : FVec F S156x64 .f32) (main_arg18 : FVec F S64 .f32) (main_arg19 : FVec F S64x3 .f32) (main_arg20 : FVec F S3 .f32) (main_arg21 : FVec F S3 .f32) (main_v33 : IVec S_ 1) : IVec S_ 1 :=
  let main_v34 : FVec F S156x64 .f32 := Host.absf main_arg13
  let main_cst_12 : FVec F S_ .f32 := constant S_ .f32 0x7F800000#32
  let main_v35 : FVec F S156x64 .f32 := broadcastInDim S156x64 ![] bcast_S_S156x64 main_cst_12
  let main_v36 : IVec S156x64 1 := cmpf .olt main_v34 main_v35
  let main_c_13 : IVec S_ 1 := constantI S_ 1 1#1
  let main_v37 : IVec S_ 1 := (fun x v => Host.reduce IntOp.andi x v reducesTo_S156x64_S_d0_1 h_S_) main_v36 main_c_13
  let main_v38 : IVec S_ 1 := andi main_v33 main_v37
  let main_v39 : FVec F S64 .f32 := Host.absf main_arg14
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x3 .f32 := Host.absf main_arg15
  let main_cst_16 : FVec F S_ .f32 := constant S_ .f32 0x7F800000#32
  let main_v45 : FVec F S64x3 .f32 := broadcastInDim S64x3 ![] bcast_S_S64x3 main_cst_16
  let main_v46 : IVec S64x3 1 := cmpf .olt main_v44 main_v45
  let main_c_17 : IVec S_ 1 := constantI S_ 1 1#1
  let main_v47 : IVec S_ 1 := (fun x v => Host.reduce IntOp.andi x v reducesTo_S64x3_S_d0_1 h_S_) main_v46 main_c_17
  let main_v48 : IVec S_ 1 := andi main_v43 main_v47
  let main_v49 : FVec F S3 .f32 := Host.absf main_arg16
  let main_cst_18 : FVec F S_ .f32 := constant S_ .f32 0x7F800000#32
  let main_v50 : FVec F S3 .f32 := broadcastInDim S3 ![] bcast_S_S3 main_cst_18
  fn_part3 (F := F) main_arg17 main_arg18 main_arg19 main_arg20 main_arg21 main_v48 main_v49 main_v50

def fn_part1 {F : FTy → Type} [FloatOps F] (main_arg10 : FVec F S64 .f32) (main_arg11 : FVec F S64x3 .f32) (main_arg12 : FVec F S3 .f32) (main_arg13 : FVec F S156x64 .f32) (main_arg14 : FVec F S64 .f32) (main_arg15 : FVec F S64x3 .f32) (main_arg16 : FVec F S3 .f32) (main_arg17 : FVec F S156x64 .f32) (main_arg18 : FVec F S64 .f32) (main_arg19 : FVec F S64x3 .f32) (main_arg20 : FVec F S3 .f32) (main_arg21 : FVec F S3 .f32) (main_v13 : IVec S_ 1) (main_v16 : IVec S156x64 1) : IVec S_ 1 :=
  let main_c_5 : IVec S_ 1 := constantI S_ 1 1#1
  let main_v17 : IVec S_ 1 := (fun x v => Host.reduce IntOp.andi x v reducesTo_S156x64_S_d0_1 h_S_) main_v16 main_c_5
  let main_v18 : IVec S_ 1 := andi main_v13 main_v17
  let main_v19 : FVec F S64 .f32 := Host.absf main_arg10
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x3 .f32 := Host.absf main_arg11
  let main_cst_8 : FVec F S_ .f32 := constant S_ .f32 0x7F800000#32
  let main_v25 : FVec F S64x3 .f32 := broadcastInDim S64x3 ![] bcast_S_S64x3 main_cst_8
  let main_v26 : IVec S64x3 1 := cmpf .olt main_v24 main_v25
  let main_c_9 : IVec S_ 1 := constantI S_ 1 1#1
  let main_v27 : IVec S_ 1 := (fun x v => Host.reduce IntOp.andi x v reducesTo_S64x3_S_d0_1 h_S_) main_v26 main_c_9
  let main_v28 : IVec S_ 1 := andi main_v23 main_v27
  let main_v29 : FVec F S3 .f32 := Host.absf main_arg12
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg13 main_arg14 main_arg15 main_arg16 main_arg17 main_arg18 main_arg19 main_arg20 main_arg21 main_v33

def fn {F : FTy → Type} [FloatOps F] (main_arg0 : FVec F S2000x156 .f32) (main_arg1 : FVec F S1000x156 .f32) (main_arg2 : FVec F S500x156 .f32) (main_arg3 : IVec S2000x2000 32) (main_arg4 : IVec S1000x1000 32) (main_arg5 : IVec S500x500 32) (main_arg6 : IVec S1024x1024 32) (main_arg7 : IVec S1024x1024 32) (main_arg8 : IVec S1024x1024 32) (main_arg9 : FVec F S156x64 .f32) (main_arg10 : FVec F S64 .f32) (main_arg11 : FVec F S64x3 .f32) (main_arg12 : FVec F S3 .f32) (main_arg13 : FVec F S156x64 .f32) (main_arg14 : FVec F S64 .f32) (main_arg15 : FVec F S64x3 .f32) (main_arg16 : FVec F S3 .f32) (main_arg17 : FVec F S156x64 .f32) (main_arg18 : FVec F S64 .f32) (main_arg19 : FVec F S64x3 .f32) (main_arg20 : FVec F S3 .f32) (main_arg21 : FVec F S3 .f32) : IVec S_ 1 :=
  let main_v0 : FVec F S2000x156 .f32 := Host.absf main_arg0
  let main_cst : FVec F S_ .f32 := constant S_ .f32 0x7F800000#32
  let main_v1 : FVec F S2000x156 .f32 := broadcastInDim S2000x156 ![] bcast_S_S2000x156 main_cst
  let main_v2 : IVec S2000x156 1 := cmpf .olt main_v0 main_v1
  let main_c : IVec S_ 1 := constantI S_ 1 1#1
  let main_v3 : IVec S_ 1 := (fun x v => Host.reduce IntOp.andi x v reducesTo_S2000x156_S_d0_1 h_S_) main_v2 main_c
  let main_v4 : FVec F S1000x156 .f32 := Host.absf main_arg1
  let main_cst_0 : FVec F S_ .f32 := constant S_ .f32 0x7F800000#32
  let main_v5 : FVec F S1000x156 .f32 := broadcastInDim S1000x156 ![] bcast_S_S1000x156 main_cst_0
  let main_v6 : IVec S1000x156 1 := cmpf .olt main_v4 main_v5
  let main_c_1 : IVec S_ 1 := constantI S_ 1 1#1
  let main_v7 : IVec S_ 1 := (fun x v => Host.reduce IntOp.andi x v reducesTo_S1000x156_S_d0_1 h_S_) main_v6 main_c_1
  let main_v8 : IVec S_ 1 := andi main_v3 main_v7
  let main_v9 : FVec F S500x156 .f32 := Host.absf main_arg2
  let main_cst_2 : FVec F S_ .f32 := constant S_ .f32 0x7F800000#32
  let main_v10 : FVec F S500x156 .f32 := broadcastInDim S500x156 ![] bcast_S_S500x156 main_cst_2
  let main_v11 : IVec S500x156 1 := cmpf .olt main_v9 main_v10
  let main_c_3 : IVec S_ 1 := constantI S_ 1 1#1
  let main_v12 : IVec S_ 1 := (fun x v => Host.reduce IntOp.andi x v reducesTo_S500x156_S_d0_1 h_S_) main_v11 main_c_3
  let main_v13 : IVec S_ 1 := andi main_v8 main_v12
  let main_v14 : FVec F S156x64 .f32 := Host.absf main_arg9
  let main_cst_4 : FVec F S_ .f32 := constant S_ .f32 0x7F800000#32
  let main_v15 : FVec F S156x64 .f32 := broadcastInDim S156x64 ![] bcast_S_S156x64 main_cst_4
  let main_v16 : IVec S156x64 1 := cmpf .olt main_v14 main_v15
  fn_part1 (F := F) main_arg10 main_arg11 main_arg12 main_arg13 main_arg14 main_arg15 main_arg16 main_arg17 main_arg18 main_arg19 main_arg20 main_arg21 main_v13 main_v16
-- ==== Kernel.lean ====
abbrev S2000x156 : Shape := ⟨2, ![2000, 156]⟩
abbrev S1000x156 : Shape := ⟨2, ![1000, 156]⟩
abbrev S500x156 : Shape := ⟨2, ![500, 156]⟩
abbrev S2000x2000 : Shape := ⟨2, ![2000, 2000]⟩
abbrev S1000x1000 : Shape := ⟨2, ![1000, 1000]⟩
abbrev S500x500 : Shape := ⟨2, ![500, 500]⟩
abbrev S1024x1024 : Shape := ⟨2, ![1024, 1024]⟩
abbrev S156x64 : Shape := ⟨2, ![156, 64]⟩
abbrev S64 : Shape := ⟨1, ![64]⟩
abbrev S64x3 : Shape := ⟨2, ![64, 3]⟩
abbrev S3 : Shape := ⟨1, ![3]⟩
abbrev S2000x64 : Shape := ⟨2, ![2000, 64]⟩
abbrev S1x64 : Shape := ⟨2, ![1, 64]⟩
abbrev S400x64 : Shape := ⟨2, ![400, 64]⟩
abbrev S400x2000 : Shape := ⟨2, ![400, 2000]⟩
abbrev S400 : Shape := ⟨1, ![400]⟩
abbrev S400x1 : Shape := ⟨2, ![400, 1]⟩
abbrev S2000x3 : Shape := ⟨2, ![2000, 3]⟩
abbrev S1x3 : Shape := ⟨2, ![1, 3]⟩
abbrev S400x3 : Shape := ⟨2, ![400, 3]⟩
abbrev S_ : Shape := ⟨0, ![]⟩
abbrev S2000 : Shape := ⟨1, ![2000]⟩
abbrev S2000x1 : Shape := ⟨2, ![2000, 1]⟩
abbrev S1024x1024x1 : Shape := ⟨3, ![1024, 1024, 1]⟩
abbrev S1024x1024x3 : Shape := ⟨3, ![1024, 1024, 3]⟩
abbrev S1000x64 : Shape := ⟨2, ![1000, 64]⟩
abbrev S200x64 : Shape := ⟨2, ![200, 64]⟩
abbrev S200x1000 : Shape := ⟨2, ![200, 1000]⟩
abbrev S200 : Shape := ⟨1, ![200]⟩
abbrev S200x1 : Shape := ⟨2, ![200, 1]⟩
abbrev S1000x3 : Shape := ⟨2, ![1000, 3]⟩
abbrev S200x3 : Shape := ⟨2, ![200, 3]⟩
abbrev S1000 : Shape := ⟨1, ![1000]⟩
abbrev S1000x1 : Shape := ⟨2, ![1000, 1]⟩
abbrev S500x64 : Shape := ⟨2, ![500, 64]⟩
abbrev S500 : Shape := ⟨1, ![500]⟩
abbrev S500x1 : Shape := ⟨2, ![500, 1]⟩
abbrev S500x3 : Shape := ⟨2, ![500, 3]⟩
abbrev S1 : Shape := ⟨1, ![1]⟩
abbrev S1024x3072 : Shape := ⟨2, ![1024, 3072]⟩
abbrev S128x3072 : Shape := ⟨2, ![128, 3072]⟩

abbrev nBuf : Space → Nat
  | .hbm => 130
  | .vmem => 69
  | .smem => 0
  | _ => 0

abbrev hbmTy0_0 (i : Nat) : BufTy := match i % 128 with
  | 0 => ⟨S2000x156, .f32⟩
  | 1 => ⟨S1000x156, .f32⟩
  | 2 => ⟨S500x156, .f32⟩
  | 3 => ⟨S2000x2000, .i32⟩
  | 4 => ⟨S1000x1000, .i32⟩
  | 5 => ⟨S500x500, .i32⟩
  | 6 => ⟨S1024x1024, .i32⟩
  | 7 => ⟨S1024x1024, .i32⟩
  | 8 => ⟨S1024x1024, .i32⟩
  | 9 => ⟨S156x64, .f32⟩
  | 10 => ⟨S64, .f32⟩
  | 11 => ⟨S64x3, .f32⟩
  | 12 => ⟨S3, .f32⟩
  | 13 => ⟨S156x64, .f32⟩
  | 14 => ⟨S64, .f32⟩
  | 15 => ⟨S64x3, .f32⟩
  | 16 => ⟨S3, .f32⟩
  | 17 => ⟨S156x64, .f32⟩
  | 18 => ⟨S64, .f32⟩
  | 19 => ⟨S64x3, .f32⟩
  | 20 => ⟨S3, .f32⟩
  | 21 => ⟨S3, .f32⟩
  | 22 => ⟨S2000x64, .f32⟩
  | 23 => ⟨S2000x64, .f32⟩
  | 24 => ⟨S2000x3, .f32⟩
  | 25 => ⟨S2000x3, .f32⟩
  | 26 => ⟨S_, .f32⟩
  | 27 => ⟨S2000x3, .f32⟩
  | 28 => ⟨S2000x3, .f32⟩
  | 29 => ⟨S_, .f32⟩
  | 30 => ⟨S2000, .f32⟩
  | 31 => ⟨S_, .f32⟩
  | 32 => ⟨S2000, .f32⟩
  | 33 => ⟨S2000, .f32⟩
  | 34 => ⟨S2000x1, .f32⟩
  | 35 => ⟨S2000x3, .f32⟩
  | 36 => ⟨S2000x3, .f32⟩
  | 37 => ⟨S2000x3, .f32⟩
  | 38 => ⟨S_, .f32⟩
  | 39 => ⟨S2000, .f32⟩
  | 40 => ⟨S2000x1, .f32⟩
  | 41 => ⟨S2000x3, .f32⟩
  | 42 => ⟨S2000x3, .f32⟩
  | 43 => ⟨S_, .i32⟩
  | 44 => ⟨S1024x1024, .i32⟩
  | 45 => ⟨S1024x1024, .i1⟩
  | 46 => ⟨S_, .i32⟩
  | 47 => ⟨S1024x1024, .i32⟩
  | 48 => ⟨S1024x1024, .i32⟩
  | 49 => ⟨S1024x1024, .i32⟩
  | 50 => ⟨S1024x1024x1, .i32⟩
  | 51 => ⟨S1024x1024x3, .f32⟩
  | 52 => ⟨S1000x64, .f32⟩
  | 53 => ⟨S1000x64, .f32⟩
  | 54 => ⟨S1000x3, .f32⟩
  | 55 => ⟨S1000x3, .f32⟩
  | 56 => ⟨S_, .f32⟩
  | 57 => ⟨S1000x3, .f32⟩
  | 58 => ⟨S1000x3, .f32⟩
  | 59 => ⟨S_, .f32⟩
  | 60 => ⟨S1000, .f32⟩
  | 61 => ⟨S_, .f32⟩
  | 62 => ⟨S1000, .f32⟩
  | 63 => ⟨S1000, .f32⟩
  | 64 => ⟨S1000x1, .f32⟩
  | 65 => ⟨S1000x3, .f32⟩
  | 66 => ⟨S1000x3, .f32⟩
  | 67 => ⟨S1000x3, .f32⟩
  | 68 => ⟨S_, .f32⟩
  | 69 => ⟨S1000, .f32⟩
  | 70 => ⟨S1000x1, .f32⟩
  | 71 => ⟨S1000x3, .f32⟩
  | 72 => ⟨S1000x3, .f32⟩
  | 73 => ⟨S_, .i32⟩
  | 74 => ⟨S1024x1024, .i32⟩
  | 75 => ⟨S1024x1024, .i1⟩
  | 76 => ⟨S_, .i32⟩
  | 77 => ⟨S1024x1024, .i32⟩
  | 78 => ⟨S1024x1024, .i32⟩
  | 79 => ⟨S1024x1024, .i32⟩
  | 80 => ⟨S1024x1024x1, .i32⟩
  | 81 => ⟨S1024x1024x3, .f32⟩
  | 82 => ⟨S500x64, .f32⟩
  | 83 => ⟨S500x64, .f32⟩
  | 84 => ⟨S500x3, .f32⟩
  | 85 => ⟨S500x3, .f32⟩
  | 86 => ⟨S_, .f32⟩
  | 87 => ⟨S500x3, .f32⟩
  | 88 => ⟨S500x3, .f32⟩
  | 89 => ⟨S_, .f32⟩
  | 90 => ⟨S500, .f32⟩
  | 91 => ⟨S_, .f32⟩
  | 92 => ⟨S500, .f32⟩
  | 93 => ⟨S500, .f32⟩
  | 94 => ⟨S500x1, .f32⟩
  | 95 => ⟨S500x3, .f32⟩
  | 96 => ⟨S500x3, .f32⟩
  | 97 => ⟨S500x3, .f32⟩
  | 98 => ⟨S_, .f32⟩
  | 99 => ⟨S500, .f32⟩
  | 100 => ⟨S500x1, .f32⟩
  | 101 => ⟨S500x3, .f32⟩
  | 102 => ⟨S500x3, .f32⟩
  | 103 => ⟨S_, .i32⟩
  | 104 => ⟨S1024x1024, .i32⟩
  | 105 => ⟨S1024x1024, .i1⟩
  | 106 => ⟨S_, .i32⟩
  | 107 => ⟨S1024x1024, .i32⟩
  | 108 => ⟨S1024x1024, .i32⟩
  | 109 => ⟨S1024x1024, .i32⟩
  | 110 => ⟨S1024x1024x1, .i32⟩
  | 111 => ⟨S1024x1024x3, .f32⟩
  | 112 => ⟨S_, .f32⟩
  | 113 => ⟨S_, .f32⟩
  | 114 => ⟨S_, .f32⟩
  | 115 => ⟨S_, .f32⟩
  | 116 => ⟨S1, .f32⟩
  | 117 => ⟨S3, .f32⟩
  | 118 => ⟨S3, .f32⟩
  | 119 => ⟨S3, .f32⟩
  | 120 => ⟨S_, .f32⟩
  | 121 => ⟨S_, .f32⟩
  | 122 => ⟨S1, .f32⟩
  | 123 => ⟨S3, .f32⟩
  | 124 => ⟨S3, .f32⟩
  | 125 => ⟨S1024x3072, .f32⟩
  | 126 => ⟨S1024x3072, .f32⟩
  | 127 => ⟨S1024x3072, .f32⟩
  | _ => ⟨S2000x156, .f32⟩

abbrev hbmTy0_1 (i : Nat) : BufTy := match i % 128 with
  | 0 => ⟨S1024x3072, .f32⟩
  | 1 => ⟨S1024x1024x3, .f32⟩
  | _ => ⟨S2000x156, .f32⟩

abbrev hbmTy (i : Nat) : BufTy := match i / 128 with
  | 0 => hbmTy0_0 i
  | 1 => hbmTy0_1 i
  | _ => ⟨S2000x156, .f32⟩

abbrev bufTy : (tb : Table) → Fin (tcTables nBuf tb) → BufTy
  | .hbm, ⟨i, _⟩ => hbmTy i
  | .local _ .vmem, ⟨0, _⟩ => ⟨S2000x156, .f32⟩
  | .local _ .vmem, ⟨1, _⟩ => ⟨S156x64, .f32⟩
  | .local _ .vmem, ⟨2, _⟩ => ⟨S64, .f32⟩
  | .local _ .vmem, ⟨3, _⟩ => ⟨S2000x64, .f32⟩
  | .local _ .vmem, ⟨4, _⟩ => ⟨S400x64, .f32⟩
  | .local _ .vmem, ⟨5, _⟩ => ⟨S400x64, .f32⟩
  | .local _ .vmem, ⟨6, _⟩ => ⟨S2000x64, .f32⟩
  | .local _ .vmem, ⟨7, _⟩ => ⟨S400x2000, .i32⟩
  | .local _ .vmem, ⟨8, _⟩ => ⟨S400x2000, .i32⟩
  | .local _ .vmem, ⟨9, _⟩ => ⟨S400x64, .f32⟩
  | .local _ .vmem, ⟨10, _⟩ => ⟨S400x64, .f32⟩
  | .local _ .vmem, ⟨11, _⟩ => ⟨S2000x64, .f32⟩
  | .local _ .vmem, ⟨12, _⟩ => ⟨S64x3, .f32⟩
  | .local _ .vmem, ⟨13, _⟩ => ⟨S3, .f32⟩
  | .local _ .vmem, ⟨14, _⟩ => ⟨S2000x3, .f32⟩
  | .local _ .vmem, ⟨15, _⟩ => ⟨S400x3, .f32⟩
  | .local _ .vmem, ⟨16, _⟩ => ⟨S400x3, .f32⟩
  | .local _ .vmem, ⟨17, _⟩ => ⟨S2000x3, .f32⟩
  | .local _ .vmem, ⟨18, _⟩ => ⟨S400x2000, .i32⟩
  | .local _ .vmem, ⟨19, _⟩ => ⟨S400x2000, .i32⟩
  | .local _ .vmem, ⟨20, _⟩ => ⟨S400x3, .f32⟩
  | .local _ .vmem, ⟨21, _⟩ => ⟨S400x3, .f32⟩
  | .local _ .vmem, ⟨22, _⟩ => ⟨S1000x156, .f32⟩
  | .local _ .vmem, ⟨23, _⟩ => ⟨S156x64, .f32⟩
  | .local _ .vmem, ⟨24, _⟩ => ⟨S64, .f32⟩
  | .local _ .vmem, ⟨25, _⟩ => ⟨S1000x64, .f32⟩
  | .local _ .vmem, ⟨26, _⟩ => ⟨S200x64, .f32⟩
  | .local _ .vmem, ⟨27, _⟩ => ⟨S200x64, .f32⟩
  | .local _ .vmem, ⟨28, _⟩ => ⟨S1000x64, .f32⟩
  | .local _ .vmem, ⟨29, _⟩ => ⟨S200x1000, .i32⟩
  | .local _ .vmem, ⟨30, _⟩ => ⟨S200x1000, .i32⟩
  | .local _ .vmem, ⟨31, _⟩ => ⟨S200x64, .f32⟩
  | .local _ .vmem, ⟨32, _⟩ => ⟨S200x64, .f32⟩
  | .local _ .vmem, ⟨33, _⟩ => ⟨S1000x64, .f32⟩
  | .local _ .vmem, ⟨34, _⟩ => ⟨S64x3, .f32⟩
  | .local _ .vmem, ⟨35, _⟩ => ⟨S3, .f32⟩
  | .local _ .vmem, ⟨36, _⟩ => ⟨S1000x3, .f32⟩
  | .local _ .vmem, ⟨37, _⟩ => ⟨S200x3, .f32⟩
  | .local _ .vmem, ⟨38, _⟩ => ⟨S200x3, .f32⟩
  | .local _ .vmem, ⟨39, _⟩ => ⟨S1000x3, .f32⟩
  | .local _ .vmem, ⟨40, _⟩ => ⟨S200x1000, .i32⟩
  | .local _ .vmem, ⟨41, _⟩ => ⟨S200x1000, .i32⟩
  | .local _ .vmem, ⟨42, _⟩ => ⟨S200x3, .f32⟩
  | .local _ .vmem, ⟨43, _⟩ => ⟨S200x3, .f32⟩
  | .local _ .vmem, ⟨44, _⟩ => ⟨S500x156, .f32⟩
  | .local _ .vmem, ⟨45, _⟩ => ⟨S156x64, .f32⟩
  | .local _ .vmem, ⟨46, _⟩ => ⟨S64, .f32⟩
  | .local _ .vmem, ⟨47, _⟩ => ⟨S500x64, .f32⟩
  | .local _ .vmem, ⟨48, _⟩ => ⟨S500x64, .f32⟩
  | .local _ .vmem, ⟨49, _⟩ => ⟨S500x64, .f32⟩
  | .local _ .vmem, ⟨50, _⟩ => ⟨S500x500, .i32⟩
  | .local _ .vmem, ⟨51, _⟩ => ⟨S500x64, .f32⟩
  | .local _ .vmem, ⟨52, _⟩ => ⟨S500x64, .f32⟩
  | .local _ .vmem, ⟨53, _⟩ => ⟨S64x3, .f32⟩
  | .local _ .vmem, ⟨54, _⟩ => ⟨S3, .f32⟩
  | .local _ .vmem, ⟨55, _⟩ => ⟨S500x3, .f32⟩
  | .local _ .vmem, ⟨56, _⟩ => ⟨S500x3, .f32⟩
  | .local _ .vmem, ⟨57, _⟩ => ⟨S500x3, .f32⟩
  | .local _ .vmem, ⟨58, _⟩ => ⟨S500x500, .i32⟩
  | .local _ .vmem, ⟨59, _⟩ => ⟨S500x3, .f32⟩
  | .local _ .vmem, ⟨60, _⟩ => ⟨S128x3072, .f32⟩
  | .local _ .vmem, ⟨61, _⟩ => ⟨S128x3072, .f32⟩
  | .local _ .vmem, ⟨62, _⟩ => ⟨S128x3072, .f32⟩
  | .local _ .vmem, ⟨63, _⟩ => ⟨S128x3072, .f32⟩
  | .local _ .vmem, ⟨64, _⟩ => ⟨S128x3072, .f32⟩
  | .local _ .vmem, ⟨65, _⟩ => ⟨S128x3072, .f32⟩
  | .local _ .vmem, ⟨66, _⟩ => ⟨S3, .f32⟩
  | .local _ .vmem, ⟨67, _⟩ => ⟨S128x3072, .f32⟩
  | .local _ .vmem, ⟨68, _⟩ => ⟨S128x3072, .f32⟩
  | _, _ => ⟨S2000x156, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_call0_cst : Ref sig .tc := ⟨.hbm, 26, rfl⟩
abbrev main_call0_v0 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_cst_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_1 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call1_cst : Ref sig .tc := ⟨.hbm, 56, rfl⟩
abbrev main_call1_v0 : Ref sig .tc := ⟨.hbm, 57, rfl⟩
abbrev main_v27 : Ref sig .tc := ⟨.hbm, 58, rfl⟩
abbrev main_cst_3 : Ref sig .tc := ⟨.hbm, 59, rfl⟩
abbrev main_v28 : Ref sig .tc := ⟨.hbm, 60, rfl⟩
abbrev main_cst_4 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_cst_5 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_6 : Ref sig .tc := ⟨.hbm, 73, rfl⟩
abbrev main_v39 : Ref sig .tc := ⟨.hbm, 74, rfl⟩
abbrev main_v40 : Ref sig .tc := ⟨.hbm, 75, rfl⟩
abbrev main_c_7 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_call2_cst : Ref sig .tc := ⟨.hbm, 86, rfl⟩
abbrev main_call2_v0 : Ref sig .tc := ⟨.hbm, 87, rfl⟩
abbrev main_v50 : Ref sig .tc := ⟨.hbm, 88, rfl⟩
abbrev main_cst_8 : Ref sig .tc := ⟨.hbm, 89, rfl⟩
abbrev main_v51 : Ref sig .tc := ⟨.hbm, 90, rfl⟩
abbrev main_cst_9 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_10 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_11 : Ref sig .tc := ⟨.hbm, 103, rfl⟩
abbrev main_v62 : Ref sig .tc := ⟨.hbm, 104, rfl⟩
abbrev main_v63 : Ref sig .tc := ⟨.hbm, 105, rfl⟩
abbrev main_c_12 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_13 : Ref sig .tc := ⟨.hbm, 112, rfl⟩
abbrev main_v69 : Ref sig .tc := ⟨.hbm, 113, rfl⟩
abbrev main_cst_14 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_15 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg1_0 : Ref sig .tc := ⟨.vmem, 34, rfl⟩
abbrev cc6_stg2_0 : Ref sig .tc := ⟨.vmem, 35, rfl⟩
abbrev cc6_stg3_0 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg2_0 : Ref sig .tc := ⟨.vmem, 40, rfl⟩
abbrev cc7_stg2_1 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc9_stg0_0 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg3_0 : Ref sig .tc := ⟨.vmem, 51, rfl⟩
abbrev cc10_stg0_0 : Ref sig .tc := ⟨.vmem, 52, rfl⟩
abbrev cc10_stg1_0 : Ref sig .tc := ⟨.vmem, 53, rfl⟩
abbrev cc10_stg2_0 : Ref sig .tc := ⟨.vmem, 54, rfl⟩
abbrev cc10_stg3_0 : Ref sig .tc := ⟨.vmem, 55, rfl⟩
abbrev cc11_stg0_0 : Ref sig .tc := ⟨.vmem, 56, rfl⟩
abbrev cc11_stg1_0 : Ref sig .tc := ⟨.vmem, 57, rfl⟩
abbrev cc11_stg2_0 : Ref sig .tc := ⟨.vmem, 58, rfl⟩
abbrev cc11_stg3_0 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg1_1 : Ref sig .tc := ⟨.vmem, 63, rfl⟩
abbrev cc12_stg2_0 : Ref sig .tc := ⟨.vmem, 64, rfl⟩
abbrev cc12_stg2_1 : Ref sig .tc := ⟨.vmem, 65, rfl⟩
abbrev cc12_stg3_0 : Ref sig .tc := ⟨.vmem, 66, rfl⟩
abbrev cc12_stg4_0 : Ref sig .tc := ⟨.vmem, 67, rfl⟩
abbrev cc12_stg4_1 : Ref sig .tc := ⟨.vmem, 68, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13
abbrev cc2_sem3_0 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem1_0 : DmaSem sig := 23
abbrev cc4_sem2_0 : DmaSem sig := 24
abbrev cc4_sem3_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc5_sem3_0 : DmaSem sig := 31
abbrev cc5_sem3_1 : DmaSem sig := 32
abbrev cc6_sem0_0 : DmaSem sig := 33
abbrev cc6_sem1_0 : DmaSem sig := 34
abbrev cc6_sem2_0 : DmaSem sig := 35
abbrev cc6_sem3_0 : DmaSem sig := 36
abbrev cc7_sem0_0 : DmaSem sig := 37
abbrev cc7_sem0_1 : DmaSem sig := 38
abbrev cc7_sem1_0 : DmaSem sig := 39
abbrev cc7_sem2_0 : DmaSem sig := 40
abbrev cc7_sem2_1 : DmaSem sig := 41
abbrev cc7_sem3_0 : DmaSem sig := 42
abbrev cc7_sem3_1 : DmaSem sig := 43
abbrev cc8_sem0_0 : DmaSem sig := 44
abbrev cc8_sem1_0 : DmaSem sig := 45
abbrev cc8_sem2_0 : DmaSem sig := 46
abbrev cc8_sem3_0 : DmaSem sig := 47
abbrev cc9_sem0_0 : DmaSem sig := 48
abbrev cc9_sem1_0 : DmaSem sig := 49
abbrev cc9_sem2_0 : DmaSem sig := 50
abbrev cc9_sem3_0 : DmaSem sig := 51
abbrev cc10_sem0_0 : DmaSem sig := 52
abbrev cc10_sem1_0 : DmaSem sig := 53
abbrev cc10_sem2_0 : DmaSem sig := 54
abbrev cc10_sem3_0 : DmaSem sig := 55
abbrev cc11_sem0_0 : DmaSem sig := 56
abbrev cc11_sem1_0 : DmaSem sig := 57
abbrev cc11_sem2_0 : DmaSem sig := 58
abbrev cc11_sem3_0 : DmaSem sig := 59
abbrev cc12_sem0_0 : DmaSem sig := 60
abbrev cc12_sem0_1 : DmaSem sig := 61
abbrev cc12_sem1_0 : DmaSem sig := 62
abbrev cc12_sem1_1 : DmaSem sig := 63
abbrev cc12_sem2_0 : DmaSem sig := 64
abbrev cc12_sem2_1 : DmaSem sig := 65
abbrev cc12_sem3_0 : DmaSem sig := 66
abbrev cc12_sem4_0 : DmaSem sig := 67
abbrev cc12_sem4_1 : DmaSem sig := 68

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2000x156 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S156x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2000x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x2000 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2000x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2000x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x2000 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x3 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1000x156 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S156x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1000x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1000x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S200x1000 .i32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S200x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S1000x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S64x3 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S3 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1000x3 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S200x3 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1000x3 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S200x1000 .i32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S200x3 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S500x156 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S156x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S500x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S500x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S500x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S500x500 .i32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev stage9_3 : Fin 1 → Memref sig .tc .vmem S500x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 1 → Memref sig .tc .vmem S500x64 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![false]

abbrev stage10_1 : Fin 1 → Memref sig .tc .vmem S64x3 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S3 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S500x3 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S500x3 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S500x3 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S500x500 .i32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![true]

abbrev stage11_3 : Fin 1 → Memref sig .tc .vmem S500x3 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 1 → Nat :=
  let arg0 : BitVec 32 := BitVec.ofNat 32 (i 0).val
  let c0_i32 : BitVec 32 := 0#32
  let c0_i32_0 : BitVec 32 := 0#32
  ![c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S128x3072 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S128x3072 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S128x3072 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S3 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S128x3072 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

class Facts₀ : Prop where
  inb_S2000x156_S2000x156_0_0 : ∀ a, (![0, 0] : Fin 2 → Nat) a + S2000x156.size a ≤ S2000x156.size a
  h_S2000x156 : 0 < S2000x156.numel
  bitsLt_bf16_f32 : FTy.bits .bf16 < FTy.bits .f32
  inb_S156x64_S156x64_0_0 : ∀ a, (![0, 0] : Fin 2 → Nat) a + S156x64.size a ≤ S156x64.size a
  h_S156x64 : 0 < S156x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S400x64_S400x64_0_0 : ∀ a, (![0, 0] : Fin 2 → Nat) a + S400x64.size a ≤ S400x64.size a
  h_S400x64 : 0 < S400x64.numel
  shapeCasts_S400x64_S400x64 : S400x64.ShapeCasts S400x64
  shapeCasts_S2000x64_S2000x64 : S2000x64.ShapeCasts S2000x64
  inb_S400x2000_S400x2000_0_0 : ∀ a, (![0, 0] : Fin 2 → Nat) a + S400x2000.size a ≤ S400x2000.size a
  h_S400x2000 : 0 < S400x2000.numel
  reduces_S400x2000_S400 : S400x2000.Reduces [1] S400
  shapeCasts_S400_S400x1 : S400.ShapeCasts S400x1
  broadcasts_S400x1_S400x2000 : S400x1.Broadcasts S400x2000
  inb_S64x3_S64x3_0_0 : ∀ a, (![0, 0] : Fin 2 → Nat) a + S64x3.size a ≤ S64x3.size a
  h_S64x3 : 0 < S64x3.numel
  inb_S3_S3_0 : ∀ a, (![0] : Fin 1 → Nat) a + S3.size a ≤ S3.size a
  h_S3 : 0 < S3.numel
  shapeCasts_S3_S1x3 : S3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  inb_S400x3_S400x3_0_0 : ∀ a, (![0, 0] : Fin 2 → Nat) a + S400x3.size a ≤ S400x3.size a
  h_S400x3 : 0 < S400x3.numel
  shapeCasts_S400x3_S400x3 : S400x3.ShapeCasts S400x3
  shapeCasts_S2000x3_S2000x3 : S2000x3.ShapeCasts S2000x3
  bcast_S_S2000x3 : S_.BroadcastsInDim S2000x3 (![] : Fin 0 → Fin S2000x3.rank)
  reducesTo_S2000x3_S2000_d1 : S2000x3.ReducesTo [1] S2000
  h_S_ : 0 < S_.numel
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x3_0_1 : S2000x1.BroadcastsInDim S2000x3 (![0, 1] : Fin 2 → Fin S2000x3.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  inb_S1000x156_S1000x156_0_0 : ∀ a, (![0, 0] : Fin 2 → Nat) a + S1000x156.size a ≤ S1000x156.size a
  h_S1000x156 : 0 < S1000x156.numel
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  inb_S200x64_S200x64_0_0 : ∀ a, (![0, 0] : Fin 2 → Nat) a + S200x64.size a ≤ S200x64.size a
  h_S200x64 : 0 < S200x64.numel
  shapeCasts_S200x64_S200x64 : S200x64.ShapeCasts S200x64
  shapeCasts_S1000x64_S1000x64 : S1000x64.ShapeCasts S1000x64
  inb_S200x1000_S200x1000_0_0 : ∀ a, (![0, 0] : Fin 2 → Nat) a + S200x1000.size a ≤ S200x1000.size a
  h_S200x1000 : 0 < S200x1000.numel
  reduces_S200x1000_S200 : S200x1000.Reduces [1] S200
  shapeCasts_S200_S200x1 : S200.ShapeCasts S200x1
  broadcasts_S200x1_S200x1000 : S200x1.Broadcasts S200x1000
  broadcasts_S1x3_S1000x3 : S1x3.Broadcasts S1000x3
  inb_S1000x3_S1000x3_0_0 : ∀ a, (![0, 0] : Fin 2 → Nat) a + S1000x3.size a ≤ S1000x3.size a
  h_S1000x3 : 0 < S1000x3.numel
  inb_S200x3_S200x3_0_0 : ∀ a, (![0, 0] : Fin 2 → Nat) a + S200x3.size a ≤ S200x3.size a
  h_S200x3 : 0 < S200x3.numel
  shapeCasts_S200x3_S200x3 : S200x3.ShapeCasts S200x3
  shapeCasts_S1000x3_S1000x3 : S1000x3.ShapeCasts S1000x3
  bcast_S_S1000x3 : S_.BroadcastsInDim S1000x3 (![] : Fin 0 → Fin S1000x3.rank)
  reducesTo_S1000x3_S1000_d1 : S1000x3.ReducesTo [1] S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x3_0_1 : S1000x1.BroadcastsInDim S1000x3 (![0, 1] : Fin 2 → Fin S1000x3.rank)
  inb_S500x156_S500x156_0_0 : ∀ a, (![0, 0] : Fin 2 → Nat) a + S500x156.size a ≤ S500x156.size a
  h_S500x156 : 0 < S500x156.numel
  broadcasts_S1x64_S500x64 : S1x64.Broadcasts S500x64
  inb_S500x64_S500x64_0_0 : ∀ a, (![0, 0] : Fin 2 → Nat) a + S500x64.size a ≤ S500x64.size a
  h_S500x64 : 0 < S500x64.numel
  shapeCasts_S500x64_S500x64 : S500x64.ShapeCasts S500x64
  inb_S500x500_S500x500_0_0 : ∀ a, (![0, 0] : Fin 2 → Nat) a + S500x500.size a ≤ S500x500.size a
  h_S500x500 : 0 < S500x500.numel
  reduces_S500x500_S500 : S500x500.Reduces [1] S500
  shapeCasts_S500_S500x1 : S500.ShapeCasts S500x1
  broadcasts_S500x1_S500x500 : S500x1.Broadcasts S500x500
  broadcasts_S1x3_S500x3 : S1x3.Broadcasts S500x3
  inb_S500x3_S500x3_0_0 : ∀ a, (![0, 0] : Fin 2 → Nat) a + S500x3.size a ≤ S500x3.size a
  h_S500x3 : 0 < S500x3.numel
  shapeCasts_S500x3_S500x3 : S500x3.ShapeCasts S500x3
  bcast_S_S500x3 : S_.BroadcastsInDim S500x3 (![] : Fin 0 → Fin S500x3.rank)
  reducesTo_S500x3_S500_d1 : S500x3.ReducesTo [1] S500
  bcast_S_S500 : S_.BroadcastsInDim S500 (![] : Fin 0 → Fin S500.rank)
  bcast_S500_S500x1_0 : S500.BroadcastsInDim S500x1 (![0] : Fin 1 → Fin S500x1.rank)
  bcast_S500x1_S500x3_0_1 : S500x1.BroadcastsInDim S500x3 (![0, 1] : Fin 2 → Fin S500x3.rank)
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  shapeCasts_S1024x1024x3_S1024x3072 : S1024x1024x3.ShapeCasts S1024x3072
  shapeCasts_S3_S3 : S3.ShapeCasts S3
  slices_S3_o0_S1 : S3.Slices ![0] S1
  inpos_S1_p0 : ∀ a, (![0] : Fin 1 → Nat) a < S1.size a
  slices_S3_o1_S1 : S3.Slices ![1] S1
  slices_S3_o2_S1 : S3.Slices ![2] S1
  inb_S128x3072_S128x3072_0_0 : ∀ a, (![0, 0] : Fin 2 → Nat) a + S128x3072.size a ≤ S128x3072.size a
  h_S128x3072 : 0 < S128x3072.numel
  shapeCasts_S128x3072_S128x3072 : S128x3072.ShapeCasts S128x3072
  shapeCasts_S1024x3072_S1024x1024x3 : S1024x3072.ShapeCasts S1024x1024x3
  dot_S2000x156_S156x64_S2000x64_1_0_0_1_n_n_wf : DotDims.WF S2000x156 S156x64 S2000x64 [1] [0] [0] [1] [] []
  dot_S400x64_S2000x64_S400x2000_1_1_0_0_n_n_wf : DotDims.WF S400x64 S2000x64 S400x2000 [1] [1] [0] [0] [] []
  dot_S400x2000_S2000x64_S400x64_1_0_0_1_n_n_wf : DotDims.WF S400x2000 S2000x64 S400x64 [1] [0] [0] [1] [] []
  dot_S2000x64_S64x3_S2000x3_1_0_0_1_n_n_wf : DotDims.WF S2000x64 S64x3 S2000x3 [1] [0] [0] [1] [] []
  dot_S400x3_S2000x3_S400x2000_1_1_0_0_n_n_wf : DotDims.WF S400x3 S2000x3 S400x2000 [1] [1] [0] [0] [] []
  dot_S400x2000_S2000x3_S400x3_1_0_0_1_n_n_wf : DotDims.WF S400x2000 S2000x3 S400x3 [1] [0] [0] [1] [] []
  gather_S2000x3_S1024x1024x1_S1024x1024x3_2_0_n_n_0_2_13_wf : GatherDims.WF S2000x3 S1024x1024x1 S1024x1024x3 [2] [0] [] [0] [] 2 ![1, 3]
  dot_S1000x156_S156x64_S1000x64_1_0_0_1_n_n_wf : DotDims.WF S1000x156 S156x64 S1000x64 [1] [0] [0] [1] [] []
  dot_S200x64_S1000x64_S200x1000_1_1_0_0_n_n_wf : DotDims.WF S200x64 S1000x64 S200x1000 [1] [1] [0] [0] [] []
  dot_S200x1000_S1000x64_S200x64_1_0_0_1_n_n_wf : DotDims.WF S200x1000 S1000x64 S200x64 [1] [0] [0] [1] [] []
  dot_S1000x64_S64x3_S1000x3_1_0_0_1_n_n_wf : DotDims.WF S1000x64 S64x3 S1000x3 [1] [0] [0] [1] [] []
  dot_S200x3_S1000x3_S200x1000_1_1_0_0_n_n_wf : DotDims.WF S200x3 S1000x3 S200x1000 [1] [1] [0] [0] [] []
  dot_S200x1000_S1000x3_S200x3_1_0_0_1_n_n_wf : DotDims.WF S200x1000 S1000x3 S200x3 [1] [0] [0] [1] [] []
  gather_S1000x3_S1024x1024x1_S1024x1024x3_2_0_n_n_0_2_13_wf : GatherDims.WF S1000x3 S1024x1024x1 S1024x1024x3 [2] [0] [] [0] [] 2 ![1, 3]
  dot_S500x156_S156x64_S500x64_1_0_0_1_n_n_wf : DotDims.WF S500x156 S156x64 S500x64 [1] [0] [0] [1] [] []
  dot_S500x64_S500x64_S500x500_1_1_0_0_n_n_wf : DotDims.WF S500x64 S500x64 S500x500 [1] [1] [0] [0] [] []
  dot_S500x500_S500x64_S500x64_1_0_0_1_n_n_wf : DotDims.WF S500x500 S500x64 S500x64 [1] [0] [0] [1] [] []
  dot_S500x64_S64x3_S500x3_1_0_0_1_n_n_wf : DotDims.WF S500x64 S64x3 S500x3 [1] [0] [0] [1] [] []
  dot_S500x3_S500x3_S500x500_1_1_0_0_n_n_wf : DotDims.WF S500x3 S500x3 S500x500 [1] [1] [0] [0] [] []
  dot_S500x500_S500x3_S500x3_1_0_0_1_n_n_wf : DotDims.WF S500x500 S500x3 S500x3 [1] [0] [0] [1] [] []
  gather_S500x3_S1024x1024x1_S1024x1024x3_2_0_n_n_0_2_13_wf : GatherDims.WF S500x3 S1024x1024x1 S1024x1024x3 [2] [0] [] [0] [] 2 ![1, 3]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2000x156.size a ≤ S2000x156.size a
  hwx0_0 : ∀ i : grid0.Coords, EltTy.bits .f32 = 32 ∨ (Rect.block (s := S2000x156) S2000x156.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S156x64.size a ≤ S156x64.size a
  hwx0_1 : ∀ i : grid0.Coords, EltTy.bits .f32 = 32 ∨ (Rect.block (s := S156x64) S156x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S2000x64.size a
  hwx0_3 : ∀ i : grid0.Coords, EltTy.bits .f32 = 32 ∨ (Rect.block (s := S2000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x64.size a ≤ S2000x64.size a
  hwx1_0 : ∀ i : grid1.Coords, EltTy.bits .f32 = 32 ∨ (Rect.block (s := S2000x64) S400x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S2000x64.size a
  hwx1_1 : ∀ i : grid1.Coords, EltTy.bits .f32 = 32 ∨ (Rect.block (s := S2000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x2000.size a ≤ S2000x2000.size a
  hwx1_2 : ∀ i : grid1.Coords, EltTy.bits .i32 = 32 ∨ (Rect.block (s := S2000x2000) S400x2000.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S2000x64.size a
  hwx1_3 : ∀ i : grid1.Coords, EltTy.bits .f32 = 32 ∨ (Rect.block (s := S2000x64) S400x64.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S2000x64.size a
  hwx2_0 : ∀ i : grid2.Coords, EltTy.bits .f32 = 32 ∨ (Rect.block (s := S2000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x3.size a ≤ S64x3.size a
  hwx2_1 : ∀ i : grid2.Coords, EltTy.bits .f32 = 32 ∨ (Rect.block (s := S64x3) S64x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3.size a ≤ S3.size a
  hwx2_2 : ∀ i : grid2.Coords, EltTy.bits .f32 = 32 ∨ (Rect.block (s := S3) S3.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2000x3.size a ≤ S2000x3.size a
  hwx2_3 : ∀ i : grid2.Coords, EltTy.bits .f32 = 32 ∨ (Rect.block (s := S2000x3) S2000x3.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x3.size a ≤ S2000x3.size a
  hwx3_0 : ∀ i : grid3.Coords, EltTy.bits .f32 = 32 ∨ (Rect.block (s := S2000x3) S400x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2000x3.size a ≤ S2000x3.size a
  hwx3_1 : ∀ i : grid3.Coords, EltTy.bits .f32 = 32 ∨ (Rect.block (s := S2000x3) S2000x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x2000.size a ≤ S2000x2000.size a
  hwx3_2 : ∀ i : grid3.Coords, EltTy.bits .i32 = 32 ∨ (Rect.block (s := S2000x2000) S400x2000.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x3.size a ≤ S2000x3.size a
  hwx3_3 : ∀ i : grid3.Coords, EltTy.bits .f32 = 32 ∨ (Rect.block (s := S2000x3) S400x3.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1000x156.size a ≤ S1000x156.size a
  hwx4_0 : ∀ i : grid4.Coords, EltTy.bits .f32 = 32 ∨ (Rect.block (s := S1000x156) S1000x156.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S156x64.size a ≤ S156x64.size a
  hwx4_1 : ∀ i : grid4.Coords, EltTy.bits .f32 = 32 ∨ (Rect.block (s := S156x64) S156x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1000x64.size a ≤ S1000x64.size a
  hwx4_3 : ∀ i : grid4.Coords, EltTy.bits .f32 = 32 ∨ (Rect.block (s := S1000x64) S1000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S200x64.size a ≤ S1000x64.size a
  hwx5_0 : ∀ i : grid5.Coords, EltTy.bits .f32 = 32 ∨ (Rect.block (s := S1000x64) S200x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1000x64.size a ≤ S1000x64.size a
  hwx5_1 : ∀ i : grid5.Coords, EltTy.bits .f32 = 32 ∨ (Rect.block (s := S1000x64) S1000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S200x1000.size a ≤ S1000x1000.size a
  hwx5_2 : ∀ i : grid5.Coords, EltTy.bits .i32 = 32 ∨ (Rect.block (s := S1000x1000) S200x1000.size (cc5_transform_2 i) (hinb5_2 i)).WholeWords (EltTy.packing .i32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S200x64.size a ≤ S1000x64.size a
  hwx5_3 : ∀ i : grid5.Coords, EltTy.bits .f32 = 32 ∨ (Rect.block (s := S1000x64) S200x64.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S1000x64.size a ≤ S1000x64.size a
  hwx6_0 : ∀ i : grid6.Coords, EltTy.bits .f32 = 32 ∨ (Rect.block (s := S1000x64) S1000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x3.size a ≤ S64x3.size a
  hwx6_1 : ∀ i : grid6.Coords, EltTy.bits .f32 = 32 ∨ (Rect.block (s := S64x3) S64x3.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S3.size a ≤ S3.size a
  hwx6_2 : ∀ i : grid6.Coords, EltTy.bits .f32 = 32 ∨ (Rect.block (s := S3) S3.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1000x3.size a ≤ S1000x3.size a
  hwx6_3 : ∀ i : grid6.Coords, EltTy.bits .f32 = 32 ∨ (Rect.block (s := S1000x3) S1000x3.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S200x3.size a ≤ S1000x3.size a
  hwx7_0 : ∀ i : grid7.Coords, EltTy.bits .f32 = 32 ∨ (Rect.block (s := S1000x3) S200x3.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1000x3.size a ≤ S1000x3.size a
  hwx7_1 : ∀ i : grid7.Coords, EltTy.bits .f32 = 32 ∨ (Rect.block (s := S1000x3) S1000x3.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S200x1000.size a ≤ S1000x1000.size a
  hwx7_2 : ∀ i : grid7.Coords, EltTy.bits .i32 = 32 ∨ (Rect.block (s := S1000x1000) S200x1000.size (cc7_transform_2 i) (hinb7_2 i)).WholeWords (EltTy.packing .i32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S200x3.size a ≤ S1000x3.size a
  hwx7_3 : ∀ i : grid7.Coords, EltTy.bits .f32 = 32 ∨ (Rect.block (s := S1000x3) S200x3.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S500x156.size a ≤ S500x156.size a
  hwx8_0 : ∀ i : grid8.Coords, EltTy.bits .f32 = 32 ∨ (Rect.block (s := S500x156) S500x156.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S156x64.size a ≤ S156x64.size a
  hwx8_1 : ∀ i : grid8.Coords, EltTy.bits .f32 = 32 ∨ (Rect.block (s := S156x64) S156x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64.size a ≤ S64.size a
  hwx8_2 : ∀ i : grid8.Coords, EltTy.bits .f32 = 32 ∨ (Rect.block (s := S64) S64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S500x64.size a ≤ S500x64.size a
  hwx8_3 : ∀ i : grid8.Coords, EltTy.bits .f32 = 32 ∨ (Rect.block (s := S500x64) S500x64.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S500x64.size a ≤ S500x64.size a
  hwx9_0 : ∀ i : grid9.Coords, EltTy.bits .f32 = 32 ∨ (Rect.block (s := S500x64) S500x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S500x64.size a ≤ S500x64.size a
  hwx9_1 : ∀ i : grid9.Coords, EltTy.bits .f32 = 32 ∨ (Rect.block (s := S500x64) S500x64.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S500x500.size a ≤ S500x500.size a
  hwx9_2 : ∀ i : grid9.Coords, EltTy.bits .i32 = 32 ∨ (Rect.block (s := S500x500) S500x500.size (cc9_transform_2 i) (hinb9_2 i)).WholeWords (EltTy.packing .i32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S500x64.size a ≤ S500x64.size a
  hwx9_3 : ∀ i : grid9.Coords, EltTy.bits .f32 = 32 ∨ (Rect.block (s := S500x64) S500x64.size (cc9_transform_3 i) (hinb9_3 i)).WholeWords (EltTy.packing .f32)
  hrank10 : 0 < grid10.rank
  hstage10_0 : ∀ j, (stage10_0 j).IsWhole
  nbuf10_0 : grid10.bufCount reads10_0 true = 1
  hreads10_0 : ∀ i i' : grid10.Coords, (∀ a, reads10_0 a = true → i a = i' a) → cc10_transform_0 i = cc10_transform_0 i'
  hinb10_0 : ∀ (i : grid10.Coords) a, (cc10_transform_0 i a + 1) * S500x64.size a ≤ S500x64.size a
  hwx10_0 : ∀ i : grid10.Coords, EltTy.bits .f32 = 32 ∨ (Rect.block (s := S500x64) S500x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x3.size a ≤ S64x3.size a
  hwx10_1 : ∀ i : grid10.Coords, EltTy.bits .f32 = 32 ∨ (Rect.block (s := S64x3) S64x3.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S3.size a ≤ S3.size a
  hwx10_2 : ∀ i : grid10.Coords, EltTy.bits .f32 = 32 ∨ (Rect.block (s := S3) S3.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S500x3.size a ≤ S500x3.size a
  hwx10_3 : ∀ i : grid10.Coords, EltTy.bits .f32 = 32 ∨ (Rect.block (s := S500x3) S500x3.size (cc10_transform_3 i) (hinb10_3 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S500x3.size a ≤ S500x3.size a
  hwx11_0 : ∀ i : grid11.Coords, EltTy.bits .f32 = 32 ∨ (Rect.block (s := S500x3) S500x3.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S500x3.size a ≤ S500x3.size a
  hwx11_1 : ∀ i : grid11.Coords, EltTy.bits .f32 = 32 ∨ (Rect.block (s := S500x3) S500x3.size (cc11_transform_1 i) (hinb11_1 i)).WholeWords (EltTy.packing .f32)
  hstage11_2 : ∀ j, (stage11_2 j).IsWhole
  nbuf11_2 : grid11.bufCount reads11_2 false = 1
  hreads11_2 : ∀ i i' : grid11.Coords, (∀ a, reads11_2 a = true → i a = i' a) → cc11_transform_2 i = cc11_transform_2 i'
  hinb11_2 : ∀ (i : grid11.Coords) a, (cc11_transform_2 i a + 1) * S500x500.size a ≤ S500x500.size a
  hwx11_2 : ∀ i : grid11.Coords, EltTy.bits .i32 = 32 ∨ (Rect.block (s := S500x500) S500x500.size (cc11_transform_2 i) (hinb11_2 i)).WholeWords (EltTy.packing .i32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S500x3.size a ≤ S500x3.size a
  hwx11_3 : ∀ i : grid11.Coords, EltTy.bits .f32 = 32 ∨ (Rect.block (s := S500x3) S500x3.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S128x3072.size a ≤ S1024x3072.size a
  hwx12_0 : ∀ i : grid12.Coords, EltTy.bits .f32 = 32 ∨ (Rect.block (s := S1024x3072) S128x3072.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S128x3072.size a ≤ S1024x3072.size a
  hwx12_1 : ∀ i : grid12.Coords, EltTy.bits .f32 = 32 ∨ (Rect.block (s := S1024x3072) S128x3072.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S128x3072.size a ≤ S1024x3072.size a
  hwx12_2 : ∀ i : grid12.Coords, EltTy.bits .f32 = 32 ∨ (Rect.block (s := S1024x3072) S128x3072.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S3.size a ≤ S3.size a
  hwx12_3 : ∀ i : grid12.Coords, EltTy.bits .f32 = 32 ∨ (Rect.block (s := S3) S3.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S128x3072.size a ≤ S1024x3072.size a
  hwx12_4 : ∀ i : grid12.Coords, EltTy.bits .f32 = 32 ∨ (Rect.block (s := S1024x3072) S128x3072.size (cc12_transform_4 i) (hinb12_4 i)).WholeWords (EltTy.packing .f32)

variable [Facts₀]

def dot_S2000x156_S156x64_S2000x64_1_0_0_1_n_n : DotDims S2000x156 S156x64 S2000x64 where
  lhsContracting := [1]
  rhsContracting := [0]
  lhsNonContracting := [0]
  rhsNonContracting := [1]
  lhsBatch := []
  rhsBatch := []
  wf := dot_S2000x156_S156x64_S2000x64_1_0_0_1_n_n_wf
def dot_S400x64_S2000x64_S400x2000_1_1_0_0_n_n : DotDims S400x64 S2000x64 S400x2000 where
  lhsContracting := [1]
  rhsContracting := [1]
  lhsNonContracting := [0]
  rhsNonContracting := [0]
  lhsBatch := []
  rhsBatch := []
  wf := dot_S400x64_S2000x64_S400x2000_1_1_0_0_n_n_wf
def dot_S400x2000_S2000x64_S400x64_1_0_0_1_n_n : DotDims S400x2000 S2000x64 S400x64 where
  lhsContracting := [1]
  rhsContracting := [0]
  lhsNonContracting := [0]
  rhsNonContracting := [1]
  lhsBatch := []
  rhsBatch := []
  wf := dot_S400x2000_S2000x64_S400x64_1_0_0_1_n_n_wf
def dot_S2000x64_S64x3_S2000x3_1_0_0_1_n_n : DotDims S2000x64 S64x3 S2000x3 where
  lhsContracting := [1]
  rhsContracting := [0]
  lhsNonContracting := [0]
  rhsNonContracting := [1]
  lhsBatch := []
  rhsBatch := []
  wf := dot_S2000x64_S64x3_S2000x3_1_0_0_1_n_n_wf
def dot_S400x3_S2000x3_S400x2000_1_1_0_0_n_n : DotDims S400x3 S2000x3 S400x2000 where
  lhsContracting := [1]
  rhsContracting := [1]
  lhsNonContracting := [0]
  rhsNonContracting := [0]
  lhsBatch := []
  rhsBatch := []
  wf := dot_S400x3_S2000x3_S400x2000_1_1_0_0_n_n_wf
def dot_S400x2000_S2000x3_S400x3_1_0_0_1_n_n : DotDims S400x2000 S2000x3 S400x3 where
  lhsContracting := [1]
  rhsContracting := [0]
  lhsNonContracting := [0]
  rhsNonContracting := [1]
  lhsBatch := []
  rhsBatch := []
  wf := dot_S400x2000_S2000x3_S400x3_1_0_0_1_n_n_wf
def gather_S2000x3_S1024x1024x1_S1024x1024x3_2_0_n_n_0_2_13 : GatherDims S2000x3 S1024x1024x1 S1024x1024x3 where
  offsetDims := [2]
  collapsedSliceDims := [0]
  operandBatchingDims := []
  startIndicesBatchingDims := []
  startIndexMap := [0]
  indexVectorDim := 2
  sliceSizes := ![1, 3]
  wf := gather_S2000x3_S1024x1024x1_S1024x1024x3_2_0_n_n_0_2_13_wf
def dot_S1000x156_S156x64_S1000x64_1_0_0_1_n_n : DotDims S1000x156 S156x64 S1000x64 where
  lhsContracting := [1]
  rhsContracting := [0]
  lhsNonContracting := [0]
  rhsNonContracting := [1]
  lhsBatch := []
  rhsBatch := []
  wf := dot_S1000x156_S156x64_S1000x64_1_0_0_1_n_n_wf
def dot_S200x64_S1000x64_S200x1000_1_1_0_0_n_n : DotDims S200x64 S1000x64 S200x1000 where
  lhsContracting := [1]
  rhsContracting := [1]
  lhsNonContracting := [0]
  rhsNonContracting := [0]
  lhsBatch := []
  rhsBatch := []
  wf := dot_S200x64_S1000x64_S200x1000_1_1_0_0_n_n_wf
def dot_S200x1000_S1000x64_S200x64_1_0_0_1_n_n : DotDims S200x1000 S1000x64 S200x64 where
  lhsContracting := [1]
  rhsContracting := [0]
  lhsNonContracting := [0]
  rhsNonContracting := [1]
  lhsBatch := []
  rhsBatch := []
  wf := dot_S200x1000_S1000x64_S200x64_1_0_0_1_n_n_wf
def dot_S1000x64_S64x3_S1000x3_1_0_0_1_n_n : DotDims S1000x64 S64x3 S1000x3 where
  lhsContracting := [1]
  rhsContracting := [0]
  lhsNonContracting := [0]
  rhsNonContracting := [1]
  lhsBatch := []
  rhsBatch := []
  wf := dot_S1000x64_S64x3_S1000x3_1_0_0_1_n_n_wf
def dot_S200x3_S1000x3_S200x1000_1_1_0_0_n_n : DotDims S200x3 S1000x3 S200x1000 where
  lhsContracting := [1]
  rhsContracting := [1]
  lhsNonContracting := [0]
  rhsNonContracting := [0]
  lhsBatch := []
  rhsBatch := []
  wf := dot_S200x3_S1000x3_S200x1000_1_1_0_0_n_n_wf
def dot_S200x1000_S1000x3_S200x3_1_0_0_1_n_n : DotDims S200x1000 S1000x3 S200x3 where
  lhsContracting := [1]
  rhsContracting := [0]
  lhsNonContracting := [0]
  rhsNonContracting := [1]
  lhsBatch := []
  rhsBatch := []
  wf := dot_S200x1000_S1000x3_S200x3_1_0_0_1_n_n_wf
def gather_S1000x3_S1024x1024x1_S1024x1024x3_2_0_n_n_0_2_13 : GatherDims S1000x3 S1024x1024x1 S1024x1024x3 where
  offsetDims := [2]
  collapsedSliceDims := [0]
  operandBatchingDims := []
  startIndicesBatchingDims := []
  startIndexMap := [0]
  indexVectorDim := 2
  sliceSizes := ![1, 3]
  wf := gather_S1000x3_S1024x1024x1_S1024x1024x3_2_0_n_n_0_2_13_wf
def dot_S500x156_S156x64_S500x64_1_0_0_1_n_n : DotDims S500x156 S156x64 S500x64 where
  lhsContracting := [1]
  rhsContracting := [0]
  lhsNonContracting := [0]
  rhsNonContracting := [1]
  lhsBatch := []
  rhsBatch := []
  wf := dot_S500x156_S156x64_S500x64_1_0_0_1_n_n_wf
def dot_S500x64_S500x64_S500x500_1_1_0_0_n_n : DotDims S500x64 S500x64 S500x500 where
  lhsContracting := [1]
  rhsContracting := [1]
  lhsNonContracting := [0]
  rhsNonContracting := [0]
  lhsBatch := []
  rhsBatch := []
  wf := dot_S500x64_S500x64_S500x500_1_1_0_0_n_n_wf
def dot_S500x500_S500x64_S500x64_1_0_0_1_n_n : DotDims S500x500 S500x64 S500x64 where
  lhsContracting := [1]
  rhsContracting := [0]
  lhsNonContracting := [0]
  rhsNonContracting := [1]
  lhsBatch := []
  rhsBatch := []
  wf := dot_S500x500_S500x64_S500x64_1_0_0_1_n_n_wf
def dot_S500x64_S64x3_S500x3_1_0_0_1_n_n : DotDims S500x64 S64x3 S500x3 where
  lhsContracting := [1]
  rhsContracting := [0]
  lhsNonContracting := [0]
  rhsNonContracting := [1]
  lhsBatch := []
  rhsBatch := []
  wf := dot_S500x64_S64x3_S500x3_1_0_0_1_n_n_wf
def dot_S500x3_S500x3_S500x500_1_1_0_0_n_n : DotDims S500x3 S500x3 S500x500 where
  lhsContracting := [1]
  rhsContracting := [1]
  lhsNonContracting := [0]
  rhsNonContracting := [0]
  lhsBatch := []
  rhsBatch := []
  wf := dot_S500x3_S500x3_S500x500_1_1_0_0_n_n_wf
def dot_S500x500_S500x3_S500x3_1_0_0_1_n_n : DotDims S500x500 S500x3 S500x3 where
  lhsContracting := [1]
  rhsContracting := [0]
  lhsNonContracting := [0]
  rhsNonContracting := [1]
  lhsBatch := []
  rhsBatch := []
  wf := dot_S500x500_S500x3_S500x3_1_0_0_1_n_n_wf
def gather_S500x3_S1024x1024x1_S1024x1024x3_2_0_n_n_0_2_13 : GatherDims S500x3 S1024x1024x1 S1024x1024x3 where
  offsetDims := [2]
  collapsedSliceDims := [0]
  operandBatchingDims := []
  startIndicesBatchingDims := []
  startIndexMap := [0]
  indexVectorDim := 2
  sliceSizes := ![1, 3]
  wf := gather_S500x3_S1024x1024x1_S1024x1024x3_2_0_n_n_0_2_13_wf

abbrev win0_0 : Pipeline.Window sig grid0 :=
  Pipeline.Window.ofSpec (Memref.whole main_arg0) S2000x156.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S156x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2000x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S400x2000.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S2000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S64x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S3.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S2000x3.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2) S400x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S2000x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S400x2000.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v3) S400x3.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg1) S1000x156.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S156x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v23) S1000x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v23) S200x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v23) S1000x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg4) S200x1000.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v24) S200x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v24) S1000x64.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S64x3.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg16) S3.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v25) S1000x3.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v25) S200x3.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v25) S1000x3.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg4) S200x1000.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v26) S200x3.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_arg2) S500x156.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg17) S156x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg18) S64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v46) S500x64.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v46) S500x64.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_v46) S500x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg5) S500x500.size cc9_transform_2 reads9_2 false false 1 stage9_2 sem9_2
    hrank9 hreads9_2 hinb9_2 nbuf9_2 (Memref.isWhole_whole _) hwx9_2 hstage9_2

abbrev win9_3 : Pipeline.Window sig grid9 :=
  Pipeline.Window.ofSpec (Memref.whole main_v47) S500x64.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v47) S500x64.size cc10_transform_0 reads10_0 false true 1 stage10_0 sem10_0
    hrank10 hreads10_0 hinb10_0 nbuf10_0 (Memref.isWhole_whole _) hwx10_0 hstage10_0

abbrev win10_1 : Pipeline.Window sig grid10 :=
  Pipeline.Window.ofSpec (Memref.whole main_arg19) S64x3.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg20) S3.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v48) S500x3.size cc10_transform_3 reads10_3 true true 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v48) S500x3.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_v48) S500x3.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg5) S500x500.size cc11_transform_2 reads11_2 false false 1 stage11_2 sem11_2
    hrank11 hreads11_2 hinb11_2 nbuf11_2 (Memref.isWhole_whole _) hwx11_2 hstage11_2

abbrev win11_3 : Pipeline.Window sig grid11 :=
  Pipeline.Window.ofSpec (Memref.whole main_v49) S500x3.size cc11_transform_3 reads11_3 true false 1 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v79) S128x3072.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v80) S128x3072.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v81) S128x3072.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v78) S3.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v82) S128x3072.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

class Facts : Prop extends Facts₀ where

variable [Facts]
-- ==== ReferenceIdeal.lean ====
abbrev S2000x156 : Shape := ⟨2, ![2000, 156]⟩
abbrev S1000x156 : Shape := ⟨2, ![1000, 156]⟩
abbrev S500x156 : Shape := ⟨2, ![500, 156]⟩
abbrev S2000x2000 : Shape := ⟨2, ![2000, 2000]⟩
abbrev S1000x1000 : Shape := ⟨2, ![1000, 1000]⟩
abbrev S500x500 : Shape := ⟨2, ![500, 500]⟩
abbrev S1024x1024 : Shape := ⟨2, ![1024, 1024]⟩
abbrev S156x64 : Shape := ⟨2, ![156, 64]⟩
abbrev S64 : Shape := ⟨1, ![64]⟩
abbrev S64x3 : Shape := ⟨2, ![64, 3]⟩
abbrev S3 : Shape := ⟨1, ![3]⟩
abbrev S2000x64 : Shape := ⟨2, ![2000, 64]⟩
abbrev S1x64 : Shape := ⟨2, ![1, 64]⟩
abbrev S64x2000 : Shape := ⟨2, ![64, 2000]⟩
abbrev S_ : Shape := ⟨0, ![]⟩
abbrev S2000 : Shape := ⟨1, ![2000]⟩
abbrev S2000x1 : Shape := ⟨2, ![2000, 1]⟩
abbrev S2000x3 : Shape := ⟨2, ![2000, 3]⟩
abbrev S1x3 : Shape := ⟨2, ![1, 3]⟩
abbrev S3x2000 : Shape := ⟨2, ![3, 2000]⟩
abbrev S1024x1024x1 : Shape := ⟨3, ![1024, 1024, 1]⟩
abbrev S1024x1024x3 : Shape := ⟨3, ![1024, 1024, 3]⟩
abbrev S1000x64 : Shape := ⟨2, ![1000, 64]⟩
abbrev S64x1000 : Shape := ⟨2, ![64, 1000]⟩
abbrev S1000 : Shape := ⟨1, ![1000]⟩
abbrev S1000x1 : Shape := ⟨2, ![1000, 1]⟩
abbrev S1000x3 : Shape := ⟨2, ![1000, 3]⟩
abbrev S3x1000 : Shape := ⟨2, ![3, 1000]⟩
abbrev S500x64 : Shape := ⟨2, ![500, 64]⟩
abbrev S64x500 : Shape := ⟨2, ![64, 500]⟩
abbrev S500 : Shape := ⟨1, ![500]⟩
abbrev S500x1 : Shape := ⟨2, ![500, 1]⟩
abbrev S500x3 : Shape := ⟨2, ![500, 3]⟩
abbrev S3x500 : Shape := ⟨2, ![3, 500]⟩
abbrev S1x1024x1024x3 : Shape := ⟨4, ![1, 1024, 1024, 3]⟩
abbrev S3x1024x1024x3 : Shape := ⟨4, ![3, 1024, 1024, 3]⟩
abbrev S1 : Shape := ⟨1, ![1]⟩
abbrev S3x1x1x1 : Shape := ⟨4, ![3, 1, 1, 1]⟩

abbrev nBuf : Space → Nat
  | .hbm => 308
  | .vmem => 0
  | .smem => 0
  | _ => 0

abbrev hbmTy0_0 (i : Nat) : BufTy := match i % 128 with
  | 0 => ⟨S2000x156, .f32⟩
  | 1 => ⟨S1000x156, .f32⟩
  | 2 => ⟨S500x156, .f32⟩
  | 3 => ⟨S2000x2000, .i32⟩
  | 4 => ⟨S1000x1000, .i32⟩
  | 5 => ⟨S500x500, .i32⟩
  | 6 => ⟨S1024x1024, .i32⟩
  | 7 => ⟨S1024x1024, .i32⟩
  | 8 => ⟨S1024x1024, .i32⟩
  | 9 => ⟨S156x64, .f32⟩
  | 10 => ⟨S64, .f32⟩
  | 11 => ⟨S64x3, .f32⟩
  | 12 => ⟨S3, .f32⟩
  | 13 => ⟨S156x64, .f32⟩
  | 14 => ⟨S64, .f32⟩
  | 15 => ⟨S64x3, .f32⟩
  | 16 => ⟨S3, .f32⟩
  | 17 => ⟨S156x64, .f32⟩
  | 18 => ⟨S64, .f32⟩
  | 19 => ⟨S64x3, .f32⟩
  | 20 => ⟨S3, .f32⟩
  | 21 => ⟨S3, .f32⟩
  | 22 => ⟨S2000x64, .f32⟩
  | 23 => ⟨S1x64, .f32⟩
  | 24 => ⟨S2000x64, .f32⟩
  | 25 => ⟨S2000x64, .f32⟩
  | 26 => ⟨S64x2000, .f32⟩
  | 27 => ⟨S2000x2000, .f32⟩
  | 28 => ⟨S_, .i32⟩
  | 29 => ⟨S2000x2000, .i32⟩
  | 30 => ⟨S2000x2000, .i1⟩
  | 31 => ⟨S_, .f32⟩
  | 32 => ⟨S_, .f32⟩
  | 33 => ⟨S2000x2000, .f32⟩
  | 34 => ⟨S2000x2000, .f32⟩
  | 35 => ⟨S_, .f32⟩
  | 36 => ⟨S2000, .f32⟩
  | 37 => ⟨S_, .f32⟩
  | 38 => ⟨S2000, .f32⟩
  | 39 => ⟨S2000, .f32⟩
  | 40 => ⟨S2000x1, .f32⟩
  | 41 => ⟨S2000x2000, .f32⟩
  | 42 => ⟨S2000x2000, .f32⟩
  | 43 => ⟨S2000x2000, .f32⟩
  | 44 => ⟨S_, .f32⟩
  | 45 => ⟨S2000, .f32⟩
  | 46 => ⟨S2000x1, .f32⟩
  | 47 => ⟨S2000x2000, .f32⟩
  | 48 => ⟨S2000x2000, .f32⟩
  | 49 => ⟨S2000x64, .f32⟩
  | 50 => ⟨S_, .f32⟩
  | 51 => ⟨S2000x64, .f32⟩
  | 52 => ⟨S2000x64, .f32⟩
  | 53 => ⟨S2000x3, .f32⟩
  | 54 => ⟨S1x3, .f32⟩
  | 55 => ⟨S2000x3, .f32⟩
  | 56 => ⟨S2000x3, .f32⟩
  | 57 => ⟨S3x2000, .f32⟩
  | 58 => ⟨S2000x2000, .f32⟩
  | 59 => ⟨S_, .i32⟩
  | 60 => ⟨S2000x2000, .i32⟩
  | 61 => ⟨S2000x2000, .i1⟩
  | 62 => ⟨S_, .f32⟩
  | 63 => ⟨S_, .f32⟩
  | 64 => ⟨S2000x2000, .f32⟩
  | 65 => ⟨S2000x2000, .f32⟩
  | 66 => ⟨S_, .f32⟩
  | 67 => ⟨S2000, .f32⟩
  | 68 => ⟨S_, .f32⟩
  | 69 => ⟨S2000, .f32⟩
  | 70 => ⟨S2000, .f32⟩
  | 71 => ⟨S2000x1, .f32⟩
  | 72 => ⟨S2000x2000, .f32⟩
  | 73 => ⟨S2000x2000, .f32⟩
  | 74 => ⟨S2000x2000, .f32⟩
  | 75 => ⟨S_, .f32⟩
  | 76 => ⟨S2000, .f32⟩
  | 77 => ⟨S2000x1, .f32⟩
  | 78 => ⟨S2000x2000, .f32⟩
  | 79 => ⟨S2000x2000, .f32⟩
  | 80 => ⟨S2000x3, .f32⟩
  | 81 => ⟨S_, .f32⟩
  | 82 => ⟨S2000x3, .f32⟩
  | 83 => ⟨S2000x3, .f32⟩
  | 84 => ⟨S_, .f32⟩
  | 85 => ⟨S2000x3, .f32⟩
  | 86 => ⟨S2000x3, .f32⟩
  | 87 => ⟨S_, .f32⟩
  | 88 => ⟨S2000, .f32⟩
  | 89 => ⟨S_, .f32⟩
  | 90 => ⟨S2000, .f32⟩
  | 91 => ⟨S2000, .f32⟩
  | 92 => ⟨S2000x1, .f32⟩
  | 93 => ⟨S2000x3, .f32⟩
  | 94 => ⟨S2000x3, .f32⟩
  | 95 => ⟨S2000x3, .f32⟩
  | 96 => ⟨S_, .f32⟩
  | 97 => ⟨S2000, .f32⟩
  | 98 => ⟨S2000x1, .f32⟩
  | 99 => ⟨S2000x3, .f32⟩
  | 100 => ⟨S2000x3, .f32⟩
  | 101 => ⟨S_, .i32⟩
  | 102 => ⟨S1024x1024, .i32⟩
  | 103 => ⟨S1024x1024, .i1⟩
  | 104 => ⟨S_, .i32⟩
  | 105 => ⟨S1024x1024, .i32⟩
  | 106 => ⟨S1024x1024, .i32⟩
  | 107 => ⟨S1024x1024, .i32⟩
  | 108 => ⟨S1024x1024x1, .i32⟩
  | 109 => ⟨S1024x1024x3, .f32⟩
  | 110 => ⟨S1000x64, .f32⟩
  | 111 => ⟨S1x64, .f32⟩
  | 112 => ⟨S1000x64, .f32⟩
  | 113 => ⟨S1000x64, .f32⟩
  | 114 => ⟨S64x1000, .f32⟩
  | 115 => ⟨S1000x1000, .f32⟩
  | 116 => ⟨S_, .i32⟩
  | 117 => ⟨S1000x1000, .i32⟩
  | 118 => ⟨S1000x1000, .i1⟩
  | 119 => ⟨S_, .f32⟩
  | 120 => ⟨S_, .f32⟩
  | 121 => ⟨S1000x1000, .f32⟩
  | 122 => ⟨S1000x1000, .f32⟩
  | 123 => ⟨S_, .f32⟩
  | 124 => ⟨S1000, .f32⟩
  | 125 => ⟨S_, .f32⟩
  | 126 => ⟨S1000, .f32⟩
  | 127 => ⟨S1000, .f32⟩
  | _ => ⟨S2000x156, .f32⟩

abbrev hbmTy0_1 (i : Nat) : BufTy := match i % 128 with
  | 0 => ⟨S1000x1, .f32⟩
  | 1 => ⟨S1000x1000, .f32⟩
  | 2 => ⟨S1000x1000, .f32⟩
  | 3 => ⟨S1000x1000, .f32⟩
  | 4 => ⟨S_, .f32⟩
  | 5 => ⟨S1000, .f32⟩
  | 6 => ⟨S1000x1, .f32⟩
  | 7 => ⟨S1000x1000, .f32⟩
  | 8 => ⟨S1000x1000, .f32⟩
  | 9 => ⟨S1000x64, .f32⟩
  | 10 => ⟨S_, .f32⟩
  | 11 => ⟨S1000x64, .f32⟩
  | 12 => ⟨S1000x64, .f32⟩
  | 13 => ⟨S1000x3, .f32⟩
  | 14 => ⟨S1x3, .f32⟩
  | 15 => ⟨S1000x3, .f32⟩
  | 16 => ⟨S1000x3, .f32⟩
  | 17 => ⟨S3x1000, .f32⟩
  | 18 => ⟨S1000x1000, .f32⟩
  | 19 => ⟨S_, .i32⟩
  | 20 => ⟨S1000x1000, .i32⟩
  | 21 => ⟨S1000x1000, .i1⟩
  | 22 => ⟨S_, .f32⟩
  | 23 => ⟨S_, .f32⟩
  | 24 => ⟨S1000x1000, .f32⟩
  | 25 => ⟨S1000x1000, .f32⟩
  | 26 => ⟨S_, .f32⟩
  | 27 => ⟨S1000, .f32⟩
  | 28 => ⟨S_, .f32⟩
  | 29 => ⟨S1000, .f32⟩
  | 30 => ⟨S1000, .f32⟩
  | 31 => ⟨S1000x1, .f32⟩
  | 32 => ⟨S1000x1000, .f32⟩
  | 33 => ⟨S1000x1000, .f32⟩
  | 34 => ⟨S1000x1000, .f32⟩
  | 35 => ⟨S_, .f32⟩
  | 36 => ⟨S1000, .f32⟩
  | 37 => ⟨S1000x1, .f32⟩
  | 38 => ⟨S1000x1000, .f32⟩
  | 39 => ⟨S1000x1000, .f32⟩
  | 40 => ⟨S1000x3, .f32⟩
  | 41 => ⟨S_, .f32⟩
  | 42 => ⟨S1000x3, .f32⟩
  | 43 => ⟨S1000x3, .f32⟩
  | 44 => ⟨S_, .f32⟩
  | 45 => ⟨S1000x3, .f32⟩
  | 46 => ⟨S1000x3, .f32⟩
  | 47 => ⟨S_, .f32⟩
  | 48 => ⟨S1000, .f32⟩
  | 49 => ⟨S_, .f32⟩
  | 50 => ⟨S1000, .f32⟩
  | 51 => ⟨S1000, .f32⟩
  | 52 => ⟨S1000x1, .f32⟩
  | 53 => ⟨S1000x3, .f32⟩
  | 54 => ⟨S1000x3, .f32⟩
  | 55 => ⟨S1000x3, .f32⟩
  | 56 => ⟨S_, .f32⟩
  | 57 => ⟨S1000, .f32⟩
  | 58 => ⟨S1000x1, .f32⟩
  | 59 => ⟨S1000x3, .f32⟩
  | 60 => ⟨S1000x3, .f32⟩
  | 61 => ⟨S_, .i32⟩
  | 62 => ⟨S1024x1024, .i32⟩
  | 63 => ⟨S1024x1024, .i1⟩
  | 64 => ⟨S_, .i32⟩
  | 65 => ⟨S1024x1024, .i32⟩
  | 66 => ⟨S1024x1024, .i32⟩
  | 67 => ⟨S1024x1024, .i32⟩
  | 68 => ⟨S1024x1024x1, .i32⟩
  | 69 => ⟨S1024x1024x3, .f32⟩
  | 70 => ⟨S500x64, .f32⟩
  | 71 => ⟨S1x64, .f32⟩
  | 72 => ⟨S500x64, .f32⟩
  | 73 => ⟨S500x64, .f32⟩
  | 74 => ⟨S64x500, .f32⟩
  | 75 => ⟨S500x500, .f32⟩
  | 76 => ⟨S_, .i32⟩
  | 77 => ⟨S500x500, .i32⟩
  | 78 => ⟨S500x500, .i1⟩
  | 79 => ⟨S_, .f32⟩
  | 80 => ⟨S_, .f32⟩
  | 81 => ⟨S500x500, .f32⟩
  | 82 => ⟨S500x500, .f32⟩
  | 83 => ⟨S_, .f32⟩
  | 84 => ⟨S500, .f32⟩
  | 85 => ⟨S_, .f32⟩
  | 86 => ⟨S500, .f32⟩
  | 87 => ⟨S500, .f32⟩
  | 88 => ⟨S500x1, .f32⟩
  | 89 => ⟨S500x500, .f32⟩
  | 90 => ⟨S500x500, .f32⟩
  | 91 => ⟨S500x500, .f32⟩
  | 92 => ⟨S_, .f32⟩
  | 93 => ⟨S500, .f32⟩
  | 94 => ⟨S500x1, .f32⟩
  | 95 => ⟨S500x500, .f32⟩
  | 96 => ⟨S500x500, .f32⟩
  | 97 => ⟨S500x64, .f32⟩
  | 98 => ⟨S_, .f32⟩
  | 99 => ⟨S500x64, .f32⟩
  | 100 => ⟨S500x64, .f32⟩
  | 101 => ⟨S500x3, .f32⟩
  | 102 => ⟨S1x3, .f32⟩
  | 103 => ⟨S500x3, .f32⟩
  | 104 => ⟨S500x3, .f32⟩
  | 105 => ⟨S3x500, .f32⟩
  | 106 => ⟨S500x500, .f32⟩
  | 107 => ⟨S_, .i32⟩
  | 108 => ⟨S500x500, .i32⟩
  | 109 => ⟨S500x500, .i1⟩
  | 110 => ⟨S_, .f32⟩
  | 111 => ⟨S_, .f32⟩
  | 112 => ⟨S500x500, .f32⟩
  | 113 => ⟨S500x500, .f32⟩
  | 114 => ⟨S_, .f32⟩
  | 115 => ⟨S500, .f32⟩
  | 116 => ⟨S_, .f32⟩
  | 117 => ⟨S500, .f32⟩
  | 118 => ⟨S500, .f32⟩
  | 119 => ⟨S500x1, .f32⟩
  | 120 => ⟨S500x500, .f32⟩
  | 121 => ⟨S500x500, .f32⟩
  | 122 => ⟨S500x500, .f32⟩
  | 123 => ⟨S_, .f32⟩
  | 124 => ⟨S500, .f32⟩
  | 125 => ⟨S500x1, .f32⟩
  | 126 => ⟨S500x500, .f32⟩
  | 127 => ⟨S500x500, .f32⟩
  | _ => ⟨S2000x156, .f32⟩

abbrev hbmTy0_2 (i : Nat) : BufTy := match i % 128 with
  | 0 => ⟨S500x3, .f32⟩
  | 1 => ⟨S_, .f32⟩
  | 2 => ⟨S500x3, .f32⟩
  | 3 => ⟨S500x3, .f32⟩
  | 4 => ⟨S_, .f32⟩
  | 5 => ⟨S500x3, .f32⟩
  | 6 => ⟨S500x3, .f32⟩
  | 7 => ⟨S_, .f32⟩
  | 8 => ⟨S500, .f32⟩
  | 9 => ⟨S_, .f32⟩
  | 10 => ⟨S500, .f32⟩
  | 11 => ⟨S500, .f32⟩
  | 12 => ⟨S500x1, .f32⟩
  | 13 => ⟨S500x3, .f32⟩
  | 14 => ⟨S500x3, .f32⟩
  | 15 => ⟨S500x3, .f32⟩
  | 16 => ⟨S_, .f32⟩
  | 17 => ⟨S500, .f32⟩
  | 18 => ⟨S500x1, .f32⟩
  | 19 => ⟨S500x3, .f32⟩
  | 20 => ⟨S500x3, .f32⟩
  | 21 => ⟨S_, .i32⟩
  | 22 => ⟨S1024x1024, .i32⟩
  | 23 => ⟨S1024x1024, .i1⟩
  | 24 => ⟨S_, .i32⟩
  | 25 => ⟨S1024x1024, .i32⟩
  | 26 => ⟨S1024x1024, .i32⟩
  | 27 => ⟨S1024x1024, .i32⟩
  | 28 => ⟨S1024x1024x1, .i32⟩
  | 29 => ⟨S1024x1024x3, .f32⟩
  | 30 => ⟨S1x1024x1024x3, .f32⟩
  | 31 => ⟨S1x1024x1024x3, .f32⟩
  | 32 => ⟨S1x1024x1024x3, .f32⟩
  | 33 => ⟨S3x1024x1024x3, .f32⟩
  | 34 => ⟨S_, .f32⟩
  | 35 => ⟨S_, .f32⟩
  | 36 => ⟨S_, .f32⟩
  | 37 => ⟨S_, .f32⟩
  | 38 => ⟨S1, .f32⟩
  | 39 => ⟨S3, .f32⟩
  | 40 => ⟨S3, .f32⟩
  | 41 => ⟨S3, .f32⟩
  | 42 => ⟨S_, .f32⟩
  | 43 => ⟨S_, .f32⟩
  | 44 => ⟨S1, .f32⟩
  | 45 => ⟨S3, .f32⟩
  | 46 => ⟨S3, .f32⟩
  | 47 => ⟨S3x1x1x1, .f32⟩
  | 48 => ⟨S3x1024x1024x3, .f32⟩
  | 49 => ⟨S3x1024x1024x3, .f32⟩
  | 50 => ⟨S_, .f32⟩
  | 51 => ⟨S1024x1024x3, .f32⟩
  | _ => ⟨S2000x156, .f32⟩

abbrev hbmTy (i : Nat) : BufTy := match i / 128 with
  | 0 => hbmTy0_0 i
  | 1 => hbmTy0_1 i
  | 2 => hbmTy0_2 i
  | _ => ⟨S2000x156, .f32⟩

abbrev bufTy : (tb : Table) → Fin (tcTables nBuf tb) → BufTy
  | .hbm, ⟨i, _⟩ => hbmTy i
  | _, _ => ⟨S2000x156, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_cst_1 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_call1_cst : Ref sig .tc := ⟨.hbm, 50, rfl⟩
abbrev main_call1_v0 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_3 : Ref sig .tc := ⟨.hbm, 59, rfl⟩
abbrev main_v28 : Ref sig .tc := ⟨.hbm, 60, rfl⟩
abbrev main_v29 : Ref sig .tc := ⟨.hbm, 61, rfl⟩
abbrev main_cst_4 : Ref sig .tc := ⟨.hbm, 62, rfl⟩
abbrev main_call2_v0 : Ref sig .tc := ⟨.hbm, 63, rfl⟩
abbrev main_call2_v1 : Ref sig .tc := ⟨.hbm, 64, rfl⟩
abbrev main_v30 : Ref sig .tc := ⟨.hbm, 65, rfl⟩
abbrev main_cst_5 : Ref sig .tc := ⟨.hbm, 66, rfl⟩
abbrev main_v31 : Ref sig .tc := ⟨.hbm, 67, rfl⟩
abbrev main_cst_6 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_7 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_call3_cst : Ref sig .tc := ⟨.hbm, 81, rfl⟩
abbrev main_call3_v0 : Ref sig .tc := ⟨.hbm, 82, rfl⟩
abbrev main_v43 : Ref sig .tc := ⟨.hbm, 83, rfl⟩
abbrev main_call4_cst : Ref sig .tc := ⟨.hbm, 84, rfl⟩
abbrev main_call4_v0 : Ref sig .tc := ⟨.hbm, 85, rfl⟩
abbrev main_v44 : Ref sig .tc := ⟨.hbm, 86, rfl⟩
abbrev main_cst_8 : Ref sig .tc := ⟨.hbm, 87, rfl⟩
abbrev main_v45 : Ref sig .tc := ⟨.hbm, 88, rfl⟩
abbrev main_cst_9 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_10 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_c_11 : Ref sig .tc := ⟨.hbm, 101, rfl⟩
abbrev main_v56 : Ref sig .tc := ⟨.hbm, 102, rfl⟩
abbrev main_v57 : Ref sig .tc := ⟨.hbm, 103, rfl⟩
abbrev main_c_12 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_13 : Ref sig .tc := ⟨.hbm, 116, rfl⟩
abbrev main_v69 : Ref sig .tc := ⟨.hbm, 117, rfl⟩
abbrev main_v70 : Ref sig .tc := ⟨.hbm, 118, rfl⟩
abbrev main_cst_14 : Ref sig .tc := ⟨.hbm, 119, rfl⟩
abbrev main_call5_v0 : Ref sig .tc := ⟨.hbm, 120, rfl⟩
abbrev main_call5_v1 : Ref sig .tc := ⟨.hbm, 121, rfl⟩
abbrev main_v71 : Ref sig .tc := ⟨.hbm, 122, rfl⟩
abbrev main_cst_15 : Ref sig .tc := ⟨.hbm, 123, rfl⟩
abbrev main_v72 : Ref sig .tc := ⟨.hbm, 124, rfl⟩
abbrev main_cst_16 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_cst_17 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_call6_cst : Ref sig .tc := ⟨.hbm, 138, rfl⟩
abbrev main_call6_v0 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_c_18 : Ref sig .tc := ⟨.hbm, 147, rfl⟩
abbrev main_v91 : Ref sig .tc := ⟨.hbm, 148, rfl⟩
abbrev main_v92 : Ref sig .tc := ⟨.hbm, 149, rfl⟩
abbrev main_cst_19 : Ref sig .tc := ⟨.hbm, 150, rfl⟩
abbrev main_call7_v0 : Ref sig .tc := ⟨.hbm, 151, rfl⟩
abbrev main_call7_v1 : Ref sig .tc := ⟨.hbm, 152, rfl⟩
abbrev main_v93 : Ref sig .tc := ⟨.hbm, 153, rfl⟩
abbrev main_cst_20 : Ref sig .tc := ⟨.hbm, 154, rfl⟩
abbrev main_v94 : Ref sig .tc := ⟨.hbm, 155, rfl⟩
abbrev main_cst_21 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_22 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_call8_cst : Ref sig .tc := ⟨.hbm, 169, rfl⟩
abbrev main_call8_v0 : Ref sig .tc := ⟨.hbm, 170, rfl⟩
abbrev main_v106 : Ref sig .tc := ⟨.hbm, 171, rfl⟩
abbrev main_call9_cst : Ref sig .tc := ⟨.hbm, 172, rfl⟩
abbrev main_call9_v0 : Ref sig .tc := ⟨.hbm, 173, rfl⟩
abbrev main_v107 : Ref sig .tc := ⟨.hbm, 174, rfl⟩
abbrev main_cst_23 : Ref sig .tc := ⟨.hbm, 175, rfl⟩
abbrev main_v108 : Ref sig .tc := ⟨.hbm, 176, rfl⟩
abbrev main_cst_24 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_v114 : Ref sig .tc := ⟨.hbm, 183, rfl⟩
abbrev main_cst_25 : Ref sig .tc := ⟨.hbm, 184, rfl⟩
abbrev main_v115 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_c_26 : Ref sig .tc := ⟨.hbm, 189, rfl⟩
abbrev main_v119 : Ref sig .tc := ⟨.hbm, 190, rfl⟩
abbrev main_v120 : Ref sig .tc := ⟨.hbm, 191, rfl⟩
abbrev main_c_27 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_c_28 : Ref sig .tc := ⟨.hbm, 204, rfl⟩
abbrev main_v132 : Ref sig .tc := ⟨.hbm, 205, rfl⟩
abbrev main_v133 : Ref sig .tc := ⟨.hbm, 206, rfl⟩
abbrev main_cst_29 : Ref sig .tc := ⟨.hbm, 207, rfl⟩
abbrev main_call10_v0 : Ref sig .tc := ⟨.hbm, 208, rfl⟩
abbrev main_call10_v1 : Ref sig .tc := ⟨.hbm, 209, rfl⟩
abbrev main_v134 : Ref sig .tc := ⟨.hbm, 210, rfl⟩
abbrev main_cst_30 : Ref sig .tc := ⟨.hbm, 211, rfl⟩
abbrev main_v135 : Ref sig .tc := ⟨.hbm, 212, rfl⟩
abbrev main_cst_31 : Ref sig .tc := ⟨.hbm, 213, rfl⟩
abbrev main_v136 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_cst_32 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_call11_cst : Ref sig .tc := ⟨.hbm, 226, rfl⟩
abbrev main_call11_v0 : Ref sig .tc := ⟨.hbm, 227, rfl⟩
abbrev main_v147 : Ref sig .tc := ⟨.hbm, 228, rfl⟩
abbrev main_v148 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_c_33 : Ref sig .tc := ⟨.hbm, 235, rfl⟩
abbrev main_v154 : Ref sig .tc := ⟨.hbm, 236, rfl⟩
abbrev main_v155 : Ref sig .tc := ⟨.hbm, 237, rfl⟩
abbrev main_cst_34 : Ref sig .tc := ⟨.hbm, 238, rfl⟩
abbrev main_call12_v0 : Ref sig .tc := ⟨.hbm, 239, rfl⟩
abbrev main_call12_v1 : Ref sig .tc := ⟨.hbm, 240, rfl⟩
abbrev main_v156 : Ref sig .tc := ⟨.hbm, 241, rfl⟩
abbrev main_cst_35 : Ref sig .tc := ⟨.hbm, 242, rfl⟩
abbrev main_v157 : Ref sig .tc := ⟨.hbm, 243, rfl⟩
abbrev main_cst_36 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_cst_37 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_call13_cst : Ref sig .tc := ⟨.hbm, 257, rfl⟩
abbrev main_call13_v0 : Ref sig .tc := ⟨.hbm, 258, rfl⟩
abbrev main_v169 : Ref sig .tc := ⟨.hbm, 259, rfl⟩
abbrev main_call14_cst : Ref sig .tc := ⟨.hbm, 260, rfl⟩
abbrev main_call14_v0 : Ref sig .tc := ⟨.hbm, 261, rfl⟩
abbrev main_v170 : Ref sig .tc := ⟨.hbm, 262, rfl⟩
abbrev main_cst_38 : Ref sig .tc := ⟨.hbm, 263, rfl⟩
abbrev main_v171 : Ref sig .tc := ⟨.hbm, 264, rfl⟩
abbrev main_cst_39 : Ref sig .tc := ⟨.hbm, 265, rfl⟩
abbrev main_v172 : Ref sig .tc := ⟨.hbm, 266, rfl⟩
abbrev main_v173 : Ref sig .tc := ⟨.hbm, 267, rfl⟩
abbrev main_v174 : Ref sig .tc := ⟨.hbm, 268, rfl⟩
abbrev main_v175 : Ref sig .tc := ⟨.hbm, 269, rfl⟩
abbrev main_v176 : Ref sig .tc := ⟨.hbm, 270, rfl⟩
abbrev main_v177 : Ref sig .tc := ⟨.hbm, 271, rfl⟩
abbrev main_cst_40 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_c_41 : Ref sig .tc := ⟨.hbm, 277, rfl⟩
abbrev main_v182 : Ref sig .tc := ⟨.hbm, 278, rfl⟩
abbrev main_v183 : Ref sig .tc := ⟨.hbm, 279, rfl⟩
abbrev main_c_42 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_v189 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_cst_43 : Ref sig .tc := ⟨.hbm, 290, rfl⟩
abbrev main_v193 : Ref sig .tc := ⟨.hbm, 291, rfl⟩
abbrev main_cst_44 : Ref sig .tc := ⟨.hbm, 292, rfl⟩
abbrev main_v194 : Ref sig .tc := ⟨.hbm, 293, rfl⟩
abbrev main_v195 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_cst_45 : Ref sig .tc := ⟨.hbm, 298, rfl⟩
abbrev main_v199 : Ref sig .tc := ⟨.hbm, 299, rfl⟩
abbrev main_v200 : Ref sig .tc := ⟨.hbm, 300, rfl⟩
abbrev main_v201 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_cst_46 : Ref sig .tc := ⟨.hbm, 306, rfl⟩
abbrev main_v206 : Ref sig .tc := ⟨.hbm, 307, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S2000x64_0_1 : S1x64.BroadcastsInDim S2000x64 (![0, 1] : Fin 2 → Fin S2000x64.rank)
  transposes_S2000x64_S64x2000_1_0 : S2000x64.Transposes [1, 0] S64x2000
  bcast_S_S2000x2000 : S_.BroadcastsInDim S2000x2000 (![] : Fin 0 → Fin S2000x2000.rank)
  reducesTo_S2000x2000_S2000_d1 : S2000x2000.ReducesTo [1] S2000
  h_S_ : 0 < S_.numel
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x2000_0_1 : S2000x1.BroadcastsInDim S2000x2000 (![0, 1] : Fin 2 → Fin S2000x2000.rank)
  bcast_S_S2000x64 : S_.BroadcastsInDim S2000x64 (![] : Fin 0 → Fin S2000x64.rank)
  bcast_S3_S1x3_1 : S3.BroadcastsInDim S1x3 (![1] : Fin 1 → Fin S1x3.rank)
  bcast_S1x3_S2000x3_0_1 : S1x3.BroadcastsInDim S2000x3 (![0, 1] : Fin 2 → Fin S2000x3.rank)
  transposes_S2000x3_S3x2000_1_0 : S2000x3.Transposes [1, 0] S3x2000
  bcast_S_S2000x3 : S_.BroadcastsInDim S2000x3 (![] : Fin 0 → Fin S2000x3.rank)
  reducesTo_S2000x3_S2000_d1 : S2000x3.ReducesTo [1] S2000
  bcast_S2000x1_S2000x3_0_1 : S2000x1.BroadcastsInDim S2000x3 (![0, 1] : Fin 2 → Fin S2000x3.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  bcast_S1x64_S1000x64_0_1 : S1x64.BroadcastsInDim S1000x64 (![0, 1] : Fin 2 → Fin S1000x64.rank)
  transposes_S1000x64_S64x1000_1_0 : S1000x64.Transposes [1, 0] S64x1000
  bcast_S_S1000x1000 : S_.BroadcastsInDim S1000x1000 (![] : Fin 0 → Fin S1000x1000.rank)
  reducesTo_S1000x1000_S1000_d1 : S1000x1000.ReducesTo [1] S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x1000_0_1 : S1000x1.BroadcastsInDim S1000x1000 (![0, 1] : Fin 2 → Fin S1000x1000.rank)
  bcast_S_S1000x64 : S_.BroadcastsInDim S1000x64 (![] : Fin 0 → Fin S1000x64.rank)
  bcast_S1x3_S1000x3_0_1 : S1x3.BroadcastsInDim S1000x3 (![0, 1] : Fin 2 → Fin S1000x3.rank)
  transposes_S1000x3_S3x1000_1_0 : S1000x3.Transposes [1, 0] S3x1000
  bcast_S_S1000x3 : S_.BroadcastsInDim S1000x3 (![] : Fin 0 → Fin S1000x3.rank)
  reducesTo_S1000x3_S1000_d1 : S1000x3.ReducesTo [1] S1000
  bcast_S1000x1_S1000x3_0_1 : S1000x1.BroadcastsInDim S1000x3 (![0, 1] : Fin 2 → Fin S1000x3.rank)
  bcast_S1x64_S500x64_0_1 : S1x64.BroadcastsInDim S500x64 (![0, 1] : Fin 2 → Fin S500x64.rank)
  transposes_S500x64_S64x500_1_0 : S500x64.Transposes [1, 0] S64x500
  bcast_S_S500x500 : S_.BroadcastsInDim S500x500 (![] : Fin 0 → Fin S500x500.rank)
  reducesTo_S500x500_S500_d1 : S500x500.ReducesTo [1] S500
  bcast_S_S500 : S_.BroadcastsInDim S500 (![] : Fin 0 → Fin S500.rank)
  bcast_S500_S500x1_0 : S500.BroadcastsInDim S500x1 (![0] : Fin 1 → Fin S500x1.rank)
  bcast_S500x1_S500x500_0_1 : S500x1.BroadcastsInDim S500x500 (![0, 1] : Fin 2 → Fin S500x500.rank)
  bcast_S_S500x64 : S_.BroadcastsInDim S500x64 (![] : Fin 0 → Fin S500x64.rank)
  bcast_S1x3_S500x3_0_1 : S1x3.BroadcastsInDim S500x3 (![0, 1] : Fin 2 → Fin S500x3.rank)
  transposes_S500x3_S3x500_1_0 : S500x3.Transposes [1, 0] S3x500
  bcast_S_S500x3 : S_.BroadcastsInDim S500x3 (![] : Fin 0 → Fin S500x3.rank)
  reducesTo_S500x3_S500_d1 : S500x3.ReducesTo [1] S500
  bcast_S500x1_S500x3_0_1 : S500x1.BroadcastsInDim S500x3 (![0, 1] : Fin 2 → Fin S500x3.rank)
  bcast_S1024x1024x3_S1x1024x1024x3_1_2_3 : S1024x1024x3.BroadcastsInDim S1x1024x1024x3 (![1, 2, 3] : Fin 3 → Fin S1x1024x1024x3.rank)
  concatenates_S1x1024x1024x3_S1x1024x1024x3_S1x1024x1024x3_S3x1024x1024x3_d0 : Shape.Concatenates [S1x1024x1024x3, S1x1024x1024x3, S1x1024x1024x3] S3x1024x1024x3 0
  reducesTo_S3_S_d0 : S3.ReducesTo [0] S_
  bcast_S_S1 : S_.BroadcastsInDim S1 (![] : Fin 0 → Fin S1.rank)
  bcast_S1_S3_0 : S1.BroadcastsInDim S3 (![0] : Fin 1 → Fin S3.rank)
  shapeCasts_S3_S3x1x1x1 : S3.ShapeCasts S3x1x1x1
  bcast_S3x1x1x1_S3x1024x1024x3_0_1_2_3 : S3x1x1x1.BroadcastsInDim S3x1024x1024x3 (![0, 1, 2, 3] : Fin 4 → Fin S3x1024x1024x3.rank)
  reducesTo_S3x1024x1024x3_S1024x1024x3_d0 : S3x1024x1024x3.ReducesTo [0] S1024x1024x3
  dot_S2000x156_S156x64_S2000x64_1_0_0_1_n_n_wf : DotDims.WF S2000x156 S156x64 S2000x64 [1] [0] [0] [1] [] []
  dot_S2000x64_S64x2000_S2000x2000_1_0_0_1_n_n_wf : DotDims.WF S2000x64 S64x2000 S2000x2000 [1] [0] [0] [1] [] []
  dot_S2000x2000_S2000x64_S2000x64_1_0_0_1_n_n_wf : DotDims.WF S2000x2000 S2000x64 S2000x64 [1] [0] [0] [1] [] []
  dot_S2000x64_S64x3_S2000x3_1_0_0_1_n_n_wf : DotDims.WF S2000x64 S64x3 S2000x3 [1] [0] [0] [1] [] []
  dot_S2000x3_S3x2000_S2000x2000_1_0_0_1_n_n_wf : DotDims.WF S2000x3 S3x2000 S2000x2000 [1] [0] [0] [1] [] []
  dot_S2000x2000_S2000x3_S2000x3_1_0_0_1_n_n_wf : DotDims.WF S2000x2000 S2000x3 S2000x3 [1] [0] [0] [1] [] []
  gather_S2000x3_S1024x1024x1_S1024x1024x3_2_0_n_n_0_2_13_wf : GatherDims.WF S2000x3 S1024x1024x1 S1024x1024x3 [2] [0] [] [0] [] 2 ![1, 3]
  dot_S1000x156_S156x64_S1000x64_1_0_0_1_n_n_wf : DotDims.WF S1000x156 S156x64 S1000x64 [1] [0] [0] [1] [] []
  dot_S1000x64_S64x1000_S1000x1000_1_0_0_1_n_n_wf : DotDims.WF S1000x64 S64x1000 S1000x1000 [1] [0] [0] [1] [] []
  dot_S1000x1000_S1000x64_S1000x64_1_0_0_1_n_n_wf : DotDims.WF S1000x1000 S1000x64 S1000x64 [1] [0] [0] [1] [] []
  dot_S1000x64_S64x3_S1000x3_1_0_0_1_n_n_wf : DotDims.WF S1000x64 S64x3 S1000x3 [1] [0] [0] [1] [] []
  dot_S1000x3_S3x1000_S1000x1000_1_0_0_1_n_n_wf : DotDims.WF S1000x3 S3x1000 S1000x1000 [1] [0] [0] [1] [] []
  dot_S1000x1000_S1000x3_S1000x3_1_0_0_1_n_n_wf : DotDims.WF S1000x1000 S1000x3 S1000x3 [1] [0] [0] [1] [] []
  gather_S1000x3_S1024x1024x1_S1024x1024x3_2_0_n_n_0_2_13_wf : GatherDims.WF S1000x3 S1024x1024x1 S1024x1024x3 [2] [0] [] [0] [] 2 ![1, 3]
  dot_S500x156_S156x64_S500x64_1_0_0_1_n_n_wf : DotDims.WF S500x156 S156x64 S500x64 [1] [0] [0] [1] [] []
  dot_S500x64_S64x500_S500x500_1_0_0_1_n_n_wf : DotDims.WF S500x64 S64x500 S500x500 [1] [0] [0] [1] [] []
  dot_S500x500_S500x64_S500x64_1_0_0_1_n_n_wf : DotDims.WF S500x500 S500x64 S500x64 [1] [0] [0] [1] [] []
  dot_S500x64_S64x3_S500x3_1_0_0_1_n_n_wf : DotDims.WF S500x64 S64x3 S500x3 [1] [0] [0] [1] [] []
  dot_S500x3_S3x500_S500x500_1_0_0_1_n_n_wf : DotDims.WF S500x3 S3x500 S500x500 [1] [0] [0] [1] [] []
  dot_S500x500_S500x3_S500x3_1_0_0_1_n_n_wf : DotDims.WF S500x500 S500x3 S500x3 [1] [0] [0] [1] [] []
  gather_S500x3_S1024x1024x1_S1024x1024x3_2_0_n_n_0_2_13_wf : GatherDims.WF S500x3 S1024x1024x1 S1024x1024x3 [2] [0] [] [0] [] 2 ![1, 3]

variable [Facts₀]

def dot_S2000x156_S156x64_S2000x64_1_0_0_1_n_n : DotDims S2000x156 S156x64 S2000x64 where
  lhsContracting := [1]
  rhsContracting := [0]
  lhsNonContracting := [0]
  rhsNonContracting := [1]
  lhsBatch := []
  rhsBatch := []
  wf := dot_S2000x156_S156x64_S2000x64_1_0_0_1_n_n_wf
def dot_S2000x64_S64x2000_S2000x2000_1_0_0_1_n_n : DotDims S2000x64 S64x2000 S2000x2000 where
  lhsContracting := [1]
  rhsContracting := [0]
  lhsNonContracting := [0]
  rhsNonContracting := [1]
  lhsBatch := []
  rhsBatch := []
  wf := dot_S2000x64_S64x2000_S2000x2000_1_0_0_1_n_n_wf
def dot_S2000x2000_S2000x64_S2000x64_1_0_0_1_n_n : DotDims S2000x2000 S2000x64 S2000x64 where
  lhsContracting := [1]
  rhsContracting := [0]
  lhsNonContracting := [0]
  rhsNonContracting := [1]
  lhsBatch := []
  rhsBatch := []
  wf := dot_S2000x2000_S2000x64_S2000x64_1_0_0_1_n_n_wf
def dot_S2000x64_S64x3_S2000x3_1_0_0_1_n_n : DotDims S2000x64 S64x3 S2000x3 where
  lhsContracting := [1]
  rhsContracting := [0]
  lhsNonContracting := [0]
  rhsNonContracting := [1]
  lhsBatch := []
  rhsBatch := []
  wf := dot_S2000x64_S64x3_S2000x3_1_0_0_1_n_n_wf
def dot_S2000x3_S3x2000_S2000x2000_1_0_0_1_n_n : DotDims S2000x3 S3x2000 S2000x2000 where
  lhsContracting := [1]
  rhsContracting := [0]
  lhsNonContracting := [0]
  rhsNonContracting := [1]
  lhsBatch := []
  rhsBatch := []
  wf := dot_S2000x3_S3x2000_S2000x2000_1_0_0_1_n_n_wf
def dot_S2000x2000_S2000x3_S2000x3_1_0_0_1_n_n : DotDims S2000x2000 S2000x3 S2000x3 where
  lhsContracting := [1]
  rhsContracting := [0]
  lhsNonContracting := [0]
  rhsNonContracting := [1]
  lhsBatch := []
  rhsBatch := []
  wf := dot_S2000x2000_S2000x3_S2000x3_1_0_0_1_n_n_wf
def gather_S2000x3_S1024x1024x1_S1024x1024x3_2_0_n_n_0_2_13 : GatherDims S2000x3 S1024x1024x1 S1024x1024x3 where
  offsetDims := [2]
  collapsedSliceDims := [0]
  operandBatchingDims := []
  startIndicesBatchingDims := []
  startIndexMap := [0]
  indexVectorDim := 2
  sliceSizes := ![1, 3]
  wf := gather_S2000x3_S1024x1024x1_S1024x1024x3_2_0_n_n_0_2_13_wf
def dot_S1000x156_S156x64_S1000x64_1_0_0_1_n_n : DotDims S1000x156 S156x64 S1000x64 where
  lhsContracting := [1]
  rhsContracting := [0]
  lhsNonContracting := [0]
  rhsNonContracting := [1]
  lhsBatch := []
  rhsBatch := []
  wf := dot_S1000x156_S156x64_S1000x64_1_0_0_1_n_n_wf
def dot_S1000x64_S64x1000_S1000x1000_1_0_0_1_n_n : DotDims S1000x64 S64x1000 S1000x1000 where
  lhsContracting := [1]
  rhsContracting := [0]
  lhsNonContracting := [0]
  rhsNonContracting := [1]
  lhsBatch := []
  rhsBatch := []
  wf := dot_S1000x64_S64x1000_S1000x1000_1_0_0_1_n_n_wf
def dot_S1000x1000_S1000x64_S1000x64_1_0_0_1_n_n : DotDims S1000x1000 S1000x64 S1000x64 where
  lhsContracting := [1]
  rhsContracting := [0]
  lhsNonContracting := [0]
  rhsNonContracting := [1]
  lhsBatch := []
  rhsBatch := []
  wf := dot_S1000x1000_S1000x64_S1000x64_1_0_0_1_n_n_wf
def dot_S1000x64_S64x3_S1000x3_1_0_0_1_n_n : DotDims S1000x64 S64x3 S1000x3 where
  lhsContracting := [1]
  rhsContracting := [0]
  lhsNonContracting := [0]
  rhsNonContracting := [1]
  lhsBatch := []
  rhsBatch := []
  wf := dot_S1000x64_S64x3_S1000x3_1_0_0_1_n_n_wf
def dot_S1000x3_S3x1000_S1000x1000_1_0_0_1_n_n : DotDims S1000x3 S3x1000 S1000x1000 where
  lhsContracting := [1]
  rhsContracting := [0]
  lhsNonContracting := [0]
  rhsNonContracting := [1]
  lhsBatch := []
  rhsBatch := []
  wf := dot_S1000x3_S3x1000_S1000x1000_1_0_0_1_n_n_wf
def dot_S1000x1000_S1000x3_S1000x3_1_0_0_1_n_n : DotDims S1000x1000 S1000x3 S1000x3 where
  lhsContracting := [1]
  rhsContracting := [0]
  lhsNonContracting := [0]
  rhsNonContracting := [1]
  lhsBatch := []
  rhsBatch := []
  wf := dot_S1000x1000_S1000x3_S1000x3_1_0_0_1_n_n_wf
def gather_S1000x3_S1024x1024x1_S1024x1024x3_2_0_n_n_0_2_13 : GatherDims S1000x3 S1024x1024x1 S1024x1024x3 where
  offsetDims := [2]
  collapsedSliceDims := [0]
  operandBatchingDims := []
  startIndicesBatchingDims := []
  startIndexMap := [0]
  indexVectorDim := 2
  sliceSizes := ![1, 3]
  wf := gather_S1000x3_S1024x1024x1_S1024x1024x3_2_0_n_n_0_2_13_wf
def dot_S500x156_S156x64_S500x64_1_0_0_1_n_n : DotDims S500x156 S156x64 S500x64 where
  lhsContracting := [1]
  rhsContracting := [0]
  lhsNonContracting := [0]
  rhsNonContracting := [1]
  lhsBatch := []
  rhsBatch := []
  wf := dot_S500x156_S156x64_S500x64_1_0_0_1_n_n_wf
def dot_S500x64_S64x500_S500x500_1_0_0_1_n_n : DotDims S500x64 S64x500 S500x500 where
  lhsContracting := [1]
  rhsContracting := [0]
  lhsNonContracting := [0]
  rhsNonContracting := [1]
  lhsBatch := []
  rhsBatch := []
  wf := dot_S500x64_S64x500_S500x500_1_0_0_1_n_n_wf
def dot_S500x500_S500x64_S500x64_1_0_0_1_n_n : DotDims S500x500 S500x64 S500x64 where
  lhsContracting := [1]
  rhsContracting := [0]
  lhsNonContracting := [0]
  rhsNonContracting := [1]
  lhsBatch := []
  rhsBatch := []
  wf := dot_S500x500_S500x64_S500x64_1_0_0_1_n_n_wf
def dot_S500x64_S64x3_S500x3_1_0_0_1_n_n : DotDims S500x64 S64x3 S500x3 where
  lhsContracting := [1]
  rhsContracting := [0]
  lhsNonContracting := [0]
  rhsNonContracting := [1]
  lhsBatch := []
  rhsBatch := []
  wf := dot_S500x64_S64x3_S500x3_1_0_0_1_n_n_wf
def dot_S500x3_S3x500_S500x500_1_0_0_1_n_n : DotDims S500x3 S3x500 S500x500 where
  lhsContracting := [1]
  rhsContracting := [0]
  lhsNonContracting := [0]
  rhsNonContracting := [1]
  lhsBatch := []
  rhsBatch := []
  wf := dot_S500x3_S3x500_S500x500_1_0_0_1_n_n_wf
def dot_S500x500_S500x3_S500x3_1_0_0_1_n_n : DotDims S500x500 S500x3 S500x3 where
  lhsContracting := [1]
  rhsContracting := [0]
  lhsNonContracting := [0]
  rhsNonContracting := [1]
  lhsBatch := []
  rhsBatch := []
  wf := dot_S500x500_S500x3_S500x3_1_0_0_1_n_n_wf
def gather_S500x3_S1024x1024x1_S1024x1024x3_2_0_n_n_0_2_13 : GatherDims S500x3 S1024x1024x1 S1024x1024x3 where
  offsetDims := [2]
  collapsedSliceDims := [0]
  operandBatchingDims := []
  startIndicesBatchingDims := []
  startIndexMap := [0]
  indexVectorDim := 2
  sliceSizes := ![1, 3]
  wf := gather_S500x3_S1024x1024x1_S1024x1024x3_2_0_n_n_0_2_13_wf

class Facts : Prop extends Facts₀ where

variable [Facts]
-- ==== Proof.K.RunCond.lean ====
/- The whole program's run from one record per region, with the result named: the launch theorem for a program of several
   regions applied to the items of the program in order, the host stretches as they are and each region through its record,
   the thread state between two items being "every unscoped buffer at that point's contents, beside a rest". At the end the
   result buffer and each argument are read off the last contents. -/
import proofs.«123632_j87531433492498_2_alg».proof.Proof.Gen.Kernel.Regions

set_option maxRecDepth 1308

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The run of the whole program, given one record per region: every weakly fair execution from memory `m` with zero counters
    terminates, and every final memory holds the result buffer at the last item's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 13) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V2 m outs c) ∗ E 2 c) ⊢ R2.pre c)
    (hpost2 : ∀ c : Dev nD, R2.post c ⊢ iprop(StableHlo.held (c : Thread nD τ) (Pipeline.ucRefs τ sig) (V3 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V3 m outs c) ∗ E 3 c) ⊢ R3.pre c)
    (hpost3 : ∀ c : Dev nD, R3.post c ⊢ iprop(StableHlo.held (c : Thread nD τ) (Pipeline.ucRefs τ sig) (V4 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V6 m outs c) ∗ E 4 c) ⊢ R4.pre c)
    (hpost4 : ∀ c : Dev nD, R4.post c ⊢ iprop(StableHlo.held (c : Thread nD τ) (Pipeline.ucRefs τ sig) (V7 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V7 m outs c) ∗ E 5 c) ⊢ R5.pre c)
    (hpost5 : ∀ c : Dev nD, R5.post c ⊢ iprop(StableHlo.held (c : Thread nD τ) (Pipeline.ucRefs τ sig) (V8 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V8 m outs c) ∗ E 6 c) ⊢ R6.pre c)
    (hpost6 : ∀ c : Dev nD, R6.post c ⊢ iprop(StableHlo.held (c : Thread nD τ) (Pipeline.ucRefs τ sig) (V9 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V9 m outs c) ∗ E 7 c) ⊢ R7.pre c)
    (hpost7 : ∀ c : Dev nD, R7.post c ⊢ iprop(StableHlo.held (c : Thread nD τ) (Pipeline.ucRefs τ sig) (V10 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V12 m outs c) ∗ E 8 c) ⊢ R8.pre c)
    (hpost8 : ∀ c : Dev nD, R8.post c ⊢ iprop(StableHlo.held (c : Thread nD τ) (Pipeline.ucRefs τ sig) (V13 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V13 m outs c) ∗ E 9 c) ⊢ R9.pre c)
    (hpost9 : ∀ c : Dev nD, R9.post c ⊢ iprop(StableHlo.held (c : Thread nD τ) (Pipeline.ucRefs τ sig) (V14 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V14 m outs c) ∗ E 10 c) ⊢ R10.pre c)
    (hpost10 : ∀ c : Dev nD, R10.post c ⊢ iprop(StableHlo.held (c : Thread nD τ) (Pipeline.ucRefs τ sig) (V15 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V15 m outs c) ∗ E 11 c) ⊢ R11.pre c)
    (hpost11 : ∀ c : Dev nD, R11.post c ⊢ iprop(StableHlo.held (c : Thread nD τ) (Pipeline.ucRefs τ sig) (V16 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V18 m outs c) ∗ E 12 c) ⊢ R12.pre c)
    (hpost12 : ∀ c : Dev nD, R12.post c ⊢ iprop(StableHlo.held (c : Thread nD τ) (Pipeline.ucRefs τ sig) (V19 m outs c) ∗ E 13 c)) :
    θ_run defs (onTc (τ := τ) (main (F := F))) ⟨m, fun _ => 0, ρ⟩ (fun r => ∀ c : Dev nD,
      r.2.mem ((c.tc : Thread nD τ).loc main_v83) = V20 m outs c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12)
    (fun c Q => by
      rewrite [main_chain c, Seg.run_eq_chain,
        show (segs m outs 𝒱₀ L lv E ι pdats R0 R1 R2 R3 R4 R5 R6 R7 R8 R9 R10 R11 R12 c).map Seg.prog = [
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4,
          StableHlo.seq hostOps4_1,
          Prog.lift (.customCall (Pipeline.entry 4) ()),
          Prog.lift (.customCall (Pipeline.entry 5) ()),
          Prog.lift (.customCall (Pipeline.entry 6) ()),
          Prog.lift (.customCall (Pipeline.entry 7) ()),
          StableHlo.seq hostOps8,
          StableHlo.seq hostOps8_1,
          Prog.lift (.customCall (Pipeline.entry 8) ()),
          Prog.lift (.customCall (Pipeline.entry 9) ()),
          Prog.lift (.customCall (Pipeline.entry 10) ()),
          Prog.lift (.customCall (Pipeline.entry 11) ()),
          StableHlo.seq hostOps12,
          StableHlo.seq hostOps12_1,
          Prog.lift (.customCall (Pipeline.entry 12) ()),
          StableHlo.seq hostOps13 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V20 m outs c))
    (hch := fun c => ⟨hpre0 c, (hpost0 c).trans (hpre1 c), (hpost1 c).trans (hpre2 c), (hpost2 c).trans (hpre3 c), hpost3 c, .rfl, hpre4 c, (hpost4 c).trans (hpre5 c), (hpost5 c).trans (hpre6 c), (hpost6 c).trans (hpre7 c), hpost7 c, .rfl, hpre8 c, (hpost8 c).trans (hpre9 c), (hpost9 c).trans (hpre10 c), (hpost10 c).trans (hpre11 c), hpost11 c, .rfl, hpre12 c, hpost12 c, sep_mono .rfl (hE13 c)⟩)
    (hinit := ?_) (QY := fun c s => s.mem ((c.tc : Thread nD τ).loc main_v83) = V20 m outs c main_v83 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V20 m outs c) s') $$ [Hh HSI]
    · isplitl [Hh] <;> iassumption
    icases Hr with ⟨%h, HSI⟩
    imodintro
    isplitr
    · ipureintro
      exact ⟨h (Proc.devRef .tc main_v83) (Finset.mem_filter.mpr ⟨StableHlo.devRef_mem_tcRefs main_v83, by decide⟩),
        (h (Proc.devRef .tc main_arg0) (Finset.mem_filter.mpr ⟨StableHlo.devRef_mem_tcRefs main_arg0, by decide⟩)).trans (V20_main_arg0 m outs c),
        (h (Proc.devRef .tc main_arg1) (Finset.mem_filter.mpr ⟨StableHlo.devRef_mem_tcRefs main_arg1, by decide⟩)).trans (V20_main_arg1 m outs c),
        (h (Proc.devRef .tc main_arg2) (Finset.mem_filter.mpr ⟨StableHlo.devRef_mem_tcRefs main_arg2, by decide⟩)).trans (V20_main_arg2 m outs c),
        (h (Proc.devRef .tc main_arg3) (Finset.mem_filter.mpr ⟨StableHlo.devRef_mem_tcRefs main_arg3, by decide⟩)).trans (V20_main_arg3 m outs c),
        (h (Proc.devRef .tc main_arg4) (Finset.mem_filter.mpr ⟨StableHlo.devRef_mem_tcRefs main_arg4, by decide⟩)).trans (V20_main_arg4 m outs c),
        (h (Proc.devRef .tc main_arg5) (Finset.mem_filter.mpr ⟨StableHlo.devRef_mem_tcRefs main_arg5, by decide⟩)).trans (V20_main_arg5 m outs c),
        (h (Proc.devRef .tc main_arg6) (Finset.mem_filter.mpr ⟨StableHlo.devRef_mem_tcRefs main_arg6, by decide⟩)).trans (V20_main_arg6 m outs c),
        (h (Proc.devRef .tc main_arg7) (Finset.mem_filter.mpr ⟨StableHlo.devRef_mem_tcRefs main_arg7, by decide⟩)).trans (V20_main_arg7 m outs c),
        (h (Proc.devRef .tc main_arg8) (Finset.mem_filter.mpr ⟨StableHlo.devRef_mem_tcRefs main_arg8, by decide⟩)).trans (V20_main_arg8 m outs c),
        (h (Proc.devRef .tc main_arg9) (Finset.mem_filter.mpr ⟨StableHlo.devRef_mem_tcRefs main_arg9, by decide⟩)).trans (V20_main_arg9 m outs c),
        (h (Proc.devRef .tc main_arg10) (Finset.mem_filter.mpr ⟨StableHlo.devRef_mem_tcRefs main_arg10, by decide⟩)).trans (V20_main_arg10 m outs c),
        (h (Proc.devRef .tc main_arg11) (Finset.mem_filter.mpr ⟨StableHlo.devRef_mem_tcRefs main_arg11, by decide⟩)).trans (V20_main_arg11 m outs c),
        (h (Proc.devRef .tc main_arg12) (Finset.mem_filter.mpr ⟨StableHlo.devRef_mem_tcRefs main_arg12, by decide⟩)).trans (V20_main_arg12 m outs c),
        (h (Proc.devRef .tc main_arg13) (Finset.mem_filter.mpr ⟨StableHlo.devRef_mem_tcRefs main_arg13, by decide⟩)).trans (V20_main_arg13 m outs c),
        (h (Proc.devRef .tc main_arg14) (Finset.mem_filter.mpr ⟨StableHlo.devRef_mem_tcRefs main_arg14, by decide⟩)).trans (V20_main_arg14 m outs c),
        (h (Proc.devRef .tc main_arg15) (Finset.mem_filter.mpr ⟨StableHlo.devRef_mem_tcRefs main_arg15, by decide⟩)).trans (V20_main_arg15 m outs c),
        (h (Proc.devRef .tc main_arg16) (Finset.mem_filter.mpr ⟨StableHlo.devRef_mem_tcRefs main_arg16, by decide⟩)).trans (V20_main_arg16 m outs c),
        (h (Proc.devRef .tc main_arg17) (Finset.mem_filter.mpr ⟨StableHlo.devRef_mem_tcRefs main_arg17, by decide⟩)).trans (V20_main_arg17 m outs c),
        (h (Proc.devRef .tc main_arg18) (Finset.mem_filter.mpr ⟨StableHlo.devRef_mem_tcRefs main_arg18, by decide⟩)).trans (V20_main_arg18 m outs c),
        (h (Proc.devRef .tc main_arg19) (Finset.mem_filter.mpr ⟨StableHlo.devRef_mem_tcRefs main_arg19, by decide⟩)).trans (V20_main_arg19 m outs c),
        (h (Proc.devRef .tc main_arg20) (Finset.mem_filter.mpr ⟨StableHlo.devRef_mem_tcRefs main_arg20, by decide⟩)).trans (V20_main_arg20 m outs c),
        (h (Proc.devRef .tc main_arg21) (Finset.mem_filter.mpr ⟨StableHlo.devRef_mem_tcRefs main_arg21, by decide⟩)).trans (V20_main_arg21 m outs c)⟩
    · iexact HSI

end Cert.Kernel.Hand

end
-- ==== Proof.K.Body0.lean ====
/- Region 0: a dense layer H = X·W + b computed at one grid point on whole arrays. The three operands are read
   whole, the product is taken into a zero accumulator, the bias row is added to every row, and the result is stored whole. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds its block at every point, for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rX0 : Rect S2000x156 := Rect.unit (s := S2000x156) ![0, 0] S2000x156.size inb_S2000x156_S2000x156_0_0
abbrev rW0 : Rect S156x64 := Rect.unit (s := S156x64) ![0, 0] S156x64.size inb_S156x64_S156x64_0_0
abbrev rb0 : Rect S64 := Rect.unit (s := S64) ![0] S64.size inb_S64_S64_0
abbrev rO0 : Rect S2000x64 := Rect.unit (s := S2000x64) ![0, 0] S2000x64.size inb_S2000x64_S2000x64_0_0

/-- What the body leaves in the output's staging buffer: X·W + b of the three operand blocks, stored as one whole piece. -/
def out0_3 (x0 : Vec F S2000x156 .f32) (x1 : Vec F S156x64 .f32) (x2 : Vec F S64 .f32) : Vec F S2000x64 .f32 :=
  View.canon [⟨rO0, k0_pay1 (View.ld x0 rX0) (View.ld x1 rW0) (View.ld x2 rb0)⟩]

/-- The one store covers the buffer. -/
theorem cover0_3 (p0 : Vec F S2000x64 .f32) (y : S2000x64.Idx) :
    ∃ pc ∈ ([⟨rO0, p0⟩] : List (View.Piece (Elt F) S2000x64 .f32)), y ∈ pc.1.set :=
  View.cover_of_tiled [⟨rO0, p0⟩] S2000x64.size (by rfl) y

set_option maxHeartbeats 1000000 in
/-- The body on whole staging memrefs: operands at `x0`, `x1`, `x2`, the output at anything; it ends with the operands as they
    were and the output at `out0_3` of them. -/
theorem sound_kernel0 (c : Dev nD) (E : Set ℕ) (i : grid0.Coords)
    (arg1 : Memref sig .tc .vmem S2000x156 .f32) (harg1 : arg1.IsWhole) (arg2 : Memref sig .tc .vmem S156x64 .f32) (harg2 : arg2.IsWhole)
    (arg3 : Memref sig .tc .vmem S64 .f32) (harg3 : arg3.IsWhole) (arg4 : Memref sig .tc .vmem S2000x64 .f32) (harg4 : arg4.IsWhole)
    (x0 : Vec F S2000x156 .f32) (x1 : Vec F S156x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body each operand's buffer
    at its block and the output's at the layer's value of the operand blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the operands' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/- Region 1: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds its block at every point, fetched there or not (the key matrix is fetched once and its
    block index never moves), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rQ1 : Rect S400x64 := Rect.unit (s := S400x64) ![0, 0] S400x64.size inb_S400x64_S400x64_0_0
abbrev rH1 : Rect S2000x64 := Rect.unit (s := S2000x64) ![0, 0] S2000x64.size inb_S2000x64_S2000x64_0_0
abbrev rA1 : Rect S400x2000 := Rect.unit (s := S400x2000) ![0, 0] S400x2000.size inb_S400x2000_S400x2000_0_0
abbrev rO1 : Rect S400x64 := Rect.unit (s := S400x64) ![0, 0] S400x64.size inb_S400x64_S400x64_0_0

/-- What the body leaves in the output's staging buffer: the attention of the query block over all rows, stored as one whole piece. -/
def out1_3 (x0 : Vec F S400x64 .f32) (x1 : Vec F S2000x64 .f32) (x2 : Vec F S400x2000 .i32) : Vec F S400x64 .f32 :=
  View.canon [⟨rO1, k1_pay1 (View.ld x0 rQ1) (View.ld x1 rH1) (View.ld x2 rA1)⟩]

/-- The one store covers the buffer. -/
theorem cover1_3 (p0 : Vec F S400x64 .f32) (y : S400x64.Idx) :
    ∃ pc ∈ ([⟨rO1, p0⟩] : List (View.Piece (Elt F) S400x64 .f32)), y ∈ pc.1.set :=
  View.cover_of_tiled [⟨rO1, p0⟩] S400x64.size (by rfl) y

set_option maxHeartbeats 1000000 in
/-- The body on whole staging memrefs: operands at `x0`, `x1`, `x2`, the output at anything; it ends with the operands as they
    were and the output at `out1_3` of them. -/
theorem sound_kernel1 (c : Dev nD) (E : Set ℕ) (i : grid1.Coords)
    (arg1 : Memref sig .tc .vmem S400x64 .f32) (harg1 : arg1.IsWhole) (arg2 : Memref sig .tc .vmem S2000x64 .f32) (harg2 : arg2.IsWhole)
    (arg3 : Memref sig .tc .vmem S400x2000 .i32) (harg3 : arg3.IsWhole) (arg4 : Memref sig .tc .vmem S400x64 .f32) (harg4 : arg4.IsWhole)
    (x0 : Vec F S400x64 .f32) (x1 : Vec F S2000x64 .f32) (x2 : Vec F S400x2000 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gat_attention_kernel i arg1 harg1 arg2 harg2 arg3 harg3 arg4 harg4) K := by
  simp only [cc1__gat_attention_kernel_eq_skeleton]; unfold cc1__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body each operand's buffer
    at its block and the output's at the attention of the operand blocks; nothing owed. The query window and the key window
    lie over one array, read only: each holds half of it; the adjacency and the output are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the operands' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/- Region 2: a dense layer H = X·W + b computed at one grid point on whole arrays. The three operands are read
   whole, the product is taken into a zero accumulator, the bias row is added to every row, and the result is stored whole. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's staging buffer holds its block at every point, for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rX2 : Rect S2000x64 := Rect.unit (s := S2000x64) ![0, 0] S2000x64.size inb_S2000x64_S2000x64_0_0
abbrev rW2 : Rect S64x3 := Rect.unit (s := S64x3) ![0, 0] S64x3.size inb_S64x3_S64x3_0_0
abbrev rb2 : Rect S3 := Rect.unit (s := S3) ![0] S3.size inb_S3_S3_0
abbrev rO2 : Rect S2000x3 := Rect.unit (s := S2000x3) ![0, 0] S2000x3.size inb_S2000x3_S2000x3_0_0

/-- What the body leaves in the output's staging buffer: X·W + b of the three operand blocks, stored as one whole piece. -/
def out2_3 (x0 : Vec F S2000x64 .f32) (x1 : Vec F S64x3 .f32) (x2 : Vec F S3 .f32) : Vec F S2000x3 .f32 :=
  View.canon [⟨rO2, k2_pay1 (View.ld x0 rX2) (View.ld x1 rW2) (View.ld x2 rb2)⟩]

/-- The one store covers the buffer. -/
theorem cover2_3 (p0 : Vec F S2000x3 .f32) (y : S2000x3.Idx) :
    ∃ pc ∈ ([⟨rO2, p0⟩] : List (View.Piece (Elt F) S2000x3 .f32)), y ∈ pc.1.set :=
  View.cover_of_tiled [⟨rO2, p0⟩] S2000x3.size (by rfl) y

set_option maxHeartbeats 1000000 in
/-- The body on whole staging memrefs: operands at `x0`, `x1`, `x2`, the output at anything; it ends with the operands as they
    were and the output at `out2_3` of them. -/
theorem sound_kernel2 (c : Dev nD) (E : Set ℕ) (i : grid2.Coords)
    (arg1 : Memref sig .tc .vmem S2000x64 .f32) (harg1 : arg1.IsWhole) (arg2 : Memref sig .tc .vmem S64x3 .f32) (harg2 : arg2.IsWhole)
    (arg3 : Memref sig .tc .vmem S3 .f32) (harg3 : arg3.IsWhole) (arg4 : Memref sig .tc .vmem S2000x3 .f32) (harg4 : arg4.IsWhole)
    (x0 : Vec F S2000x64 .f32) (x1 : Vec F S64x3 .f32) (x2 : Vec F S3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body each operand's buffer
    at its block and the output's at the layer's value of the operand blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the operands' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
/- Region 3: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An operand's staging buffer holds its block at every point, fetched there or not (the key matrix is fetched once and its
    block index never moves), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body reads and writes through. -/
abbrev rQ3 : Rect S400x3 := Rect.unit (s := S400x3) ![0, 0] S400x3.size inb_S400x3_S400x3_0_0
abbrev rH3 : Rect S2000x3 := Rect.unit (s := S2000x3) ![0, 0] S2000x3.size inb_S2000x3_S2000x3_0_0
abbrev rA3 : Rect S400x2000 := Rect.unit (s := S400x2000) ![0, 0] S400x2000.size inb_S400x2000_S400x2000_0_0
abbrev rO3 : Rect S400x3 := Rect.unit (s := S400x3) ![0, 0] S400x3.size inb_S400x3_S400x3_0_0

/-- What the body leaves in the output's staging buffer: the attention of the query block over all rows, stored as one whole piece. -/
def out3_3 (x0 : Vec F S400x3 .f32) (x1 : Vec F S2000x3 .f32) (x2 : Vec F S400x2000 .i32) : Vec F S400x3 .f32 :=
  View.canon [⟨rO3, k3_pay1 (View.ld x0 rQ3) (View.ld x1 rH3) (View.ld x2 rA3)⟩]

/-- The one store covers the buffer. -/
theorem cover3_3 (p0 : Vec F S400x3 .f32) (y : S400x3.Idx) :
    ∃ pc ∈ ([⟨rO3, p0⟩] : List (View.Piece (Elt F) S400x3 .f32)), y ∈ pc.1.set :=
  View.cover_of_tiled [⟨rO3, p0⟩] S400x3.size (by rfl) y

set_option maxHeartbeats 1000000 in
/-- The body on whole staging memrefs: operands at `x0`, `x1`, `x2`, the output at anything; it ends with the operands as they
    were and the output at `out3_3` of them. -/
theorem sound_kernel3 (c : Dev nD) (E : Set ℕ) (i : grid3.Coords)
    (arg1 : Memref sig .tc .vmem S400x3 .f32) (harg1 : arg1.IsWhole) (arg2 : Memref sig .tc .vmem S2000x3 .f32) (harg2 : arg2.IsWhole)
    (arg3 : Memref sig .tc .vmem S400x2000 .i32) (harg3 : arg3.IsWhole) (arg4 : Memref sig .tc .vmem S400x3 .f32) (harg4 : arg4.IsWhole)
    (x0 : Vec F S400x3 .f32) (x1 : Vec F S2000x3 .f32) (x2 : Vec F S400x2000 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__gat_attention_kernel i arg1 harg1 arg2 harg2 arg3 harg3 arg4 harg4) K := by
  simp only [cc3__gat_attention_kernel_eq_skeleton]; unfold cc3__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this pipeline on core `c`: the arrays as the region finds them; after the body each operand's buffer
    at its block and the output's at the attention of the operand blocks; nothing owed. The query window and the key window
    lie over one array, read only: each holds half of it; the adjacency and the output are held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q w := match w with
    | ⟨0, _⟩ => fullShare.left
    | ⟨1, _⟩ => fullShare.right
    | ⟨2, _⟩ => fullShare
    | ⟨3, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the operands' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
/- Region 4: a dense layer H = X·W + b computed at one grid point on whole arrays. The three operands are read
   whole, the product is taken into a zero accumulator, the bias row is added to every row, and the result is stored whole. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An operand's staging buffer holds its block at every point, for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body reads and writes through. -/
abbrev rX4 : Rect S1000x156 := Rect.unit (s := S1000x156) ![0, 0] S1000x156.size inb_S1000x156_S1000x156_0_0
abbrev rW4 : Rect S156x64 := Rect.unit (s := S156x64) ![0, 0] S156x64.size inb_S156x64_S156x64_0_0
abbrev rb4 : Rect S64 := Rect.unit (s := S64) ![0] S64.size inb_S64_S64_0
abbrev rO4 : Rect S1000x64 := Rect.unit (s := S1000x64) ![0, 0] S1000x64.size inb_S1000x64_S1000x64_0_0

/-- What the body leaves in the output's staging buffer: X·W + b of the three operand blocks, stored as one whole piece. -/
def out4_3 (x0 : Vec F S1000x156 .f32) (x1 : Vec F S156x64 .f32) (x2 : Vec F S64 .f32) : Vec F S1000x64 .f32 :=
  View.canon [⟨rO4, k4_pay1 (View.ld x0 rX4) (View.ld x1 rW4) (View.ld x2 rb4)⟩]

/-- The one store covers the buffer. -/
theorem cover4_3 (p0 : Vec F S1000x64 .f32) (y : S1000x64.Idx) :
    ∃ pc ∈ ([⟨rO4, p0⟩] : List (View.Piece (Elt F) S1000x64 .f32)), y ∈ pc.1.set :=
  View.cover_of_tiled [⟨rO4, p0⟩] S1000x64.size (by rfl) y

set_option maxHeartbeats 1000000 in
/-- The body on whole staging memrefs: operands at `x0`, `x1`, `x2`, the output at anything; it ends with the operands as they
    were and the output at `out4_3` of them. -/
theorem sound_kernel4 (c : Dev nD) (E : Set ℕ) (i : grid4.Coords)
    (arg1 : Memref sig .tc .vmem S1000x156 .f32) (harg1 : arg1.IsWhole) (arg2 : Memref sig .tc .vmem S156x64 .f32) (harg2 : arg2.IsWhole)
    (arg3 : Memref sig .tc .vmem S64 .f32) (harg3 : arg3.IsWhole) (arg4 : Memref sig .tc .vmem S1000x64 .f32) (harg4 : arg4.IsWhole)
    (x0 : Vec F S1000x156 .f32) (x1 : Vec F S156x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of this pipeline on core `c`: the arrays as the region finds them; after the body each operand's buffer
    at its block and the output's at the layer's value of the operand blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the operands' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Body5.lean ====
/- Region 5: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An operand's staging buffer holds its block at every point, fetched there or not (the key matrix is fetched once and its
    block index never moves), for any proof data over these arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body reads and writes through. -/
abbrev rQ5 : Rect S200x64 := Rect.unit (s := S200x64) ![0, 0] S200x64.size inb_S200x64_S200x64_0_0
abbrev rH5 : Rect S1000x64 := Rect.unit (s := S1000x64) ![0, 0] S1000x64.size inb_S1000x64_S1000x64_0_0
abbrev rA5 : Rect S200x1000 := Rect.unit (s := S200x1000) ![0, 0] S200x1000.size inb_S200x1000_S200x1000_0_0
abbrev rO5 : Rect S200x64 := Rect.unit (s := S200x64) ![0, 0] S200x64.size inb_S200x64_S200x64_0_0

/-- What the body leaves in the output's staging buffer: the attention of the query block over all rows, stored as one whole piece. -/
def out5_3 (x0 : Vec F S200x64 .f32) (x1 : Vec F S1000x64 .f32) (x2 : Vec F S200x1000 .i32) : Vec F S200x64 .f32 :=
  View.canon [⟨rO5, k5_pay1 (View.ld x0 rQ5) (View.ld x1 rH5) (View.ld x2 rA5)⟩]

/-- The one store covers the buffer. -/
theorem cover5_3 (p0 : Vec F S200x64 .f32) (y : S200x64.Idx) :
    ∃ pc ∈ ([⟨rO5, p0⟩] : List (View.Piece (Elt F) S200x64 .f32)), y ∈ pc.1.set :=
  View.cover_of_tiled [⟨rO5, p0⟩] S200x64.size (by rfl) y

set_option maxHeartbeats 1000000 in
/-- The body on whole staging memrefs: operands at `x0`, `x1`, `x2`, the output at anything; it ends with the operands as they
    were and the output at `out5_3` of them. -/
theorem sound_kernel5 (c : Dev nD) (E : Set ℕ) (i : grid5.Coords)
    (arg1 : Memref sig .tc .vmem S200x64 .f32) (harg1 : arg1.IsWhole) (arg2 : Memref sig .tc .vmem S1000x64 .f32) (harg2 : arg2.IsWhole)
    (arg3 : Memref sig .tc .vmem S200x1000 .i32) (harg3 : arg3.IsWhole) (arg4 : Memref sig .tc .vmem S200x64 .f32) (harg4 : arg4.IsWhole)
    (x0 : Vec F S200x64 .f32) (x1 : Vec F S1000x64 .f32) (x2 : Vec F S200x1000 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__gat_attention_kernel i arg1 harg1 arg2 harg2 arg3 harg3 arg4 harg4) K := by
  simp only [cc5__gat_attention_kernel_eq_skeleton]; unfold cc5__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of this pipeline on core `c`: the arrays as the region finds them; after the body each operand's buffer
    at its block and the output's at the attention of the operand blocks; nothing owed. The query window and the key window
    lie over one array, read only: each holds half of it; the adjacency and the output are held whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q w := match w with
    | ⟨0, _⟩ => fullShare.left
    | ⟨1, _⟩ => fullShare.right
    | ⟨2, _⟩ => fullShare
    | ⟨3, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the operands' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Body6.lean ====
/- Region 6: a dense layer H = X·W + b computed at one grid point on whole arrays. The three operands are read
   whole, the product is taken into a zero accumulator, the bias row is added to every row, and the result is stored whole. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An operand's staging buffer holds its block at every point, for any proof data over these arrays whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body reads and writes through. -/
abbrev rX6 : Rect S1000x64 := Rect.unit (s := S1000x64) ![0, 0] S1000x64.size inb_S1000x64_S1000x64_0_0
abbrev rW6 : Rect S64x3 := Rect.unit (s := S64x3) ![0, 0] S64x3.size inb_S64x3_S64x3_0_0
abbrev rb6 : Rect S3 := Rect.unit (s := S3) ![0] S3.size inb_S3_S3_0
abbrev rO6 : Rect S1000x3 := Rect.unit (s := S1000x3) ![0, 0] S1000x3.size inb_S1000x3_S1000x3_0_0

/-- What the body leaves in the output's staging buffer: X·W + b of the three operand blocks, stored as one whole piece. -/
def out6_3 (x0 : Vec F S1000x64 .f32) (x1 : Vec F S64x3 .f32) (x2 : Vec F S3 .f32) : Vec F S1000x3 .f32 :=
  View.canon [⟨rO6, k6_pay1 (View.ld x0 rX6) (View.ld x1 rW6) (View.ld x2 rb6)⟩]

/-- The one store covers the buffer. -/
theorem cover6_3 (p0 : Vec F S1000x3 .f32) (y : S1000x3.Idx) :
    ∃ pc ∈ ([⟨rO6, p0⟩] : List (View.Piece (Elt F) S1000x3 .f32)), y ∈ pc.1.set :=
  View.cover_of_tiled [⟨rO6, p0⟩] S1000x3.size (by rfl) y

set_option maxHeartbeats 1000000 in
/-- The body on whole staging memrefs: operands at `x0`, `x1`, `x2`, the output at anything; it ends with the operands as they
    were and the output at `out6_3` of them. -/
theorem sound_kernel6 (c : Dev nD) (E : Set ℕ) (i : grid6.Coords)
    (arg1 : Memref sig .tc .vmem S1000x64 .f32) (harg1 : arg1.IsWhole) (arg2 : Memref sig .tc .vmem S64x3 .f32) (harg2 : arg2.IsWhole)
    (arg3 : Memref sig .tc .vmem S3 .f32) (harg3 : arg3.IsWhole) (arg4 : Memref sig .tc .vmem S1000x3 .f32) (harg4 : arg4.IsWhole)
    (x0 : Vec F S1000x64 .f32) (x1 : Vec F S64x3 .f32) (x2 : Vec F S3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of this pipeline on core `c`: the arrays as the region finds them; after the body each operand's buffer
    at its block and the output's at the layer's value of the operand blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the operands' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Body7.lean ====
/- Region 7: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An operand's staging buffer holds its block at every point, fetched there or not (the key matrix is fetched once and its
    block index never moves), for any proof data over these arrays whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body reads and writes through. -/
abbrev rQ7 : Rect S200x3 := Rect.unit (s := S200x3) ![0, 0] S200x3.size inb_S200x3_S200x3_0_0
abbrev rH7 : Rect S1000x3 := Rect.unit (s := S1000x3) ![0, 0] S1000x3.size inb_S1000x3_S1000x3_0_0
abbrev rA7 : Rect S200x1000 := Rect.unit (s := S200x1000) ![0, 0] S200x1000.size inb_S200x1000_S200x1000_0_0
abbrev rO7 : Rect S200x3 := Rect.unit (s := S200x3) ![0, 0] S200x3.size inb_S200x3_S200x3_0_0

/-- What the body leaves in the output's staging buffer: the attention of the query block over all rows, stored as one whole piece. -/
def out7_3 (x0 : Vec F S200x3 .f32) (x1 : Vec F S1000x3 .f32) (x2 : Vec F S200x1000 .i32) : Vec F S200x3 .f32 :=
  View.canon [⟨rO7, k7_pay1 (View.ld x0 rQ7) (View.ld x1 rH7) (View.ld x2 rA7)⟩]

/-- The one store covers the buffer. -/
theorem cover7_3 (p0 : Vec F S200x3 .f32) (y : S200x3.Idx) :
    ∃ pc ∈ ([⟨rO7, p0⟩] : List (View.Piece (Elt F) S200x3 .f32)), y ∈ pc.1.set :=
  View.cover_of_tiled [⟨rO7, p0⟩] S200x3.size (by rfl) y

set_option maxHeartbeats 1000000 in
/-- The body on whole staging memrefs: operands at `x0`, `x1`, `x2`, the output at anything; it ends with the operands as they
    were and the output at `out7_3` of them. -/
theorem sound_kernel7 (c : Dev nD) (E : Set ℕ) (i : grid7.Coords)
    (arg1 : Memref sig .tc .vmem S200x3 .f32) (harg1 : arg1.IsWhole) (arg2 : Memref sig .tc .vmem S1000x3 .f32) (harg2 : arg2.IsWhole)
    (arg3 : Memref sig .tc .vmem S200x1000 .i32) (harg3 : arg3.IsWhole) (arg4 : Memref sig .tc .vmem S200x3 .f32) (harg4 : arg4.IsWhole)
    (x0 : Vec F S200x3 .f32) (x1 : Vec F S1000x3 .f32) (x2 : Vec F S200x1000 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__gat_attention_kernel i arg1 harg1 arg2 harg2 arg3 harg3 arg4 harg4) K := by
  simp only [cc7__gat_attention_kernel_eq_skeleton]; unfold cc7__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The proof data of this pipeline on core `c`: the arrays as the region finds them; after the body each operand's buffer
    at its block and the output's at the attention of the operand blocks; nothing owed. The query window and the key window
    lie over one array, read only: each holds half of it; the adjacency and the output are held whole. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q w := match w with
    | ⟨0, _⟩ => fullShare.left
    | ⟨1, _⟩ => fullShare.right
    | ⟨2, _⟩ => fullShare
    | ⟨3, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the operands' memrefs hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Body8.lean ====
/- Region 8: a dense layer H = X·W + b computed at one grid point on whole arrays. The three operands are read
   whole, the product is taken into a zero accumulator, the bias row is added to every row, and the result is stored whole. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An operand's staging buffer holds its block at every point, for any proof data over these arrays whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The whole-buffer rectangles the body reads and writes through. -/
abbrev rX8 : Rect S500x156 := Rect.unit (s := S500x156) ![0, 0] S500x156.size inb_S500x156_S500x156_0_0
abbrev rW8 : Rect S156x64 := Rect.unit (s := S156x64) ![0, 0] S156x64.size inb_S156x64_S156x64_0_0
abbrev rb8 : Rect S64 := Rect.unit (s := S64) ![0] S64.size inb_S64_S64_0
abbrev rO8 : Rect S500x64 := Rect.unit (s := S500x64) ![0, 0] S500x64.size inb_S500x64_S500x64_0_0

/-- What the body leaves in the output's staging buffer: X·W + b of the three operand blocks, stored as one whole piece. -/
def out8_3 (x0 : Vec F S500x156 .f32) (x1 : Vec F S156x64 .f32) (x2 : Vec F S64 .f32) : Vec F S500x64 .f32 :=
  View.canon [⟨rO8, k8_pay1 (View.ld x0 rX8) (View.ld x1 rW8) (View.ld x2 rb8)⟩]

/-- The one store covers the buffer. -/
theorem cover8_3 (p0 : Vec F S500x64 .f32) (y : S500x64.Idx) :
    ∃ pc ∈ ([⟨rO8, p0⟩] : List (View.Piece (Elt F) S500x64 .f32)), y ∈ pc.1.set :=
  View.cover_of_tiled [⟨rO8, p0⟩] S500x64.size (by rfl) y

set_option maxHeartbeats 1000000 in
/-- The body on whole staging memrefs: operands at `x0`, `x1`, `x2`, the output at anything; it ends with the operands as they
    were and the output at `out8_3` of them. -/
theorem sound_kernel8 (c : Dev nD) (E : Set ℕ) (i : grid8.Coords)
    (arg1 : Memref sig .tc .vmem S500x156 .f32) (harg1 : arg1.IsWhole) (arg2 : Memref sig .tc .vmem S156x64 .f32) (harg2 : arg2.IsWhole)
    (arg3 : Memref sig .tc .vmem S64 .f32) (harg3 : arg3.IsWhole) (arg4 : Memref sig .tc .vmem S500x64 .f32) (harg4 : arg4.IsWhole)
    (x0 : Vec F S500x156 .f32) (x1 : Vec F S156x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8__linear_kernel i arg1 harg1 arg2 harg2 arg3 harg3 arg4 harg4) K := by
  simp only [cc8__linear_kernel_eq_skeleton]; unfold cc8__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The proof data of this pipeline on core `c`: the arrays as the region finds them; after the body each operand's buffer
    at its block and the output's at the layer's value of the operand blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the operands' memrefs hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.K.Body9.lean ====
/- Region 9: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An operand's staging buffer holds its block at every point, fetched there or not (the key matrix is fetched once and its
    block index never moves), for any proof data over these arrays whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole-buffer rectangles the body reads and writes through. -/
abbrev rQ9 : Rect S500x64 := Rect.unit (s := S500x64) ![0, 0] S500x64.size inb_S500x64_S500x64_0_0
abbrev rH9 : Rect S500x64 := Rect.unit (s := S500x64) ![0, 0] S500x64.size inb_S500x64_S500x64_0_0
abbrev rA9 : Rect S500x500 := Rect.unit (s := S500x500) ![0, 0] S500x500.size inb_S500x500_S500x500_0_0
abbrev rO9 : Rect S500x64 := Rect.unit (s := S500x64) ![0, 0] S500x64.size inb_S500x64_S500x64_0_0

/-- What the body leaves in the output's staging buffer: the attention of the query block over all rows, stored as one whole piece. -/
def out9_3 (x0 : Vec F S500x64 .f32) (x1 : Vec F S500x64 .f32) (x2 : Vec F S500x500 .i32) : Vec F S500x64 .f32 :=
  View.canon [⟨rO9, k9_pay1 (View.ld x0 rQ9) (View.ld x1 rH9) (View.ld x2 rA9)⟩]

/-- The one store covers the buffer. -/
theorem cover9_3 (p0 : Vec F S500x64 .f32) (y : S500x64.Idx) :
    ∃ pc ∈ ([⟨rO9, p0⟩] : List (View.Piece (Elt F) S500x64 .f32)), y ∈ pc.1.set :=
  View.cover_of_tiled [⟨rO9, p0⟩] S500x64.size (by rfl) y

set_option maxHeartbeats 1000000 in
/-- The body on whole staging memrefs: operands at `x0`, `x1`, `x2`, the output at anything; it ends with the operands as they
    were and the output at `out9_3` of them. -/
theorem sound_kernel9 (c : Dev nD) (E : Set ℕ) (i : grid9.Coords)
    (arg1 : Memref sig .tc .vmem S500x64 .f32) (harg1 : arg1.IsWhole) (arg2 : Memref sig .tc .vmem S500x64 .f32) (harg2 : arg2.IsWhole)
    (arg3 : Memref sig .tc .vmem S500x500 .i32) (harg3 : arg3.IsWhole) (arg4 : Memref sig .tc .vmem S500x64 .f32) (harg4 : arg4.IsWhole)
    (x0 : Vec F S500x64 .f32) (x1 : Vec F S500x64 .f32) (x2 : Vec F S500x500 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9__gat_attention_kernel i arg1 harg1 arg2 harg2 arg3 harg3 arg4 harg4) K := by
  simp only [cc9__gat_attention_kernel_eq_skeleton]; unfold cc9__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of this pipeline on core `c`: the arrays as the region finds them; after the body each operand's buffer
    at its block and the output's at the attention of the operand blocks; nothing owed. The query window and the key window
    lie over one array, read only: each holds half of it; the adjacency and the output are held whole. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q w := match w with
    | ⟨0, _⟩ => fullShare.left
    | ⟨1, _⟩ => fullShare.right
    | ⟨2, _⟩ => fullShare
    | ⟨3, _⟩ => fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the operands' memrefs hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.K.Body10.lean ====
/- Region 10: a dense layer H = X·W + b computed at one grid point on whole arrays. The three operands are read
   whole, the product is taken into a zero accumulator, the bias row is added to every row, and the result is stored whole. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An operand's staging buffer holds its block at every point, for any proof data over these arrays whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- The whole-buffer rectangles the body reads and writes through. -/
abbrev rX10 : Rect S500x64 := Rect.unit (s := S500x64) ![0, 0] S500x64.size inb_S500x64_S500x64_0_0
abbrev rW10 : Rect S64x3 := Rect.unit (s := S64x3) ![0, 0] S64x3.size inb_S64x3_S64x3_0_0
abbrev rb10 : Rect S3 := Rect.unit (s := S3) ![0] S3.size inb_S3_S3_0
abbrev rO10 : Rect S500x3 := Rect.unit (s := S500x3) ![0, 0] S500x3.size inb_S500x3_S500x3_0_0

/-- What the body leaves in the output's staging buffer: X·W + b of the three operand blocks, stored as one whole piece. -/
def out10_3 (x0 : Vec F S500x64 .f32) (x1 : Vec F S64x3 .f32) (x2 : Vec F S3 .f32) : Vec F S500x3 .f32 :=
  View.canon [⟨rO10, k10_pay1 (View.ld x0 rX10) (View.ld x1 rW10) (View.ld x2 rb10)⟩]

/-- The one store covers the buffer. -/
theorem cover10_3 (p0 : Vec F S500x3 .f32) (y : S500x3.Idx) :
    ∃ pc ∈ ([⟨rO10, p0⟩] : List (View.Piece (Elt F) S500x3 .f32)), y ∈ pc.1.set :=
  View.cover_of_tiled [⟨rO10, p0⟩] S500x3.size (by rfl) y

set_option maxHeartbeats 1000000 in
/-- The body on whole staging memrefs: operands at `x0`, `x1`, `x2`, the output at anything; it ends with the operands as they
    were and the output at `out10_3` of them. -/
theorem sound_kernel10 (c : Dev nD) (E : Set ℕ) (i : grid10.Coords)
    (arg1 : Memref sig .tc .vmem S500x64 .f32) (harg1 : arg1.IsWhole) (arg2 : Memref sig .tc .vmem S64x3 .f32) (harg2 : arg2.IsWhole)
    (arg3 : Memref sig .tc .vmem S3 .f32) (harg3 : arg3.IsWhole) (arg4 : Memref sig .tc .vmem S500x3 .f32) (harg4 : arg4.IsWhole)
    (x0 : Vec F S500x64 .f32) (x1 : Vec F S64x3 .f32) (x2 : Vec F S3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out10_3 x0 x1 x2)) -∗ K ⟨⟩))
      ⊢ wp frame (wpE (defs₀ (F := F)) Variants.none c none) E (cc10__linear_kernel i arg1 harg1 arg2 harg2 arg3 harg3 arg4 harg4) K := by
  simp only [cc10__linear_kernel_eq_skeleton]; unfold cc10__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-- The proof data of this pipeline on core `c`: the arrays as the region finds them; after the body each operand's buffer
    at its block and the output's at the layer's value of the operand blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the operands' memrefs hold their blocks, so the body's triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Hand

end
-- ==== Proof.K.Body11.lean ====
/- Region 11: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An operand's staging buffer holds its block at every point, fetched there or not (the key matrix is fetched once and its
    block index never moves), for any proof data over these arrays whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The whole-buffer rectangles the body reads and writes through. -/
abbrev rQ11 : Rect S500x3 := Rect.unit (s := S500x3) ![0, 0] S500x3.size inb_S500x3_S500x3_0_0
abbrev rH11 : Rect S500x3 := Rect.unit (s := S500x3) ![0, 0] S500x3.size inb_S500x3_S500x3_0_0
abbrev rA11 : Rect S500x500 := Rect.unit (s := S500x500) ![0, 0] S500x500.size inb_S500x500_S500x500_0_0
abbrev rO11 : Rect S500x3 := Rect.unit (s := S500x3) ![0, 0] S500x3.size inb_S500x3_S500x3_0_0

/-- What the body leaves in the output's staging buffer: the attention of the query block over all rows, stored as one whole piece. -/
def out11_3 (x0 : Vec F S500x3 .f32) (x1 : Vec F S500x3 .f32) (x2 : Vec F S500x500 .i32) : Vec F S500x3 .f32 :=
  View.canon [⟨rO11, k11_pay1 (View.ld x0 rQ11) (View.ld x1 rH11) (View.ld x2 rA11)⟩]

/-- The one store covers the buffer. -/
theorem cover11_3 (p0 : Vec F S500x3 .f32) (y : S500x3.Idx) :
    ∃ pc ∈ ([⟨rO11, p0⟩] : List (View.Piece (Elt F) S500x3 .f32)), y ∈ pc.1.set :=
  View.cover_of_tiled [⟨rO11, p0⟩] S500x3.size (by rfl) y

set_option maxHeartbeats 1000000 in
/-- The body on whole staging memrefs: operands at `x0`, `x1`, `x2`, the output at anything; it ends with the operands as they
    were and the output at `out11_3` of them. -/
theorem sound_kernel11 (c : Dev nD) (E : Set ℕ) (i : grid11.Coords)
    (arg1 : Memref sig .tc .vmem S500x3 .f32) (harg1 : arg1.IsWhole) (arg2 : Memref sig .tc .vmem S500x3 .f32) (harg2 : arg2.IsWhole)
    (arg3 : Memref sig .tc .vmem S500x500 .i32) (harg3 : arg3.IsWhole) (arg4 : Memref sig .tc .vmem S500x3 .f32) (harg4 : arg4.IsWhole)
    (x0 : Vec F S500x3 .f32) (x1 : Vec F S500x3 .f32) (x2 : Vec F S500x500 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__gat_attention_kernel i arg1 harg1 arg2 harg2 arg3 harg3 arg4 harg4) K := by
  simp only [cc11__gat_attention_kernel_eq_skeleton]; unfold cc11__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of this pipeline on core `c`: the arrays as the region finds them; after the body each operand's buffer
    at its block and the output's at the attention of the operand blocks; nothing owed. The query window and the key window
    lie over one array, read only: each holds half of it; the adjacency and the output are held whole. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q w := match w with
    | ⟨0, _⟩ => fullShare.left
    | ⟨1, _⟩ => fullShare.right
    | ⟨2, _⟩ => fullShare
    | ⟨3, _⟩ => fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the operands' memrefs hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.K.Body12.lean ====
/- Region 12: the weighted sum of three maps, block of rows by block of rows: s0·w0 + s1·w1 + s2·w2 with the three weights
   read from a three-element vector. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- The whole-buffer rectangles the body reads and writes through. -/
abbrev rB12 : Rect S128x3072 := Rect.unit (s := S128x3072) ![0, 0] S128x3072.size inb_S128x3072_S128x3072_0_0
abbrev rw12 : Rect S3 := Rect.unit (s := S3) ![0] S3.size inb_S3_S3_0

/-- What the body leaves in the output's staging buffer: the weighted sum of the three blocks, stored as one whole piece. -/
def out12_4 (x0 x1 x2 : Vec F S128x3072 .f32) (x3 : Vec F S3 .f32) : Vec F S128x3072 .f32 :=
  View.canon [⟨rB12, k12_pay1 (View.ld x3 rw12) (View.ld x0 rB12) (View.ld x1 rB12) (View.ld x2 rB12)⟩]

/-- The one store covers the buffer. -/
theorem cover12_4 (p0 : Vec F S128x3072 .f32) (y : S128x3072.Idx) :
    ∃ pc ∈ ([⟨rB12, p0⟩] : List (View.Piece (Elt F) S128x3072 .f32)), y ∈ pc.1.set :=
  View.cover_of_tiled [⟨rB12, p0⟩] S128x3072.size (by rfl) y

set_option maxHeartbeats 1000000 in
/-- The body on whole staging memrefs: it ends with the operands as they were and the output at `out12_4` of them. -/
theorem sound_kernel12 (c : Dev nD) (E : Set ℕ) (i : grid12.Coords)
    (arg1 : Memref sig .tc .vmem S128x3072 .f32) (harg1 : arg1.IsWhole) (arg2 : Memref sig .tc .vmem S128x3072 .f32) (harg2 : arg2.IsWhole)
    (arg3 : Memref sig .tc .vmem S128x3072 .f32) (harg3 : arg3.IsWhole) (arg4 : Memref sig .tc .vmem S3 .f32) (harg4 : arg4.IsWhole)
    (arg5 : Memref sig .tc .vmem S128x3072 .f32) (harg5 : arg5.IsWhole)
    (x0 x1 x2 : Vec F S128x3072 .f32) (x3 : Vec F S3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out12_4 x0 x1 x2 x3)) -∗ K ⟨⟩))
      ⊢ wp frame (wpE (defs₀ (F := F)) Variants.none c none) E (cc12__fuse_kernel i arg1 harg1 arg2 harg2 arg3 harg3 arg4 harg4 arg5 harg5) K := by
  simp only [cc12__fuse_kernel_eq_skeleton]; unfold cc12__fuse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12_4 _)

/-- The proof data of this pipeline on core `c`: the arrays as the region finds them; after the body each operand's buffer
    at its block and the output's at the weighted sum of the operand blocks; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) :
    (dat12 V c).after 4 t = out12_4 (iblk12 V c 0 t) (iblk12 V c 1 t) (iblk12 V c 2 t) (iblk12 V c 3 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the operands' memrefs hold their blocks, so the body's triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand

end
-- ==== Proof.K.Vals.lean ====
/- The contents of a core's unscoped buffers after each item of the program, written out: the launch contents, then item by
   item either the host stretch applied, or the region's output array replaced by what the pipeline's write-backs leave in it.
   Over these the proof data of all thirteen pipelines are fixed, each at its region's entry contents. -/
import proofs.«123632_j87531433492498_2_alg».proof.Proof.Gen.Kernel.Regions
import proofs.«123632_j87531433492498_2_alg».proof.Proof.K.Body0
import proofs.«123632_j87531433492498_2_alg».proof.Proof.K.Body1
import proofs.«123632_j87531433492498_2_alg».proof.Proof.K.Body2
import proofs.«123632_j87531433492498_2_alg».proof.Proof.K.Body3
import proofs.«123632_j87531433492498_2_alg».proof.Proof.K.Body4
import proofs.«123632_j87531433492498_2_alg».proof.Proof.K.Body5
import proofs.«123632_j87531433492498_2_alg».proof.Proof.K.Body6
import proofs.«123632_j87531433492498_2_alg».proof.Proof.K.Body7
import proofs.«123632_j87531433492498_2_alg».proof.Proof.K.Body8
import proofs.«123632_j87531433492498_2_alg».proof.Proof.K.Body9
import proofs.«123632_j87531433492498_2_alg».proof.Proof.K.Body10
import proofs.«123632_j87531433492498_2_alg».proof.Proof.K.Body11
import proofs.«123632_j87531433492498_2_alg».proof.Proof.K.Body12

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]
variable (m : (ℓ : Loc nD τ sig) → Buf (Elt F) ℓ)

/-- The launch contents. -/
def U0 (c : Dev nD) : Valuation τ sig (Elt F) := fun b => m (c, b)
/-- After region 0: its output array at what the write-backs leave. -/
def U1 (c : Dev nD) : Valuation τ sig (Elt F) :=
  Function.update (U0 m c) main_v0 ((dat0 (fun c b => U0 m c b) c).arrAt 3 cfg0.N)
/-- After region 1: its output array at what the write-backs leave. -/
def U2 (c : Dev nD) : Valuation τ sig (Elt F) :=
  Function.update (U1 m c) main_v1 ((dat1 (fun c b => U1 m c b) c).arrAt 3 cfg1.N)
/-- After region 2: its output array at what the write-backs leave. -/
def U3 (c : Dev nD) : Valuation τ sig (Elt F) :=
  Function.update (U2 m c) main_v2 ((dat2 (fun c b => U2 m c b) c).arrAt 3 cfg2.N)
/-- After region 3: its output array at what the write-backs leave. -/
def U4 (c : Dev nD) : Valuation τ sig (Elt F) :=
  Function.update (U3 m c) main_v3 ((dat3 (fun c b => U3 m c b) c).arrAt 3 cfg3.N)
/-- After the host stretch `hostOps4`. -/
def U5 (c : Dev nD) : Valuation τ sig (Elt F) := StableHlo.after hostOps4 (U4 m c)
/-- After the host stretch `hostOps4_1`. -/
def U6 (c : Dev nD) : Valuation τ sig (Elt F) := StableHlo.after hostOps4_1 (U5 m c)
/-- After region 4: its output array at what the write-backs leave. -/
def U7 (c : Dev nD) : Valuation τ sig (Elt F) :=
  Function.update (U6 m c) main_v23 ((dat4 (fun c b => U6 m c b) c).arrAt 3 cfg4.N)
/-- After region 5: its output array at what the write-backs leave. -/
def U8 (c : Dev nD) : Valuation τ sig (Elt F) :=
  Function.update (U7 m c) main_v24 ((dat5 (fun c b => U7 m c b) c).arrAt 3 cfg5.N)
/-- After region 6: its output array at what the write-backs leave. -/
def U9 (c : Dev nD) : Valuation τ sig (Elt F) :=
  Function.update (U8 m c) main_v25 ((dat6 (fun c b => U8 m c b) c).arrAt 3 cfg6.N)
/-- After region 7: its output array at what the write-backs leave. -/
def U10 (c : Dev nD) : Valuation τ sig (Elt F) :=
  Function.update (U9 m c) main_v26 ((dat7 (fun c b => U9 m c b) c).arrAt 3 cfg7.N)
/-- After the host stretch `hostOps8`. -/
def U11 (c : Dev nD) : Valuation τ sig (Elt F) := StableHlo.after hostOps8 (U10 m c)
/-- After the host stretch `hostOps8_1`. -/
def U12 (c : Dev nD) : Valuation τ sig (Elt F) := StableHlo.after hostOps8_1 (U11 m c)
/-- After region 8: its output array at what the write-backs leave. -/
def U13 (c : Dev nD) : Valuation τ sig (Elt F) :=
  Function.update (U12 m c) main_v46 ((dat8 (fun c b => U12 m c b) c).arrAt 3 cfg8.N)
/-- After region 9: its output array at what the write-backs leave. -/
def U14 (c : Dev nD) : Valuation τ sig (Elt F) :=
  Function.update (U13 m c) main_v47 ((dat9 (fun c b => U13 m c b) c).arrAt 3 cfg9.N)
/-- After region 10: its output array at what the write-backs leave. -/
def U15 (c : Dev nD) : Valuation τ sig (Elt F) :=
  Function.update (U14 m c) main_v48 ((dat10 (fun c b => U14 m c b) c).arrAt 3 cfg10.N)
/-- After region 11: its output array at what the write-backs leave. -/
def U16 (c : Dev nD) : Valuation τ sig (Elt F) :=
  Function.update (U15 m c) main_v49 ((dat11 (fun c b => U15 m c b) c).arrAt 3 cfg11.N)
/-- After the host stretch `hostOps12`. -/
def U17 (c : Dev nD) : Valuation τ sig (Elt F) := StableHlo.after hostOps12 (U16 m c)
/-- After the host stretch `hostOps12_1`. -/
def U18 (c : Dev nD) : Valuation τ sig (Elt F) := StableHlo.after hostOps12_1 (U17 m c)
/-- After region 12: its output array at what the write-backs leave. -/
def U19 (c : Dev nD) : Valuation τ sig (Elt F) :=
  Function.update (U18 m c) main_v82 ((dat12 (fun c b => U18 m c b) c).arrAt 4 cfg12.N)
/-- After the host stretch `hostOps13`. -/
def U20 (c : Dev nD) : Valuation τ sig (Elt F) := StableHlo.after hostOps13 (U19 m c)

/-- What each region leaves in the buffer it may change, read off the contents above. -/
def outs : Outs (F := F) := fun J r c =>
  match J with
  | 1 => U1 m c r
  | 2 => U2 m c r
  | 3 => U3 m c r
  | 4 => U4 m c r
  | 7 => U7 m c r
  | 8 => U8 m c r
  | 9 => U9 m c r
  | 10 => U10 m c r
  | 13 => U13 m c r
  | 14 => U14 m c r
  | 15 => U15 m c r
  | 16 => U16 m c r
  | 19 => U19 m c r
  | _ => U0 m c r

theorem V0_eq (c : Dev nD) : V0 m c = U0 m c := rfl
theorem V1_eq (c : Dev nD) : V1 m (outs m) c = U1 m c := by
  show Function.update (V0 m c) main_v0 (U1 m c main_v0) = _
  rw [V0_eq]; unfold U1; rw [Function.update_self]
theorem V2_eq (c : Dev nD) : V2 m (outs m) c = U2 m c := by
  show Function.update (V1 m (outs m) c) main_v1 (U2 m c main_v1) = _
  rw [V1_eq]; unfold U2; rw [Function.update_self]
theorem V3_eq (c : Dev nD) : V3 m (outs m) c = U3 m c := by
  show Function.update (V2 m (outs m) c) main_v2 (U3 m c main_v2) = _
  rw [V2_eq]; unfold U3; rw [Function.update_self]
theorem V4_eq (c : Dev nD) : V4 m (outs m) c = U4 m c := by
  show Function.update (V3 m (outs m) c) main_v3 (U4 m c main_v3) = _
  rw [V3_eq]; unfold U4; rw [Function.update_self]
theorem V5_eq (c : Dev nD) : V5 m (outs m) c = U5 m c := by
  show StableHlo.after hostOps4 (V4 m (outs m) c) = _
  rw [V4_eq]; rfl
theorem V6_eq (c : Dev nD) : V6 m (outs m) c = U6 m c := by
  show StableHlo.after hostOps4_1 (V5 m (outs m) c) = _
  rw [V5_eq]; rfl
theorem V7_eq (c : Dev nD) : V7 m (outs m) c = U7 m c := by
  show Function.update (V6 m (outs m) c) main_v23 (U7 m c main_v23) = _
  rw [V6_eq]; unfold U7; rw [Function.update_self]
theorem V8_eq (c : Dev nD) : V8 m (outs m) c = U8 m c := by
  show Function.update (V7 m (outs m) c) main_v24 (U8 m c main_v24) = _
  rw [V7_eq]; unfold U8; rw [Function.update_self]
theorem V9_eq (c : Dev nD) : V9 m (outs m) c = U9 m c := by
  show Function.update (V8 m (outs m) c) main_v25 (U9 m c main_v25) = _
  rw [V8_eq]; unfold U9; rw [Function.update_self]
theorem V10_eq (c : Dev nD) : V10 m (outs m) c = U10 m c := by
  show Function.update (V9 m (outs m) c) main_v26 (U10 m c main_v26) = _
  rw [V9_eq]; unfold U10; rw [Function.update_self]
theorem V11_eq (c : Dev nD) : V11 m (outs m) c = U11 m c := by
  show StableHlo.after hostOps8 (V10 m (outs m) c) = _
  rw [V10_eq]; rfl
theorem V12_eq (c : Dev nD) : V12 m (outs m) c = U12 m c := by
  show StableHlo.after hostOps8_1 (V11 m (outs m) c) = _
  rw [V11_eq]; rfl
theorem V13_eq (c : Dev nD) : V13 m (outs m) c = U13 m c := by
  show Function.update (V12 m (outs m) c) main_v46 (U13 m c main_v46) = _
  rw [V12_eq]; unfold U13; rw [Function.update_self]
theorem V14_eq (c : Dev nD) : V14 m (outs m) c = U14 m c := by
  show Function.update (V13 m (outs m) c) main_v47 (U14 m c main_v47) = _
  rw [V13_eq]; unfold U14; rw [Function.update_self]
theorem V15_eq (c : Dev nD) : V15 m (outs m) c = U15 m c := by
  show Function.update (V14 m (outs m) c) main_v48 (U15 m c main_v48) = _
  rw [V14_eq]; unfold U15; rw [Function.update_self]
theorem V16_eq (c : Dev nD) : V16 m (outs m) c = U16 m c := by
  show Function.update (V15 m (outs m) c) main_v49 (U16 m c main_v49) = _
  rw [V15_eq]; unfold U16; rw [Function.update_self]
theorem V17_eq (c : Dev nD) : V17 m (outs m) c = U17 m c := by
  show StableHlo.after hostOps12 (V16 m (outs m) c) = _
  rw [V16_eq]; rfl
theorem V18_eq (c : Dev nD) : V18 m (outs m) c = U18 m c := by
  show StableHlo.after hostOps12_1 (V17 m (outs m) c) = _
  rw [V17_eq]; rfl
theorem V19_eq (c : Dev nD) : V19 m (outs m) c = U19 m c := by
  show Function.update (V18 m (outs m) c) main_v82 (U19 m c main_v82) = _
  rw [V18_eq]; unfold U19; rw [Function.update_self]
theorem V20_eq (c : Dev nD) : V20 m (outs m) c = U20 m c := by
  show StableHlo.after hostOps13 (V19 m (outs m) c) = _
  rw [V19_eq]; rfl

/-- Every pipeline's proof data, each at its region's entry contents. -/
def pdats : (p : Fin 13) → (c : Dev nD) → Dat τ (Elt F) Unit ℕ (UR sig nD τ) ℕ (Pipeline.pin (pcfgs (F := F)) adm p) c
  | ⟨0, _⟩ => fun c => dat0 (fun c b => U0 m c b) c
  | ⟨1, _⟩ => fun c => dat1 (fun c b => U1 m c b) c
  | ⟨2, _⟩ => fun c => dat2 (fun c b => U2 m c b) c
  | ⟨3, _⟩ => fun c => dat3 (fun c b => U3 m c b) c
  | ⟨4, _⟩ => fun c => dat4 (fun c b => U6 m c b) c
  | ⟨5, _⟩ => fun c => dat5 (fun c b => U7 m c b) c
  | ⟨6, _⟩ => fun c => dat6 (fun c b => U8 m c b) c
  | ⟨7, _⟩ => fun c => dat7 (fun c b => U9 m c b) c
  | ⟨8, _⟩ => fun c => dat8 (fun c b => U12 m c b) c
  | ⟨9, _⟩ => fun c => dat9 (fun c b => U13 m c b) c
  | ⟨10, _⟩ => fun c => dat10 (fun c b => U14 m c b) c
  | ⟨11, _⟩ => fun c => dat11 (fun c b => U15 m c b) c
  | ⟨12, _⟩ => fun c => dat12 (fun c b => U18 m c b) c

/-- No control variant, no level assigned: no core owes another anything. -/
abbrev 𝒱₀ : Variants := Variants.none
abbrev L : GSem nD τ sig → Finset Unit := fun _ => ∅
abbrev lv : GSem nD τ sig → Unit → ℕ := fun _ _ => 0

/-- What rides beside the buffers through every item: the core's generator register at some state, and its dues, at nothing. -/
abbrev R (c : Dev nD) : sProp (MT nD τ sig Unit (Elt F) ℕ (UR sig nD τ) ℕ) :=
  iprop((∃ r, prngReg c r) ∗ ∃ W, owes (c : Thread nD τ) (0 : CellTallies nD τ sig Unit) W)

end Cert.Kernel.Hand

end
-- ==== Proof.K.Reg0.lean ====
/- Region 0 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF0 (c : Dev nD) (w : Fin cfg0.W) :
    (dat0 (fun c b => U0 m c b) c).arrAt w cfg0.N = (fun b : Ref sig .tc => U1 m c b) (Pipeline.arrRef spec0 w) := by
  match w with
  | ⟨0, _⟩ =>
    refine ((dat0 (fun c b => U0 m c b) c).arrAt_in 0 rfl _).trans ?_
    show U0 m c (Pipeline.arrRef spec0 0) = U1 m c (Pipeline.arrRef spec0 0)
    unfold U1
    rw [Function.update_of_ne (StableHlo.devRef_ne_of_ne (by decide))]
  | ⟨1, _⟩ =>
    refine ((dat0 (fun c b => U0 m c b) c).arrAt_in 1 rfl _).trans ?_
    show U0 m c (Pipeline.arrRef spec0 1) = U1 m c (Pipeline.arrRef spec0 1)
    unfold U1
    rw [Function.update_of_ne (StableHlo.devRef_ne_of_ne (by decide))]
  | ⟨2, _⟩ =>
    refine ((dat0 (fun c b => U0 m c b) c).arrAt_in 2 rfl _).trans ?_
    show U0 m c (Pipeline.arrRef spec0 2) = U1 m c (Pipeline.arrRef spec0 2)
    unfold U1
    rw [Function.update_of_ne (StableHlo.devRef_ne_of_ne (by decide))]
  | ⟨3, _⟩ =>
    show _ = U1 m c main_v0
    unfold U1
    rw [Function.update_self]; rfl

/-- Every other buffer holds what it held at entry. -/
theorem hrest0 (c : Dev nD) : ∀ b : Ref sig .tc, b ∉ Finset.univ.image (Pipeline.arrRef spec0) →
    (fun b : Ref sig .tc => U1 m c b) b = (fun b : Ref sig .tc => U0 m c b) b := fun b hb => by
  show U1 m c b = U0 m c b
  unfold U1
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => U0 m c b) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (fun b : Ref sig .tc => U0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b : Ref sig .tc => U0 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b : Ref sig .tc => U0 m c b) (fun b : Ref sig .tc => U1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg1.lean ====
/- Region 1 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF1 (c : Dev nD) (w : Fin cfg1.W) :
    (dat1 (fun c b => U1 m c b) c).arrAt w cfg1.N = (fun b : Ref sig .tc => U2 m c b) (Pipeline.arrRef spec1 w) := by
  match w with
  | ⟨0, _⟩ =>
    refine ((dat1 (fun c b => U1 m c b) c).arrAt_in 0 rfl _).trans ?_
    show U1 m c (Pipeline.arrRef spec1 0) = U2 m c (Pipeline.arrRef spec1 0)
    unfold U2
    rw [Function.update_of_ne (StableHlo.devRef_ne_of_ne (by decide))]
  | ⟨1, _⟩ =>
    refine ((dat1 (fun c b => U1 m c b) c).arrAt_in 1 rfl _).trans ?_
    show U1 m c (Pipeline.arrRef spec1 1) = U2 m c (Pipeline.arrRef spec1 1)
    unfold U2
    rw [Function.update_of_ne (StableHlo.devRef_ne_of_ne (by decide))]
  | ⟨2, _⟩ =>
    refine ((dat1 (fun c b => U1 m c b) c).arrAt_in 2 rfl _).trans ?_
    show U1 m c (Pipeline.arrRef spec1 2) = U2 m c (Pipeline.arrRef spec1 2)
    unfold U2
    rw [Function.update_of_ne (StableHlo.devRef_ne_of_ne (by decide))]
  | ⟨3, _⟩ =>
    show _ = U2 m c main_v1
    unfold U2
    rw [Function.update_self]; rfl

/-- Every other buffer holds what it held at entry. -/
theorem hrest1 (c : Dev nD) : ∀ b : Ref sig .tc, b ∉ Finset.univ.image (Pipeline.arrRef spec1) →
    (fun b : Ref sig .tc => U2 m c b) b = (fun b : Ref sig .tc => U1 m c b) b := fun b hb => by
  show U2 m c b = U1 m c b
  unfold U2
  rw [Function.update_of_ne (StableHlo.devRef_ne_of_ne fun h => hb (Finset.mem_image.mpr ⟨3, Finset.mem_univ _, h.symm⟩))]

/-- A product over the three distinct buffers behind the four windows, factor by factor. -/
theorem bufs1 (Φ : Ref sig .tc → sProp 𝕄) :
    bigSep (Finset.univ.image (Pipeline.arrRef spec1)) Φ = iprop(Φ main_v0 ∗ Φ main_arg3 ∗ Φ main_v1) :=
  bigSep_eq_bigSepL_of_eq [main_v0, main_arg3, main_v1] (by decide) (by decide) Φ

/-- The shares the proof data hold the arrays at: the two halves of the shared buffer, the others whole. -/
theorem share1_0 (c : Dev nD) : (pdats m 1 c).share 0 = fullShare.left := rfl
theorem share1_1 (c : Dev nD) : (pdats m 1 c).share 1 = fullShare.right := rfl
theorem share1_2 (c : Dev nD) : (pdats m 1 c).share 2 = fullShare := rfl
theorem share1_3 (c : Dev nD) : (pdats m 1 c).share 3 = fullShare := rfl

/-- The windows' arrays, each a whole buffer, as plain points-to facts at each window's own share. -/
theorem arraysEq1 (c : Dev nD) (G : (w : Fin cfg1.W) → Buf (Elt F) ((cfg1.win w).arr.view.loc (c : Thread nD τ))) :
    (pdats m 1 c).arrays G
      = bigSep Finset.univ fun w => ((((c : Thread nD τ).loc (Pipeline.arrRef (Pipeline.pin (pcfgs (F := F)) adm 1).spec w)) ↦{(pdats m 1 c).share w} G w : sProp 𝕄)) := by
  unfold Pipeline.Dat.arrays
  exact bigSep_congr fun w _ => by
    have h : ((Pipeline.pin (pcfgs (F := F)) adm 1).win w).arr.view.set = Finset.univ := (arr_whole1 w).set_eq_univ
    rw [h]

set_option maxHeartbeats 4000000 in
/-- The distinct buffers whole at contents `V` ARE the four windows' arrays at contents `F` agreeing with `V`: the shared
    buffer's whole share is its left half and its right half. -/
theorem arrs1 (c : Dev nD) (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊣⊢ (pdats m 1 c).arrays G := by
  unfold Pipeline.arrBufs
  rw [arraysEq1 m c G, bufs1, bigSep_W1, share1_0, share1_1, share1_2, share1_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (fun c b => U1 m c b) c).loose
  hwaits := Pipeline.hwaits_of_owed_zero _ _ _ _ L lv 1 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec1 c (fun b : Ref sig .tc => U1 m c b)
  hentry c := by
    rw [Pipeline.ownSems0_none]
    have hsp := Pipeline.unscopedBufs_split₀ (Ix := Unit) (Name := ℕ) (U := UR sig nD τ) (Lvl := ℕ) (Pipeline.pin (pcfgs (F := F)) adm) 1
      winFacts₀1.arr_unscoped c (fun b : Ref sig .tc => U1 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs1 m c (fun b : Ref sig .tc => U1 m c b) ((pdats m 1 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 1
      winFacts₀1.arr_unscoped c (fun b : Ref sig .tc => U2 m c b)
    rw [Pipeline.unscopedBufs_held] at hsp
    have hrestEq : (Pipeline.unscopedRest (Ix := Unit) (Name := ℕ) (U := UR sig nD τ) (Lvl := ℕ) spec1 c (fun b : Ref sig .tc => U1 m c b) : sProp 𝕄)
        = Pipeline.unscopedRest spec1 c (fun b : Ref sig .tc => U2 m c b) := by
      unfold Pipeline.unscopedRest
      exact bigSep_congr fun b hb => by rw [hrest1 m c b (Finset.mem_sdiff.mp hb).2]
    iintro ⟨Ha, HO, HY, Hrest⟩
    imodintro
    isplitl [Ha Hrest]
    · iapply (BIBase.Entails.of_eq hsp.symm)
      isplitl [Ha]
      · iapply (arrs1 m c (fun b : Ref sig .tc => U2 m c b) ((pdats m 1 c).arrAt · cfg1.N) (hF1 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.Kernel.Hand

end
-- ==== Proof.K.Reg2.lean ====
/- Region 2 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF2 (c : Dev nD) (w : Fin cfg2.W) :
    (dat2 (fun c b => U2 m c b) c).arrAt w cfg2.N = (fun b : Ref sig .tc => U3 m c b) (Pipeline.arrRef spec2 w) := by
  match w with
  | ⟨0, _⟩ =>
    refine ((dat2 (fun c b => U2 m c b) c).arrAt_in 0 rfl _).trans ?_
    show U2 m c (Pipeline.arrRef spec2 0) = U3 m c (Pipeline.arrRef spec2 0)
    unfold U3
    rw [Function.update_of_ne (StableHlo.devRef_ne_of_ne (by decide))]
  | ⟨1, _⟩ =>
    refine ((dat2 (fun c b => U2 m c b) c).arrAt_in 1 rfl _).trans ?_
    show U2 m c (Pipeline.arrRef spec2 1) = U3 m c (Pipeline.arrRef spec2 1)
    unfold U3
    rw [Function.update_of_ne (StableHlo.devRef_ne_of_ne (by decide))]
  | ⟨2, _⟩ =>
    refine ((dat2 (fun c b => U2 m c b) c).arrAt_in 2 rfl _).trans ?_
    show U2 m c (Pipeline.arrRef spec2 2) = U3 m c (Pipeline.arrRef spec2 2)
    unfold U3
    rw [Function.update_of_ne (StableHlo.devRef_ne_of_ne (by decide))]
  | ⟨3, _⟩ =>
    show _ = U3 m c main_v2
    unfold U3
    rw [Function.update_self]; rfl

/-- Every other buffer holds what it held at entry. -/
theorem hrest2 (c : Dev nD) : ∀ b : Ref sig .tc, b ∉ Finset.univ.image (Pipeline.arrRef spec2) →
    (fun b : Ref sig .tc => U3 m c b) b = (fun b : Ref sig .tc => U2 m c b) b := fun b hb => by
  show U3 m c b = U2 m c b
  unfold U3
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => U2 m c b) c).loose
  hwaits := Pipeline.hwaits_of_owed_zero _ _ _ _ L lv 2 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec2 c (fun b : Ref sig .tc => U2 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b : Ref sig .tc => U2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b : Ref sig .tc => U2 m c b) (fun b : Ref sig .tc => U3 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg3.lean ====
/- Region 3 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF3 (c : Dev nD) (w : Fin cfg3.W) :
    (dat3 (fun c b => U3 m c b) c).arrAt w cfg3.N = (fun b : Ref sig .tc => U4 m c b) (Pipeline.arrRef spec3 w) := by
  match w with
  | ⟨0, _⟩ =>
    refine ((dat3 (fun c b => U3 m c b) c).arrAt_in 0 rfl _).trans ?_
    show U3 m c (Pipeline.arrRef spec3 0) = U4 m c (Pipeline.arrRef spec3 0)
    unfold U4
    rw [Function.update_of_ne (StableHlo.devRef_ne_of_ne (by decide))]
  | ⟨1, _⟩ =>
    refine ((dat3 (fun c b => U3 m c b) c).arrAt_in 1 rfl _).trans ?_
    show U3 m c (Pipeline.arrRef spec3 1) = U4 m c (Pipeline.arrRef spec3 1)
    unfold U4
    rw [Function.update_of_ne (StableHlo.devRef_ne_of_ne (by decide))]
  | ⟨2, _⟩ =>
    refine ((dat3 (fun c b => U3 m c b) c).arrAt_in 2 rfl _).trans ?_
    show U3 m c (Pipeline.arrRef spec3 2) = U4 m c (Pipeline.arrRef spec3 2)
    unfold U4
    rw [Function.update_of_ne (StableHlo.devRef_ne_of_ne (by decide))]
  | ⟨3, _⟩ =>
    show _ = U4 m c main_v3
    unfold U4
    rw [Function.update_self]; rfl

/-- Every other buffer holds what it held at entry. -/
theorem hrest3 (c : Dev nD) : ∀ b : Ref sig .tc, b ∉ Finset.univ.image (Pipeline.arrRef spec3) →
    (fun b : Ref sig .tc => U4 m c b) b = (fun b : Ref sig .tc => U3 m c b) b := fun b hb => by
  show U4 m c b = U3 m c b
  unfold U4
  rw [Function.update_of_ne (StableHlo.devRef_ne_of_ne fun h => hb (Finset.mem_image.mpr ⟨3, Finset.mem_univ _, h.symm⟩))]

/-- A product over the three distinct buffers behind the four windows, factor by factor. -/
theorem bufs3 (Φ : Ref sig .tc → sProp 𝕄) :
    bigSep (Finset.univ.image (Pipeline.arrRef spec3)) Φ = iprop(Φ main_v2 ∗ Φ main_arg3 ∗ Φ main_v3) :=
  bigSep_eq_bigSepL_of_eq [main_v2, main_arg3, main_v3] (by decide) (by decide) Φ

/-- The shares the proof data hold the arrays at: the two halves of the shared buffer, the others whole. -/
theorem share3_0 (c : Dev nD) : (pdats m 3 c).share 0 = fullShare.left := rfl
theorem share3_1 (c : Dev nD) : (pdats m 3 c).share 1 = fullShare.right := rfl
theorem share3_2 (c : Dev nD) : (pdats m 3 c).share 2 = fullShare := rfl
theorem share3_3 (c : Dev nD) : (pdats m 3 c).share 3 = fullShare := rfl

/-- The windows' arrays, each a whole buffer, as plain points-to facts at each window's own share. -/
theorem arraysEq3 (c : Dev nD) (G : (w : Fin cfg3.W) → Buf (Elt F) ((cfg3.win w).arr.view.loc (c : Thread nD τ))) :
    (pdats m 3 c).arrays G
      = bigSep Finset.univ fun w => ((((c : Thread nD τ).loc (Pipeline.arrRef (Pipeline.pin (pcfgs (F := F)) adm 3).spec w)) ↦{(pdats m 3 c).share w} G w : sProp 𝕄)) := by
  unfold Pipeline.Dat.arrays
  exact bigSep_congr fun w _ => by
    have h : ((Pipeline.pin (pcfgs (F := F)) adm 3).win w).arr.view.set = Finset.univ := (arr_whole3 w).set_eq_univ
    rw [h]

set_option maxHeartbeats 4000000 in
/-- The distinct buffers whole at contents `V` ARE the four windows' arrays at contents `F` agreeing with `V`: the shared
    buffer's whole share is its left half and its right half. -/
theorem arrs3 (c : Dev nD) (V : (b : Ref sig .tc) → Buf (Elt F) ((c : Thread nD τ).loc b))
    (G : (w : Fin cfg3.W) → Buf (Elt F) ((cfg3.win w).arr.view.loc (c : Thread nD τ))) (hG : ∀ w, G w = V (Pipeline.arrRef spec3 w)) :
    (Pipeline.arrBufs (Ix := Unit) (Name := ℕ) (U := UR sig nD τ) (Lvl := ℕ) spec3 c V : sProp 𝕄) ⊣⊢ (pdats m 3 c).arrays G := by
  unfold Pipeline.arrBufs
  rw [arraysEq3 m c G, bufs3, bigSep_W3, share3_0, share3_1, share3_2, share3_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (fun c b => U3 m c b) c).loose
  hwaits := Pipeline.hwaits_of_owed_zero _ _ _ _ L lv 3 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec3 c (fun b : Ref sig .tc => U3 m c b)
  hentry c := by
    rw [Pipeline.ownSems0_none]
    have hsp := Pipeline.unscopedBufs_split₀ (Ix := Unit) (Name := ℕ) (U := UR sig nD τ) (Lvl := ℕ) (Pipeline.pin (pcfgs (F := F)) adm) 3
      winFacts₀3.arr_unscoped c (fun b : Ref sig .tc => U3 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs3 m c (fun b : Ref sig .tc => U3 m c b) ((pdats m 3 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 3
      winFacts₀3.arr_unscoped c (fun b : Ref sig .tc => U4 m c b)
    rw [Pipeline.unscopedBufs_held] at hsp
    have hrestEq : (Pipeline.unscopedRest (Ix := Unit) (Name := ℕ) (U := UR sig nD τ) (Lvl := ℕ) spec3 c (fun b : Ref sig .tc => U3 m c b) : sProp 𝕄)
        = Pipeline.unscopedRest spec3 c (fun b : Ref sig .tc => U4 m c b) := by
      unfold Pipeline.unscopedRest
      exact bigSep_congr fun b hb => by rw [hrest3 m c b (Finset.mem_sdiff.mp hb).2]
    iintro ⟨Ha, HO, HY, Hrest⟩
    imodintro
    isplitl [Ha Hrest]
    · iapply (BIBase.Entails.of_eq hsp.symm)
      isplitl [Ha]
      · iapply (arrs3 m c (fun b : Ref sig .tc => U4 m c b) ((pdats m 3 c).arrAt · cfg3.N) (hF3 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.Kernel.Hand

end
-- ==== Proof.K.Reg4.lean ====
/- Region 4 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF4 (c : Dev nD) (w : Fin cfg4.W) :
    (dat4 (fun c b => U6 m c b) c).arrAt w cfg4.N = (fun b : Ref sig .tc => U7 m c b) (Pipeline.arrRef spec4 w) := by
  match w with
  | ⟨0, _⟩ =>
    refine ((dat4 (fun c b => U6 m c b) c).arrAt_in 0 rfl _).trans ?_
    show U6 m c (Pipeline.arrRef spec4 0) = U7 m c (Pipeline.arrRef spec4 0)
    unfold U7
    rw [Function.update_of_ne (StableHlo.devRef_ne_of_ne (by decide))]
  | ⟨1, _⟩ =>
    refine ((dat4 (fun c b => U6 m c b) c).arrAt_in 1 rfl _).trans ?_
    show U6 m c (Pipeline.arrRef spec4 1) = U7 m c (Pipeline.arrRef spec4 1)
    unfold U7
    rw [Function.update_of_ne (StableHlo.devRef_ne_of_ne (by decide))]
  | ⟨2, _⟩ =>
    refine ((dat4 (fun c b => U6 m c b) c).arrAt_in 2 rfl _).trans ?_
    show U6 m c (Pipeline.arrRef spec4 2) = U7 m c (Pipeline.arrRef spec4 2)
    unfold U7
    rw [Function.update_of_ne (StableHlo.devRef_ne_of_ne (by decide))]
  | ⟨3, _⟩ =>
    show _ = U7 m c main_v23
    unfold U7
    rw [Function.update_self]; rfl

/-- Every other buffer holds what it held at entry. -/
theorem hrest4 (c : Dev nD) : ∀ b : Ref sig .tc, b ∉ Finset.univ.image (Pipeline.arrRef spec4) →
    (fun b : Ref sig .tc => U7 m c b) b = (fun b : Ref sig .tc => U6 m c b) b := fun b hb => by
  show U7 m c b = U6 m c b
  unfold U7
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => U6 m c b) c).loose
  hwaits := Pipeline.hwaits_of_owed_zero _ _ _ _ L lv 4 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec4 c (fun b : Ref sig .tc => U6 m c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b : Ref sig .tc => U6 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b : Ref sig .tc => U6 m c b) (fun b : Ref sig .tc => U7 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg5.lean ====
/- Region 5 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF5 (c : Dev nD) (w : Fin cfg5.W) :
    (dat5 (fun c b => U7 m c b) c).arrAt w cfg5.N = (fun b : Ref sig .tc => U8 m c b) (Pipeline.arrRef spec5 w) := by
  match w with
  | ⟨0, _⟩ =>
    refine ((dat5 (fun c b => U7 m c b) c).arrAt_in 0 rfl _).trans ?_
    show U7 m c (Pipeline.arrRef spec5 0) = U8 m c (Pipeline.arrRef spec5 0)
    unfold U8
    rw [Function.update_of_ne (StableHlo.devRef_ne_of_ne (by decide))]
  | ⟨1, _⟩ =>
    refine ((dat5 (fun c b => U7 m c b) c).arrAt_in 1 rfl _).trans ?_
    show U7 m c (Pipeline.arrRef spec5 1) = U8 m c (Pipeline.arrRef spec5 1)
    unfold U8
    rw [Function.update_of_ne (StableHlo.devRef_ne_of_ne (by decide))]
  | ⟨2, _⟩ =>
    refine ((dat5 (fun c b => U7 m c b) c).arrAt_in 2 rfl _).trans ?_
    show U7 m c (Pipeline.arrRef spec5 2) = U8 m c (Pipeline.arrRef spec5 2)
    unfold U8
    rw [Function.update_of_ne (StableHlo.devRef_ne_of_ne (by decide))]
  | ⟨3, _⟩ =>
    show _ = U8 m c main_v24
    unfold U8
    rw [Function.update_self]; rfl

/-- Every other buffer holds what it held at entry. -/
theorem hrest5 (c : Dev nD) : ∀ b : Ref sig .tc, b ∉ Finset.univ.image (Pipeline.arrRef spec5) →
    (fun b : Ref sig .tc => U8 m c b) b = (fun b : Ref sig .tc => U7 m c b) b := fun b hb => by
  show U8 m c b = U7 m c b
  unfold U8
  rw [Function.update_of_ne (StableHlo.devRef_ne_of_ne fun h => hb (Finset.mem_image.mpr ⟨3, Finset.mem_univ _, h.symm⟩))]

/-- A product over the three distinct buffers behind the four windows, factor by factor. -/
theorem bufs5 (Φ : Ref sig .tc → sProp 𝕄) :
    bigSep (Finset.univ.image (Pipeline.arrRef spec5)) Φ = iprop(Φ main_v23 ∗ Φ main_arg4 ∗ Φ main_v24) :=
  bigSep_eq_bigSepL_of_eq [main_v23, main_arg4, main_v24] (by decide) (by decide) Φ

/-- The shares the proof data hold the arrays at: the two halves of the shared buffer, the others whole. -/
theorem share5_0 (c : Dev nD) : (pdats m 5 c).share 0 = fullShare.left := rfl
theorem share5_1 (c : Dev nD) : (pdats m 5 c).share 1 = fullShare.right := rfl
theorem share5_2 (c : Dev nD) : (pdats m 5 c).share 2 = fullShare := rfl
theorem share5_3 (c : Dev nD) : (pdats m 5 c).share 3 = fullShare := rfl

/-- The windows' arrays, each a whole buffer, as plain points-to facts at each window's own share. -/
theorem arraysEq5 (c : Dev nD) (G : (w : Fin cfg5.W) → Buf (Elt F) ((cfg5.win w).arr.view.loc (c : Thread nD τ))) :
    (pdats m 5 c).arrays G
      = bigSep Finset.univ fun w => ((((c : Thread nD τ).loc (Pipeline.arrRef (Pipeline.pin (pcfgs (F := F)) adm 5).spec w)) ↦{(pdats m 5 c).share w} G w : sProp 𝕄)) := by
  unfold Pipeline.Dat.arrays
  exact bigSep_congr fun w _ => by
    have h : ((Pipeline.pin (pcfgs (F := F)) adm 5).win w).arr.view.set = Finset.univ := (arr_whole5 w).set_eq_univ
    rw [h]

set_option maxHeartbeats 4000000 in
/-- The distinct buffers whole at contents `V` ARE the four windows' arrays at contents `F` agreeing with `V`: the shared
    buffer's whole share is its left half and its right half. -/
theorem arrs5 (c : Dev nD) (V : (b : Ref sig .tc) → Buf (Elt F) ((c : Thread nD τ).loc b))
    (G : (w : Fin cfg5.W) → Buf (Elt F) ((cfg5.win w).arr.view.loc (c : Thread nD τ))) (hG : ∀ w, G w = V (Pipeline.arrRef spec5 w)) :
    (Pipeline.arrBufs (Ix := Unit) (Name := ℕ) (U := UR sig nD τ) (Lvl := ℕ) spec5 c V : sProp 𝕄) ⊣⊢ (pdats m 5 c).arrays G := by
  unfold Pipeline.arrBufs
  rw [arraysEq5 m c G, bufs5, bigSep_W5, share5_0, share5_1, share5_2, share5_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (fun c b => U7 m c b) c).loose
  hwaits := Pipeline.hwaits_of_owed_zero _ _ _ _ L lv 5 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec5 c (fun b : Ref sig .tc => U7 m c b)
  hentry c := by
    rw [Pipeline.ownSems0_none]
    have hsp := Pipeline.unscopedBufs_split₀ (Ix := Unit) (Name := ℕ) (U := UR sig nD τ) (Lvl := ℕ) (Pipeline.pin (pcfgs (F := F)) adm) 5
      winFacts₀5.arr_unscoped c (fun b : Ref sig .tc => U7 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs5 m c (fun b : Ref sig .tc => U7 m c b) ((pdats m 5 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 5
      winFacts₀5.arr_unscoped c (fun b : Ref sig .tc => U8 m c b)
    rw [Pipeline.unscopedBufs_held] at hsp
    have hrestEq : (Pipeline.unscopedRest (Ix := Unit) (Name := ℕ) (U := UR sig nD τ) (Lvl := ℕ) spec5 c (fun b : Ref sig .tc => U7 m c b) : sProp 𝕄)
        = Pipeline.unscopedRest spec5 c (fun b : Ref sig .tc => U8 m c b) := by
      unfold Pipeline.unscopedRest
      exact bigSep_congr fun b hb => by rw [hrest5 m c b (Finset.mem_sdiff.mp hb).2]
    iintro ⟨Ha, HO, HY, Hrest⟩
    imodintro
    isplitl [Ha Hrest]
    · iapply (BIBase.Entails.of_eq hsp.symm)
      isplitl [Ha]
      · iapply (arrs5 m c (fun b : Ref sig .tc => U8 m c b) ((pdats m 5 c).arrAt · cfg5.N) (hF5 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.Kernel.Hand

end
-- ==== Proof.K.Reg6.lean ====
/- Region 6 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF6 (c : Dev nD) (w : Fin cfg6.W) :
    (dat6 (fun c b => U8 m c b) c).arrAt w cfg6.N = (fun b : Ref sig .tc => U9 m c b) (Pipeline.arrRef spec6 w) := by
  match w with
  | ⟨0, _⟩ =>
    refine ((dat6 (fun c b => U8 m c b) c).arrAt_in 0 rfl _).trans ?_
    show U8 m c (Pipeline.arrRef spec6 0) = U9 m c (Pipeline.arrRef spec6 0)
    unfold U9
    rw [Function.update_of_ne (StableHlo.devRef_ne_of_ne (by decide))]
  | ⟨1, _⟩ =>
    refine ((dat6 (fun c b => U8 m c b) c).arrAt_in 1 rfl _).trans ?_
    show U8 m c (Pipeline.arrRef spec6 1) = U9 m c (Pipeline.arrRef spec6 1)
    unfold U9
    rw [Function.update_of_ne (StableHlo.devRef_ne_of_ne (by decide))]
  | ⟨2, _⟩ =>
    refine ((dat6 (fun c b => U8 m c b) c).arrAt_in 2 rfl _).trans ?_
    show U8 m c (Pipeline.arrRef spec6 2) = U9 m c (Pipeline.arrRef spec6 2)
    unfold U9
    rw [Function.update_of_ne (StableHlo.devRef_ne_of_ne (by decide))]
  | ⟨3, _⟩ =>
    show _ = U9 m c main_v25
    unfold U9
    rw [Function.update_self]; rfl

/-- Every other buffer holds what it held at entry. -/
theorem hrest6 (c : Dev nD) : ∀ b : Ref sig .tc, b ∉ Finset.univ.image (Pipeline.arrRef spec6) →
    (fun b : Ref sig .tc => U9 m c b) b = (fun b : Ref sig .tc => U8 m c b) b := fun b hb => by
  show U9 m c b = U8 m c b
  unfold U9
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => U8 m c b) c).loose
  hwaits := Pipeline.hwaits_of_owed_zero _ _ _ _ L lv 6 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec6 c (fun b : Ref sig .tc => U8 m c b)
  hentry c := by
    rw [Pipeline.ownSems0_none]
    have hsplit := Pipeline.arrays_of_unscopedBufs (p := 6) (pcfgs (F := F)) adm (pdats m) launch6.win launch6.arr_whole c
      ((pdats m 6 c).share_full fun _ => rfl) (fun b : Ref sig .tc => U8 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (fun b : Ref sig .tc => U8 m c b) (fun b : Ref sig .tc => U9 m c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg7.lean ====
/- Region 7 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF7 (c : Dev nD) (w : Fin cfg7.W) :
    (dat7 (fun c b => U9 m c b) c).arrAt w cfg7.N = (fun b : Ref sig .tc => U10 m c b) (Pipeline.arrRef spec7 w) := by
  match w with
  | ⟨0, _⟩ =>
    refine ((dat7 (fun c b => U9 m c b) c).arrAt_in 0 rfl _).trans ?_
    show U9 m c (Pipeline.arrRef spec7 0) = U10 m c (Pipeline.arrRef spec7 0)
    unfold U10
    rw [Function.update_of_ne (StableHlo.devRef_ne_of_ne (by decide))]
  | ⟨1, _⟩ =>
    refine ((dat7 (fun c b => U9 m c b) c).arrAt_in 1 rfl _).trans ?_
    show U9 m c (Pipeline.arrRef spec7 1) = U10 m c (Pipeline.arrRef spec7 1)
    unfold U10
    rw [Function.update_of_ne (StableHlo.devRef_ne_of_ne (by decide))]
  | ⟨2, _⟩ =>
    refine ((dat7 (fun c b => U9 m c b) c).arrAt_in 2 rfl _).trans ?_
    show U9 m c (Pipeline.arrRef spec7 2) = U10 m c (Pipeline.arrRef spec7 2)
    unfold U10
    rw [Function.update_of_ne (StableHlo.devRef_ne_of_ne (by decide))]
  | ⟨3, _⟩ =>
    show _ = U10 m c main_v26
    unfold U10
    rw [Function.update_self]; rfl

/-- Every other buffer holds what it held at entry. -/
theorem hrest7 (c : Dev nD) : ∀ b : Ref sig .tc, b ∉ Finset.univ.image (Pipeline.arrRef spec7) →
    (fun b : Ref sig .tc => U10 m c b) b = (fun b : Ref sig .tc => U9 m c b) b := fun b hb => by
  show U10 m c b = U9 m c b
  unfold U10
  rw [Function.update_of_ne (StableHlo.devRef_ne_of_ne fun h => hb (Finset.mem_image.mpr ⟨3, Finset.mem_univ _, h.symm⟩))]

/-- A product over the three distinct buffers behind the four windows, factor by factor. -/
theorem bufs7 (Φ : Ref sig .tc → sProp 𝕄) :
    bigSep (Finset.univ.image (Pipeline.arrRef spec7)) Φ = iprop(Φ main_v25 ∗ Φ main_arg4 ∗ Φ main_v26) :=
  bigSep_eq_bigSepL_of_eq [main_v25, main_arg4, main_v26] (by decide) (by decide) Φ

/-- The shares the proof data hold the arrays at: the two halves of the shared buffer, the others whole. -/
theorem share7_0 (c : Dev nD) : (pdats m 7 c).share 0 = fullShare.left := rfl
theorem share7_1 (c : Dev nD) : (pdats m 7 c).share 1 = fullShare.right := rfl
theorem share7_2 (c : Dev nD) : (pdats m 7 c).share 2 = fullShare := rfl
theorem share7_3 (c : Dev nD) : (pdats m 7 c).share 3 = fullShare := rfl

/-- The windows' arrays, each a whole buffer, as plain points-to facts at each window's own share. -/
theorem arraysEq7 (c : Dev nD) (G : (w : Fin cfg7.W) → Buf (Elt F) ((cfg7.win w).arr.view.loc (c : Thread nD τ))) :
    (pdats m 7 c).arrays G
      = bigSep Finset.univ fun w => ((((c : Thread nD τ).loc (Pipeline.arrRef (Pipeline.pin (pcfgs (F := F)) adm 7).spec w)) ↦{(pdats m 7 c).share w} G w : sProp 𝕄)) := by
  unfold Pipeline.Dat.arrays
  exact bigSep_congr fun w _ => by
    have h : ((Pipeline.pin (pcfgs (F := F)) adm 7).win w).arr.view.set = Finset.univ := (arr_whole7 w).set_eq_univ
    rw [h]

set_option maxHeartbeats 4000000 in
/-- The distinct buffers whole at contents `V` ARE the four windows' arrays at contents `F` agreeing with `V`: the shared
    buffer's whole share is its left half and its right half. -/
theorem arrs7 (c : Dev nD) (V : (b : Ref sig .tc) → Buf (Elt F) ((c : Thread nD τ).loc b))
    (G : (w : Fin cfg7.W) → Buf (Elt F) ((cfg7.win w).arr.view.loc (c : Thread nD τ))) (hG : ∀ w, G w = V (Pipeline.arrRef spec7 w)) :
    (Pipeline.arrBufs (Ix := Unit) (Name := ℕ) (U := UR sig nD τ) (Lvl := ℕ) spec7 c V : sProp 𝕄) ⊣⊢ (pdats m 7 c).arrays G := by
  unfold Pipeline.arrBufs
  rw [arraysEq7 m c G, bufs7, bigSep_W7, share7_0, share7_1, share7_2, share7_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (fun c b => U9 m c b) c).loose
  hwaits := Pipeline.hwaits_of_owed_zero _ _ _ _ L lv 7 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec7 c (fun b : Ref sig .tc => U9 m c b)
  hentry c := by
    rw [Pipeline.ownSems0_none]
    have hsp := Pipeline.unscopedBufs_split₀ (Ix := Unit) (Name := ℕ) (U := UR sig nD τ) (Lvl := ℕ) (Pipeline.pin (pcfgs (F := F)) adm) 7
      winFacts₀7.arr_unscoped c (fun b : Ref sig .tc => U9 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs7 m c (fun b : Ref sig .tc => U9 m c b) ((pdats m 7 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 7
      winFacts₀7.arr_unscoped c (fun b : Ref sig .tc => U10 m c b)
    rw [Pipeline.unscopedBufs_held] at hsp
    have hrestEq : (Pipeline.unscopedRest (Ix := Unit) (Name := ℕ) (U := UR sig nD τ) (Lvl := ℕ) spec7 c (fun b : Ref sig .tc => U9 m c b) : sProp 𝕄)
        = Pipeline.unscopedRest spec7 c (fun b : Ref sig .tc => U10 m c b) := by
      unfold Pipeline.unscopedRest
      exact bigSep_congr fun b hb => by rw [hrest7 m c b (Finset.mem_sdiff.mp hb).2]
    iintro ⟨Ha, HO, HY, Hrest⟩
    imodintro
    isplitl [Ha Hrest]
    · iapply (BIBase.Entails.of_eq hsp.symm)
      isplitl [Ha]
      · iapply (arrs7 m c (fun b : Ref sig .tc => U10 m c b) ((pdats m 7 c).arrAt · cfg7.N) (hF7 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.Kernel.Hand

end
-- ==== Proof.K.Reg8.lean ====
/- Region 8 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF8 (c : Dev nD) (w : Fin cfg8.W) :
    (dat8 (fun c b => U12 m c b) c).arrAt w cfg8.N = (fun b : Ref sig .tc => U13 m c b) (Pipeline.arrRef spec8 w) := by
  match w with
  | ⟨0, _⟩ =>
    refine ((dat8 (fun c b => U12 m c b) c).arrAt_in 0 rfl _).trans ?_
    show U12 m c (Pipeline.arrRef spec8 0) = U13 m c (Pipeline.arrRef spec8 0)
    unfold U13
    rw [Function.update_of_ne (StableHlo.devRef_ne_of_ne (by decide))]
  | ⟨1, _⟩ =>
    refine ((dat8 (fun c b => U12 m c b) c).arrAt_in 1 rfl _).trans ?_
    show U12 m c (Pipeline.arrRef spec8 1) = U13 m c (Pipeline.arrRef spec8 1)
    unfold U13
    rw [Function.update_of_ne (StableHlo.devRef_ne_of_ne (by decide))]
  | ⟨2, _⟩ =>
    refine ((dat8 (fun c b => U12 m c b) c).arrAt_in 2 rfl _).trans ?_
    show U12 m c (Pipeline.arrRef spec8 2) = U13 m c (Pipeline.arrRef spec8 2)
    unfold U13
    rw [Function.update_of_ne (StableHlo.devRef_ne_of_ne (by decide))]
  | ⟨3, _⟩ =>
    show _ = U13 m c main_v46
    unfold U13
    rw [Function.update_self]; rfl

/-- Every other buffer holds what it held at entry. -/
theorem hrest8 (c : Dev nD) : ∀ b : Ref sig .tc, b ∉ Finset.univ.image (Pipeline.arrRef spec8) →
    (fun b : Ref sig .tc => U13 m c b) b = (fun b : Ref sig .tc => U12 m c b) b := fun b hb => by
  show U13 m c b = U12 m c b
  unfold U13
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (fun c b => U12 m c b) c).loose
  hwaits := Pipeline.hwaits_of_owed_zero _ _ _ _ L lv 8 fun _ _ => rfl
  pre c := iprop(StableHlo.held (c : Thread nD τ) (Pipeline.ucRefs τ sig) (U12 m c) ∗ R c)
  post c := iprop(StableHlo.held (c : Thread nD τ) (Pipeline.ucRefs τ sig) (U13 m c) ∗ R c)
  X c := iprop(∃ r, prngReg c r)
  Y c := iprop(∃ r, prngReg c r)
  Z c := Pipeline.unscopedRest (Ix := Unit) (Name := ℕ) (U := UR sig nD τ) (Lvl := ℕ) spec8 c (fun b : Ref sig .tc => U12 m c b)
  hentry c := by
    rw [Pipeline.ownSems0_none]
    have hsplit := Pipeline.arrays_of_unscopedBufs (p := 8) (pcfgs (F := F)) adm (pdats m) launch8.win launch8.arr_whole c
      ((pdats m 8 c).share_full fun _ => rfl) (fun b : Ref sig .tc => U12 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (fun b : Ref sig .tc => U12 m c b) (fun b : Ref sig .tc => U13 m c b) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg9.lean ====
/- Region 9 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF9 (c : Dev nD) (w : Fin cfg9.W) :
    (dat9 (fun c b => U13 m c b) c).arrAt w cfg9.N = (fun b : Ref sig .tc => U14 m c b) (Pipeline.arrRef spec9 w) := by
  match w with
  | ⟨0, _⟩ =>
    refine ((dat9 (fun c b => U13 m c b) c).arrAt_in 0 rfl _).trans ?_
    show U13 m c (Pipeline.arrRef spec9 0) = U14 m c (Pipeline.arrRef spec9 0)
    unfold U14
    rw [Function.update_of_ne (StableHlo.devRef_ne_of_ne (by decide))]
  | ⟨1, _⟩ =>
    refine ((dat9 (fun c b => U13 m c b) c).arrAt_in 1 rfl _).trans ?_
    show U13 m c (Pipeline.arrRef spec9 1) = U14 m c (Pipeline.arrRef spec9 1)
    unfold U14
    rw [Function.update_of_ne (StableHlo.devRef_ne_of_ne (by decide))]
  | ⟨2, _⟩ =>
    refine ((dat9 (fun c b => U13 m c b) c).arrAt_in 2 rfl _).trans ?_
    show U13 m c (Pipeline.arrRef spec9 2) = U14 m c (Pipeline.arrRef spec9 2)
    unfold U14
    rw [Function.update_of_ne (StableHlo.devRef_ne_of_ne (by decide))]
  | ⟨3, _⟩ =>
    show _ = U14 m c main_v47
    unfold U14
    rw [Function.update_self]; rfl

/-- Every other buffer holds what it held at entry. -/
theorem hrest9 (c : Dev nD) : ∀ b : Ref sig .tc, b ∉ Finset.univ.image (Pipeline.arrRef spec9) →
    (fun b : Ref sig .tc => U14 m c b) b = (fun b : Ref sig .tc => U13 m c b) b := fun b hb => by
  show U14 m c b = U13 m c b
  unfold U14
  rw [Function.update_of_ne (StableHlo.devRef_ne_of_ne fun h => hb (Finset.mem_image.mpr ⟨3, Finset.mem_univ _, h.symm⟩))]

/-- A product over the three distinct buffers behind the four windows, factor by factor. -/
theorem bufs9 (Φ : Ref sig .tc → sProp 𝕄) :
    bigSep (Finset.univ.image (Pipeline.arrRef spec9)) Φ = iprop(Φ main_v46 ∗ Φ main_arg5 ∗ Φ main_v47) :=
  bigSep_eq_bigSepL_of_eq [main_v46, main_arg5, main_v47] (by decide) (by decide) Φ

/-- The shares the proof data hold the arrays at: the two halves of the shared buffer, the others whole. -/
theorem share9_0 (c : Dev nD) : (pdats m 9 c).share 0 = fullShare.left := rfl
theorem share9_1 (c : Dev nD) : (pdats m 9 c).share 1 = fullShare.right := rfl
theorem share9_2 (c : Dev nD) : (pdats m 9 c).share 2 = fullShare := rfl
theorem share9_3 (c : Dev nD) : (pdats m 9 c).share 3 = fullShare := rfl

/-- The windows' arrays, each a whole buffer, as plain points-to facts at each window's own share. -/
theorem arraysEq9 (c : Dev nD) (G : (w : Fin cfg9.W) → Buf (Elt F) ((cfg9.win w).arr.view.loc (c : Thread nD τ))) :
    (pdats m 9 c).arrays G
      = bigSep Finset.univ fun w => ((((c : Thread nD τ).loc (Pipeline.arrRef (Pipeline.pin (pcfgs (F := F)) adm 9).spec w)) ↦{(pdats m 9 c).share w} G w : sProp 𝕄)) := by
  unfold Pipeline.Dat.arrays
  exact bigSep_congr fun w _ => by
    have h : ((Pipeline.pin (pcfgs (F := F)) adm 9).win w).arr.view.set = Finset.univ := (arr_whole9 w).set_eq_univ
    rw [h]

set_option maxHeartbeats 4000000 in
/-- The distinct buffers whole at contents `V` ARE the four windows' arrays at contents `F` agreeing with `V`: the shared
    buffer's whole share is its left half and its right half. -/
theorem arrs9 (c : Dev nD) (V : (b : Ref sig .tc) → Buf (Elt F) ((c : Thread nD τ).loc b))
    (G : (w : Fin cfg9.W) → Buf (Elt F) ((cfg9.win w).arr.view.loc (c : Thread nD τ))) (hG : ∀ w, G w = V (Pipeline.arrRef spec9 w)) :
    (Pipeline.arrBufs (Ix := Unit) (Name := ℕ) (U := UR sig nD τ) (Lvl := ℕ) spec9 c V : sProp 𝕄) ⊣⊢ (pdats m 9 c).arrays G := by
  unfold Pipeline.arrBufs
  rw [arraysEq9 m c G, bufs9, bigSep_W9, share9_0, share9_1, share9_2, share9_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg9 : Pipeline.RegionSeg (pcfgs (F := F)) adm (pdats m) () defs₀ 𝒱₀ L lv 9 where
  win := winFacts₀9
  block_pos := block_pos9
  stage_whole := stage_whole9
  K := PEmpty
  osem k := k.elim
  ho := Pipeline.OwnSemFacts.none _
  hbody c := (body_obligation9 (fun c b => U13 m c b) c).loose
  hwaits := Pipeline.hwaits_of_owed_zero _ _ _ _ L lv 9 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec9 c (fun b : Ref sig .tc => U13 m c b)
  hentry c := by
    rw [Pipeline.ownSems0_none]
    have hsp := Pipeline.unscopedBufs_split₀ (Ix := Unit) (Name := ℕ) (U := UR sig nD τ) (Lvl := ℕ) (Pipeline.pin (pcfgs (F := F)) adm) 9
      winFacts₀9.arr_unscoped c (fun b : Ref sig .tc => U13 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs9 m c (fun b : Ref sig .tc => U13 m c b) ((pdats m 9 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 9
      winFacts₀9.arr_unscoped c (fun b : Ref sig .tc => U14 m c b)
    rw [Pipeline.unscopedBufs_held] at hsp
    have hrestEq : (Pipeline.unscopedRest (Ix := Unit) (Name := ℕ) (U := UR sig nD τ) (Lvl := ℕ) spec9 c (fun b : Ref sig .tc => U13 m c b) : sProp 𝕄)
        = Pipeline.unscopedRest spec9 c (fun b : Ref sig .tc => U14 m c b) := by
      unfold Pipeline.unscopedRest
      exact bigSep_congr fun b hb => by rw [hrest9 m c b (Finset.mem_sdiff.mp hb).2]
    iintro ⟨Ha, HO, HY, Hrest⟩
    imodintro
    isplitl [Ha Hrest]
    · iapply (BIBase.Entails.of_eq hsp.symm)
      isplitl [Ha]
      · iapply (arrs9 m c (fun b : Ref sig .tc => U14 m c b) ((pdats m 9 c).arrAt · cfg9.N) (hF9 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.Kernel.Hand

end
-- ==== Proof.K.Reg10.lean ====
/- Region 10 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF10 (c : Dev nD) (w : Fin cfg10.W) :
    (dat10 (fun c b => U14 m c b) c).arrAt w cfg10.N = (fun b : Ref sig .tc => U15 m c b) (Pipeline.arrRef spec10 w) := by
  match w with
  | ⟨0, _⟩ =>
    refine ((dat10 (fun c b => U14 m c b) c).arrAt_in 0 rfl _).trans ?_
    show U14 m c (Pipeline.arrRef spec10 0) = U15 m c (Pipeline.arrRef spec10 0)
    unfold U15
    rw [Function.update_of_ne (StableHlo.devRef_ne_of_ne (by decide))]
  | ⟨1, _⟩ =>
    refine ((dat10 (fun c b => U14 m c b) c).arrAt_in 1 rfl _).trans ?_
    show U14 m c (Pipeline.arrRef spec10 1) = U15 m c (Pipeline.arrRef spec10 1)
    unfold U15
    rw [Function.update_of_ne (StableHlo.devRef_ne_of_ne (by decide))]
  | ⟨2, _⟩ =>
    refine ((dat10 (fun c b => U14 m c b) c).arrAt_in 2 rfl _).trans ?_
    show U14 m c (Pipeline.arrRef spec10 2) = U15 m c (Pipeline.arrRef spec10 2)
    unfold U15
    rw [Function.update_of_ne (StableHlo.devRef_ne_of_ne (by decide))]
  | ⟨3, _⟩ =>
    show _ = U15 m c main_v48
    unfold U15
    rw [Function.update_self]; rfl

/-- Every other buffer holds what it held at entry. -/
theorem hrest10 (c : Dev nD) : ∀ b : Ref sig .tc, b ∉ Finset.univ.image (Pipeline.arrRef spec10) →
    (fun b : Ref sig .tc => U15 m c b) b = (fun b : Ref sig .tc => U14 m c b) b := fun b hb => by
  show U15 m c b = U14 m c b
  unfold U15
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (fun c b => U14 m c b) c).loose
  hwaits := Pipeline.hwaits_of_owed_zero _ _ _ _ L lv 10 fun _ _ => rfl
  pre c := iprop(StableHlo.held (c : Thread nD τ) (Pipeline.ucRefs τ sig) (U14 m c) ∗ R c)
  post c := iprop(StableHlo.held (c : Thread nD τ) (Pipeline.ucRefs τ sig) (U15 m c) ∗ R c)
  X c := iprop(∃ r, prngReg c r)
  Y c := iprop(∃ r, prngReg c r)
  Z c := Pipeline.unscopedRest (Ix := Unit) (Name := ℕ) (U := UR sig nD τ) (Lvl := ℕ) spec10 c (fun b : Ref sig .tc => U14 m c b)
  hentry c := by
    rw [Pipeline.ownSems0_none]
    have hsplit := Pipeline.arrays_of_unscopedBufs (p := 10) (pcfgs (F := F)) adm (pdats m) launch10.win launch10.arr_whole c
      ((pdats m 10 c).share_full fun _ => rfl) (fun b : Ref sig .tc => U14 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (fun b : Ref sig .tc => U14 m c b) (fun b : Ref sig .tc => U15 m c b) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Reg11.lean ====
/- Region 11 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF11 (c : Dev nD) (w : Fin cfg11.W) :
    (dat11 (fun c b => U15 m c b) c).arrAt w cfg11.N = (fun b : Ref sig .tc => U16 m c b) (Pipeline.arrRef spec11 w) := by
  match w with
  | ⟨0, _⟩ =>
    refine ((dat11 (fun c b => U15 m c b) c).arrAt_in 0 rfl _).trans ?_
    show U15 m c (Pipeline.arrRef spec11 0) = U16 m c (Pipeline.arrRef spec11 0)
    unfold U16
    rw [Function.update_of_ne (StableHlo.devRef_ne_of_ne (by decide))]
  | ⟨1, _⟩ =>
    refine ((dat11 (fun c b => U15 m c b) c).arrAt_in 1 rfl _).trans ?_
    show U15 m c (Pipeline.arrRef spec11 1) = U16 m c (Pipeline.arrRef spec11 1)
    unfold U16
    rw [Function.update_of_ne (StableHlo.devRef_ne_of_ne (by decide))]
  | ⟨2, _⟩ =>
    refine ((dat11 (fun c b => U15 m c b) c).arrAt_in 2 rfl _).trans ?_
    show U15 m c (Pipeline.arrRef spec11 2) = U16 m c (Pipeline.arrRef spec11 2)
    unfold U16
    rw [Function.update_of_ne (StableHlo.devRef_ne_of_ne (by decide))]
  | ⟨3, _⟩ =>
    show _ = U16 m c main_v49
    unfold U16
    rw [Function.update_self]; rfl

/-- Every other buffer holds what it held at entry. -/
theorem hrest11 (c : Dev nD) : ∀ b : Ref sig .tc, b ∉ Finset.univ.image (Pipeline.arrRef spec11) →
    (fun b : Ref sig .tc => U16 m c b) b = (fun b : Ref sig .tc => U15 m c b) b := fun b hb => by
  show U16 m c b = U15 m c b
  unfold U16
  rw [Function.update_of_ne (StableHlo.devRef_ne_of_ne fun h => hb (Finset.mem_image.mpr ⟨3, Finset.mem_univ _, h.symm⟩))]

/-- A product over the three distinct buffers behind the four windows, factor by factor. -/
theorem bufs11 (Φ : Ref sig .tc → sProp 𝕄) :
    bigSep (Finset.univ.image (Pipeline.arrRef spec11)) Φ = iprop(Φ main_v48 ∗ Φ main_arg5 ∗ Φ main_v49) :=
  bigSep_eq_bigSepL_of_eq [main_v48, main_arg5, main_v49] (by decide) (by decide) Φ

/-- The shares the proof data hold the arrays at: the two halves of the shared buffer, the others whole. -/
theorem share11_0 (c : Dev nD) : (pdats m 11 c).share 0 = fullShare.left := rfl
theorem share11_1 (c : Dev nD) : (pdats m 11 c).share 1 = fullShare.right := rfl
theorem share11_2 (c : Dev nD) : (pdats m 11 c).share 2 = fullShare := rfl
theorem share11_3 (c : Dev nD) : (pdats m 11 c).share 3 = fullShare := rfl

/-- The windows' arrays, each a whole buffer, as plain points-to facts at each window's own share. -/
theorem arraysEq11 (c : Dev nD) (G : (w : Fin cfg11.W) → Buf (Elt F) ((cfg11.win w).arr.view.loc (c : Thread nD τ))) :
    (pdats m 11 c).arrays G
      = bigSep Finset.univ fun w => ((((c : Thread nD τ).loc (Pipeline.arrRef (Pipeline.pin (pcfgs (F := F)) adm 11).spec w)) ↦{(pdats m 11 c).share w} G w : sProp 𝕄)) := by
  unfold Pipeline.Dat.arrays
  exact bigSep_congr fun w _ => by
    have h : ((Pipeline.pin (pcfgs (F := F)) adm 11).win w).arr.view.set = Finset.univ := (arr_whole11 w).set_eq_univ
    rw [h]

set_option maxHeartbeats 4000000 in
/-- The distinct buffers whole at contents `V` ARE the four windows' arrays at contents `F` agreeing with `V`: the shared
    buffer's whole share is its left half and its right half. -/
theorem arrs11 (c : Dev nD) (V : (b : Ref sig .tc) → Buf (Elt F) ((c : Thread nD τ).loc b))
    (G : (w : Fin cfg11.W) → Buf (Elt F) ((cfg11.win w).arr.view.loc (c : Thread nD τ))) (hG : ∀ w, G w = V (Pipeline.arrRef spec11 w)) :
    (Pipeline.arrBufs (Ix := Unit) (Name := ℕ) (U := UR sig nD τ) (Lvl := ℕ) spec11 c V : sProp 𝕄) ⊣⊢ (pdats m 11 c).arrays G := by
  unfold Pipeline.arrBufs
  rw [arraysEq11 m c G, bufs11, bigSep_W11, share11_0, share11_1, share11_2, share11_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg11 : Pipeline.RegionSeg (pcfgs (F := F)) adm (pdats m) () defs₀ 𝒱₀ L lv 11 where
  win := winFacts₀11
  block_pos := block_pos11
  stage_whole := stage_whole11
  K := PEmpty
  osem k := k.elim
  ho := Pipeline.OwnSemFacts.none _
  hbody c := (body_obligation11 (fun c b => U15 m c b) c).loose
  hwaits := Pipeline.hwaits_of_owed_zero _ _ _ _ L lv 11 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec11 c (fun b : Ref sig .tc => U15 m c b)
  hentry c := by
    rw [Pipeline.ownSems0_none]
    have hsp := Pipeline.unscopedBufs_split₀ (Ix := Unit) (Name := ℕ) (U := UR sig nD τ) (Lvl := ℕ) (Pipeline.pin (pcfgs (F := F)) adm) 11
      winFacts₀11.arr_unscoped c (fun b : Ref sig .tc => U15 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs11 m c (fun b : Ref sig .tc => U15 m c b) ((pdats m 11 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 11
      winFacts₀11.arr_unscoped c (fun b : Ref sig .tc => U16 m c b)
    rw [Pipeline.unscopedBufs_held] at hsp
    have hrestEq : (Pipeline.unscopedRest (Ix := Unit) (Name := ℕ) (U := UR sig nD τ) (Lvl := ℕ) spec11 c (fun b : Ref sig .tc => U15 m c b) : sProp 𝕄)
        = Pipeline.unscopedRest spec11 c (fun b : Ref sig .tc => U16 m c b) := by
      unfold Pipeline.unscopedRest
      exact bigSep_congr fun b hb => by rw [hrest11 m c b (Finset.mem_sdiff.mp hb).2]
    iintro ⟨Ha, HO, HY, Hrest⟩
    imodintro
    isplitl [Ha Hrest]
    · iapply (BIBase.Entails.of_eq hsp.symm)
      isplitl [Ha]
      · iapply (arrs11 m c (fun b : Ref sig .tc => U16 m c b) ((pdats m 11 c).arrAt · cfg11.N) (hF11 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.Kernel.Hand

end
-- ==== Proof.K.Reg12.lean ====
/- Region 12 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.Kernel.Launch
import proofs.«123632_j87531433492498_2_alg».proof.Proof.Gen.Kernel.Skeleton
import proofs.«123632_j87531433492498_2_alg».proof.Proof.Gen.Kernel.Points
import proofs.«123632_j87531433492498_2_alg».proof.Proof.K.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF12 (c : Dev nD) (w : Fin cfg12.W) :
    (dat12 (fun c b => U18 m c b) c).arrAt w cfg12.N = (fun b : Ref sig .tc => U19 m c b) (Pipeline.arrRef spec12 w) := by
  match w with
  | ⟨0, _⟩ =>
    refine ((dat12 (fun c b => U18 m c b) c).arrAt_in 0 rfl _).trans ?_
    show U18 m c (Pipeline.arrRef spec12 0) = U19 m c (Pipeline.arrRef spec12 0)
    unfold U19
    rw [Function.update_of_ne (StableHlo.devRef_ne_of_ne (by decide))]
  | ⟨1, _⟩ =>
    refine ((dat12 (fun c b => U18 m c b) c).arrAt_in 1 rfl _).trans ?_
    show U18 m c (Pipeline.arrRef spec12 1) = U19 m c (Pipeline.arrRef spec12 1)
    unfold U19
    rw [Function.update_of_ne (StableHlo.devRef_ne_of_ne (by decide))]
  | ⟨2, _⟩ =>
    refine ((dat12 (fun c b => U18 m c b) c).arrAt_in 2 rfl _).trans ?_
    show U18 m c (Pipeline.arrRef spec12 2) = U19 m c (Pipeline.arrRef spec12 2)
    unfold U19
    rw [Function.update_of_ne (StableHlo.devRef_ne_of_ne (by decide))]
  | ⟨3, _⟩ =>
    refine ((dat12 (fun c b => U18 m c b) c).arrAt_in 3 rfl _).trans ?_
    show U18 m c (Pipeline.arrRef spec12 3) = U19 m c (Pipeline.arrRef spec12 3)
    unfold U19
    rw [Function.update_of_ne (StableHlo.devRef_ne_of_ne (by decide))]
  | ⟨4, _⟩ =>
    show _ = U19 m c main_v82
    unfold U19
    rw [Function.update_self]; rfl

/-- Every other buffer holds what it held at entry. -/
theorem hrest12 (c : Dev nD) : ∀ b : Ref sig .tc, b ∉ Finset.univ.image (Pipeline.arrRef spec12) →
    (fun b : Ref sig .tc => U19 m c b) b = (fun b : Ref sig .tc => U18 m c b) b := fun b hb => by
  show U19 m c b = U18 m c b
  unfold U19
  rw [Function.update_of_ne (StableHlo.devRef_ne_of_ne fun h => hb (Finset.mem_image.mpr ⟨4, Finset.mem_univ _, h.symm⟩))]

set_option maxHeartbeats 4000000 in
set_option backward.isDefEq.respectTransparency.types false in
/-- The region's record. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (fun c b => U18 m c b) c).loose
  hwaits := Pipeline.hwaits_of_owed_zero _ _ _ _ L lv 12 fun _ _ => rfl
  pre c := iprop(StableHlo.held (c : Thread nD τ) (Pipeline.ucRefs τ sig) (U18 m c) ∗ R c)
  post c := iprop(StableHlo.held (c : Thread nD τ) (Pipeline.ucRefs τ sig) (U19 m c) ∗ R c)
  X c := iprop(∃ r, prngReg c r)
  Y c := iprop(∃ r, prngReg c r)
  Z c := Pipeline.unscopedRest (Ix := Unit) (Name := ℕ) (U := UR sig nD τ) (Lvl := ℕ) spec12 c (fun b : Ref sig .tc => U18 m c b)
  hentry c := by
    rw [Pipeline.ownSems0_none]
    have hsplit := Pipeline.arrays_of_unscopedBufs (p := 12) (pcfgs (F := F)) adm (pdats m) launch12.win launch12.arr_whole c
      ((pdats m 12 c).share_full fun _ => rfl) (fun b : Ref sig .tc => U18 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (fun b : Ref sig .tc => U18 m c b) (fun b : Ref sig .tc => U19 m c b) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/- The kernel program's run: every weakly fair execution from any memory with zero counters terminates; at the end the result
   buffer holds the last item's contents of it and every argument is as launched. It is the run over one record per region,
   at the concrete contents between the items, the thread state beside the buffers being the core's generator register and
   its dues (none). -/
import proofs.«123632_j87531433492498_2_alg».proof.Proof.K.RunCond
import proofs.«123632_j87531433492498_2_alg».proof.Proof.K.Reg0
import proofs.«123632_j87531433492498_2_alg».proof.Proof.K.Reg1
import proofs.«123632_j87531433492498_2_alg».proof.Proof.K.Reg2
import proofs.«123632_j87531433492498_2_alg».proof.Proof.K.Reg3
import proofs.«123632_j87531433492498_2_alg».proof.Proof.K.Reg4
import proofs.«123632_j87531433492498_2_alg».proof.Proof.K.Reg5
import proofs.«123632_j87531433492498_2_alg».proof.Proof.K.Reg6
import proofs.«123632_j87531433492498_2_alg».proof.Proof.K.Reg7
import proofs.«123632_j87531433492498_2_alg».proof.Proof.K.Reg8
import proofs.«123632_j87531433492498_2_alg».proof.Proof.K.Reg9
import proofs.«123632_j87531433492498_2_alg».proof.Proof.K.Reg10
import proofs.«123632_j87531433492498_2_alg».proof.Proof.K.Reg11
import proofs.«123632_j87531433492498_2_alg».proof.Proof.K.Reg12
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v83) = U20 m c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  have h := run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE13 := fun c => by iintro ⟨-, H⟩; iexact H)
    (R0 := reg0 m) (hpre0 := fun c => by rw [V0_eq]; exact .rfl) (hpost0 := fun c => by rw [V1_eq]; exact .rfl)
    (R1 := reg1 m) (hpre1 := fun c => by rw [V1_eq]; exact .rfl) (hpost1 := fun c => by rw [V2_eq]; exact .rfl)
    (R2 := reg2 m) (hpre2 := fun c => by rw [V2_eq]; exact .rfl) (hpost2 := fun c => by rw [V3_eq]; exact .rfl)
    (R3 := reg3 m) (hpre3 := fun c => by rw [V3_eq]; exact .rfl) (hpost3 := fun c => by rw [V4_eq]; exact .rfl)
    (R4 := reg4 m) (hpre4 := fun c => by rw [V6_eq]; exact .rfl) (hpost4 := fun c => by rw [V7_eq]; exact .rfl)
    (R5 := reg5 m) (hpre5 := fun c => by rw [V7_eq]; exact .rfl) (hpost5 := fun c => by rw [V8_eq]; exact .rfl)
    (R6 := reg6 m) (hpre6 := fun c => by rw [V8_eq]; exact .rfl) (hpost6 := fun c => by rw [V9_eq]; exact .rfl)
    (R7 := reg7 m) (hpre7 := fun c => by rw [V9_eq]; exact .rfl) (hpost7 := fun c => by rw [V10_eq]; exact .rfl)
    (R8 := reg8 m) (hpre8 := fun c => by rw [V12_eq]; exact .rfl) (hpost8 := fun c => by rw [V13_eq]; exact .rfl)
    (R9 := reg9 m) (hpre9 := fun c => by rw [V13_eq]; exact .rfl) (hpost9 := fun c => by rw [V14_eq]; exact .rfl)
    (R10 := reg10 m) (hpre10 := fun c => by rw [V14_eq]; exact .rfl) (hpost10 := fun c => by rw [V15_eq]; exact .rfl)
    (R11 := reg11 m) (hpre11 := fun c => by rw [V15_eq]; exact .rfl) (hpost11 := fun c => by rw [V16_eq]; exact .rfl)
    (R12 := reg12 m) (hpre12 := fun c => by rw [V18_eq]; exact .rfl) (hpost12 := fun c => by rw [V19_eq]; exact .rfl)
  refine (θ_run defs _ _).mono (fun r hr c => ?_) h
  rw [← V20_eq]; exact hr c

end Cert.Kernel.Hand

end
-- ==== Proof.KI.RunCond.lean ====
/- The whole program's run from one record per region, with the result named: the launch theorem for a program of several
   regions applied to the items of the program in order, the host stretches as they are and each region through its record,
   the thread state between two items being "every unscoped buffer at that point's contents, beside a rest". At the end the
   result buffer and each argument are read off the last contents. -/
import proofs.«123632_j87531433492498_2_alg».proof.Proof.Gen.KernelIdeal.Regions

set_option maxRecDepth 1308

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in
/-- The run of the whole program, given one record per region: every weakly fair execution from memory `m` with zero counters
    terminates, and every final memory holds the result buffer at the last item's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 13) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 14 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE13 : ∀ c : Dev nD, E 13 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V2 m outs c) ∗ E 2 c) ⊢ R2.pre c)
    (hpost2 : ∀ c : Dev nD, R2.post c ⊢ iprop(StableHlo.held (c : Thread nD τ) (Pipeline.ucRefs τ sig) (V3 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V3 m outs c) ∗ E 3 c) ⊢ R3.pre c)
    (hpost3 : ∀ c : Dev nD, R3.post c ⊢ iprop(StableHlo.held (c : Thread nD τ) (Pipeline.ucRefs τ sig) (V4 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V6 m outs c) ∗ E 4 c) ⊢ R4.pre c)
    (hpost4 : ∀ c : Dev nD, R4.post c ⊢ iprop(StableHlo.held (c : Thread nD τ) (Pipeline.ucRefs τ sig) (V7 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V7 m outs c) ∗ E 5 c) ⊢ R5.pre c)
    (hpost5 : ∀ c : Dev nD, R5.post c ⊢ iprop(StableHlo.held (c : Thread nD τ) (Pipeline.ucRefs τ sig) (V8 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V8 m outs c) ∗ E 6 c) ⊢ R6.pre c)
    (hpost6 : ∀ c : Dev nD, R6.post c ⊢ iprop(StableHlo.held (c : Thread nD τ) (Pipeline.ucRefs τ sig) (V9 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V9 m outs c) ∗ E 7 c) ⊢ R7.pre c)
    (hpost7 : ∀ c : Dev nD, R7.post c ⊢ iprop(StableHlo.held (c : Thread nD τ) (Pipeline.ucRefs τ sig) (V10 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V12 m outs c) ∗ E 8 c) ⊢ R8.pre c)
    (hpost8 : ∀ c : Dev nD, R8.post c ⊢ iprop(StableHlo.held (c : Thread nD τ) (Pipeline.ucRefs τ sig) (V13 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V13 m outs c) ∗ E 9 c) ⊢ R9.pre c)
    (hpost9 : ∀ c : Dev nD, R9.post c ⊢ iprop(StableHlo.held (c : Thread nD τ) (Pipeline.ucRefs τ sig) (V14 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V14 m outs c) ∗ E 10 c) ⊢ R10.pre c)
    (hpost10 : ∀ c : Dev nD, R10.post c ⊢ iprop(StableHlo.held (c : Thread nD τ) (Pipeline.ucRefs τ sig) (V15 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V15 m outs c) ∗ E 11 c) ⊢ R11.pre c)
    (hpost11 : ∀ c : Dev nD, R11.post c ⊢ iprop(StableHlo.held (c : Thread nD τ) (Pipeline.ucRefs τ sig) (V16 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V18 m outs c) ∗ E 12 c) ⊢ R12.pre c)
    (hpost12 : ∀ c : Dev nD, R12.post c ⊢ iprop(StableHlo.held (c : Thread nD τ) (Pipeline.ucRefs τ sig) (V19 m outs c) ∗ E 13 c)) :
    θ_run defs (onTc (τ := τ) (main (F := F))) ⟨m, fun _ => 0, ρ⟩ (fun r => ∀ c : Dev nD,
      r.2.mem ((c.tc : Thread nD τ).loc main_v83) = V20 m outs c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12)
    (fun c Q => by
      rewrite [main_chain c, Seg.run_eq_chain,
        show (segs m outs 𝒱₀ L lv E ι pdats R0 R1 R2 R3 R4 R5 R6 R7 R8 R9 R10 R11 R12 c).map Seg.prog = [
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4,
          StableHlo.seq hostOps4_1,
          Prog.lift (.customCall (Pipeline.entry 4) ()),
          Prog.lift (.customCall (Pipeline.entry 5) ()),
          Prog.lift (.customCall (Pipeline.entry 6) ()),
          Prog.lift (.customCall (Pipeline.entry 7) ()),
          StableHlo.seq hostOps8,
          StableHlo.seq hostOps8_1,
          Prog.lift (.customCall (Pipeline.entry 8) ()),
          Prog.lift (.customCall (Pipeline.entry 9) ()),
          Prog.lift (.customCall (Pipeline.entry 10) ()),
          Prog.lift (.customCall (Pipeline.entry 11) ()),
          StableHlo.seq hostOps12,
          StableHlo.seq hostOps12_1,
          Prog.lift (.customCall (Pipeline.entry 12) ()),
          StableHlo.seq hostOps13 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V20 m outs c))
    (hch := fun c => ⟨hpre0 c, (hpost0 c).trans (hpre1 c), (hpost1 c).trans (hpre2 c), (hpost2 c).trans (hpre3 c), hpost3 c, .rfl, hpre4 c, (hpost4 c).trans (hpre5 c), (hpost5 c).trans (hpre6 c), (hpost6 c).trans (hpre7 c), hpost7 c, .rfl, hpre8 c, (hpost8 c).trans (hpre9 c), (hpost9 c).trans (hpre10 c), (hpost10 c).trans (hpre11 c), hpost11 c, .rfl, hpre12 c, hpost12 c, sep_mono .rfl (hE13 c)⟩)
    (hinit := ?_) (QY := fun c s => s.mem ((c.tc : Thread nD τ).loc main_v83) = V20 m outs c main_v83 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V20 m outs c) s') $$ [Hh HSI]
    · isplitl [Hh] <;> iassumption
    icases Hr with ⟨%h, HSI⟩
    imodintro
    isplitr
    · ipureintro
      exact ⟨h (Proc.devRef .tc main_v83) (Finset.mem_filter.mpr ⟨StableHlo.devRef_mem_tcRefs main_v83, by decide⟩),
        (h (Proc.devRef .tc main_arg0) (Finset.mem_filter.mpr ⟨StableHlo.devRef_mem_tcRefs main_arg0, by decide⟩)).trans (V20_main_arg0 m outs c),
        (h (Proc.devRef .tc main_arg1) (Finset.mem_filter.mpr ⟨StableHlo.devRef_mem_tcRefs main_arg1, by decide⟩)).trans (V20_main_arg1 m outs c),
        (h (Proc.devRef .tc main_arg2) (Finset.mem_filter.mpr ⟨StableHlo.devRef_mem_tcRefs main_arg2, by decide⟩)).trans (V20_main_arg2 m outs c),
        (h (Proc.devRef .tc main_arg3) (Finset.mem_filter.mpr ⟨StableHlo.devRef_mem_tcRefs main_arg3, by decide⟩)).trans (V20_main_arg3 m outs c),
        (h (Proc.devRef .tc main_arg4) (Finset.mem_filter.mpr ⟨StableHlo.devRef_mem_tcRefs main_arg4, by decide⟩)).trans (V20_main_arg4 m outs c),
        (h (Proc.devRef .tc main_arg5) (Finset.mem_filter.mpr ⟨StableHlo.devRef_mem_tcRefs main_arg5, by decide⟩)).trans (V20_main_arg5 m outs c),
        (h (Proc.devRef .tc main_arg6) (Finset.mem_filter.mpr ⟨StableHlo.devRef_mem_tcRefs main_arg6, by decide⟩)).trans (V20_main_arg6 m outs c),
        (h (Proc.devRef .tc main_arg7) (Finset.mem_filter.mpr ⟨StableHlo.devRef_mem_tcRefs main_arg7, by decide⟩)).trans (V20_main_arg7 m outs c),
        (h (Proc.devRef .tc main_arg8) (Finset.mem_filter.mpr ⟨StableHlo.devRef_mem_tcRefs main_arg8, by decide⟩)).trans (V20_main_arg8 m outs c),
        (h (Proc.devRef .tc main_arg9) (Finset.mem_filter.mpr ⟨StableHlo.devRef_mem_tcRefs main_arg9, by decide⟩)).trans (V20_main_arg9 m outs c),
        (h (Proc.devRef .tc main_arg10) (Finset.mem_filter.mpr ⟨StableHlo.devRef_mem_tcRefs main_arg10, by decide⟩)).trans (V20_main_arg10 m outs c),
        (h (Proc.devRef .tc main_arg11) (Finset.mem_filter.mpr ⟨StableHlo.devRef_mem_tcRefs main_arg11, by decide⟩)).trans (V20_main_arg11 m outs c),
        (h (Proc.devRef .tc main_arg12) (Finset.mem_filter.mpr ⟨StableHlo.devRef_mem_tcRefs main_arg12, by decide⟩)).trans (V20_main_arg12 m outs c),
        (h (Proc.devRef .tc main_arg13) (Finset.mem_filter.mpr ⟨StableHlo.devRef_mem_tcRefs main_arg13, by decide⟩)).trans (V20_main_arg13 m outs c),
        (h (Proc.devRef .tc main_arg14) (Finset.mem_filter.mpr ⟨StableHlo.devRef_mem_tcRefs main_arg14, by decide⟩)).trans (V20_main_arg14 m outs c),
        (h (Proc.devRef .tc main_arg15) (Finset.mem_filter.mpr ⟨StableHlo.devRef_mem_tcRefs main_arg15, by decide⟩)).trans (V20_main_arg15 m outs c),
        (h (Proc.devRef .tc main_arg16) (Finset.mem_filter.mpr ⟨StableHlo.devRef_mem_tcRefs main_arg16, by decide⟩)).trans (V20_main_arg16 m outs c),
        (h (Proc.devRef .tc main_arg17) (Finset.mem_filter.mpr ⟨StableHlo.devRef_mem_tcRefs main_arg17, by decide⟩)).trans (V20_main_arg17 m outs c),
        (h (Proc.devRef .tc main_arg18) (Finset.mem_filter.mpr ⟨StableHlo.devRef_mem_tcRefs main_arg18, by decide⟩)).trans (V20_main_arg18 m outs c),
        (h (Proc.devRef .tc main_arg19) (Finset.mem_filter.mpr ⟨StableHlo.devRef_mem_tcRefs main_arg19, by decide⟩)).trans (V20_main_arg19 m outs c),
        (h (Proc.devRef .tc main_arg20) (Finset.mem_filter.mpr ⟨StableHlo.devRef_mem_tcRefs main_arg20, by decide⟩)).trans (V20_main_arg20 m outs c),
        (h (Proc.devRef .tc main_arg21) (Finset.mem_filter.mpr ⟨StableHlo.devRef_mem_tcRefs main_arg21, by decide⟩)).trans (V20_main_arg21 m outs c)⟩
    · iexact HSI

end Cert.KernelIdeal.Hand

end
-- ==== Proof.KI.Body0.lean ====
/- Region 0: a dense layer H = X·W + b computed at one grid point on whole arrays. The three operands are read
   whole, the product is taken into a zero accumulator, the bias row is added to every row, and the result is stored whole. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds its block at every point, for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body reads and writes through. -/
abbrev rX0 : Rect S2000x156 := Rect.unit (s := S2000x156) ![0, 0] S2000x156.size inb_S2000x156_S2000x156_0_0
abbrev rW0 : Rect S156x64 := Rect.unit (s := S156x64) ![0, 0] S156x64.size inb_S156x64_S156x64_0_0
abbrev rb0 : Rect S64 := Rect.unit (s := S64) ![0] S64.size inb_S64_S64_0
abbrev rO0 : Rect S2000x64 := Rect.unit (s := S2000x64) ![0, 0] S2000x64.size inb_S2000x64_S2000x64_0_0

/-- What the body leaves in the output's staging buffer: X·W + b of the three operand blocks, stored as one whole piece. -/
def out0_3 (x0 : Vec F S2000x156 .f32) (x1 : Vec F S156x64 .f32) (x2 : Vec F S64 .f32) : Vec F S2000x64 .f32 :=
  View.canon [⟨rO0, k0_pay1 (View.ld x0 rX0) (View.ld x1 rW0) (View.ld x2 rb0)⟩]

/-- The one store covers the buffer. -/
theorem cover0_3 (p0 : Vec F S2000x64 .f32) (y : S2000x64.Idx) :
    ∃ pc ∈ ([⟨rO0, p0⟩] : List (View.Piece (Elt F) S2000x64 .f32)), y ∈ pc.1.set :=
  View.cover_of_tiled [⟨rO0, p0⟩] S2000x64.size (by rfl) y

set_option maxHeartbeats 1000000 in
/-- The body on whole staging memrefs: operands at `x0`, `x1`, `x2`, the output at anything; it ends with the operands as they
    were and the output at `out0_3` of them. -/
theorem sound_kernel0 (c : Dev nD) (E : Set ℕ) (i : grid0.Coords)
    (arg1 : Memref sig .tc .vmem S2000x156 .f32) (harg1 : arg1.IsWhole) (arg2 : Memref sig .tc .vmem S156x64 .f32) (harg2 : arg2.IsWhole)
    (arg3 : Memref sig .tc .vmem S64 .f32) (harg3 : arg3.IsWhole) (arg4 : Memref sig .tc .vmem S2000x64 .f32) (harg4 : arg4.IsWhole)
    (x0 : Vec F S2000x156 .f32) (x1 : Vec F S156x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body each operand's buffer
    at its block and the output's at the layer's value of the operand blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the operands' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/- Region 1: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds its block at every point, fetched there or not (the key matrix is fetched once and its
    block index never moves), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body reads and writes through. -/
abbrev rQ1 : Rect S400x64 := Rect.unit (s := S400x64) ![0, 0] S400x64.size inb_S400x64_S400x64_0_0
abbrev rH1 : Rect S2000x64 := Rect.unit (s := S2000x64) ![0, 0] S2000x64.size inb_S2000x64_S2000x64_0_0
abbrev rA1 : Rect S400x2000 := Rect.unit (s := S400x2000) ![0, 0] S400x2000.size inb_S400x2000_S400x2000_0_0
abbrev rO1 : Rect S400x64 := Rect.unit (s := S400x64) ![0, 0] S400x64.size inb_S400x64_S400x64_0_0

/-- What the body leaves in the output's staging buffer: the attention of the query block over all rows, stored as one whole piece. -/
def out1_3 (x0 : Vec F S400x64 .f32) (x1 : Vec F S2000x64 .f32) (x2 : Vec F S400x2000 .i32) : Vec F S400x64 .f32 :=
  View.canon [⟨rO1, k1_pay1 (View.ld x0 rQ1) (View.ld x1 rH1) (View.ld x2 rA1)⟩]

/-- The one store covers the buffer. -/
theorem cover1_3 (p0 : Vec F S400x64 .f32) (y : S400x64.Idx) :
    ∃ pc ∈ ([⟨rO1, p0⟩] : List (View.Piece (Elt F) S400x64 .f32)), y ∈ pc.1.set :=
  View.cover_of_tiled [⟨rO1, p0⟩] S400x64.size (by rfl) y

set_option maxHeartbeats 1000000 in
/-- The body on whole staging memrefs: operands at `x0`, `x1`, `x2`, the output at anything; it ends with the operands as they
    were and the output at `out1_3` of them. -/
theorem sound_kernel1 (c : Dev nD) (E : Set ℕ) (i : grid1.Coords)
    (arg1 : Memref sig .tc .vmem S400x64 .f32) (harg1 : arg1.IsWhole) (arg2 : Memref sig .tc .vmem S2000x64 .f32) (harg2 : arg2.IsWhole)
    (arg3 : Memref sig .tc .vmem S400x2000 .i32) (harg3 : arg3.IsWhole) (arg4 : Memref sig .tc .vmem S400x64 .f32) (harg4 : arg4.IsWhole)
    (x0 : Vec F S400x64 .f32) (x1 : Vec F S2000x64 .f32) (x2 : Vec F S400x2000 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__gat_attention_kernel i arg1 harg1 arg2 harg2 arg3 harg3 arg4 harg4) K := by
  simp only [cc1__gat_attention_kernel_eq_skeleton]; unfold cc1__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body each operand's buffer
    at its block and the output's at the attention of the operand blocks; nothing owed. The query window and the key window
    lie over one array, read only: each holds half of it; the adjacency and the output are held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the operands' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/- Region 2: a dense layer H = X·W + b computed at one grid point on whole arrays. The three operands are read
   whole, the product is taken into a zero accumulator, the bias row is added to every row, and the result is stored whole. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An operand's staging buffer holds its block at every point, for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body reads and writes through. -/
abbrev rX2 : Rect S2000x64 := Rect.unit (s := S2000x64) ![0, 0] S2000x64.size inb_S2000x64_S2000x64_0_0
abbrev rW2 : Rect S64x3 := Rect.unit (s := S64x3) ![0, 0] S64x3.size inb_S64x3_S64x3_0_0
abbrev rb2 : Rect S3 := Rect.unit (s := S3) ![0] S3.size inb_S3_S3_0
abbrev rO2 : Rect S2000x3 := Rect.unit (s := S2000x3) ![0, 0] S2000x3.size inb_S2000x3_S2000x3_0_0

/-- What the body leaves in the output's staging buffer: X·W + b of the three operand blocks, stored as one whole piece. -/
def out2_3 (x0 : Vec F S2000x64 .f32) (x1 : Vec F S64x3 .f32) (x2 : Vec F S3 .f32) : Vec F S2000x3 .f32 :=
  View.canon [⟨rO2, k2_pay1 (View.ld x0 rX2) (View.ld x1 rW2) (View.ld x2 rb2)⟩]

/-- The one store covers the buffer. -/
theorem cover2_3 (p0 : Vec F S2000x3 .f32) (y : S2000x3.Idx) :
    ∃ pc ∈ ([⟨rO2, p0⟩] : List (View.Piece (Elt F) S2000x3 .f32)), y ∈ pc.1.set :=
  View.cover_of_tiled [⟨rO2, p0⟩] S2000x3.size (by rfl) y

set_option maxHeartbeats 1000000 in
/-- The body on whole staging memrefs: operands at `x0`, `x1`, `x2`, the output at anything; it ends with the operands as they
    were and the output at `out2_3` of them. -/
theorem sound_kernel2 (c : Dev nD) (E : Set ℕ) (i : grid2.Coords)
    (arg1 : Memref sig .tc .vmem S2000x64 .f32) (harg1 : arg1.IsWhole) (arg2 : Memref sig .tc .vmem S64x3 .f32) (harg2 : arg2.IsWhole)
    (arg3 : Memref sig .tc .vmem S3 .f32) (harg3 : arg3.IsWhole) (arg4 : Memref sig .tc .vmem S2000x3 .f32) (harg4 : arg4.IsWhole)
    (x0 : Vec F S2000x64 .f32) (x1 : Vec F S64x3 .f32) (x2 : Vec F S3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body each operand's buffer
    at its block and the output's at the layer's value of the operand blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the operands' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/- Region 3: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An operand's staging buffer holds its block at every point, fetched there or not (the key matrix is fetched once and its
    block index never moves), for any proof data over these arrays whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body reads and writes through. -/
abbrev rQ3 : Rect S400x3 := Rect.unit (s := S400x3) ![0, 0] S400x3.size inb_S400x3_S400x3_0_0
abbrev rH3 : Rect S2000x3 := Rect.unit (s := S2000x3) ![0, 0] S2000x3.size inb_S2000x3_S2000x3_0_0
abbrev rA3 : Rect S400x2000 := Rect.unit (s := S400x2000) ![0, 0] S400x2000.size inb_S400x2000_S400x2000_0_0
abbrev rO3 : Rect S400x3 := Rect.unit (s := S400x3) ![0, 0] S400x3.size inb_S400x3_S400x3_0_0

/-- What the body leaves in the output's staging buffer: the attention of the query block over all rows, stored as one whole piece. -/
def out3_3 (x0 : Vec F S400x3 .f32) (x1 : Vec F S2000x3 .f32) (x2 : Vec F S400x2000 .i32) : Vec F S400x3 .f32 :=
  View.canon [⟨rO3, k3_pay1 (View.ld x0 rQ3) (View.ld x1 rH3) (View.ld x2 rA3)⟩]

/-- The one store covers the buffer. -/
theorem cover3_3 (p0 : Vec F S400x3 .f32) (y : S400x3.Idx) :
    ∃ pc ∈ ([⟨rO3, p0⟩] : List (View.Piece (Elt F) S400x3 .f32)), y ∈ pc.1.set :=
  View.cover_of_tiled [⟨rO3, p0⟩] S400x3.size (by rfl) y

set_option maxHeartbeats 1000000 in
/-- The body on whole staging memrefs: operands at `x0`, `x1`, `x2`, the output at anything; it ends with the operands as they
    were and the output at `out3_3` of them. -/
theorem sound_kernel3 (c : Dev nD) (E : Set ℕ) (i : grid3.Coords)
    (arg1 : Memref sig .tc .vmem S400x3 .f32) (harg1 : arg1.IsWhole) (arg2 : Memref sig .tc .vmem S2000x3 .f32) (harg2 : arg2.IsWhole)
    (arg3 : Memref sig .tc .vmem S400x2000 .i32) (harg3 : arg3.IsWhole) (arg4 : Memref sig .tc .vmem S400x3 .f32) (harg4 : arg4.IsWhole)
    (x0 : Vec F S400x3 .f32) (x1 : Vec F S2000x3 .f32) (x2 : Vec F S400x2000 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__gat_attention_kernel i arg1 harg1 arg2 harg2 arg3 harg3 arg4 harg4) K := by
  simp only [cc3__gat_attention_kernel_eq_skeleton]; unfold cc3__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this pipeline on core `c`: the arrays as the region finds them; after the body each operand's buffer
    at its block and the output's at the attention of the operand blocks; nothing owed. The query window and the key window
    lie over one array, read only: each holds half of it; the adjacency and the output are held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q w := match w with
    | ⟨0, _⟩ => fullShare.left
    | ⟨1, _⟩ => fullShare.right
    | ⟨2, _⟩ => fullShare
    | ⟨3, _⟩ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the operands' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
/- Region 4: a dense layer H = X·W + b computed at one grid point on whole arrays. The three operands are read
   whole, the product is taken into a zero accumulator, the bias row is added to every row, and the result is stored whole. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An operand's staging buffer holds its block at every point, for any proof data over these arrays whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body reads and writes through. -/
abbrev rX4 : Rect S1000x156 := Rect.unit (s := S1000x156) ![0, 0] S1000x156.size inb_S1000x156_S1000x156_0_0
abbrev rW4 : Rect S156x64 := Rect.unit (s := S156x64) ![0, 0] S156x64.size inb_S156x64_S156x64_0_0
abbrev rb4 : Rect S64 := Rect.unit (s := S64) ![0] S64.size inb_S64_S64_0
abbrev rO4 : Rect S1000x64 := Rect.unit (s := S1000x64) ![0, 0] S1000x64.size inb_S1000x64_S1000x64_0_0

/-- What the body leaves in the output's staging buffer: X·W + b of the three operand blocks, stored as one whole piece. -/
def out4_3 (x0 : Vec F S1000x156 .f32) (x1 : Vec F S156x64 .f32) (x2 : Vec F S64 .f32) : Vec F S1000x64 .f32 :=
  View.canon [⟨rO4, k4_pay1 (View.ld x0 rX4) (View.ld x1 rW4) (View.ld x2 rb4)⟩]

/-- The one store covers the buffer. -/
theorem cover4_3 (p0 : Vec F S1000x64 .f32) (y : S1000x64.Idx) :
    ∃ pc ∈ ([⟨rO4, p0⟩] : List (View.Piece (Elt F) S1000x64 .f32)), y ∈ pc.1.set :=
  View.cover_of_tiled [⟨rO4, p0⟩] S1000x64.size (by rfl) y

set_option maxHeartbeats 1000000 in
/-- The body on whole staging memrefs: operands at `x0`, `x1`, `x2`, the output at anything; it ends with the operands as they
    were and the output at `out4_3` of them. -/
theorem sound_kernel4 (c : Dev nD) (E : Set ℕ) (i : grid4.Coords)
    (arg1 : Memref sig .tc .vmem S1000x156 .f32) (harg1 : arg1.IsWhole) (arg2 : Memref sig .tc .vmem S156x64 .f32) (harg2 : arg2.IsWhole)
    (arg3 : Memref sig .tc .vmem S64 .f32) (harg3 : arg3.IsWhole) (arg4 : Memref sig .tc .vmem S1000x64 .f32) (harg4 : arg4.IsWhole)
    (x0 : Vec F S1000x156 .f32) (x1 : Vec F S156x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of this pipeline on core `c`: the arrays as the region finds them; after the body each operand's buffer
    at its block and the output's at the layer's value of the operand blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the operands' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Body5.lean ====
/- Region 5: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An operand's staging buffer holds its block at every point, fetched there or not (the key matrix is fetched once and its
    block index never moves), for any proof data over these arrays whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body reads and writes through. -/
abbrev rQ5 : Rect S200x64 := Rect.unit (s := S200x64) ![0, 0] S200x64.size inb_S200x64_S200x64_0_0
abbrev rH5 : Rect S1000x64 := Rect.unit (s := S1000x64) ![0, 0] S1000x64.size inb_S1000x64_S1000x64_0_0
abbrev rA5 : Rect S200x1000 := Rect.unit (s := S200x1000) ![0, 0] S200x1000.size inb_S200x1000_S200x1000_0_0
abbrev rO5 : Rect S200x64 := Rect.unit (s := S200x64) ![0, 0] S200x64.size inb_S200x64_S200x64_0_0

/-- What the body leaves in the output's staging buffer: the attention of the query block over all rows, stored as one whole piece. -/
def out5_3 (x0 : Vec F S200x64 .f32) (x1 : Vec F S1000x64 .f32) (x2 : Vec F S200x1000 .i32) : Vec F S200x64 .f32 :=
  View.canon [⟨rO5, k5_pay1 (View.ld x0 rQ5) (View.ld x1 rH5) (View.ld x2 rA5)⟩]

/-- The one store covers the buffer. -/
theorem cover5_3 (p0 : Vec F S200x64 .f32) (y : S200x64.Idx) :
    ∃ pc ∈ ([⟨rO5, p0⟩] : List (View.Piece (Elt F) S200x64 .f32)), y ∈ pc.1.set :=
  View.cover_of_tiled [⟨rO5, p0⟩] S200x64.size (by rfl) y

set_option maxHeartbeats 1000000 in
/-- The body on whole staging memrefs: operands at `x0`, `x1`, `x2`, the output at anything; it ends with the operands as they
    were and the output at `out5_3` of them. -/
theorem sound_kernel5 (c : Dev nD) (E : Set ℕ) (i : grid5.Coords)
    (arg1 : Memref sig .tc .vmem S200x64 .f32) (harg1 : arg1.IsWhole) (arg2 : Memref sig .tc .vmem S1000x64 .f32) (harg2 : arg2.IsWhole)
    (arg3 : Memref sig .tc .vmem S200x1000 .i32) (harg3 : arg3.IsWhole) (arg4 : Memref sig .tc .vmem S200x64 .f32) (harg4 : arg4.IsWhole)
    (x0 : Vec F S200x64 .f32) (x1 : Vec F S1000x64 .f32) (x2 : Vec F S200x1000 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__gat_attention_kernel i arg1 harg1 arg2 harg2 arg3 harg3 arg4 harg4) K := by
  simp only [cc5__gat_attention_kernel_eq_skeleton]; unfold cc5__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of this pipeline on core `c`: the arrays as the region finds them; after the body each operand's buffer
    at its block and the output's at the attention of the operand blocks; nothing owed. The query window and the key window
    lie over one array, read only: each holds half of it; the adjacency and the output are held whole. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q w := match w with
    | ⟨0, _⟩ => fullShare.left
    | ⟨1, _⟩ => fullShare.right
    | ⟨2, _⟩ => fullShare
    | ⟨3, _⟩ => fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the operands' memrefs hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Body6.lean ====
/- Region 6: a dense layer H = X·W + b computed at one grid point on whole arrays. The three operands are read
   whole, the product is taken into a zero accumulator, the bias row is added to every row, and the result is stored whole. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An operand's staging buffer holds its block at every point, for any proof data over these arrays whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body reads and writes through. -/
abbrev rX6 : Rect S1000x64 := Rect.unit (s := S1000x64) ![0, 0] S1000x64.size inb_S1000x64_S1000x64_0_0
abbrev rW6 : Rect S64x3 := Rect.unit (s := S64x3) ![0, 0] S64x3.size inb_S64x3_S64x3_0_0
abbrev rb6 : Rect S3 := Rect.unit (s := S3) ![0] S3.size inb_S3_S3_0
abbrev rO6 : Rect S1000x3 := Rect.unit (s := S1000x3) ![0, 0] S1000x3.size inb_S1000x3_S1000x3_0_0

/-- What the body leaves in the output's staging buffer: X·W + b of the three operand blocks, stored as one whole piece. -/
def out6_3 (x0 : Vec F S1000x64 .f32) (x1 : Vec F S64x3 .f32) (x2 : Vec F S3 .f32) : Vec F S1000x3 .f32 :=
  View.canon [⟨rO6, k6_pay1 (View.ld x0 rX6) (View.ld x1 rW6) (View.ld x2 rb6)⟩]

/-- The one store covers the buffer. -/
theorem cover6_3 (p0 : Vec F S1000x3 .f32) (y : S1000x3.Idx) :
    ∃ pc ∈ ([⟨rO6, p0⟩] : List (View.Piece (Elt F) S1000x3 .f32)), y ∈ pc.1.set :=
  View.cover_of_tiled [⟨rO6, p0⟩] S1000x3.size (by rfl) y

set_option maxHeartbeats 1000000 in
/-- The body on whole staging memrefs: operands at `x0`, `x1`, `x2`, the output at anything; it ends with the operands as they
    were and the output at `out6_3` of them. -/
theorem sound_kernel6 (c : Dev nD) (E : Set ℕ) (i : grid6.Coords)
    (arg1 : Memref sig .tc .vmem S1000x64 .f32) (harg1 : arg1.IsWhole) (arg2 : Memref sig .tc .vmem S64x3 .f32) (harg2 : arg2.IsWhole)
    (arg3 : Memref sig .tc .vmem S3 .f32) (harg3 : arg3.IsWhole) (arg4 : Memref sig .tc .vmem S1000x3 .f32) (harg4 : arg4.IsWhole)
    (x0 : Vec F S1000x64 .f32) (x1 : Vec F S64x3 .f32) (x2 : Vec F S3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__linear_kernel i arg1 harg1 arg2 harg2 arg3 harg3 arg4 harg4) K := by
  simp only [cc6__linear_kernel_eq_skeleton]; unfold cc6__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of this pipeline on core `c`: the arrays as the region finds them; after the body each operand's buffer
    at its block and the output's at the layer's value of the operand blocks; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the operands' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Body7.lean ====
/- Region 7: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An operand's staging buffer holds its block at every point, fetched there or not (the key matrix is fetched once and its
    block index never moves), for any proof data over these arrays whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body reads and writes through. -/
abbrev rQ7 : Rect S200x3 := Rect.unit (s := S200x3) ![0, 0] S200x3.size inb_S200x3_S200x3_0_0
abbrev rH7 : Rect S1000x3 := Rect.unit (s := S1000x3) ![0, 0] S1000x3.size inb_S1000x3_S1000x3_0_0
abbrev rA7 : Rect S200x1000 := Rect.unit (s := S200x1000) ![0, 0] S200x1000.size inb_S200x1000_S200x1000_0_0
abbrev rO7 : Rect S200x3 := Rect.unit (s := S200x3) ![0, 0] S200x3.size inb_S200x3_S200x3_0_0

/-- What the body leaves in the output's staging buffer: the attention of the query block over all rows, stored as one whole piece. -/
def out7_3 (x0 : Vec F S200x3 .f32) (x1 : Vec F S1000x3 .f32) (x2 : Vec F S200x1000 .i32) : Vec F S200x3 .f32 :=
  View.canon [⟨rO7, k7_pay1 (View.ld x0 rQ7) (View.ld x1 rH7) (View.ld x2 rA7)⟩]

/-- The one store covers the buffer. -/
theorem cover7_3 (p0 : Vec F S200x3 .f32) (y : S200x3.Idx) :
    ∃ pc ∈ ([⟨rO7, p0⟩] : List (View.Piece (Elt F) S200x3 .f32)), y ∈ pc.1.set :=
  View.cover_of_tiled [⟨rO7, p0⟩] S200x3.size (by rfl) y

set_option maxHeartbeats 1000000 in
/-- The body on whole staging memrefs: operands at `x0`, `x1`, `x2`, the output at anything; it ends with the operands as they
    were and the output at `out7_3` of them. -/
theorem sound_kernel7 (c : Dev nD) (E : Set ℕ) (i : grid7.Coords)
    (arg1 : Memref sig .tc .vmem S200x3 .f32) (harg1 : arg1.IsWhole) (arg2 : Memref sig .tc .vmem S1000x3 .f32) (harg2 : arg2.IsWhole)
    (arg3 : Memref sig .tc .vmem S200x1000 .i32) (harg3 : arg3.IsWhole) (arg4 : Memref sig .tc .vmem S200x3 .f32) (harg4 : arg4.IsWhole)
    (x0 : Vec F S200x3 .f32) (x1 : Vec F S1000x3 .f32) (x2 : Vec F S200x1000 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out7_3 x0 x1 x2)) -∗ K ⟨⟩))
      ⊢ wp frame (wpE (defs₀ (F := F)) Variants.none c none) E (cc7__gat_attention_kernel i arg1 harg1 arg2 harg2 arg3 harg3 arg4 harg4) K := by
  simp only [cc7__gat_attention_kernel_eq_skeleton]; unfold cc7__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-- The proof data of this pipeline on core `c`: the arrays as the region finds them; after the body each operand's buffer
    at its block and the output's at the attention of the operand blocks; nothing owed. The query window and the key window
    lie over one array, read only: each holds half of it; the adjacency and the output are held whole. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q w := match w with
    | ⟨0, _⟩ => fullShare.left
    | ⟨1, _⟩ => fullShare.right
    | ⟨2, _⟩ => fullShare
    | ⟨3, _⟩ => fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-- What the body is called with at point `t`, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the operands' memrefs hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ _ _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Body8.lean ====
/- Region 8: a dense layer H = X·W + b computed at one grid point on whole arrays. The three operands are read
   whole, the product is taken into a zero accumulator, the bias row is added to every row, and the result is stored whole. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An operand's staging buffer holds its block at every point, for any proof data over these arrays whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- The whole-buffer rectangles the body reads and writes through. -/
abbrev rX8 : Rect S500x156 := Rect.unit (s := S500x156) ![0, 0] S500x156.size inb_S500x156_S500x156_0_0
abbrev rW8 : Rect S156x64 := Rect.unit (s := S156x64) ![0, 0] S156x64.size inb_S156x64_S156x64_0_0
abbrev rb8 : Rect S64 := Rect.unit (s := S64) ![0] S64.size inb_S64_S64_0
abbrev rO8 : Rect S500x64 := Rect.unit (s := S500x64) ![0, 0] S500x64.size inb_S500x64_S500x64_0_0

/-- What the body leaves in the output's staging buffer: X·W + b of the three operand blocks, stored as one whole piece. -/
def out8_3 (x0 : Vec F S500x156 .f32) (x1 : Vec F S156x64 .f32) (x2 : Vec F S64 .f32) : Vec F S500x64 .f32 :=
  View.canon [⟨rO8, k8_pay1 (View.ld x0 rX8) (View.ld x1 rW8) (View.ld x2 rb8)⟩]

/-- The one store covers the buffer. -/
theorem cover8_3 (p0 : Vec F S500x64 .f32) (y : S500x64.Idx) :
    ∃ pc ∈ ([⟨rO8, p0⟩] : List (View.Piece (Elt F) S500x64 .f32)), y ∈ pc.1.set :=
  View.cover_of_tiled [⟨rO8, p0⟩] S500x64.size (by rfl) y

set_option maxHeartbeats 1000000 in
/-- The body on whole staging memrefs: operands at `x0`, `x1`, `x2`, the output at anything; it ends with the operands as they
    were and the output at `out8_3` of them. -/
theorem sound_kernel8 (c : Dev nD) (E : Set ℕ) (i : grid8.Coords)
    (arg1 : Memref sig .tc .vmem S500x156 .f32) (harg1 : arg1.IsWhole) (arg2 : Memref sig .tc .vmem S156x64 .f32) (harg2 : arg2.IsWhole)
    (arg3 : Memref sig .tc .vmem S64 .f32) (harg3 : arg3.IsWhole) (arg4 : Memref sig .tc .vmem S500x64 .f32) (harg4 : arg4.IsWhole)
    (x0 : Vec F S500x156 .f32) (x1 : Vec F S156x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out8_3 x0 x1 x2)) -∗ K ⟨⟩))
      ⊢ wp frame (wpE (defs₀ (F := F)) Variants.none c none) E (cc8__linear_kernel i arg1 harg1 arg2 harg2 arg3 harg3 arg4 harg4) K := by
  simp only [cc8__linear_kernel_eq_skeleton]; unfold cc8__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-- The proof data of this pipeline on core `c`: the arrays as the region finds them; after the body each operand's buffer
    at its block and the output's at the layer's value of the operand blocks; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) :
    (dat8 V c).after 3 t = out8_3 (iblk8 V c 0 t) (iblk8 V c 1 t) (iblk8 V c 2 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-- What the body is called with at point `t`, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the operands' memrefs hold their blocks, so the body's triple applies; the invariant and the
    core's dues pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ _ _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Body9.lean ====
/- Region 9: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An operand's staging buffer holds its block at every point, fetched there or not (the key matrix is fetched once and its
    block index never moves), for any proof data over these arrays whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- The whole-buffer rectangles the body reads and writes through. -/
abbrev rQ9 : Rect S500x64 := Rect.unit (s := S500x64) ![0, 0] S500x64.size inb_S500x64_S500x64_0_0
abbrev rH9 : Rect S500x64 := Rect.unit (s := S500x64) ![0, 0] S500x64.size inb_S500x64_S500x64_0_0
abbrev rA9 : Rect S500x500 := Rect.unit (s := S500x500) ![0, 0] S500x500.size inb_S500x500_S500x500_0_0
abbrev rO9 : Rect S500x64 := Rect.unit (s := S500x64) ![0, 0] S500x64.size inb_S500x64_S500x64_0_0

/-- What the body leaves in the output's staging buffer: the attention of the query block over all rows, stored as one whole piece. -/
def out9_3 (x0 : Vec F S500x64 .f32) (x1 : Vec F S500x64 .f32) (x2 : Vec F S500x500 .i32) : Vec F S500x64 .f32 :=
  View.canon [⟨rO9, k9_pay1 (View.ld x0 rQ9) (View.ld x1 rH9) (View.ld x2 rA9)⟩]

/-- The one store covers the buffer. -/
theorem cover9_3 (p0 : Vec F S500x64 .f32) (y : S500x64.Idx) :
    ∃ pc ∈ ([⟨rO9, p0⟩] : List (View.Piece (Elt F) S500x64 .f32)), y ∈ pc.1.set :=
  View.cover_of_tiled [⟨rO9, p0⟩] S500x64.size (by rfl) y

set_option maxHeartbeats 1000000 in
/-- The body on whole staging memrefs: operands at `x0`, `x1`, `x2`, the output at anything; it ends with the operands as they
    were and the output at `out9_3` of them. -/
theorem sound_kernel9 (c : Dev nD) (E : Set ℕ) (i : grid9.Coords)
    (arg1 : Memref sig .tc .vmem S500x64 .f32) (harg1 : arg1.IsWhole) (arg2 : Memref sig .tc .vmem S500x64 .f32) (harg2 : arg2.IsWhole)
    (arg3 : Memref sig .tc .vmem S500x500 .i32) (harg3 : arg3.IsWhole) (arg4 : Memref sig .tc .vmem S500x64 .f32) (harg4 : arg4.IsWhole)
    (x0 : Vec F S500x64 .f32) (x1 : Vec F S500x64 .f32) (x2 : Vec F S500x500 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out9_3 x0 x1 x2)) -∗ K ⟨⟩))
      ⊢ wp frame (wpE (defs₀ (F := F)) Variants.none c none) E (cc9__gat_attention_kernel i arg1 harg1 arg2 harg2 arg3 harg3 arg4 harg4) K := by
  simp only [cc9__gat_attention_kernel_eq_skeleton]; unfold cc9__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-- The proof data of this pipeline on core `c`: the arrays as the region finds them; after the body each operand's buffer
    at its block and the output's at the attention of the operand blocks; nothing owed. The query window and the key window
    lie over one array, read only: each holds half of it; the adjacency and the output are held whole. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q w := match w with
    | ⟨0, _⟩ => fullShare.left
    | ⟨1, _⟩ => fullShare.right
    | ⟨2, _⟩ => fullShare
    | ⟨3, _⟩ => fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) :
    (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-- What the body is called with at point `t`, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the operands' memrefs hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.Body10.lean ====
/- Region 10: a dense layer H = X·W + b computed at one grid point on whole arrays. The three operands are read
   whole, the product is taken into a zero accumulator, the bias row is added to every row, and the result is stored whole. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An operand's staging buffer holds its block at every point, for any proof data over these arrays whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- The whole-buffer rectangles the body reads and writes through. -/
abbrev rX10 : Rect S500x64 := Rect.unit (s := S500x64) ![0, 0] S500x64.size inb_S500x64_S500x64_0_0
abbrev rW10 : Rect S64x3 := Rect.unit (s := S64x3) ![0, 0] S64x3.size inb_S64x3_S64x3_0_0
abbrev rb10 : Rect S3 := Rect.unit (s := S3) ![0] S3.size inb_S3_S3_0
abbrev rO10 : Rect S500x3 := Rect.unit (s := S500x3) ![0, 0] S500x3.size inb_S500x3_S500x3_0_0

/-- What the body leaves in the output's staging buffer: X·W + b of the three operand blocks, stored as one whole piece. -/
def out10_3 (x0 : Vec F S500x64 .f32) (x1 : Vec F S64x3 .f32) (x2 : Vec F S3 .f32) : Vec F S500x3 .f32 :=
  View.canon [⟨rO10, k10_pay1 (View.ld x0 rX10) (View.ld x1 rW10) (View.ld x2 rb10)⟩]

/-- The one store covers the buffer. -/
theorem cover10_3 (p0 : Vec F S500x3 .f32) (y : S500x3.Idx) :
    ∃ pc ∈ ([⟨rO10, p0⟩] : List (View.Piece (Elt F) S500x3 .f32)), y ∈ pc.1.set :=
  View.cover_of_tiled [⟨rO10, p0⟩] S500x3.size (by rfl) y

set_option maxHeartbeats 1000000 in
/-- The body on whole staging memrefs: operands at `x0`, `x1`, `x2`, the output at anything; it ends with the operands as they
    were and the output at `out10_3` of them. -/
theorem sound_kernel10 (c : Dev nD) (E : Set ℕ) (i : grid10.Coords)
    (arg1 : Memref sig .tc .vmem S500x64 .f32) (harg1 : arg1.IsWhole) (arg2 : Memref sig .tc .vmem S64x3 .f32) (harg2 : arg2.IsWhole)
    (arg3 : Memref sig .tc .vmem S3 .f32) (harg3 : arg3.IsWhole) (arg4 : Memref sig .tc .vmem S500x3 .f32) (harg4 : arg4.IsWhole)
    (x0 : Vec F S500x64 .f32) (x1 : Vec F S64x3 .f32) (x2 : Vec F S3 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out10_3 x0 x1 x2)) -∗ K ⟨⟩))
      ⊢ wp frame (wpE (defs₀ (F := F)) Variants.none c none) E (cc10__linear_kernel i arg1 harg1 arg2 harg2 arg3 harg3 arg4 harg4) K := by
  simp only [cc10__linear_kernel_eq_skeleton]; unfold cc10__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover10_3 _)

/-- The proof data of this pipeline on core `c`: the arrays as the region finds them; after the body each operand's buffer
    at its block and the output's at the layer's value of the operand blocks; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) :
    (dat10 V c).after 3 t = out10_3 (iblk10 V c 0 t) (iblk10 V c 1 t) (iblk10 V c 2 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-- What the body is called with at point `t`, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t))

/-- The body at any point: the operands' memrefs hold their blocks, so the body's triple applies; the invariant and the
    core's dues pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2]
  rw [show (dat10 V c).Φ t.succ = (dat10 V c).Φ t.castSucc from rfl,
    show (dat10 V c).owesAt () t.succ = (dat10 V c).owesAt () t.castSucc from rfl,
    after10_0, after10_1, after10_2, after10_3]
  iintro ⟨HΦ, Ho, ⟨%d0, H0⟩, ⟨%d1, H1⟩, ⟨%d2, H2⟩, ⟨%d3, H3⟩⟩
  iapply (sound_kernel10 c Set.univ _ _ _ _ _ _ _ _ _ (iblk10 V c 0 t) (iblk10 V c 1 t) (iblk10 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Hand

end
-- ==== Proof.KI.Body11.lean ====
/- Region 11: dense attention over a block of query rows. The scores of the block's rows against all rows are masked by
   the adjacency block, normalised row by row (subtract the row maximum, exponentiate, divide by the row sum), multiplied
   into all rows again and clamped at zero. The query block and the whole key matrix are two windows over ONE array, read only. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An operand's staging buffer holds its block at every point, fetched there or not (the key matrix is fetched once and its
    block index never moves), for any proof data over these arrays whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- The whole-buffer rectangles the body reads and writes through. -/
abbrev rQ11 : Rect S500x3 := Rect.unit (s := S500x3) ![0, 0] S500x3.size inb_S500x3_S500x3_0_0
abbrev rH11 : Rect S500x3 := Rect.unit (s := S500x3) ![0, 0] S500x3.size inb_S500x3_S500x3_0_0
abbrev rA11 : Rect S500x500 := Rect.unit (s := S500x500) ![0, 0] S500x500.size inb_S500x500_S500x500_0_0
abbrev rO11 : Rect S500x3 := Rect.unit (s := S500x3) ![0, 0] S500x3.size inb_S500x3_S500x3_0_0

/-- What the body leaves in the output's staging buffer: the attention of the query block over all rows, stored as one whole piece. -/
def out11_3 (x0 : Vec F S500x3 .f32) (x1 : Vec F S500x3 .f32) (x2 : Vec F S500x500 .i32) : Vec F S500x3 .f32 :=
  View.canon [⟨rO11, k11_pay1 (View.ld x0 rQ11) (View.ld x1 rH11) (View.ld x2 rA11)⟩]

/-- The one store covers the buffer. -/
theorem cover11_3 (p0 : Vec F S500x3 .f32) (y : S500x3.Idx) :
    ∃ pc ∈ ([⟨rO11, p0⟩] : List (View.Piece (Elt F) S500x3 .f32)), y ∈ pc.1.set :=
  View.cover_of_tiled [⟨rO11, p0⟩] S500x3.size (by rfl) y

set_option maxHeartbeats 1000000 in
/-- The body on whole staging memrefs: operands at `x0`, `x1`, `x2`, the output at anything; it ends with the operands as they
    were and the output at `out11_3` of them. -/
theorem sound_kernel11 (c : Dev nD) (E : Set ℕ) (i : grid11.Coords)
    (arg1 : Memref sig .tc .vmem S500x3 .f32) (harg1 : arg1.IsWhole) (arg2 : Memref sig .tc .vmem S500x3 .f32) (harg2 : arg2.IsWhole)
    (arg3 : Memref sig .tc .vmem S500x500 .i32) (harg3 : arg3.IsWhole) (arg4 : Memref sig .tc .vmem S500x3 .f32) (harg4 : arg4.IsWhole)
    (x0 : Vec F S500x3 .f32) (x1 : Vec F S500x3 .f32) (x2 : Vec F S500x500 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out11_3 x0 x1 x2)) -∗ K ⟨⟩))
      ⊢ wp frame (wpE (defs₀ (F := F)) Variants.none c none) E (cc11__gat_attention_kernel i arg1 harg1 arg2 harg2 arg3 harg3 arg4 harg4) K := by
  simp only [cc11__gat_attention_kernel_eq_skeleton]; unfold cc11__gat_attention_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover11_3 _)

/-- The proof data of this pipeline on core `c`: the arrays as the region finds them; after the body each operand's buffer
    at its block and the output's at the attention of the operand blocks; nothing owed. The query window and the key window
    lie over one array, read only: each holds half of it; the adjacency and the output are held whole. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => out11_3 (iblk11 V c 0 t) (iblk11 V c 1 t) (iblk11 V c 2 t)
  Φ _ := Pipeline.ΦA spec11 c
  q w := match w with
    | ⟨0, _⟩ => fullShare.left
    | ⟨1, _⟩ => fullShare.right
    | ⟨2, _⟩ => fullShare
    | ⟨3, _⟩ => fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) :
    (dat11 V c).after 3 t = out11_3 (iblk11 V c 0 t) (iblk11 V c 1 t) (iblk11 V c 2 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-- What the body is called with at point `t`, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t))

/-- The body at any point: the operands' memrefs hold their blocks, so the body's triple applies; the invariant and the
    core's dues pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2]
  rw [show (dat11 V c).Φ t.succ = (dat11 V c).Φ t.castSucc from rfl,
    show (dat11 V c).owesAt () t.succ = (dat11 V c).owesAt () t.castSucc from rfl,
    after11_0, after11_1, after11_2, after11_3]
  iintro ⟨HΦ, Ho, ⟨%d0, H0⟩, ⟨%d1, H1⟩, ⟨%d2, H2⟩, ⟨%d3, H3⟩⟩
  iapply (sound_kernel11 c Set.univ _ _ _ _ _ _ _ _ _ (iblk11 V c 0 t) (iblk11 V c 1 t) (iblk11 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.KI.Body12.lean ====
/- Region 12: the weighted sum of three maps, block of rows by block of rows: s0·w0 + s1·w1 + s2·w2 with the three weights
   read from a three-element vector. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- The whole-buffer rectangles the body reads and writes through. -/
abbrev rB12 : Rect S128x3072 := Rect.unit (s := S128x3072) ![0, 0] S128x3072.size inb_S128x3072_S128x3072_0_0
abbrev rw12 : Rect S3 := Rect.unit (s := S3) ![0] S3.size inb_S3_S3_0

/-- What the body leaves in the output's staging buffer: the weighted sum of the three blocks, stored as one whole piece. -/
def out12_4 (x0 x1 x2 : Vec F S128x3072 .f32) (x3 : Vec F S3 .f32) : Vec F S128x3072 .f32 :=
  View.canon [⟨rB12, k12_pay1 (View.ld x3 rw12) (View.ld x0 rB12) (View.ld x1 rB12) (View.ld x2 rB12)⟩]

/-- The one store covers the buffer. -/
theorem cover12_4 (p0 : Vec F S128x3072 .f32) (y : S128x3072.Idx) :
    ∃ pc ∈ ([⟨rB12, p0⟩] : List (View.Piece (Elt F) S128x3072 .f32)), y ∈ pc.1.set :=
  View.cover_of_tiled [⟨rB12, p0⟩] S128x3072.size (by rfl) y

set_option maxHeartbeats 1000000 in
/-- The body on whole staging memrefs: it ends with the operands as they were and the output at `out12_4` of them. -/
theorem sound_kernel12 (c : Dev nD) (E : Set ℕ) (i : grid12.Coords)
    (arg1 : Memref sig .tc .vmem S128x3072 .f32) (harg1 : arg1.IsWhole) (arg2 : Memref sig .tc .vmem S128x3072 .f32) (harg2 : arg2.IsWhole)
    (arg3 : Memref sig .tc .vmem S128x3072 .f32) (harg3 : arg3.IsWhole) (arg4 : Memref sig .tc .vmem S3 .f32) (harg4 : arg4.IsWhole)
    (arg5 : Memref sig .tc .vmem S128x3072 .f32) (harg5 : arg5.IsWhole)
    (x0 x1 x2 : Vec F S128x3072 .f32) (x3 : Vec F S3 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out12_4 x0 x1 x2 x3)) -∗ K ⟨⟩))
      ⊢ wp frame (wpE (defs₀ (F := F)) Variants.none c none) E (cc12__fuse_kernel i arg1 harg1 arg2 harg2 arg3 harg3 arg4 harg4 arg5 harg5) K := by
  simp only [cc12__fuse_kernel_eq_skeleton]; unfold cc12__fuse_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12_4 _)

/-- The proof data of this pipeline on core `c`: the arrays as the region finds them; after the body each operand's buffer
    at its block and the output's at the weighted sum of the operand blocks; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) :
    (dat12 V c).after 4 t = out12_4 (iblk12 V c 0 t) (iblk12 V c 1 t) (iblk12 V c 2 t) (iblk12 V c 3 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-- What the body is called with at point `t`, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the operands' memrefs hold their blocks, so the body's triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Vals.lean ====
/- The contents of a core's unscoped buffers after each item of the program, written out: the launch contents, then item by
   item either the host stretch applied, or the region's output array replaced by what the pipeline's write-backs leave in it.
   Over these the proof data of all thirteen pipelines are fixed, each at its region's entry contents. -/
import proofs.«123632_j87531433492498_2_alg».proof.Proof.Gen.KernelIdeal.Regions
import proofs.«123632_j87531433492498_2_alg».proof.Proof.KI.Body0
import proofs.«123632_j87531433492498_2_alg».proof.Proof.KI.Body1
import proofs.«123632_j87531433492498_2_alg».proof.Proof.KI.Body2
import proofs.«123632_j87531433492498_2_alg».proof.Proof.KI.Body3
import proofs.«123632_j87531433492498_2_alg».proof.Proof.KI.Body4
import proofs.«123632_j87531433492498_2_alg».proof.Proof.KI.Body5
import proofs.«123632_j87531433492498_2_alg».proof.Proof.KI.Body6
import proofs.«123632_j87531433492498_2_alg».proof.Proof.KI.Body7
import proofs.«123632_j87531433492498_2_alg».proof.Proof.KI.Body8
import proofs.«123632_j87531433492498_2_alg».proof.Proof.KI.Body9
import proofs.«123632_j87531433492498_2_alg».proof.Proof.KI.Body10
import proofs.«123632_j87531433492498_2_alg».proof.Proof.KI.Body11
import proofs.«123632_j87531433492498_2_alg».proof.Proof.KI.Body12

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]
variable (m : (ℓ : Loc nD τ sig) → Buf (Elt F) ℓ)

/-- The launch contents. -/
def U0 (c : Dev nD) : Valuation τ sig (Elt F) := fun b => m (c, b)
/-- After region 0: its output array at what the write-backs leave. -/
def U1 (c : Dev nD) : Valuation τ sig (Elt F) :=
  Function.update (U0 m c) main_v0 ((dat0 (fun c b => U0 m c b) c).arrAt 3 cfg0.N)
/-- After region 1: its output array at what the write-backs leave. -/
def U2 (c : Dev nD) : Valuation τ sig (Elt F) :=
  Function.update (U1 m c) main_v1 ((dat1 (fun c b => U1 m c b) c).arrAt 3 cfg1.N)
/-- After region 2: its output array at what the write-backs leave. -/
def U3 (c : Dev nD) : Valuation τ sig (Elt F) :=
  Function.update (U2 m c) main_v2 ((dat2 (fun c b => U2 m c b) c).arrAt 3 cfg2.N)
/-- After region 3: its output array at what the write-backs leave. -/
def U4 (c : Dev nD) : Valuation τ sig (Elt F) :=
  Function.update (U3 m c) main_v3 ((dat3 (fun c b => U3 m c b) c).arrAt 3 cfg3.N)
/-- After the host stretch `hostOps4`. -/
def U5 (c : Dev nD) : Valuation τ sig (Elt F) := StableHlo.after hostOps4 (U4 m c)
/-- After the host stretch `hostOps4_1`. -/
def U6 (c : Dev nD) : Valuation τ sig (Elt F) := StableHlo.after hostOps4_1 (U5 m c)
/-- After region 4: its output array at what the write-backs leave. -/
def U7 (c : Dev nD) : Valuation τ sig (Elt F) :=
  Function.update (U6 m c) main_v23 ((dat4 (fun c b => U6 m c b) c).arrAt 3 cfg4.N)
/-- After region 5: its output array at what the write-backs leave. -/
def U8 (c : Dev nD) : Valuation τ sig (Elt F) :=
  Function.update (U7 m c) main_v24 ((dat5 (fun c b => U7 m c b) c).arrAt 3 cfg5.N)
/-- After region 6: its output array at what the write-backs leave. -/
def U9 (c : Dev nD) : Valuation τ sig (Elt F) :=
  Function.update (U8 m c) main_v25 ((dat6 (fun c b => U8 m c b) c).arrAt 3 cfg6.N)
/-- After region 7: its output array at what the write-backs leave. -/
def U10 (c : Dev nD) : Valuation τ sig (Elt F) :=
  Function.update (U9 m c) main_v26 ((dat7 (fun c b => U9 m c b) c).arrAt 3 cfg7.N)
/-- After the host stretch `hostOps8`. -/
def U11 (c : Dev nD) : Valuation τ sig (Elt F) := StableHlo.after hostOps8 (U10 m c)
/-- After the host stretch `hostOps8_1`. -/
def U12 (c : Dev nD) : Valuation τ sig (Elt F) := StableHlo.after hostOps8_1 (U11 m c)
/-- After region 8: its output array at what the write-backs leave. -/
def U13 (c : Dev nD) : Valuation τ sig (Elt F) :=
  Function.update (U12 m c) main_v46 ((dat8 (fun c b => U12 m c b) c).arrAt 3 cfg8.N)
/-- After region 9: its output array at what the write-backs leave. -/
def U14 (c : Dev nD) : Valuation τ sig (Elt F) :=
  Function.update (U13 m c) main_v47 ((dat9 (fun c b => U13 m c b) c).arrAt 3 cfg9.N)
/-- After region 10: its output array at what the write-backs leave. -/
def U15 (c : Dev nD) : Valuation τ sig (Elt F) :=
  Function.update (U14 m c) main_v48 ((dat10 (fun c b => U14 m c b) c).arrAt 3 cfg10.N)
/-- After region 11: its output array at what the write-backs leave. -/
def U16 (c : Dev nD) : Valuation τ sig (Elt F) :=
  Function.update (U15 m c) main_v49 ((dat11 (fun c b => U15 m c b) c).arrAt 3 cfg11.N)
/-- After the host stretch `hostOps12`. -/
def U17 (c : Dev nD) : Valuation τ sig (Elt F) := StableHlo.after hostOps12 (U16 m c)
/-- After the host stretch `hostOps12_1`. -/
def U18 (c : Dev nD) : Valuation τ sig (Elt F) := StableHlo.after hostOps12_1 (U17 m c)
/-- After region 12: its output array at what the write-backs leave. -/
def U19 (c : Dev nD) : Valuation τ sig (Elt F) :=
  Function.update (U18 m c) main_v82 ((dat12 (fun c b => U18 m c b) c).arrAt 4 cfg12.N)
/-- After the host stretch `hostOps13`. -/
def U20 (c : Dev nD) : Valuation τ sig (Elt F) := StableHlo.after hostOps13 (U19 m c)

/-- What each region leaves in the buffer it may change, read off the contents above. -/
def outs : Outs (F := F) := fun J r c =>
  match J with
  | 1 => U1 m c r
  | 2 => U2 m c r
  | 3 => U3 m c r
  | 4 => U4 m c r
  | 7 => U7 m c r
  | 8 => U8 m c r
  | 9 => U9 m c r
  | 10 => U10 m c r
  | 13 => U13 m c r
  | 14 => U14 m c r
  | 15 => U15 m c r
  | 16 => U16 m c r
  | 19 => U19 m c r
  | _ => U0 m c r

theorem V0_eq (c : Dev nD) : V0 m c = U0 m c := rfl
theorem V1_eq (c : Dev nD) : V1 m (outs m) c = U1 m c := by
  show Function.update (V0 m c) main_v0 (U1 m c main_v0) = _
  rw [V0_eq]; unfold U1; rw [Function.update_self]
theorem V2_eq (c : Dev nD) : V2 m (outs m) c = U2 m c := by
  show Function.update (V1 m (outs m) c) main_v1 (U2 m c main_v1) = _
  rw [V1_eq]; unfold U2; rw [Function.update_self]
theorem V3_eq (c : Dev nD) : V3 m (outs m) c = U3 m c := by
  show Function.update (V2 m (outs m) c) main_v2 (U3 m c main_v2) = _
  rw [V2_eq]; unfold U3; rw [Function.update_self]
theorem V4_eq (c : Dev nD) : V4 m (outs m) c = U4 m c := by
  show Function.update (V3 m (outs m) c) main_v3 (U4 m c main_v3) = _
  rw [V3_eq]; unfold U4; rw [Function.update_self]
theorem V5_eq (c : Dev nD) : V5 m (outs m) c = U5 m c := by
  show StableHlo.after hostOps4 (V4 m (outs m) c) = _
  rw [V4_eq]; rfl
theorem V6_eq (c : Dev nD) : V6 m (outs m) c = U6 m c := by
  show StableHlo.after hostOps4_1 (V5 m (outs m) c) = _
  rw [V5_eq]; rfl
theorem V7_eq (c : Dev nD) : V7 m (outs m) c = U7 m c := by
  show Function.update (V6 m (outs m) c) main_v23 (U7 m c main_v23) = _
  rw [V6_eq]; unfold U7; rw [Function.update_self]
theorem V8_eq (c : Dev nD) : V8 m (outs m) c = U8 m c := by
  show Function.update (V7 m (outs m) c) main_v24 (U8 m c main_v24) = _
  rw [V7_eq]; unfold U8; rw [Function.update_self]
theorem V9_eq (c : Dev nD) : V9 m (outs m) c = U9 m c := by
  show Function.update (V8 m (outs m) c) main_v25 (U9 m c main_v25) = _
  rw [V8_eq]; unfold U9; rw [Function.update_self]
theorem V10_eq (c : Dev nD) : V10 m (outs m) c = U10 m c := by
  show Function.update (V9 m (outs m) c) main_v26 (U10 m c main_v26) = _
  rw [V9_eq]; unfold U10; rw [Function.update_self]
theorem V11_eq (c : Dev nD) : V11 m (outs m) c = U11 m c := by
  show StableHlo.after hostOps8 (V10 m (outs m) c) = _
  rw [V10_eq]; rfl
theorem V12_eq (c : Dev nD) : V12 m (outs m) c = U12 m c := by
  show StableHlo.after hostOps8_1 (V11 m (outs m) c) = _
  rw [V11_eq]; rfl
theorem V13_eq (c : Dev nD) : V13 m (outs m) c = U13 m c := by
  show Function.update (V12 m (outs m) c) main_v46 (U13 m c main_v46) = _
  rw [V12_eq]; unfold U13; rw [Function.update_self]
theorem V14_eq (c : Dev nD) : V14 m (outs m) c = U14 m c := by
  show Function.update (V13 m (outs m) c) main_v47 (U14 m c main_v47) = _
  rw [V13_eq]; unfold U14; rw [Function.update_self]
theorem V15_eq (c : Dev nD) : V15 m (outs m) c = U15 m c := by
  show Function.update (V14 m (outs m) c) main_v48 (U15 m c main_v48) = _
  rw [V14_eq]; unfold U15; rw [Function.update_self]
theorem V16_eq (c : Dev nD) : V16 m (outs m) c = U16 m c := by
  show Function.update (V15 m (outs m) c) main_v49 (U16 m c main_v49) = _
  rw [V15_eq]; unfold U16; rw [Function.update_self]
theorem V17_eq (c : Dev nD) : V17 m (outs m) c = U17 m c := by
  show StableHlo.after hostOps12 (V16 m (outs m) c) = _
  rw [V16_eq]; rfl
theorem V18_eq (c : Dev nD) : V18 m (outs m) c = U18 m c := by
  show StableHlo.after hostOps12_1 (V17 m (outs m) c) = _
  rw [V17_eq]; rfl
theorem V19_eq (c : Dev nD) : V19 m (outs m) c = U19 m c := by
  show Function.update (V18 m (outs m) c) main_v82 (U19 m c main_v82) = _
  rw [V18_eq]; unfold U19; rw [Function.update_self]
theorem V20_eq (c : Dev nD) : V20 m (outs m) c = U20 m c := by
  show StableHlo.after hostOps13 (V19 m (outs m) c) = _
  rw [V19_eq]; rfl

/-- Every pipeline's proof data, each at its region's entry contents. -/
def pdats : (p : Fin 13) → (c : Dev nD) → Dat τ (Elt F) Unit ℕ (UR sig nD τ) ℕ (Pipeline.pin (pcfgs (F := F)) adm p) c
  | ⟨0, _⟩ => fun c => dat0 (fun c b => U0 m c b) c
  | ⟨1, _⟩ => fun c => dat1 (fun c b => U1 m c b) c
  | ⟨2, _⟩ => fun c => dat2 (fun c b => U2 m c b) c
  | ⟨3, _⟩ => fun c => dat3 (fun c b => U3 m c b) c
  | ⟨4, _⟩ => fun c => dat4 (fun c b => U6 m c b) c
  | ⟨5, _⟩ => fun c => dat5 (fun c b => U7 m c b) c
  | ⟨6, _⟩ => fun c => dat6 (fun c b => U8 m c b) c
  | ⟨7, _⟩ => fun c => dat7 (fun c b => U9 m c b) c
  | ⟨8, _⟩ => fun c => dat8 (fun c b => U12 m c b) c
  | ⟨9, _⟩ => fun c => dat9 (fun c b => U13 m c b) c
  | ⟨10, _⟩ => fun c => dat10 (fun c b => U14 m c b) c
  | ⟨11, _⟩ => fun c => dat11 (fun c b => U15 m c b) c
  | ⟨12, _⟩ => fun c => dat12 (fun c b => U18 m c b) c

/-- No control variant, no level assigned: no core owes another anything. -/
abbrev 𝒱₀ : Variants := Variants.none
abbrev L : GSem nD τ sig → Finset Unit := fun _ => ∅
abbrev lv : GSem nD τ sig → Unit → ℕ := fun _ _ => 0

/-- What rides beside the buffers through every item: the core's generator register at some state, and its dues, at nothing. -/
abbrev R (c : Dev nD) : sProp (MT nD τ sig Unit (Elt F) ℕ (UR sig nD τ) ℕ) :=
  iprop((∃ r, prngReg c r) ∗ ∃ W, owes (c : Thread nD τ) (0 : CellTallies nD τ sig Unit) W)

end Cert.KernelIdeal.Hand

end
-- ==== Proof.KI.Reg0.lean ====
/- Region 0 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF0 (c : Dev nD) (w : Fin cfg0.W) :
    (dat0 (fun c b => U0 m c b) c).arrAt w cfg0.N = (fun b : Ref sig .tc => U1 m c b) (Pipeline.arrRef spec0 w) := by
  match w with
  | ⟨0, _⟩ =>
    refine ((dat0 (fun c b => U0 m c b) c).arrAt_in 0 rfl _).trans ?_
    show U0 m c (Pipeline.arrRef spec0 0) = U1 m c (Pipeline.arrRef spec0 0)
    unfold U1
    rw [Function.update_of_ne (StableHlo.devRef_ne_of_ne (by decide))]
  | ⟨1, _⟩ =>
    refine ((dat0 (fun c b => U0 m c b) c).arrAt_in 1 rfl _).trans ?_
    show U0 m c (Pipeline.arrRef spec0 1) = U1 m c (Pipeline.arrRef spec0 1)
    unfold U1
    rw [Function.update_of_ne (StableHlo.devRef_ne_of_ne (by decide))]
  | ⟨2, _⟩ =>
    refine ((dat0 (fun c b => U0 m c b) c).arrAt_in 2 rfl _).trans ?_
    show U0 m c (Pipeline.arrRef spec0 2) = U1 m c (Pipeline.arrRef spec0 2)
    unfold U1
    rw [Function.update_of_ne (StableHlo.devRef_ne_of_ne (by decide))]
  | ⟨3, _⟩ =>
    show _ = U1 m c main_v0
    unfold U1
    rw [Function.update_self]; rfl

/-- Every other buffer holds what it held at entry. -/
theorem hrest0 (c : Dev nD) : ∀ b : Ref sig .tc, b ∉ Finset.univ.image (Pipeline.arrRef spec0) →
    (fun b : Ref sig .tc => U1 m c b) b = (fun b : Ref sig .tc => U0 m c b) b := fun b hb => by
  show U1 m c b = U0 m c b
  unfold U1
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (fun c b => U0 m c b) c).loose
  hwaits := Pipeline.hwaits_of_owed_zero _ _ _ _ L lv 0 fun _ _ => rfl
  pre c := iprop(StableHlo.held (c : Thread nD τ) (Pipeline.ucRefs τ sig) (U0 m c) ∗ R c)
  post c := iprop(StableHlo.held (c : Thread nD τ) (Pipeline.ucRefs τ sig) (U1 m c) ∗ R c)
  X c := iprop(∃ r, prngReg c r)
  Y c := iprop(∃ r, prngReg c r)
  Z c := Pipeline.unscopedRest (Ix := Unit) (Name := ℕ) (U := UR sig nD τ) (Lvl := ℕ) spec0 c (fun b : Ref sig .tc => U0 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b : Ref sig .tc => U0 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b : Ref sig .tc => U0 m c b) (fun b : Ref sig .tc => U1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg1.lean ====
/- Region 1 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF1 (c : Dev nD) (w : Fin cfg1.W) :
    (dat1 (fun c b => U1 m c b) c).arrAt w cfg1.N = (fun b : Ref sig .tc => U2 m c b) (Pipeline.arrRef spec1 w) := by
  match w with
  | ⟨0, _⟩ =>
    refine ((dat1 (fun c b => U1 m c b) c).arrAt_in 0 rfl _).trans ?_
    show U1 m c (Pipeline.arrRef spec1 0) = U2 m c (Pipeline.arrRef spec1 0)
    unfold U2
    rw [Function.update_of_ne (StableHlo.devRef_ne_of_ne (by decide))]
  | ⟨1, _⟩ =>
    refine ((dat1 (fun c b => U1 m c b) c).arrAt_in 1 rfl _).trans ?_
    show U1 m c (Pipeline.arrRef spec1 1) = U2 m c (Pipeline.arrRef spec1 1)
    unfold U2
    rw [Function.update_of_ne (StableHlo.devRef_ne_of_ne (by decide))]
  | ⟨2, _⟩ =>
    refine ((dat1 (fun c b => U1 m c b) c).arrAt_in 2 rfl _).trans ?_
    show U1 m c (Pipeline.arrRef spec1 2) = U2 m c (Pipeline.arrRef spec1 2)
    unfold U2
    rw [Function.update_of_ne (StableHlo.devRef_ne_of_ne (by decide))]
  | ⟨3, _⟩ =>
    show _ = U2 m c main_v1
    unfold U2
    rw [Function.update_self]; rfl

/-- Every other buffer holds what it held at entry. -/
theorem hrest1 (c : Dev nD) : ∀ b : Ref sig .tc, b ∉ Finset.univ.image (Pipeline.arrRef spec1) →
    (fun b : Ref sig .tc => U2 m c b) b = (fun b : Ref sig .tc => U1 m c b) b := fun b hb => by
  show U2 m c b = U1 m c b
  unfold U2
  rw [Function.update_of_ne (StableHlo.devRef_ne_of_ne fun h => hb (Finset.mem_image.mpr ⟨3, Finset.mem_univ _, h.symm⟩))]

/-- A product over the three distinct buffers behind the four windows, factor by factor. -/
theorem bufs1 (Φ : Ref sig .tc → sProp 𝕄) :
    bigSep (Finset.univ.image (Pipeline.arrRef spec1)) Φ = iprop(Φ main_v0 ∗ Φ main_arg3 ∗ Φ main_v1) :=
  bigSep_eq_bigSepL_of_eq [main_v0, main_arg3, main_v1] (by decide) (by decide) Φ

/-- The shares the proof data hold the arrays at: the two halves of the shared buffer, the others whole. -/
theorem share1_0 (c : Dev nD) : (pdats m 1 c).share 0 = fullShare.left := rfl
theorem share1_1 (c : Dev nD) : (pdats m 1 c).share 1 = fullShare.right := rfl
theorem share1_2 (c : Dev nD) : (pdats m 1 c).share 2 = fullShare := rfl
theorem share1_3 (c : Dev nD) : (pdats m 1 c).share 3 = fullShare := rfl

/-- The windows' arrays, each a whole buffer, as plain points-to facts at each window's own share. -/
theorem arraysEq1 (c : Dev nD) (G : (w : Fin cfg1.W) → Buf (Elt F) ((cfg1.win w).arr.view.loc (c : Thread nD τ))) :
    (pdats m 1 c).arrays G
      = bigSep Finset.univ fun w => ((((c : Thread nD τ).loc (Pipeline.arrRef (Pipeline.pin (pcfgs (F := F)) adm 1).spec w)) ↦{(pdats m 1 c).share w} G w : sProp 𝕄)) := by
  unfold Pipeline.Dat.arrays
  exact bigSep_congr fun w _ => by
    have h : ((Pipeline.pin (pcfgs (F := F)) adm 1).win w).arr.view.set = Finset.univ := (arr_whole1 w).set_eq_univ
    rw [h]

set_option maxHeartbeats 4000000 in
/-- The distinct buffers whole at contents `V` ARE the four windows' arrays at contents `F` agreeing with `V`: the shared
    buffer's whole share is its left half and its right half. -/
theorem arrs1 (c : Dev nD) (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs (Ix := Unit) (Name := ℕ) (U := UR sig nD τ) (Lvl := ℕ) spec1 c V : sProp 𝕄) ⊣⊢ (pdats m 1 c).arrays G := by
  unfold Pipeline.arrBufs
  rw [arraysEq1 m c G, bufs1, bigSep_W1, share1_0, share1_1, share1_2, share1_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (fun c b => U1 m c b) c).loose
  hwaits := Pipeline.hwaits_of_owed_zero _ _ _ _ L lv 1 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec1 c (fun b : Ref sig .tc => U1 m c b)
  hentry c := by
    rw [Pipeline.ownSems0_none]
    have hsp := Pipeline.unscopedBufs_split₀ (Ix := Unit) (Name := ℕ) (U := UR sig nD τ) (Lvl := ℕ) (Pipeline.pin (pcfgs (F := F)) adm) 1
      winFacts₀1.arr_unscoped c (fun b : Ref sig .tc => U1 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs1 m c (fun b : Ref sig .tc => U1 m c b) ((pdats m 1 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 1
      winFacts₀1.arr_unscoped c (fun b : Ref sig .tc => U2 m c b)
    rw [Pipeline.unscopedBufs_held] at hsp
    have hrestEq : (Pipeline.unscopedRest (Ix := Unit) (Name := ℕ) (U := UR sig nD τ) (Lvl := ℕ) spec1 c (fun b : Ref sig .tc => U1 m c b) : sProp 𝕄)
        = Pipeline.unscopedRest spec1 c (fun b : Ref sig .tc => U2 m c b) := by
      unfold Pipeline.unscopedRest
      exact bigSep_congr fun b hb => by rw [hrest1 m c b (Finset.mem_sdiff.mp hb).2]
    iintro ⟨Ha, HO, HY, Hrest⟩
    imodintro
    isplitl [Ha Hrest]
    · iapply (BIBase.Entails.of_eq hsp.symm)
      isplitl [Ha]
      · iapply (arrs1 m c (fun b : Ref sig .tc => U2 m c b) ((pdats m 1 c).arrAt · cfg1.N) (hF1 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.KernelIdeal.Hand

end
-- ==== Proof.KI.Reg2.lean ====
/- Region 2 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF2 (c : Dev nD) (w : Fin cfg2.W) :
    (dat2 (fun c b => U2 m c b) c).arrAt w cfg2.N = (fun b : Ref sig .tc => U3 m c b) (Pipeline.arrRef spec2 w) := by
  match w with
  | ⟨0, _⟩ =>
    refine ((dat2 (fun c b => U2 m c b) c).arrAt_in 0 rfl _).trans ?_
    show U2 m c (Pipeline.arrRef spec2 0) = U3 m c (Pipeline.arrRef spec2 0)
    unfold U3
    rw [Function.update_of_ne (StableHlo.devRef_ne_of_ne (by decide))]
  | ⟨1, _⟩ =>
    refine ((dat2 (fun c b => U2 m c b) c).arrAt_in 1 rfl _).trans ?_
    show U2 m c (Pipeline.arrRef spec2 1) = U3 m c (Pipeline.arrRef spec2 1)
    unfold U3
    rw [Function.update_of_ne (StableHlo.devRef_ne_of_ne (by decide))]
  | ⟨2, _⟩ =>
    refine ((dat2 (fun c b => U2 m c b) c).arrAt_in 2 rfl _).trans ?_
    show U2 m c (Pipeline.arrRef spec2 2) = U3 m c (Pipeline.arrRef spec2 2)
    unfold U3
    rw [Function.update_of_ne (StableHlo.devRef_ne_of_ne (by decide))]
  | ⟨3, _⟩ =>
    show _ = U3 m c main_v2
    unfold U3
    rw [Function.update_self]; rfl

/-- Every other buffer holds what it held at entry. -/
theorem hrest2 (c : Dev nD) : ∀ b : Ref sig .tc, b ∉ Finset.univ.image (Pipeline.arrRef spec2) →
    (fun b : Ref sig .tc => U3 m c b) b = (fun b : Ref sig .tc => U2 m c b) b := fun b hb => by
  show U3 m c b = U2 m c b
  unfold U3
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (fun c b => U2 m c b) c).loose
  hwaits := Pipeline.hwaits_of_owed_zero _ _ _ _ L lv 2 fun _ _ => rfl
  pre c := iprop(StableHlo.held (c : Thread nD τ) (Pipeline.ucRefs τ sig) (U2 m c) ∗ R c)
  post c := iprop(StableHlo.held (c : Thread nD τ) (Pipeline.ucRefs τ sig) (U3 m c) ∗ R c)
  X c := iprop(∃ r, prngReg c r)
  Y c := iprop(∃ r, prngReg c r)
  Z c := Pipeline.unscopedRest (Ix := Unit) (Name := ℕ) (U := UR sig nD τ) (Lvl := ℕ) spec2 c (fun b : Ref sig .tc => U2 m c b)
  hentry c := by
    rw [Pipeline.ownSems0_none]
    have hsplit := Pipeline.arrays_of_unscopedBufs (p := 2) (pcfgs (F := F)) adm (pdats m) launch2.win launch2.arr_whole c
      ((pdats m 2 c).share_full fun _ => rfl) (fun b : Ref sig .tc => U2 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (fun b : Ref sig .tc => U2 m c b) (fun b : Ref sig .tc => U3 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg3.lean ====
/- Region 3 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF3 (c : Dev nD) (w : Fin cfg3.W) :
    (dat3 (fun c b => U3 m c b) c).arrAt w cfg3.N = (fun b : Ref sig .tc => U4 m c b) (Pipeline.arrRef spec3 w) := by
  match w with
  | ⟨0, _⟩ =>
    refine ((dat3 (fun c b => U3 m c b) c).arrAt_in 0 rfl _).trans ?_
    show U3 m c (Pipeline.arrRef spec3 0) = U4 m c (Pipeline.arrRef spec3 0)
    unfold U4
    rw [Function.update_of_ne (StableHlo.devRef_ne_of_ne (by decide))]
  | ⟨1, _⟩ =>
    refine ((dat3 (fun c b => U3 m c b) c).arrAt_in 1 rfl _).trans ?_
    show U3 m c (Pipeline.arrRef spec3 1) = U4 m c (Pipeline.arrRef spec3 1)
    unfold U4
    rw [Function.update_of_ne (StableHlo.devRef_ne_of_ne (by decide))]
  | ⟨2, _⟩ =>
    refine ((dat3 (fun c b => U3 m c b) c).arrAt_in 2 rfl _).trans ?_
    show U3 m c (Pipeline.arrRef spec3 2) = U4 m c (Pipeline.arrRef spec3 2)
    unfold U4
    rw [Function.update_of_ne (StableHlo.devRef_ne_of_ne (by decide))]
  | ⟨3, _⟩ =>
    show _ = U4 m c main_v3
    unfold U4
    rw [Function.update_self]; rfl

/-- Every other buffer holds what it held at entry. -/
theorem hrest3 (c : Dev nD) : ∀ b : Ref sig .tc, b ∉ Finset.univ.image (Pipeline.arrRef spec3) →
    (fun b : Ref sig .tc => U4 m c b) b = (fun b : Ref sig .tc => U3 m c b) b := fun b hb => by
  show U4 m c b = U3 m c b
  unfold U4
  rw [Function.update_of_ne (StableHlo.devRef_ne_of_ne fun h => hb (Finset.mem_image.mpr ⟨3, Finset.mem_univ _, h.symm⟩))]

/-- A product over the three distinct buffers behind the four windows, factor by factor. -/
theorem bufs3 (Φ : Ref sig .tc → sProp 𝕄) :
    bigSep (Finset.univ.image (Pipeline.arrRef spec3)) Φ = iprop(Φ main_v2 ∗ Φ main_arg3 ∗ Φ main_v3) :=
  bigSep_eq_bigSepL_of_eq [main_v2, main_arg3, main_v3] (by decide) (by decide) Φ

/-- The shares the proof data hold the arrays at: the two halves of the shared buffer, the others whole. -/
theorem share3_0 (c : Dev nD) : (pdats m 3 c).share 0 = fullShare.left := rfl
theorem share3_1 (c : Dev nD) : (pdats m 3 c).share 1 = fullShare.right := rfl
theorem share3_2 (c : Dev nD) : (pdats m 3 c).share 2 = fullShare := rfl
theorem share3_3 (c : Dev nD) : (pdats m 3 c).share 3 = fullShare := rfl

/-- The windows' arrays, each a whole buffer, as plain points-to facts at each window's own share. -/
theorem arraysEq3 (c : Dev nD) (G : (w : Fin cfg3.W) → Buf (Elt F) ((cfg3.win w).arr.view.loc (c : Thread nD τ))) :
    (pdats m 3 c).arrays G
      = bigSep Finset.univ fun w => ((((c : Thread nD τ).loc (Pipeline.arrRef (Pipeline.pin (pcfgs (F := F)) adm 3).spec w)) ↦{(pdats m 3 c).share w} G w : sProp 𝕄)) := by
  unfold Pipeline.Dat.arrays
  exact bigSep_congr fun w _ => by
    have h : ((Pipeline.pin (pcfgs (F := F)) adm 3).win w).arr.view.set = Finset.univ := (arr_whole3 w).set_eq_univ
    rw [h]

set_option maxHeartbeats 4000000 in
/-- The distinct buffers whole at contents `V` ARE the four windows' arrays at contents `F` agreeing with `V`: the shared
    buffer's whole share is its left half and its right half. -/
theorem arrs3 (c : Dev nD) (V : (b : Ref sig .tc) → Buf (Elt F) ((c : Thread nD τ).loc b))
    (G : (w : Fin cfg3.W) → Buf (Elt F) ((cfg3.win w).arr.view.loc (c : Thread nD τ))) (hG : ∀ w, G w = V (Pipeline.arrRef spec3 w)) :
    (Pipeline.arrBufs (Ix := Unit) (Name := ℕ) (U := UR sig nD τ) (Lvl := ℕ) spec3 c V : sProp 𝕄) ⊣⊢ (pdats m 3 c).arrays G := by
  unfold Pipeline.arrBufs
  rw [arraysEq3 m c G, bufs3, bigSep_W3, share3_0, share3_1, share3_2, share3_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (fun c b => U3 m c b) c).loose
  hwaits := Pipeline.hwaits_of_owed_zero _ _ _ _ L lv 3 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec3 c (fun b : Ref sig .tc => U3 m c b)
  hentry c := by
    rw [Pipeline.ownSems0_none]
    have hsp := Pipeline.unscopedBufs_split₀ (Ix := Unit) (Name := ℕ) (U := UR sig nD τ) (Lvl := ℕ) (Pipeline.pin (pcfgs (F := F)) adm) 3
      winFacts₀3.arr_unscoped c (fun b : Ref sig .tc => U3 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs3 m c (fun b : Ref sig .tc => U3 m c b) ((pdats m 3 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 3
      winFacts₀3.arr_unscoped c (fun b : Ref sig .tc => U4 m c b)
    rw [Pipeline.unscopedBufs_held] at hsp
    have hrestEq : (Pipeline.unscopedRest (Ix := Unit) (Name := ℕ) (U := UR sig nD τ) (Lvl := ℕ) spec3 c (fun b : Ref sig .tc => U3 m c b) : sProp 𝕄)
        = Pipeline.unscopedRest spec3 c (fun b : Ref sig .tc => U4 m c b) := by
      unfold Pipeline.unscopedRest
      exact bigSep_congr fun b hb => by rw [hrest3 m c b (Finset.mem_sdiff.mp hb).2]
    iintro ⟨Ha, HO, HY, Hrest⟩
    imodintro
    isplitl [Ha Hrest]
    · iapply (BIBase.Entails.of_eq hsp.symm)
      isplitl [Ha]
      · iapply (arrs3 m c (fun b : Ref sig .tc => U4 m c b) ((pdats m 3 c).arrAt · cfg3.N) (hF3 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.KernelIdeal.Hand

end
-- ==== Proof.KI.Reg4.lean ====
/- Region 4 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF4 (c : Dev nD) (w : Fin cfg4.W) :
    (dat4 (fun c b => U6 m c b) c).arrAt w cfg4.N = (fun b : Ref sig .tc => U7 m c b) (Pipeline.arrRef spec4 w) := by
  match w with
  | ⟨0, _⟩ =>
    refine ((dat4 (fun c b => U6 m c b) c).arrAt_in 0 rfl _).trans ?_
    show U6 m c (Pipeline.arrRef spec4 0) = U7 m c (Pipeline.arrRef spec4 0)
    unfold U7
    rw [Function.update_of_ne (StableHlo.devRef_ne_of_ne (by decide))]
  | ⟨1, _⟩ =>
    refine ((dat4 (fun c b => U6 m c b) c).arrAt_in 1 rfl _).trans ?_
    show U6 m c (Pipeline.arrRef spec4 1) = U7 m c (Pipeline.arrRef spec4 1)
    unfold U7
    rw [Function.update_of_ne (StableHlo.devRef_ne_of_ne (by decide))]
  | ⟨2, _⟩ =>
    refine ((dat4 (fun c b => U6 m c b) c).arrAt_in 2 rfl _).trans ?_
    show U6 m c (Pipeline.arrRef spec4 2) = U7 m c (Pipeline.arrRef spec4 2)
    unfold U7
    rw [Function.update_of_ne (StableHlo.devRef_ne_of_ne (by decide))]
  | ⟨3, _⟩ =>
    show _ = U7 m c main_v23
    unfold U7
    rw [Function.update_self]; rfl

/-- Every other buffer holds what it held at entry. -/
theorem hrest4 (c : Dev nD) : ∀ b : Ref sig .tc, b ∉ Finset.univ.image (Pipeline.arrRef spec4) →
    (fun b : Ref sig .tc => U7 m c b) b = (fun b : Ref sig .tc => U6 m c b) b := fun b hb => by
  show U7 m c b = U6 m c b
  unfold U7
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (fun c b => U6 m c b) c).loose
  hwaits := Pipeline.hwaits_of_owed_zero _ _ _ _ L lv 4 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec4 c (fun b : Ref sig .tc => U6 m c b)
  hentry c := by
    rw [Pipeline.ownSems0_none]
    have hsplit := Pipeline.arrays_of_unscopedBufs (p := 4) (pcfgs (F := F)) adm (pdats m) launch4.win launch4.arr_whole c
      ((pdats m 4 c).share_full fun _ => rfl) (fun b : Ref sig .tc => U6 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (fun b : Ref sig .tc => U6 m c b) (fun b : Ref sig .tc => U7 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg5.lean ====
/- Region 5 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF5 (c : Dev nD) (w : Fin cfg5.W) :
    (dat5 (fun c b => U7 m c b) c).arrAt w cfg5.N = (fun b : Ref sig .tc => U8 m c b) (Pipeline.arrRef spec5 w) := by
  match w with
  | ⟨0, _⟩ =>
    refine ((dat5 (fun c b => U7 m c b) c).arrAt_in 0 rfl _).trans ?_
    show U7 m c (Pipeline.arrRef spec5 0) = U8 m c (Pipeline.arrRef spec5 0)
    unfold U8
    rw [Function.update_of_ne (StableHlo.devRef_ne_of_ne (by decide))]
  | ⟨1, _⟩ =>
    refine ((dat5 (fun c b => U7 m c b) c).arrAt_in 1 rfl _).trans ?_
    show U7 m c (Pipeline.arrRef spec5 1) = U8 m c (Pipeline.arrRef spec5 1)
    unfold U8
    rw [Function.update_of_ne (StableHlo.devRef_ne_of_ne (by decide))]
  | ⟨2, _⟩ =>
    refine ((dat5 (fun c b => U7 m c b) c).arrAt_in 2 rfl _).trans ?_
    show U7 m c (Pipeline.arrRef spec5 2) = U8 m c (Pipeline.arrRef spec5 2)
    unfold U8
    rw [Function.update_of_ne (StableHlo.devRef_ne_of_ne (by decide))]
  | ⟨3, _⟩ =>
    show _ = U8 m c main_v24
    unfold U8
    rw [Function.update_self]; rfl

/-- Every other buffer holds what it held at entry. -/
theorem hrest5 (c : Dev nD) : ∀ b : Ref sig .tc, b ∉ Finset.univ.image (Pipeline.arrRef spec5) →
    (fun b : Ref sig .tc => U8 m c b) b = (fun b : Ref sig .tc => U7 m c b) b := fun b hb => by
  show U8 m c b = U7 m c b
  unfold U8
  rw [Function.update_of_ne (StableHlo.devRef_ne_of_ne fun h => hb (Finset.mem_image.mpr ⟨3, Finset.mem_univ _, h.symm⟩))]

/-- A product over the three distinct buffers behind the four windows, factor by factor. -/
theorem bufs5 (Φ : Ref sig .tc → sProp 𝕄) :
    bigSep (Finset.univ.image (Pipeline.arrRef spec5)) Φ = iprop(Φ main_v23 ∗ Φ main_arg4 ∗ Φ main_v24) :=
  bigSep_eq_bigSepL_of_eq [main_v23, main_arg4, main_v24] (by decide) (by decide) Φ

/-- The shares the proof data hold the arrays at: the two halves of the shared buffer, the others whole. -/
theorem share5_0 (c : Dev nD) : (pdats m 5 c).share 0 = fullShare.left := rfl
theorem share5_1 (c : Dev nD) : (pdats m 5 c).share 1 = fullShare.right := rfl
theorem share5_2 (c : Dev nD) : (pdats m 5 c).share 2 = fullShare := rfl
theorem share5_3 (c : Dev nD) : (pdats m 5 c).share 3 = fullShare := rfl

/-- The windows' arrays, each a whole buffer, as plain points-to facts at each window's own share. -/
theorem arraysEq5 (c : Dev nD) (G : (w : Fin cfg5.W) → Buf (Elt F) ((cfg5.win w).arr.view.loc (c : Thread nD τ))) :
    (pdats m 5 c).arrays G
      = bigSep Finset.univ fun w => ((((c : Thread nD τ).loc (Pipeline.arrRef (Pipeline.pin (pcfgs (F := F)) adm 5).spec w)) ↦{(pdats m 5 c).share w} G w : sProp 𝕄)) := by
  unfold Pipeline.Dat.arrays
  exact bigSep_congr fun w _ => by
    have h : ((Pipeline.pin (pcfgs (F := F)) adm 5).win w).arr.view.set = Finset.univ := (arr_whole5 w).set_eq_univ
    rw [h]

set_option maxHeartbeats 4000000 in
/-- The distinct buffers whole at contents `V` ARE the four windows' arrays at contents `F` agreeing with `V`: the shared
    buffer's whole share is its left half and its right half. -/
theorem arrs5 (c : Dev nD) (V : (b : Ref sig .tc) → Buf (Elt F) ((c : Thread nD τ).loc b))
    (G : (w : Fin cfg5.W) → Buf (Elt F) ((cfg5.win w).arr.view.loc (c : Thread nD τ))) (hG : ∀ w, G w = V (Pipeline.arrRef spec5 w)) :
    (Pipeline.arrBufs (Ix := Unit) (Name := ℕ) (U := UR sig nD τ) (Lvl := ℕ) spec5 c V : sProp 𝕄) ⊣⊢ (pdats m 5 c).arrays G := by
  unfold Pipeline.arrBufs
  rw [arraysEq5 m c G, bufs5, bigSep_W5, share5_0, share5_1, share5_2, share5_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (fun c b => U7 m c b) c).loose
  hwaits := Pipeline.hwaits_of_owed_zero _ _ _ _ L lv 5 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec5 c (fun b : Ref sig .tc => U7 m c b)
  hentry c := by
    rw [Pipeline.ownSems0_none]
    have hsp := Pipeline.unscopedBufs_split₀ (Ix := Unit) (Name := ℕ) (U := UR sig nD τ) (Lvl := ℕ) (Pipeline.pin (pcfgs (F := F)) adm) 5
      winFacts₀5.arr_unscoped c (fun b : Ref sig .tc => U7 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs5 m c (fun b : Ref sig .tc => U7 m c b) ((pdats m 5 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 5
      winFacts₀5.arr_unscoped c (fun b : Ref sig .tc => U8 m c b)
    rw [Pipeline.unscopedBufs_held] at hsp
    have hrestEq : (Pipeline.unscopedRest (Ix := Unit) (Name := ℕ) (U := UR sig nD τ) (Lvl := ℕ) spec5 c (fun b : Ref sig .tc => U7 m c b) : sProp 𝕄)
        = Pipeline.unscopedRest spec5 c (fun b : Ref sig .tc => U8 m c b) := by
      unfold Pipeline.unscopedRest
      exact bigSep_congr fun b hb => by rw [hrest5 m c b (Finset.mem_sdiff.mp hb).2]
    iintro ⟨Ha, HO, HY, Hrest⟩
    imodintro
    isplitl [Ha Hrest]
    · iapply (BIBase.Entails.of_eq hsp.symm)
      isplitl [Ha]
      · iapply (arrs5 m c (fun b : Ref sig .tc => U8 m c b) ((pdats m 5 c).arrAt · cfg5.N) (hF5 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.KernelIdeal.Hand

end
-- ==== Proof.KI.Reg6.lean ====
/- Region 6 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF6 (c : Dev nD) (w : Fin cfg6.W) :
    (dat6 (fun c b => U8 m c b) c).arrAt w cfg6.N = (fun b : Ref sig .tc => U9 m c b) (Pipeline.arrRef spec6 w) := by
  match w with
  | ⟨0, _⟩ =>
    refine ((dat6 (fun c b => U8 m c b) c).arrAt_in 0 rfl _).trans ?_
    show U8 m c (Pipeline.arrRef spec6 0) = U9 m c (Pipeline.arrRef spec6 0)
    unfold U9
    rw [Function.update_of_ne (StableHlo.devRef_ne_of_ne (by decide))]
  | ⟨1, _⟩ =>
    refine ((dat6 (fun c b => U8 m c b) c).arrAt_in 1 rfl _).trans ?_
    show U8 m c (Pipeline.arrRef spec6 1) = U9 m c (Pipeline.arrRef spec6 1)
    unfold U9
    rw [Function.update_of_ne (StableHlo.devRef_ne_of_ne (by decide))]
  | ⟨2, _⟩ =>
    refine ((dat6 (fun c b => U8 m c b) c).arrAt_in 2 rfl _).trans ?_
    show U8 m c (Pipeline.arrRef spec6 2) = U9 m c (Pipeline.arrRef spec6 2)
    unfold U9
    rw [Function.update_of_ne (StableHlo.devRef_ne_of_ne (by decide))]
  | ⟨3, _⟩ =>
    show _ = U9 m c main_v25
    unfold U9
    rw [Function.update_self]; rfl

/-- Every other buffer holds what it held at entry. -/
theorem hrest6 (c : Dev nD) : ∀ b : Ref sig .tc, b ∉ Finset.univ.image (Pipeline.arrRef spec6) →
    (fun b : Ref sig .tc => U9 m c b) b = (fun b : Ref sig .tc => U8 m c b) b := fun b hb => by
  show U9 m c b = U8 m c b
  unfold U9
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (fun c b => U8 m c b) c).loose
  hwaits := Pipeline.hwaits_of_owed_zero _ _ _ _ L lv 6 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec6 c (fun b : Ref sig .tc => U8 m c b)
  hentry c := by
    rw [Pipeline.ownSems0_none]
    have hsplit := Pipeline.arrays_of_unscopedBufs (p := 6) (pcfgs (F := F)) adm (pdats m) launch6.win launch6.arr_whole c
      ((pdats m 6 c).share_full fun _ => rfl) (fun b : Ref sig .tc => U8 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (fun b : Ref sig .tc => U8 m c b) (fun b : Ref sig .tc => U9 m c b) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg7.lean ====
/- Region 7 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF7 (c : Dev nD) (w : Fin cfg7.W) :
    (dat7 (fun c b => U9 m c b) c).arrAt w cfg7.N = (fun b : Ref sig .tc => U10 m c b) (Pipeline.arrRef spec7 w) := by
  match w with
  | ⟨0, _⟩ =>
    refine ((dat7 (fun c b => U9 m c b) c).arrAt_in 0 rfl _).trans ?_
    show U9 m c (Pipeline.arrRef spec7 0) = U10 m c (Pipeline.arrRef spec7 0)
    unfold U10
    rw [Function.update_of_ne (StableHlo.devRef_ne_of_ne (by decide))]
  | ⟨1, _⟩ =>
    refine ((dat7 (fun c b => U9 m c b) c).arrAt_in 1 rfl _).trans ?_
    show U9 m c (Pipeline.arrRef spec7 1) = U10 m c (Pipeline.arrRef spec7 1)
    unfold U10
    rw [Function.update_of_ne (StableHlo.devRef_ne_of_ne (by decide))]
  | ⟨2, _⟩ =>
    refine ((dat7 (fun c b => U9 m c b) c).arrAt_in 2 rfl _).trans ?_
    show U9 m c (Pipeline.arrRef spec7 2) = U10 m c (Pipeline.arrRef spec7 2)
    unfold U10
    rw [Function.update_of_ne (StableHlo.devRef_ne_of_ne (by decide))]
  | ⟨3, _⟩ =>
    show _ = U10 m c main_v26
    unfold U10
    rw [Function.update_self]; rfl

/-- Every other buffer holds what it held at entry. -/
theorem hrest7 (c : Dev nD) : ∀ b : Ref sig .tc, b ∉ Finset.univ.image (Pipeline.arrRef spec7) →
    (fun b : Ref sig .tc => U10 m c b) b = (fun b : Ref sig .tc => U9 m c b) b := fun b hb => by
  show U10 m c b = U9 m c b
  unfold U10
  rw [Function.update_of_ne (StableHlo.devRef_ne_of_ne fun h => hb (Finset.mem_image.mpr ⟨3, Finset.mem_univ _, h.symm⟩))]

/-- A product over the three distinct buffers behind the four windows, factor by factor. -/
theorem bufs7 (Φ : Ref sig .tc → sProp 𝕄) :
    bigSep (Finset.univ.image (Pipeline.arrRef spec7)) Φ = iprop(Φ main_v25 ∗ Φ main_arg4 ∗ Φ main_v26) :=
  bigSep_eq_bigSepL_of_eq [main_v25, main_arg4, main_v26] (by decide) (by decide) Φ

/-- The shares the proof data hold the arrays at: the two halves of the shared buffer, the others whole. -/
theorem share7_0 (c : Dev nD) : (pdats m 7 c).share 0 = fullShare.left := rfl
theorem share7_1 (c : Dev nD) : (pdats m 7 c).share 1 = fullShare.right := rfl
theorem share7_2 (c : Dev nD) : (pdats m 7 c).share 2 = fullShare := rfl
theorem share7_3 (c : Dev nD) : (pdats m 7 c).share 3 = fullShare := rfl

/-- The windows' arrays, each a whole buffer, as plain points-to facts at each window's own share. -/
theorem arraysEq7 (c : Dev nD) (G : (w : Fin cfg7.W) → Buf (Elt F) ((cfg7.win w).arr.view.loc (c : Thread nD τ))) :
    (pdats m 7 c).arrays G
      = bigSep Finset.univ fun w => ((((c : Thread nD τ).loc (Pipeline.arrRef (Pipeline.pin (pcfgs (F := F)) adm 7).spec w)) ↦{(pdats m 7 c).share w} G w : sProp 𝕄)) := by
  unfold Pipeline.Dat.arrays
  exact bigSep_congr fun w _ => by
    have h : ((Pipeline.pin (pcfgs (F := F)) adm 7).win w).arr.view.set = Finset.univ := (arr_whole7 w).set_eq_univ
    rw [h]

set_option maxHeartbeats 4000000 in
/-- The distinct buffers whole at contents `V` ARE the four windows' arrays at contents `F` agreeing with `V`: the shared
    buffer's whole share is its left half and its right half. -/
theorem arrs7 (c : Dev nD) (V : (b : Ref sig .tc) → Buf (Elt F) ((c : Thread nD τ).loc b))
    (G : (w : Fin cfg7.W) → Buf (Elt F) ((cfg7.win w).arr.view.loc (c : Thread nD τ))) (hG : ∀ w, G w = V (Pipeline.arrRef spec7 w)) :
    (Pipeline.arrBufs (Ix := Unit) (Name := ℕ) (U := UR sig nD τ) (Lvl := ℕ) spec7 c V : sProp 𝕄) ⊣⊢ (pdats m 7 c).arrays G := by
  unfold Pipeline.arrBufs
  rw [arraysEq7 m c G, bufs7, bigSep_W7, share7_0, share7_1, share7_2, share7_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (fun c b => U9 m c b) c).loose
  hwaits := Pipeline.hwaits_of_owed_zero _ _ _ _ L lv 7 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec7 c (fun b : Ref sig .tc => U9 m c b)
  hentry c := by
    rw [Pipeline.ownSems0_none]
    have hsp := Pipeline.unscopedBufs_split₀ (Ix := Unit) (Name := ℕ) (U := UR sig nD τ) (Lvl := ℕ) (Pipeline.pin (pcfgs (F := F)) adm) 7
      winFacts₀7.arr_unscoped c (fun b : Ref sig .tc => U9 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs7 m c (fun b : Ref sig .tc => U9 m c b) ((pdats m 7 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 7
      winFacts₀7.arr_unscoped c (fun b : Ref sig .tc => U10 m c b)
    rw [Pipeline.unscopedBufs_held] at hsp
    have hrestEq : (Pipeline.unscopedRest (Ix := Unit) (Name := ℕ) (U := UR sig nD τ) (Lvl := ℕ) spec7 c (fun b : Ref sig .tc => U9 m c b) : sProp 𝕄)
        = Pipeline.unscopedRest spec7 c (fun b : Ref sig .tc => U10 m c b) := by
      unfold Pipeline.unscopedRest
      exact bigSep_congr fun b hb => by rw [hrest7 m c b (Finset.mem_sdiff.mp hb).2]
    iintro ⟨Ha, HO, HY, Hrest⟩
    imodintro
    isplitl [Ha Hrest]
    · iapply (BIBase.Entails.of_eq hsp.symm)
      isplitl [Ha]
      · iapply (arrs7 m c (fun b : Ref sig .tc => U10 m c b) ((pdats m 7 c).arrAt · cfg7.N) (hF7 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.KernelIdeal.Hand

end
-- ==== Proof.KI.Reg8.lean ====
/- Region 8 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF8 (c : Dev nD) (w : Fin cfg8.W) :
    (dat8 (fun c b => U12 m c b) c).arrAt w cfg8.N = (fun b : Ref sig .tc => U13 m c b) (Pipeline.arrRef spec8 w) := by
  match w with
  | ⟨0, _⟩ =>
    refine ((dat8 (fun c b => U12 m c b) c).arrAt_in 0 rfl _).trans ?_
    show U12 m c (Pipeline.arrRef spec8 0) = U13 m c (Pipeline.arrRef spec8 0)
    unfold U13
    rw [Function.update_of_ne (StableHlo.devRef_ne_of_ne (by decide))]
  | ⟨1, _⟩ =>
    refine ((dat8 (fun c b => U12 m c b) c).arrAt_in 1 rfl _).trans ?_
    show U12 m c (Pipeline.arrRef spec8 1) = U13 m c (Pipeline.arrRef spec8 1)
    unfold U13
    rw [Function.update_of_ne (StableHlo.devRef_ne_of_ne (by decide))]
  | ⟨2, _⟩ =>
    refine ((dat8 (fun c b => U12 m c b) c).arrAt_in 2 rfl _).trans ?_
    show U12 m c (Pipeline.arrRef spec8 2) = U13 m c (Pipeline.arrRef spec8 2)
    unfold U13
    rw [Function.update_of_ne (StableHlo.devRef_ne_of_ne (by decide))]
  | ⟨3, _⟩ =>
    show _ = U13 m c main_v46
    unfold U13
    rw [Function.update_self]; rfl

/-- Every other buffer holds what it held at entry. -/
theorem hrest8 (c : Dev nD) : ∀ b : Ref sig .tc, b ∉ Finset.univ.image (Pipeline.arrRef spec8) →
    (fun b : Ref sig .tc => U13 m c b) b = (fun b : Ref sig .tc => U12 m c b) b := fun b hb => by
  show U13 m c b = U12 m c b
  unfold U13
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (fun c b => U12 m c b) c).loose
  hwaits := Pipeline.hwaits_of_owed_zero _ _ _ _ L lv 8 fun _ _ => rfl
  pre c := iprop(StableHlo.held (c : Thread nD τ) (Pipeline.ucRefs τ sig) (U12 m c) ∗ R c)
  post c := iprop(StableHlo.held (c : Thread nD τ) (Pipeline.ucRefs τ sig) (U13 m c) ∗ R c)
  X c := iprop(∃ r, prngReg c r)
  Y c := iprop(∃ r, prngReg c r)
  Z c := Pipeline.unscopedRest (Ix := Unit) (Name := ℕ) (U := UR sig nD τ) (Lvl := ℕ) spec8 c (fun b : Ref sig .tc => U12 m c b)
  hentry c := by
    rw [Pipeline.ownSems0_none]
    have hsplit := Pipeline.arrays_of_unscopedBufs (p := 8) (pcfgs (F := F)) adm (pdats m) launch8.win launch8.arr_whole c
      ((pdats m 8 c).share_full fun _ => rfl) (fun b : Ref sig .tc => U12 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (fun b : Ref sig .tc => U12 m c b) (fun b : Ref sig .tc => U13 m c b) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg9.lean ====
/- Region 9 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF9 (c : Dev nD) (w : Fin cfg9.W) :
    (dat9 (fun c b => U13 m c b) c).arrAt w cfg9.N = (fun b : Ref sig .tc => U14 m c b) (Pipeline.arrRef spec9 w) := by
  match w with
  | ⟨0, _⟩ =>
    refine ((dat9 (fun c b => U13 m c b) c).arrAt_in 0 rfl _).trans ?_
    show U13 m c (Pipeline.arrRef spec9 0) = U14 m c (Pipeline.arrRef spec9 0)
    unfold U14
    rw [Function.update_of_ne (StableHlo.devRef_ne_of_ne (by decide))]
  | ⟨1, _⟩ =>
    refine ((dat9 (fun c b => U13 m c b) c).arrAt_in 1 rfl _).trans ?_
    show U13 m c (Pipeline.arrRef spec9 1) = U14 m c (Pipeline.arrRef spec9 1)
    unfold U14
    rw [Function.update_of_ne (StableHlo.devRef_ne_of_ne (by decide))]
  | ⟨2, _⟩ =>
    refine ((dat9 (fun c b => U13 m c b) c).arrAt_in 2 rfl _).trans ?_
    show U13 m c (Pipeline.arrRef spec9 2) = U14 m c (Pipeline.arrRef spec9 2)
    unfold U14
    rw [Function.update_of_ne (StableHlo.devRef_ne_of_ne (by decide))]
  | ⟨3, _⟩ =>
    show _ = U14 m c main_v47
    unfold U14
    rw [Function.update_self]; rfl

/-- Every other buffer holds what it held at entry. -/
theorem hrest9 (c : Dev nD) : ∀ b : Ref sig .tc, b ∉ Finset.univ.image (Pipeline.arrRef spec9) →
    (fun b : Ref sig .tc => U14 m c b) b = (fun b : Ref sig .tc => U13 m c b) b := fun b hb => by
  show U14 m c b = U13 m c b
  unfold U14
  rw [Function.update_of_ne (StableHlo.devRef_ne_of_ne fun h => hb (Finset.mem_image.mpr ⟨3, Finset.mem_univ _, h.symm⟩))]

/-- A product over the three distinct buffers behind the four windows, factor by factor. -/
theorem bufs9 (Φ : Ref sig .tc → sProp 𝕄) :
    bigSep (Finset.univ.image (Pipeline.arrRef spec9)) Φ = iprop(Φ main_v46 ∗ Φ main_arg5 ∗ Φ main_v47) :=
  bigSep_eq_bigSepL_of_eq [main_v46, main_arg5, main_v47] (by decide) (by decide) Φ

/-- The shares the proof data hold the arrays at: the two halves of the shared buffer, the others whole. -/
theorem share9_0 (c : Dev nD) : (pdats m 9 c).share 0 = fullShare.left := rfl
theorem share9_1 (c : Dev nD) : (pdats m 9 c).share 1 = fullShare.right := rfl
theorem share9_2 (c : Dev nD) : (pdats m 9 c).share 2 = fullShare := rfl
theorem share9_3 (c : Dev nD) : (pdats m 9 c).share 3 = fullShare := rfl

/-- The windows' arrays, each a whole buffer, as plain points-to facts at each window's own share. -/
theorem arraysEq9 (c : Dev nD) (G : (w : Fin cfg9.W) → Buf (Elt F) ((cfg9.win w).arr.view.loc (c : Thread nD τ))) :
    (pdats m 9 c).arrays G
      = bigSep Finset.univ fun w => ((((c : Thread nD τ).loc (Pipeline.arrRef (Pipeline.pin (pcfgs (F := F)) adm 9).spec w)) ↦{(pdats m 9 c).share w} G w : sProp 𝕄)) := by
  unfold Pipeline.Dat.arrays
  exact bigSep_congr fun w _ => by
    have h : ((Pipeline.pin (pcfgs (F := F)) adm 9).win w).arr.view.set = Finset.univ := (arr_whole9 w).set_eq_univ
    rw [h]

set_option maxHeartbeats 4000000 in
/-- The distinct buffers whole at contents `V` ARE the four windows' arrays at contents `F` agreeing with `V`: the shared
    buffer's whole share is its left half and its right half. -/
theorem arrs9 (c : Dev nD) (V : (b : Ref sig .tc) → Buf (Elt F) ((c : Thread nD τ).loc b))
    (G : (w : Fin cfg9.W) → Buf (Elt F) ((cfg9.win w).arr.view.loc (c : Thread nD τ))) (hG : ∀ w, G w = V (Pipeline.arrRef spec9 w)) :
    (Pipeline.arrBufs (Ix := Unit) (Name := ℕ) (U := UR sig nD τ) (Lvl := ℕ) spec9 c V : sProp 𝕄) ⊣⊢ (pdats m 9 c).arrays G := by
  unfold Pipeline.arrBufs
  rw [arraysEq9 m c G, bufs9, bigSep_W9, share9_0, share9_1, share9_2, share9_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg9 : Pipeline.RegionSeg (pcfgs (F := F)) adm (pdats m) () defs₀ 𝒱₀ L lv 9 where
  win := winFacts₀9
  block_pos := block_pos9
  stage_whole := stage_whole9
  K := PEmpty
  osem k := k.elim
  ho := Pipeline.OwnSemFacts.none _
  hbody c := (body_obligation9 (fun c b => U13 m c b) c).loose
  hwaits := Pipeline.hwaits_of_owed_zero _ _ _ _ L lv 9 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec9 c (fun b : Ref sig .tc => U13 m c b)
  hentry c := by
    rw [Pipeline.ownSems0_none]
    have hsp := Pipeline.unscopedBufs_split₀ (Ix := Unit) (Name := ℕ) (U := UR sig nD τ) (Lvl := ℕ) (Pipeline.pin (pcfgs (F := F)) adm) 9
      winFacts₀9.arr_unscoped c (fun b : Ref sig .tc => U13 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs9 m c (fun b : Ref sig .tc => U13 m c b) ((pdats m 9 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 9
      winFacts₀9.arr_unscoped c (fun b : Ref sig .tc => U14 m c b)
    rw [Pipeline.unscopedBufs_held] at hsp
    have hrestEq : (Pipeline.unscopedRest (Ix := Unit) (Name := ℕ) (U := UR sig nD τ) (Lvl := ℕ) spec9 c (fun b : Ref sig .tc => U13 m c b) : sProp 𝕄)
        = Pipeline.unscopedRest spec9 c (fun b : Ref sig .tc => U14 m c b) := by
      unfold Pipeline.unscopedRest
      exact bigSep_congr fun b hb => by rw [hrest9 m c b (Finset.mem_sdiff.mp hb).2]
    iintro ⟨Ha, HO, HY, Hrest⟩
    imodintro
    isplitl [Ha Hrest]
    · iapply (BIBase.Entails.of_eq hsp.symm)
      isplitl [Ha]
      · iapply (arrs9 m c (fun b : Ref sig .tc => U14 m c b) ((pdats m 9 c).arrAt · cfg9.N) (hF9 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.KernelIdeal.Hand

end
-- ==== Proof.KI.Reg10.lean ====
/- Region 10 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF10 (c : Dev nD) (w : Fin cfg10.W) :
    (dat10 (fun c b => U14 m c b) c).arrAt w cfg10.N = (fun b : Ref sig .tc => U15 m c b) (Pipeline.arrRef spec10 w) := by
  match w with
  | ⟨0, _⟩ =>
    refine ((dat10 (fun c b => U14 m c b) c).arrAt_in 0 rfl _).trans ?_
    show U14 m c (Pipeline.arrRef spec10 0) = U15 m c (Pipeline.arrRef spec10 0)
    unfold U15
    rw [Function.update_of_ne (StableHlo.devRef_ne_of_ne (by decide))]
  | ⟨1, _⟩ =>
    refine ((dat10 (fun c b => U14 m c b) c).arrAt_in 1 rfl _).trans ?_
    show U14 m c (Pipeline.arrRef spec10 1) = U15 m c (Pipeline.arrRef spec10 1)
    unfold U15
    rw [Function.update_of_ne (StableHlo.devRef_ne_of_ne (by decide))]
  | ⟨2, _⟩ =>
    refine ((dat10 (fun c b => U14 m c b) c).arrAt_in 2 rfl _).trans ?_
    show U14 m c (Pipeline.arrRef spec10 2) = U15 m c (Pipeline.arrRef spec10 2)
    unfold U15
    rw [Function.update_of_ne (StableHlo.devRef_ne_of_ne (by decide))]
  | ⟨3, _⟩ =>
    show _ = U15 m c main_v48
    unfold U15
    rw [Function.update_self]; rfl

/-- Every other buffer holds what it held at entry. -/
theorem hrest10 (c : Dev nD) : ∀ b : Ref sig .tc, b ∉ Finset.univ.image (Pipeline.arrRef spec10) →
    (fun b : Ref sig .tc => U15 m c b) b = (fun b : Ref sig .tc => U14 m c b) b := fun b hb => by
  show U15 m c b = U14 m c b
  unfold U15
  rw [Function.update_of_ne (StableHlo.devRef_ne_of_ne fun h => hb (Finset.mem_image.mpr ⟨3, Finset.mem_univ _, h.symm⟩))]

set_option maxHeartbeats 4000000 in
set_option backward.isDefEq.respectTransparency.types false in
/-- The region's record. -/
def reg10 : Pipeline.RegionSeg (pcfgs (F := F)) adm (pdats m) () defs₀ 𝒱₀ L lv 10 where
  win := launch10.win.to₀
  block_pos := launch10.block_pos
  stage_whole := launch10.stage_whole
  K := PEmpty
  osem k := k.elim
  ho := Pipeline.OwnSemFacts.none _
  hbody c := (body_obligation10 (fun c b => U14 m c b) c).loose
  hwaits := Pipeline.hwaits_of_owed_zero _ _ _ _ L lv 10 fun _ _ => rfl
  pre c := iprop(StableHlo.held (c : Thread nD τ) (Pipeline.ucRefs τ sig) (U14 m c) ∗ R c)
  post c := iprop(StableHlo.held (c : Thread nD τ) (Pipeline.ucRefs τ sig) (U15 m c) ∗ R c)
  X c := iprop(∃ r, prngReg c r)
  Y c := iprop(∃ r, prngReg c r)
  Z c := Pipeline.unscopedRest (Ix := Unit) (Name := ℕ) (U := UR sig nD τ) (Lvl := ℕ) spec10 c (fun b : Ref sig .tc => U14 m c b)
  hentry c := by
    rw [Pipeline.ownSems0_none]
    have hsplit := Pipeline.arrays_of_unscopedBufs (p := 10) (pcfgs (F := F)) adm (pdats m) launch10.win launch10.arr_whole c
      ((pdats m 10 c).share_full fun _ => rfl) (fun b : Ref sig .tc => U14 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (fun b : Ref sig .tc => U14 m c b) (fun b : Ref sig .tc => U15 m c b) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Reg11.lean ====
/- Region 11 as an item of the program: entered with every unscoped buffer at the contents before it, left with them at the
   contents after it. Its query window and its key window lie over ONE buffer, which the kernel only reads: on entry that
   buffer's whole share is dealt to the two windows as its two halves, and the halves are joined again at the exit; the
   adjacency's and the output's buffers are held whole. The operands' arrays end as they began, the output's array at the
   write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF11 (c : Dev nD) (w : Fin cfg11.W) :
    (dat11 (fun c b => U15 m c b) c).arrAt w cfg11.N = (fun b : Ref sig .tc => U16 m c b) (Pipeline.arrRef spec11 w) := by
  match w with
  | ⟨0, _⟩ =>
    refine ((dat11 (fun c b => U15 m c b) c).arrAt_in 0 rfl _).trans ?_
    show U15 m c (Pipeline.arrRef spec11 0) = U16 m c (Pipeline.arrRef spec11 0)
    unfold U16
    rw [Function.update_of_ne (StableHlo.devRef_ne_of_ne (by decide))]
  | ⟨1, _⟩ =>
    refine ((dat11 (fun c b => U15 m c b) c).arrAt_in 1 rfl _).trans ?_
    show U15 m c (Pipeline.arrRef spec11 1) = U16 m c (Pipeline.arrRef spec11 1)
    unfold U16
    rw [Function.update_of_ne (StableHlo.devRef_ne_of_ne (by decide))]
  | ⟨2, _⟩ =>
    refine ((dat11 (fun c b => U15 m c b) c).arrAt_in 2 rfl _).trans ?_
    show U15 m c (Pipeline.arrRef spec11 2) = U16 m c (Pipeline.arrRef spec11 2)
    unfold U16
    rw [Function.update_of_ne (StableHlo.devRef_ne_of_ne (by decide))]
  | ⟨3, _⟩ =>
    show _ = U16 m c main_v49
    unfold U16
    rw [Function.update_self]; rfl

/-- Every other buffer holds what it held at entry. -/
theorem hrest11 (c : Dev nD) : ∀ b : Ref sig .tc, b ∉ Finset.univ.image (Pipeline.arrRef spec11) →
    (fun b : Ref sig .tc => U16 m c b) b = (fun b : Ref sig .tc => U15 m c b) b := fun b hb => by
  show U16 m c b = U15 m c b
  unfold U16
  rw [Function.update_of_ne (StableHlo.devRef_ne_of_ne fun h => hb (Finset.mem_image.mpr ⟨3, Finset.mem_univ _, h.symm⟩))]

/-- A product over the three distinct buffers behind the four windows, factor by factor. -/
theorem bufs11 (Φ : Ref sig .tc → sProp 𝕄) :
    bigSep (Finset.univ.image (Pipeline.arrRef spec11)) Φ = iprop(Φ main_v48 ∗ Φ main_arg5 ∗ Φ main_v49) :=
  bigSep_eq_bigSepL_of_eq [main_v48, main_arg5, main_v49] (by decide) (by decide) Φ

/-- The shares the proof data hold the arrays at: the two halves of the shared buffer, the others whole. -/
theorem share11_0 (c : Dev nD) : (pdats m 11 c).share 0 = fullShare.left := rfl
theorem share11_1 (c : Dev nD) : (pdats m 11 c).share 1 = fullShare.right := rfl
theorem share11_2 (c : Dev nD) : (pdats m 11 c).share 2 = fullShare := rfl
theorem share11_3 (c : Dev nD) : (pdats m 11 c).share 3 = fullShare := rfl

/-- The windows' arrays, each a whole buffer, as plain points-to facts at each window's own share. -/
theorem arraysEq11 (c : Dev nD) (G : (w : Fin cfg11.W) → Buf (Elt F) ((cfg11.win w).arr.view.loc (c : Thread nD τ))) :
    (pdats m 11 c).arrays G
      = bigSep Finset.univ fun w => ((((c : Thread nD τ).loc (Pipeline.arrRef (Pipeline.pin (pcfgs (F := F)) adm 11).spec w)) ↦{(pdats m 11 c).share w} G w : sProp 𝕄)) := by
  unfold Pipeline.Dat.arrays
  exact bigSep_congr fun w _ => by
    have h : ((Pipeline.pin (pcfgs (F := F)) adm 11).win w).arr.view.set = Finset.univ := (arr_whole11 w).set_eq_univ
    rw [h]

set_option maxHeartbeats 4000000 in
/-- The distinct buffers whole at contents `V` ARE the four windows' arrays at contents `F` agreeing with `V`: the shared
    buffer's whole share is its left half and its right half. -/
theorem arrs11 (c : Dev nD) (V : (b : Ref sig .tc) → Buf (Elt F) ((c : Thread nD τ).loc b))
    (G : (w : Fin cfg11.W) → Buf (Elt F) ((cfg11.win w).arr.view.loc (c : Thread nD τ))) (hG : ∀ w, G w = V (Pipeline.arrRef spec11 w)) :
    (Pipeline.arrBufs (Ix := Unit) (Name := ℕ) (U := UR sig nD τ) (Lvl := ℕ) spec11 c V : sProp 𝕄) ⊣⊢ (pdats m 11 c).arrays G := by
  unfold Pipeline.arrBufs
  rw [arraysEq11 m c G, bufs11, bigSep_W11, share11_0, share11_1, share11_2, share11_3, hG 0, hG 1, hG 2, hG 3]
  constructor
  · iintro ⟨H0, H2, H3⟩
    ihave H01 := (pointsTo_share (PosShare.mem_left_op_right fullShare)).1 $$ H0
    icases H01 with ⟨Hl, Hr⟩
    isplitl [Hl]; · iexact Hl
    isplitl [Hr]; · iexact Hr
    isplitl [H2]; · iexact H2
    iexact H3
  · iintro ⟨Hl, Hr, H2, H3⟩
    isplitl [Hl Hr]
    · iapply (pointsTo_share (PosShare.mem_left_op_right fullShare)).2
      isplitl [Hl]; · iexact Hl
      iexact Hr
    isplitl [H2]; · iexact H2
    iexact H3

set_option maxHeartbeats 4000000 in
set_option backward.isDefEq.respectTransparency.types false in
/-- The region's record. -/
def reg11 : Pipeline.RegionSeg (pcfgs (F := F)) adm (pdats m) () defs₀ 𝒱₀ L lv 11 where
  win := winFacts₀11
  block_pos := block_pos11
  stage_whole := stage_whole11
  K := PEmpty
  osem k := k.elim
  ho := Pipeline.OwnSemFacts.none _
  hbody c := (body_obligation11 (fun c b => U15 m c b) c).loose
  hwaits := Pipeline.hwaits_of_owed_zero _ _ _ _ L lv 11 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec11 c (fun b : Ref sig .tc => U15 m c b)
  hentry c := by
    rw [Pipeline.ownSems0_none]
    have hsp := Pipeline.unscopedBufs_split₀ (Ix := Unit) (Name := ℕ) (U := UR sig nD τ) (Lvl := ℕ) (Pipeline.pin (pcfgs (F := F)) adm) 11
      winFacts₀11.arr_unscoped c (fun b : Ref sig .tc => U15 m c b)
    rw [Pipeline.unscopedBufs_held] at hsp
    iintro ⟨⟨Hub, Hp, HO⟩, -, -⟩
    ihave H := (BIBase.Entails.of_eq hsp) $$ Hub
    icases H with ⟨Hb, Hrest⟩
    ihave Ha := (arrs11 m c (fun b : Ref sig .tc => U15 m c b) ((pdats m 11 c).arrAt · 0) (fun _ => rfl)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hsp := Pipeline.unscopedBufs_split₀ (Ix := Unit) (Name := ℕ) (U := UR sig nD τ) (Lvl := ℕ) (Pipeline.pin (pcfgs (F := F)) adm) 11
      winFacts₀11.arr_unscoped c (fun b : Ref sig .tc => U16 m c b)
    rw [Pipeline.unscopedBufs_held] at hsp
    have hrestEq : (Pipeline.unscopedRest (Ix := Unit) (Name := ℕ) (U := UR sig nD τ) (Lvl := ℕ) spec11 c (fun b : Ref sig .tc => U15 m c b) : sProp 𝕄)
        = Pipeline.unscopedRest spec11 c (fun b : Ref sig .tc => U16 m c b) := by
      unfold Pipeline.unscopedRest
      exact bigSep_congr fun b hb => by rw [hrest11 m c b (Finset.mem_sdiff.mp hb).2]
    iintro ⟨Ha, HO, HY, Hrest⟩
    imodintro
    isplitl [Ha Hrest]
    · iapply (BIBase.Entails.of_eq hsp.symm)
      isplitl [Ha]
      · iapply (arrs11 m c (fun b : Ref sig .tc => U16 m c b) ((pdats m 11 c).arrAt · cfg11.N) (hF11 m c)).2
        iexact Ha
      iapply (BIBase.Entails.of_eq hrestEq); iexact Hrest
    isplitl [HY]; · iexact HY
    unfold Pipeline.Dat.owesAt Pipeline.owesWithin
    icases HO with ⟨%W, -, HO⟩; iexists W; iexact HO

end Cert.KernelIdeal.Hand

end
-- ==== Proof.KI.Reg12.lean ====
/- Region 12 as an item of the program: entered with every unscoped buffer at the contents before it, left with them at the
   contents after it. Its windows' arrays are distinct buffers, split out of the unscoped buffers on entry and joined back at
   what the write-backs leave; the operands' arrays end as they began, the output's array at the write-backs' fold. -/
import proofs.«123632_j87531433492498_2_alg».proof.Proof.Gen.KernelIdeal.Launch
import proofs.«123632_j87531433492498_2_alg».proof.Proof.Gen.KernelIdeal.Skeleton
import proofs.«123632_j87531433492498_2_alg».proof.Proof.Gen.KernelIdeal.Points
import proofs.«123632_j87531433492498_2_alg».proof.Proof.KI.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- At the exit each array of the region holds what the pipeline leaves: an operand's array its entry contents, the output's the fold. -/
theorem hF12 (c : Dev nD) (w : Fin cfg12.W) :
    (dat12 (fun c b => U18 m c b) c).arrAt w cfg12.N = (fun b : Ref sig .tc => U19 m c b) (Pipeline.arrRef spec12 w) := by
  match w with
  | ⟨0, _⟩ =>
    refine ((dat12 (fun c b => U18 m c b) c).arrAt_in 0 rfl _).trans ?_
    show U18 m c (Pipeline.arrRef spec12 0) = U19 m c (Pipeline.arrRef spec12 0)
    unfold U19
    rw [Function.update_of_ne (StableHlo.devRef_ne_of_ne (by decide))]
  | ⟨1, _⟩ =>
    refine ((dat12 (fun c b => U18 m c b) c).arrAt_in 1 rfl _).trans ?_
    show U18 m c (Pipeline.arrRef spec12 1) = U19 m c (Pipeline.arrRef spec12 1)
    unfold U19
    rw [Function.update_of_ne (StableHlo.devRef_ne_of_ne (by decide))]
  | ⟨2, _⟩ =>
    refine ((dat12 (fun c b => U18 m c b) c).arrAt_in 2 rfl _).trans ?_
    show U18 m c (Pipeline.arrRef spec12 2) = U19 m c (Pipeline.arrRef spec12 2)
    unfold U19
    rw [Function.update_of_ne (StableHlo.devRef_ne_of_ne (by decide))]
  | ⟨3, _⟩ =>
    refine ((dat12 (fun c b => U18 m c b) c).arrAt_in 3 rfl _).trans ?_
    show U18 m c (Pipeline.arrRef spec12 3) = U19 m c (Pipeline.arrRef spec12 3)
    unfold U19
    rw [Function.update_of_ne (StableHlo.devRef_ne_of_ne (by decide))]
  | ⟨4, _⟩ =>
    show _ = U19 m c main_v82
    unfold U19
    rw [Function.update_self]; rfl

/-- Every other buffer holds what it held at entry. -/
theorem hrest12 (c : Dev nD) : ∀ b : Ref sig .tc, b ∉ Finset.univ.image (Pipeline.arrRef spec12) →
    (fun b : Ref sig .tc => U19 m c b) b = (fun b : Ref sig .tc => U18 m c b) b := fun b hb => by
  show U19 m c b = U18 m c b
  unfold U19
  rw [Function.update_of_ne (StableHlo.devRef_ne_of_ne fun h => hb (Finset.mem_image.mpr ⟨4, Finset.mem_univ _, h.symm⟩))]

set_option maxHeartbeats 4000000 in
set_option backward.isDefEq.respectTransparency.types false in
/-- The region's record. -/
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (fun c b => U18 m c b) c).loose
  hwaits := Pipeline.hwaits_of_owed_zero _ _ _ _ L lv 12 fun _ _ => rfl
  pre c := iprop(StableHlo.held (c : Thread nD τ) (Pipeline.ucRefs τ sig) (U18 m c) ∗ R c)
  post c := iprop(StableHlo.held (c : Thread nD τ) (Pipeline.ucRefs τ sig) (U19 m c) ∗ R c)
  X c := iprop(∃ r, prngReg c r)
  Y c := iprop(∃ r, prngReg c r)
  Z c := Pipeline.unscopedRest (Ix := Unit) (Name := ℕ) (U := UR sig nD τ) (Lvl := ℕ) spec12 c (fun b : Ref sig .tc => U18 m c b)
  hentry c := by
    rw [Pipeline.ownSems0_none]
    have hsplit := Pipeline.arrays_of_unscopedBufs (p := 12) (pcfgs (F := F)) adm (pdats m) launch12.win launch12.arr_whole c
      ((pdats m 12 c).share_full fun _ => rfl) (fun b : Ref sig .tc => U18 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (fun b : Ref sig .tc => U18 m c b) (fun b : Ref sig .tc => U19 m c b) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/- The kernel program's run: every weakly fair execution from any memory with zero counters terminates; at the end the result
   buffer holds the last item's contents of it and every argument is as launched. It is the run over one record per region,
   at the concrete contents between the items, the thread state beside the buffers being the core's generator register and
   its dues (none). -/
import proofs.«123632_j87531433492498_2_alg».proof.Proof.KI.RunCond
import proofs.«123632_j87531433492498_2_alg».proof.Proof.KI.Reg0
import proofs.«123632_j87531433492498_2_alg».proof.Proof.KI.Reg1
import proofs.«123632_j87531433492498_2_alg».proof.Proof.KI.Reg2
import proofs.«123632_j87531433492498_2_alg».proof.Proof.KI.Reg3
import proofs.«123632_j87531433492498_2_alg».proof.Proof.KI.Reg4
import proofs.«123632_j87531433492498_2_alg».proof.Proof.KI.Reg5
import proofs.«123632_j87531433492498_2_alg».proof.Proof.KI.Reg6
import proofs.«123632_j87531433492498_2_alg».proof.Proof.KI.Reg7
import proofs.«123632_j87531433492498_2_alg».proof.Proof.KI.Reg8
import proofs.«123632_j87531433492498_2_alg».proof.Proof.KI.Reg9
import proofs.«123632_j87531433492498_2_alg».proof.Proof.KI.Reg10
import proofs.«123632_j87531433492498_2_alg».proof.Proof.KI.Reg11
import proofs.«123632_j87531433492498_2_alg».proof.Proof.KI.Reg12
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v83) = U20 m c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) := by
  have h := run_cond (F := F) m (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE13 := fun c => by iintro ⟨-, H⟩; iexact H)
    (R0 := reg0 m) (hpre0 := fun c => by rw [V0_eq]; exact .rfl) (hpost0 := fun c => by rw [V1_eq]; exact .rfl)
    (R1 := reg1 m) (hpre1 := fun c => by rw [V1_eq]; exact .rfl) (hpost1 := fun c => by rw [V2_eq]; exact .rfl)
    (R2 := reg2 m) (hpre2 := fun c => by rw [V2_eq]; exact .rfl) (hpost2 := fun c => by rw [V3_eq]; exact .rfl)
    (R3 := reg3 m) (hpre3 := fun c => by rw [V3_eq]; exact .rfl) (hpost3 := fun c => by rw [V4_eq]; exact .rfl)
    (R4 := reg4 m) (hpre4 := fun c => by rw [V6_eq]; exact .rfl) (hpost4 := fun c => by rw [V7_eq]; exact .rfl)
    (R5 := reg5 m) (hpre5 := fun c => by rw [V7_eq]; exact .rfl) (hpost5 := fun c => by rw [V8_eq]; exact .rfl)
    (R6 := reg6 m) (hpre6 := fun c => by rw [V8_eq]; exact .rfl) (hpost6 := fun c => by rw [V9_eq]; exact .rfl)
    (R7 := reg7 m) (hpre7 := fun c => by rw [V9_eq]; exact .rfl) (hpost7 := fun c => by rw [V10_eq]; exact .rfl)
    (R8 := reg8 m) (hpre8 := fun c => by rw [V12_eq]; exact .rfl) (hpost8 := fun c => by rw [V13_eq]; exact .rfl)
    (R9 := reg9 m) (hpre9 := fun c => by rw [V13_eq]; exact .rfl) (hpost9 := fun c => by rw [V14_eq]; exact .rfl)
    (R10 := reg10 m) (hpre10 := fun c => by rw [V14_eq]; exact .rfl) (hpost10 := fun c => by rw [V15_eq]; exact .rfl)
    (R11 := reg11 m) (hpre11 := fun c => by rw [V15_eq]; exact .rfl) (hpost11 := fun c => by rw [V16_eq]; exact .rfl)
    (R12 := reg12 m) (hpre12 := fun c => by rw [V18_eq]; exact .rfl) (hpost12 := fun c => by rw [V19_eq]; exact .rfl)
  refine (θ_run defs _ _).mono (fun r hr c => ?_) h
  rw [← V20_eq]; exact hr c

end Cert.KernelIdeal.Hand

end
-- ==== Proof.Ref.Chunks.lean ====
/-
  The reference's 286 host operations cut into ten consecutive chunks (per scale its first attention layer, its second,
  and its tail up to the gathered map; then the closing operations), so that what the list leaves in a buffer is read
  chunk by chunk: the list is the chunks joined (ops_split), its fold is the chunks' folds composed (after_ops), and a
  chunk leaves alone every reference it does not write (<chunk>_keep, from the list <chunk>_W of the references its
  operations write).
-/
import proofs.«123632_j87531433492498_2_alg».proof.Proof.RefRunP
import Idealize.ShloMosaic.Lib.Pipeline.Frame

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- Scale 0, first attention layer: operations 1 … 31 of the list (the values main_v0 … main_v21). -/
abbrev L0a : List (HloOp τ sig (Elt F)) :=
  [ binary main_arg0 main_arg9 main_v0 ((fun l r => Host.dotGeneral dot_S2000x156_S156x64_S2000x64_1_0_0_1_n_n none l r) : (⟨S2000x156, .f32⟩ : BufTy).Contents (Elt F) → (⟨S156x64, .f32⟩ : BufTy).Contents (Elt F) → (⟨S2000x64, .f32⟩ : BufTy).Contents (Elt F)),
    unary main_arg10 main_v1 (broadcastInDim S1x64 ![1] bcast_S64_S1x64_1 : (⟨S64, .f32⟩ : BufTy).Contents (Elt F) → (⟨S1x64, .f32⟩ : BufTy).Contents (Elt F)),
    unary main_v1 main_v2 (broadcastInDim S2000x64 ![0, 1] bcast_S1x64_S2000x64_0_1 : (⟨S1x64, .f32⟩ : BufTy).Contents (Elt F) → (⟨S2000x64, .f32⟩ : BufTy).Contents (Elt F)),
    binary main_v0 main_v2 main_v3 (addf : (⟨S2000x64, .f32⟩ : BufTy).Contents (Elt F) → (⟨S2000x64, .f32⟩ : BufTy).Contents (Elt F) → (⟨S2000x64, .f32⟩ : BufTy).Contents (Elt F)),
    unary main_v3 main_v4 ((transpose S64x2000 [1, 0] · transposes_S2000x64_S64x2000_1_0) : (⟨S2000x64, .f32⟩ : BufTy).Contents (Elt F) → (⟨S64x2000, .f32⟩ : BufTy).Contents (Elt F)),
    binary main_v3 main_v4 main_v5 ((fun l r => Host.dotGeneral dot_S2000x64_S64x2000_S2000x2000_1_0_0_1_n_n none l r) : (⟨S2000x64, .f32⟩ : BufTy).Contents (Elt F) → (⟨S64x2000, .f32⟩ : BufTy).Contents (Elt F) → (⟨S2000x2000, .f32⟩ : BufTy).Contents (Elt F)),
    nullary main_c (constantI S_ 32 0#32),
    unary main_c main_v6 (broadcastInDim S2000x2000 ![] bcast_S_S2000x2000 : (⟨S_, .i32⟩ : BufTy).Contents (Elt F) → (⟨S2000x2000, .i32⟩ : BufTy).Contents (Elt F)),
    binary main_arg3 main_v6 main_v7 (cmpi .sgt : (⟨S2000x2000, .i32⟩ : BufTy).Contents (Elt F) → (⟨S2000x2000, .i32⟩ : BufTy).Contents (Elt F) → (⟨S2000x2000, .i1⟩ : BufTy).Contents (Elt F)),
    nullary main_cst (constant S_ .f32 0xCE6E6B28#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S2000x2000, .f32⟩) main_call0_v1) (broadcastInDim S2000x2000 ![] bcast_S_S2000x2000),
    TRef.ternary (TRef.of (T := ⟨S2000x2000, .i1⟩) main_v7) (TRef.of (T := ⟨S2000x2000, .f32⟩) main_v5) (TRef.of (T := ⟨S2000x2000, .f32⟩) main_call0_v1) (TRef.of (T := ⟨S2000x2000, .f32⟩) main_v8) select,
    nullary main_cst_0 (constant S_ .f32 0xFF800000#32),
    binary main_v8 main_cst_0 main_v9 ((fun x v => Host.reduce FloatOps.maximumf x v reducesTo_S2000x2000_S2000_d1 h_S_) : (⟨S2000x2000, .f32⟩ : BufTy).Contents (Elt F) → (⟨S_, .f32⟩ : BufTy).Contents (Elt F) → (⟨S2000, .f32⟩ : BufTy).Contents (Elt F)),
    nullary main_cst_1 (constant S_ .f32 0xFF800000#32),
    unary main_cst_1 main_v10 (broadcastInDim S2000 ![] bcast_S_S2000 : (⟨S_, .f32⟩ : BufTy).Contents (Elt F) → (⟨S2000, .f32⟩ : BufTy).Contents (Elt F)),
    binary main_v10 main_v9 main_v11 (maximumf : (⟨S2000, .f32⟩ : BufTy).Contents (Elt F) → (⟨S2000, .f32⟩ : BufTy).Contents (Elt F) → (⟨S2000, .f32⟩ : BufTy).Contents (Elt F)),
    unary main_v11 main_v12 (broadcastInDim S2000x1 ![0] bcast_S2000_S2000x1_0 : (⟨S2000, .f32⟩ : BufTy).Contents (Elt F) → (⟨S2000x1, .f32⟩ : BufTy).Contents (Elt F)),
    unary main_v12 main_v13 (broadcastInDim S2000x2000 ![0, 1] bcast_S2000x1_S2000x2000_0_1 : (⟨S2000x1, .f32⟩ : BufTy).Contents (Elt F) → (⟨S2000x2000, .f32⟩ : BufTy).Contents (Elt F)),
    binary main_v8 main_v13 main_v14 (subf : (⟨S2000x2000, .f32⟩ : BufTy).Contents (Elt F) → (⟨S2000x2000, .f32⟩ : BufTy).Contents (Elt F) → (⟨S2000x2000, .f32⟩ : BufTy).Contents (Elt F)),
    unary main_v14 main_v15 (Host.exp : (⟨S2000x2000, .f32⟩ : BufTy).Contents (Elt F) → (⟨S2000x2000, .f32⟩ : BufTy).Contents (Elt F)),
    nullary main_cst_2 (constant S_ .f32 0x00000000#32),
    binary main_v15 main_cst_2 main_v16 ((fun x v => Host.reduceAdd x v reducesTo_S2000x2000_S2000_d1 h_S_) : (⟨S2000x2000, .f32⟩ : BufTy).Contents (Elt F) → (⟨S_, .f32⟩ : BufTy).Contents (Elt F) → (⟨S2000, .f32⟩ : BufTy).Contents (Elt F)),
    unary main_v16 main_v17 (broadcastInDim S2000x1 ![0] bcast_S2000_S2000x1_0 : (⟨S2000, .f32⟩ : BufTy).Contents (Elt F) → (⟨S2000x1, .f32⟩ : BufTy).Contents (Elt F)),
    unary main_v17 main_v18 (broadcastInDim S2000x2000 ![0, 1] bcast_S2000x1_S2000x2000_0_1 : (⟨S2000x1, .f32⟩ : BufTy).Contents (Elt F) → (⟨S2000x2000, .f32⟩ : BufTy).Contents (Elt F)),
    binary main_v15 main_v18 main_v19 (Host.divf : (⟨S2000x2000, .f32⟩ : BufTy).Contents (Elt F) → (⟨S2000x2000, .f32⟩ : BufTy).Contents (Elt F) → (⟨S2000x2000, .f32⟩ : BufTy).Contents (Elt F)),
    binary main_v19 main_v3 main_v20 ((fun l r => Host.dotGeneral dot_S2000x2000_S2000x64_S2000x64_1_0_0_1_n_n none l r) : (⟨S2000x2000, .f32⟩ : BufTy).Contents (Elt F) → (⟨S2000x64, .f32⟩ : BufTy).Contents (Elt F) → (⟨S2000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S2000x64, .f32⟩) main_call1_v0) (broadcastInDim S2000x64 ![] bcast_S_S2000x64),
    TRef.binary (TRef.of (T := ⟨S2000x64, .f32⟩) main_v20) (TRef.of (T := ⟨S2000x64, .f32⟩) main_call1_v0) (TRef.of (T := ⟨S2000x64, .f32⟩) main_v21) maximumf ]
/-- The references the operations of L0a write. -/
abbrev L0a_W : List (Ref sig .tc) := [main_v0, main_v1, main_v2, main_v3, main_v4, main_v5, main_c, main_v6, main_v7, main_cst, main_call0_v0, main_call0_v1, main_v8, main_cst_0, main_v9, main_cst_1, main_v10, main_v11, main_v12, main_v13, main_v14, main_v15, main_cst_2, main_v16, main_v17, main_v18, main_v19, main_v20, main_call1_cst, main_call1_v0, main_v21]
theorem L0a_writes : (L0a : List (HloOp τ sig (Elt F))).Forall fun op => op.writes ⊆ (L0a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- L0a leaves alone every reference it does not write. -/
theorem L0a_keep (V : Valuation τ sig (Elt F)) {r : Ref sig .tc} (hr : r ∉ L0a_W) :
    after L0a V (Proc.devRef .tc r) = V (Proc.devRef .tc r) :=
  after_of_writes_sub L0a V L0a_writes hr

/-- Scale 0, second attention layer: operations 32 … 62 of the list (the values main_v22 … main_v43). -/
abbrev L0b : List (HloOp τ sig (Elt F)) :=
  [ binary main_v21 main_arg11 main_v22 ((fun l r => Host.dotGeneral dot_S2000x64_S64x3_S2000x3_1_0_0_1_n_n none l r) : (⟨S2000x64, .f32⟩ : BufTy).Contents (Elt F) → (⟨S64x3, .f32⟩ : BufTy).Contents (Elt F) → (⟨S2000x3, .f32⟩ : BufTy).Contents (Elt F)),
    unary main_arg12 main_v23 (broadcastInDim S1x3 ![1] bcast_S3_S1x3_1 : (⟨S3, .f32⟩ : BufTy).Contents (Elt F) → (⟨S1x3, .f32⟩ : BufTy).Contents (Elt F)),
    unary main_v23 main_v24 (broadcastInDim S2000x3 ![0, 1] bcast_S1x3_S2000x3_0_1 : (⟨S1x3, .f32⟩ : BufTy).Contents (Elt F) → (⟨S2000x3, .f32⟩ : BufTy).Contents (Elt F)),
    binary main_v22 main_v24 main_v25 (addf : (⟨S2000x3, .f32⟩ : BufTy).Contents (Elt F) → (⟨S2000x3, .f32⟩ : BufTy).Contents (Elt F) → (⟨S2000x3, .f32⟩ : BufTy).Contents (Elt F)),
    unary main_v25 main_v26 ((transpose S3x2000 [1, 0] · transposes_S2000x3_S3x2000_1_0) : (⟨S2000x3, .f32⟩ : BufTy).Contents (Elt F) → (⟨S3x2000, .f32⟩ : BufTy).Contents (Elt F)),
    binary main_v25 main_v26 main_v27 ((fun l r => Host.dotGeneral dot_S2000x3_S3x2000_S2000x2000_1_0_0_1_n_n none l r) : (⟨S2000x3, .f32⟩ : BufTy).Contents (Elt F) → (⟨S3x2000, .f32⟩ : BufTy).Contents (Elt F) → (⟨S2000x2000, .f32⟩ : BufTy).Contents (Elt F)),
    nullary main_c_3 (constantI S_ 32 0#32),
    unary main_c_3 main_v28 (broadcastInDim S2000x2000 ![] bcast_S_S2000x2000 : (⟨S_, .i32⟩ : BufTy).Contents (Elt F) → (⟨S2000x2000, .i32⟩ : BufTy).Contents (Elt F)),
    binary main_arg3 main_v28 main_v29 (cmpi .sgt : (⟨S2000x2000, .i32⟩ : BufTy).Contents (Elt F) → (⟨S2000x2000, .i32⟩ : BufTy).Contents (Elt F) → (⟨S2000x2000, .i1⟩ : BufTy).Contents (Elt F)),
    nullary main_cst_4 (constant S_ .f32 0xCE6E6B28#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S2000x2000, .f32⟩) main_call2_v1) (broadcastInDim S2000x2000 ![] bcast_S_S2000x2000),
    TRef.ternary (TRef.of (T := ⟨S2000x2000, .i1⟩) main_v29) (TRef.of (T := ⟨S2000x2000, .f32⟩) main_v27) (TRef.of (T := ⟨S2000x2000, .f32⟩) main_call2_v1) (TRef.of (T := ⟨S2000x2000, .f32⟩) main_v30) select,
    nullary main_cst_5 (constant S_ .f32 0xFF800000#32),
    binary main_v30 main_cst_5 main_v31 ((fun x v => Host.reduce FloatOps.maximumf x v reducesTo_S2000x2000_S2000_d1 h_S_) : (⟨S2000x2000, .f32⟩ : BufTy).Contents (Elt F) → (⟨S_, .f32⟩ : BufTy).Contents (Elt F) → (⟨S2000, .f32⟩ : BufTy).Contents (Elt F)),
    nullary main_cst_6 (constant S_ .f32 0xFF800000#32),
    unary main_cst_6 main_v32 (broadcastInDim S2000 ![] bcast_S_S2000 : (⟨S_, .f32⟩ : BufTy).Contents (Elt F) → (⟨S2000, .f32⟩ : BufTy).Contents (Elt F)),
    binary main_v32 main_v31 main_v33 (maximumf : (⟨S2000, .f32⟩ : BufTy).Contents (Elt F) → (⟨S2000, .f32⟩ : BufTy).Contents (Elt F) → (⟨S2000, .f32⟩ : BufTy).Contents (Elt F)),
    unary main_v33 main_v34 (broadcastInDim S2000x1 ![0] bcast_S2000_S2000x1_0 : (⟨S2000, .f32⟩ : BufTy).Contents (Elt F) → (⟨S2000x1, .f32⟩ : BufTy).Contents (Elt F)),
    unary main_v34 main_v35 (broadcastInDim S2000x2000 ![0, 1] bcast_S2000x1_S2000x2000_0_1 : (⟨S2000x1, .f32⟩ : BufTy).Contents (Elt F) → (⟨S2000x2000, .f32⟩ : BufTy).Contents (Elt F)),
    binary main_v30 main_v35 main_v36 (subf : (⟨S2000x2000, .f32⟩ : BufTy).Contents (Elt F) → (⟨S2000x2000, .f32⟩ : BufTy).Contents (Elt F) → (⟨S2000x2000, .f32⟩ : BufTy).Contents (Elt F)),
    unary main_v36 main_v37 (Host.exp : (⟨S2000x2000, .f32⟩ : BufTy).Contents (Elt F) → (⟨S2000x2000, .f32⟩ : BufTy).Contents (Elt F)),
    nullary main_cst_7 (constant S_ .f32 0x00000000#32),
    binary main_v37 main_cst_7 main_v38 ((fun x v => Host.reduceAdd x v reducesTo_S2000x2000_S2000_d1 h_S_) : (⟨S2000x2000, .f32⟩ : BufTy).Contents (Elt F) → (⟨S_, .f32⟩ : BufTy).Contents (Elt F) → (⟨S2000, .f32⟩ : BufTy).Contents (Elt F)),
    unary main_v38 main_v39 (broadcastInDim S2000x1 ![0] bcast_S2000_S2000x1_0 : (⟨S2000, .f32⟩ : BufTy).Contents (Elt F) → (⟨S2000x1, .f32⟩ : BufTy).Contents (Elt F)),
    unary main_v39 main_v40 (broadcastInDim S2000x2000 ![0, 1] bcast_S2000x1_S2000x2000_0_1 : (⟨S2000x1, .f32⟩ : BufTy).Contents (Elt F) → (⟨S2000x2000, .f32⟩ : BufTy).Contents (Elt F)),
    binary main_v37 main_v40 main_v41 (Host.divf : (⟨S2000x2000, .f32⟩ : BufTy).Contents (Elt F) → (⟨S2000x2000, .f32⟩ : BufTy).Contents (Elt F) → (⟨S2000x2000, .f32⟩ : BufTy).Contents (Elt F)),
    binary main_v41 main_v25 main_v42 ((fun l r => Host.dotGeneral dot_S2000x2000_S2000x3_S2000x3_1_0_0_1_n_n none l r) : (⟨S2000x2000, .f32⟩ : BufTy).Contents (Elt F) → (⟨S2000x3, .f32⟩ : BufTy).Contents (Elt F) → (⟨S2000x3, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S2000x3, .f32⟩) main_call3_v0) (broadcastInDim S2000x3 ![] bcast_S_S2000x3),
    TRef.binary (TRef.of (T := ⟨S2000x3, .f32⟩) main_v42) (TRef.of (T := ⟨S2000x3, .f32⟩) main_call3_v0) (TRef.of (T := ⟨S2000x3, .f32⟩) main_v43) maximumf ]
/-- The references the operations of L0b write. -/
abbrev L0b_W : List (Ref sig .tc) := [main_v22, main_v23, main_v24, main_v25, main_v26, main_v27, main_c_3, main_v28, main_v29, main_cst_4, main_call2_v0, main_call2_v1, main_v30, main_cst_5, main_v31, main_cst_6, main_v32, main_v33, main_v34, main_v35, main_v36, main_v37, main_cst_7, main_v38, main_v39, main_v40, main_v41, main_v42, main_call3_cst, main_call3_v0, main_v43]
theorem L0b_writes : (L0b : List (HloOp τ sig (Elt F))).Forall fun op => op.writes ⊆ (L0b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- L0b leaves alone every reference it does not write. -/
theorem L0b_keep (V : Valuation τ sig (Elt F)) {r : Ref sig .tc} (hr : r ∉ L0b_W) :
    after L0b V (Proc.devRef .tc r) = V (Proc.devRef .tc r) :=
  after_of_writes_sub L0b V L0b_writes hr

/-- Scale 0, the tail: rectifier, softmax over the classes, the gathered map: operations 63 … 88 of the list (the values main_call4_cst … main_v62). -/
abbrev T0 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S2000x3, .f32⟩) main_call4_v0) (broadcastInDim S2000x3 ![] bcast_S_S2000x3),
    TRef.binary (TRef.of (T := ⟨S2000x3, .f32⟩) main_v43) (TRef.of (T := ⟨S2000x3, .f32⟩) main_call4_v0) (TRef.of (T := ⟨S2000x3, .f32⟩) main_v44) maximumf,
    nullary main_cst_8 (constant S_ .f32 0xFF800000#32),
    binary main_v44 main_cst_8 main_v45 ((fun x v => Host.reduce FloatOps.maximumf x v reducesTo_S2000x3_S2000_d1 h_S_) : (⟨S2000x3, .f32⟩ : BufTy).Contents (Elt F) → (⟨S_, .f32⟩ : BufTy).Contents (Elt F) → (⟨S2000, .f32⟩ : BufTy).Contents (Elt F)),
    nullary main_cst_9 (constant S_ .f32 0xFF800000#32),
    unary main_cst_9 main_v46 (broadcastInDim S2000 ![] bcast_S_S2000 : (⟨S_, .f32⟩ : BufTy).Contents (Elt F) → (⟨S2000, .f32⟩ : BufTy).Contents (Elt F)),
    binary main_v46 main_v45 main_v47 (maximumf : (⟨S2000, .f32⟩ : BufTy).Contents (Elt F) → (⟨S2000, .f32⟩ : BufTy).Contents (Elt F) → (⟨S2000, .f32⟩ : BufTy).Contents (Elt F)),
    unary main_v47 main_v48 (broadcastInDim S2000x1 ![0] bcast_S2000_S2000x1_0 : (⟨S2000, .f32⟩ : BufTy).Contents (Elt F) → (⟨S2000x1, .f32⟩ : BufTy).Contents (Elt F)),
    unary main_v48 main_v49 (broadcastInDim S2000x3 ![0, 1] bcast_S2000x1_S2000x3_0_1 : (⟨S2000x1, .f32⟩ : BufTy).Contents (Elt F) → (⟨S2000x3, .f32⟩ : BufTy).Contents (Elt F)),
    binary main_v44 main_v49 main_v50 (subf : (⟨S2000x3, .f32⟩ : BufTy).Contents (Elt F) → (⟨S2000x3, .f32⟩ : BufTy).Contents (Elt F) → (⟨S2000x3, .f32⟩ : BufTy).Contents (Elt F)),
    unary main_v50 main_v51 (Host.exp : (⟨S2000x3, .f32⟩ : BufTy).Contents (Elt F) → (⟨S2000x3, .f32⟩ : BufTy).Contents (Elt F)),
    nullary main_cst_10 (constant S_ .f32 0x00000000#32),
    binary main_v51 main_cst_10 main_v52 ((fun x v => Host.reduceAdd x v reducesTo_S2000x3_S2000_d1 h_S_) : (⟨S2000x3, .f32⟩ : BufTy).Contents (Elt F) → (⟨S_, .f32⟩ : BufTy).Contents (Elt F) → (⟨S2000, .f32⟩ : BufTy).Contents (Elt F)),
    unary main_v52 main_v53 (broadcastInDim S2000x1 ![0] bcast_S2000_S2000x1_0 : (⟨S2000, .f32⟩ : BufTy).Contents (Elt F) → (⟨S2000x1, .f32⟩ : BufTy).Contents (Elt F)),
    unary main_v53 main_v54 (broadcastInDim S2000x3 ![0, 1] bcast_S2000x1_S2000x3_0_1 : (⟨S2000x1, .f32⟩ : BufTy).Contents (Elt F) → (⟨S2000x3, .f32⟩ : BufTy).Contents (Elt F)),
    binary main_v51 main_v54 main_v55 (Host.divf : (⟨S2000x3, .f32⟩ : BufTy).Contents (Elt F) → (⟨S2000x3, .f32⟩ : BufTy).Contents (Elt F) → (⟨S2000x3, .f32⟩ : BufTy).Contents (Elt F)),
    nullary main_c_11 (constantI S_ 32 0#32),
    unary main_c_11 main_v56 (broadcastInDim S1024x1024 ![] bcast_S_S1024x1024 : (⟨S_, .i32⟩ : BufTy).Contents (Elt F) → (⟨S1024x1024, .i32⟩ : BufTy).Contents (Elt F)),
    binary main_arg6 main_v56 main_v57 (cmpi .slt : (⟨S1024x1024, .i32⟩ : BufTy).Contents (Elt F) → (⟨S1024x1024, .i32⟩ : BufTy).Contents (Elt F) → (⟨S1024x1024, .i1⟩ : BufTy).Contents (Elt F)),
    nullary main_c_12 (constantI S_ 32 2000#32),
    unary main_c_12 main_v58 (broadcastInDim S1024x1024 ![] bcast_S_S1024x1024 : (⟨S_, .i32⟩ : BufTy).Contents (Elt F) → (⟨S1024x1024, .i32⟩ : BufTy).Contents (Elt F)),
    binary main_arg6 main_v58 main_v59 (addi : (⟨S1024x1024, .i32⟩ : BufTy).Contents (Elt F) → (⟨S1024x1024, .i32⟩ : BufTy).Contents (Elt F) → (⟨S1024x1024, .i32⟩ : BufTy).Contents (Elt F)),
    ternary main_v57 main_v59 main_arg6 main_v60 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    unary main_v60 main_v61 (broadcastInDim S1024x1024x1 ![0, 1] bcast_S1024x1024_S1024x1024x1_0_1 : (⟨S1024x1024, .i32⟩ : BufTy).Contents (Elt F) → (⟨S1024x1024x1, .i32⟩ : BufTy).Contents (Elt F)),
    binary main_v55 main_v61 main_v62 ((fun x i => Host.gather gather_S2000x3_S1024x1024x1_S1024x1024x3_2_0_n_n_0_2_13 x i) : (⟨S2000x3, .f32⟩ : BufTy).Contents (Elt F) → (⟨S1024x1024x1, .i32⟩ : BufTy).Contents (Elt F) → (⟨S1024x1024x3, .f32⟩ : BufTy).Contents (Elt F)) ]
/-- The references the operations of T0 write. -/
abbrev T0_W : List (Ref sig .tc) := [main_call4_cst, main_call4_v0, main_v44, main_cst_8, main_v45, main_cst_9, main_v46, main_v47, main_v48, main_v49, main_v50, main_v51, main_cst_10, main_v52, main_v53, main_v54, main_v55, main_c_11, main_v56, main_v57, main_c_12, main_v58, main_v59, main_v60, main_v61, main_v62]
theorem T0_writes : (T0 : List (HloOp τ sig (Elt F))).Forall fun op => op.writes ⊆ (T0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- T0 leaves alone every reference it does not write. -/
theorem T0_keep (V : Valuation τ sig (Elt F)) {r : Ref sig .tc} (hr : r ∉ T0_W) :
    after T0 V (Proc.devRef .tc r) = V (Proc.devRef .tc r) :=
  after_of_writes_sub T0 V T0_writes hr

/-- Scale 1, first attention layer: operations 89 … 119 of the list (the values main_v63 … main_v84). -/
abbrev L1a : List (HloOp τ sig (Elt F)) :=
  [ binary main_arg1 main_arg13 main_v63 ((fun l r => Host.dotGeneral dot_S1000x156_S156x64_S1000x64_1_0_0_1_n_n none l r) : (⟨S1000x156, .f32⟩ : BufTy).Contents (Elt F) → (⟨S156x64, .f32⟩ : BufTy).Contents (Elt F) → (⟨S1000x64, .f32⟩ : BufTy).Contents (Elt F)),
    unary main_arg14 main_v64 (broadcastInDim S1x64 ![1] bcast_S64_S1x64_1 : (⟨S64, .f32⟩ : BufTy).Contents (Elt F) → (⟨S1x64, .f32⟩ : BufTy).Contents (Elt F)),
    unary main_v64 main_v65 (broadcastInDim S1000x64 ![0, 1] bcast_S1x64_S1000x64_0_1 : (⟨S1x64, .f32⟩ : BufTy).Contents (Elt F) → (⟨S1000x64, .f32⟩ : BufTy).Contents (Elt F)),
    binary main_v63 main_v65 main_v66 (addf : (⟨S1000x64, .f32⟩ : BufTy).Contents (Elt F) → (⟨S1000x64, .f32⟩ : BufTy).Contents (Elt F) → (⟨S1000x64, .f32⟩ : BufTy).Contents (Elt F)),
    unary main_v66 main_v67 ((transpose S64x1000 [1, 0] · transposes_S1000x64_S64x1000_1_0) : (⟨S1000x64, .f32⟩ : BufTy).Contents (Elt F) → (⟨S64x1000, .f32⟩ : BufTy).Contents (Elt F)),
    binary main_v66 main_v67 main_v68 ((fun l r => Host.dotGeneral dot_S1000x64_S64x1000_S1000x1000_1_0_0_1_n_n none l r) : (⟨S1000x64, .f32⟩ : BufTy).Contents (Elt F) → (⟨S64x1000, .f32⟩ : BufTy).Contents (Elt F) → (⟨S1000x1000, .f32⟩ : BufTy).Contents (Elt F)),
    nullary main_c_13 (constantI S_ 32 0#32),
    unary main_c_13 main_v69 (broadcastInDim S1000x1000 ![] bcast_S_S1000x1000 : (⟨S_, .i32⟩ : BufTy).Contents (Elt F) → (⟨S1000x1000, .i32⟩ : BufTy).Contents (Elt F)),
    binary main_arg4 main_v69 main_v70 (cmpi .sgt : (⟨S1000x1000, .i32⟩ : BufTy).Contents (Elt F) → (⟨S1000x1000, .i32⟩ : BufTy).Contents (Elt F) → (⟨S1000x1000, .i1⟩ : BufTy).Contents (Elt F)),
    nullary main_cst_14 (constant S_ .f32 0xCE6E6B28#32),
    TRef.unary (TRef.of (T := ⟨S_, .f32⟩) main_cst_14) (TRef.of (T := ⟨S_, .f32⟩) main_call5_v0) id,
    TRef.unary (TRef.of (T := ⟨S_, .f32⟩) main_call5_v0) (TRef.of (T := ⟨S1000x1000, .f32⟩) main_call5_v1) (broadcastInDim S1000x1000 ![] bcast_S_S1000x1000),
    TRef.ternary (TRef.of (T := ⟨S1000x1000, .i1⟩) main_v70) (TRef.of (T := ⟨S1000x1000, .f32⟩) main_v68) (TRef.of (T := ⟨S1000x1000, .f32⟩) main_call5_v1) (TRef.of (T := ⟨S1000x1000, .f32⟩) main_v71) select,
    nullary main_cst_15 (constant S_ .f32 0xFF800000#32),
    binary main_v71 main_cst_15 main_v72 ((fun x v => Host.reduce FloatOps.maximumf x v reducesTo_S1000x1000_S1000_d1 h_S_) : (⟨S1000x1000, .f32⟩ : BufTy).Contents (Elt F) → (⟨S_, .f32⟩ : BufTy).Contents (Elt F) → (⟨S1000, .f32⟩ : BufTy).Contents (Elt F)),
    nullary main_cst_16 (constant S_ .f32 0xFF800000#32),
    unary main_cst_16 main_v73 (broadcastInDim S1000 ![] bcast_S_S1000 : (⟨S_, .f32⟩ : BufTy).Contents (Elt F) → (⟨S1000, .f32⟩ : BufTy).Contents (Elt F)),
    binary main_v73 main_v72 main_v74 (maximumf : (⟨S1000, .f32⟩ : BufTy).Contents (Elt F) → (⟨S1000, .f32⟩ : BufTy).Contents (Elt F) → (⟨S1000, .f32⟩ : BufTy).Contents (Elt F)),
    unary main_v74 main_v75 (broadcastInDim S1000x1 ![0] bcast_S1000_S1000x1_0 : (⟨S1000, .f32⟩ : BufTy).Contents (Elt F) → (⟨S1000x1, .f32⟩ : BufTy).Contents (Elt F)),
    unary main_v75 main_v76 (broadcastInDim S1000x1000 ![0, 1] bcast_S1000x1_S1000x1000_0_1 : (⟨S1000x1, .f32⟩ : BufTy).Contents (Elt F) → (⟨S1000x1000, .f32⟩ : BufTy).Contents (Elt F)),
    binary main_v71 main_v76 main_v77 (subf : (⟨S1000x1000, .f32⟩ : BufTy).Contents (Elt F) → (⟨S1000x1000, .f32⟩ : BufTy).Contents (Elt F) → (⟨S1000x1000, .f32⟩ : BufTy).Contents (Elt F)),
    unary main_v77 main_v78 (Host.exp : (⟨S1000x1000, .f32⟩ : BufTy).Contents (Elt F) → (⟨S1000x1000, .f32⟩ : BufTy).Contents (Elt F)),
    nullary main_cst_17 (constant S_ .f32 0x00000000#32),
    binary main_v78 main_cst_17 main_v79 ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F)),
    unary main_v79 main_v80 (broadcastInDim S1000x1 ![0] bcast_S1000_S1000x1_0 : (⟨S1000, .f32⟩ : BufTy).Contents (Elt F) → (⟨S1000x1, .f32⟩ : BufTy).Contents (Elt F)),
    unary main_v80 main_v81 (broadcastInDim S1000x1000 ![0, 1] bcast_S1000x1_S1000x1000_0_1 : (⟨S1000x1, .f32⟩ : BufTy).Contents (Elt F) → (⟨S1000x1000, .f32⟩ : BufTy).Contents (Elt F)),
    binary main_v78 main_v81 main_v82 (Host.divf : (⟨S1000x1000, .f32⟩ : BufTy).Contents (Elt F) → (⟨S1000x1000, .f32⟩ : BufTy).Contents (Elt F) → (⟨S1000x1000, .f32⟩ : BufTy).Contents (Elt F)),
    binary main_v82 main_v66 main_v83 ((fun l r => Host.dotGeneral dot_S1000x1000_S1000x64_S1000x64_1_0_0_1_n_n none l r) : (⟨S1000x1000, .f32⟩ : BufTy).Contents (Elt F) → (⟨S1000x64, .f32⟩ : BufTy).Contents (Elt F) → (⟨S1000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1000x64, .f32⟩) main_call6_v0) (broadcastInDim S1000x64 ![] bcast_S_S1000x64),
    TRef.binary (TRef.of (T := ⟨S1000x64, .f32⟩) main_v83) (TRef.of (T := ⟨S1000x64, .f32⟩) main_call6_v0) (TRef.of (T := ⟨S1000x64, .f32⟩) main_v84) maximumf ]
/-- The references the operations of L1a write. -/
abbrev L1a_W : List (Ref sig .tc) := [main_v63, main_v64, main_v65, main_v66, main_v67, main_v68, main_c_13, main_v69, main_v70, main_cst_14, main_call5_v0, main_call5_v1, main_v71, main_cst_15, main_v72, main_cst_16, main_v73, main_v74, main_v75, main_v76, main_v77, main_v78, main_cst_17, main_v79, main_v80, main_v81, main_v82, main_v83, main_call6_cst, main_call6_v0, main_v84]
theorem L1a_writes : (L1a : List (HloOp τ sig (Elt F))).Forall fun op => op.writes ⊆ (L1a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- L1a leaves alone every reference it does not write. -/
theorem L1a_keep (V : Valuation τ sig (Elt F)) {r : Ref sig .tc} (hr : r ∉ L1a_W) :
    after L1a V (Proc.devRef .tc r) = V (Proc.devRef .tc r) :=
  after_of_writes_sub L1a V L1a_writes hr

/-- Scale 1, second attention layer: operations 120 … 150 of the list (the values main_v85 … main_v106). -/
abbrev L1b : List (HloOp τ sig (Elt F)) :=
  [ binary main_v84 main_arg15 main_v85 ((fun l r => Host.dotGeneral dot_S1000x64_S64x3_S1000x3_1_0_0_1_n_n none l r) : (⟨S1000x64, .f32⟩ : BufTy).Contents (Elt F) → (⟨S64x3, .f32⟩ : BufTy).Contents (Elt F) → (⟨S1000x3, .f32⟩ : BufTy).Contents (Elt F)),
    unary main_arg16 main_v86 (broadcastInDim S1x3 ![1] bcast_S3_S1x3_1 : (⟨S3, .f32⟩ : BufTy).Contents (Elt F) → (⟨S1x3, .f32⟩ : BufTy).Contents (Elt F)),
    unary main_v86 main_v87 (broadcastInDim S1000x3 ![0, 1] bcast_S1x3_S1000x3_0_1 : (⟨S1x3, .f32⟩ : BufTy).Contents (Elt F) → (⟨S1000x3, .f32⟩ : BufTy).Contents (Elt F)),
    binary main_v85 main_v87 main_v88 (addf : (⟨S1000x3, .f32⟩ : BufTy).Contents (Elt F) → (⟨S1000x3, .f32⟩ : BufTy).Contents (Elt F) → (⟨S1000x3, .f32⟩ : BufTy).Contents (Elt F)),
    unary main_v88 main_v89 ((transpose S3x1000 [1, 0] · transposes_S1000x3_S3x1000_1_0) : (⟨S1000x3, .f32⟩ : BufTy).Contents (Elt F) → (⟨S3x1000, .f32⟩ : BufTy).Contents (Elt F)),
    binary main_v88 main_v89 main_v90 ((fun l r => Host.dotGeneral dot_S1000x3_S3x1000_S1000x1000_1_0_0_1_n_n none l r) : (⟨S1000x3, .f32⟩ : BufTy).Contents (Elt F) → (⟨S3x1000, .f32⟩ : BufTy).Contents (Elt F) → (⟨S1000x1000, .f32⟩ : BufTy).Contents (Elt F)),
    nullary main_c_18 (constantI S_ 32 0#32),
    unary main_c_18 main_v91 (broadcastInDim S1000x1000 ![] bcast_S_S1000x1000 : (⟨S_, .i32⟩ : BufTy).Contents (Elt F) → (⟨S1000x1000, .i32⟩ : BufTy).Contents (Elt F)),
    binary main_arg4 main_v91 main_v92 (cmpi .sgt : (⟨S1000x1000, .i32⟩ : BufTy).Contents (Elt F) → (⟨S1000x1000, .i32⟩ : BufTy).Contents (Elt F) → (⟨S1000x1000, .i1⟩ : BufTy).Contents (Elt F)),
    nullary main_cst_19 (constant S_ .f32 0xCE6E6B28#32),
    TRef.unary (TRef.of (T := ⟨S_, .f32⟩) main_cst_19) (TRef.of (T := ⟨S_, .f32⟩) main_call7_v0) id,
    TRef.unary (TRef.of (T := ⟨S_, .f32⟩) main_call7_v0) (TRef.of (T := ⟨S1000x1000, .f32⟩) main_call7_v1) (broadcastInDim S1000x1000 ![] bcast_S_S1000x1000),
    TRef.ternary (TRef.of (T := ⟨S1000x1000, .i1⟩) main_v92) (TRef.of (T := ⟨S1000x1000, .f32⟩) main_v90) (TRef.of (T := ⟨S1000x1000, .f32⟩) main_call7_v1) (TRef.of (T := ⟨S1000x1000, .f32⟩) main_v93) select,
    nullary main_cst_20 (constant S_ .f32 0xFF800000#32),
    binary main_v93 main_cst_20 main_v94 ((fun x v => Host.reduce FloatOps.maximumf x v reducesTo_S1000x1000_S1000_d1 h_S_) : (⟨S1000x1000, .f32⟩ : BufTy).Contents (Elt F) → (⟨S_, .f32⟩ : BufTy).Contents (Elt F) → (⟨S1000, .f32⟩ : BufTy).Contents (Elt F)),
    nullary main_cst_21 (constant S_ .f32 0xFF800000#32),
    unary main_cst_21 main_v95 (broadcastInDim S1000 ![] bcast_S_S1000 : (⟨S_, .f32⟩ : BufTy).Contents (Elt F) → (⟨S1000, .f32⟩ : BufTy).Contents (Elt F)),
    binary main_v95 main_v94 main_v96 (maximumf : (⟨S1000, .f32⟩ : BufTy).Contents (Elt F) → (⟨S1000, .f32⟩ : BufTy).Contents (Elt F) → (⟨S1000, .f32⟩ : BufTy).Contents (Elt F)),
    unary main_v96 main_v97 (broadcastInDim S1000x1 ![0] bcast_S1000_S1000x1_0 : (⟨S1000, .f32⟩ : BufTy).Contents (Elt F) → (⟨S1000x1, .f32⟩ : BufTy).Contents (Elt F)),
    unary main_v97 main_v98 (broadcastInDim S1000x1000 ![0, 1] bcast_S1000x1_S1000x1000_0_1 : (⟨S1000x1, .f32⟩ : BufTy).Contents (Elt F) → (⟨S1000x1000, .f32⟩ : BufTy).Contents (Elt F)),
    binary main_v93 main_v98 main_v99 (subf : (⟨S1000x1000, .f32⟩ : BufTy).Contents (Elt F) → (⟨S1000x1000, .f32⟩ : BufTy).Contents (Elt F) → (⟨S1000x1000, .f32⟩ : BufTy).Contents (Elt F)),
    unary main_v99 main_v100 (Host.exp : (⟨S1000x1000, .f32⟩ : BufTy).Contents (Elt F) → (⟨S1000x1000, .f32⟩ : BufTy).Contents (Elt F)),
    nullary main_cst_22 (constant S_ .f32 0x00000000#32),
    binary main_v100 main_cst_22 main_v101 ((fun x v => Host.reduceAdd x v reducesTo_S1000x1000_S1000_d1 h_S_) : (⟨S1000x1000, .f32⟩ : BufTy).Contents (Elt F) → (⟨S_, .f32⟩ : BufTy).Contents (Elt F) → (⟨S1000, .f32⟩ : BufTy).Contents (Elt F)),
    unary main_v101 main_v102 (broadcastInDim S1000x1 ![0] bcast_S1000_S1000x1_0 : (⟨S1000, .f32⟩ : BufTy).Contents (Elt F) → (⟨S1000x1, .f32⟩ : BufTy).Contents (Elt F)),
    unary main_v102 main_v103 (broadcastInDim S1000x1000 ![0, 1] bcast_S1000x1_S1000x1000_0_1 : (⟨S1000x1, .f32⟩ : BufTy).Contents (Elt F) → (⟨S1000x1000, .f32⟩ : BufTy).Contents (Elt F)),
    binary main_v100 main_v103 main_v104 (Host.divf : (⟨S1000x1000, .f32⟩ : BufTy).Contents (Elt F) → (⟨S1000x1000, .f32⟩ : BufTy).Contents (Elt F) → (⟨S1000x1000, .f32⟩ : BufTy).Contents (Elt F)),
    binary main_v104 main_v88 main_v105 ((fun l r => Host.dotGeneral dot_S1000x1000_S1000x3_S1000x3_1_0_0_1_n_n none l r) : (⟨S1000x1000, .f32⟩ : BufTy).Contents (Elt F) → (⟨S1000x3, .f32⟩ : BufTy).Contents (Elt F) → (⟨S1000x3, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S1000x3, .f32⟩) main_call8_v0) (broadcastInDim S1000x3 ![] bcast_S_S1000x3),
    TRef.binary (TRef.of (T := ⟨S1000x3, .f32⟩) main_v105) (TRef.of (T := ⟨S1000x3, .f32⟩) main_call8_v0) (TRef.of (T := ⟨S1000x3, .f32⟩) main_v106) maximumf ]
/-- The references the operations of L1b write. -/
abbrev L1b_W : List (Ref sig .tc) := [main_v85, main_v86, main_v87, main_v88, main_v89, main_v90, main_c_18, main_v91, main_v92, main_cst_19, main_call7_v0, main_call7_v1, main_v93, main_cst_20, main_v94, main_cst_21, main_v95, main_v96, main_v97, main_v98, main_v99, main_v100, main_cst_22, main_v101, main_v102, main_v103, main_v104, main_v105, main_call8_cst, main_call8_v0, main_v106]
theorem L1b_writes : (L1b : List (HloOp τ sig (Elt F))).Forall fun op => op.writes ⊆ (L1b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- L1b leaves alone every reference it does not write. -/
theorem L1b_keep (V : Valuation τ sig (Elt F)) {r : Ref sig .tc} (hr : r ∉ L1b_W) :
    after L1b V (Proc.devRef .tc r) = V (Proc.devRef .tc r) :=
  after_of_writes_sub L1b V L1b_writes hr

/-- Scale 1, the tail: operations 151 … 176 of the list (the values main_call9_cst … main_v125). -/
abbrev T1 : List (HloOp τ sig (Elt F)) :=
  [ TRef.nullary (TRef.of (T := ⟨S_, .f32⟩) main_call9_cst) (constant S_ .f32 0x00000000#32),
    TRef.unary (TRef.of (T := ⟨S_, .f32⟩) main_call9_cst) (TRef.of (T := ⟨S1000x3, .f32⟩) main_call9_v0) (broadcastInDim S1000x3 ![] bcast_S_S1000x3),
    TRef.binary (TRef.of (T := ⟨S1000x3, .f32⟩) main_v106) (TRef.of (T := ⟨S1000x3, .f32⟩) main_call9_v0) (TRef.of (T := ⟨S1000x3, .f32⟩) main_v107) maximumf,
    nullary main_cst_23 (constant S_ .f32 0xFF800000#32),
    binary main_v107 main_cst_23 main_v108 ((fun x v => Host.reduce FloatOps.maximumf x v reducesTo_S1000x3_S1000_d1 h_S_) : (⟨S1000x3, .f32⟩ : BufTy).Contents (Elt F) → (⟨S_, .f32⟩ : BufTy).Contents (Elt F) → (⟨S1000, .f32⟩ : BufTy).Contents (Elt F)),
    nullary main_cst_24 (constant S_ .f32 0xFF800000#32),
    unary main_cst_24 main_v109 (broadcastInDim S1000 ![] bcast_S_S1000 : (⟨S_, .f32⟩ : BufTy).Contents (Elt F) → (⟨S1000, .f32⟩ : BufTy).Contents (Elt F)),
    binary main_v109 main_v108 main_v110 (maximumf : (⟨S1000, .f32⟩ : BufTy).Contents (Elt F) → (⟨S1000, .f32⟩ : BufTy).Contents (Elt F) → (⟨S1000, .f32⟩ : BufTy).Contents (Elt F)),
    unary main_v110 main_v111 (broadcastInDim S1000x1 ![0] bcast_S1000_S1000x1_0 : (⟨S1000, .f32⟩ : BufTy).Contents (Elt F) → (⟨S1000x1, .f32⟩ : BufTy).Contents (Elt F)),
    unary main_v111 main_v112 (broadcastInDim S1000x3 ![0, 1] bcast_S1000x1_S1000x3_0_1 : (⟨S1000x1, .f32⟩ : BufTy).Contents (Elt F) → (⟨S1000x3, .f32⟩ : BufTy).Contents (Elt F)),
    binary main_v107 main_v112 main_v113 (subf : (⟨S1000x3, .f32⟩ : BufTy).Contents (Elt F) → (⟨S1000x3, .f32⟩ : BufTy).Contents (Elt F) → (⟨S1000x3, .f32⟩ : BufTy).Contents (Elt F)),
    unary main_v113 main_v114 (Host.exp : (⟨S1000x3, .f32⟩ : BufTy).Contents (Elt F) → (⟨S1000x3, .f32⟩ : BufTy).Contents (Elt F)),
    nullary main_cst_25 (constant S_ .f32 0x00000000#32),
    binary main_v114 main_cst_25 main_v115 ((fun x v => Host.reduceAdd x v reducesTo_S1000x3_S1000_d1 h_S_) : (⟨S1000x3, .f32⟩ : BufTy).Contents (Elt F) → (⟨S_, .f32⟩ : BufTy).Contents (Elt F) → (⟨S1000, .f32⟩ : BufTy).Contents (Elt F)),
    unary main_v115 main_v116 (broadcastInDim S1000x1 ![0] bcast_S1000_S1000x1_0 : (⟨S1000, .f32⟩ : BufTy).Contents (Elt F) → (⟨S1000x1, .f32⟩ : BufTy).Contents (Elt F)),
    unary main_v116 main_v117 (broadcastInDim S1000x3 ![0, 1] bcast_S1000x1_S1000x3_0_1 : (⟨S1000x1, .f32⟩ : BufTy).Contents (Elt F) → (⟨S1000x3, .f32⟩ : BufTy).Contents (Elt F)),
    binary main_v114 main_v117 main_v118 (Host.divf : (⟨S1000x3, .f32⟩ : BufTy).Contents (Elt F) → (⟨S1000x3, .f32⟩ : BufTy).Contents (Elt F) → (⟨S1000x3, .f32⟩ : BufTy).Contents (Elt F)),
    nullary main_c_26 (constantI S_ 32 0#32),
    unary main_c_26 main_v119 (broadcastInDim S1024x1024 ![] bcast_S_S1024x1024 : (⟨S_, .i32⟩ : BufTy).Contents (Elt F) → (⟨S1024x1024, .i32⟩ : BufTy).Contents (Elt F)),
    binary main_arg7 main_v119 main_v120 (cmpi .slt : (⟨S1024x1024, .i32⟩ : BufTy).Contents (Elt F) → (⟨S1024x1024, .i32⟩ : BufTy).Contents (Elt F) → (⟨S1024x1024, .i1⟩ : BufTy).Contents (Elt F)),
    nullary main_c_27 (constantI S_ 32 1000#32),
    unary main_c_27 main_v121 (broadcastInDim S1024x1024 ![] bcast_S_S1024x1024 : (⟨S_, .i32⟩ : BufTy).Contents (Elt F) → (⟨S1024x1024, .i32⟩ : BufTy).Contents (Elt F)),
    binary main_arg7 main_v121 main_v122 (addi : (⟨S1024x1024, .i32⟩ : BufTy).Contents (Elt F) → (⟨S1024x1024, .i32⟩ : BufTy).Contents (Elt F) → (⟨S1024x1024, .i32⟩ : BufTy).Contents (Elt F)),
    ternary main_v120 main_v122 main_arg7 main_v123 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    unary main_v123 main_v124 (broadcastInDim S1024x1024x1 ![0, 1] bcast_S1024x1024_S1024x1024x1_0_1 : (⟨S1024x1024, .i32⟩ : BufTy).Contents (Elt F) → (⟨S1024x1024x1, .i32⟩ : BufTy).Contents (Elt F)),
    binary main_v118 main_v124 main_v125 ((fun x i => Host.gather gather_S1000x3_S1024x1024x1_S1024x1024x3_2_0_n_n_0_2_13 x i) : (⟨S1000x3, .f32⟩ : BufTy).Contents (Elt F) → (⟨S1024x1024x1, .i32⟩ : BufTy).Contents (Elt F) → (⟨S1024x1024x3, .f32⟩ : BufTy).Contents (Elt F)) ]
/-- The references the operations of T1 write. -/
abbrev T1_W : List (Ref sig .tc) := [main_call9_cst, main_call9_v0, main_v107, main_cst_23, main_v108, main_cst_24, main_v109, main_v110, main_v111, main_v112, main_v113, main_v114, main_cst_25, main_v115, main_v116, main_v117, main_v118, main_c_26, main_v119, main_v120, main_c_27, main_v121, main_v122, main_v123, main_v124, main_v125]
theorem T1_writes : (T1 : List (HloOp τ sig (Elt F))).Forall fun op => op.writes ⊆ (T1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- T1 leaves alone every reference it does not write. -/
theorem T1_keep (V : Valuation τ sig (Elt F)) {r : Ref sig .tc} (hr : r ∉ T1_W) :
    after T1 V (Proc.devRef .tc r) = V (Proc.devRef .tc r) :=
  after_of_writes_sub T1 V T1_writes hr

/-- Scale 2, first attention layer: operations 177 … 207 of the list (the values main_v126 … main_v147). -/
abbrev L2a : List (HloOp τ sig (Elt F)) :=
  [ binary main_arg2 main_arg17 main_v126 ((fun l r => Host.dotGeneral dot_S500x156_S156x64_S500x64_1_0_0_1_n_n none l r) : (⟨S500x156, .f32⟩ : BufTy).Contents (Elt F) → (⟨S156x64, .f32⟩ : BufTy).Contents (Elt F) → (⟨S500x64, .f32⟩ : BufTy).Contents (Elt F)),
    unary main_arg18 main_v127 (broadcastInDim S1x64 ![1] bcast_S64_S1x64_1 : (⟨S64, .f32⟩ : BufTy).Contents (Elt F) → (⟨S1x64, .f32⟩ : BufTy).Contents (Elt F)),
    unary main_v127 main_v128 (broadcastInDim S500x64 ![0, 1] bcast_S1x64_S500x64_0_1 : (⟨S1x64, .f32⟩ : BufTy).Contents (Elt F) → (⟨S500x64, .f32⟩ : BufTy).Contents (Elt F)),
    binary main_v126 main_v128 main_v129 (addf : (⟨S500x64, .f32⟩ : BufTy).Contents (Elt F) → (⟨S500x64, .f32⟩ : BufTy).Contents (Elt F) → (⟨S500x64, .f32⟩ : BufTy).Contents (Elt F)),
    unary main_v129 main_v130 ((transpose S64x500 [1, 0] · transposes_S500x64_S64x500_1_0) : (⟨S500x64, .f32⟩ : BufTy).Contents (Elt F) → (⟨S64x500, .f32⟩ : BufTy).Contents (Elt F)),
    binary main_v129 main_v130 main_v131 ((fun l r => Host.dotGeneral dot_S500x64_S64x500_S500x500_1_0_0_1_n_n none l r) : (⟨S500x64, .f32⟩ : BufTy).Contents (Elt F) → (⟨S64x500, .f32⟩ : BufTy).Contents (Elt F) → (⟨S500x500, .f32⟩ : BufTy).Contents (Elt F)),
    nullary main_c_28 (constantI S_ 32 0#32),
    unary main_c_28 main_v132 (broadcastInDim S500x500 ![] bcast_S_S500x500 : (⟨S_, .i32⟩ : BufTy).Contents (Elt F) → (⟨S500x500, .i32⟩ : BufTy).Contents (Elt F)),
    binary main_arg5 main_v132 main_v133 (cmpi .sgt : (⟨S500x500, .i32⟩ : BufTy).Contents (Elt F) → (⟨S500x500, .i32⟩ : BufTy).Contents (Elt F) → (⟨S500x500, .i1⟩ : BufTy).Contents (Elt F)),
    nullary main_cst_29 (constant S_ .f32 0xCE6E6B28#32),
    TRef.unary (TRef.of (T := ⟨S_, .f32⟩) main_cst_29) (TRef.of (T := ⟨S_, .f32⟩) main_call10_v0) id,
    TRef.unary (TRef.of (T := ⟨S_, .f32⟩) main_call10_v0) (TRef.of (T := ⟨S500x500, .f32⟩) main_call10_v1) (broadcastInDim S500x500 ![] bcast_S_S500x500),
    TRef.ternary (TRef.of (T := ⟨S500x500, .i1⟩) main_v133) (TRef.of (T := ⟨S500x500, .f32⟩) main_v131) (TRef.of (T := ⟨S500x500, .f32⟩) main_call10_v1) (TRef.of (T := ⟨S500x500, .f32⟩) main_v134) select,
    nullary main_cst_30 (constant S_ .f32 0xFF800000#32),
    binary main_v134 main_cst_30 main_v135 ((fun x v => Host.reduce FloatOps.maximumf x v reducesTo_S500x500_S500_d1 h_S_) : (⟨S500x500, .f32⟩ : BufTy).Contents (Elt F) → (⟨S_, .f32⟩ : BufTy).Contents (Elt F) → (⟨S500, .f32⟩ : BufTy).Contents (Elt F)),
    nullary main_cst_31 (constant S_ .f32 0xFF800000#32),
    unary main_cst_31 main_v136 (broadcastInDim S500 ![] bcast_S_S500 : (⟨S_, .f32⟩ : BufTy).Contents (Elt F) → (⟨S500, .f32⟩ : BufTy).Contents (Elt F)),
    binary main_v136 main_v135 main_v137 (maximumf : (⟨S500, .f32⟩ : BufTy).Contents (Elt F) → (⟨S500, .f32⟩ : BufTy).Contents (Elt F) → (⟨S500, .f32⟩ : BufTy).Contents (Elt F)),
    unary main_v137 main_v138 (broadcastInDim S500x1 ![0] bcast_S500_S500x1_0 : (⟨S500, .f32⟩ : BufTy).Contents (Elt F) → (⟨S500x1, .f32⟩ : BufTy).Contents (Elt F)),
    unary main_v138 main_v139 (broadcastInDim S500x500 ![0, 1] bcast_S500x1_S500x500_0_1 : (⟨S500x1, .f32⟩ : BufTy).Contents (Elt F) → (⟨S500x500, .f32⟩ : BufTy).Contents (Elt F)),
    binary main_v134 main_v139 main_v140 (subf : (⟨S500x500, .f32⟩ : BufTy).Contents (Elt F) → (⟨S500x500, .f32⟩ : BufTy).Contents (Elt F) → (⟨S500x500, .f32⟩ : BufTy).Contents (Elt F)),
    unary main_v140 main_v141 (Host.exp : (⟨S500x500, .f32⟩ : BufTy).Contents (Elt F) → (⟨S500x500, .f32⟩ : BufTy).Contents (Elt F)),
    nullary main_cst_32 (constant S_ .f32 0x00000000#32),
    binary main_v141 main_cst_32 main_v142 ((fun x v => Host.reduceAdd x v reducesTo_S500x500_S500_d1 h_S_) : (⟨S500x500, .f32⟩ : BufTy).Contents (Elt F) → (⟨S_, .f32⟩ : BufTy).Contents (Elt F) → (⟨S500, .f32⟩ : BufTy).Contents (Elt F)),
    unary main_v142 main_v143 (broadcastInDim S500x1 ![0] bcast_S500_S500x1_0 : (⟨S500, .f32⟩ : BufTy).Contents (Elt F) → (⟨S500x1, .f32⟩ : BufTy).Contents (Elt F)),
    unary main_v143 main_v144 (broadcastInDim S500x500 ![0, 1] bcast_S500x1_S500x500_0_1 : (⟨S500x1, .f32⟩ : BufTy).Contents (Elt F) → (⟨S500x500, .f32⟩ : BufTy).Contents (Elt F)),
    binary main_v141 main_v144 main_v145 (Host.divf : (⟨S500x500, .f32⟩ : BufTy).Contents (Elt F) → (⟨S500x500, .f32⟩ : BufTy).Contents (Elt F) → (⟨S500x500, .f32⟩ : BufTy).Contents (Elt F)),
    binary main_v145 main_v129 main_v146 ((fun l r => Host.dotGeneral dot_S500x500_S500x64_S500x64_1_0_0_1_n_n none l r) : (⟨S500x500, .f32⟩ : BufTy).Contents (Elt F) → (⟨S500x64, .f32⟩ : BufTy).Contents (Elt F) → (⟨S500x64, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S500x64, .f32⟩) main_call11_v0) (broadcastInDim S500x64 ![] bcast_S_S500x64),
    TRef.binary (TRef.of (T := ⟨S500x64, .f32⟩) main_v146) (TRef.of (T := ⟨S500x64, .f32⟩) main_call11_v0) (TRef.of (T := ⟨S500x64, .f32⟩) main_v147) maximumf ]
/-- The references the operations of L2a write. -/
abbrev L2a_W : List (Ref sig .tc) := [main_v126, main_v127, main_v128, main_v129, main_v130, main_v131, main_c_28, main_v132, main_v133, main_cst_29, main_call10_v0, main_call10_v1, main_v134, main_cst_30, main_v135, main_cst_31, main_v136, main_v137, main_v138, main_v139, main_v140, main_v141, main_cst_32, main_v142, main_v143, main_v144, main_v145, main_v146, main_call11_cst, main_call11_v0, main_v147]
theorem L2a_writes : (L2a : List (HloOp τ sig (Elt F))).Forall fun op => op.writes ⊆ (L2a_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- L2a leaves alone every reference it does not write. -/
theorem L2a_keep (V : Valuation τ sig (Elt F)) {r : Ref sig .tc} (hr : r ∉ L2a_W) :
    after L2a V (Proc.devRef .tc r) = V (Proc.devRef .tc r) :=
  after_of_writes_sub L2a V L2a_writes hr

/-- Scale 2, second attention layer: operations 208 … 238 of the list (the values main_v148 … main_v169). -/
abbrev L2b : List (HloOp τ sig (Elt F)) :=
  [ binary main_v147 main_arg19 main_v148 ((fun l r => Host.dotGeneral dot_S500x64_S64x3_S500x3_1_0_0_1_n_n none l r) : (⟨S500x64, .f32⟩ : BufTy).Contents (Elt F) → (⟨S64x3, .f32⟩ : BufTy).Contents (Elt F) → (⟨S500x3, .f32⟩ : BufTy).Contents (Elt F)),
    unary main_arg20 main_v149 (broadcastInDim S1x3 ![1] bcast_S3_S1x3_1 : (⟨S3, .f32⟩ : BufTy).Contents (Elt F) → (⟨S1x3, .f32⟩ : BufTy).Contents (Elt F)),
    unary main_v149 main_v150 (broadcastInDim S500x3 ![0, 1] bcast_S1x3_S500x3_0_1 : (⟨S1x3, .f32⟩ : BufTy).Contents (Elt F) → (⟨S500x3, .f32⟩ : BufTy).Contents (Elt F)),
    binary main_v148 main_v150 main_v151 (addf : (⟨S500x3, .f32⟩ : BufTy).Contents (Elt F) → (⟨S500x3, .f32⟩ : BufTy).Contents (Elt F) → (⟨S500x3, .f32⟩ : BufTy).Contents (Elt F)),
    unary main_v151 main_v152 ((transpose S3x500 [1, 0] · transposes_S500x3_S3x500_1_0) : (⟨S500x3, .f32⟩ : BufTy).Contents (Elt F) → (⟨S3x500, .f32⟩ : BufTy).Contents (Elt F)),
    binary main_v151 main_v152 main_v153 ((fun l r => Host.dotGeneral dot_S500x3_S3x500_S500x500_1_0_0_1_n_n none l r) : (⟨S500x3, .f32⟩ : BufTy).Contents (Elt F) → (⟨S3x500, .f32⟩ : BufTy).Contents (Elt F) → (⟨S500x500, .f32⟩ : BufTy).Contents (Elt F)),
    nullary main_c_33 (constantI S_ 32 0#32),
    unary main_c_33 main_v154 (broadcastInDim S500x500 ![] bcast_S_S500x500 : (⟨S_, .i32⟩ : BufTy).Contents (Elt F) → (⟨S500x500, .i32⟩ : BufTy).Contents (Elt F)),
    binary main_arg5 main_v154 main_v155 (cmpi .sgt : (⟨S500x500, .i32⟩ : BufTy).Contents (Elt F) → (⟨S500x500, .i32⟩ : BufTy).Contents (Elt F) → (⟨S500x500, .i1⟩ : BufTy).Contents (Elt F)),
    nullary main_cst_34 (constant S_ .f32 0xCE6E6B28#32),
    TRef.unary (TRef.of (T := ⟨S_, .f32⟩) main_cst_34) (TRef.of (T := ⟨S_, .f32⟩) main_call12_v0) id,
    TRef.unary (TRef.of (T := ⟨S_, .f32⟩) main_call12_v0) (TRef.of (T := ⟨S500x500, .f32⟩) main_call12_v1) (broadcastInDim S500x500 ![] bcast_S_S500x500),
    TRef.ternary (TRef.of (T := ⟨S500x500, .i1⟩) main_v155) (TRef.of (T := ⟨S500x500, .f32⟩) main_v153) (TRef.of (T := ⟨S500x500, .f32⟩) main_call12_v1) (TRef.of (T := ⟨S500x500, .f32⟩) main_v156) select,
    nullary main_cst_35 (constant S_ .f32 0xFF800000#32),
    binary main_v156 main_cst_35 main_v157 ((fun x v => Host.reduce FloatOps.maximumf x v reducesTo_S500x500_S500_d1 h_S_) : (⟨S500x500, .f32⟩ : BufTy).Contents (Elt F) → (⟨S_, .f32⟩ : BufTy).Contents (Elt F) → (⟨S500, .f32⟩ : BufTy).Contents (Elt F)),
    nullary main_cst_36 (constant S_ .f32 0xFF800000#32),
    unary main_cst_36 main_v158 (broadcastInDim S500 ![] bcast_S_S500 : (⟨S_, .f32⟩ : BufTy).Contents (Elt F) → (⟨S500, .f32⟩ : BufTy).Contents (Elt F)),
    binary main_v158 main_v157 main_v159 (maximumf : (⟨S500, .f32⟩ : BufTy).Contents (Elt F) → (⟨S500, .f32⟩ : BufTy).Contents (Elt F) → (⟨S500, .f32⟩ : BufTy).Contents (Elt F)),
    unary main_v159 main_v160 (broadcastInDim S500x1 ![0] bcast_S500_S500x1_0 : (⟨S500, .f32⟩ : BufTy).Contents (Elt F) → (⟨S500x1, .f32⟩ : BufTy).Contents (Elt F)),
    unary main_v160 main_v161 (broadcastInDim S500x500 ![0, 1] bcast_S500x1_S500x500_0_1 : (⟨S500x1, .f32⟩ : BufTy).Contents (Elt F) → (⟨S500x500, .f32⟩ : BufTy).Contents (Elt F)),
    binary main_v156 main_v161 main_v162 (subf : (⟨S500x500, .f32⟩ : BufTy).Contents (Elt F) → (⟨S500x500, .f32⟩ : BufTy).Contents (Elt F) → (⟨S500x500, .f32⟩ : BufTy).Contents (Elt F)),
    unary main_v162 main_v163 (Host.exp : (⟨S500x500, .f32⟩ : BufTy).Contents (Elt F) → (⟨S500x500, .f32⟩ : BufTy).Contents (Elt F)),
    nullary main_cst_37 (constant S_ .f32 0x00000000#32),
    binary main_v163 main_cst_37 main_v164 ((fun x v => Host.reduceAdd x v reducesTo_S500x500_S500_d1 h_S_) : (⟨S500x500, .f32⟩ : BufTy).Contents (Elt F) → (⟨S_, .f32⟩ : BufTy).Contents (Elt F) → (⟨S500, .f32⟩ : BufTy).Contents (Elt F)),
    unary main_v164 main_v165 (broadcastInDim S500x1 ![0] bcast_S500_S500x1_0 : (⟨S500, .f32⟩ : BufTy).Contents (Elt F) → (⟨S500x1, .f32⟩ : BufTy).Contents (Elt F)),
    unary main_v165 main_v166 (broadcastInDim S500x500 ![0, 1] bcast_S500x1_S500x500_0_1 : (⟨S500x1, .f32⟩ : BufTy).Contents (Elt F) → (⟨S500x500, .f32⟩ : BufTy).Contents (Elt F)),
    binary main_v163 main_v166 main_v167 (Host.divf : (⟨S500x500, .f32⟩ : BufTy).Contents (Elt F) → (⟨S500x500, .f32⟩ : BufTy).Contents (Elt F) → (⟨S500x500, .f32⟩ : BufTy).Contents (Elt F)),
    binary main_v167 main_v151 main_v168 ((fun l r => Host.dotGeneral dot_S500x500_S500x3_S500x3_1_0_0_1_n_n none l r) : (⟨S500x500, .f32⟩ : BufTy).Contents (Elt F) → (⟨S500x3, .f32⟩ : BufTy).Contents (Elt F) → (⟨S500x3, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S500x3, .f32⟩) main_call13_v0) (broadcastInDim S500x3 ![] bcast_S_S500x3),
    TRef.binary (TRef.of (T := ⟨S500x3, .f32⟩) main_v168) (TRef.of (T := ⟨S500x3, .f32⟩) main_call13_v0) (TRef.of (T := ⟨S500x3, .f32⟩) main_v169) maximumf ]
/-- The references the operations of L2b write. -/
abbrev L2b_W : List (Ref sig .tc) := [main_v148, main_v149, main_v150, main_v151, main_v152, main_v153, main_c_33, main_v154, main_v155, main_cst_34, main_call12_v0, main_call12_v1, main_v156, main_cst_35, main_v157, main_cst_36, main_v158, main_v159, main_v160, main_v161, main_v162, main_v163, main_cst_37, main_v164, main_v165, main_v166, main_v167, main_v168, main_call13_cst, main_call13_v0, main_v169]
theorem L2b_writes : (L2b : List (HloOp τ sig (Elt F))).Forall fun op => op.writes ⊆ (L2b_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- L2b leaves alone every reference it does not write. -/
theorem L2b_keep (V : Valuation τ sig (Elt F)) {r : Ref sig .tc} (hr : r ∉ L2b_W) :
    after L2b V (Proc.devRef .tc r) = V (Proc.devRef .tc r) :=
  after_of_writes_sub L2b V L2b_writes hr

/-- Scale 2, the tail: operations 239 … 264 of the list (the values main_call14_cst … main_v188). -/
abbrev T2 : List (HloOp τ sig (Elt F)) :=
  [ TRef.nullary (TRef.of (T := ⟨S_, .f32⟩) main_call14_cst) (constant S_ .f32 0x00000000#32),
    TRef.unary (TRef.of (T := ⟨S_, .f32⟩) main_call14_cst) (TRef.of (T := ⟨S500x3, .f32⟩) main_call14_v0) (broadcastInDim S500x3 ![] bcast_S_S500x3),
    TRef.binary (TRef.of (T := ⟨S500x3, .f32⟩) main_v169) (TRef.of (T := ⟨S500x3, .f32⟩) main_call14_v0) (TRef.of (T := ⟨S500x3, .f32⟩) main_v170) maximumf,
    nullary main_cst_38 (constant S_ .f32 0xFF800000#32),
    binary main_v170 main_cst_38 main_v171 ((fun x v => Host.reduce FloatOps.maximumf x v reducesTo_S500x3_S500_d1 h_S_) : (⟨S500x3, .f32⟩ : BufTy).Contents (Elt F) → (⟨S_, .f32⟩ : BufTy).Contents (Elt F) → (⟨S500, .f32⟩ : BufTy).Contents (Elt F)),
    nullary main_cst_39 (constant S_ .f32 0xFF800000#32),
    unary main_cst_39 main_v172 (broadcastInDim S500 ![] bcast_S_S500 : (⟨S_, .f32⟩ : BufTy).Contents (Elt F) → (⟨S500, .f32⟩ : BufTy).Contents (Elt F)),
    binary main_v172 main_v171 main_v173 (maximumf : (⟨S500, .f32⟩ : BufTy).Contents (Elt F) → (⟨S500, .f32⟩ : BufTy).Contents (Elt F) → (⟨S500, .f32⟩ : BufTy).Contents (Elt F)),
    unary main_v173 main_v174 (broadcastInDim S500x1 ![0] bcast_S500_S500x1_0 : (⟨S500, .f32⟩ : BufTy).Contents (Elt F) → (⟨S500x1, .f32⟩ : BufTy).Contents (Elt F)),
    unary main_v174 main_v175 (broadcastInDim S500x3 ![0, 1] bcast_S500x1_S500x3_0_1 : (⟨S500x1, .f32⟩ : BufTy).Contents (Elt F) → (⟨S500x3, .f32⟩ : BufTy).Contents (Elt F)),
    binary main_v170 main_v175 main_v176 (subf : (⟨S500x3, .f32⟩ : BufTy).Contents (Elt F) → (⟨S500x3, .f32⟩ : BufTy).Contents (Elt F) → (⟨S500x3, .f32⟩ : BufTy).Contents (Elt F)),
    unary main_v176 main_v177 (Host.exp : (⟨S500x3, .f32⟩ : BufTy).Contents (Elt F) → (⟨S500x3, .f32⟩ : BufTy).Contents (Elt F)),
    nullary main_cst_40 (constant S_ .f32 0x00000000#32),
    binary main_v177 main_cst_40 main_v178 ((fun x v => Host.reduceAdd x v reducesTo_S500x3_S500_d1 h_S_) : (⟨S500x3, .f32⟩ : BufTy).Contents (Elt F) → (⟨S_, .f32⟩ : BufTy).Contents (Elt F) → (⟨S500, .f32⟩ : BufTy).Contents (Elt F)),
    unary main_v178 main_v179 (broadcastInDim S500x1 ![0] bcast_S500_S500x1_0 : (⟨S500, .f32⟩ : BufTy).Contents (Elt F) → (⟨S500x1, .f32⟩ : BufTy).Contents (Elt F)),
    unary main_v179 main_v180 (broadcastInDim S500x3 ![0, 1] bcast_S500x1_S500x3_0_1 : (⟨S500x1, .f32⟩ : BufTy).Contents (Elt F) → (⟨S500x3, .f32⟩ : BufTy).Contents (Elt F)),
    binary main_v177 main_v180 main_v181 (Host.divf : (⟨S500x3, .f32⟩ : BufTy).Contents (Elt F) → (⟨S500x3, .f32⟩ : BufTy).Contents (Elt F) → (⟨S500x3, .f32⟩ : BufTy).Contents (Elt F)),
    nullary main_c_41 (constantI S_ 32 0#32),
    unary main_c_41 main_v182 (broadcastInDim S1024x1024 ![] bcast_S_S1024x1024 : (⟨S_, .i32⟩ : BufTy).Contents (Elt F) → (⟨S1024x1024, .i32⟩ : BufTy).Contents (Elt F)),
    binary main_arg8 main_v182 main_v183 (cmpi .slt : (⟨S1024x1024, .i32⟩ : BufTy).Contents (Elt F) → (⟨S1024x1024, .i32⟩ : BufTy).Contents (Elt F) → (⟨S1024x1024, .i1⟩ : BufTy).Contents (Elt F)),
    nullary main_c_42 (constantI S_ 32 500#32),
    unary main_c_42 main_v184 (broadcastInDim S1024x1024 ![] bcast_S_S1024x1024 : (⟨S_, .i32⟩ : BufTy).Contents (Elt F) → (⟨S1024x1024, .i32⟩ : BufTy).Contents (Elt F)),
    binary main_arg8 main_v184 main_v185 (addi : (⟨S1024x1024, .i32⟩ : BufTy).Contents (Elt F) → (⟨S1024x1024, .i32⟩ : BufTy).Contents (Elt F) → (⟨S1024x1024, .i32⟩ : BufTy).Contents (Elt F)),
    ternary main_v183 main_v185 main_arg8 main_v186 (select : (⟨S1024x1024, .i1⟩ : BufTy).Contents (Elt F) → (⟨S1024x1024, .i32⟩ : BufTy).Contents (Elt F) → (⟨S1024x1024, .i32⟩ : BufTy).Contents (Elt F) → (⟨S1024x1024, .i32⟩ : BufTy).Contents (Elt F)),
    unary main_v186 main_v187 (broadcastInDim S1024x1024x1 ![0, 1] bcast_S1024x1024_S1024x1024x1_0_1 : (⟨S1024x1024, .i32⟩ : BufTy).Contents (Elt F) → (⟨S1024x1024x1, .i32⟩ : BufTy).Contents (Elt F)),
    binary main_v181 main_v187 main_v188 ((fun x i => Host.gather gather_S500x3_S1024x1024x1_S1024x1024x3_2_0_n_n_0_2_13 x i) : (⟨S500x3, .f32⟩ : BufTy).Contents (Elt F) → (⟨S1024x1024x1, .i32⟩ : BufTy).Contents (Elt F) → (⟨S1024x1024x3, .f32⟩ : BufTy).Contents (Elt F)) ]
/-- The references the operations of T2 write. -/
abbrev T2_W : List (Ref sig .tc) := [main_call14_cst, main_call14_v0, main_v170, main_cst_38, main_v171, main_cst_39, main_v172, main_v173, main_v174, main_v175, main_v176, main_v177, main_cst_40, main_v178, main_v179, main_v180, main_v181, main_c_41, main_v182, main_v183, main_c_42, main_v184, main_v185, main_v186, main_v187, main_v188]
theorem T2_writes : (T2 : List (HloOp τ sig (Elt F))).Forall fun op => op.writes ⊆ (T2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- T2 leaves alone every reference it does not write. -/
theorem T2_keep (V : Valuation τ sig (Elt F)) {r : Ref sig .tc} (hr : r ∉ T2_W) :
    after T2 V (Proc.devRef .tc r) = V (Proc.devRef .tc r) :=
  after_of_writes_sub T2 V T2_writes hr

/-- The closing operations: the three maps stacked, weighted by the softmax of the weights, summed: operations 265 … 286 of the list (the values main_v189 … main_v206). -/
abbrev FIN : List (HloOp τ sig (Elt F)) :=
  [ unary main_v62 main_v189 (broadcastInDim S1x1024x1024x3 ![1, 2, 3] bcast_S1024x1024x3_S1x1024x1024x3_1_2_3 : (⟨S1024x1024x3, .f32⟩ : BufTy).Contents (Elt F) → (⟨S1x1024x1024x3, .f32⟩ : BufTy).Contents (Elt F)),
    unary main_v125 main_v190 (broadcastInDim S1x1024x1024x3 ![1, 2, 3] bcast_S1024x1024x3_S1x1024x1024x3_1_2_3 : (⟨S1024x1024x3, .f32⟩ : BufTy).Contents (Elt F) → (⟨S1x1024x1024x3, .f32⟩ : BufTy).Contents (Elt F)),
    unary main_v188 main_v191 (broadcastInDim S1x1024x1024x3 ![1, 2, 3] bcast_S1024x1024x3_S1x1024x1024x3_1_2_3 : (⟨S1024x1024x3, .f32⟩ : BufTy).Contents (Elt F) → (⟨S1x1024x1024x3, .f32⟩ : BufTy).Contents (Elt F)),
    nary ![main_v189, main_v190, main_v191] main_v192 (fun u => concatenate S3x1024x1024x3 0 [⟨S1x1024x1024x3, u 0⟩, ⟨S1x1024x1024x3, u 1⟩, ⟨S1x1024x1024x3, u 2⟩] concatenates_S1x1024x1024x3_S1x1024x1024x3_S1x1024x1024x3_S3x1024x1024x3_d0),
    nullary main_cst_43 (constant S_ .f32 0xFF800000#32),
    binary main_arg21 main_cst_43 main_v193 ((fun x v => Host.reduce FloatOps.maximumf x v reducesTo_S3_S_d0 h_S_) : (⟨S3, .f32⟩ : BufTy).Contents (Elt F) → (⟨S_, .f32⟩ : BufTy).Contents (Elt F) → (⟨S_, .f32⟩ : BufTy).Contents (Elt F)),
    nullary main_cst_44 (constant S_ .f32 0xFF800000#32),
    binary main_cst_44 main_v193 main_v194 (maximumf : (⟨S_, .f32⟩ : BufTy).Contents (Elt F) → (⟨S_, .f32⟩ : BufTy).Contents (Elt F) → (⟨S_, .f32⟩ : BufTy).Contents (Elt F)),
    unary main_v194 main_v195 (broadcastInDim S1 ![] bcast_S_S1 : (⟨S_, .f32⟩ : BufTy).Contents (Elt F) → (⟨S1, .f32⟩ : BufTy).Contents (Elt F)),
    unary main_v195 main_v196 (broadcastInDim S3 ![0] bcast_S1_S3_0 : (⟨S1, .f32⟩ : BufTy).Contents (Elt F) → (⟨S3, .f32⟩ : BufTy).Contents (Elt F)),
    binary main_arg21 main_v196 main_v197 (subf : (⟨S3, .f32⟩ : BufTy).Contents (Elt F) → (⟨S3, .f32⟩ : BufTy).Contents (Elt F) → (⟨S3, .f32⟩ : BufTy).Contents (Elt F)),
    unary main_v197 main_v198 (Host.exp : (⟨S3, .f32⟩ : BufTy).Contents (Elt F) → (⟨S3, .f32⟩ : BufTy).Contents (Elt F)),
    nullary main_cst_45 (constant S_ .f32 0x00000000#32),
    binary main_v198 main_cst_45 main_v199 ((fun x v => Host.reduceAdd x v reducesTo_S3_S_d0 h_S_) : (⟨S3, .f32⟩ : BufTy).Contents (Elt F) → (⟨S_, .f32⟩ : BufTy).Contents (Elt F) → (⟨S_, .f32⟩ : BufTy).Contents (Elt F)),
    unary main_v199 main_v200 (broadcastInDim S1 ![] bcast_S_S1 : (⟨S_, .f32⟩ : BufTy).Contents (Elt F) → (⟨S1, .f32⟩ : BufTy).Contents (Elt F)),
    unary main_v200 main_v201 (broadcastInDim S3 ![0] bcast_S1_S3_0 : (⟨S1, .f32⟩ : BufTy).Contents (Elt F) → (⟨S3, .f32⟩ : BufTy).Contents (Elt F)),
    binary main_v198 main_v201 main_v202 (Host.divf : (⟨S3, .f32⟩ : BufTy).Contents (Elt F) → (⟨S3, .f32⟩ : BufTy).Contents (Elt F) → (⟨S3, .f32⟩ : BufTy).Contents (Elt F)),
    reshape main_v202 main_v203 rfl shapeCasts_S3_S3x1x1x1,
    unary main_v203 main_v204 (broadcastInDim S3x1024x1024x3 ![0, 1, 2, 3] bcast_S3x1x1x1_S3x1024x1024x3_0_1_2_3 : (⟨S3x1x1x1, .f32⟩ : BufTy).Contents (Elt F) → (⟨S3x1024x1024x3, .f32⟩ : BufTy).Contents (Elt F)),
    binary main_v192 main_v204 main_v205 (mulf : (⟨S3x1024x1024x3, .f32⟩ : BufTy).Contents (Elt F) → (⟨S3x1024x1024x3, .f32⟩ : BufTy).Contents (Elt F) → (⟨S3x1024x1024x3, .f32⟩ : BufTy).Contents (Elt F)),
    nullary main_cst_46 (constant S_ .f32 0x00000000#32),
    binary main_v205 main_cst_46 main_v206 ((fun x v => Host.reduceAdd x v reducesTo_S3x1024x1024x3_S1024x1024x3_d0 h_S_) : (⟨S3x1024x1024x3, .f32⟩ : BufTy).Contents (Elt F) → (⟨S_, .f32⟩ : BufTy).Contents (Elt F) → (⟨S1024x1024x3, .f32⟩ : BufTy).Contents (Elt F)) ]
/-- The references the operations of FIN write. -/
abbrev FIN_W : List (Ref sig .tc) := [main_v189, main_v190, main_v191, main_v192, main_cst_43, main_v193, main_cst_44, main_v194, main_v195, main_v196, main_v197, main_v198, main_cst_45, main_v199, main_v200, main_v201, main_v202, main_v203, main_v204, main_v205, main_cst_46, main_v206]
theorem FIN_writes : (FIN : List (HloOp τ sig (Elt F))).Forall fun op => op.writes ⊆ (FIN_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide), by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- FIN leaves alone every reference it does not write. -/
theorem FIN_keep (V : Valuation τ sig (Elt F)) {r : Ref sig .tc} (hr : r ∉ FIN_W) :
    after FIN V (Proc.devRef .tc r) = V (Proc.devRef .tc r) :=
  after_of_writes_sub FIN V FIN_writes hr

set_option maxRecDepth 8192 in
/-- The operation list is the chunks joined. -/
theorem ops_split : (Cert.ReferenceIdeal.Value.ops : List (HloOp τ sig (Elt F))) = L0a ++ L0b ++ T0 ++ L1a ++ L1b ++ T1 ++ L2a ++ L2b ++ T2 ++ FIN := rfl

/-- The fold of the list is the chunks' folds composed, first chunk innermost. -/
theorem after_ops (V : Valuation τ sig (Elt F)) :
    after Cert.ReferenceIdeal.Value.ops V = after FIN (after T2 (after L2b (after L2a (after T1 (after L1b (after L1a (after T0 (after L0b (after L0a (V)))))))))) := by
  rw [ops_split]; simp only [StableHlo.after_append]

/-- A reference no chunk writes keeps its contents through the whole list. -/
theorem ops_keep (V : Valuation τ sig (Elt F)) {r : Ref sig .tc} (h0 : r ∉ L0a_W) (h1 : r ∉ L0b_W) (h2 : r ∉ T0_W) (h3 : r ∉ L1a_W) (h4 : r ∉ L1b_W) (h5 : r ∉ T1_W) (h6 : r ∉ L2a_W) (h7 : r ∉ L2b_W) (h8 : r ∉ T2_W) (h9 : r ∉ FIN_W) :
    after Cert.ReferenceIdeal.Value.ops V (Proc.devRef .tc r) = V (Proc.devRef .tc r) := by
  rw [after_ops, FIN_keep _ h9, T2_keep _ h8, L2b_keep _ h7, L2a_keep _ h6, T1_keep _ h5, L1b_keep _ h4, L1a_keep _ h3, T0_keep _ h2, L0b_keep _ h1, L0a_keep _ h0]

end Cert.Proof.Ref

end
-- ==== Proof.Ref.LayerRun.lean ====
/-
  What each attention-layer chunk of the reference's operation list leaves in its last buffer: a scale's first layer the
  stage function of the arguments it reads; its second layer the next stage function, from contents that hold the first
  layer's stage and the arguments it reads; and the two in sequence.
-/
import proofs.«123632_j87531433492498_2_alg».proof.Proof.Ref.Chunks
import proofs.«123632_j87531433492498_2_alg».proof.Proof.RefReadP

noncomputable section

namespace Cert.Proof.Ref

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- What the first attention layer of scale 0 leaves in its last buffer: its stage of the four arguments it reads. -/
theorem L0a_out (V : Valuation τ sig (Elt F)) :
    after L0a V (Proc.devRef .tc main_v21)
      = val_main_v21 (F := F) (V (Proc.devRef .tc main_arg0)) (V (Proc.devRef .tc main_arg3)) (V (Proc.devRef .tc main_arg9)) (V (Proc.devRef .tc main_arg10)) := by
  after_results_simp <;> rfl

/-- What the second attention layer of scale 0 leaves in its last buffer, from contents that hold the first layer's
    stage and the arguments it reads. -/
theorem L0b_out (W : Valuation τ sig (Elt F)) (x0 : (⟨S2000x156, .f32⟩ : BufTy).Contents (Elt F)) (x3 : (⟨S2000x2000, .i32⟩ : BufTy).Contents (Elt F)) (x9 : (⟨S156x64, .f32⟩ : BufTy).Contents (Elt F)) (x10 : (⟨S64, .f32⟩ : BufTy).Contents (Elt F)) (x11 : (⟨S64x3, .f32⟩ : BufTy).Contents (Elt F)) (x12 : (⟨S3, .f32⟩ : BufTy).Contents (Elt F))
    (hp : W (Proc.devRef .tc main_v21) = val_main_v21 (F := F) x0 x3 x9 x10)
    (h3 : W (Proc.devRef .tc main_arg3) = x3) (h11 : W (Proc.devRef .tc main_arg11) = x11) (h12 : W (Proc.devRef .tc main_arg12) = x12) :
    after L0b W (Proc.devRef .tc main_v43) = val_main_v43 (F := F) x0 x3 x9 x10 x11 x12 := by
  after_results_simp
  rw [hp, h3, h11, h12]
  rfl

/-- The two attention layers of scale 0 in sequence. -/
theorem L0_out (V : Valuation τ sig (Elt F)) :
    after L0b (after L0a V) (Proc.devRef .tc main_v43)
      = val_main_v43 (F := F) (V (Proc.devRef .tc main_arg0)) (V (Proc.devRef .tc main_arg3)) (V (Proc.devRef .tc main_arg9)) (V (Proc.devRef .tc main_arg10)) (V (Proc.devRef .tc main_arg11)) (V (Proc.devRef .tc main_arg12)) :=
  L0b_out _ _ _ _ _ _ _ (L0a_out V) (L0a_keep V (by decide)) (L0a_keep V (by decide)) (L0a_keep V (by decide))

/-- What the first attention layer of scale 1 leaves in its last buffer: its stage of the four arguments it reads. -/
theorem L1a_out (V : Valuation τ sig (Elt F)) :
    after L1a V (Proc.devRef .tc main_v84)
      = val_main_v84 (F := F) (V (Proc.devRef .tc main_arg1)) (V (Proc.devRef .tc main_arg4)) (V (Proc.devRef .tc main_arg13)) (V (Proc.devRef .tc main_arg14)) := by
  after_results_simp <;> rfl

/-- What the second attention layer of scale 1 leaves in its last buffer, from contents that hold the first layer's
    stage and the arguments it reads. -/
theorem L1b_out (W : Valuation τ sig (Elt F)) (x1 : (⟨S1000x156, .f32⟩ : BufTy).Contents (Elt F)) (x4 : (⟨S1000x1000, .i32⟩ : BufTy).Contents (Elt F)) (x13 : (⟨S156x64, .f32⟩ : BufTy).Contents (Elt F)) (x14 : (⟨S64, .f32⟩ : BufTy).Contents (Elt F)) (x15 : (⟨S64x3, .f32⟩ : BufTy).Contents (Elt F)) (x16 : (⟨S3, .f32⟩ : BufTy).Contents (Elt F))
    (hp : W (Proc.devRef .tc main_v84) = val_main_v84 (F := F) x1 x4 x13 x14)
    (h4 : W (Proc.devRef .tc main_arg4) = x4) (h15 : W (Proc.devRef .tc main_arg15) = x15) (h16 : W (Proc.devRef .tc main_arg16) = x16) :
    after L1b W (Proc.devRef .tc main_v106) = val_main_v106 (F := F) x1 x4 x13 x14 x15 x16 := by
  after_results_simp
  rw [hp, h4, h15, h16]
  rfl

/-- The two attention layers of scale 1 in sequence. -/
theorem L1_out (V : Valuation τ sig (Elt F)) :
    after L1b (after L1a V) (Proc.devRef .tc main_v106)
      = val_main_v106 (F := F) (V (Proc.devRef .tc main_arg1)) (V (Proc.devRef .tc main_arg4)) (V (Proc.devRef .tc main_arg13)) (V (Proc.devRef .tc main_arg14)) (V (Proc.devRef .tc main_arg15)) (V (Proc.devRef .tc main_arg16)) :=
  L1b_out _ _ _ _ _ _ _ (L1a_out V) (L1a_keep V (by decide)) (L1a_keep V (by decide)) (L1a_keep V (by decide))

/-- What the first attention layer of scale 2 leaves in its last buffer: its stage of the four arguments it reads. -/
theorem L2a_out (V : Valuation τ sig (Elt F)) :
    after L2a V (Proc.devRef .tc main_v147)
      = val_main_v147 (F := F) (V (Proc.devRef .tc main_arg2)) (V (Proc.devRef .tc main_arg5)) (V (Proc.devRef .tc main_arg17)) (V (Proc.devRef .tc main_arg18)) := by
  after_results_simp <;> rfl

/-- What the second attention layer of scale 2 leaves in its last buffer, from contents that hold the first layer's
    stage and the arguments it reads. -/
theorem L2b_out (W : Valuation τ sig (Elt F)) (x2 : (⟨S500x156, .f32⟩ : BufTy).Contents (Elt F)) (x5 : (⟨S500x500, .i32⟩ : BufTy).Contents (Elt F)) (x17 : (⟨S156x64, .f32⟩ : BufTy).Contents (Elt F)) (x18 : (⟨S64, .f32⟩ : BufTy).Contents (Elt F)) (x19 : (⟨S64x3, .f32⟩ : BufTy).Contents (Elt F)) (x20 : (⟨S3, .f32⟩ : BufTy).Contents (Elt F))
    (hp : W (Proc.devRef .tc main_v147) = val_main_v147 (F := F) x2 x5 x17 x18)
    (h5 : W (Proc.devRef .tc main_arg5) = x5) (h19 : W (Proc.devRef .tc main_arg19) = x19) (h20 : W (Proc.devRef .tc main_arg20) = x20) :
    after L2b W (Proc.devRef .tc main_v169) = val_main_v169 (F := F) x2 x5 x17 x18 x19 x20 := by
  after_results_simp
  rw [hp, h5, h19, h20]
  rfl

/-- The two attention layers of scale 2 in sequence. -/
theorem L2_out (V : Valuation τ sig (Elt F)) :
    after L2b (after L2a V) (Proc.devRef .tc main_v169)
      = val_main_v169 (F := F) (V (Proc.devRef .tc main_arg2)) (V (Proc.devRef .tc main_arg5)) (V (Proc.devRef .tc main_arg17)) (V (Proc.devRef .tc main_arg18)) (V (Proc.devRef .tc main_arg19)) (V (Proc.devRef .tc main_arg20)) :=
  L2b_out _ _ _ _ _ _ _ (L2a_out V) (L2a_keep V (by decide)) (L2a_keep V (by decide)) (L2a_keep V (by decide))

end Cert.Proof.Ref

end
-- ==== Proof.Gat.Spec.lean ====
/-
  The mathematics of one graph-attention branch and of the multi-scale fuse, on the extended reals, index by index,
  over plain matrix shapes of any size.

  * a dense layer:  lin X W b (i, j) = (∑ k, X (i, k) · W (k, j)) + b j ;
  * masked scores of query rows Q against key rows H:  score Q H A (i, l) = ∑ k, Q (i, k) · H (l, k)  where the adjacency
    word A (i, l) is positive as a signed integer, and the large negative constant -1e9 elsewhere;
  * the row maximum of the scores, taken from -∞;
  * attention:  att Q H A (i, j) = max (∑ l, (e (i, l) ÷ ∑ l', e (i, l')) · H (l, j)) 0  with  e (i, l) = exp (score (i, l) - rowMax i)  and  ÷  the
    extended reals' division as both programs' float division reads at the ideal values;
  * the fuse of three maps with three weights:  s0 · w 0 + s1 · w 1 + s2 · w 2 .
  Row i of `att Q H A` depends on row i of Q and of A only, so a block of query rows computes the corresponding rows of
  the whole-array attention (`att_rows`).
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Gat

/-- An a × b matrix shape and a length-a vector shape. -/
abbrev Mat (a b : ℕ) : Shape := ⟨2, ![a, b]⟩
abbrev Vc (a : ℕ) : Shape := ⟨1, ![a]⟩

/-- The masked logit: the single-precision word of -1e9, read as an extended real. -/
def negBig : EReal := Ideal.ofBits .f32 0xCE6E6B28#32
/-- The rectifier's floor: the zero word. -/
def zero : EReal := Ideal.ofBits .f32 0x00000000#32
/-- The value a row maximum starts from: the word of -∞. -/
def negInf : EReal := Ideal.ofBits .f32 0xFF800000#32

/-- A dense layer. -/
def lin {N K H : ℕ} (X : (Mat N K).Idx → EReal) (W : (Mat K H).Idx → EReal) (b : (Vc H).Idx → EReal) : (Mat N H).Idx → EReal :=
  fun i => (∑ k : Fin K, X (ix2 (i 0) k) * W (ix2 k (i 1))) + b (ix1 (i 1))

/-- The adjacency test: the word is positive as a signed integer. -/
def adj (a : BitVec 32) : BitVec 1 := IntOp.cmpi .sgt a 0#32

/-- Masked scores of the query rows against the key rows. -/
def score {M N D : ℕ} (Q : (Mat M D).Idx → EReal) (H : (Mat N D).Idx → EReal) (A : (Mat M N).Idx → BitVec 32) : (Mat M N).Idx → EReal :=
  fun i => Scalar.select (adj (A i)) (∑ k : Fin D, Q (ix2 (i 0) k) * H (ix2 (i 1) k)) negBig

/-- The maximum of row p of a matrix, from -∞. -/
def rowMax {M N : ℕ} (s : (Mat M N).Idx → EReal) (p : Fin M) : EReal :=
  (Finset.univ : Finset (Fin N)).fold max negInf fun l => s (ix2 p l)

/-- The exponentials of a matrix's entries less their row's maximum. -/
def expo {M N : ℕ} (s : (Mat M N).Idx → EReal) : (Mat M N).Idx → EReal :=
  fun i => Ideal.exp (s i - rowMax s (i 0))

/-- Attention of the query rows over the key rows, clamped at zero. -/
def att {M N D : ℕ} (Q : (Mat M D).Idx → EReal) (H : (Mat N D).Idx → EReal) (A : (Mat M N).Idx → BitVec 32) : (Mat M D).Idx → EReal :=
  fun i => max (∑ l : Fin N, Ideal.div (expo (score Q H A) (ix2 (i 0) l)) (∑ l' : Fin N, expo (score Q H A) (ix2 (i 0) l')) * H (ix2 l (i 1))) zero

/-- The fuse of three maps of one shape with the three entries of a weight vector. -/
def fuse {S : Shape} (s0 s1 s2 : S.Idx → EReal) (w : (Vc 3).Idx → EReal) : S.Idx → EReal :=
  fun i => s0 i * w (ix1 0) + s1 i * w (ix1 1) + s2 i * w (ix1 2)

/-- Row locality of the scores. -/
theorem score_rows {M M' N D : ℕ} (Q : (Mat M D).Idx → EReal) (Q' : (Mat M' D).Idx → EReal) (H : (Mat N D).Idx → EReal)
    (A : (Mat M N).Idx → BitVec 32) (A' : (Mat M' N).Idx → BitVec 32) (p : Fin M) (p' : Fin M')
    (hQ : ∀ k, Q' (ix2 p' k) = Q (ix2 p k)) (hA : ∀ l, A' (ix2 p' l) = A (ix2 p l)) (l : Fin N) :
    score Q' H A' (ix2 p' l) = score Q H A (ix2 p l) := by
  show Scalar.select (adj (A' (ix2 p' l))) (∑ k : Fin D, Q' (ix2 p' k) * H (ix2 l k)) negBig
    = Scalar.select (adj (A (ix2 p l))) (∑ k : Fin D, Q (ix2 p k) * H (ix2 l k)) negBig
  simp only [hQ, hA]

/-- Row locality of attention: a block of query rows with its block of the adjacency computes those rows of the whole. -/
theorem att_rows {M M' N D : ℕ} (Q : (Mat M D).Idx → EReal) (Q' : (Mat M' D).Idx → EReal) (H : (Mat N D).Idx → EReal)
    (A : (Mat M N).Idx → BitVec 32) (A' : (Mat M' N).Idx → BitVec 32) (p : Fin M) (p' : Fin M')
    (hQ : ∀ k, Q' (ix2 p' k) = Q (ix2 p k)) (hA : ∀ l, A' (ix2 p' l) = A (ix2 p l)) (j : Fin D) :
    att Q' H A' (ix2 p' j) = att Q H A (ix2 p j) := by
  have hs : ∀ l, score Q' H A' (ix2 p' l) = score Q H A (ix2 p l) := score_rows Q Q' H A A' p p' hQ hA
  have hm : rowMax (score Q' H A') p' = rowMax (score Q H A) p := by
    unfold rowMax; simp only [hs]
  have he : ∀ l, expo (score Q' H A') (ix2 p' l) = expo (score Q H A) (ix2 p l) := fun l => by
    show Ideal.exp (score Q' H A' (ix2 p' l) - rowMax (score Q' H A') p') = Ideal.exp (score Q H A (ix2 p l) - rowMax (score Q H A) p)
    rw [hs, hm]
  show max (∑ l : Fin N, Ideal.div (expo (score Q' H A') (ix2 p' l)) (∑ l' : Fin N, expo (score Q' H A') (ix2 p' l')) * H (ix2 l j)) zero
    = max (∑ l : Fin N, Ideal.div (expo (score Q H A) (ix2 p l)) (∑ l' : Fin N, expo (score Q H A) (ix2 p l')) * H (ix2 l j)) zero
  simp only [he]

end Cert.Gat

end
-- ==== Proof.Ref.Tail.lean ====
/-
  The reference's tails. Per scale, after the second attention layer: the rectifier, the softmax over the three columns,
  the index normalisation and the gather of the rows the index map names (`rtail0`, `rtail1`, `rtail2`); the softmax of the
  three scale weights (`rwsoft`); and the closing stage (`rfin`): the three gathered maps stacked along a new leading axis,
  times the normalised weights broadcast over the maps, summed over that axis. Each is one composition of the reference's
  own operations over its own shape facts, so the reference's stages are these by unfolding. The closing law
  (`rfin_apply`): at an index the closing stage is  t0 · w 0 + t1 · w 1 + t2 · w 2 .
-/
import proofs.«123632_j87531433492498_2_alg».proof.Proof.RefReadP
import proofs.«123632_j87531433492498_2_alg».proof.Proof.Gat.Spec
import Idealize.ShloMosaic.Lib.Pipeline.Value
import Idealize.ShloMosaic.Lib.ValueIdx
import Idealize.ShloMosaic.PureOps.Ideal.Laws

noncomputable section

namespace Cert.Proof.Ref

open Cert.ReferenceIdeal Cert.ReferenceIdeal.Gen Idealize.ShloMosaic Idealize.ShloMosaic.ValueIdx Idealize.SL.Sem

/-! ## The tails and the weights' softmax, as compositions of the reference's own operations -/

/-- Scale 0's tail on a [2000, 3] layer output `x` and the [1024, 1024] index map `seg`: the rectifier (the maximum with the
    broadcast zero word); the softmax over the three columns (the row maximum from -∞, its maximum with the broadcast -∞,
    broadcast back over the columns, the difference, the exponential, the row sum from zero broadcast back, the quotient);
    the index normalisation (a negative index, as a signed word, has 2000 added); and the gather of the rows the indices name. -/
def rtail0 (x : FVec Ideal S2000x3 .f32) (seg : IVec S1024x1024 32) : FVec Ideal S1024x1024x3 .f32 :=
  let r := maximumf x (broadcastInDim S2000x3 ![] bcast_S_S2000x3 (constant (F := Ideal) S_ .f32 0x00000000#32))
  let m := broadcastInDim S2000x3 ![0, 1] bcast_S2000x1_S2000x3_0_1
    (broadcastInDim S2000x1 ![0] bcast_S2000_S2000x1_0
      (maximumf (broadcastInDim S2000 ![] bcast_S_S2000 (constant (F := Ideal) S_ .f32 0xFF800000#32))
        (Host.reduce FloatOps.maximumf r (constant (F := Ideal) S_ .f32 0xFF800000#32) reducesTo_S2000x3_S2000_d1 h_S_)))
  let e := Host.exp (F := Ideal) (subf r m)
  let z := broadcastInDim S2000x3 ![0, 1] bcast_S2000x1_S2000x3_0_1
    (broadcastInDim S2000x1 ![0] bcast_S2000_S2000x1_0
      (Host.reduceAdd (F := Ideal) e (constant (F := Ideal) S_ .f32 0x00000000#32) reducesTo_S2000x3_S2000_d1 h_S_))
  let p := Host.divf (F := Ideal) e z
  let s := select (cmpi .slt seg (broadcastInDim S1024x1024 ![] bcast_S_S1024x1024 (constantI S_ 32 0#32)))
    (addi seg (broadcastInDim S1024x1024 ![] bcast_S_S1024x1024 (constantI S_ 32 2000#32))) seg
  Host.gather gather_S2000x3_S1024x1024x1_S1024x1024x3_2_0_n_n_0_2_13 p
    (broadcastInDim S1024x1024x1 ![0, 1] bcast_S1024x1024_S1024x1024x1_0_1 s)

/-- Scale 1's tail on a [1000, 3] layer output `x` and the [1024, 1024] index map `seg`: the rectifier (the maximum with the
    broadcast zero word); the softmax over the three columns (the row maximum from -∞, its maximum with the broadcast -∞,
    broadcast back over the columns, the difference, the exponential, the row sum from zero broadcast back, the quotient);
    the index normalisation (a negative index, as a signed word, has 1000 added); and the gather of the rows the indices name. -/
def rtail1 (x : FVec Ideal S1000x3 .f32) (seg : IVec S1024x1024 32) : FVec Ideal S1024x1024x3 .f32 :=
  let r := maximumf x (broadcastInDim S1000x3 ![] bcast_S_S1000x3 (constant (F := Ideal) S_ .f32 0x00000000#32))
  let m := broadcastInDim S1000x3 ![0, 1] bcast_S1000x1_S1000x3_0_1
    (broadcastInDim S1000x1 ![0] bcast_S1000_S1000x1_0
      (maximumf (broadcastInDim S1000 ![] bcast_S_S1000 (constant (F := Ideal) S_ .f32 0xFF800000#32))
        (Host.reduce FloatOps.maximumf r (constant (F := Ideal) S_ .f32 0xFF800000#32) reducesTo_S1000x3_S1000_d1 h_S_)))
  let e := Host.exp (F := Ideal) (subf r m)
  let z := broadcastInDim S1000x3 ![0, 1] bcast_S1000x1_S1000x3_0_1
    (broadcastInDim S1000x1 ![0] bcast_S1000_S1000x1_0
      (Host.reduceAdd (F := Ideal) e (constant (F := Ideal) S_ .f32 0x00000000#32) reducesTo_S1000x3_S1000_d1 h_S_))
  let p := Host.divf (F := Ideal) e z
  let s := select (cmpi .slt seg (broadcastInDim S1024x1024 ![] bcast_S_S1024x1024 (constantI S_ 32 0#32)))
    (addi seg (broadcastInDim S1024x1024 ![] bcast_S_S1024x1024 (constantI S_ 32 1000#32))) seg
  Host.gather gather_S1000x3_S1024x1024x1_S1024x1024x3_2_0_n_n_0_2_13 p
    (broadcastInDim S1024x1024x1 ![0, 1] bcast_S1024x1024_S1024x1024x1_0_1 s)

/-- Scale 2's tail on a [500, 3] layer output `x` and the [1024, 1024] index map `seg`: the rectifier (the maximum with the
    broadcast zero word); the softmax over the three columns (the row maximum from -∞, its maximum with the broadcast -∞,
    broadcast back over the columns, the difference, the exponential, the row sum from zero broadcast back, the quotient);
    the index normalisation (a negative index, as a signed word, has 500 added); and the gather of the rows the indices name. -/
def rtail2 (x : FVec Ideal S500x3 .f32) (seg : IVec S1024x1024 32) : FVec Ideal S1024x1024x3 .f32 :=
  let r := maximumf x (broadcastInDim S500x3 ![] bcast_S_S500x3 (constant (F := Ideal) S_ .f32 0x00000000#32))
  let m := broadcastInDim S500x3 ![0, 1] bcast_S500x1_S500x3_0_1
    (broadcastInDim S500x1 ![0] bcast_S500_S500x1_0
      (maximumf (broadcastInDim S500 ![] bcast_S_S500 (constant (F := Ideal) S_ .f32 0xFF800000#32))
        (Host.reduce FloatOps.maximumf r (constant (F := Ideal) S_ .f32 0xFF800000#32) reducesTo_S500x3_S500_d1 h_S_)))
  let e := Host.exp (F := Ideal) (subf r m)
  let z := broadcastInDim S500x3 ![0, 1] bcast_S500x1_S500x3_0_1
    (broadcastInDim S500x1 ![0] bcast_S500_S500x1_0
      (Host.reduceAdd (F := Ideal) e (constant (F := Ideal) S_ .f32 0x00000000#32) reducesTo_S500x3_S500_d1 h_S_))
  let p := Host.divf (F := Ideal) e z
  let s := select (cmpi .slt seg (broadcastInDim S1024x1024 ![] bcast_S_S1024x1024 (constantI S_ 32 0#32)))
    (addi seg (broadcastInDim S1024x1024 ![] bcast_S_S1024x1024 (constantI S_ 32 500#32))) seg
  Host.gather gather_S500x3_S1024x1024x1_S1024x1024x3_2_0_n_n_0_2_13 p
    (broadcastInDim S1024x1024x1 ![0, 1] bcast_S1024x1024_S1024x1024x1_0_1 s)

/-- The softmax of the three scale weights: the maximum from -∞, its maximum with -∞, broadcast to the three entries, the
    difference, the exponential, the sum from zero broadcast back, the quotient. -/
def rwsoft (sw : FVec Ideal S3 .f32) : FVec Ideal S3 .f32 :=
  let m := broadcastInDim S3 ![0] bcast_S1_S3_0
    (broadcastInDim S1 ![] bcast_S_S1
      (maximumf (constant (F := Ideal) S_ .f32 0xFF800000#32)
        (Host.reduce FloatOps.maximumf sw (constant (F := Ideal) S_ .f32 0xFF800000#32) reducesTo_S3_S_d0 h_S_)))
  let e := Host.exp (F := Ideal) (subf sw m)
  let z := broadcastInDim S3 ![0] bcast_S1_S3_0
    (broadcastInDim S1 ![] bcast_S_S1
      (Host.reduceAdd (F := Ideal) e (constant (F := Ideal) S_ .f32 0x00000000#32) reducesTo_S3_S_d0 h_S_))
  Host.divf (F := Ideal) e z

/-- The closing stage on three gathered maps and the weight argument: each map as a stack of one, the three stacks joined
    along the new leading axis, times the normalised weights reshaped to [3, 1, 1, 1] and broadcast over the maps, summed
    over the leading axis from the zero word. -/
def rfin (t0 t1 t2 : FVec Ideal S1024x1024x3 .f32) (sw : FVec Ideal S3 .f32) : FVec Ideal S1024x1024x3 .f32 :=
  Host.reduceAdd (F := Ideal)
    (mulf
      (concatenate S3x1024x1024x3 0
        [⟨S1x1024x1024x3, broadcastInDim S1x1024x1024x3 ![1, 2, 3] bcast_S1024x1024x3_S1x1024x1024x3_1_2_3 t0⟩,
         ⟨S1x1024x1024x3, broadcastInDim S1x1024x1024x3 ![1, 2, 3] bcast_S1024x1024x3_S1x1024x1024x3_1_2_3 t1⟩,
         ⟨S1x1024x1024x3, broadcastInDim S1x1024x1024x3 ![1, 2, 3] bcast_S1024x1024x3_S1x1024x1024x3_1_2_3 t2⟩]
        concatenates_S1x1024x1024x3_S1x1024x1024x3_S1x1024x1024x3_S3x1024x1024x3_d0)
      (broadcastInDim S3x1024x1024x3 ![0, 1, 2, 3] bcast_S3x1x1x1_S3x1024x1024x3_0_1_2_3
        (shapeCast S3x1x1x1 (rwsoft sw) shapeCasts_S3_S3x1x1x1)))
    (constant (F := Ideal) S_ .f32 0x00000000#32) reducesTo_S3x1024x1024x3_S1024x1024x3_d0 h_S_

/-! ## The closing stage read at an index -/

/-- The index (k, h, w, e) of the stack, from the index (h, w, e) of a map. -/
abbrev at4 (i : S1024x1024x3.Idx) (k : Fin 3) : S3x1024x1024x3.Idx := fun a => match a with
  | ⟨0, _⟩ => ⟨k.val, k.isLt⟩
  | ⟨1, _⟩ => ⟨(i 0).val, (i 0).isLt⟩
  | ⟨2, _⟩ => ⟨(i 1).val, (i 1).isLt⟩
  | ⟨3, _⟩ => ⟨(i 2).val, (i 2).isLt⟩

/-- The index (0, h, w, e) of a stack of one map, from the index (h, w, e) of the map. -/
abbrev up (i : S1024x1024x3.Idx) : S1x1024x1024x3.Idx := fun a => match a with
  | ⟨0, _⟩ => ⟨0, Nat.one_pos⟩
  | ⟨1, _⟩ => ⟨(i 0).val, (i 0).isLt⟩
  | ⟨2, _⟩ => ⟨(i 1).val, (i 1).isLt⟩
  | ⟨3, _⟩ => ⟨(i 2).val, (i 2).isLt⟩

/-- The index (k, 0, 0, 0) of the reshaped weights. -/
abbrev col (k : Fin 3) : S3x1x1x1.Idx := fun a => match a with
  | ⟨0, _⟩ => ⟨k.val, k.isLt⟩
  | ⟨1, _⟩ => ⟨0, Nat.one_pos⟩
  | ⟨2, _⟩ => ⟨0, Nat.one_pos⟩
  | ⟨3, _⟩ => ⟨0, Nat.one_pos⟩

/-- The sum over the leading axis from the zero word, at (h, w, e): the three entries (k, h, w, e) added up. -/
theorem sum0_apply (y : FVec Ideal S3x1024x1024x3 .f32) (i : S1024x1024x3.Idx) :
    Host.reduceAdd (F := Ideal) y (constant (F := Ideal) S_ .f32 0x00000000#32) reducesTo_S3x1024x1024x3_S1024x1024x3_d0 h_S_ i
      = y (at4 i 0) + y (at4 i 1) + y (at4 i 2) := by
  have h : Host.reduceAdd (F := Ideal) y (constant (F := Ideal) S_ .f32 0x00000000#32) reducesTo_S3x1024x1024x3_S1024x1024x3_d0 h_S_ i
      = Ideal.ofBits .f32 0x00000000#32 + ∑ k : Fin 3, y (at4 i k) := by
    simp only [Host.reduceAdd, Ideal.hostReduceAdd_def]
    rw [Ideal.hostReduceAdd_single reducesTo_S3x1024x1024x3_S1024x1024x3_d0 (by decide)]
    refine congrArg (_ + ·) (Finset.sum_congr rfl fun k _ => ?_)
    exact congrArg y (funext fun a => Fin.ext (by match a with | ⟨0, _⟩ => rfl | ⟨1, _⟩ => rfl | ⟨2, _⟩ => rfl | ⟨3, _⟩ => rfl))
  rw [h, Ideal.ofBits_zero_f32, zero_add, Fin.sum_univ_three]

/-- Three one-map stacks joined along the leading axis, read at (0, h, w, e): stack 0 at (0, h, w, e) — the stacks before
    it span 0 of the joined axis. -/
theorem stack_apply0 (P Q R : S1x1024x1024x3.Idx → EReal) (i : S1024x1024x3.Idx) :
    concatenate S3x1024x1024x3 0 [⟨S1x1024x1024x3, P⟩, ⟨S1x1024x1024x3, Q⟩, ⟨S1x1024x1024x3, R⟩]
      concatenates_S1x1024x1024x3_S1x1024x1024x3_S1x1024x1024x3_S3x1024x1024x3_d0 (at4 i 0) = P (up i) :=
  concatenate_apply_piece (t := S3x1024x1024x3) 0 _ _ _ 0 (by simp) S1x1024x1024x3 P rfl rfl 0 rfl (up i)
    (fun b hb => by
      match b, hb with
      | ⟨0, _⟩, hb => exact absurd rfl hb
      | ⟨1, _⟩, _ => rfl
      | ⟨2, _⟩, _ => rfl
      | ⟨3, _⟩, _ => rfl)
    rfl

/-- Three one-map stacks joined along the leading axis, read at (1, h, w, e): stack 1 at (0, h, w, e) — the stacks before
    it span 1 of the joined axis. -/
theorem stack_apply1 (P Q R : S1x1024x1024x3.Idx → EReal) (i : S1024x1024x3.Idx) :
    concatenate S3x1024x1024x3 0 [⟨S1x1024x1024x3, P⟩, ⟨S1x1024x1024x3, Q⟩, ⟨S1x1024x1024x3, R⟩]
      concatenates_S1x1024x1024x3_S1x1024x1024x3_S1x1024x1024x3_S3x1024x1024x3_d0 (at4 i 1) = Q (up i) :=
  concatenate_apply_piece (t := S3x1024x1024x3) 0 _ _ _ 1 (by simp) S1x1024x1024x3 Q rfl rfl 1 rfl (up i)
    (fun b hb => by
      match b, hb with
      | ⟨0, _⟩, hb => exact absurd rfl hb
      | ⟨1, _⟩, _ => rfl
      | ⟨2, _⟩, _ => rfl
      | ⟨3, _⟩, _ => rfl)
    rfl

/-- Three one-map stacks joined along the leading axis, read at (2, h, w, e): stack 2 at (0, h, w, e) — the stacks before
    it span 2 of the joined axis. -/
theorem stack_apply2 (P Q R : S1x1024x1024x3.Idx → EReal) (i : S1024x1024x3.Idx) :
    concatenate S3x1024x1024x3 0 [⟨S1x1024x1024x3, P⟩, ⟨S1x1024x1024x3, Q⟩, ⟨S1x1024x1024x3, R⟩]
      concatenates_S1x1024x1024x3_S1x1024x1024x3_S1x1024x1024x3_S3x1024x1024x3_d0 (at4 i 2) = R (up i) :=
  concatenate_apply_piece (t := S3x1024x1024x3) 0 _ _ _ 2 (by simp) S1x1024x1024x3 R rfl rfl 2 rfl (up i)
    (fun b hb => by
      match b, hb with
      | ⟨0, _⟩, hb => exact absurd rfl hb
      | ⟨1, _⟩, _ => rfl
      | ⟨2, _⟩, _ => rfl
      | ⟨3, _⟩, _ => rfl)
    rfl

/-- A map as a stack of one, at (0, h, w, e): the map at (h, w, e). -/
theorem single_apply (t : FVec Ideal S1024x1024x3 .f32) (i : S1024x1024x3.Idx) :
    broadcastInDim S1x1024x1024x3 ![1, 2, 3] bcast_S1024x1024x3_S1x1024x1024x3_1_2_3 t (up i) = t i :=
  broadcastInDim_apply _ bcast_S1024x1024x3_S1x1024x1024x3_1_2_3 t (up i) i (fun a => match a with
    | ⟨0, _⟩ => by show (i 0).val = if (1024 : Nat) = 1 then 0 else (i 0).val; rw [if_neg (by decide)]
    | ⟨1, _⟩ => by show (i 1).val = if (1024 : Nat) = 1 then 0 else (i 1).val; rw [if_neg (by decide)]
    | ⟨2, _⟩ => by show (i 2).val = if (3 : Nat) = 1 then 0 else (i 2).val; rw [if_neg (by decide)])

/-- Three weights reshaped to [3, 1, 1, 1] and broadcast over the maps, read at (k, h, w, e): weight k. -/
theorem wide_apply (w : FVec Ideal S3 .f32) (i : S1024x1024x3.Idx) (k : Fin 3) :
    broadcastInDim S3x1024x1024x3 ![0, 1, 2, 3] bcast_S3x1x1x1_S3x1024x1024x3_0_1_2_3
      (shapeCast S3x1x1x1 w shapeCasts_S3_S3x1x1x1) (at4 i k) = w (ix1 k) := by
  rw [broadcastInDim_apply _ bcast_S3x1x1x1_S3x1024x1024x3_0_1_2_3 _ (at4 i k) (col k) (fun a => match a with
    | ⟨0, _⟩ => by show k.val = if (3 : Nat) = 1 then 0 else k.val; rw [if_neg (by decide)]
    | ⟨1, _⟩ => by show 0 = if (1 : Nat) = 1 then 0 else (i 0).val; rw [if_pos rfl]
    | ⟨2, _⟩ => by show 0 = if (1 : Nat) = 1 then 0 else (i 1).val; rw [if_pos rfl]
    | ⟨3, _⟩ => by show 0 = if (1 : Nat) = 1 then 0 else (i 2).val; rw [if_pos rfl])]
  exact shapeCast_apply w shapeCasts_S3_S3x1x1x1 (col k) (ix1 k)
    (by rewrite [Shape.rowMajor_val_one, Shape.rowMajor_val_four]; show k.val = ((k.val * 1 + 0) * 1 + 0) * 1 + 0; omega)

/-- The closing law: the closing stage at an index is the three maps there, each times its normalised weight, summed (the
    extended reals' sum from zero over the three entries, the product pointwise, the stacks and the broadcast read at the
    index). -/
theorem rfin_apply (t0 t1 t2 : FVec Ideal S1024x1024x3 .f32) (sw : FVec Ideal S3 .f32) (i : S1024x1024x3.Idx) :
    rfin t0 t1 t2 sw i = t0 i * rwsoft sw (ix1 0) + t1 i * rwsoft sw (ix1 1) + t2 i * rwsoft sw (ix1 2) := by
  unfold rfin
  rw [sum0_apply]
  simp only [mulf_apply]
  rw [stack_apply0, stack_apply1, stack_apply2, single_apply, single_apply, single_apply, wide_apply, wide_apply, wide_apply]

/-! ## The stages are the tails of the layer outputs -/

/-- Scale 0's gathered map is the tail of the second layer's output and the index argument. -/
theorem tail0_stage (x0 : (⟨S2000x156, .f32⟩ : BufTy).Contents (Elt Ideal)) (x3 : (⟨S2000x2000, .i32⟩ : BufTy).Contents (Elt Ideal)) (x6 : (⟨S1024x1024, .i32⟩ : BufTy).Contents (Elt Ideal)) (x9 : (⟨S156x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal)) :
    Read.val_main_v62 (F := Ideal) x0 x3 x6 x9 x10 x11 x12 = rtail0 (Read.val_main_v43 (F := Ideal) x0 x3 x9 x10 x11 x12) x6 := rfl

/-- Scale 1's gathered map is the tail of the second layer's output and the index argument. -/
theorem tail1_stage (x1 : (⟨S1000x156, .f32⟩ : BufTy).Contents (Elt Ideal)) (x4 : (⟨S1000x1000, .i32⟩ : BufTy).Contents (Elt Ideal)) (x7 : (⟨S1024x1024, .i32⟩ : BufTy).Contents (Elt Ideal)) (x13 : (⟨S156x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) :
    Read.val_main_v125 (F := Ideal) x1 x4 x7 x13 x14 x15 x16 = rtail1 (Read.val_main_v106 (F := Ideal) x1 x4 x13 x14 x15 x16) x7 := rfl

/-- Scale 2's gathered map is the tail of the second layer's output and the index argument. -/
theorem tail2_stage (x2 : (⟨S500x156, .f32⟩ : BufTy).Contents (Elt Ideal)) (x5 : (⟨S500x500, .i32⟩ : BufTy).Contents (Elt Ideal)) (x8 : (⟨S1024x1024, .i32⟩ : BufTy).Contents (Elt Ideal)) (x17 : (⟨S156x64, .f32⟩ : BufTy).Contents (Elt Ideal)) (x18 : (⟨S64, .f32⟩ : BufTy).Contents (Elt Ideal)) (x19 : (⟨S64x3, .f32⟩ : BufTy).Contents (Elt Ideal)) (x20 : (⟨S3, .f32⟩ : BufTy).Contents (Elt Ideal)) :
    Read.val_main_v188 (F := Ideal) x2 x5 x8 x17 x18 x19 x20 = rtail2 (Read.val_main_v169 (F := Ideal) x2 x5 x17 x18 x19 x20) x8 := rfl

/-- The normalised weights are the softmax of the weight argument. -/
theorem wsoft_stage (x21 : (⟨S3, .f32⟩ : BufTy).Contents (Elt Ideal)) : Read.val_main_v202 (F := Ideal) x21 = rwsoft x21 := rfl

/-- The last stage is the closing stage of the three gathered maps and the weight argument. -/
theorem fin_stage (x0 : (⟨S2000x156, .f32⟩ : BufTy).Contents (Elt Ideal)) (x1 : (⟨S1000x156, .f32⟩ : BufTy).Contents (Elt Ideal)) (x2 : (⟨S500x156, .f32⟩ : BufTy).Contents (Elt Ideal)) (x3 : (⟨S2000x2000, .i32⟩ : BufTy).Contents (Elt Ideal)) (x4 : (⟨S1000x1000, .i32⟩ : BufTy).Contents (Elt Ideal)) (x5 : (⟨S500x500, .i32⟩ : BufTy).Contents (Elt Ideal)) (x6 : (⟨S1024x1024, .i32⟩ : BufTy).Contents (Elt Ideal)) (x7 : (⟨S1024x1024, .i32⟩ : BufTy).Contents (Elt Ideal)) (x8 : (⟨S1024x1024, .i32⟩ : BufTy).Contents (Elt Ideal)) (x9 : (⟨S156x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal)) (x13 : (⟨S156x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) (x17 : (⟨S156x64, .f32⟩ : BufTy).Contents (Elt Ideal)) (x18 : (⟨S64, .f32⟩ : BufTy).Contents (Elt Ideal)) (x19 : (⟨S64x3, .f32⟩ : BufTy).Contents (Elt Ideal)) (x20 : (⟨S3, .f32⟩ : BufTy).Contents (Elt Ideal)) (x21 : (⟨S3, .f32⟩ : BufTy).Contents (Elt Ideal)) :
    Read.val_main_v206 (F := Ideal) x0 x1 x2 x3 x4 x5 x6 x7 x8 x9 x10 x11 x12 x13 x14 x15 x16 x17 x18 x19 x20 x21
      = rfin (Read.val_main_v62 (F := Ideal) x0 x3 x6 x9 x10 x11 x12) (Read.val_main_v125 (F := Ideal) x1 x4 x7 x13 x14 x15 x16)
          (Read.val_main_v188 (F := Ideal) x2 x5 x8 x17 x18 x19 x20) x21 := rfl

/-- The reference's last stage at an index: the three gathered maps there, each times its normalised weight, summed. -/
theorem result_apply (x0 : (⟨S2000x156, .f32⟩ : BufTy).Contents (Elt Ideal)) (x1 : (⟨S1000x156, .f32⟩ : BufTy).Contents (Elt Ideal)) (x2 : (⟨S500x156, .f32⟩ : BufTy).Contents (Elt Ideal)) (x3 : (⟨S2000x2000, .i32⟩ : BufTy).Contents (Elt Ideal)) (x4 : (⟨S1000x1000, .i32⟩ : BufTy).Contents (Elt Ideal)) (x5 : (⟨S500x500, .i32⟩ : BufTy).Contents (Elt Ideal)) (x6 : (⟨S1024x1024, .i32⟩ : BufTy).Contents (Elt Ideal)) (x7 : (⟨S1024x1024, .i32⟩ : BufTy).Contents (Elt Ideal)) (x8 : (⟨S1024x1024, .i32⟩ : BufTy).Contents (Elt Ideal)) (x9 : (⟨S156x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal)) (x13 : (⟨S156x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) (x17 : (⟨S156x64, .f32⟩ : BufTy).Contents (Elt Ideal)) (x18 : (⟨S64, .f32⟩ : BufTy).Contents (Elt Ideal)) (x19 : (⟨S64x3, .f32⟩ : BufTy).Contents (Elt Ideal)) (x20 : (⟨S3, .f32⟩ : BufTy).Contents (Elt Ideal)) (x21 : (⟨S3, .f32⟩ : BufTy).Contents (Elt Ideal)) (i : S1024x1024x3.Idx) :
    Read.val_main_v206 (F := Ideal) x0 x1 x2 x3 x4 x5 x6 x7 x8 x9 x10 x11 x12 x13 x14 x15 x16 x17 x18 x19 x20 x21 i
      = Read.val_main_v62 (F := Ideal) x0 x3 x6 x9 x10 x11 x12 i * Read.val_main_v202 (F := Ideal) x21 (ix1 0)
      + Read.val_main_v125 (F := Ideal) x1 x4 x7 x13 x14 x15 x16 i * Read.val_main_v202 (F := Ideal) x21 (ix1 1)
      + Read.val_main_v188 (F := Ideal) x2 x5 x8 x17 x18 x19 x20 i * Read.val_main_v202 (F := Ideal) x21 (ix1 2) := by
  rw [fin_stage, rfin_apply, wsoft_stage]

end Cert.Proof.Ref

end
-- ==== Proof.Ref.TailRun.lean ====
/-
  What the reference's tail chunks and closing chunk leave in their result buffers, for any contents they start from: a
  scale's tail chunk the tail (`rtail0`, `rtail1`, `rtail2`) of what the layer's output buffer and the index argument
  hold; the closing chunk the closing stage (`rfin`) of what the three gathered maps' buffers and the weight argument hold.
  Each operation's result is read at its own buffer and skipped at every other, and what is left is the composition the
  definition spells.
-/
import proofs.«123632_j87531433492498_2_alg».proof.Proof.Ref.Chunks
import proofs.«123632_j87531433492498_2_alg».proof.Proof.Ref.Tail

noncomputable section

namespace Cert.Proof.Ref

open Cert.ReferenceIdeal Cert.ReferenceIdeal.Gen Idealize.ShloMosaic Idealize.ShloMosaic.TcCoe Idealize.SL.Sem Idealize.ShloMosaic.StableHlo

/-! ## What the tail chunks and the closing chunk leave in their result buffers -/

/-- A three-operand operation's result with each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (G : Valuation τ sig (Elt Ideal)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- Scale 0's tail chunk leaves in the gathered map's buffer the tail of what the layer's output buffer and the index
    argument hold. -/
theorem after_T0 (V : Valuation τ sig (Elt Ideal)) :
    after (T0 (F := Ideal)) V (Proc.devRef .tc main_v62)
      = rtail0 (V (Proc.devRef .tc main_v43)) (V (Proc.devRef .tc main_arg6)) := by
  after_results_simp
  rfl

/-- Scale 1's tail chunk leaves in the gathered map's buffer the tail of what the layer's output buffer and the index
    argument hold. -/
theorem after_T1 (V : Valuation τ sig (Elt Ideal)) :
    after (T1 (F := Ideal)) V (Proc.devRef .tc main_v125)
      = rtail1 (V (Proc.devRef .tc main_v106)) (V (Proc.devRef .tc main_arg7)) := by
  after_results_simp
  rfl

/-- Scale 2's tail chunk leaves in the gathered map's buffer the tail of what the layer's output buffer and the index
    argument hold. -/
theorem after_T2 (V : Valuation τ sig (Elt Ideal)) :
    after (T2 (F := Ideal)) V (Proc.devRef .tc main_v188)
      = rtail2 (V (Proc.devRef .tc main_v169)) (V (Proc.devRef .tc main_arg8)) := by
  after_results_simp
  rfl

/-- The closing chunk leaves in the result buffer the closing stage of what the three gathered maps' buffers and the
    weight argument hold. -/
theorem after_FIN (V : Valuation τ sig (Elt Ideal)) :
    after (FIN (F := Ideal)) V (Proc.devRef .tc main_v206)
      = rfin (V (Proc.devRef .tc main_v62)) (V (Proc.devRef .tc main_v125)) (V (Proc.devRef .tc main_v188))
          (V (Proc.devRef .tc main_arg21)) := by
  simp only [after_cons, after_nil]
  -- the contents once the three maps are stacked: the rest of the chunk reads the stack and the weight argument
  generalize hW : (nary ![main_v189, main_v190, main_v191] main_v192 _ _ _).result _ = W
  after_results_simp
  subst hW
  rw [nary3_result]
  repeat (first
    | rw [unary_result]
    | (rw [unary_result_ne]; rotate_left; decide)
    | (rw [nary_result_ne]; rotate_left; decide))
  rfl

end Cert.Proof.Ref

end
-- ==== Proof.Ref.Run.lean ====
/-
  The reference's run read back. Its operation list is ten consecutive chunks; a scale's two attention layers leave the
  second layer's stage of the scale's arguments, its tail chunk leaves the tail of that and the scale's index argument, no
  later chunk writes the gathered map's buffer, and the closing chunk leaves the closing stage of the three gathered maps
  and the weight argument. So from any contents `V` the whole list leaves, in the result buffer,

    rfin (rtail0 (second layer of scale 0) (index 0)) (rtail1 (… of scale 1) (index 1)) (rtail2 (… of scale 2) (index 2)) (weights)

  of `V`'s argument buffers (`ref_after`), and leaves every argument buffer as it was (`ref_args`); with the run of the
  list from a launch (`run_after`) that is the reference's run (`ref_run`) and its frame (`frame_ri`).
-/
import proofs.«123632_j87531433492498_2_alg».proof.Proof.Ref.LayerRun
import proofs.«123632_j87531433492498_2_alg».proof.Proof.Ref.TailRun
import proofs.«123632_j87531433492498_2_alg».proof.Defs
import proofs.«123632_j87531433492498_2_alg».proof.Proof.Gen.Pre_finite_inputs

noncomputable section

namespace Cert.Proof.Ref

open Cert.ReferenceIdeal Cert.ReferenceIdeal.Gen Cert.ReferenceIdeal.Read Idealize.ShloMosaic Idealize.ShloMosaic.TcCoe Idealize.SL.Sem Idealize.ShloMosaic.StableHlo

/-! ## A scale's three chunks leave alone what they do not write -/

theorem keep0 (V : Valuation τ sig (Elt Ideal)) {r : Ref sig .tc} (h0 : r ∉ L0a_W) (h1 : r ∉ L0b_W) (h2 : r ∉ T0_W) :
    after T0 (after L0b (after L0a V)) (Proc.devRef .tc r) = V (Proc.devRef .tc r) := by
  rw [T0_keep _ h2, L0b_keep _ h1, L0a_keep _ h0]

theorem keep1 (V : Valuation τ sig (Elt Ideal)) {r : Ref sig .tc} (h0 : r ∉ L1a_W) (h1 : r ∉ L1b_W) (h2 : r ∉ T1_W) :
    after T1 (after L1b (after L1a V)) (Proc.devRef .tc r) = V (Proc.devRef .tc r) := by
  rw [T1_keep _ h2, L1b_keep _ h1, L1a_keep _ h0]

theorem keep2 (V : Valuation τ sig (Elt Ideal)) {r : Ref sig .tc} (h0 : r ∉ L2a_W) (h1 : r ∉ L2b_W) (h2 : r ∉ T2_W) :
    after T2 (after L2b (after L2a V)) (Proc.devRef .tc r) = V (Proc.devRef .tc r) := by
  rw [T2_keep _ h2, L2b_keep _ h1, L2a_keep _ h0]

/-! ## A scale's three chunks leave the scale's gathered map -/

/-- Scale 0: the tail of the second layer's stage of the six arguments, and the index argument. -/
theorem block0 (V : Valuation τ sig (Elt Ideal)) :
    after T0 (after L0b (after L0a V)) (Proc.devRef .tc main_v62)
      = rtail0 (val_main_v43 (F := Ideal) (V (Proc.devRef .tc main_arg0)) (V (Proc.devRef .tc main_arg3)) (V (Proc.devRef .tc main_arg9)) (V (Proc.devRef .tc main_arg10)) (V (Proc.devRef .tc main_arg11)) (V (Proc.devRef .tc main_arg12))) (V (Proc.devRef .tc main_arg6)) := by
  rw [after_T0, L0_out, L0b_keep _ (r := main_arg6) (by decide), L0a_keep _ (r := main_arg6) (by decide)]

/-- Scale 1. -/
theorem block1 (V : Valuation τ sig (Elt Ideal)) :
    after T1 (after L1b (after L1a V)) (Proc.devRef .tc main_v125)
      = rtail1 (val_main_v106 (F := Ideal) (V (Proc.devRef .tc main_arg1)) (V (Proc.devRef .tc main_arg4)) (V (Proc.devRef .tc main_arg13)) (V (Proc.devRef .tc main_arg14)) (V (Proc.devRef .tc main_arg15)) (V (Proc.devRef .tc main_arg16))) (V (Proc.devRef .tc main_arg7)) := by
  rw [after_T1, L1_out, L1b_keep _ (r := main_arg7) (by decide), L1a_keep _ (r := main_arg7) (by decide)]

/-- Scale 2. -/
theorem block2 (V : Valuation τ sig (Elt Ideal)) :
    after T2 (after L2b (after L2a V)) (Proc.devRef .tc main_v188)
      = rtail2 (val_main_v169 (F := Ideal) (V (Proc.devRef .tc main_arg2)) (V (Proc.devRef .tc main_arg5)) (V (Proc.devRef .tc main_arg17)) (V (Proc.devRef .tc main_arg18)) (V (Proc.devRef .tc main_arg19)) (V (Proc.devRef .tc main_arg20))) (V (Proc.devRef .tc main_arg8)) := by
  rw [after_T2, L2_out, L2b_keep _ (r := main_arg8) (by decide), L2a_keep _ (r := main_arg8) (by decide)]

/-! ## The whole list -/

/-- What the operation list leaves in the result buffer, from any contents: the closing stage of the three scales'
    gathered maps, each the tail of its scale's second attention layer, and the weight argument. -/
theorem ref_after (V : Valuation τ sig (Elt Ideal)) :
    after (Cert.ReferenceIdeal.Value.ops (F := Ideal)) V (Proc.devRef .tc main_v206)
      = rfin (rtail0 (val_main_v43 (F := Ideal) (V (Proc.devRef .tc main_arg0)) (V (Proc.devRef .tc main_arg3)) (V (Proc.devRef .tc main_arg9)) (V (Proc.devRef .tc main_arg10)) (V (Proc.devRef .tc main_arg11)) (V (Proc.devRef .tc main_arg12))) (V (Proc.devRef .tc main_arg6)))
          (rtail1 (val_main_v106 (F := Ideal) (V (Proc.devRef .tc main_arg1)) (V (Proc.devRef .tc main_arg4)) (V (Proc.devRef .tc main_arg13)) (V (Proc.devRef .tc main_arg14)) (V (Proc.devRef .tc main_arg15)) (V (Proc.devRef .tc main_arg16))) (V (Proc.devRef .tc main_arg7)))
          (rtail2 (val_main_v169 (F := Ideal) (V (Proc.devRef .tc main_arg2)) (V (Proc.devRef .tc main_arg5)) (V (Proc.devRef .tc main_arg17)) (V (Proc.devRef .tc main_arg18)) (V (Proc.devRef .tc main_arg19)) (V (Proc.devRef .tc main_arg20))) (V (Proc.devRef .tc main_arg8)))
          (V (Proc.devRef .tc main_arg21)) := by
  rw [after_ops, after_FIN]
  -- scale 0's map: untouched by scales 2 and 1
  rw [keep2 _ (r := main_v62) (by decide) (by decide) (by decide), keep1 _ (r := main_v62) (by decide) (by decide) (by decide), block0]
  -- scale 1's map: untouched by scale 2; its arguments untouched by scale 0
  rw [keep2 _ (r := main_v125) (by decide) (by decide) (by decide), block1]
  rw [keep0 _ (r := main_arg1) (by decide) (by decide) (by decide),
    keep0 _ (r := main_arg4) (by decide) (by decide) (by decide),
    keep0 _ (r := main_arg13) (by decide) (by decide) (by decide),
    keep0 _ (r := main_arg14) (by decide) (by decide) (by decide),
    keep0 _ (r := main_arg15) (by decide) (by decide) (by decide),
    keep0 _ (r := main_arg16) (by decide) (by decide) (by decide),
    keep0 _ (r := main_arg7) (by decide) (by decide) (by decide)]
  -- scale 2's map; its arguments untouched by scales 1 and 0
  rw [block2]
  rw [keep1 _ (r := main_arg2) (by decide) (by decide) (by decide), keep0 _ (r := main_arg2) (by decide) (by decide) (by decide),
    keep1 _ (r := main_arg5) (by decide) (by decide) (by decide), keep0 _ (r := main_arg5) (by decide) (by decide) (by decide),
    keep1 _ (r := main_arg17) (by decide) (by decide) (by decide), keep0 _ (r := main_arg17) (by decide) (by decide) (by decide),
    keep1 _ (r := main_arg18) (by decide) (by decide) (by decide), keep0 _ (r := main_arg18) (by decide) (by decide) (by decide),
    keep1 _ (r := main_arg19) (by decide) (by decide) (by decide), keep0 _ (r := main_arg19) (by decide) (by decide) (by decide),
    keep1 _ (r := main_arg20) (by decide) (by decide) (by decide), keep0 _ (r := main_arg20) (by decide) (by decide) (by decide),
    keep1 _ (r := main_arg8) (by decide) (by decide) (by decide), keep0 _ (r := main_arg8) (by decide) (by decide) (by decide)]
  -- the weights
  rw [keep2 _ (r := main_arg21) (by decide) (by decide) (by decide), keep1 _ (r := main_arg21) (by decide) (by decide) (by decide), keep0 _ (r := main_arg21) (by decide) (by decide) (by decide)]

/-- The result buffer, as the reference's last stage of the 22 arguments. -/
theorem ref_after_stage (V : Valuation τ sig (Elt Ideal)) :
    after (Cert.ReferenceIdeal.Value.ops (F := Ideal)) V (Proc.devRef .tc main_v206)
      = val_main_v206 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
  rw [ref_after, fin_stage, tail0_stage, tail1_stage, tail2_stage]

/-- The 22 argument references. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- The operation list leaves every argument buffer as it was. -/
theorem ref_args (V : Valuation τ sig (Elt Ideal)) (r : Ref sig .tc) (hr : r ∈ argRefs) :
    after (Cert.ReferenceIdeal.Value.ops (F := Ideal)) V (Proc.devRef .tc r) = V (Proc.devRef .tc r) :=
  ops_keep V ((by decide : ∀ r ∈ argRefs, r ∉ L0a_W) r hr) ((by decide : ∀ r ∈ argRefs, r ∉ L0b_W) r hr)
    ((by decide : ∀ r ∈ argRefs, r ∉ T0_W) r hr) ((by decide : ∀ r ∈ argRefs, r ∉ L1a_W) r hr)
    ((by decide : ∀ r ∈ argRefs, r ∉ L1b_W) r hr) ((by decide : ∀ r ∈ argRefs, r ∉ T1_W) r hr)
    ((by decide : ∀ r ∈ argRefs, r ∉ L2a_W) r hr) ((by decide : ∀ r ∈ argRefs, r ∉ L2b_W) r hr)
    ((by decide : ∀ r ∈ argRefs, r ∉ T2_W) r hr) ((by decide : ∀ r ∈ argRefs, r ∉ FIN_W) r hr)

/-- On every device, from any memory with zero counters: every weakly fair execution of the reference terminates with the
    result buffer at the closing stage of the launch's argument buffers, and every argument buffer unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v206)
          = val_main_v206 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ ∀ b ∈ argRefs, r.2.mem ((c.tc : Thread nD τ).loc b) = m ((c.tc : Thread nD τ).loc b) :=
  (θ_run defs _ _).mono (fun _ h c => ⟨(h c main_v206).trans (ref_after_stage (launchContents m c)),
      fun b hb => (h c b).trans (ref_args (launchContents m c) b hb)⟩)
    (Cert.ReferenceIdeal.Value.run_after m ρ)

/-- The reference's frame: it runs, and its argument arrays end unchanged. -/
theorem frame_ri : Cert.frame_ReferenceIdeal := fun m ρ _ =>
  (θ_run (Cert.ReferenceIdeal.defs (F := Ideal)) _ _).mono (fun _ h c =>
    ⟨(h c main_arg0).trans (ref_args (launchContents m c) main_arg0 (by decide)),
     (h c main_arg1).trans (ref_args (launchContents m c) main_arg1 (by decide)),
     (h c main_arg2).trans (ref_args (launchContents m c) main_arg2 (by decide)),
     (h c main_arg3).trans (ref_args (launchContents m c) main_arg3 (by decide)),
     (h c main_arg4).trans (ref_args (launchContents m c) main_arg4 (by decide)),
     (h c main_arg5).trans (ref_args (launchContents m c) main_arg5 (by decide)),
     (h c main_arg6).trans (ref_args (launchContents m c) main_arg6 (by decide)),
     (h c main_arg7).trans (ref_args (launchContents m c) main_arg7 (by decide)),
     (h c main_arg8).trans (ref_args (launchContents m c) main_arg8 (by decide)),
     (h c main_arg9).trans (ref_args (launchContents m c) main_arg9 (by decide)),
     (h c main_arg10).trans (ref_args (launchContents m c) main_arg10 (by decide)),
     (h c main_arg11).trans (ref_args (launchContents m c) main_arg11 (by decide)),
     (h c main_arg12).trans (ref_args (launchContents m c) main_arg12 (by decide)),
     (h c main_arg13).trans (ref_args (launchContents m c) main_arg13 (by decide)),
     (h c main_arg14).trans (ref_args (launchContents m c) main_arg14 (by decide)),
     (h c main_arg15).trans (ref_args (launchContents m c) main_arg15 (by decide)),
     (h c main_arg16).trans (ref_args (launchContents m c) main_arg16 (by decide)),
     (h c main_arg17).trans (ref_args (launchContents m c) main_arg17 (by decide)),
     (h c main_arg18).trans (ref_args (launchContents m c) main_arg18 (by decide)),
     (h c main_arg19).trans (ref_args (launchContents m c) main_arg19 (by decide)),
     (h c main_arg20).trans (ref_args (launchContents m c) main_arg20 (by decide)),
     (h c main_arg21).trans (ref_args (launchContents m c) main_arg21 (by decide))⟩)
    (Cert.ReferenceIdeal.Value.run_after (F := Ideal) m ρ)

end Cert.Proof.Ref

end
-- ==== Proof.Gat.HostConv.lean ====
/-
  The host program's spelling of a dense layer and of one graph-attention layer, read index by index at the extended
  reals, is the specification's `lin` and `att`: over plain matrix shapes of any size.

  * a plain matrix product at (p, q) is the sum over k of the left operand at (p, k) times the right at (k, q);
  * the broadcasts the program uses (a scalar to any shape, a vector to a row or a column, a row down the rows, a column
    across the columns) read their operand at the evident entry;
  * the maximum over the column axis, started at the word of -∞, is the row maximum, and the sum over that axis, started at
    the zero word, is the row sum;
  * so the dense layer is `lin`, the masked scores are `score`, the exponentials less the row maximum are `expo`, the
    quotient by the row sum followed by the product with the values and the clamp at zero is `att`.
-/
import proofs.«123632_j87531433492498_2_alg».proof.Proof.Gat.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

open Idealize.ShloMosaic Idealize.ShloMosaic.ValueIdx

namespace Cert.Gat

/-- The shape of a scalar. -/
abbrev Sc : Shape := ⟨0, ![]⟩

/-! ## The three constant words -/

/-- The word of -∞ is the least extended real. -/
theorem negInf_eq_bot : negInf = ⊥ := by
  unfold negInf
  simp [Ideal.ofBits, Ideal.ieee]

/-- The zero word is the extended real 0. -/
theorem zero_eq : zero = 0 := Ideal.ofBits_zero_f32

/-- The maximum with -∞ on the left is the other operand. -/
theorem max_negInf_left (x : EReal) : max negInf x = x := by
  rw [negInf_eq_bot]; exact max_eq_right bot_le

/-! ## A plain matrix product at an entry -/

/-- The operand indices of a plain M × K by K × N product at output index i and contraction index q: (i 0, q) and (q, i 1). -/
theorem plain_axes {M K N : ℕ} (i : (Mat M N).Idx) (q : (DotDims.plain M K N).contr.Idx) :
    ((DotDims.plain M K N).lhsIdx i q 0).val = (i 0).val
    ∧ ((DotDims.plain M K N).lhsIdx i q 1).val = (q ⟨0, by show 0 < 1; exact Nat.one_pos⟩).val
    ∧ ((DotDims.plain M K N).rhsIdx i q 0).val = (q ⟨0, by show 0 < 1; exact Nat.one_pos⟩).val
    ∧ ((DotDims.plain M K N).rhsIdx i q 1).val = (i 1).val :=
  ⟨rfl, rfl, rfl, rfl⟩

/-- The host's product with plain dimension numbers, at (p, q): ∑ k, X (p, k) · Y (k, q). -/
theorem host_dot_plain {M K N : ℕ} (d : DotDims (Mat M K) (Mat K N) (Mat M N)) (hd : d = DotDims.plain M K N)
    (X : (Mat M K).Idx → EReal) (Y : (Mat K N).Idx → EReal) (p : Fin M) (q : Fin N) :
    Host.dotGeneral (F := Ideal) (φ₁ := .f32) (φ₂ := .f32) d none X Y (ix2 p q) = ∑ k : Fin K, X (ix2 p k) * Y (ix2 k q) := by
  subst hd
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  obtain ⟨h0, h1, h2, h3⟩ := plain_axes (K := K) (ix2 p q) ((contrEquiv1 (DotDims.plain M K N) K rfl rfl).symm k)
  have el : (DotDims.plain M K N).lhsIdx (ix2 p q) ((contrEquiv1 (DotDims.plain M K N) K rfl rfl).symm k) = ix2 p k :=
    funext fun a => Fin.ext (by
      match a with
      | ⟨0, _⟩ => exact h0
      | ⟨1, _⟩ => exact h1.trans hk)
  have er : (DotDims.plain M K N).rhsIdx (ix2 p q) ((contrEquiv1 (DotDims.plain M K N) K rfl rfl).symm k) = ix2 k q :=
    funext fun a => Fin.ext (by
      match a with
      | ⟨0, _⟩ => exact h2.trans hk
      | ⟨1, _⟩ => exact h3)
  rw [el, er]

/-! ## The broadcasts, at an entry -/

section Broadcasts
variable {α : Type}

/-- A scalar broadcast to any shape reads the scalar's one element everywhere. -/
theorem bcast_scalar_apply {S : Shape} (h : Sc.BroadcastsInDim S (![] : Fin 0 → Fin S.rank)) (x : Sc.Idx → α) (j : S.Idx) :
    broadcastInDim S ![] h x j = x ix0 :=
  broadcastInDim_apply _ h x j ix0 (fun a => a.elim0)

/-- A length-H vector laid as the one row of a 1 × H matrix. -/
theorem bcast_row_apply {H : ℕ} (h : (Vc H).BroadcastsInDim (Mat 1 H) (![1] : Fin 1 → Fin (Mat 1 H).rank))
    (b : (Vc H).Idx → α) (r : Fin 1) (c : Fin H) :
    broadcastInDim (Mat 1 H) ![1] h b (ix2 r c) = b (ix1 c) := by
  refine broadcastInDim_apply _ h b (ix2 r c) (ix1 c) fun a => ?_
  match a with
  | ⟨0, _⟩ =>
    show c.val = if H = 1 then 0 else c.val
    split
    · have := c.isLt; omega
    · rfl

/-- One row repeated down N rows. -/
theorem bcast_rows_apply {N H : ℕ} (h : (Mat 1 H).BroadcastsInDim (Mat N H) (![0, 1] : Fin 2 → Fin (Mat N H).rank))
    (y : (Mat 1 H).Idx → α) (p : Fin N) (c : Fin H) :
    broadcastInDim (Mat N H) ![0, 1] h y (ix2 p c) = y (ix2 (0 : Fin 1) c) := by
  refine broadcastInDim_apply _ h y (ix2 p c) (ix2 (0 : Fin 1) c) fun a => ?_
  match a with
  | ⟨0, _⟩ =>
    show 0 = if (1 : ℕ) = 1 then 0 else p.val
    rw [if_pos rfl]
  | ⟨1, _⟩ =>
    show c.val = if H = 1 then 0 else c.val
    split
    · have := c.isLt; omega
    · rfl

/-- A length-M vector laid as the one column of an M × 1 matrix. -/
theorem bcast_col_apply {M : ℕ} (h : (Vc M).BroadcastsInDim (Mat M 1) (![0] : Fin 1 → Fin (Mat M 1).rank))
    (y : (Vc M).Idx → α) (p : Fin M) (z : Fin 1) :
    broadcastInDim (Mat M 1) ![0] h y (ix2 p z) = y (ix1 p) := by
  refine broadcastInDim_apply _ h y (ix2 p z) (ix1 p) fun a => ?_
  match a with
  | ⟨0, _⟩ =>
    show p.val = if M = 1 then 0 else p.val
    split
    · have := p.isLt; omega
    · rfl

/-- One column repeated across N columns. -/
theorem bcast_cols_apply {M N : ℕ} (h : (Mat M 1).BroadcastsInDim (Mat M N) (![0, 1] : Fin 2 → Fin (Mat M N).rank))
    (y : (Mat M 1).Idx → α) (p : Fin M) (l : Fin N) :
    broadcastInDim (Mat M N) ![0, 1] h y (ix2 p l) = y (ix2 p (0 : Fin 1)) := by
  refine broadcastInDim_apply _ h y (ix2 p l) (ix2 p (0 : Fin 1)) fun a => ?_
  match a with
  | ⟨0, _⟩ =>
    show p.val = if M = 1 then 0 else p.val
    split
    · have := p.isLt; omega
    · rfl
  | ⟨1, _⟩ =>
    show 0 = if (1 : ℕ) = 1 then 0 else l.val
    rw [if_pos rfl]

end Broadcasts

/-! ## The two reductions over the column axis, at a row -/

/-- The shape fact of a reduction over the column axis, in the form that names the inserted index. -/
theorem reduces_of_reducesTo {M N : ℕ} (h' : (Mat M N).ReducesTo [1] (Vc M)) : (Mat M N).Reduces [1] (Vc M) :=
  ⟨h'.1, Nat.one_pos, h'.2⟩

/-- Row p with column l inserted is the entry (p, l). -/
theorem lift_row {M N : ℕ} (h : (Mat M N).Reduces [1] (Vc M)) (p : Fin M) (l : Fin N) :
    h.lift (ix1 p) l = ix2 p l :=
  funext fun c => Fin.ext (by
    match c with
    | ⟨0, _⟩ => rfl
    | ⟨1, _⟩ => rfl)

/-- The host's maximum over the column axis from the word of -∞ is the row maximum. -/
theorem host_rowMax {M N : ℕ} (h' : (Mat M N).ReducesTo [1] (Vc M)) (hu : 0 < Sc.numel)
    (x : (Mat M N).Idx → EReal) (p : Fin M) :
    Host.reduce (FloatOps.maximumf (F := Ideal) (φ := .f32)) x (constant (F := Ideal) Sc .f32 0xFF800000#32) h' hu (ix1 p)
      = rowMax x p := by
  rw [Host.reduce_eq_fold_single (FloatOps.maximumf (F := Ideal) (φ := .f32)) x _ h' (reduces_of_reducesTo h') hu (ix1 p)]
  have hf : (x ∘ (reduces_of_reducesTo h').lift (ix1 p)) = fun l : Fin N => x (ix2 p l) :=
    funext fun l => congrArg x (lift_row _ p l)
  rw [hf]
  rfl

/-- The host's sum over the column axis from the zero word is the row sum. -/
theorem host_rowSum {M N : ℕ} (h' : (Mat M N).ReducesTo [1] (Vc M)) (hu : 0 < Sc.numel)
    (x : (Mat M N).Idx → EReal) (p : Fin M) :
    Host.reduceAdd (F := Ideal) (φ := .f32) x (constant (F := Ideal) Sc .f32 0x00000000#32) h' hu (ix1 p)
      = ∑ l : Fin N, x (ix2 p l) := by
  simp only [Host.reduceAdd, Ideal.hostReduceAdd_def]
  rw [Ideal.hostReduceAdd_single h' (reduces_of_reducesTo h')]
  show Ideal.ofBits .f32 0x00000000#32 + _ = _
  rw [Ideal.ofBits_zero_f32, zero_add]
  exact Finset.sum_congr rfl fun l _ => congrArg x (lift_row _ p l)

/-! ## The dense layer -/

/-- The host's dense layer: the plain product plus the bias laid as a row and repeated down the rows. -/
theorem host_lin {N K H : ℕ} (d : DotDims (Mat N K) (Mat K H) (Mat N H)) (hd : d = DotDims.plain N K H)
    (h1 : (Vc H).BroadcastsInDim (Mat 1 H) (![1] : Fin 1 → Fin (Mat 1 H).rank))
    (h2 : (Mat 1 H).BroadcastsInDim (Mat N H) (![0, 1] : Fin 2 → Fin (Mat N H).rank))
    (X : (Mat N K).Idx → EReal) (W : (Mat K H).Idx → EReal) (b : (Vc H).Idx → EReal) :
    addf (F := Ideal) (φ := .f32) (Host.dotGeneral (F := Ideal) (φ₁ := .f32) (φ₂ := .f32) d none X W)
        (broadcastInDim (Mat N H) ![0, 1] h2 (broadcastInDim (Mat 1 H) ![1] h1 b))
      = lin X W b := by
  funext i
  obtain ⟨p, c, rfl⟩ : ∃ (p : Fin N) (c : Fin H), i = ix2 p c := ⟨i 0, i 1, eq_ix2 i⟩
  show Host.dotGeneral (F := Ideal) (φ₁ := .f32) (φ₂ := .f32) d none X W (ix2 p c)
      + broadcastInDim (Mat N H) ![0, 1] h2 (broadcastInDim (Mat 1 H) ![1] h1 b) (ix2 p c)
    = (∑ k : Fin K, X (ix2 p k) * W (ix2 k c)) + b (ix1 c)
  rw [host_dot_plain d hd, bcast_rows_apply, bcast_row_apply]

/-! ## One attention layer, as the host spells it -/

section Chain
variable {N D : ℕ}

/-- The masked scores: the product of the rows with their transpose where the adjacency word is positive, the word of
    -1e9 elsewhere. -/
def hostScore (d5 : DotDims (Mat N D) (Mat D N) (Mat N N)) (hT : (Mat N D).Transposes [1, 0] (Mat D N))
    (hb : Sc.BroadcastsInDim (Mat N N) (![] : Fin 0 → Fin (Mat N N).rank))
    (H : (Mat N D).Idx → EReal) (A : (Mat N N).Idx → BitVec 32) : (Mat N N).Idx → EReal :=
  select (cmpi .sgt A (broadcastInDim (Mat N N) ![] hb (constantI Sc 32 0#32)))
    (Host.dotGeneral (F := Ideal) (φ₁ := .f32) (φ₂ := .f32) d5 none H (transpose (Mat D N) [1, 0] H hT))
    (broadcastInDim (Mat N N) ![] hb (id (constant (F := Ideal) Sc .f32 0xCE6E6B28#32)))

/-- The exponentials of the entries less their row's maximum (taken from -∞, then once more against -∞). -/
def hostExpo {M : ℕ} (hR : (Mat M N).ReducesTo [1] (Vc M)) (hu : 0 < Sc.numel)
    (hb0 : Sc.BroadcastsInDim (Vc M) (![] : Fin 0 → Fin (Vc M).rank))
    (hb1 : (Vc M).BroadcastsInDim (Mat M 1) (![0] : Fin 1 → Fin (Mat M 1).rank))
    (hb2 : (Mat M 1).BroadcastsInDim (Mat M N) (![0, 1] : Fin 2 → Fin (Mat M N).rank))
    (s : (Mat M N).Idx → EReal) : (Mat M N).Idx → EReal :=
  Host.exp (F := Ideal) (φ := .f32) (subf (F := Ideal) (φ := .f32) s
    (broadcastInDim (Mat M N) ![0, 1] hb2 (broadcastInDim (Mat M 1) ![0] hb1
      (maximumf (F := Ideal) (φ := .f32) (broadcastInDim (Vc M) ![] hb0 (constant (F := Ideal) Sc .f32 0xFF800000#32))
        (Host.reduce (FloatOps.maximumf (F := Ideal) (φ := .f32)) s (constant (F := Ideal) Sc .f32 0xFF800000#32) hR hu)))))

/-- The entries divided by their row's sum. -/
def hostSoft {M : ℕ} (hR : (Mat M N).ReducesTo [1] (Vc M)) (hu : 0 < Sc.numel)
    (hb1 : (Vc M).BroadcastsInDim (Mat M 1) (![0] : Fin 1 → Fin (Mat M 1).rank))
    (hb2 : (Mat M 1).BroadcastsInDim (Mat M N) (![0, 1] : Fin 2 → Fin (Mat M N).rank))
    (e : (Mat M N).Idx → EReal) : (Mat M N).Idx → EReal :=
  Host.divf (F := Ideal) (φ := .f32) e
    (broadcastInDim (Mat M N) ![0, 1] hb2 (broadcastInDim (Mat M 1) ![0] hb1
      (Host.reduceAdd (F := Ideal) (φ := .f32) e (constant (F := Ideal) Sc .f32 0x00000000#32) hR hu)))

/-- The layer: the normalised exponentials of the masked scores times the values, clamped at zero. -/
def hostAtt (d5 : DotDims (Mat N D) (Mat D N) (Mat N N)) (d20 : DotDims (Mat N N) (Mat N D) (Mat N D))
    (hT : (Mat N D).Transposes [1, 0] (Mat D N))
    (hb : Sc.BroadcastsInDim (Mat N N) (![] : Fin 0 → Fin (Mat N N).rank))
    (hR : (Mat N N).ReducesTo [1] (Vc N)) (hu : 0 < Sc.numel)
    (hb0 : Sc.BroadcastsInDim (Vc N) (![] : Fin 0 → Fin (Vc N).rank))
    (hb1 : (Vc N).BroadcastsInDim (Mat N 1) (![0] : Fin 1 → Fin (Mat N 1).rank))
    (hb2 : (Mat N 1).BroadcastsInDim (Mat N N) (![0, 1] : Fin 2 → Fin (Mat N N).rank))
    (hbz : Sc.BroadcastsInDim (Mat N D) (![] : Fin 0 → Fin (Mat N D).rank))
    (H : (Mat N D).Idx → EReal) (A : (Mat N N).Idx → BitVec 32) : (Mat N D).Idx → EReal :=
  maximumf (F := Ideal) (φ := .f32)
    (Host.dotGeneral (F := Ideal) (φ₁ := .f32) (φ₂ := .f32) d20 none
      (hostSoft hR hu hb1 hb2 (hostExpo hR hu hb0 hb1 hb2 (hostScore d5 hT hb H A))) H)
    (broadcastInDim (Mat N D) ![] hbz (constant (F := Ideal) Sc .f32 0x00000000#32))

/-- The host's masked scores are the specification's, of the rows against themselves. -/
theorem hostScore_eq (d5 : DotDims (Mat N D) (Mat D N) (Mat N N)) (hd5 : d5 = DotDims.plain N D N)
    (hT : (Mat N D).Transposes [1, 0] (Mat D N))
    (hb : Sc.BroadcastsInDim (Mat N N) (![] : Fin 0 → Fin (Mat N N).rank))
    (H : (Mat N D).Idx → EReal) (A : (Mat N N).Idx → BitVec 32) :
    hostScore d5 hT hb H A = score H H A := by
  funext i
  obtain ⟨p, l, rfl⟩ : ∃ (p : Fin N) (l : Fin N), i = ix2 p l := ⟨i 0, i 1, eq_ix2 i⟩
  show Scalar.select (IntOp.cmpi .sgt (A (ix2 p l)) (broadcastInDim (Mat N N) ![] hb (constantI Sc 32 0#32) (ix2 p l)))
      (Host.dotGeneral (F := Ideal) (φ₁ := .f32) (φ₂ := .f32) d5 none H (transpose (Mat D N) [1, 0] H hT) (ix2 p l))
      (broadcastInDim (Mat N N) ![] hb (id (constant (F := Ideal) Sc .f32 0xCE6E6B28#32)) (ix2 p l))
    = Scalar.select (adj (A (ix2 p l))) (∑ k : Fin D, H (ix2 p k) * H (ix2 l k)) negBig
  have ht : ∀ k : Fin D, transpose (Mat D N) [1, 0] H hT (ix2 k l) = H (ix2 l k) :=
    fun k => transpose_ix2_apply H hT k l
  rw [bcast_scalar_apply, bcast_scalar_apply, host_dot_plain d5 hd5]
  simp only [ht]
  rfl

/-- The host's exponentials are the specification's. -/
theorem hostExpo_eq {M : ℕ} (hR : (Mat M N).ReducesTo [1] (Vc M)) (hu : 0 < Sc.numel)
    (hb0 : Sc.BroadcastsInDim (Vc M) (![] : Fin 0 → Fin (Vc M).rank))
    (hb1 : (Vc M).BroadcastsInDim (Mat M 1) (![0] : Fin 1 → Fin (Mat M 1).rank))
    (hb2 : (Mat M 1).BroadcastsInDim (Mat M N) (![0, 1] : Fin 2 → Fin (Mat M N).rank))
    (s : (Mat M N).Idx → EReal) :
    hostExpo hR hu hb0 hb1 hb2 s = expo s := by
  funext i
  obtain ⟨p, l, rfl⟩ : ∃ (p : Fin M) (l : Fin N), i = ix2 p l := ⟨i 0, i 1, eq_ix2 i⟩
  show Ideal.exp (s (ix2 p l) - broadcastInDim (Mat M N) ![0, 1] hb2 (broadcastInDim (Mat M 1) ![0] hb1
      (maximumf (F := Ideal) (φ := .f32) (broadcastInDim (Vc M) ![] hb0 (constant (F := Ideal) Sc .f32 0xFF800000#32))
        (Host.reduce (FloatOps.maximumf (F := Ideal) (φ := .f32)) s (constant (F := Ideal) Sc .f32 0xFF800000#32) hR hu))) (ix2 p l))
    = Ideal.exp (s (ix2 p l) - rowMax s p)
  rw [bcast_cols_apply, bcast_col_apply]
  show Ideal.exp (s (ix2 p l) - max (broadcastInDim (Vc M) ![] hb0 (constant (F := Ideal) Sc .f32 0xFF800000#32) (ix1 p))
      (Host.reduce (FloatOps.maximumf (F := Ideal) (φ := .f32)) s (constant (F := Ideal) Sc .f32 0xFF800000#32) hR hu (ix1 p)))
    = Ideal.exp (s (ix2 p l) - rowMax s p)
  rw [bcast_scalar_apply, host_rowMax]
  show Ideal.exp (s (ix2 p l) - max negInf (rowMax s p)) = Ideal.exp (s (ix2 p l) - rowMax s p)
  rw [max_negInf_left]

/-- The host's quotient by the row sum, at an entry. -/
theorem hostSoft_apply {M : ℕ} (hR : (Mat M N).ReducesTo [1] (Vc M)) (hu : 0 < Sc.numel)
    (hb1 : (Vc M).BroadcastsInDim (Mat M 1) (![0] : Fin 1 → Fin (Mat M 1).rank))
    (hb2 : (Mat M 1).BroadcastsInDim (Mat M N) (![0, 1] : Fin 2 → Fin (Mat M N).rank))
    (e : (Mat M N).Idx → EReal) (p : Fin M) (l : Fin N) :
    hostSoft hR hu hb1 hb2 e (ix2 p l) = Ideal.div (e (ix2 p l)) (∑ l' : Fin N, e (ix2 p l')) := by
  show Ideal.div (e (ix2 p l)) (broadcastInDim (Mat M N) ![0, 1] hb2 (broadcastInDim (Mat M 1) ![0] hb1
      (Host.reduceAdd (F := Ideal) (φ := .f32) e (constant (F := Ideal) Sc .f32 0x00000000#32) hR hu)) (ix2 p l))
    = Ideal.div (e (ix2 p l)) (∑ l' : Fin N, e (ix2 p l'))
  rw [bcast_cols_apply, bcast_col_apply, host_rowSum]

/-- The host's attention layer is the specification's attention of the rows over themselves. -/
theorem host_att (d5 : DotDims (Mat N D) (Mat D N) (Mat N N)) (hd5 : d5 = DotDims.plain N D N)
    (d20 : DotDims (Mat N N) (Mat N D) (Mat N D)) (hd20 : d20 = DotDims.plain N N D)
    (hT : (Mat N D).Transposes [1, 0] (Mat D N))
    (hb : Sc.BroadcastsInDim (Mat N N) (![] : Fin 0 → Fin (Mat N N).rank))
    (hR : (Mat N N).ReducesTo [1] (Vc N)) (hu : 0 < Sc.numel)
    (hb0 : Sc.BroadcastsInDim (Vc N) (![] : Fin 0 → Fin (Vc N).rank))
    (hb1 : (Vc N).BroadcastsInDim (Mat N 1) (![0] : Fin 1 → Fin (Mat N 1).rank))
    (hb2 : (Mat N 1).BroadcastsInDim (Mat N N) (![0, 1] : Fin 2 → Fin (Mat N N).rank))
    (hbz : Sc.BroadcastsInDim (Mat N D) (![] : Fin 0 → Fin (Mat N D).rank))
    (H : (Mat N D).Idx → EReal) (A : (Mat N N).Idx → BitVec 32) :
    hostAtt d5 d20 hT hb hR hu hb0 hb1 hb2 hbz H A = att H H A := by
  funext i
  obtain ⟨p, j, rfl⟩ : ∃ (p : Fin N) (j : Fin D), i = ix2 p j := ⟨i 0, i 1, eq_ix2 i⟩
  show max (Host.dotGeneral (F := Ideal) (φ₁ := .f32) (φ₂ := .f32) d20 none
        (hostSoft hR hu hb1 hb2 (hostExpo hR hu hb0 hb1 hb2 (hostScore d5 hT hb H A))) H (ix2 p j))
      (broadcastInDim (Mat N D) ![] hbz (constant (F := Ideal) Sc .f32 0x00000000#32) (ix2 p j))
    = max (∑ l : Fin N, Ideal.div (expo (score H H A) (ix2 p l)) (∑ l' : Fin N, expo (score H H A) (ix2 p l')) * H (ix2 l j)) zero
  rw [host_dot_plain d20 hd20, bcast_scalar_apply, hostScore_eq d5 hd5, hostExpo_eq]
  simp only [hostSoft_apply]
  rfl

end Chain

end Cert.Gat

end
-- ==== Proof.Ref.Conv.lean ====
/-
  The reference's six graph-attention layers, stage by stage: each layer's dense stage is the specification's `lin` of its
  input, weights and bias, and the stage after its rectifier is the specification's `att` of that dense layer's rows over
  themselves under the scale's adjacency; a scale's second layer takes the first layer's last stage as its input
  (`branchN`: the two in sequence). Each is an instance of the size-generic `host_lin` / `host_att`: the dimension numbers
  are the plain ones (`rfl`) and the shape facts are the program's own.
-/
import proofs.«123632_j87531433492498_2_alg».proof.Proof.RefReadP
import proofs.«123632_j87531433492498_2_alg».proof.Proof.Gat.HostConv

noncomputable section

namespace Cert.Proof.Ref

open Cert.ReferenceIdeal Cert.ReferenceIdeal.Gen Cert.ReferenceIdeal.Read Idealize.ShloMosaic

/-- The dense layer of attention layer 0a. -/
theorem dense0a (x0 : (⟨S2000x156, .f32⟩ : BufTy).Contents (Elt Ideal)) (x9 : (⟨S156x64, .f32⟩ : BufTy).Contents (Elt Ideal)) (x10 : (⟨S64, .f32⟩ : BufTy).Contents (Elt Ideal)) :
    val_main_v3 (F := Ideal) x0 x9 x10 = Cert.Gat.lin x0 x9 x10 :=
  Cert.Gat.host_lin dot_S2000x156_S156x64_S2000x64_1_0_0_1_n_n rfl bcast_S64_S1x64_1 bcast_S1x64_S2000x64_0_1 x0 x9 x10

/-- Attention layer 0a: the stage after its rectifier is the attention of its dense layer's rows over themselves. -/
theorem conv0a (x0 : (⟨S2000x156, .f32⟩ : BufTy).Contents (Elt Ideal)) (x3 : (⟨S2000x2000, .i32⟩ : BufTy).Contents (Elt Ideal)) (x9 : (⟨S156x64, .f32⟩ : BufTy).Contents (Elt Ideal)) (x10 : (⟨S64, .f32⟩ : BufTy).Contents (Elt Ideal)) :
    val_main_v21 (F := Ideal) x0 x3 x9 x10
      = Cert.Gat.att (Cert.Gat.lin x0 x9 x10) (Cert.Gat.lin x0 x9 x10) x3 := by
  rw [← dense0a x0 x9 x10]
  exact Cert.Gat.host_att dot_S2000x64_S64x2000_S2000x2000_1_0_0_1_n_n rfl dot_S2000x2000_S2000x64_S2000x64_1_0_0_1_n_n rfl
    transposes_S2000x64_S64x2000_1_0 bcast_S_S2000x2000 reducesTo_S2000x2000_S2000_d1 h_S_ bcast_S_S2000 bcast_S2000_S2000x1_0
    bcast_S2000x1_S2000x2000_0_1 bcast_S_S2000x64 (val_main_v3 (F := Ideal) x0 x9 x10) x3

/-- The dense layer of attention layer 0b. -/
theorem dense0b (x0 : (⟨S2000x156, .f32⟩ : BufTy).Contents (Elt Ideal)) (x3 : (⟨S2000x2000, .i32⟩ : BufTy).Contents (Elt Ideal)) (x9 : (⟨S156x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal)) :
    val_main_v25 (F := Ideal) x0 x3 x9 x10 x11 x12 = Cert.Gat.lin (val_main_v21 (F := Ideal) x0 x3 x9 x10) x11 x12 :=
  Cert.Gat.host_lin dot_S2000x64_S64x3_S2000x3_1_0_0_1_n_n rfl bcast_S3_S1x3_1 bcast_S1x3_S2000x3_0_1 (val_main_v21 (F := Ideal) x0 x3 x9 x10) x11 x12

/-- Attention layer 0b: the stage after its rectifier is the attention of its dense layer's rows over themselves. -/
theorem conv0b (x0 : (⟨S2000x156, .f32⟩ : BufTy).Contents (Elt Ideal)) (x3 : (⟨S2000x2000, .i32⟩ : BufTy).Contents (Elt Ideal)) (x9 : (⟨S156x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal)) :
    val_main_v43 (F := Ideal) x0 x3 x9 x10 x11 x12
      = Cert.Gat.att (Cert.Gat.lin (val_main_v21 (F := Ideal) x0 x3 x9 x10) x11 x12) (Cert.Gat.lin (val_main_v21 (F := Ideal) x0 x3 x9 x10) x11 x12) x3 := by
  rw [← dense0b x0 x3 x9 x10 x11 x12]
  exact Cert.Gat.host_att dot_S2000x3_S3x2000_S2000x2000_1_0_0_1_n_n rfl dot_S2000x2000_S2000x3_S2000x3_1_0_0_1_n_n rfl
    transposes_S2000x3_S3x2000_1_0 bcast_S_S2000x2000 reducesTo_S2000x2000_S2000_d1 h_S_ bcast_S_S2000 bcast_S2000_S2000x1_0
    bcast_S2000x1_S2000x2000_0_1 bcast_S_S2000x3 (val_main_v25 (F := Ideal) x0 x3 x9 x10 x11 x12) x3

/-- Scale 0: its two attention layers in sequence. -/
theorem branch0 (x0 : (⟨S2000x156, .f32⟩ : BufTy).Contents (Elt Ideal)) (x3 : (⟨S2000x2000, .i32⟩ : BufTy).Contents (Elt Ideal)) (x9 : (⟨S156x64, .f32⟩ : BufTy).Contents (Elt Ideal)) (x10 : (⟨S64, .f32⟩ : BufTy).Contents (Elt Ideal)) (x11 : (⟨S64x3, .f32⟩ : BufTy).Contents (Elt Ideal)) (x12 : (⟨S3, .f32⟩ : BufTy).Contents (Elt Ideal)) :
    val_main_v43 (F := Ideal) x0 x3 x9 x10 x11 x12
      = Cert.Gat.att (Cert.Gat.lin (Cert.Gat.att (Cert.Gat.lin x0 x9 x10) (Cert.Gat.lin x0 x9 x10) x3) x11 x12)
          (Cert.Gat.lin (Cert.Gat.att (Cert.Gat.lin x0 x9 x10) (Cert.Gat.lin x0 x9 x10) x3) x11 x12) x3 := by
  rw [conv0b, conv0a]

/-- The dense layer of attention layer 1a. -/
theorem dense1a (x1 : (⟨S1000x156, .f32⟩ : BufTy).Contents (Elt Ideal)) (x13 : (⟨S156x64, .f32⟩ : BufTy).Contents (Elt Ideal)) (x14 : (⟨S64, .f32⟩ : BufTy).Contents (Elt Ideal)) :
    val_main_v66 (F := Ideal) x1 x13 x14 = Cert.Gat.lin x1 x13 x14 :=
  Cert.Gat.host_lin dot_S1000x156_S156x64_S1000x64_1_0_0_1_n_n rfl bcast_S64_S1x64_1 bcast_S1x64_S1000x64_0_1 x1 x13 x14

/-- Attention layer 1a: the stage after its rectifier is the attention of its dense layer's rows over themselves. -/
theorem conv1a (x1 : (⟨S1000x156, .f32⟩ : BufTy).Contents (Elt Ideal)) (x4 : (⟨S1000x1000, .i32⟩ : BufTy).Contents (Elt Ideal)) (x13 : (⟨S156x64, .f32⟩ : BufTy).Contents (Elt Ideal)) (x14 : (⟨S64, .f32⟩ : BufTy).Contents (Elt Ideal)) :
    val_main_v84 (F := Ideal) x1 x4 x13 x14
      = Cert.Gat.att (Cert.Gat.lin x1 x13 x14) (Cert.Gat.lin x1 x13 x14) x4 := by
  rw [← dense1a x1 x13 x14]
  exact Cert.Gat.host_att dot_S1000x64_S64x1000_S1000x1000_1_0_0_1_n_n rfl dot_S1000x1000_S1000x64_S1000x64_1_0_0_1_n_n rfl
    transposes_S1000x64_S64x1000_1_0 bcast_S_S1000x1000 reducesTo_S1000x1000_S1000_d1 h_S_ bcast_S_S1000 bcast_S1000_S1000x1_0
    bcast_S1000x1_S1000x1000_0_1 bcast_S_S1000x64 (val_main_v66 (F := Ideal) x1 x13 x14) x4

/-- The dense layer of attention layer 1b. -/
theorem dense1b (x1 : (⟨S1000x156, .f32⟩ : BufTy).Contents (Elt Ideal)) (x4 : (⟨S1000x1000, .i32⟩ : BufTy).Contents (Elt Ideal)) (x13 : (⟨S156x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) :
    val_main_v88 (F := Ideal) x1 x4 x13 x14 x15 x16 = Cert.Gat.lin (val_main_v84 (F := Ideal) x1 x4 x13 x14) x15 x16 :=
  Cert.Gat.host_lin dot_S1000x64_S64x3_S1000x3_1_0_0_1_n_n rfl bcast_S3_S1x3_1 bcast_S1x3_S1000x3_0_1 (val_main_v84 (F := Ideal) x1 x4 x13 x14) x15 x16

/-- Attention layer 1b: the stage after its rectifier is the attention of its dense layer's rows over themselves. -/
theorem conv1b (x1 : (⟨S1000x156, .f32⟩ : BufTy).Contents (Elt Ideal)) (x4 : (⟨S1000x1000, .i32⟩ : BufTy).Contents (Elt Ideal)) (x13 : (⟨S156x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) :
    val_main_v106 (F := Ideal) x1 x4 x13 x14 x15 x16
      = Cert.Gat.att (Cert.Gat.lin (val_main_v84 (F := Ideal) x1 x4 x13 x14) x15 x16) (Cert.Gat.lin (val_main_v84 (F := Ideal) x1 x4 x13 x14) x15 x16) x4 := by
  rw [← dense1b x1 x4 x13 x14 x15 x16]
  exact Cert.Gat.host_att dot_S1000x3_S3x1000_S1000x1000_1_0_0_1_n_n rfl dot_S1000x1000_S1000x3_S1000x3_1_0_0_1_n_n rfl
    transposes_S1000x3_S3x1000_1_0 bcast_S_S1000x1000 reducesTo_S1000x1000_S1000_d1 h_S_ bcast_S_S1000 bcast_S1000_S1000x1_0
    bcast_S1000x1_S1000x1000_0_1 bcast_S_S1000x3 (val_main_v88 (F := Ideal) x1 x4 x13 x14 x15 x16) x4

/-- Scale 1: its two attention layers in sequence. -/
theorem branch1 (x1 : (⟨S1000x156, .f32⟩ : BufTy).Contents (Elt Ideal)) (x4 : (⟨S1000x1000, .i32⟩ : BufTy).Contents (Elt Ideal)) (x13 : (⟨S156x64, .f32⟩ : BufTy).Contents (Elt Ideal)) (x14 : (⟨S64, .f32⟩ : BufTy).Contents (Elt Ideal)) (x15 : (⟨S64x3, .f32⟩ : BufTy).Contents (Elt Ideal)) (x16 : (⟨S3, .f32⟩ : BufTy).Contents (Elt Ideal)) :
    val_main_v106 (F := Ideal) x1 x4 x13 x14 x15 x16
      = Cert.Gat.att (Cert.Gat.lin (Cert.Gat.att (Cert.Gat.lin x1 x13 x14) (Cert.Gat.lin x1 x13 x14) x4) x15 x16)
          (Cert.Gat.lin (Cert.Gat.att (Cert.Gat.lin x1 x13 x14) (Cert.Gat.lin x1 x13 x14) x4) x15 x16) x4 := by
  rw [conv1b, conv1a]

/-- The dense layer of attention layer 2a. -/
theorem dense2a (x2 : (⟨S500x156, .f32⟩ : BufTy).Contents (Elt Ideal)) (x17 : (⟨S156x64, .f32⟩ : BufTy).Contents (Elt Ideal)) (x18 : (⟨S64, .f32⟩ : BufTy).Contents (Elt Ideal)) :
    val_main_v129 (F := Ideal) x2 x17 x18 = Cert.Gat.lin x2 x17 x18 :=
  Cert.Gat.host_lin dot_S500x156_S156x64_S500x64_1_0_0_1_n_n rfl bcast_S64_S1x64_1 bcast_S1x64_S500x64_0_1 x2 x17 x18

/-- Attention layer 2a: the stage after its rectifier is the attention of its dense layer's rows over themselves. -/
theorem conv2a (x2 : (⟨S500x156, .f32⟩ : BufTy).Contents (Elt Ideal)) (x5 : (⟨S500x500, .i32⟩ : BufTy).Contents (Elt Ideal)) (x17 : (⟨S156x64, .f32⟩ : BufTy).Contents (Elt Ideal)) (x18 : (⟨S64, .f32⟩ : BufTy).Contents (Elt Ideal)) :
    val_main_v147 (F := Ideal) x2 x5 x17 x18
      = Cert.Gat.att (Cert.Gat.lin x2 x17 x18) (Cert.Gat.lin x2 x17 x18) x5 := by
  rw [← dense2a x2 x17 x18]
  exact Cert.Gat.host_att dot_S500x64_S64x500_S500x500_1_0_0_1_n_n rfl dot_S500x500_S500x64_S500x64_1_0_0_1_n_n rfl
    transposes_S500x64_S64x500_1_0 bcast_S_S500x500 reducesTo_S500x500_S500_d1 h_S_ bcast_S_S500 bcast_S500_S500x1_0
    bcast_S500x1_S500x500_0_1 bcast_S_S500x64 (val_main_v129 (F := Ideal) x2 x17 x18) x5

/-- The dense layer of attention layer 2b. -/
theorem dense2b (x2 : (⟨S500x156, .f32⟩ : BufTy).Contents (Elt Ideal)) (x5 : (⟨S500x500, .i32⟩ : BufTy).Contents (Elt Ideal)) (x17 : (⟨S156x64, .f32⟩ : BufTy).Contents (Elt Ideal)) (x18 : (⟨S64, .f32⟩ : BufTy).Contents (Elt Ideal)) (x19 : (⟨S64x3, .f32⟩ : BufTy).Contents (Elt Ideal)) (x20 : (⟨S3, .f32⟩ : BufTy).Contents (Elt Ideal)) :
    val_main_v151 (F := Ideal) x2 x5 x17 x18 x19 x20 = Cert.Gat.lin (val_main_v147 (F := Ideal) x2 x5 x17 x18) x19 x20 :=
  Cert.Gat.host_lin dot_S500x64_S64x3_S500x3_1_0_0_1_n_n rfl bcast_S3_S1x3_1 bcast_S1x3_S500x3_0_1 (val_main_v147 (F := Ideal) x2 x5 x17 x18) x19 x20

/-- Attention layer 2b: the stage after its rectifier is the attention of its dense layer's rows over themselves. -/
theorem conv2b (x2 : (⟨S500x156, .f32⟩ : BufTy).Contents (Elt Ideal)) (x5 : (⟨S500x500, .i32⟩ : BufTy).Contents (Elt Ideal)) (x17 : (⟨S156x64, .f32⟩ : BufTy).Contents (Elt Ideal)) (x18 : (⟨S64, .f32⟩ : BufTy).Contents (Elt Ideal)) (x19 : (⟨S64x3, .f32⟩ : BufTy).Contents (Elt Ideal)) (x20 : (⟨S3, .f32⟩ : BufTy).Contents (Elt Ideal)) :
    val_main_v169 (F := Ideal) x2 x5 x17 x18 x19 x20
      = Cert.Gat.att (Cert.Gat.lin (val_main_v147 (F := Ideal) x2 x5 x17 x18) x19 x20) (Cert.Gat.lin (val_main_v147 (F := Ideal) x2 x5 x17 x18) x19 x20) x5 := by
  rw [← dense2b x2 x5 x17 x18 x19 x20]
  exact Cert.Gat.host_att dot_S500x3_S3x500_S500x500_1_0_0_1_n_n rfl dot_S500x500_S500x3_S500x3_1_0_0_1_n_n rfl
    transposes_S500x3_S3x500_1_0 bcast_S_S500x500 reducesTo_S500x500_S500_d1 h_S_ bcast_S_S500 bcast_S500_S500x1_0
    bcast_S500x1_S500x500_0_1 bcast_S_S500x3 (val_main_v151 (F := Ideal) x2 x5 x17 x18 x19 x20) x5

/-- Scale 2: its two attention layers in sequence. -/
theorem branch2 (x2 : (⟨S500x156, .f32⟩ : BufTy).Contents (Elt Ideal)) (x5 : (⟨S500x500, .i32⟩ : BufTy).Contents (Elt Ideal)) (x17 : (⟨S156x64, .f32⟩ : BufTy).Contents (Elt Ideal)) (x18 : (⟨S64, .f32⟩ : BufTy).Contents (Elt Ideal)) (x19 : (⟨S64x3, .f32⟩ : BufTy).Contents (Elt Ideal)) (x20 : (⟨S3, .f32⟩ : BufTy).Contents (Elt Ideal)) :
    val_main_v169 (F := Ideal) x2 x5 x17 x18 x19 x20
      = Cert.Gat.att (Cert.Gat.lin (Cert.Gat.att (Cert.Gat.lin x2 x17 x18) (Cert.Gat.lin x2 x17 x18) x5) x19 x20)
          (Cert.Gat.lin (Cert.Gat.att (Cert.Gat.lin x2 x17 x18) (Cert.Gat.lin x2 x17 x18) x5) x19 x20) x5 := by
  rw [conv2b, conv2a]

end Cert.Proof.Ref

end
-- ==== Proof.Ref.Model.lean ====
/-
  The reference's result, on the specification's terms. From the launch contents the reference's operation list leaves in
  the result buffer, at every index, the fuse of the three scales' gathered maps with the softmax of the scale weights:
  each scale's map the tail (rectifier, softmax over the columns, index normalisation, gather) of the scale's two
  attention layers of its arguments, in the specification's `att` and `lin`.
-/
import proofs.«123632_j87531433492498_2_alg».proof.Proof.Ref.Run
import proofs.«123632_j87531433492498_2_alg».proof.Proof.Ref.Conv
import proofs.«123632_j87531433492498_2_alg».proof.Proof.Ref.Tail

noncomputable section

namespace Cert.Proof.Ref

open Cert.ReferenceIdeal Cert.ReferenceIdeal.Gen Idealize.ShloMosaic Idealize.ShloMosaic.TcCoe Idealize.SL.Sem Idealize.ShloMosaic.StableHlo Idealize.ShloMosaic.ValueIdx

/-! ## The launch contents of the arguments, at their array types -/

/-- Argument 0's launch contents on device c. -/
abbrev la0 (m : (ℓ : Loc nD τ sig) → Buf (Elt Ideal) ℓ) (c : Dev nD) : (⟨S2000x156, .f32⟩ : BufTy).Contents (Elt Ideal) := m ((c.tc : Thread nD τ).loc main_arg0)
/-- Argument 1's launch contents on device c. -/
abbrev la1 (m : (ℓ : Loc nD τ sig) → Buf (Elt Ideal) ℓ) (c : Dev nD) : (⟨S1000x156, .f32⟩ : BufTy).Contents (Elt Ideal) := m ((c.tc : Thread nD τ).loc main_arg1)
/-- Argument 2's launch contents on device c. -/
abbrev la2 (m : (ℓ : Loc nD τ sig) → Buf (Elt Ideal) ℓ) (c : Dev nD) : (⟨S500x156, .f32⟩ : BufTy).Contents (Elt Ideal) := m ((c.tc : Thread nD τ).loc main_arg2)
/-- Argument 3's launch contents on device c. -/
abbrev la3 (m : (ℓ : Loc nD τ sig) → Buf (Elt Ideal) ℓ) (c : Dev nD) : (⟨S2000x2000, .i32⟩ : BufTy).Contents (Elt Ideal) := m ((c.tc : Thread nD τ).loc main_arg3)
/-- Argument 4's launch contents on device c. -/
abbrev la4 (m : (ℓ : Loc nD τ sig) → Buf (Elt Ideal) ℓ) (c : Dev nD) : (⟨S1000x1000, .i32⟩ : BufTy).Contents (Elt Ideal) := m ((c.tc : Thread nD τ).loc main_arg4)
/-- Argument 5's launch contents on device c. -/
abbrev la5 (m : (ℓ : Loc nD τ sig) → Buf (Elt Ideal) ℓ) (c : Dev nD) : (⟨S500x500, .i32⟩ : BufTy).Contents (Elt Ideal) := m ((c.tc : Thread nD τ).loc main_arg5)
/-- Argument 6's launch contents on device c. -/
abbrev la6 (m : (ℓ : Loc nD τ sig) → Buf (Elt Ideal) ℓ) (c : Dev nD) : (⟨S1024x1024, .i32⟩ : BufTy).Contents (Elt Ideal) := m ((c.tc : Thread nD τ).loc main_arg6)
/-- Argument 7's launch contents on device c. -/
abbrev la7 (m : (ℓ : Loc nD τ sig) → Buf (Elt Ideal) ℓ) (c : Dev nD) : (⟨S1024x1024, .i32⟩ : BufTy).Contents (Elt Ideal) := m ((c.tc : Thread nD τ).loc main_arg7)
/-- Argument 8's launch contents on device c. -/
abbrev la8 (m : (ℓ : Loc nD τ sig) → Buf (Elt Ideal) ℓ) (c : Dev nD) : (⟨S1024x1024, .i32⟩ : BufTy).Contents (Elt Ideal) := m ((c.tc : Thread nD τ).loc main_arg8)
/-- Argument 9's launch contents on device c. -/
abbrev la9 (m : (ℓ : Loc nD τ sig) → Buf (Elt Ideal) ℓ) (c : Dev nD) : (⟨S156x64, .f32⟩ : BufTy).Contents (Elt Ideal) := m ((c.tc : Thread nD τ).loc main_arg9)
/-- Argument 10's launch contents on device c. -/
abbrev la10 (m : (ℓ : Loc nD τ sig) → Buf (Elt Ideal) ℓ) (c : Dev nD) : (⟨S64, .f32⟩ : BufTy).Contents (Elt Ideal) := m ((c.tc : Thread nD τ).loc main_arg10)
/-- Argument 11's launch contents on device c. -/
abbrev la11 (m : (ℓ : Loc nD τ sig) → Buf (Elt Ideal) ℓ) (c : Dev nD) : (⟨S64x3, .f32⟩ : BufTy).Contents (Elt Ideal) := m ((c.tc : Thread nD τ).loc main_arg11)
/-- Argument 12's launch contents on device c. -/
abbrev la12 (m : (ℓ : Loc nD τ sig) → Buf (Elt Ideal) ℓ) (c : Dev nD) : (⟨S3, .f32⟩ : BufTy).Contents (Elt Ideal) := m ((c.tc : Thread nD τ).loc main_arg12)
/-- Argument 13's launch contents on device c. -/
abbrev la13 (m : (ℓ : Loc nD τ sig) → Buf (Elt Ideal) ℓ) (c : Dev nD) : (⟨S156x64, .f32⟩ : BufTy).Contents (Elt Ideal) := m ((c.tc : Thread nD τ).loc main_arg13)
/-- Argument 14's launch contents on device c. -/
abbrev la14 (m : (ℓ : Loc nD τ sig) → Buf (Elt Ideal) ℓ) (c : Dev nD) : (⟨S64, .f32⟩ : BufTy).Contents (Elt Ideal) := m ((c.tc : Thread nD τ).loc main_arg14)
/-- Argument 15's launch contents on device c. -/
abbrev la15 (m : (ℓ : Loc nD τ sig) → Buf (Elt Ideal) ℓ) (c : Dev nD) : (⟨S64x3, .f32⟩ : BufTy).Contents (Elt Ideal) := m ((c.tc : Thread nD τ).loc main_arg15)
/-- Argument 16's launch contents on device c. -/
abbrev la16 (m : (ℓ : Loc nD τ sig) → Buf (Elt Ideal) ℓ) (c : Dev nD) : (⟨S3, .f32⟩ : BufTy).Contents (Elt Ideal) := m ((c.tc : Thread nD τ).loc main_arg16)
/-- Argument 17's launch contents on device c. -/
abbrev la17 (m : (ℓ : Loc nD τ sig) → Buf (Elt Ideal) ℓ) (c : Dev nD) : (⟨S156x64, .f32⟩ : BufTy).Contents (Elt Ideal) := m ((c.tc : Thread nD τ).loc main_arg17)
/-- Argument 18's launch contents on device c. -/
abbrev la18 (m : (ℓ : Loc nD τ sig) → Buf (Elt Ideal) ℓ) (c : Dev nD) : (⟨S64, .f32⟩ : BufTy).Contents (Elt Ideal) := m ((c.tc : Thread nD τ).loc main_arg18)
/-- Argument 19's launch contents on device c. -/
abbrev la19 (m : (ℓ : Loc nD τ sig) → Buf (Elt Ideal) ℓ) (c : Dev nD) : (⟨S64x3, .f32⟩ : BufTy).Contents (Elt Ideal) := m ((c.tc : Thread nD τ).loc main_arg19)
/-- Argument 20's launch contents on device c. -/
abbrev la20 (m : (ℓ : Loc nD τ sig) → Buf (Elt Ideal) ℓ) (c : Dev nD) : (⟨S3, .f32⟩ : BufTy).Contents (Elt Ideal) := m ((c.tc : Thread nD τ).loc main_arg20)
/-- Argument 21's launch contents on device c. -/
abbrev la21 (m : (ℓ : Loc nD τ sig) → Buf (Elt Ideal) ℓ) (c : Dev nD) : (⟨S3, .f32⟩ : BufTy).Contents (Elt Ideal) := m ((c.tc : Thread nD τ).loc main_arg21)

/-- The launch contents at an argument's buffer are the argument's launch contents. -/
theorem launch_arg (m : (ℓ : Loc nD τ sig) → Buf (Elt Ideal) ℓ) (c : Dev nD) (b : Ref sig .tc) :
    launchContents m c (Proc.devRef .tc b) = m ((c.tc : Thread nD τ).loc b) := rfl

/-- The reference's result: what its operation list leaves in the result buffer from the launch contents is, at every
    index, the three scales' tails of their attention branches there, each times the softmax of the weight argument's
    entry, summed. The whole list leaves the closing stage of the three scales' tails of their second layers' stages and the weight
    argument; the closing law reads it at the index; each second layer's stage is the scale's two attention layers. -/
theorem ref_value (m : (ℓ : Loc nD τ sig) → Buf (Elt Ideal) ℓ) (c : Dev nD) (i : S1024x1024x3.Idx) :
    after (Cert.ReferenceIdeal.Value.ops (F := Ideal)) (launchContents m c) (Proc.devRef .tc main_v206) i
      = rtail0 (Cert.Gat.att (Cert.Gat.lin (Cert.Gat.att (Cert.Gat.lin (la0 m c) (la9 m c) (la10 m c)) (Cert.Gat.lin (la0 m c) (la9 m c) (la10 m c)) (la3 m c)) (la11 m c) (la12 m c))
            (Cert.Gat.lin (Cert.Gat.att (Cert.Gat.lin (la0 m c) (la9 m c) (la10 m c)) (Cert.Gat.lin (la0 m c) (la9 m c) (la10 m c)) (la3 m c)) (la11 m c) (la12 m c)) (la3 m c))
          (la6 m c) i * rwsoft (la21 m c) (ix1 0)
      + rtail1 (Cert.Gat.att (Cert.Gat.lin (Cert.Gat.att (Cert.Gat.lin (la1 m c) (la13 m c) (la14 m c)) (Cert.Gat.lin (la1 m c) (la13 m c) (la14 m c)) (la4 m c)) (la15 m c) (la16 m c))
            (Cert.Gat.lin (Cert.Gat.att (Cert.Gat.lin (la1 m c) (la13 m c) (la14 m c)) (Cert.Gat.lin (la1 m c) (la13 m c) (la14 m c)) (la4 m c)) (la15 m c) (la16 m c)) (la4 m c))
          (la7 m c) i * rwsoft (la21 m c) (ix1 1)
      + rtail2 (Cert.Gat.att (Cert.Gat.lin (Cert.Gat.att (Cert.Gat.lin (la2 m c) (la17 m c) (la18 m c)) (Cert.Gat.lin (la2 m c) (la17 m c) (la18 m c)) (la5 m c)) (la19 m c) (la20 m c))
            (Cert.Gat.lin (Cert.Gat.att (Cert.Gat.lin (la2 m c) (la17 m c) (la18 m c)) (Cert.Gat.lin (la2 m c) (la17 m c) (la18 m c)) (la5 m c)) (la19 m c) (la20 m c)) (la5 m c))
          (la8 m c) i * rwsoft (la21 m c) (ix1 2) := by
  rw [ref_after, rfin_apply, branch0, branch1, branch2]

end Cert.Proof.Ref

end
-- ==== Proof.KI.Val0.lean ====
/-
  A dense-layer region, from blocks to the array.  The grid has one point, at which every window's block index is zero on every
  axis, so each operand's block is its whole array and the one block written back is the whole output array.  With the
  kernel's value at a point given as the dense layer of the three operand blocks, the output array after the region is
  the dense layer of the three operand arrays.
-/
import proofs.«123632_j87531433492498_2_alg».proof.Proof.KI.Body0
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA0 : (![0, 0] : Fin 2 → Nat) = fun _ => 0 := funext fun a => by fin_cases a <;> rfl
theorem hzB0 : (![0] : Fin 1 → Nat) = fun _ => 0 := funext fun a => by fin_cases a <;> rfl

/-- The block indices, decided over the grid: zero on every axis of every window. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- The input's block is the whole input array: an element of the block sits at block index × block size + its own
    coordinate, and the block index is zero. -/
theorem iblk0_0_eq (c : Dev nD) (t : Fin cfg0.N) : (iblk0 V c 0 t : Vec Ideal S2000x156 .f32) = V c main_arg0 := by
  obtain ⟨e00, e01, e10, e11, e20, e30, e31⟩ := idx_facts0 t
  funext x
  unfold iblk0
  show V c main_arg0 (((cfg0.win 0).blk t).view.emb x) = V c main_arg0 x
  refine congrArg (V c main_arg0) (funext fun a => Fin.ext ?_)
  match a with
  | ⟨0, _⟩ => show win0_0.index t (0 : Fin 2) * _ + 1 * (x 0).val = (x 0).val; rw [e00, Nat.zero_mul, Nat.zero_add, Nat.one_mul]
  | ⟨1, _⟩ => show win0_0.index t (1 : Fin 2) * _ + 1 * (x 1).val = (x 1).val; rw [e01, Nat.zero_mul, Nat.zero_add, Nat.one_mul]

/-- The weight matrix's block is the whole weight matrix. -/
theorem iblk0_1_eq (c : Dev nD) (t : Fin cfg0.N) : (iblk0 V c 1 t : Vec Ideal S156x64 .f32) = V c main_arg9 := by
  obtain ⟨e00, e01, e10, e11, e20, e30, e31⟩ := idx_facts0 t
  funext x
  unfold iblk0
  show V c main_arg9 (((cfg0.win 1).blk t).view.emb x) = V c main_arg9 x
  refine congrArg (V c main_arg9) (funext fun a => Fin.ext ?_)
  match a with
  | ⟨0, _⟩ => show win0_1.index t (0 : Fin 2) * _ + 1 * (x 0).val = (x 0).val; rw [e10, Nat.zero_mul, Nat.zero_add, Nat.one_mul]
  | ⟨1, _⟩ => show win0_1.index t (1 : Fin 2) * _ + 1 * (x 1).val = (x 1).val; rw [e11, Nat.zero_mul, Nat.zero_add, Nat.one_mul]

/-- The bias vector's block is the whole bias vector. -/
theorem iblk0_2_eq (c : Dev nD) (t : Fin cfg0.N) : (iblk0 V c 2 t : Vec Ideal S64 .f32) = V c main_arg10 := by
  obtain ⟨e00, e01, e10, e11, e20, e30, e31⟩ := idx_facts0 t
  funext x
  unfold iblk0
  show V c main_arg10 (((cfg0.win 2).blk t).view.emb x) = V c main_arg10 x
  refine congrArg (V c main_arg10) (funext fun a => Fin.ext ?_)
  match a with
  | ⟨0, _⟩ => show win0_2.index t (0 : Fin 1) * _ + 1 * (x 0).val = (x 0).val; rw [e20, Nat.zero_mul, Nat.zero_add, Nat.one_mul]

/-- What point t writes back is its block of the dense layer of the three operand arrays. -/
theorem flushed0_eq (c : Dev nD)
    (hpay : ∀ (x : Vec Ideal S2000x156 .f32) (w : Vec Ideal S156x64 .f32) (b : Vec Ideal S64 .f32), Cert.KernelIdeal.Gen.k0_pay1 (F := Ideal) x w b = Cert.Gat.lin x w b)
    (t : Fin cfg0.N) :
    (dat0 (F := Ideal) V c).flushed 3 t = ((cfg0.win 3).blk t).view.read (Elt Ideal) (Cert.Gat.lin (V c main_arg0) (V c main_arg9) (V c main_arg10)) := by
  show (cfg0.win 3).cut (grid0.coords t) ((dat0 V c).after 3 t) = _
  rw [after0_3]
  unfold out0_3
  rw [View.canon_unit_zero hzA0]
  simp only [View.ld_unit_zero (S := S2000x156) hzA0, View.ld_unit_zero (S := S156x64) hzA0, View.ld_unit_zero (S := S64) hzB0]
  rw [hpay, iblk0_0_eq, iblk0_1_eq, iblk0_2_eq]
  obtain ⟨e00, e01, e10, e11, e20, e30, e31⟩ := idx_facts0 t
  funext j
  show Cert.Gat.lin (V c main_arg0) (V c main_arg9) (V c main_arg10) ((cfg0.win 3).xinj (grid0.coords t) j)
    = Cert.Gat.lin (V c main_arg0) (V c main_arg9) (V c main_arg10) (((cfg0.win 3).blk t).view.emb j)
  refine congrArg (Cert.Gat.lin (V c main_arg0) (V c main_arg9) (V c main_arg10)) (funext fun a => Fin.ext ?_)
  match a with
  | ⟨0, _⟩ => show (j 0).val = win0_3.index t (0 : Fin 2) * _ + 1 * (j 0).val; rw [e30, Nat.zero_mul, Nat.zero_add, Nat.one_mul]
  | ⟨1, _⟩ => show (j 1).val = win0_3.index t (1 : Fin 2) * _ + 1 * (j 1).val; rw [e31, Nat.zero_mul, Nat.zero_add, Nat.one_mul]

/-- An index of the output array is in point t's block iff each coordinate is in the block's range on its axis. -/
theorem mem_blk0 (t : Fin cfg0.N) (i : S2000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v0).slice (win0_3.rect t)).set ↔ _
  rw [View.set_slice_whole, Rect.mem_set_unit]
  exact Iff.rfl

/-- The one point's block covers the output array. -/
theorem blocks_cover0 (i : S2000x64.Idx) : ∃ t : Fin cfg0.N, (cfg0.win 3).flush t = true ∧ i ∈ ((cfg0.win 3).blk t).view.set := by
  obtain ⟨e00, e01, e10, e11, e20, e30, e31⟩ := idx_facts0 t0_0
  refine ⟨t0_0, flush0_3 t0_0, ?_⟩
  rw [mem_blk0]
  intro a
  match a with
  | ⟨0, _⟩ => show win0_3.index t0_0 (0 : Fin 2) * _ ≤ (i 0).val ∧ (i 0).val < win0_3.index t0_0 (0 : Fin 2) * _ + _
              rw [e30, Nat.zero_mul, Nat.zero_add]; exact ⟨Nat.zero_le _, (i 0).isLt⟩
  | ⟨1, _⟩ => show win0_3.index t0_0 (1 : Fin 2) * _ ≤ (i 1).val ∧ (i 1).val < win0_3.index t0_0 (1 : Fin 2) * _ + _
              rw [e31, Nat.zero_mul, Nat.zero_add]; exact ⟨Nat.zero_le _, (i 1).isLt⟩

/-- The output array after the region: the dense layer of the three operand arrays. -/
theorem val0 (c : Dev nD)
    (hpay : ∀ (x : Vec Ideal S2000x156 .f32) (w : Vec Ideal S156x64 .f32) (b : Vec Ideal S64 .f32), Cert.KernelIdeal.Gen.k0_pay1 (F := Ideal) x w b = Cert.Gat.lin x w b) :
    (dat0 (F := Ideal) V c).arrAt 3 cfg0.N = Cert.Gat.lin (V c main_arg0) (V c main_arg9) (V c main_arg10) :=
  (dat0 (F := Ideal) V c).arrAt_eq_of_cover 3 (Cert.Gat.lin (V c main_arg0) (V c main_arg9) (V c main_arg10))
    (fun t _ => flushed0_eq V c hpay t) blocks_cover0

end Cert.KernelIdeal.Hand

end
-- ==== Proof.KI.Val1.lean ====
/-
  An attention region, from blocks to the array.  At grid point t the query window's block, the adjacency window's
  block and the output window's block are at the same block index on the rows axis (and at zero on the other), and the
  key window's block is the whole key array.  With the kernel's value at a point given as the attention of the query
  block over the key array under the adjacency block, row locality of attention makes the block written back at t the
  t-th block of rows of the attention of the whole arrays; the blocks tile the output array, so after the region it
  holds that attention.
-/
import proofs.«123632_j87531433492498_2_alg».proof.Proof.KI.Body1
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA1 : (![0, 0] : Fin 2 → Nat) = fun _ => 0 := funext fun a => by fin_cases a <;> rfl

/-- The block indices, decided over the grid: the query's and the adjacency's rows move with the output's, the output's
    row block is the point's number, and every other block index is zero. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (0 : Fin 2) = t.val ∧ win1_3.index t (1 : Fin 2) = 0 :=
  (by decide +kernel : ∀ t : Fin grid1.N, _)

/-- Attention of a block of query rows, read at an index of the block, is attention of the whole arrays read at an index
    of the array, when the block's query row and adjacency row at the one are the arrays' rows at the other and the two
    indices name the same column. -/
theorem att_block1 {M M' N D : ℕ} (Q : (Cert.Gat.Mat M D).Idx → EReal) (Q' : (Cert.Gat.Mat M' D).Idx → EReal)
    (H : (Cert.Gat.Mat N D).Idx → EReal) (A : (Cert.Gat.Mat M N).Idx → BitVec 32) (A' : (Cert.Gat.Mat M' N).Idx → BitVec 32)
    (y : (Cert.Gat.Mat M' D).Idx) (i : (Cert.Gat.Mat M D).Idx) (hcol : (i 1).val = (y 1).val)
    (hQ : ∀ k : Fin D, Q' (ix2 (y 0) k) = Q (ix2 (i 0) k)) (hA : ∀ l : Fin N, A' (ix2 (y 0) l) = A (ix2 (i 0) l)) :
    Cert.Gat.att Q' H A' y = Cert.Gat.att Q H A i := by
  obtain ⟨p', q', rfl⟩ : ∃ (p' : Fin M') (q' : Fin D), y = ix2 p' q' := ⟨y 0, y 1, eq_ix2 y⟩
  obtain ⟨p, q, rfl⟩ : ∃ (p : Fin M) (q : Fin D), i = ix2 p q := ⟨i 0, i 1, eq_ix2 i⟩
  obtain rfl : q = q' := Fin.ext hcol
  exact Cert.Gat.att_rows Q Q' H A A' p p' hQ hA q

/-- The key window's block is the whole key array. -/
theorem iblk1_1_eq (c : Dev nD) (t : Fin cfg1.N) : (iblk1 V c 1 t : Vec Ideal S2000x64 .f32) = V c main_v0 := by
  obtain ⟨e00, e01, e10, e11, e20, e21, e30, e31⟩ := idx_facts1 t
  funext x
  unfold iblk1
  show V c main_v0 (((cfg1.win 1).blk t).view.emb x) = V c main_v0 x
  refine congrArg (V c main_v0) (funext fun a => Fin.ext ?_)
  match a with
  | ⟨0, _⟩ => show win1_1.index t (0 : Fin 2) * _ + 1 * (x 0).val = (x 0).val; rw [e10, Nat.zero_mul, Nat.zero_add, Nat.one_mul]
  | ⟨1, _⟩ => show win1_1.index t (1 : Fin 2) * _ + 1 * (x 1).val = (x 1).val; rw [e11, Nat.zero_mul, Nat.zero_add, Nat.one_mul]

/-- What point t writes back is its block of the attention of the whole arrays. -/
theorem flushed1_eq (c : Dev nD)
    (hpay : ∀ (x0 : Vec Ideal S400x64 .f32) (x1 : Vec Ideal S2000x64 .f32) (x2 : Vec Ideal S400x2000 .i32), Cert.KernelIdeal.Gen.k1_pay1 (F := Ideal) x0 x1 x2 = Cert.Gat.att x0 x1 x2)
    (t : Fin cfg1.N) :
    (dat1 (F := Ideal) V c).flushed 3 t = ((cfg1.win 3).blk t).view.read (Elt Ideal) (Cert.Gat.att (V c main_v0) (V c main_v0) (V c main_arg3)) := by
  show (cfg1.win 3).cut (grid1.coords t) ((dat1 V c).after 3 t) = _
  rw [after1_3]
  unfold out1_3
  rw [View.canon_unit_zero hzA1]
  simp only [View.ld_unit_zero (S := S400x64) hzA1, View.ld_unit_zero (S := S2000x64) hzA1, View.ld_unit_zero (S := S400x2000) hzA1]
  rw [hpay, iblk1_1_eq]
  obtain ⟨e00, e01, e10, e11, e20, e21, e30, e31⟩ := idx_facts1 t
  funext j
  show Cert.Gat.att (iblk1 V c 0 t) (V c main_v0) (iblk1 V c 2 t) ((cfg1.win 3).xinj (grid1.coords t) j)
    = Cert.Gat.att (V c main_v0) (V c main_v0) (V c main_arg3) (((cfg1.win 3).blk t).view.emb j)
  refine att_block1 _ _ _ _ _ _ _ ?_ (fun k => ?_) (fun l => ?_)
  · show win1_3.index t (1 : Fin 2) * _ + 1 * (j 1).val = (j 1).val
    rw [e31, Nat.zero_mul, Nat.zero_add, Nat.one_mul]
  · unfold iblk1
    show V c main_v0 _ = V c main_v0 _
    refine congrArg (V c main_v0) (funext fun a => Fin.ext ?_)
    match a with
    | ⟨0, _⟩ => show win1_0.index t (0 : Fin 2) * _ + 1 * (j 0).val = win1_3.index t (0 : Fin 2) * _ + 1 * (j 0).val
                rw [e00] <;> rfl
    | ⟨1, _⟩ => show win1_0.index t (1 : Fin 2) * _ + 1 * k.val = k.val
                rw [e01, Nat.zero_mul, Nat.zero_add, Nat.one_mul]
  · unfold iblk1
    show V c main_arg3 _ = V c main_arg3 _
    refine congrArg (V c main_arg3) (funext fun a => Fin.ext ?_)
    match a with
    | ⟨0, _⟩ => show win1_2.index t (0 : Fin 2) * _ + 1 * (j 0).val = win1_3.index t (0 : Fin 2) * _ + 1 * (j 0).val
                rw [e20] <;> rfl
    | ⟨1, _⟩ => show win1_2.index t (1 : Fin 2) * _ + 1 * l.val = l.val
                rw [e21, Nat.zero_mul, Nat.zero_add, Nat.one_mul]

/-- An index of the output array is in point t's block iff each coordinate is in the block's range on its axis. -/
theorem mem_blk1 (t : Fin cfg1.N) (i : S2000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v1).slice (win1_3.rect t)).set ↔ _
  rw [View.set_slice_whole, Rect.mem_set_unit]
  exact Iff.rfl

/-- The blocks tile the output array: row r is in the block of point r / 400. -/
theorem blocks_cover1 (i : S2000x64.Idx) : ∃ t : Fin cfg1.N, (cfg1.win 3).flush t = true ∧ i ∈ ((cfg1.win 3).blk t).view.set := by
  have hN : cfg1.N = _ := N_1
  have h0 : (i 0).val < 2000 := (i 0).isLt
  have ht : (i 0).val / 400 < cfg1.N := by rw [hN]; omega
  obtain ⟨e00, e01, e10, e11, e20, e21, e30, e31⟩ := idx_facts1 ⟨(i 0).val / 400, ht⟩
  refine ⟨⟨(i 0).val / 400, ht⟩, flush1_3 _, ?_⟩
  rw [mem_blk1]
  intro a
  match a with
  | ⟨0, _⟩ => show win1_3.index ⟨(i 0).val / 400, ht⟩ (0 : Fin 2) * 400 ≤ (i 0).val ∧ (i 0).val < win1_3.index ⟨(i 0).val / 400, ht⟩ (0 : Fin 2) * 400 + 400
              rw [e30]; show (i 0).val / 400 * 400 ≤ (i 0).val ∧ (i 0).val < (i 0).val / 400 * 400 + 400; omega
  | ⟨1, _⟩ => show win1_3.index ⟨(i 0).val / 400, ht⟩ (1 : Fin 2) * _ ≤ (i 1).val ∧ (i 1).val < win1_3.index ⟨(i 0).val / 400, ht⟩ (1 : Fin 2) * _ + _
              rw [e31, Nat.zero_mul, Nat.zero_add]; exact ⟨Nat.zero_le _, (i 1).isLt⟩

/-- The output array after the region: the attention of the whole arrays. -/
theorem val1 (c : Dev nD)
    (hpay : ∀ (x0 : Vec Ideal S400x64 .f32) (x1 : Vec Ideal S2000x64 .f32) (x2 : Vec Ideal S400x2000 .i32), Cert.KernelIdeal.Gen.k1_pay1 (F := Ideal) x0 x1 x2 = Cert.Gat.att x0 x1 x2) :
    (dat1 (F := Ideal) V c).arrAt 3 cfg1.N = Cert.Gat.att (V c main_v0) (V c main_v0) (V c main_arg3) :=
  (dat1 (F := Ideal) V c).arrAt_eq_of_cover 3 (Cert.Gat.att (V c main_v0) (V c main_v0) (V c main_arg3))
    (fun t _ => flushed1_eq V c hpay t) blocks_cover1

end Cert.KernelIdeal.Hand

end
-- ==== Proof.KI.Val2.lean ====
/-
  A dense-layer region, from blocks to the array.  The grid has one point, at which every window's block index is zero on every
  axis, so each operand's block is its whole array and the one block written back is the whole output array.  With the
  kernel's value at a point given as the dense layer of the three operand blocks, the output array after the region is
  the dense layer of the three operand arrays.
-/
import proofs.«123632_j87531433492498_2_alg».proof.Proof.KI.Body2
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA2 : (![0, 0] : Fin 2 → Nat) = fun _ => 0 := funext fun a => by fin_cases a <;> rfl
theorem hzB2 : (![0] : Fin 1 → Nat) = fun _ => 0 := funext fun a => by fin_cases a <;> rfl

/-- The block indices, decided over the grid: zero on every axis of every window. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

/-- The input's block is the whole input array: an element of the block sits at block index × block size + its own
    coordinate, and the block index is zero. -/
theorem iblk2_0_eq (c : Dev nD) (t : Fin cfg2.N) : (iblk2 V c 0 t : Vec Ideal S2000x64 .f32) = V c main_v1 := by
  obtain ⟨e00, e01, e10, e11, e20, e30, e31⟩ := idx_facts2 t
  funext x
  unfold iblk2
  show V c main_v1 (((cfg2.win 0).blk t).view.emb x) = V c main_v1 x
  refine congrArg (V c main_v1) (funext fun a => Fin.ext ?_)
  match a with
  | ⟨0, _⟩ => show win2_0.index t (0 : Fin 2) * _ + 1 * (x 0).val = (x 0).val; rw [e00, Nat.zero_mul, Nat.zero_add, Nat.one_mul]
  | ⟨1, _⟩ => show win2_0.index t (1 : Fin 2) * _ + 1 * (x 1).val = (x 1).val; rw [e01, Nat.zero_mul, Nat.zero_add, Nat.one_mul]

/-- The weight matrix's block is the whole weight matrix. -/
theorem iblk2_1_eq (c : Dev nD) (t : Fin cfg2.N) : (iblk2 V c 1 t : Vec Ideal S64x3 .f32) = V c main_arg11 := by
  obtain ⟨e00, e01, e10, e11, e20, e30, e31⟩ := idx_facts2 t
  funext x
  unfold iblk2
  show V c main_arg11 (((cfg2.win 1).blk t).view.emb x) = V c main_arg11 x
  refine congrArg (V c main_arg11) (funext fun a => Fin.ext ?_)
  match a with
  | ⟨0, _⟩ => show win2_1.index t (0 : Fin 2) * _ + 1 * (x 0).val = (x 0).val; rw [e10, Nat.zero_mul, Nat.zero_add, Nat.one_mul]
  | ⟨1, _⟩ => show win2_1.index t (1 : Fin 2) * _ + 1 * (x 1).val = (x 1).val; rw [e11, Nat.zero_mul, Nat.zero_add, Nat.one_mul]

/-- The bias vector's block is the whole bias vector. -/
theorem iblk2_2_eq (c : Dev nD) (t : Fin cfg2.N) : (iblk2 V c 2 t : Vec Ideal S3 .f32) = V c main_arg12 := by
  obtain ⟨e00, e01, e10, e11, e20, e30, e31⟩ := idx_facts2 t
  funext x
  unfold iblk2
  show V c main_arg12 (((cfg2.win 2).blk t).view.emb x) = V c main_arg12 x
  refine congrArg (V c main_arg12) (funext fun a => Fin.ext ?_)
  match a with
  | ⟨0, _⟩ => show win2_2.index t (0 : Fin 1) * _ + 1 * (x 0).val = (x 0).val; rw [e20, Nat.zero_mul, Nat.zero_add, Nat.one_mul]

/-- What point t writes back is its block of the dense layer of the three operand arrays. -/
theorem flushed2_eq (c : Dev nD)
    (hpay : ∀ (x : Vec Ideal S2000x64 .f32) (w : Vec Ideal S64x3 .f32) (b : Vec Ideal S3 .f32), Cert.KernelIdeal.Gen.k2_pay1 (F := Ideal) x w b = Cert.Gat.lin x w b)
    (t : Fin cfg2.N) :
    (dat2 (F := Ideal) V c).flushed 3 t = ((cfg2.win 3).blk t).view.read (Elt Ideal) (Cert.Gat.lin (V c main_v1) (V c main_arg11) (V c main_arg12)) := by
  show (cfg2.win 3).cut (grid2.coords t) ((dat2 V c).after 3 t) = _
  rw [after2_3]
  unfold out2_3
  rw [View.canon_unit_zero hzA2]
  simp only [View.ld_unit_zero (S := S2000x64) hzA2, View.ld_unit_zero (S := S64x3) hzA2, View.ld_unit_zero (S := S3) hzB2]
  rw [hpay, iblk2_0_eq, iblk2_1_eq, iblk2_2_eq]
  obtain ⟨e00, e01, e10, e11, e20, e30, e31⟩ := idx_facts2 t
  funext j
  show Cert.Gat.lin (V c main_v1) (V c main_arg11) (V c main_arg12) ((cfg2.win 3).xinj (grid2.coords t) j)
    = Cert.Gat.lin (V c main_v1) (V c main_arg11) (V c main_arg12) (((cfg2.win 3).blk t).view.emb j)
  refine congrArg (Cert.Gat.lin (V c main_v1) (V c main_arg11) (V c main_arg12)) (funext fun a => Fin.ext ?_)
  match a with
  | ⟨0, _⟩ => show (j 0).val = win2_3.index t (0 : Fin 2) * _ + 1 * (j 0).val; rw [e30, Nat.zero_mul, Nat.zero_add, Nat.one_mul]
  | ⟨1, _⟩ => show (j 1).val = win2_3.index t (1 : Fin 2) * _ + 1 * (j 1).val; rw [e31, Nat.zero_mul, Nat.zero_add, Nat.one_mul]

/-- An index of the output array is in point t's block iff each coordinate is in the block's range on its axis. -/
theorem mem_blk2 (t : Fin cfg2.N) (i : S2000x3.Idx) :
    i ∈ ((cfg2.win 3).blk t).view.set ↔ ∀ a : Fin 2, win2_3.index t a * S2000x3.size a ≤ (i a).val ∧ (i a).val < win2_3.index t a * S2000x3.size a + S2000x3.size a := by
  show i ∈ ((View.whole main_v2).slice (win2_3.rect t)).set ↔ _
  rw [View.set_slice_whole, Rect.mem_set_unit]
  exact Iff.rfl

/-- The one point's block covers the output array. -/
theorem blocks_cover2 (i : S2000x3.Idx) : ∃ t : Fin cfg2.N, (cfg2.win 3).flush t = true ∧ i ∈ ((cfg2.win 3).blk t).view.set := by
  obtain ⟨e00, e01, e10, e11, e20, e30, e31⟩ := idx_facts2 t2_0
  refine ⟨t2_0, flush2_3 t2_0, ?_⟩
  rw [mem_blk2]
  intro a
  match a with
  | ⟨0, _⟩ => show win2_3.index t2_0 (0 : Fin 2) * _ ≤ (i 0).val ∧ (i 0).val < win2_3.index t2_0 (0 : Fin 2) * _ + _
              rw [e30, Nat.zero_mul, Nat.zero_add]; exact ⟨Nat.zero_le _, (i 0).isLt⟩
  | ⟨1, _⟩ => show win2_3.index t2_0 (1 : Fin 2) * _ ≤ (i 1).val ∧ (i 1).val < win2_3.index t2_0 (1 : Fin 2) * _ + _
              rw [e31, Nat.zero_mul, Nat.zero_add]; exact ⟨Nat.zero_le _, (i 1).isLt⟩

/-- The output array after the region: the dense layer of the three operand arrays. -/
theorem val2 (c : Dev nD)
    (hpay : ∀ (x : Vec Ideal S2000x64 .f32) (w : Vec Ideal S64x3 .f32) (b : Vec Ideal S3 .f32), Cert.KernelIdeal.Gen.k2_pay1 (F := Ideal) x w b = Cert.Gat.lin x w b) :
    (dat2 (F := Ideal) V c).arrAt 3 cfg2.N = Cert.Gat.lin (V c main_v1) (V c main_arg11) (V c main_arg12) :=
  (dat2 (F := Ideal) V c).arrAt_eq_of_cover 3 (Cert.Gat.lin (V c main_v1) (V c main_arg11) (V c main_arg12))
    (fun t _ => flushed2_eq V c hpay t) blocks_cover2

end Cert.KernelIdeal.Hand

end
-- ==== Proof.KI.Val3.lean ====
/-
  An attention region, from blocks to the array.  At grid point t the query window's block, the adjacency window's
  block and the output window's block are at the same block index on the rows axis (and at zero on the other), and the
  key window's block is the whole key array.  With the kernel's value at a point given as the attention of the query
  block over the key array under the adjacency block, row locality of attention makes the block written back at t the
  t-th block of rows of the attention of the whole arrays; the blocks tile the output array, so after the region it
  holds that attention.
-/
import proofs.«123632_j87531433492498_2_alg».proof.Proof.KI.Body3
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA3 : (![0, 0] : Fin 2 → Nat) = fun _ => 0 := funext fun a => by fin_cases a <;> rfl

/-- The block indices, decided over the grid: the query's and the adjacency's rows move with the output's, the output's
    row block is the point's number, and every other block index is zero. -/
theorem idx_facts3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = win3_3.index t (0 : Fin 2) ∧ win3_2.index t (1 : Fin 2) = 0
    ∧ win3_3.index t (0 : Fin 2) = t.val ∧ win3_3.index t (1 : Fin 2) = 0 :=
  (by decide +kernel : ∀ t : Fin grid3.N, _)

/-- Attention of a block of query rows, read at an index of the block, is attention of the whole arrays read at an index
    of the array, when the block's query row and adjacency row at the one are the arrays' rows at the other and the two
    indices name the same column. -/
theorem att_block3 {M M' N D : ℕ} (Q : (Cert.Gat.Mat M D).Idx → EReal) (Q' : (Cert.Gat.Mat M' D).Idx → EReal)
    (H : (Cert.Gat.Mat N D).Idx → EReal) (A : (Cert.Gat.Mat M N).Idx → BitVec 32) (A' : (Cert.Gat.Mat M' N).Idx → BitVec 32)
    (y : (Cert.Gat.Mat M' D).Idx) (i : (Cert.Gat.Mat M D).Idx) (hcol : (i 1).val = (y 1).val)
    (hQ : ∀ k : Fin D, Q' (ix2 (y 0) k) = Q (ix2 (i 0) k)) (hA : ∀ l : Fin N, A' (ix2 (y 0) l) = A (ix2 (i 0) l)) :
    Cert.Gat.att Q' H A' y = Cert.Gat.att Q H A i := by
  obtain ⟨p', q', rfl⟩ : ∃ (p' : Fin M') (q' : Fin D), y = ix2 p' q' := ⟨y 0, y 1, eq_ix2 y⟩
  obtain ⟨p, q, rfl⟩ : ∃ (p : Fin M) (q : Fin D), i = ix2 p q := ⟨i 0, i 1, eq_ix2 i⟩
  obtain rfl : q = q' := Fin.ext hcol
  exact Cert.Gat.att_rows Q Q' H A A' p p' hQ hA q

/-- The key window's block is the whole key array. -/
theorem iblk3_1_eq (c : Dev nD) (t : Fin cfg3.N) : (iblk3 V c 1 t : Vec Ideal S2000x3 .f32) = V c main_v2 := by
  obtain ⟨e00, e01, e10, e11, e20, e21, e30, e31⟩ := idx_facts3 t
  funext x
  unfold iblk3
  show V c main_v2 (((cfg3.win 1).blk t).view.emb x) = V c main_v2 x
  refine congrArg (V c main_v2) (funext fun a => Fin.ext ?_)
  match a with
  | ⟨0, _⟩ => show win3_1.index t (0 : Fin 2) * _ + 1 * (x 0).val = (x 0).val; rw [e10, Nat.zero_mul, Nat.zero_add, Nat.one_mul]
  | ⟨1, _⟩ => show win3_1.index t (1 : Fin 2) * _ + 1 * (x 1).val = (x 1).val; rw [e11, Nat.zero_mul, Nat.zero_add, Nat.one_mul]

/-- What point t writes back is its block of the attention of the whole arrays. -/
theorem flushed3_eq (c : Dev nD)
    (hpay : ∀ (x0 : Vec Ideal S400x3 .f32) (x1 : Vec Ideal S2000x3 .f32) (x2 : Vec Ideal S400x2000 .i32), Cert.KernelIdeal.Gen.k3_pay1 (F := Ideal) x0 x1 x2 = Cert.Gat.att x0 x1 x2)
    (t : Fin cfg3.N) :
    (dat3 (F := Ideal) V c).flushed 3 t = ((cfg3.win 3).blk t).view.read (Elt Ideal) (Cert.Gat.att (V c main_v2) (V c main_v2) (V c main_arg3)) := by
  show (cfg3.win 3).cut (grid3.coords t) ((dat3 V c).after 3 t) = _
  rw [after3_3]
  unfold out3_3
  rw [View.canon_unit_zero hzA3]
  simp only [View.ld_unit_zero (S := S400x3) hzA3, View.ld_unit_zero (S := S2000x3) hzA3, View.ld_unit_zero (S := S400x2000) hzA3]
  rw [hpay, iblk3_1_eq]
  obtain ⟨e00, e01, e10, e11, e20, e21, e30, e31⟩ := idx_facts3 t
  funext j
  show Cert.Gat.att (iblk3 V c 0 t) (V c main_v2) (iblk3 V c 2 t) ((cfg3.win 3).xinj (grid3.coords t) j)
    = Cert.Gat.att (V c main_v2) (V c main_v2) (V c main_arg3) (((cfg3.win 3).blk t).view.emb j)
  refine att_block3 _ _ _ _ _ _ _ ?_ (fun k => ?_) (fun l => ?_)
  · show win3_3.index t (1 : Fin 2) * _ + 1 * (j 1).val = (j 1).val
    rw [e31, Nat.zero_mul, Nat.zero_add, Nat.one_mul]
  · unfold iblk3
    show V c main_v2 _ = V c main_v2 _
    refine congrArg (V c main_v2) (funext fun a => Fin.ext ?_)
    match a with
    | ⟨0, _⟩ => show win3_0.index t (0 : Fin 2) * _ + 1 * (j 0).val = win3_3.index t (0 : Fin 2) * _ + 1 * (j 0).val
                rw [e00] <;> rfl
    | ⟨1, _⟩ => show win3_0.index t (1 : Fin 2) * _ + 1 * k.val = k.val
                rw [e01, Nat.zero_mul, Nat.zero_add, Nat.one_mul]
  · unfold iblk3
    show V c main_arg3 _ = V c main_arg3 _
    refine congrArg (V c main_arg3) (funext fun a => Fin.ext ?_)
    match a with
    | ⟨0, _⟩ => show win3_2.index t (0 : Fin 2) * _ + 1 * (j 0).val = win3_3.index t (0 : Fin 2) * _ + 1 * (j 0).val
                rw [e20] <;> rfl
    | ⟨1, _⟩ => show win3_2.index t (1 : Fin 2) * _ + 1 * l.val = l.val
                rw [e21, Nat.zero_mul, Nat.zero_add, Nat.one_mul]

/-- An index of the output array is in point t's block iff each coordinate is in the block's range on its axis. -/
theorem mem_blk3 (t : Fin cfg3.N) (i : S2000x3.Idx) :
    i ∈ ((cfg3.win 3).blk t).view.set ↔ ∀ a : Fin 2, win3_3.index t a * S400x3.size a ≤ (i a).val ∧ (i a).val < win3_3.index t a * S400x3.size a + S400x3.size a := by
  show i ∈ ((View.whole main_v3).slice (win3_3.rect t)).set ↔ _
  rw [View.set_slice_whole, Rect.mem_set_unit]
  exact Iff.rfl

/-- The blocks tile the output array: row r is in the block of point r / 400. -/
theorem blocks_cover3 (i : S2000x3.Idx) : ∃ t : Fin cfg3.N, (cfg3.win 3).flush t = true ∧ i ∈ ((cfg3.win 3).blk t).view.set := by
  have hN : cfg3.N = _ := N_3
  have h0 : (i 0).val < 2000 := (i 0).isLt
  have ht : (i 0).val / 400 < cfg3.N := by rw [hN]; omega
  obtain ⟨e00, e01, e10, e11, e20, e21, e30, e31⟩ := idx_facts3 ⟨(i 0).val / 400, ht⟩
  refine ⟨⟨(i 0).val / 400, ht⟩, flush3_3 _, ?_⟩
  rw [mem_blk3]
  intro a
  match a with
  | ⟨0, _⟩ => show win3_3.index ⟨(i 0).val / 400, ht⟩ (0 : Fin 2) * 400 ≤ (i 0).val ∧ (i 0).val < win3_3.index ⟨(i 0).val / 400, ht⟩ (0 : Fin 2) * 400 + 400
              rw [e30]; show (i 0).val / 400 * 400 ≤ (i 0).val ∧ (i 0).val < (i 0).val / 400 * 400 + 400; omega
  | ⟨1, _⟩ => show win3_3.index ⟨(i 0).val / 400, ht⟩ (1 : Fin 2) * _ ≤ (i 1).val ∧ (i 1).val < win3_3.index ⟨(i 0).val / 400, ht⟩ (1 : Fin 2) * _ + _
              rw [e31, Nat.zero_mul, Nat.zero_add]; exact ⟨Nat.zero_le _, (i 1).isLt⟩

/-- The output array after the region: the attention of the whole arrays. -/
theorem val3 (c : Dev nD)
    (hpay : ∀ (x0 : Vec Ideal S400x3 .f32) (x1 : Vec Ideal S2000x3 .f32) (x2 : Vec Ideal S400x2000 .i32), Cert.KernelIdeal.Gen.k3_pay1 (F := Ideal) x0 x1 x2 = Cert.Gat.att x0 x1 x2) :
    (dat3 (F := Ideal) V c).arrAt 3 cfg3.N = Cert.Gat.att (V c main_v2) (V c main_v2) (V c main_arg3) :=
  (dat3 (F := Ideal) V c).arrAt_eq_of_cover 3 (Cert.Gat.att (V c main_v2) (V c main_v2) (V c main_arg3))
    (fun t _ => flushed3_eq V c hpay t) blocks_cover3

end Cert.KernelIdeal.Hand

end
-- ==== Proof.KI.Val4.lean ====
/-
  A dense-layer region, from blocks to the array.  The grid has one point, at which every window's block index is zero on every
  axis, so each operand's block is its whole array and the one block written back is the whole output array.  With the
  kernel's value at a point given as the dense layer of the three operand blocks, the output array after the region is
  the dense layer of the three operand arrays.
-/
import proofs.«123632_j87531433492498_2_alg».proof.Proof.KI.Body4
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA4 : (![0, 0] : Fin 2 → Nat) = fun _ => 0 := funext fun a => by fin_cases a <;> rfl
theorem hzB4 : (![0] : Fin 1 → Nat) = fun _ => 0 := funext fun a => by fin_cases a <;> rfl

/-- The block indices, decided over the grid: zero on every axis of every window. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0 :=
  (by decide +kernel : ∀ t : Fin grid4.N, _)

/-- The input's block is the whole input array: an element of the block sits at block index × block size + its own
    coordinate, and the block index is zero. -/
theorem iblk4_0_eq (c : Dev nD) (t : Fin cfg4.N) : (iblk4 V c 0 t : Vec Ideal S1000x156 .f32) = V c main_arg1 := by
  obtain ⟨e00, e01, e10, e11, e20, e30, e31⟩ := idx_facts4 t
  funext x
  unfold iblk4
  show V c main_arg1 (((cfg4.win 0).blk t).view.emb x) = V c main_arg1 x
  refine congrArg (V c main_arg1) (funext fun a => Fin.ext ?_)
  match a with
  | ⟨0, _⟩ => show win4_0.index t (0 : Fin 2) * _ + 1 * (x 0).val = (x 0).val; rw [e00, Nat.zero_mul, Nat.zero_add, Nat.one_mul]
  | ⟨1, _⟩ => show win4_0.index t (1 : Fin 2) * _ + 1 * (x 1).val = (x 1).val; rw [e01, Nat.zero_mul, Nat.zero_add, Nat.one_mul]

/-- The weight matrix's block is the whole weight matrix. -/
theorem iblk4_1_eq (c : Dev nD) (t : Fin cfg4.N) : (iblk4 V c 1 t : Vec Ideal S156x64 .f32) = V c main_arg13 := by
  obtain ⟨e00, e01, e10, e11, e20, e30, e31⟩ := idx_facts4 t
  funext x
  unfold iblk4
  show V c main_arg13 (((cfg4.win 1).blk t).view.emb x) = V c main_arg13 x
  refine congrArg (V c main_arg13) (funext fun a => Fin.ext ?_)
  match a with
  | ⟨0, _⟩ => show win4_1.index t (0 : Fin 2) * _ + 1 * (x 0).val = (x 0).val; rw [e10, Nat.zero_mul, Nat.zero_add, Nat.one_mul]
  | ⟨1, _⟩ => show win4_1.index t (1 : Fin 2) * _ + 1 * (x 1).val = (x 1).val; rw [e11, Nat.zero_mul, Nat.zero_add, Nat.one_mul]

/-- The bias vector's block is the whole bias vector. -/
theorem iblk4_2_eq (c : Dev nD) (t : Fin cfg4.N) : (iblk4 V c 2 t : Vec Ideal S64 .f32) = V c main_arg14 := by
  obtain ⟨e00, e01, e10, e11, e20, e30, e31⟩ := idx_facts4 t
  funext x
  unfold iblk4
  show V c main_arg14 (((cfg4.win 2).blk t).view.emb x) = V c main_arg14 x
  refine congrArg (V c main_arg14) (funext fun a => Fin.ext ?_)
  match a with
  | ⟨0, _⟩ => show win4_2.index t (0 : Fin 1) * _ + 1 * (x 0).val = (x 0).val; rw [e20, Nat.zero_mul, Nat.zero_add, Nat.one_mul]

/-- What point t writes back is its block of the dense layer of the three operand arrays. -/
theorem flushed4_eq (c : Dev nD)
    (hpay : ∀ (x : Vec Ideal S1000x156 .f32) (w : Vec Ideal S156x64 .f32) (b : Vec Ideal S64 .f32), Cert.KernelIdeal.Gen.k4_pay1 (F := Ideal) x w b = Cert.Gat.lin x w b)
    (t : Fin cfg4.N) :
    (dat4 (F := Ideal) V c).flushed 3 t = ((cfg4.win 3).blk t).view.read (Elt Ideal) (Cert.Gat.lin (V c main_arg1) (V c main_arg13) (V c main_arg14)) := by
  show (cfg4.win 3).cut (grid4.coords t) ((dat4 V c).after 3 t) = _
  rw [after4_3]
  unfold out4_3
  rw [View.canon_unit_zero hzA4]
  simp only [View.ld_unit_zero (S := S1000x156) hzA4, View.ld_unit_zero (S := S156x64) hzA4, View.ld_unit_zero (S := S64) hzB4]
  rw [hpay, iblk4_0_eq, iblk4_1_eq, iblk4_2_eq]
  obtain ⟨e00, e01, e10, e11, e20, e30, e31⟩ := idx_facts4 t
  funext j
  show Cert.Gat.lin (V c main_arg1) (V c main_arg13) (V c main_arg14) ((cfg4.win 3).xinj (grid4.coords t) j)
    = Cert.Gat.lin (V c main_arg1) (V c main_arg13) (V c main_arg14) (((cfg4.win 3).blk t).view.emb j)
  refine congrArg (Cert.Gat.lin (V c main_arg1) (V c main_arg13) (V c main_arg14)) (funext fun a => Fin.ext ?_)
  match a with
  | ⟨0, _⟩ => show (j 0).val = win4_3.index t (0 : Fin 2) * _ + 1 * (j 0).val; rw [e30, Nat.zero_mul, Nat.zero_add, Nat.one_mul]
  | ⟨1, _⟩ => show (j 1).val = win4_3.index t (1 : Fin 2) * _ + 1 * (j 1).val; rw [e31, Nat.zero_mul, Nat.zero_add, Nat.one_mul]

/-- An index of the output array is in point t's block iff each coordinate is in the block's range on its axis. -/
theorem mem_blk4 (t : Fin cfg4.N) (i : S1000x64.Idx) :
    i ∈ ((cfg4.win 3).blk t).view.set ↔ ∀ a : Fin 2, win4_3.index t a * S1000x64.size a ≤ (i a).val ∧ (i a).val < win4_3.index t a * S1000x64.size a + S1000x64.size a := by
  show i ∈ ((View.whole main_v23).slice (win4_3.rect t)).set ↔ _
  rw [View.set_slice_whole, Rect.mem_set_unit]
  exact Iff.rfl

/-- The one point's block covers the output array. -/
theorem blocks_cover4 (i : S1000x64.Idx) : ∃ t : Fin cfg4.N, (cfg4.win 3).flush t = true ∧ i ∈ ((cfg4.win 3).blk t).view.set := by
  obtain ⟨e00, e01, e10, e11, e20, e30, e31⟩ := idx_facts4 t4_0
  refine ⟨t4_0, flush4_3 t4_0, ?_⟩
  rw [mem_blk4]
  intro a
  match a with
  | ⟨0, _⟩ => show win4_3.index t4_0 (0 : Fin 2) * _ ≤ (i 0).val ∧ (i 0).val < win4_3.index t4_0 (0 : Fin 2) * _ + _
              rw [e30, Nat.zero_mul, Nat.zero_add]; exact ⟨Nat.zero_le _, (i 0).isLt⟩
  | ⟨1, _⟩ => show win4_3.index t4_0 (1 : Fin 2) * _ ≤ (i 1).val ∧ (i 1).val < win4_3.index t4_0 (1 : Fin 2) * _ + _
              rw [e31, Nat.zero_mul, Nat.zero_add]; exact ⟨Nat.zero_le _, (i 1).isLt⟩

/-- The output array after the region: the dense layer of the three operand arrays. -/
theorem val4 (c : Dev nD)
    (hpay : ∀ (x : Vec Ideal S1000x156 .f32) (w : Vec Ideal S156x64 .f32) (b : Vec Ideal S64 .f32), Cert.KernelIdeal.Gen.k4_pay1 (F := Ideal) x w b = Cert.Gat.lin x w b) :
    (dat4 (F := Ideal) V c).arrAt 3 cfg4.N = Cert.Gat.lin (V c main_arg1) (V c main_arg13) (V c main_arg14) :=
  (dat4 (F := Ideal) V c).arrAt_eq_of_cover 3 (Cert.Gat.lin (V c main_arg1) (V c main_arg13) (V c main_arg14))
    (fun t _ => flushed4_eq V c hpay t) blocks_cover4

end Cert.KernelIdeal.Hand

end
-- ==== Proof.KI.Val5.lean ====
/-
  An attention region, from blocks to the array.  At grid point t the query window's block, the adjacency window's
  block and the output window's block are at the same block index on the rows axis (and at zero on the other), and the
  key window's block is the whole key array.  With the kernel's value at a point given as the attention of the query
  block over the key array under the adjacency block, row locality of attention makes the block written back at t the
  t-th block of rows of the attention of the whole arrays; the blocks tile the output array, so after the region it
  holds that attention.
-/
import proofs.«123632_j87531433492498_2_alg».proof.Proof.KI.Body5
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA5 : (![0, 0] : Fin 2 → Nat) = fun _ => 0 := funext fun a => by fin_cases a <;> rfl

/-- The block indices, decided over the grid: the query's and the adjacency's rows move with the output's, the output's
    row block is the point's number, and every other block index is zero. -/
theorem idx_facts5 : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = win5_3.index t (0 : Fin 2) ∧ win5_2.index t (1 : Fin 2) = 0
    ∧ win5_3.index t (0 : Fin 2) = t.val ∧ win5_3.index t (1 : Fin 2) = 0 :=
  (by decide +kernel : ∀ t : Fin grid5.N, _)

/-- Attention of a block of query rows, read at an index of the block, is attention of the whole arrays read at an index
    of the array, when the block's query row and adjacency row at the one are the arrays' rows at the other and the two
    indices name the same column. -/
theorem att_block5 {M M' N D : ℕ} (Q : (Cert.Gat.Mat M D).Idx → EReal) (Q' : (Cert.Gat.Mat M' D).Idx → EReal)
    (H : (Cert.Gat.Mat N D).Idx → EReal) (A : (Cert.Gat.Mat M N).Idx → BitVec 32) (A' : (Cert.Gat.Mat M' N).Idx → BitVec 32)
    (y : (Cert.Gat.Mat M' D).Idx) (i : (Cert.Gat.Mat M D).Idx) (hcol : (i 1).val = (y 1).val)
    (hQ : ∀ k : Fin D, Q' (ix2 (y 0) k) = Q (ix2 (i 0) k)) (hA : ∀ l : Fin N, A' (ix2 (y 0) l) = A (ix2 (i 0) l)) :
    Cert.Gat.att Q' H A' y = Cert.Gat.att Q H A i := by
  obtain ⟨p', q', rfl⟩ : ∃ (p' : Fin M') (q' : Fin D), y = ix2 p' q' := ⟨y 0, y 1, eq_ix2 y⟩
  obtain ⟨p, q, rfl⟩ : ∃ (p : Fin M) (q : Fin D), i = ix2 p q := ⟨i 0, i 1, eq_ix2 i⟩
  obtain rfl : q = q' := Fin.ext hcol
  exact Cert.Gat.att_rows Q Q' H A A' p p' hQ hA q

/-- The key window's block is the whole key array. -/
theorem iblk5_1_eq (c : Dev nD) (t : Fin cfg5.N) : (iblk5 V c 1 t : Vec Ideal S1000x64 .f32) = V c main_v23 := by
  obtain ⟨e00, e01, e10, e11, e20, e21, e30, e31⟩ := idx_facts5 t
  funext x
  unfold iblk5
  show V c main_v23 (((cfg5.win 1).blk t).view.emb x) = V c main_v23 x
  refine congrArg (V c main_v23) (funext fun a => Fin.ext ?_)
  match a with
  | ⟨0, _⟩ => show win5_1.index t (0 : Fin 2) * _ + 1 * (x 0).val = (x 0).val; rw [e10, Nat.zero_mul, Nat.zero_add, Nat.one_mul]
  | ⟨1, _⟩ => show win5_1.index t (1 : Fin 2) * _ + 1 * (x 1).val = (x 1).val; rw [e11, Nat.zero_mul, Nat.zero_add, Nat.one_mul]

/-- What point t writes back is its block of the attention of the whole arrays. -/
theorem flushed5_eq (c : Dev nD)
    (hpay : ∀ (x0 : Vec Ideal S200x64 .f32) (x1 : Vec Ideal S1000x64 .f32) (x2 : Vec Ideal S200x1000 .i32), Cert.KernelIdeal.Gen.k5_pay1 (F := Ideal) x0 x1 x2 = Cert.Gat.att x0 x1 x2)
    (t : Fin cfg5.N) :
    (dat5 (F := Ideal) V c).flushed 3 t = ((cfg5.win 3).blk t).view.read (Elt Ideal) (Cert.Gat.att (V c main_v23) (V c main_v23) (V c main_arg4)) := by
  show (cfg5.win 3).cut (grid5.coords t) ((dat5 V c).after 3 t) = _
  rw [after5_3]
  unfold out5_3
  rw [View.canon_unit_zero hzA5]
  simp only [View.ld_unit_zero (S := S200x64) hzA5, View.ld_unit_zero (S := S1000x64) hzA5, View.ld_unit_zero (S := S200x1000) hzA5]
  rw [hpay, iblk5_1_eq]
  obtain ⟨e00, e01, e10, e11, e20, e21, e30, e31⟩ := idx_facts5 t
  funext j
  show Cert.Gat.att (iblk5 V c 0 t) (V c main_v23) (iblk5 V c 2 t) ((cfg5.win 3).xinj (grid5.coords t) j)
    = Cert.Gat.att (V c main_v23) (V c main_v23) (V c main_arg4) (((cfg5.win 3).blk t).view.emb j)
  refine att_block5 _ _ _ _ _ _ _ ?_ (fun k => ?_) (fun l => ?_)
  · show win5_3.index t (1 : Fin 2) * _ + 1 * (j 1).val = (j 1).val
    rw [e31, Nat.zero_mul, Nat.zero_add, Nat.one_mul]
  · unfold iblk5
    show V c main_v23 _ = V c main_v23 _
    refine congrArg (V c main_v23) (funext fun a => Fin.ext ?_)
    match a with
    | ⟨0, _⟩ => show win5_0.index t (0 : Fin 2) * _ + 1 * (j 0).val = win5_3.index t (0 : Fin 2) * _ + 1 * (j 0).val
                rw [e00] <;> rfl
    | ⟨1, _⟩ => show win5_0.index t (1 : Fin 2) * _ + 1 * k.val = k.val
                rw [e01, Nat.zero_mul, Nat.zero_add, Nat.one_mul]
  · unfold iblk5
    show V c main_arg4 _ = V c main_arg4 _
    refine congrArg (V c main_arg4) (funext fun a => Fin.ext ?_)
    match a with
    | ⟨0, _⟩ => show win5_2.index t (0 : Fin 2) * _ + 1 * (j 0).val = win5_3.index t (0 : Fin 2) * _ + 1 * (j 0).val
                rw [e20] <;> rfl
    | ⟨1, _⟩ => show win5_2.index t (1 : Fin 2) * _ + 1 * l.val = l.val
                rw [e21, Nat.zero_mul, Nat.zero_add, Nat.one_mul]

/-- An index of the output array is in point t's block iff each coordinate is in the block's range on its axis. -/
theorem mem_blk5 (t : Fin cfg5.N) (i : S1000x64.Idx) :
    i ∈ ((cfg5.win 3).blk t).view.set ↔ ∀ a : Fin 2, win5_3.index t a * S200x64.size a ≤ (i a).val ∧ (i a).val < win5_3.index t a * S200x64.size a + S200x64.size a := by
  show i ∈ ((View.whole main_v24).slice (win5_3.rect t)).set ↔ _
  rw [View.set_slice_whole, Rect.mem_set_unit]
  exact Iff.rfl

/-- The blocks tile the output array: row r is in the block of point r / 200. -/
theorem blocks_cover5 (i : S1000x64.Idx) : ∃ t : Fin cfg5.N, (cfg5.win 3).flush t = true ∧ i ∈ ((cfg5.win 3).blk t).view.set := by
  have hN : cfg5.N = _ := N_5
  have h0 : (i 0).val < 1000 := (i 0).isLt
  have ht : (i 0).val / 200 < cfg5.N := by rw [hN]; omega
  obtain ⟨e00, e01, e10, e11, e20, e21, e30, e31⟩ := idx_facts5 ⟨(i 0).val / 200, ht⟩
  refine ⟨⟨(i 0).val / 200, ht⟩, flush5_3 _, ?_⟩
  rw [mem_blk5]
  intro a
  match a with
  | ⟨0, _⟩ => show win5_3.index ⟨(i 0).val / 200, ht⟩ (0 : Fin 2) * 200 ≤ (i 0).val ∧ (i 0).val < win5_3.index ⟨(i 0).val / 200, ht⟩ (0 : Fin 2) * 200 + 200
              rw [e30]; show (i 0).val / 200 * 200 ≤ (i 0).val ∧ (i 0).val < (i 0).val / 200 * 200 + 200; omega
  | ⟨1, _⟩ => show win5_3.index ⟨(i 0).val / 200, ht⟩ (1 : Fin 2) * _ ≤ (i 1).val ∧ (i 1).val < win5_3.index ⟨(i 0).val / 200, ht⟩ (1 : Fin 2) * _ + _
              rw [e31, Nat.zero_mul, Nat.zero_add]; exact ⟨Nat.zero_le _, (i 1).isLt⟩

/-- The output array after the region: the attention of the whole arrays. -/
theorem val5 (c : Dev nD)
    (hpay : ∀ (x0 : Vec Ideal S200x64 .f32) (x1 : Vec Ideal S1000x64 .f32) (x2 : Vec Ideal S200x1000 .i32), Cert.KernelIdeal.Gen.k5_pay1 (F := Ideal) x0 x1 x2 = Cert.Gat.att x0 x1 x2) :
    (dat5 (F := Ideal) V c).arrAt 3 cfg5.N = Cert.Gat.att (V c main_v23) (V c main_v23) (V c main_arg4) :=
  (dat5 (F := Ideal) V c).arrAt_eq_of_cover 3 (Cert.Gat.att (V c main_v23) (V c main_v23) (V c main_arg4))
    (fun t _ => flushed5_eq V c hpay t) blocks_cover5

end Cert.KernelIdeal.Hand

end
-- ==== Proof.KI.Val6.lean ====
/-
  A dense-layer region, from blocks to the array.  The grid has one point, at which every window's block index is zero on every
  axis, so each operand's block is its whole array and the one block written back is the whole output array.  With the
  kernel's value at a point given as the dense layer of the three operand blocks, the output array after the region is
  the dense layer of the three operand arrays.
-/
import proofs.«123632_j87531433492498_2_alg».proof.Proof.KI.Body6
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA6 : (![0, 0] : Fin 2 → Nat) = fun _ => 0 := funext fun a => by fin_cases a <;> rfl
theorem hzB6 : (![0] : Fin 1 → Nat) = fun _ => 0 := funext fun a => by fin_cases a <;> rfl

/-- The block indices, decided over the grid: zero on every axis of every window. -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0 :=
  (by decide +kernel : ∀ t : Fin grid6.N, _)

/-- The input's block is the whole input array: an element of the block sits at block index × block size + its own
    coordinate, and the block index is zero. -/
theorem iblk6_0_eq (c : Dev nD) (t : Fin cfg6.N) : (iblk6 V c 0 t : Vec Ideal S1000x64 .f32) = V c main_v24 := by
  obtain ⟨e00, e01, e10, e11, e20, e30, e31⟩ := idx_facts6 t
  funext x
  unfold iblk6
  show V c main_v24 (((cfg6.win 0).blk t).view.emb x) = V c main_v24 x
  refine congrArg (V c main_v24) (funext fun a => Fin.ext ?_)
  match a with
  | ⟨0, _⟩ => show win6_0.index t (0 : Fin 2) * _ + 1 * (x 0).val = (x 0).val; rw [e00, Nat.zero_mul, Nat.zero_add, Nat.one_mul]
  | ⟨1, _⟩ => show win6_0.index t (1 : Fin 2) * _ + 1 * (x 1).val = (x 1).val; rw [e01, Nat.zero_mul, Nat.zero_add, Nat.one_mul]

/-- The weight matrix's block is the whole weight matrix. -/
theorem iblk6_1_eq (c : Dev nD) (t : Fin cfg6.N) : (iblk6 V c 1 t : Vec Ideal S64x3 .f32) = V c main_arg15 := by
  obtain ⟨e00, e01, e10, e11, e20, e30, e31⟩ := idx_facts6 t
  funext x
  unfold iblk6
  show V c main_arg15 (((cfg6.win 1).blk t).view.emb x) = V c main_arg15 x
  refine congrArg (V c main_arg15) (funext fun a => Fin.ext ?_)
  match a with
  | ⟨0, _⟩ => show win6_1.index t (0 : Fin 2) * _ + 1 * (x 0).val = (x 0).val; rw [e10, Nat.zero_mul, Nat.zero_add, Nat.one_mul]
  | ⟨1, _⟩ => show win6_1.index t (1 : Fin 2) * _ + 1 * (x 1).val = (x 1).val; rw [e11, Nat.zero_mul, Nat.zero_add, Nat.one_mul]

/-- The bias vector's block is the whole bias vector. -/
theorem iblk6_2_eq (c : Dev nD) (t : Fin cfg6.N) : (iblk6 V c 2 t : Vec Ideal S3 .f32) = V c main_arg16 := by
  obtain ⟨e00, e01, e10, e11, e20, e30, e31⟩ := idx_facts6 t
  funext x
  unfold iblk6
  show V c main_arg16 (((cfg6.win 2).blk t).view.emb x) = V c main_arg16 x
  refine congrArg (V c main_arg16) (funext fun a => Fin.ext ?_)
  match a with
  | ⟨0, _⟩ => show win6_2.index t (0 : Fin 1) * _ + 1 * (x 0).val = (x 0).val; rw [e20, Nat.zero_mul, Nat.zero_add, Nat.one_mul]

/-- What point t writes back is its block of the dense layer of the three operand arrays. -/
theorem flushed6_eq (c : Dev nD)
    (hpay : ∀ (x : Vec Ideal S1000x64 .f32) (w : Vec Ideal S64x3 .f32) (b : Vec Ideal S3 .f32), Cert.KernelIdeal.Gen.k6_pay1 (F := Ideal) x w b = Cert.Gat.lin x w b)
    (t : Fin cfg6.N) :
    (dat6 (F := Ideal) V c).flushed 3 t = ((cfg6.win 3).blk t).view.read (Elt Ideal) (Cert.Gat.lin (V c main_v24) (V c main_arg15) (V c main_arg16)) := by
  show (cfg6.win 3).cut (grid6.coords t) ((dat6 V c).after 3 t) = _
  rw [after6_3]
  unfold out6_3
  rw [View.canon_unit_zero hzA6]
  simp only [View.ld_unit_zero (S := S1000x64) hzA6, View.ld_unit_zero (S := S64x3) hzA6, View.ld_unit_zero (S := S3) hzB6]
  rw [hpay, iblk6_0_eq, iblk6_1_eq, iblk6_2_eq]
  obtain ⟨e00, e01, e10, e11, e20, e30, e31⟩ := idx_facts6 t
  funext j
  show Cert.Gat.lin (V c main_v24) (V c main_arg15) (V c main_arg16) ((cfg6.win 3).xinj (grid6.coords t) j)
    = Cert.Gat.lin (V c main_v24) (V c main_arg15) (V c main_arg16) (((cfg6.win 3).blk t).view.emb j)
  refine congrArg (Cert.Gat.lin (V c main_v24) (V c main_arg15) (V c main_arg16)) (funext fun a => Fin.ext ?_)
  match a with
  | ⟨0, _⟩ => show (j 0).val = win6_3.index t (0 : Fin 2) * _ + 1 * (j 0).val; rw [e30, Nat.zero_mul, Nat.zero_add, Nat.one_mul]
  | ⟨1, _⟩ => show (j 1).val = win6_3.index t (1 : Fin 2) * _ + 1 * (j 1).val; rw [e31, Nat.zero_mul, Nat.zero_add, Nat.one_mul]

/-- An index of the output array is in point t's block iff each coordinate is in the block's range on its axis. -/
theorem mem_blk6 (t : Fin cfg6.N) (i : S1000x3.Idx) :
    i ∈ ((cfg6.win 3).blk t).view.set ↔ ∀ a : Fin 2, win6_3.index t a * S1000x3.size a ≤ (i a).val ∧ (i a).val < win6_3.index t a * S1000x3.size a + S1000x3.size a := by
  show i ∈ ((View.whole main_v25).slice (win6_3.rect t)).set ↔ _
  rw [View.set_slice_whole, Rect.mem_set_unit]
  exact Iff.rfl

/-- The one point's block covers the output array. -/
theorem blocks_cover6 (i : S1000x3.Idx) : ∃ t : Fin cfg6.N, (cfg6.win 3).flush t = true ∧ i ∈ ((cfg6.win 3).blk t).view.set := by
  obtain ⟨e00, e01, e10, e11, e20, e30, e31⟩ := idx_facts6 t6_0
  refine ⟨t6_0, flush6_3 t6_0, ?_⟩
  rw [mem_blk6]
  intro a
  match a with
  | ⟨0, _⟩ => show win6_3.index t6_0 (0 : Fin 2) * _ ≤ (i 0).val ∧ (i 0).val < win6_3.index t6_0 (0 : Fin 2) * _ + _
              rw [e30, Nat.zero_mul, Nat.zero_add]; exact ⟨Nat.zero_le _, (i 0).isLt⟩
  | ⟨1, _⟩ => show win6_3.index t6_0 (1 : Fin 2) * _ ≤ (i 1).val ∧ (i 1).val < win6_3.index t6_0 (1 : Fin 2) * _ + _
              rw [e31, Nat.zero_mul, Nat.zero_add]; exact ⟨Nat.zero_le _, (i 1).isLt⟩

/-- The output array after the region: the dense layer of the three operand arrays. -/
theorem val6 (c : Dev nD)
    (hpay : ∀ (x : Vec Ideal S1000x64 .f32) (w : Vec Ideal S64x3 .f32) (b : Vec Ideal S3 .f32), Cert.KernelIdeal.Gen.k6_pay1 (F := Ideal) x w b = Cert.Gat.lin x w b) :
    (dat6 (F := Ideal) V c).arrAt 3 cfg6.N = Cert.Gat.lin (V c main_v24) (V c main_arg15) (V c main_arg16) :=
  (dat6 (F := Ideal) V c).arrAt_eq_of_cover 3 (Cert.Gat.lin (V c main_v24) (V c main_arg15) (V c main_arg16))
    (fun t _ => flushed6_eq V c hpay t) blocks_cover6

end Cert.KernelIdeal.Hand

end
-- ==== Proof.KI.Val7.lean ====
/-
  An attention region, from blocks to the array.  At grid point t the query window's block, the adjacency window's
  block and the output window's block are at the same block index on the rows axis (and at zero on the other), and the
  key window's block is the whole key array.  With the kernel's value at a point given as the attention of the query
  block over the key array under the adjacency block, row locality of attention makes the block written back at t the
  t-th block of rows of the attention of the whole arrays; the blocks tile the output array, so after the region it
  holds that attention.
-/
import proofs.«123632_j87531433492498_2_alg».proof.Proof.KI.Body7
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA7 : (![0, 0] : Fin 2 → Nat) = fun _ => 0 := funext fun a => by fin_cases a <;> rfl

/-- The block indices, decided over the grid: the query's and the adjacency's rows move with the output's, the output's
    row block is the point's number, and every other block index is zero. -/
theorem idx_facts7 : ∀ t : Fin cfg7.N,
    win7_0.index t (0 : Fin 2) = win7_3.index t (0 : Fin 2) ∧ win7_0.index t (1 : Fin 2) = 0
    ∧ win7_1.index t (0 : Fin 2) = 0 ∧ win7_1.index t (1 : Fin 2) = 0
    ∧ win7_2.index t (0 : Fin 2) = win7_3.index t (0 : Fin 2) ∧ win7_2.index t (1 : Fin 2) = 0
    ∧ win7_3.index t (0 : Fin 2) = t.val ∧ win7_3.index t (1 : Fin 2) = 0 :=
  (by decide +kernel : ∀ t : Fin grid7.N, _)

/-- Attention of a block of query rows, read at an index of the block, is attention of the whole arrays read at an index
    of the array, when the block's query row and adjacency row at the one are the arrays' rows at the other and the two
    indices name the same column. -/
theorem att_block7 {M M' N D : ℕ} (Q : (Cert.Gat.Mat M D).Idx → EReal) (Q' : (Cert.Gat.Mat M' D).Idx → EReal)
    (H : (Cert.Gat.Mat N D).Idx → EReal) (A : (Cert.Gat.Mat M N).Idx → BitVec 32) (A' : (Cert.Gat.Mat M' N).Idx → BitVec 32)
    (y : (Cert.Gat.Mat M' D).Idx) (i : (Cert.Gat.Mat M D).Idx) (hcol : (i 1).val = (y 1).val)
    (hQ : ∀ k : Fin D, Q' (ix2 (y 0) k) = Q (ix2 (i 0) k)) (hA : ∀ l : Fin N, A' (ix2 (y 0) l) = A (ix2 (i 0) l)) :
    Cert.Gat.att Q' H A' y = Cert.Gat.att Q H A i := by
  obtain ⟨p', q', rfl⟩ : ∃ (p' : Fin M') (q' : Fin D), y = ix2 p' q' := ⟨y 0, y 1, eq_ix2 y⟩
  obtain ⟨p, q, rfl⟩ : ∃ (p : Fin M) (q : Fin D), i = ix2 p q := ⟨i 0, i 1, eq_ix2 i⟩
  obtain rfl : q = q' := Fin.ext hcol
  exact Cert.Gat.att_rows Q Q' H A A' p p' hQ hA q

/-- The key window's block is the whole key array. -/
theorem iblk7_1_eq (c : Dev nD) (t : Fin cfg7.N) : (iblk7 V c 1 t : Vec Ideal S1000x3 .f32) = V c main_v25 := by
  obtain ⟨e00, e01, e10, e11, e20, e21, e30, e31⟩ := idx_facts7 t
  funext x
  unfold iblk7
  show V c main_v25 (((cfg7.win 1).blk t).view.emb x) = V c main_v25 x
  refine congrArg (V c main_v25) (funext fun a => Fin.ext ?_)
  match a with
  | ⟨0, _⟩ => show win7_1.index t (0 : Fin 2) * _ + 1 * (x 0).val = (x 0).val; rw [e10, Nat.zero_mul, Nat.zero_add, Nat.one_mul]
  | ⟨1, _⟩ => show win7_1.index t (1 : Fin 2) * _ + 1 * (x 1).val = (x 1).val; rw [e11, Nat.zero_mul, Nat.zero_add, Nat.one_mul]

/-- What point t writes back is its block of the attention of the whole arrays. -/
theorem flushed7_eq (c : Dev nD)
    (hpay : ∀ (x0 : Vec Ideal S200x3 .f32) (x1 : Vec Ideal S1000x3 .f32) (x2 : Vec Ideal S200x1000 .i32), Cert.KernelIdeal.Gen.k7_pay1 (F := Ideal) x0 x1 x2 = Cert.Gat.att x0 x1 x2)
    (t : Fin cfg7.N) :
    (dat7 (F := Ideal) V c).flushed 3 t = ((cfg7.win 3).blk t).view.read (Elt Ideal) (Cert.Gat.att (V c main_v25) (V c main_v25) (V c main_arg4)) := by
  show (cfg7.win 3).cut (grid7.coords t) ((dat7 V c).after 3 t) = _
  rw [after7_3]
  unfold out7_3
  rw [View.canon_unit_zero hzA7]
  simp only [View.ld_unit_zero (S := S200x3) hzA7, View.ld_unit_zero (S := S1000x3) hzA7, View.ld_unit_zero (S := S200x1000) hzA7]
  rw [hpay, iblk7_1_eq]
  obtain ⟨e00, e01, e10, e11, e20, e21, e30, e31⟩ := idx_facts7 t
  funext j
  show Cert.Gat.att (iblk7 V c 0 t) (V c main_v25) (iblk7 V c 2 t) ((cfg7.win 3).xinj (grid7.coords t) j)
    = Cert.Gat.att (V c main_v25) (V c main_v25) (V c main_arg4) (((cfg7.win 3).blk t).view.emb j)
  refine att_block7 _ _ _ _ _ _ _ ?_ (fun k => ?_) (fun l => ?_)
  · show win7_3.index t (1 : Fin 2) * _ + 1 * (j 1).val = (j 1).val
    rw [e31, Nat.zero_mul, Nat.zero_add, Nat.one_mul]
  · unfold iblk7
    show V c main_v25 _ = V c main_v25 _
    refine congrArg (V c main_v25) (funext fun a => Fin.ext ?_)
    match a with
    | ⟨0, _⟩ => show win7_0.index t (0 : Fin 2) * _ + 1 * (j 0).val = win7_3.index t (0 : Fin 2) * _ + 1 * (j 0).val
                rw [e00] <;> rfl
    | ⟨1, _⟩ => show win7_0.index t (1 : Fin 2) * _ + 1 * k.val = k.val
                rw [e01, Nat.zero_mul, Nat.zero_add, Nat.one_mul]
  · unfold iblk7
    show V c main_arg4 _ = V c main_arg4 _
    refine congrArg (V c main_arg4) (funext fun a => Fin.ext ?_)
    match a with
    | ⟨0, _⟩ => show win7_2.index t (0 : Fin 2) * _ + 1 * (j 0).val = win7_3.index t (0 : Fin 2) * _ + 1 * (j 0).val
                rw [e20] <;> rfl
    | ⟨1, _⟩ => show win7_2.index t (1 : Fin 2) * _ + 1 * l.val = l.val
                rw [e21, Nat.zero_mul, Nat.zero_add, Nat.one_mul]

/-- An index of the output array is in point t's block iff each coordinate is in the block's range on its axis. -/
theorem mem_blk7 (t : Fin cfg7.N) (i : S1000x3.Idx) :
    i ∈ ((cfg7.win 3).blk t).view.set ↔ ∀ a : Fin 2, win7_3.index t a * S200x3.size a ≤ (i a).val ∧ (i a).val < win7_3.index t a * S200x3.size a + S200x3.size a := by
  show i ∈ ((View.whole main_v26).slice (win7_3.rect t)).set ↔ _
  rw [View.set_slice_whole, Rect.mem_set_unit]
  exact Iff.rfl

/-- The blocks tile the output array: row r is in the block of point r / 200. -/
theorem blocks_cover7 (i : S1000x3.Idx) : ∃ t : Fin cfg7.N, (cfg7.win 3).flush t = true ∧ i ∈ ((cfg7.win 3).blk t).view.set := by
  have hN : cfg7.N = _ := N_7
  have h0 : (i 0).val < 1000 := (i 0).isLt
  have ht : (i 0).val / 200 < cfg7.N := by rw [hN]; omega
  obtain ⟨e00, e01, e10, e11, e20, e21, e30, e31⟩ := idx_facts7 ⟨(i 0).val / 200, ht⟩
  refine ⟨⟨(i 0).val / 200, ht⟩, flush7_3 _, ?_⟩
  rw [mem_blk7]
  intro a
  match a with
  | ⟨0, _⟩ => show win7_3.index ⟨(i 0).val / 200, ht⟩ (0 : Fin 2) * 200 ≤ (i 0).val ∧ (i 0).val < win7_3.index ⟨(i 0).val / 200, ht⟩ (0 : Fin 2) * 200 + 200
              rw [e30]; show (i 0).val / 200 * 200 ≤ (i 0).val ∧ (i 0).val < (i 0).val / 200 * 200 + 200; omega
  | ⟨1, _⟩ => show win7_3.index ⟨(i 0).val / 200, ht⟩ (1 : Fin 2) * _ ≤ (i 1).val ∧ (i 1).val < win7_3.index ⟨(i 0).val / 200, ht⟩ (1 : Fin 2) * _ + _
              rw [e31, Nat.zero_mul, Nat.zero_add]; exact ⟨Nat.zero_le _, (i 1).isLt⟩

/-- The output array after the region: the attention of the whole arrays. -/
theorem val7 (c : Dev nD)
    (hpay : ∀ (x0 : Vec Ideal S200x3 .f32) (x1 : Vec Ideal S1000x3 .f32) (x2 : Vec Ideal S200x1000 .i32), Cert.KernelIdeal.Gen.k7_pay1 (F := Ideal) x0 x1 x2 = Cert.Gat.att x0 x1 x2) :
    (dat7 (F := Ideal) V c).arrAt 3 cfg7.N = Cert.Gat.att (V c main_v25) (V c main_v25) (V c main_arg4) :=
  (dat7 (F := Ideal) V c).arrAt_eq_of_cover 3 (Cert.Gat.att (V c main_v25) (V c main_v25) (V c main_arg4))
    (fun t _ => flushed7_eq V c hpay t) blocks_cover7

end Cert.KernelIdeal.Hand

end
-- ==== Proof.KI.Val8.lean ====
/-
  A dense-layer region, from blocks to the array.  The grid has one point, at which every window's block index is zero on every
  axis, so each operand's block is its whole array and the one block written back is the whole output array.  With the
  kernel's value at a point given as the dense layer of the three operand blocks, the output array after the region is
  the dense layer of the three operand arrays.
-/
import proofs.«123632_j87531433492498_2_alg».proof.Proof.KI.Body8
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA8 : (![0, 0] : Fin 2 → Nat) = fun _ => 0 := funext fun a => by fin_cases a <;> rfl
theorem hzB8 : (![0] : Fin 1 → Nat) = fun _ => 0 := funext fun a => by fin_cases a <;> rfl

/-- The block indices, decided over the grid: zero on every axis of every window. -/
theorem idx_facts8 : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = 0 ∧ win8_3.index t (1 : Fin 2) = 0 :=
  (by decide +kernel : ∀ t : Fin grid8.N, _)

/-- The input's block is the whole input array: an element of the block sits at block index × block size + its own
    coordinate, and the block index is zero. -/
theorem iblk8_0_eq (c : Dev nD) (t : Fin cfg8.N) : (iblk8 V c 0 t : Vec Ideal S500x156 .f32) = V c main_arg2 := by
  obtain ⟨e00, e01, e10, e11, e20, e30, e31⟩ := idx_facts8 t
  funext x
  unfold iblk8
  show V c main_arg2 (((cfg8.win 0).blk t).view.emb x) = V c main_arg2 x
  refine congrArg (V c main_arg2) (funext fun a => Fin.ext ?_)
  match a with
  | ⟨0, _⟩ => show win8_0.index t (0 : Fin 2) * _ + 1 * (x 0).val = (x 0).val; rw [e00, Nat.zero_mul, Nat.zero_add, Nat.one_mul]
  | ⟨1, _⟩ => show win8_0.index t (1 : Fin 2) * _ + 1 * (x 1).val = (x 1).val; rw [e01, Nat.zero_mul, Nat.zero_add, Nat.one_mul]

/-- The weight matrix's block is the whole weight matrix. -/
theorem iblk8_1_eq (c : Dev nD) (t : Fin cfg8.N) : (iblk8 V c 1 t : Vec Ideal S156x64 .f32) = V c main_arg17 := by
  obtain ⟨e00, e01, e10, e11, e20, e30, e31⟩ := idx_facts8 t
  funext x
  unfold iblk8
  show V c main_arg17 (((cfg8.win 1).blk t).view.emb x) = V c main_arg17 x
  refine congrArg (V c main_arg17) (funext fun a => Fin.ext ?_)
  match a with
  | ⟨0, _⟩ => show win8_1.index t (0 : Fin 2) * _ + 1 * (x 0).val = (x 0).val; rw [e10, Nat.zero_mul, Nat.zero_add, Nat.one_mul]
  | ⟨1, _⟩ => show win8_1.index t (1 : Fin 2) * _ + 1 * (x 1).val = (x 1).val; rw [e11, Nat.zero_mul, Nat.zero_add, Nat.one_mul]

/-- The bias vector's block is the whole bias vector. -/
theorem iblk8_2_eq (c : Dev nD) (t : Fin cfg8.N) : (iblk8 V c 2 t : Vec Ideal S64 .f32) = V c main_arg18 := by
  obtain ⟨e00, e01, e10, e11, e20, e30, e31⟩ := idx_facts8 t
  funext x
  unfold iblk8
  show V c main_arg18 (((cfg8.win 2).blk t).view.emb x) = V c main_arg18 x
  refine congrArg (V c main_arg18) (funext fun a => Fin.ext ?_)
  match a with
  | ⟨0, _⟩ => show win8_2.index t (0 : Fin 1) * _ + 1 * (x 0).val = (x 0).val; rw [e20, Nat.zero_mul, Nat.zero_add, Nat.one_mul]

/-- What point t writes back is its block of the dense layer of the three operand arrays. -/
theorem flushed8_eq (c : Dev nD)
    (hpay : ∀ (x : Vec Ideal S500x156 .f32) (w : Vec Ideal S156x64 .f32) (b : Vec Ideal S64 .f32), Cert.KernelIdeal.Gen.k8_pay1 (F := Ideal) x w b = Cert.Gat.lin x w b)
    (t : Fin cfg8.N) :
    (dat8 (F := Ideal) V c).flushed 3 t = ((cfg8.win 3).blk t).view.read (Elt Ideal) (Cert.Gat.lin (V c main_arg2) (V c main_arg17) (V c main_arg18)) := by
  show (cfg8.win 3).cut (grid8.coords t) ((dat8 V c).after 3 t) = _
  rw [after8_3]
  unfold out8_3
  rw [View.canon_unit_zero hzA8]
  simp only [View.ld_unit_zero (S := S500x156) hzA8, View.ld_unit_zero (S := S156x64) hzA8, View.ld_unit_zero (S := S64) hzB8]
  rw [hpay, iblk8_0_eq, iblk8_1_eq, iblk8_2_eq]
  obtain ⟨e00, e01, e10, e11, e20, e30, e31⟩ := idx_facts8 t
  funext j
  show Cert.Gat.lin (V c main_arg2) (V c main_arg17) (V c main_arg18) ((cfg8.win 3).xinj (grid8.coords t) j)
    = Cert.Gat.lin (V c main_arg2) (V c main_arg17) (V c main_arg18) (((cfg8.win 3).blk t).view.emb j)
  refine congrArg (Cert.Gat.lin (V c main_arg2) (V c main_arg17) (V c main_arg18)) (funext fun a => Fin.ext ?_)
  match a with
  | ⟨0, _⟩ => show (j 0).val = win8_3.index t (0 : Fin 2) * _ + 1 * (j 0).val; rw [e30, Nat.zero_mul, Nat.zero_add, Nat.one_mul]
  | ⟨1, _⟩ => show (j 1).val = win8_3.index t (1 : Fin 2) * _ + 1 * (j 1).val; rw [e31, Nat.zero_mul, Nat.zero_add, Nat.one_mul]

/-- An index of the output array is in point t's block iff each coordinate is in the block's range on its axis. -/
theorem mem_blk8 (t : Fin cfg8.N) (i : S500x64.Idx) :
    i ∈ ((cfg8.win 3).blk t).view.set ↔ ∀ a : Fin 2, win8_3.index t a * S500x64.size a ≤ (i a).val ∧ (i a).val < win8_3.index t a * S500x64.size a + S500x64.size a := by
  show i ∈ ((View.whole main_v46).slice (win8_3.rect t)).set ↔ _
  rw [View.set_slice_whole, Rect.mem_set_unit]
  exact Iff.rfl

/-- The one point's block covers the output array. -/
theorem blocks_cover8 (i : S500x64.Idx) : ∃ t : Fin cfg8.N, (cfg8.win 3).flush t = true ∧ i ∈ ((cfg8.win 3).blk t).view.set := by
  obtain ⟨e00, e01, e10, e11, e20, e30, e31⟩ := idx_facts8 t8_0
  refine ⟨t8_0, flush8_3 t8_0, ?_⟩
  rw [mem_blk8]
  intro a
  match a with
  | ⟨0, _⟩ => show win8_3.index t8_0 (0 : Fin 2) * _ ≤ (i 0).val ∧ (i 0).val < win8_3.index t8_0 (0 : Fin 2) * _ + _
              rw [e30, Nat.zero_mul, Nat.zero_add]; exact ⟨Nat.zero_le _, (i 0).isLt⟩
  | ⟨1, _⟩ => show win8_3.index t8_0 (1 : Fin 2) * _ ≤ (i 1).val ∧ (i 1).val < win8_3.index t8_0 (1 : Fin 2) * _ + _
              rw [e31, Nat.zero_mul, Nat.zero_add]; exact ⟨Nat.zero_le _, (i 1).isLt⟩

/-- The output array after the region: the dense layer of the three operand arrays. -/
theorem val8 (c : Dev nD)
    (hpay : ∀ (x : Vec Ideal S500x156 .f32) (w : Vec Ideal S156x64 .f32) (b : Vec Ideal S64 .f32), Cert.KernelIdeal.Gen.k8_pay1 (F := Ideal) x w b = Cert.Gat.lin x w b) :
    (dat8 (F := Ideal) V c).arrAt 3 cfg8.N = Cert.Gat.lin (V c main_arg2) (V c main_arg17) (V c main_arg18) :=
  (dat8 (F := Ideal) V c).arrAt_eq_of_cover 3 (Cert.Gat.lin (V c main_arg2) (V c main_arg17) (V c main_arg18))
    (fun t _ => flushed8_eq V c hpay t) blocks_cover8

end Cert.KernelIdeal.Hand

end
-- ==== Proof.KI.Val9.lean ====
/-
  An attention region, from blocks to the array.  At grid point t the query window's block, the adjacency window's
  block and the output window's block are at the same block index on the rows axis (and at zero on the other), and the
  key window's block is the whole key array.  With the kernel's value at a point given as the attention of the query
  block over the key array under the adjacency block, row locality of attention makes the block written back at t the
  t-th block of rows of the attention of the whole arrays; the blocks tile the output array, so after the region it
  holds that attention.
-/
import proofs.«123632_j87531433492498_2_alg».proof.Proof.KI.Body9
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA9 : (![0, 0] : Fin 2 → Nat) = fun _ => 0 := funext fun a => by fin_cases a <;> rfl

/-- The block indices, decided over the grid: the query's and the adjacency's rows move with the output's, the output's
    row block is the point's number, and every other block index is zero. -/
theorem idx_facts9 : ∀ t : Fin cfg9.N,
    win9_0.index t (0 : Fin 2) = win9_3.index t (0 : Fin 2) ∧ win9_0.index t (1 : Fin 2) = 0
    ∧ win9_1.index t (0 : Fin 2) = 0 ∧ win9_1.index t (1 : Fin 2) = 0
    ∧ win9_2.index t (0 : Fin 2) = win9_3.index t (0 : Fin 2) ∧ win9_2.index t (1 : Fin 2) = 0
    ∧ win9_3.index t (0 : Fin 2) = t.val ∧ win9_3.index t (1 : Fin 2) = 0 :=
  (by decide +kernel : ∀ t : Fin grid9.N, _)

/-- Attention of a block of query rows, read at an index of the block, is attention of the whole arrays read at an index
    of the array, when the block's query row and adjacency row at the one are the arrays' rows at the other and the two
    indices name the same column. -/
theorem att_block9 {M M' N D : ℕ} (Q : (Cert.Gat.Mat M D).Idx → EReal) (Q' : (Cert.Gat.Mat M' D).Idx → EReal)
    (H : (Cert.Gat.Mat N D).Idx → EReal) (A : (Cert.Gat.Mat M N).Idx → BitVec 32) (A' : (Cert.Gat.Mat M' N).Idx → BitVec 32)
    (y : (Cert.Gat.Mat M' D).Idx) (i : (Cert.Gat.Mat M D).Idx) (hcol : (i 1).val = (y 1).val)
    (hQ : ∀ k : Fin D, Q' (ix2 (y 0) k) = Q (ix2 (i 0) k)) (hA : ∀ l : Fin N, A' (ix2 (y 0) l) = A (ix2 (i 0) l)) :
    Cert.Gat.att Q' H A' y = Cert.Gat.att Q H A i := by
  obtain ⟨p', q', rfl⟩ : ∃ (p' : Fin M') (q' : Fin D), y = ix2 p' q' := ⟨y 0, y 1, eq_ix2 y⟩
  obtain ⟨p, q, rfl⟩ : ∃ (p : Fin M) (q : Fin D), i = ix2 p q := ⟨i 0, i 1, eq_ix2 i⟩
  obtain rfl : q = q' := Fin.ext hcol
  exact Cert.Gat.att_rows Q Q' H A A' p p' hQ hA q

/-- The key window's block is the whole key array. -/
theorem iblk9_1_eq (c : Dev nD) (t : Fin cfg9.N) : (iblk9 V c 1 t : Vec Ideal S500x64 .f32) = V c main_v46 := by
  obtain ⟨e00, e01, e10, e11, e20, e21, e30, e31⟩ := idx_facts9 t
  funext x
  unfold iblk9
  show V c main_v46 (((cfg9.win 1).blk t).view.emb x) = V c main_v46 x
  refine congrArg (V c main_v46) (funext fun a => Fin.ext ?_)
  match a with
  | ⟨0, _⟩ => show win9_1.index t (0 : Fin 2) * _ + 1 * (x 0).val = (x 0).val; rw [e10, Nat.zero_mul, Nat.zero_add, Nat.one_mul]
  | ⟨1, _⟩ => show win9_1.index t (1 : Fin 2) * _ + 1 * (x 1).val = (x 1).val; rw [e11, Nat.zero_mul, Nat.zero_add, Nat.one_mul]

/-- What point t writes back is its block of the attention of the whole arrays. -/
theorem flushed9_eq (c : Dev nD)
    (hpay : ∀ (x0 : Vec Ideal S500x64 .f32) (x1 : Vec Ideal S500x64 .f32) (x2 : Vec Ideal S500x500 .i32), Cert.KernelIdeal.Gen.k9_pay1 (F := Ideal) x0 x1 x2 = Cert.Gat.att x0 x1 x2)
    (t : Fin cfg9.N) :
    (dat9 (F := Ideal) V c).flushed 3 t = ((cfg9.win 3).blk t).view.read (Elt Ideal) (Cert.Gat.att (V c main_v46) (V c main_v46) (V c main_arg5)) := by
  show (cfg9.win 3).cut (grid9.coords t) ((dat9 V c).after 3 t) = _
  rw [after9_3]
  unfold out9_3
  rw [View.canon_unit_zero hzA9]
  simp only [View.ld_unit_zero (S := S500x64) hzA9, View.ld_unit_zero (S := S500x64) hzA9, View.ld_unit_zero (S := S500x500) hzA9]
  rw [hpay, iblk9_1_eq]
  obtain ⟨e00, e01, e10, e11, e20, e21, e30, e31⟩ := idx_facts9 t
  funext j
  show Cert.Gat.att (iblk9 V c 0 t) (V c main_v46) (iblk9 V c 2 t) ((cfg9.win 3).xinj (grid9.coords t) j)
    = Cert.Gat.att (V c main_v46) (V c main_v46) (V c main_arg5) (((cfg9.win 3).blk t).view.emb j)
  refine att_block9 _ _ _ _ _ _ _ ?_ (fun k => ?_) (fun l => ?_)
  · show win9_3.index t (1 : Fin 2) * _ + 1 * (j 1).val = (j 1).val
    rw [e31, Nat.zero_mul, Nat.zero_add, Nat.one_mul]
  · unfold iblk9
    show V c main_v46 _ = V c main_v46 _
    refine congrArg (V c main_v46) (funext fun a => Fin.ext ?_)
    match a with
    | ⟨0, _⟩ => show win9_0.index t (0 : Fin 2) * _ + 1 * (j 0).val = win9_3.index t (0 : Fin 2) * _ + 1 * (j 0).val
                rw [e00] <;> rfl
    | ⟨1, _⟩ => show win9_0.index t (1 : Fin 2) * _ + 1 * k.val = k.val
                rw [e01, Nat.zero_mul, Nat.zero_add, Nat.one_mul]
  · unfold iblk9
    show V c main_arg5 _ = V c main_arg5 _
    refine congrArg (V c main_arg5) (funext fun a => Fin.ext ?_)
    match a with
    | ⟨0, _⟩ => show win9_2.index t (0 : Fin 2) * _ + 1 * (j 0).val = win9_3.index t (0 : Fin 2) * _ + 1 * (j 0).val
                rw [e20] <;> rfl
    | ⟨1, _⟩ => show win9_2.index t (1 : Fin 2) * _ + 1 * l.val = l.val
                rw [e21, Nat.zero_mul, Nat.zero_add, Nat.one_mul]

/-- An index of the output array is in point t's block iff each coordinate is in the block's range on its axis. -/
theorem mem_blk9 (t : Fin cfg9.N) (i : S500x64.Idx) :
    i ∈ ((cfg9.win 3).blk t).view.set ↔ ∀ a : Fin 2, win9_3.index t a * S500x64.size a ≤ (i a).val ∧ (i a).val < win9_3.index t a * S500x64.size a + S500x64.size a := by
  show i ∈ ((View.whole main_v47).slice (win9_3.rect t)).set ↔ _
  rw [View.set_slice_whole, Rect.mem_set_unit]
  exact Iff.rfl

/-- The blocks tile the output array: row r is in the block of point r / 500. -/
theorem blocks_cover9 (i : S500x64.Idx) : ∃ t : Fin cfg9.N, (cfg9.win 3).flush t = true ∧ i ∈ ((cfg9.win 3).blk t).view.set := by
  have hN : cfg9.N = _ := N_9
  have h0 : (i 0).val < 500 := (i 0).isLt
  have ht : (i 0).val / 500 < cfg9.N := by rw [hN]; omega
  obtain ⟨e00, e01, e10, e11, e20, e21, e30, e31⟩ := idx_facts9 ⟨(i 0).val / 500, ht⟩
  refine ⟨⟨(i 0).val / 500, ht⟩, flush9_3 _, ?_⟩
  rw [mem_blk9]
  intro a
  match a with
  | ⟨0, _⟩ => show win9_3.index ⟨(i 0).val / 500, ht⟩ (0 : Fin 2) * 500 ≤ (i 0).val ∧ (i 0).val < win9_3.index ⟨(i 0).val / 500, ht⟩ (0 : Fin 2) * 500 + 500
              rw [e30]; show (i 0).val / 500 * 500 ≤ (i 0).val ∧ (i 0).val < (i 0).val / 500 * 500 + 500; omega
  | ⟨1, _⟩ => show win9_3.index ⟨(i 0).val / 500, ht⟩ (1 : Fin 2) * _ ≤ (i 1).val ∧ (i 1).val < win9_3.index ⟨(i 0).val / 500, ht⟩ (1 : Fin 2) * _ + _
              rw [e31, Nat.zero_mul, Nat.zero_add]; exact ⟨Nat.zero_le _, (i 1).isLt⟩

/-- The output array after the region: the attention of the whole arrays. -/
theorem val9 (c : Dev nD)
    (hpay : ∀ (x0 : Vec Ideal S500x64 .f32) (x1 : Vec Ideal S500x64 .f32) (x2 : Vec Ideal S500x500 .i32), Cert.KernelIdeal.Gen.k9_pay1 (F := Ideal) x0 x1 x2 = Cert.Gat.att x0 x1 x2) :
    (dat9 (F := Ideal) V c).arrAt 3 cfg9.N = Cert.Gat.att (V c main_v46) (V c main_v46) (V c main_arg5) :=
  (dat9 (F := Ideal) V c).arrAt_eq_of_cover 3 (Cert.Gat.att (V c main_v46) (V c main_v46) (V c main_arg5))
    (fun t _ => flushed9_eq V c hpay t) blocks_cover9

end Cert.KernelIdeal.Hand

end
-- ==== Proof.KI.Val10.lean ====
/-
  A dense-layer region, from blocks to the array.  The grid has one point, at which every window's block index is zero on every
  axis, so each operand's block is its whole array and the one block written back is the whole output array.  With the
  kernel's value at a point given as the dense layer of the three operand blocks, the output array after the region is
  the dense layer of the three operand arrays.
-/
import proofs.«123632_j87531433492498_2_alg».proof.Proof.KI.Body10
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA10 : (![0, 0] : Fin 2 → Nat) = fun _ => 0 := funext fun a => by fin_cases a <;> rfl
theorem hzB10 : (![0] : Fin 1 → Nat) = fun _ => 0 := funext fun a => by fin_cases a <;> rfl

/-- The block indices, decided over the grid: zero on every axis of every window. -/
theorem idx_facts10 : ∀ t : Fin cfg10.N, win10_0.index t (0 : Fin 2) = 0 ∧ win10_0.index t (1 : Fin 2) = 0
    ∧ win10_1.index t (0 : Fin 2) = 0 ∧ win10_1.index t (1 : Fin 2) = 0
    ∧ win10_2.index t (0 : Fin 1) = 0
    ∧ win10_3.index t (0 : Fin 2) = 0 ∧ win10_3.index t (1 : Fin 2) = 0 :=
  (by decide +kernel : ∀ t : Fin grid10.N, _)

/-- The input's block is the whole input array: an element of the block sits at block index × block size + its own
    coordinate, and the block index is zero. -/
theorem iblk10_0_eq (c : Dev nD) (t : Fin cfg10.N) : (iblk10 V c 0 t : Vec Ideal S500x64 .f32) = V c main_v47 := by
  obtain ⟨e00, e01, e10, e11, e20, e30, e31⟩ := idx_facts10 t
  funext x
  unfold iblk10
  show V c main_v47 (((cfg10.win 0).blk t).view.emb x) = V c main_v47 x
  refine congrArg (V c main_v47) (funext fun a => Fin.ext ?_)
  match a with
  | ⟨0, _⟩ => show win10_0.index t (0 : Fin 2) * _ + 1 * (x 0).val = (x 0).val; rw [e00, Nat.zero_mul, Nat.zero_add, Nat.one_mul]
  | ⟨1, _⟩ => show win10_0.index t (1 : Fin 2) * _ + 1 * (x 1).val = (x 1).val; rw [e01, Nat.zero_mul, Nat.zero_add, Nat.one_mul]

/-- The weight matrix's block is the whole weight matrix. -/
theorem iblk10_1_eq (c : Dev nD) (t : Fin cfg10.N) : (iblk10 V c 1 t : Vec Ideal S64x3 .f32) = V c main_arg19 := by
  obtain ⟨e00, e01, e10, e11, e20, e30, e31⟩ := idx_facts10 t
  funext x
  unfold iblk10
  show V c main_arg19 (((cfg10.win 1).blk t).view.emb x) = V c main_arg19 x
  refine congrArg (V c main_arg19) (funext fun a => Fin.ext ?_)
  match a with
  | ⟨0, _⟩ => show win10_1.index t (0 : Fin 2) * _ + 1 * (x 0).val = (x 0).val; rw [e10, Nat.zero_mul, Nat.zero_add, Nat.one_mul]
  | ⟨1, _⟩ => show win10_1.index t (1 : Fin 2) * _ + 1 * (x 1).val = (x 1).val; rw [e11, Nat.zero_mul, Nat.zero_add, Nat.one_mul]

/-- The bias vector's block is the whole bias vector. -/
theorem iblk10_2_eq (c : Dev nD) (t : Fin cfg10.N) : (iblk10 V c 2 t : Vec Ideal S3 .f32) = V c main_arg20 := by
  obtain ⟨e00, e01, e10, e11, e20, e30, e31⟩ := idx_facts10 t
  funext x
  unfold iblk10
  show V c main_arg20 (((cfg10.win 2).blk t).view.emb x) = V c main_arg20 x
  refine congrArg (V c main_arg20) (funext fun a => Fin.ext ?_)
  match a with
  | ⟨0, _⟩ => show win10_2.index t (0 : Fin 1) * _ + 1 * (x 0).val = (x 0).val; rw [e20, Nat.zero_mul, Nat.zero_add, Nat.one_mul]

/-- What point t writes back is its block of the dense layer of the three operand arrays. -/
theorem flushed10_eq (c : Dev nD)
    (hpay : ∀ (x : Vec Ideal S500x64 .f32) (w : Vec Ideal S64x3 .f32) (b : Vec Ideal S3 .f32), Cert.KernelIdeal.Gen.k10_pay1 (F := Ideal) x w b = Cert.Gat.lin x w b)
    (t : Fin cfg10.N) :
    (dat10 (F := Ideal) V c).flushed 3 t = ((cfg10.win 3).blk t).view.read (Elt Ideal) (Cert.Gat.lin (V c main_v47) (V c main_arg19) (V c main_arg20)) := by
  show (cfg10.win 3).cut (grid10.coords t) ((dat10 V c).after 3 t) = _
  rw [after10_3]
  unfold out10_3
  rw [View.canon_unit_zero hzA10]
  simp only [View.ld_unit_zero (S := S500x64) hzA10, View.ld_unit_zero (S := S64x3) hzA10, View.ld_unit_zero (S := S3) hzB10]
  rw [hpay, iblk10_0_eq, iblk10_1_eq, iblk10_2_eq]
  obtain ⟨e00, e01, e10, e11, e20, e30, e31⟩ := idx_facts10 t
  funext j
  show Cert.Gat.lin (V c main_v47) (V c main_arg19) (V c main_arg20) ((cfg10.win 3).xinj (grid10.coords t) j)
    = Cert.Gat.lin (V c main_v47) (V c main_arg19) (V c main_arg20) (((cfg10.win 3).blk t).view.emb j)
  refine congrArg (Cert.Gat.lin (V c main_v47) (V c main_arg19) (V c main_arg20)) (funext fun a => Fin.ext ?_)
  match a with
  | ⟨0, _⟩ => show (j 0).val = win10_3.index t (0 : Fin 2) * _ + 1 * (j 0).val; rw [e30, Nat.zero_mul, Nat.zero_add, Nat.one_mul]
  | ⟨1, _⟩ => show (j 1).val = win10_3.index t (1 : Fin 2) * _ + 1 * (j 1).val; rw [e31, Nat.zero_mul, Nat.zero_add, Nat.one_mul]

/-- An index of the output array is in point t's block iff each coordinate is in the block's range on its axis. -/
theorem mem_blk10 (t : Fin cfg10.N) (i : S500x3.Idx) :
    i ∈ ((cfg10.win 3).blk t).view.set ↔ ∀ a : Fin 2, win10_3.index t a * S500x3.size a ≤ (i a).val ∧ (i a).val < win10_3.index t a * S500x3.size a + S500x3.size a := by
  show i ∈ ((View.whole main_v48).slice (win10_3.rect t)).set ↔ _
  rw [View.set_slice_whole, Rect.mem_set_unit]
  exact Iff.rfl

/-- The one point's block covers the output array. -/
theorem blocks_cover10 (i : S500x3.Idx) : ∃ t : Fin cfg10.N, (cfg10.win 3).flush t = true ∧ i ∈ ((cfg10.win 3).blk t).view.set := by
  obtain ⟨e00, e01, e10, e11, e20, e30, e31⟩ := idx_facts10 t10_0
  refine ⟨t10_0, flush10_3 t10_0, ?_⟩
  rw [mem_blk10]
  intro a
  match a with
  | ⟨0, _⟩ => show win10_3.index t10_0 (0 : Fin 2) * _ ≤ (i 0).val ∧ (i 0).val < win10_3.index t10_0 (0 : Fin 2) * _ + _
              rw [e30, Nat.zero_mul, Nat.zero_add]; exact ⟨Nat.zero_le _, (i 0).isLt⟩
  | ⟨1, _⟩ => show win10_3.index t10_0 (1 : Fin 2) * _ ≤ (i 1).val ∧ (i 1).val < win10_3.index t10_0 (1 : Fin 2) * _ + _
              rw [e31, Nat.zero_mul, Nat.zero_add]; exact ⟨Nat.zero_le _, (i 1).isLt⟩

/-- The output array after the region: the dense layer of the three operand arrays. -/
theorem val10 (c : Dev nD)
    (hpay : ∀ (x : Vec Ideal S500x64 .f32) (w : Vec Ideal S64x3 .f32) (b : Vec Ideal S3 .f32), Cert.KernelIdeal.Gen.k10_pay1 (F := Ideal) x w b = Cert.Gat.lin x w b) :
    (dat10 (F := Ideal) V c).arrAt 3 cfg10.N = Cert.Gat.lin (V c main_v47) (V c main_arg19) (V c main_arg20) :=
  (dat10 (F := Ideal) V c).arrAt_eq_of_cover 3 (Cert.Gat.lin (V c main_v47) (V c main_arg19) (V c main_arg20))
    (fun t _ => flushed10_eq V c hpay t) blocks_cover10

end Cert.KernelIdeal.Hand

end
-- ==== Proof.KI.Val11.lean ====
/-
  An attention region, from blocks to the array.  At grid point t the query window's block, the adjacency window's
  block and the output window's block are at the same block index on the rows axis (and at zero on the other), and the
  key window's block is the whole key array.  With the kernel's value at a point given as the attention of the query
  block over the key array under the adjacency block, row locality of attention makes the block written back at t the
  t-th block of rows of the attention of the whole arrays; the blocks tile the output array, so after the region it
  holds that attention.
-/
import proofs.«123632_j87531433492498_2_alg».proof.Proof.KI.Body11
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA11 : (![0, 0] : Fin 2 → Nat) = fun _ => 0 := funext fun a => by fin_cases a <;> rfl

/-- The block indices, decided over the grid: the query's and the adjacency's rows move with the output's, the output's
    row block is the point's number, and every other block index is zero. -/
theorem idx_facts11 : ∀ t : Fin cfg11.N,
    win11_0.index t (0 : Fin 2) = win11_3.index t (0 : Fin 2) ∧ win11_0.index t (1 : Fin 2) = 0
    ∧ win11_1.index t (0 : Fin 2) = 0 ∧ win11_1.index t (1 : Fin 2) = 0
    ∧ win11_2.index t (0 : Fin 2) = win11_3.index t (0 : Fin 2) ∧ win11_2.index t (1 : Fin 2) = 0
    ∧ win11_3.index t (0 : Fin 2) = t.val ∧ win11_3.index t (1 : Fin 2) = 0 :=
  (by decide +kernel : ∀ t : Fin grid11.N, _)

/-- Attention of a block of query rows, read at an index of the block, is attention of the whole arrays read at an index
    of the array, when the block's query row and adjacency row at the one are the arrays' rows at the other and the two
    indices name the same column. -/
theorem att_block11 {M M' N D : ℕ} (Q : (Cert.Gat.Mat M D).Idx → EReal) (Q' : (Cert.Gat.Mat M' D).Idx → EReal)
    (H : (Cert.Gat.Mat N D).Idx → EReal) (A : (Cert.Gat.Mat M N).Idx → BitVec 32) (A' : (Cert.Gat.Mat M' N).Idx → BitVec 32)
    (y : (Cert.Gat.Mat M' D).Idx) (i : (Cert.Gat.Mat M D).Idx) (hcol : (i 1).val = (y 1).val)
    (hQ : ∀ k : Fin D, Q' (ix2 (y 0) k) = Q (ix2 (i 0) k)) (hA : ∀ l : Fin N, A' (ix2 (y 0) l) = A (ix2 (i 0) l)) :
    Cert.Gat.att Q' H A' y = Cert.Gat.att Q H A i := by
  obtain ⟨p', q', rfl⟩ : ∃ (p' : Fin M') (q' : Fin D), y = ix2 p' q' := ⟨y 0, y 1, eq_ix2 y⟩
  obtain ⟨p, q, rfl⟩ : ∃ (p : Fin M) (q : Fin D), i = ix2 p q := ⟨i 0, i 1, eq_ix2 i⟩
  obtain rfl : q = q' := Fin.ext hcol
  exact Cert.Gat.att_rows Q Q' H A A' p p' hQ hA q

/-- The key window's block is the whole key array. -/
theorem iblk11_1_eq (c : Dev nD) (t : Fin cfg11.N) : (iblk11 V c 1 t : Vec Ideal S500x3 .f32) = V c main_v48 := by
  obtain ⟨e00, e01, e10, e11, e20, e21, e30, e31⟩ := idx_facts11 t
  funext x
  unfold iblk11
  show V c main_v48 (((cfg11.win 1).blk t).view.emb x) = V c main_v48 x
  refine congrArg (V c main_v48) (funext fun a => Fin.ext ?_)
  match a with
  | ⟨0, _⟩ => show win11_1.index t (0 : Fin 2) * _ + 1 * (x 0).val = (x 0).val; rw [e10, Nat.zero_mul, Nat.zero_add, Nat.one_mul]
  | ⟨1, _⟩ => show win11_1.index t (1 : Fin 2) * _ + 1 * (x 1).val = (x 1).val; rw [e11, Nat.zero_mul, Nat.zero_add, Nat.one_mul]

/-- What point t writes back is its block of the attention of the whole arrays. -/
theorem flushed11_eq (c : Dev nD)
    (hpay : ∀ (x0 : Vec Ideal S500x3 .f32) (x1 : Vec Ideal S500x3 .f32) (x2 : Vec Ideal S500x500 .i32), Cert.KernelIdeal.Gen.k11_pay1 (F := Ideal) x0 x1 x2 = Cert.Gat.att x0 x1 x2)
    (t : Fin cfg11.N) :
    (dat11 (F := Ideal) V c).flushed 3 t = ((cfg11.win 3).blk t).view.read (Elt Ideal) (Cert.Gat.att (V c main_v48) (V c main_v48) (V c main_arg5)) := by
  show (cfg11.win 3).cut (grid11.coords t) ((dat11 V c).after 3 t) = _
  rw [after11_3]
  unfold out11_3
  rw [View.canon_unit_zero hzA11]
  simp only [View.ld_unit_zero (S := S500x3) hzA11, View.ld_unit_zero (S := S500x3) hzA11, View.ld_unit_zero (S := S500x500) hzA11]
  rw [hpay, iblk11_1_eq]
  obtain ⟨e00, e01, e10, e11, e20, e21, e30, e31⟩ := idx_facts11 t
  funext j
  show Cert.Gat.att (iblk11 V c 0 t) (V c main_v48) (iblk11 V c 2 t) ((cfg11.win 3).xinj (grid11.coords t) j)
    = Cert.Gat.att (V c main_v48) (V c main_v48) (V c main_arg5) (((cfg11.win 3).blk t).view.emb j)
  refine att_block11 _ _ _ _ _ _ _ ?_ (fun k => ?_) (fun l => ?_)
  · show win11_3.index t (1 : Fin 2) * _ + 1 * (j 1).val = (j 1).val
    rw [e31, Nat.zero_mul, Nat.zero_add, Nat.one_mul]
  · unfold iblk11
    show V c main_v48 _ = V c main_v48 _
    refine congrArg (V c main_v48) (funext fun a => Fin.ext ?_)
    match a with
    | ⟨0, _⟩ => show win11_0.index t (0 : Fin 2) * _ + 1 * (j 0).val = win11_3.index t (0 : Fin 2) * _ + 1 * (j 0).val
                rw [e00] <;> rfl
    | ⟨1, _⟩ => show win11_0.index t (1 : Fin 2) * _ + 1 * k.val = k.val
                rw [e01, Nat.zero_mul, Nat.zero_add, Nat.one_mul]
  · unfold iblk11
    show V c main_arg5 _ = V c main_arg5 _
    refine congrArg (V c main_arg5) (funext fun a => Fin.ext ?_)
    match a with
    | ⟨0, _⟩ => show win11_2.index t (0 : Fin 2) * _ + 1 * (j 0).val = win11_3.index t (0 : Fin 2) * _ + 1 * (j 0).val
                rw [e20] <;> rfl
    | ⟨1, _⟩ => show win11_2.index t (1 : Fin 2) * _ + 1 * l.val = l.val
                rw [e21, Nat.zero_mul, Nat.zero_add, Nat.one_mul]

/-- An index of the output array is in point t's block iff each coordinate is in the block's range on its axis. -/
theorem mem_blk11 (t : Fin cfg11.N) (i : S500x3.Idx) :
    i ∈ ((cfg11.win 3).blk t).view.set ↔ ∀ a : Fin 2, win11_3.index t a * S500x3.size a ≤ (i a).val ∧ (i a).val < win11_3.index t a * S500x3.size a + S500x3.size a := by
  show i ∈ ((View.whole main_v49).slice (win11_3.rect t)).set ↔ _
  rw [View.set_slice_whole, Rect.mem_set_unit]
  exact Iff.rfl

/-- The blocks tile the output array: row r is in the block of point r / 500. -/
theorem blocks_cover11 (i : S500x3.Idx) : ∃ t : Fin cfg11.N, (cfg11.win 3).flush t = true ∧ i ∈ ((cfg11.win 3).blk t).view.set := by
  have hN : cfg11.N = _ := N_11
  have h0 : (i 0).val < 500 := (i 0).isLt
  have ht : (i 0).val / 500 < cfg11.N := by rw [hN]; omega
  obtain ⟨e00, e01, e10, e11, e20, e21, e30, e31⟩ := idx_facts11 ⟨(i 0).val / 500, ht⟩
  refine ⟨⟨(i 0).val / 500, ht⟩, flush11_3 _, ?_⟩
  rw [mem_blk11]
  intro a
  match a with
  | ⟨0, _⟩ => show win11_3.index ⟨(i 0).val / 500, ht⟩ (0 : Fin 2) * 500 ≤ (i 0).val ∧ (i 0).val < win11_3.index ⟨(i 0).val / 500, ht⟩ (0 : Fin 2) * 500 + 500
              rw [e30]; show (i 0).val / 500 * 500 ≤ (i 0).val ∧ (i 0).val < (i 0).val / 500 * 500 + 500; omega
  | ⟨1, _⟩ => show win11_3.index ⟨(i 0).val / 500, ht⟩ (1 : Fin 2) * _ ≤ (i 1).val ∧ (i 1).val < win11_3.index ⟨(i 0).val / 500, ht⟩ (1 : Fin 2) * _ + _
              rw [e31, Nat.zero_mul, Nat.zero_add]; exact ⟨Nat.zero_le _, (i 1).isLt⟩

/-- The output array after the region: the attention of the whole arrays. -/
theorem val11 (c : Dev nD)
    (hpay : ∀ (x0 : Vec Ideal S500x3 .f32) (x1 : Vec Ideal S500x3 .f32) (x2 : Vec Ideal S500x500 .i32), Cert.KernelIdeal.Gen.k11_pay1 (F := Ideal) x0 x1 x2 = Cert.Gat.att x0 x1 x2) :
    (dat11 (F := Ideal) V c).arrAt 3 cfg11.N = Cert.Gat.att (V c main_v48) (V c main_v48) (V c main_arg5) :=
  (dat11 (F := Ideal) V c).arrAt_eq_of_cover 3 (Cert.Gat.att (V c main_v48) (V c main_v48) (V c main_arg5))
    (fun t _ => flushed11_eq V c hpay t) blocks_cover11

end Cert.KernelIdeal.Hand

end
-- ==== Proof.KI.Val12.lean ====
/-
  The fuse region, from blocks to the array.  At grid point t the three map windows' blocks and the output window's
  block are at the same block index on the rows axis (and at zero on the other), and the weight window's block is the
  whole weight vector.  With the kernel's value at a point given as the fuse of the three map blocks with the weights,
  the block written back at t is the t-th block of rows of the fuse of the whole maps (the fuse is taken entry by entry);
  the blocks tile the output array, so after the region it holds that fuse.
-/
import proofs.«123632_j87531433492498_2_alg».proof.Proof.KI.Body12
import proofs.«123632_j87531433492498_2_alg».proof.Proof.Gat.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hzA12 : (![0, 0] : Fin 2 → Nat) = fun _ => 0 := funext fun a => by fin_cases a <;> rfl
theorem hzB12 : (![0] : Fin 1 → Nat) = fun _ => 0 := funext fun a => by fin_cases a <;> rfl

/-- The block indices, decided over the grid: the three maps' rows move with the output's, the output's row block is the
    point's number, and every other block index is zero. -/
theorem idx_facts12 : ∀ t : Fin cfg12.N,
    win12_0.index t (0 : Fin 2) = win12_4.index t (0 : Fin 2) ∧ win12_0.index t (1 : Fin 2) = win12_4.index t (1 : Fin 2)
    ∧ win12_1.index t (0 : Fin 2) = win12_4.index t (0 : Fin 2) ∧ win12_1.index t (1 : Fin 2) = win12_4.index t (1 : Fin 2)
    ∧ win12_2.index t (0 : Fin 2) = win12_4.index t (0 : Fin 2) ∧ win12_2.index t (1 : Fin 2) = win12_4.index t (1 : Fin 2)
    ∧ win12_3.index t (0 : Fin 1) = 0
    ∧ win12_4.index t (0 : Fin 2) = t.val ∧ win12_4.index t (1 : Fin 2) = 0 :=
  (by decide +kernel : ∀ t : Fin grid12.N, _)

/-- The fuse of three blocks at an index of the block is the fuse of the whole maps at an index of the array, when each
    block's entry at the one is its map's entry at the other and the weights are the same. -/
theorem fuse_at12 {S S' : Shape} (s0 s1 s2 : S.Idx → EReal) (s0' s1' s2' : S'.Idx → EReal) (w w' : (Cert.Gat.Vc 3).Idx → EReal)
    (y : S'.Idx) (i : S.Idx) (h0 : s0' y = s0 i) (h1 : s1' y = s1 i) (h2 : s2' y = s2 i) (hw : w' = w) :
    Cert.Gat.fuse s0' s1' s2' w' y = Cert.Gat.fuse s0 s1 s2 w i := by
  subst hw
  unfold Cert.Gat.fuse
  rw [h0, h1, h2]

/-- The weight window's block is the whole weight vector. -/
theorem iblk12_3_eq (c : Dev nD) (t : Fin cfg12.N) : (iblk12 V c 3 t : Vec Ideal S3 .f32) = V c main_v78 := by
  obtain ⟨e00, e01, e10, e11, e20, e21, e30, e40, e41⟩ := idx_facts12 t
  funext x
  unfold iblk12
  show V c main_v78 (((cfg12.win 3).blk t).view.emb x) = V c main_v78 x
  refine congrArg (V c main_v78) (funext fun a => Fin.ext ?_)
  match a with
  | ⟨0, _⟩ => show win12_3.index t (0 : Fin 1) * _ + 1 * (x 0).val = (x 0).val; rw [e30, Nat.zero_mul, Nat.zero_add, Nat.one_mul]

/-- What point t writes back is its block of the fuse of the whole maps. -/
theorem flushed12_eq (c : Dev nD)
    (hpay : ∀ (w : Vec Ideal S3 .f32) (s0 s1 s2 : Vec Ideal S128x3072 .f32), Cert.KernelIdeal.Gen.k12_pay1 (F := Ideal) w s0 s1 s2 = Cert.Gat.fuse s0 s1 s2 w)
    (t : Fin cfg12.N) :
    (dat12 (F := Ideal) V c).flushed 4 t = ((cfg12.win 4).blk t).view.read (Elt Ideal) (Cert.Gat.fuse (V c main_v79) (V c main_v80) (V c main_v81) (V c main_v78)) := by
  show (cfg12.win 4).cut (grid12.coords t) ((dat12 V c).after 4 t) = _
  rw [after12_4]
  unfold out12_4
  rw [View.canon_unit_zero hzA12]
  simp only [View.ld_unit_zero (S := S128x3072) hzA12, View.ld_unit_zero (S := S3) hzB12]
  rw [hpay]
  obtain ⟨e00, e01, e10, e11, e20, e21, e30, e40, e41⟩ := idx_facts12 t
  funext j
  show Cert.Gat.fuse (iblk12 V c 0 t) (iblk12 V c 1 t) (iblk12 V c 2 t) (iblk12 V c 3 t) ((cfg12.win 4).xinj (grid12.coords t) j)
    = Cert.Gat.fuse (V c main_v79) (V c main_v80) (V c main_v81) (V c main_v78) (((cfg12.win 4).blk t).view.emb j)
  refine fuse_at12 _ _ _ _ _ _ _ _ _ _ ?_ ?_ ?_ (iblk12_3_eq V c t)
  · unfold iblk12
    show V c main_v79 _ = V c main_v79 _
    refine congrArg (V c main_v79) (funext fun a => Fin.ext ?_)
    match a with
    | ⟨0, _⟩ => show win12_0.index t (0 : Fin 2) * _ + 1 * (j 0).val = win12_4.index t (0 : Fin 2) * _ + 1 * (j 0).val
                rw [e00] <;> rfl
    | ⟨1, _⟩ => show win12_0.index t (1 : Fin 2) * _ + 1 * (j 1).val = win12_4.index t (1 : Fin 2) * _ + 1 * (j 1).val
                rw [e01] <;> rfl
  · unfold iblk12
    show V c main_v80 _ = V c main_v80 _
    refine congrArg (V c main_v80) (funext fun a => Fin.ext ?_)
    match a with
    | ⟨0, _⟩ => show win12_1.index t (0 : Fin 2) * _ + 1 * (j 0).val = win12_4.index t (0 : Fin 2) * _ + 1 * (j 0).val
                rw [e10] <;> rfl
    | ⟨1, _⟩ => show win12_1.index t (1 : Fin 2) * _ + 1 * (j 1).val = win12_4.index t (1 : Fin 2) * _ + 1 * (j 1).val
                rw [e11] <;> rfl
  · unfold iblk12
    show V c main_v81 _ = V c main_v81 _
    refine congrArg (V c main_v81) (funext fun a => Fin.ext ?_)
    match a with
    | ⟨0, _⟩ => show win12_2.index t (0 : Fin 2) * _ + 1 * (j 0).val = win12_4.index t (0 : Fin 2) * _ + 1 * (j 0).val
                rw [e20] <;> rfl
    | ⟨1, _⟩ => show win12_2.index t (1 : Fin 2) * _ + 1 * (j 1).val = win12_4.index t (1 : Fin 2) * _ + 1 * (j 1).val
                rw [e21] <;> rfl

/-- An index of the output array is in point t's block iff each coordinate is in the block's range on its axis. -/
theorem mem_blk12 (t : Fin cfg12.N) (i : S1024x3072.Idx) :
    i ∈ ((cfg12.win 4).blk t).view.set ↔ ∀ a : Fin 2, win12_4.index t a * S128x3072.size a ≤ (i a).val ∧ (i a).val < win12_4.index t a * S128x3072.size a + S128x3072.size a := by
  show i ∈ ((View.whole main_v82).slice (win12_4.rect t)).set ↔ _
  rw [View.set_slice_whole, Rect.mem_set_unit]
  exact Iff.rfl

/-- The blocks tile the output array: row r is in the block of point r / 128. -/
theorem blocks_cover12 (i : S1024x3072.Idx) : ∃ t : Fin cfg12.N, (cfg12.win 4).flush t = true ∧ i ∈ ((cfg12.win 4).blk t).view.set := by
  have hN : cfg12.N = _ := N_12
  have h0 : (i 0).val < 1024 := (i 0).isLt
  have ht : (i 0).val / 128 < cfg12.N := by rw [hN]; omega
  obtain ⟨e00, e01, e10, e11, e20, e21, e30, e40, e41⟩ := idx_facts12 ⟨(i 0).val / 128, ht⟩
  refine ⟨⟨(i 0).val / 128, ht⟩, flush12_4 _, ?_⟩
  rw [mem_blk12]
  intro a
  match a with
  | ⟨0, _⟩ => show win12_4.index ⟨(i 0).val / 128, ht⟩ (0 : Fin 2) * 128 ≤ (i 0).val ∧ (i 0).val < win12_4.index ⟨(i 0).val / 128, ht⟩ (0 : Fin 2) * 128 + 128
              rw [e40]; show (i 0).val / 128 * 128 ≤ (i 0).val ∧ (i 0).val < (i 0).val / 128 * 128 + 128; omega
  | ⟨1, _⟩ => show win12_4.index ⟨(i 0).val / 128, ht⟩ (1 : Fin 2) * _ ≤ (i 1).val ∧ (i 1).val < win12_4.index ⟨(i 0).val / 128, ht⟩ (1 : Fin 2) * _ + _
              rw [e41, Nat.zero_mul, Nat.zero_add]; exact ⟨Nat.zero_le _, (i 1).isLt⟩

/-- The output array after the region: the fuse of the three whole maps with the weights. -/
theorem val12 (c : Dev nD)
    (hpay : ∀ (w : Vec Ideal S3 .f32) (s0 s1 s2 : Vec Ideal S128x3072 .f32), Cert.KernelIdeal.Gen.k12_pay1 (F := Ideal) w s0 s1 s2 = Cert.Gat.fuse s0 s1 s2 w) :
    (dat12 (F := Ideal) V c).arrAt 4 cfg12.N = Cert.Gat.fuse (V c main_v79) (V c main_v80) (V c main_v81) (V c main_v78) :=
  (dat12 (F := Ideal) V c).arrAt_eq_of_cover 4 (Cert.Gat.fuse (V c main_v79) (V c main_v80) (V c main_v81) (V c main_v78))
    (fun t _ => flushed12_eq V c hpay t) blocks_cover12

end Cert.KernelIdeal.Hand

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.KI.PayLin0.lean ====
/-
  The linear kernel's value, index by index, is the specification's dense layer: the product of the rows of the input
  with the columns of the weight matrix, summed over the middle coordinate, plus the bias entry of the column.
  The product is accumulated from the zero word; the bias vector is reshaped to one row and that row is repeated
  down the rows; narrowing the operands' format is the identity on the extended reals.
-/
import proofs.«123632_j87531433492498_2_alg».proof.Proof.Gen.KernelIdeal.Skeleton
import proofs.«123632_j87531433492498_2_alg».proof.Proof.Gat.Spec
import proofs.«123632_j87531433492498_2_alg».proof.Proof.LibMlp
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Hand

/-- A dense layer of any size in the vector spelling: for the dimension numbers of a plain N×K by K×H product, the product
    into the zero accumulator plus the bias (a length-H vector reshaped to one row, the row repeated down the N rows) is,
    at (p, q), the sum over k of X (p, k) · W (k, q) plus b q. -/
theorem vec_lin0 {N K H : ℕ} {φa φw : FTy} (d : DotDims (Cert.Gat.Mat N K) (Cert.Gat.Mat K H) (Cert.Gat.Mat N H))
    (hd : d = DotDims.plain N K H)
    (hs : (Cert.Gat.Vc H).ShapeCasts (Cert.Gat.Mat 1 H)) (hb : (Cert.Gat.Mat 1 H).Broadcasts (Cert.Gat.Mat N H))
    (x : FVec Ideal (Cert.Gat.Mat N K) φa) (w : FVec Ideal (Cert.Gat.Mat K H) φw) (b : FVec Ideal (Cert.Gat.Vc H) .f32) :
    addf (matmul d none x w (constant (Cert.Gat.Mat N H) .f32 0x00000000#32))
        (broadcastTo (Cert.Gat.Mat N H) (shapeCast (Cert.Gat.Mat 1 H) b hs) hb)
      = Cert.Gat.lin x w b := by
  subst hd
  funext i
  obtain ⟨p, q, rfl⟩ : ∃ (p : Fin N) (q : Fin H), i = ix2 p q := ⟨i 0, i 1, eq_ix2 i⟩
  simp only [addf_apply]
  have hm : matmul (DotDims.plain N K H) none x w (constant (Cert.Gat.Mat N H) .f32 0x00000000#32) (ix2 p q)
      = ∑ k : Fin K, x (ix2 p k) * w (ix2 k q) :=
    (Ideal.matmul_constant_zero_apply (DotDims.plain N K H) none x w (ix2 p q)).trans (Cert.Mlp.plain_sum x w (ix2 p q))
  have hr : shapeCast (Cert.Gat.Mat 1 H) b hs (ix2 0 q) = b (ix1 q) := congrFun (Cert.Mlp.row_shapeCast b hs) q
  rw [Cert.Mlp.bcast_row hb _ p q, hm, hr]
  rfl

/-- The linear kernel's value is the dense layer of its three operands. -/
theorem pay0_eq (x : Vec Ideal Cert.KernelIdeal.S2000x156 .f32) (w : Vec Ideal Cert.KernelIdeal.S156x64 .f32)
    (b : Vec Ideal Cert.KernelIdeal.S64 .f32) :
    Cert.KernelIdeal.Gen.k0_pay1 (F := Ideal) x w b = Cert.Gat.lin x w b := by
  funext i
  unfold Cert.KernelIdeal.Gen.k0_pay1
  simp only [addf_apply, shapeCast_self]
  exact congrFun (vec_lin0 _ rfl _ _ (truncf .bf16 x _) (truncf .bf16 w _) b) i

end Cert.KernelIdeal.Hand

end
-- ==== Proof.KI.PayLin2.lean ====
/-
  The linear kernel's value, index by index, is the specification's dense layer: the product of the rows of the input
  with the columns of the weight matrix, summed over the middle coordinate, plus the bias entry of the column.
  The product is accumulated from the zero word; the bias vector is reshaped to one row and that row is repeated
  down the rows; narrowing the operands' format is the identity on the extended reals.
-/
import proofs.«123632_j87531433492498_2_alg».proof.Proof.Gen.KernelIdeal.Skeleton
import proofs.«123632_j87531433492498_2_alg».proof.Proof.Gat.Spec
import proofs.«123632_j87531433492498_2_alg».proof.Proof.LibMlp
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Hand

/-- A dense layer of any size in the vector spelling: for the dimension numbers of a plain N×K by K×H product, the product
    into the zero accumulator plus the bias (a length-H vector reshaped to one row, the row repeated down the N rows) is,
    at (p, q), the sum over k of X (p, k) · W (k, q) plus b q. -/
theorem vec_lin2 {N K H : ℕ} {φa φw : FTy} (d : DotDims (Cert.Gat.Mat N K) (Cert.Gat.Mat K H) (Cert.Gat.Mat N H))
    (hd : d = DotDims.plain N K H)
    (hs : (Cert.Gat.Vc H).ShapeCasts (Cert.Gat.Mat 1 H)) (hb : (Cert.Gat.Mat 1 H).Broadcasts (Cert.Gat.Mat N H))
    (x : FVec Ideal (Cert.Gat.Mat N K) φa) (w : FVec Ideal (Cert.Gat.Mat K H) φw) (b : FVec Ideal (Cert.Gat.Vc H) .f32) :
    addf (matmul d none x w (constant (Cert.Gat.Mat N H) .f32 0x00000000#32))
        (broadcastTo (Cert.Gat.Mat N H) (shapeCast (Cert.Gat.Mat 1 H) b hs) hb)
      = Cert.Gat.lin x w b := by
  subst hd
  funext i
  obtain ⟨p, q, rfl⟩ : ∃ (p : Fin N) (q : Fin H), i = ix2 p q := ⟨i 0, i 1, eq_ix2 i⟩
  simp only [addf_apply]
  have hm : matmul (DotDims.plain N K H) none x w (constant (Cert.Gat.Mat N H) .f32 0x00000000#32) (ix2 p q)
      = ∑ k : Fin K, x (ix2 p k) * w (ix2 k q) :=
    (Ideal.matmul_constant_zero_apply (DotDims.plain N K H) none x w (ix2 p q)).trans (Cert.Mlp.plain_sum x w (ix2 p q))
  have hr : shapeCast (Cert.Gat.Mat 1 H) b hs (ix2 0 q) = b (ix1 q) := congrFun (Cert.Mlp.row_shapeCast b hs) q
  rw [Cert.Mlp.bcast_row hb _ p q, hm, hr]
  rfl

/-- The linear kernel's value is the dense layer of its three operands. -/
theorem pay2_eq (x : Vec Ideal Cert.KernelIdeal.S2000x64 .f32) (w : Vec Ideal Cert.KernelIdeal.S64x3 .f32)
    (b : Vec Ideal Cert.KernelIdeal.S3 .f32) :
    Cert.KernelIdeal.Gen.k2_pay1 (F := Ideal) x w b = Cert.Gat.lin x w b := by
  funext i
  unfold Cert.KernelIdeal.Gen.k2_pay1
  simp only [addf_apply, shapeCast_self]
  exact congrFun (vec_lin2 _ rfl _ _ (truncf .bf16 x _) (truncf .bf16 w _) b) i

end Cert.KernelIdeal.Hand

end
-- ==== Proof.KI.PayLin4.lean ====
/-
  The linear kernel's value, index by index, is the specification's dense layer: the product of the rows of the input
  with the columns of the weight matrix, summed over the middle coordinate, plus the bias entry of the column.
  The product is accumulated from the zero word; the bias vector is reshaped to one row and that row is repeated
  down the rows; narrowing the operands' format is the identity on the extended reals.
-/
import proofs.«123632_j87531433492498_2_alg».proof.Proof.Gen.KernelIdeal.Skeleton
import proofs.«123632_j87531433492498_2_alg».proof.Proof.Gat.Spec
import proofs.«123632_j87531433492498_2_alg».proof.Proof.LibMlp
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Hand

/-- A dense layer of any size in the vector spelling: for the dimension numbers of a plain N×K by K×H product, the product
    into the zero accumulator plus the bias (a length-H vector reshaped to one row, the row repeated down the N rows) is,
    at (p, q), the sum over k of X (p, k) · W (k, q) plus b q. -/
theorem vec_lin4 {N K H : ℕ} {φa φw : FTy} (d : DotDims (Cert.Gat.Mat N K) (Cert.Gat.Mat K H) (Cert.Gat.Mat N H))
    (hd : d = DotDims.plain N K H)
    (hs : (Cert.Gat.Vc H).ShapeCasts (Cert.Gat.Mat 1 H)) (hb : (Cert.Gat.Mat 1 H).Broadcasts (Cert.Gat.Mat N H))
    (x : FVec Ideal (Cert.Gat.Mat N K) φa) (w : FVec Ideal (Cert.Gat.Mat K H) φw) (b : FVec Ideal (Cert.Gat.Vc H) .f32) :
    addf (matmul d none x w (constant (Cert.Gat.Mat N H) .f32 0x00000000#32))
        (broadcastTo (Cert.Gat.Mat N H) (shapeCast (Cert.Gat.Mat 1 H) b hs) hb)
      = Cert.Gat.lin x w b := by
  subst hd
  funext i
  obtain ⟨p, q, rfl⟩ : ∃ (p : Fin N) (q : Fin H), i = ix2 p q := ⟨i 0, i 1, eq_ix2 i⟩
  simp only [addf_apply]
  have hm : matmul (DotDims.plain N K H) none x w (constant (Cert.Gat.Mat N H) .f32 0x00000000#32) (ix2 p q)
      = ∑ k : Fin K, x (ix2 p k) * w (ix2 k q) :=
    (Ideal.matmul_constant_zero_apply (DotDims.plain N K H) none x w (ix2 p q)).trans (Cert.Mlp.plain_sum x w (ix2 p q))
  have hr : shapeCast (Cert.Gat.Mat 1 H) b hs (ix2 0 q) = b (ix1 q) := congrFun (Cert.Mlp.row_shapeCast b hs) q
  rw [Cert.Mlp.bcast_row hb _ p q, hm, hr]
  rfl

/-- The linear kernel's value is the dense layer of its three operands. -/
theorem pay4_eq (x : Vec Ideal Cert.KernelIdeal.S1000x156 .f32) (w : Vec Ideal Cert.KernelIdeal.S156x64 .f32)
    (b : Vec Ideal Cert.KernelIdeal.S64 .f32) :
    Cert.KernelIdeal.Gen.k4_pay1 (F := Ideal) x w b = Cert.Gat.lin x w b := by
  funext i
  unfold Cert.KernelIdeal.Gen.k4_pay1
  simp only [addf_apply, shapeCast_self]
  exact congrFun (vec_lin4 _ rfl _ _ (truncf .bf16 x _) (truncf .bf16 w _) b) i

end Cert.KernelIdeal.Hand

end
-- ==== Proof.KI.PayLin6.lean ====
/-
  The linear kernel's value, index by index, is the specification's dense layer: the product of the rows of the input
  with the columns of the weight matrix, summed over the middle coordinate, plus the bias entry of the column.
  The product is accumulated from the zero word; the bias vector is reshaped to one row and that row is repeated
  down the rows; narrowing the operands' format is the identity on the extended reals.
-/
import proofs.«123632_j87531433492498_2_alg».proof.Proof.Gen.KernelIdeal.Skeleton
import proofs.«123632_j87531433492498_2_alg».proof.Proof.Gat.Spec
import proofs.«123632_j87531433492498_2_alg».proof.Proof.LibMlp
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Hand

/-- A dense layer of any size in the vector spelling: for the dimension numbers of a plain N×K by K×H product, the product
    into the zero accumulator plus the bias (a length-H vector reshaped to one row, the row repeated down the N rows) is,
    at (p, q), the sum over k of X (p, k) · W (k, q) plus b q. -/
theorem vec_lin6 {N K H : ℕ} {φa φw : FTy} (d : DotDims (Cert.Gat.Mat N K) (Cert.Gat.Mat K H) (Cert.Gat.Mat N H))
    (hd : d = DotDims.plain N K H)
    (hs : (Cert.Gat.Vc H).ShapeCasts (Cert.Gat.Mat 1 H)) (hb : (Cert.Gat.Mat 1 H).Broadcasts (Cert.Gat.Mat N H))
    (x : FVec Ideal (Cert.Gat.Mat N K) φa) (w : FVec Ideal (Cert.Gat.Mat K H) φw) (b : FVec Ideal (Cert.Gat.Vc H) .f32) :
    addf (matmul d none x w (constant (Cert.Gat.Mat N H) .f32 0x00000000#32))
        (broadcastTo (Cert.Gat.Mat N H) (shapeCast (Cert.Gat.Mat 1 H) b hs) hb)
      = Cert.Gat.lin x w b := by
  subst hd
  funext i
  obtain ⟨p, q, rfl⟩ : ∃ (p : Fin N) (q : Fin H), i = ix2 p q := ⟨i 0, i 1, eq_ix2 i⟩
  simp only [addf_apply]
  have hm : matmul (DotDims.plain N K H) none x w (constant (Cert.Gat.Mat N H) .f32 0x00000000#32) (ix2 p q)
      = ∑ k : Fin K, x (ix2 p k) * w (ix2 k q) :=
    (Ideal.matmul_constant_zero_apply (DotDims.plain N K H) none x w (ix2 p q)).trans (Cert.Mlp.plain_sum x w (ix2 p q))
  have hr : shapeCast (Cert.Gat.Mat 1 H) b hs (ix2 0 q) = b (ix1 q) := congrFun (Cert.Mlp.row_shapeCast b hs) q
  rw [Cert.Mlp.bcast_row hb _ p q, hm, hr]
  rfl

/-- The linear kernel's value is the dense layer of its three operands. -/
theorem pay6_eq (x : Vec Ideal Cert.KernelIdeal.S1000x64 .f32) (w : Vec Ideal Cert.KernelIdeal.S64x3 .f32)
    (b : Vec Ideal Cert.KernelIdeal.S3 .f32) :
    Cert.KernelIdeal.Gen.k6_pay1 (F := Ideal) x w b = Cert.Gat.lin x w b := by
  funext i
  unfold Cert.KernelIdeal.Gen.k6_pay1
  simp only [addf_apply, shapeCast_self]
  exact congrFun (vec_lin6 _ rfl _ _ (truncf .bf16 x _) (truncf .bf16 w _) b) i

end Cert.KernelIdeal.Hand

end
-- ==== Proof.KI.PayLin8.lean ====
/-
  The linear kernel's value, index by index, is the specification's dense layer: the product of the rows of the input
  with the columns of the weight matrix, summed over the middle coordinate, plus the bias entry of the column.
  The product is accumulated from the zero word; the bias vector is reshaped to one row and that row is repeated
  down the rows; narrowing the operands' format is the identity on the extended reals.
-/
import proofs.«123632_j87531433492498_2_alg».proof.Proof.Gen.KernelIdeal.Skeleton
import proofs.«123632_j87531433492498_2_alg».proof.Proof.Gat.Spec
import proofs.«123632_j87531433492498_2_alg».proof.Proof.LibMlp
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Hand

/-- A dense layer of any size in the vector spelling: for the dimension numbers of a plain N×K by K×H product, the product
    into the zero accumulator plus the bias (a length-H vector reshaped to one row, the row repeated down the N rows) is,
    at (p, q), the sum over k of X (p, k) · W (k, q) plus b q. -/
theorem vec_lin8 {N K H : ℕ} {φa φw : FTy} (d : DotDims (Cert.Gat.Mat N K) (Cert.Gat.Mat K H) (Cert.Gat.Mat N H))
    (hd : d = DotDims.plain N K H)
    (hs : (Cert.Gat.Vc H).ShapeCasts (Cert.Gat.Mat 1 H)) (hb : (Cert.Gat.Mat 1 H).Broadcasts (Cert.Gat.Mat N H))
    (x : FVec Ideal (Cert.Gat.Mat N K) φa) (w : FVec Ideal (Cert.Gat.Mat K H) φw) (b : FVec Ideal (Cert.Gat.Vc H) .f32) :
    addf (matmul d none x w (constant (Cert.Gat.Mat N H) .f32 0x00000000#32))
        (broadcastTo (Cert.Gat.Mat N H) (shapeCast (Cert.Gat.Mat 1 H) b hs) hb)
      = Cert.Gat.lin x w b := by
  subst hd
  funext i
  obtain ⟨p, q, rfl⟩ : ∃ (p : Fin N) (q : Fin H), i = ix2 p q := ⟨i 0, i 1, eq_ix2 i⟩
  simp only [addf_apply]
  have hm : matmul (DotDims.plain N K H) none x w (constant (Cert.Gat.Mat N H) .f32 0x00000000#32) (ix2 p q)
      = ∑ k : Fin K, x (ix2 p k) * w (ix2 k q) :=
    (Ideal.matmul_constant_zero_apply (DotDims.plain N K H) none x w (ix2 p q)).trans (Cert.Mlp.plain_sum x w (ix2 p q))
  have hr : shapeCast (Cert.Gat.Mat 1 H) b hs (ix2 0 q) = b (ix1 q) := congrFun (Cert.Mlp.row_shapeCast b hs) q
  rw [Cert.Mlp.bcast_row hb _ p q, hm, hr]
  rfl

/-- The linear kernel's value is the dense layer of its three operands. -/
theorem pay8_eq (x : Vec Ideal Cert.KernelIdeal.S500x156 .f32) (w : Vec Ideal Cert.KernelIdeal.S156x64 .f32)
    (b : Vec Ideal Cert.KernelIdeal.S64 .f32) :
    Cert.KernelIdeal.Gen.k8_pay1 (F := Ideal) x w b = Cert.Gat.lin x w b := by
  funext i
  unfold Cert.KernelIdeal.Gen.k8_pay1
  simp only [addf_apply, shapeCast_self]
  exact congrFun (vec_lin8 _ rfl _ _ (truncf .bf16 x _) (truncf .bf16 w _) b) i

end Cert.KernelIdeal.Hand

end
-- ==== Proof.KI.PayLin10.lean ====
/-
  The linear kernel's value, index by index, is the specification's dense layer: the product of the rows of the input
  with the columns of the weight matrix, summed over the middle coordinate, plus the bias entry of the column.
  The product is accumulated from the zero word; the bias vector is reshaped to one row and that row is repeated
  down the rows; narrowing the operands' format is the identity on the extended reals.
-/
import proofs.«123632_j87531433492498_2_alg».proof.Proof.Gen.KernelIdeal.Skeleton
import proofs.«123632_j87531433492498_2_alg».proof.Proof.Gat.Spec
import proofs.«123632_j87531433492498_2_alg».proof.Proof.LibMlp
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Hand

/-- A dense layer of any size in the vector spelling: for the dimension numbers of a plain N×K by K×H product, the product
    into the zero accumulator plus the bias (a length-H vector reshaped to one row, the row repeated down the N rows) is,
    at (p, q), the sum over k of X (p, k) · W (k, q) plus b q. -/
theorem vec_lin10 {N K H : ℕ} {φa φw : FTy} (d : DotDims (Cert.Gat.Mat N K) (Cert.Gat.Mat K H) (Cert.Gat.Mat N H))
    (hd : d = DotDims.plain N K H)
    (hs : (Cert.Gat.Vc H).ShapeCasts (Cert.Gat.Mat 1 H)) (hb : (Cert.Gat.Mat 1 H).Broadcasts (Cert.Gat.Mat N H))
    (x : FVec Ideal (Cert.Gat.Mat N K) φa) (w : FVec Ideal (Cert.Gat.Mat K H) φw) (b : FVec Ideal (Cert.Gat.Vc H) .f32) :
    addf (matmul d none x w (constant (Cert.Gat.Mat N H) .f32 0x00000000#32))
        (broadcastTo (Cert.Gat.Mat N H) (shapeCast (Cert.Gat.Mat 1 H) b hs) hb)
      = Cert.Gat.lin x w b := by
  subst hd
  funext i
  obtain ⟨p, q, rfl⟩ : ∃ (p : Fin N) (q : Fin H), i = ix2 p q := ⟨i 0, i 1, eq_ix2 i⟩
  simp only [addf_apply]
  have hm : matmul (DotDims.plain N K H) none x w (constant (Cert.Gat.Mat N H) .f32 0x00000000#32) (ix2 p q)
      = ∑ k : Fin K, x (ix2 p k) * w (ix2 k q) :=
    (Ideal.matmul_constant_zero_apply (DotDims.plain N K H) none x w (ix2 p q)).trans (Cert.Mlp.plain_sum x w (ix2 p q))
  have hr : shapeCast (Cert.Gat.Mat 1 H) b hs (ix2 0 q) = b (ix1 q) := congrFun (Cert.Mlp.row_shapeCast b hs) q
  rw [Cert.Mlp.bcast_row hb _ p q, hm, hr]
  rfl

/-- The linear kernel's value is the dense layer of its three operands. -/
theorem pay10_eq (x : Vec Ideal Cert.KernelIdeal.S500x64 .f32) (w : Vec Ideal Cert.KernelIdeal.S64x3 .f32)
    (b : Vec Ideal Cert.KernelIdeal.S3 .f32) :
    Cert.KernelIdeal.Gen.k10_pay1 (F := Ideal) x w b = Cert.Gat.lin x w b := by
  funext i
  unfold Cert.KernelIdeal.Gen.k10_pay1
  simp only [addf_apply, shapeCast_self]
  exact congrFun (vec_lin10 _ rfl _ _ (truncf .bf16 x _) (truncf .bf16 w _) b) i

end Cert.KernelIdeal.Hand

end
-- ==== Proof.KI.PayAtt1.lean ====
/-
  The attention kernel's stored value is the specification's attention, index by index.

  The value is a chain of operations on a block of query rows Q (M × D), the key rows H (N × D) and the block's adjacency
  words A (M × N):
  * the scores: the product of Q with the rows of H, entry (p, l) = ∑ k, Q (p, k) · H (l, k), kept where the adjacency word
    is positive as a signed integer and replaced by the large negative word elsewhere;
  * each row's maximum, taken over the lanes from the word of -∞, written as a column and spread back along the row;
  * the exponentials of the scores less their row's maximum;
  * each row's sum of those, written as a column and spread back along the row, and the quotient by it;
  * the product of the quotients with H, entry (p, j) = ∑ l, w (p, l) · H (l, j), and the maximum with zero.
  The narrowing of a product's operands changes nothing on the extended reals. Each step is read at an index: the two layout steps
  (a vector as a column, a column along the rows), the two lane reductions (a fold of max, a sum, over the lane coordinate),
  and the two products (their contraction index is one coordinate; the four operand-index facts of each are separate lemmas).
  The chain theorem is stated for every M, N, D; the region's theorem, last, is its instance at the region's sizes.
-/
import proofs.«123632_j87531433492498_2_alg».proof.Proof.Gen.KernelIdeal.Skeleton
import proofs.«123632_j87531433492498_2_alg».proof.Proof.Gat.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Gat.AttChain

/-! ## Layout: a vector as a column, a column along the rows -/

section Column
variable {α : Type}

/-- A length-a vector cast to a column reads, at (i, u), the operand at i. -/
theorem colCast1_apply {a : ℕ} (x : (Vc a).Idx → α) (h : (Vc a).ShapeCasts (Mat a 1)) (i : Fin a) (u : Fin 1) :
    shapeCast (Mat a 1) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column's entry at p. -/
theorem colSpread1_apply {a b : ℕ} (v : (Mat a 1).Idx → α) (h : (Mat a 1).Broadcasts (Mat a b)) (p : Fin a) (c : Fin b) :
    broadcastTo (Mat a b) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two lane reductions of a matrix: a row's maximum and a row's sum -/

/-- The index over row p with the lane coordinate l inserted is (p, l). -/
theorem liftRow1 {M N : ℕ} (h : (Mat M N).Reduces [1] (Vc M)) (p : Fin M) (l : Fin N) :
    h.lift (ix1 p) l = ix2 p l :=
  funext fun c => Fin.ext (by
    match c with
    | ⟨0, _⟩ => rfl
    | ⟨1, _⟩ => rfl)

/-- A lane maximum from the word of -∞ is the row's maximum. -/
theorem laneMax1_apply {M N : ℕ} (s : FVec Ideal (Mat M N) .f32) (h : (Mat M N).Reduces [1] (Vc M))
    (hφ : FKind.Formats .f32) (hacc : (0xFF800000#32 : BitVec 32) = FKind.maximumf.neutral .f32 hφ) (p : Fin M) :
    multiReduction (F := Ideal) .maximumf [1] (Vc M) s 0xFF800000#32 h hφ hacc (ix1 p) = rowMax s p := by
  refine (Ideal.multiReduction_maximumf_single s 0xFF800000#32 h hφ hacc (ix1 p)).trans ?_
  have e : (fun l : Fin N => s (h.lift (ix1 p) l)) = fun l => s (ix2 p l) := funext fun l => congrArg s (liftRow1 h p l)
  exact congrArg (fun f : Fin N → EReal => (Finset.univ : Finset (Fin N)).fold max negInf f) e

/-- A lane sum from the zero word is the row's sum. -/
theorem laneSum1_apply {M N : ℕ} (e : FVec Ideal (Mat M N) .f32) (h : (Mat M N).Reduces [1] (Vc M))
    (hφ : FKind.Formats .f32) (hacc : (0x00000000#32 : BitVec 32) = FKind.add.neutral .f32 hφ) (p : Fin M) :
    multiReduction (F := Ideal) .add [1] (Vc M) e 0x00000000#32 h hφ hacc (ix1 p) = ∑ l : Fin N, e (ix2 p l) := by
  refine (Ideal.multiReduction_add_single e 0x00000000#32 h hφ hacc (ix1 p)).trans ?_
  exact Finset.sum_congr rfl fun l _ => congrArg e (liftRow1 h p l)

/-- The row maximum as a column along the rows, read at (p, l). -/
theorem colMax1_apply {M N : ℕ} (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) (p : Fin M) (l : Fin N) :
    broadcastTo (Mat M N) (shapeCast (Mat M 1) (multiReduction (F := Ideal) .maximumf [1] (Vc M) s 0xFF800000#32 h hφ hacc) hcol) hbc (ix2 p l)
      = rowMax s p :=
  (colSpread1_apply _ hbc p l).trans ((colCast1_apply _ hcol p 0).trans (laneMax1_apply s h hφ hacc p))

/-- The row sum as a column along the rows, read at (p, l). -/
theorem colSum1_apply {M N : ℕ} (e : FVec Ideal (Mat M N) .f32) (h : (Mat M N).Reduces [1] (Vc M))
    (hcol : (Vc M).ShapeCasts (Mat M 1)) (hbc : (Mat M 1).Broadcasts (Mat M N))
    (hφ : FKind.Formats .f32) (hacc : (0x00000000#32 : BitVec 32) = FKind.add.neutral .f32 hφ) (p : Fin M) (l : Fin N) :
    broadcastTo (Mat M N) (shapeCast (Mat M 1) (multiReduction (F := Ideal) .add [1] (Vc M) e 0x00000000#32 h hφ hacc) hcol) hbc (ix2 p l)
      = ∑ l' : Fin N, e (ix2 p l') :=
  (colSpread1_apply _ hbc p l).trans ((colCast1_apply _ hcol p 0).trans (laneSum1_apply e h hφ hacc p))

/-! ## The two products: rows against rows, and rows against columns -/

section RowsByRows
variable {M K N : ℕ}

/-- Rows against rows: the left operand's row coordinate is the result's. -/
theorem trLhs1_ax0 (i : (Mat M N).Idx) (q : (DotDims.transposedRhs M K N).contr.Idx) :
    ((DotDims.transposedRhs M K N).lhsIdx i q 0).val = (i 0).val := by
  unfold DotDims.lhsIdx
  rw [dif_neg (show ¬(0 : Fin (Mat M K).rank) ∈ (DotDims.transposedRhs M K N).lhsBatch from List.not_mem_nil),
    dif_pos (show (0 : Fin (Mat M K).rank) ∈ (DotDims.transposedRhs M K N).lhsNonContracting from List.mem_singleton.mpr rfl)]
  rfl
/-- Its column coordinate is the contraction's. -/
theorem trLhs1_ax1 (i : (Mat M N).Idx) (q : (DotDims.transposedRhs M K N).contr.Idx) :
    ((DotDims.transposedRhs M K N).lhsIdx i q 1).val = (q ⟨0, Nat.one_pos⟩).val :=
  (DotDims.transposedRhs M K N).lhsIdx_val_of_single rfl i q
/-- The right operand's row coordinate is the result's column. -/
theorem trRhs1_ax0 (i : (Mat M N).Idx) (q : (DotDims.transposedRhs M K N).contr.Idx) :
    ((DotDims.transposedRhs M K N).rhsIdx i q 0).val = (i 1).val := by
  unfold DotDims.rhsIdx
  rw [dif_neg (show ¬(0 : Fin (Mat N K).rank) ∈ (DotDims.transposedRhs M K N).rhsBatch from List.not_mem_nil),
    dif_pos (show (0 : Fin (Mat N K).rank) ∈ (DotDims.transposedRhs M K N).rhsNonContracting from List.mem_singleton.mpr rfl)]
  rfl
/-- Its column coordinate is the contraction's. -/
theorem trRhs1_ax1 (i : (Mat M N).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The product of an M×K matrix with the rows of an N×K one, into zero: entry (p, l) is ∑ k, A (p, k) · B (l, k). -/
theorem rowsByRows1_apply {φ₁ φ₂ : FTy} (prec : Option ContractPrecision)
    (A : FVec Ideal (Mat M K) φ₁) (B : FVec Ideal (Mat N K) φ₂) (p : Fin M) (l : Fin N) :
    matmul (DotDims.transposedRhs M K N) prec A B (constant (F := Ideal) (Mat M N) .f32 0x00000000#32) (ix2 p l)
      = ∑ k : Fin K, A (ix2 p k) * B (ix2 l k) := by
  refine (Ideal.matmul_constant_zero_apply (DotDims.transposedRhs M K N) prec A B (ix2 p l)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p l) ((contrEquiv1 (DotDims.transposedRhs M K N) K rfl rfl).symm k) = ix2 p k :=
    funext fun a => Fin.ext (by
      match a with
      | ⟨0, _⟩ => exact trLhs1_ax0 _ _
      | ⟨1, _⟩ => exact (trLhs1_ax1 _ _).trans hk)
  have er : (DotDims.transposedRhs M K N).rhsIdx (ix2 p l) ((contrEquiv1 (DotDims.transposedRhs M K N) K rfl rfl).symm k) = ix2 l k :=
    funext fun a => Fin.ext (by
      match a with
      | ⟨0, _⟩ => exact trRhs1_ax0 _ _
      | ⟨1, _⟩ => exact (trRhs1_ax1 _ _).trans hk)
  rw [el, er]

end RowsByRows

section RowsByColumns
variable {M K N : ℕ}

/-- Rows against columns: the left operand's row coordinate is the result's. -/
theorem plLhs1_ax0 (i : (Mat M N).Idx) (q : (DotDims.plain M K N).contr.Idx) :
    ((DotDims.plain M K N).lhsIdx i q 0).val = (i 0).val := by
  unfold DotDims.lhsIdx
  rw [dif_neg (show ¬(0 : Fin (Mat M K).rank) ∈ (DotDims.plain M K N).lhsBatch from List.not_mem_nil),
    dif_pos (show (0 : Fin (Mat M K).rank) ∈ (DotDims.plain M K N).lhsNonContracting from List.mem_singleton.mpr rfl)]
  rfl
/-- Its column coordinate is the contraction's. -/
theorem plLhs1_ax1 (i : (Mat M N).Idx) (q : (DotDims.plain M K N).contr.Idx) :
    ((DotDims.plain M K N).lhsIdx i q 1).val = (q ⟨0, Nat.one_pos⟩).val :=
  (DotDims.plain M K N).lhsIdx_val_of_single rfl i q
/-- The right operand's row coordinate is the contraction's. -/
theorem plRhs1_ax0 (i : (Mat M N).Idx) (q : (DotDims.plain M K N).contr.Idx) :
    ((DotDims.plain M K N).rhsIdx i q 0).val = (q ⟨0, Nat.one_pos⟩).val :=
  (DotDims.plain M K N).rhsIdx_val_of_single rfl i q
/-- Its column coordinate is the result's. -/
theorem plRhs1_ax1 (i : (Mat M N).Idx) (q : (DotDims.plain M K N).contr.Idx) :
    ((DotDims.plain M K N).rhsIdx i q 1).val = (i 1).val := by
  unfold DotDims.rhsIdx
  rw [dif_neg (show ¬(1 : Fin (Mat K N).rank) ∈ (DotDims.plain M K N).rhsBatch from List.not_mem_nil),
    dif_pos (show (1 : Fin (Mat K N).rank) ∈ (DotDims.plain M K N).rhsNonContracting from List.mem_singleton.mpr rfl)]
  rfl

/-- The product of an M×K matrix with a K×N one, into zero: entry (p, j) is ∑ k, A (p, k) · B (k, j). -/
theorem rowsByCols1_apply {φ₁ φ₂ : FTy} (prec : Option ContractPrecision)
    (A : FVec Ideal (Mat M K) φ₁) (B : FVec Ideal (Mat K N) φ₂) (p : Fin M) (j : Fin N) :
    matmul (DotDims.plain M K N) prec A B (constant (F := Ideal) (Mat M N) .f32 0x00000000#32) (ix2 p j)
      = ∑ k : Fin K, A (ix2 p k) * B (ix2 k j) := by
  refine (Ideal.matmul_constant_zero_apply (DotDims.plain M K N) prec A B (ix2 p j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plLhs1_ax0 _ _
      | ⟨1, _⟩ => exact (plLhs1_ax1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plRhs1_ax0 _ _).trans hk
      | ⟨1, _⟩ => exact plRhs1_ax1 _ _)
  rw [el, er]

end RowsByColumns

end Cert.Gat.AttChain

namespace Cert.Gat.AttChain

/-! ## The attention chain -/

section Chain
variable {M N D : ℕ}

/-- The masked scores, operation by operation: the product of the query rows with the key rows, kept where the adjacency
    word is positive as a signed integer, the large negative word elsewhere. -/
theorem scoreChain1_eq (hlt : FTy.bits .bf16 < FTy.bits .f32) (hq : (Mat M D).ShapeCasts (Mat M D)) (hk : (Mat N D).ShapeCasts (Mat N D))
    (Q : FVec Ideal (Mat M D) .f32) (H : FVec Ideal (Mat N D) .f32) (A : IVec (Mat M N) 32) :
    select (cmpi .sgt A (broadcast (Mat M N) 0#32))
        (matmul (DotDims.transposedRhs M D N) none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32))
      = score Q H A := by
  funext i
  obtain ⟨p, l, rfl⟩ : ∃ (p : Fin M) (l : Fin N), i = ix2 p l := ⟨i 0, i 1, eq_ix2 i⟩
  rw [shapeCast_self Q hq, shapeCast_self H hk]
  show Scalar.select (adj (A (ix2 p l)))
      (matmul (DotDims.transposedRhs M D N) none (truncf .bf16 Q hlt) (truncf .bf16 H hlt) (constant (F := Ideal) (Mat M N) .f32 0x00000000#32) (ix2 p l)) negBig
    = Scalar.select (adj (A (ix2 p l))) (∑ k : Fin D, Q (ix2 p k) * H (ix2 l k)) negBig
  rw [rowsByRows1_apply]
  rfl

/-- The exponentials of the entries less their row's maximum, the maximum taken by a lane reduction and spread back as a column. -/
theorem expoChain1_eq (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) :
    exp (subf s (broadcastTo (Mat M N) (shapeCast (Mat M 1) (multiReduction (F := Ideal) .maximumf [1] (Vc M) s 0xFF800000#32 h hφ hacc) hcol) hbc))
      = expo s := by
  funext i
  obtain ⟨p, l, rfl⟩ : ∃ (p : Fin M) (l : Fin N), i = ix2 p l := ⟨i 0, i 1, eq_ix2 i⟩
  show Ideal.exp (s (ix2 p l)
      - broadcastTo (Mat M N) (shapeCast (Mat M 1) (multiReduction (F := Ideal) .maximumf [1] (Vc M) s 0xFF800000#32 h hφ hacc) hcol) hbc (ix2 p l))
    = Ideal.exp (s (ix2 p l) - rowMax s p)
  rw [colMax1_apply]

/-- THE CHAIN IS THE ATTENTION: scores S, their exponentials E less the row maximum, E over its row sum, that times the key
    rows' matrix, clamped at zero. -/
theorem attChain1_eq (d1 : DotDims (Mat M D) (Mat N D) (Mat M N)) (d2 : DotDims (Mat M N) (Mat N D) (Mat M D))
    (e1 : d1 = DotDims.transposedRhs M D N) (e2 : d2 = DotDims.plain M N D)
    (hlt : FTy.bits .bf16 < FTy.bits .f32) (hq : (Mat M D).ShapeCasts (Mat M D)) (hk : (Mat N D).ShapeCasts (Mat N D))
    (h : (Mat M N).Reduces [1] (Vc M)) (hcol : (Vc M).ShapeCasts (Mat M 1)) (hbc : (Mat M 1).Broadcasts (Mat M N))
    (hφ : FKind.Formats .f32) (hmax : (0xFF800000#32 : BitVec 32) = FKind.maximumf.neutral .f32 hφ)
    (hadd : (0x00000000#32 : BitVec 32) = FKind.add.neutral .f32 hφ)
    (Q : FVec Ideal (Mat M D) .f32) (H : FVec Ideal (Mat N D) .f32) (A : IVec (Mat M N) 32)
    (S E : FVec Ideal (Mat M N) .f32)
    (hS : S = select (cmpi .sgt A (broadcast (Mat M N) 0#32))
        (matmul d1 none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32)))
    (hE : E = exp (subf S (broadcastTo (Mat M N) (shapeCast (Mat M 1) (multiReduction (F := Ideal) .maximumf [1] (Vc M) S 0xFF800000#32 h hφ hmax) hcol) hbc))) :
    maximumf
        (matmul d2 none
          (truncf .bf16 (divf E (broadcastTo (Mat M N) (shapeCast (Mat M 1) (multiReduction (F := Ideal) .add [1] (Vc M) E 0x00000000#32 h hφ hadd) hcol) hbc)) hlt)
          (truncf .bf16 (shapeCast (Mat N D) H hk) hlt) (constant (F := Ideal) (Mat M D) .f32 0x00000000#32))
        (broadcast (Mat M D) (Scalar.ofBits .f32 0x00000000#32 : Ideal .f32))
      = att Q H A := by
  subst e1 e2
  have hS' : S = score Q H A := hS.trans (scoreChain1_eq hlt hq hk Q H A)
  subst hS'
  have hE' : E = expo (score Q H A) := hE.trans (expoChain1_eq (score Q H A) h hcol hbc hφ hmax)
  subst hE'
  funext i
  obtain ⟨p, j, rfl⟩ : ∃ (p : Fin M) (j : Fin D), i = ix2 p j := ⟨i 0, i 1, eq_ix2 i⟩
  rw [shapeCast_self H hk]
  show max (matmul (DotDims.plain M N D) none
        (truncf .bf16 (divf (expo (score Q H A))
          (broadcastTo (Mat M N) (shapeCast (Mat M 1) (multiReduction (F := Ideal) .add [1] (Vc M) (expo (score Q H A)) 0x00000000#32 h hφ hadd) hcol) hbc)) hlt)
        (truncf .bf16 H hlt) (constant (F := Ideal) (Mat M D) .f32 0x00000000#32) (ix2 p j)) zero
    = max (∑ l : Fin N, Ideal.div (expo (score Q H A) (ix2 p l)) (∑ l' : Fin N, expo (score Q H A) (ix2 p l')) * H (ix2 l j)) zero
  rw [rowsByCols1_apply]
  refine congrArg (fun x => max x zero) (Finset.sum_congr rfl fun l _ => ?_)
  show Ideal.div (expo (score Q H A) (ix2 p l))
      (broadcastTo (Mat M N) (shapeCast (Mat M 1) (multiReduction (F := Ideal) .add [1] (Vc M) (expo (score Q H A)) 0x00000000#32 h hφ hadd) hcol) hbc (ix2 p l))
      * H (ix2 l j) = _
  rw [colSum1_apply]

end Chain

end Cert.Gat.AttChain

namespace Cert.KernelIdeal.Hand

open Cert.KernelIdeal Cert.KernelIdeal.Gen

/-- Region 1's stored value is the attention of its block of query rows over the key rows. -/
theorem pay1_eq (x0 : Vec Ideal S400x64 .f32) (x1 : Vec Ideal S2000x64 .f32) (x2 : Vec Ideal S400x2000 .i32) :
    Cert.KernelIdeal.Gen.k1_pay1 (F := Ideal) x0 x1 x2 = Cert.Gat.att x0 x1 x2 := by
  unfold Cert.KernelIdeal.Gen.k1_pay1
  exact Cert.Gat.AttChain.attChain1_eq dot_S400x64_S2000x64_S400x2000_1_1_0_0_n_n dot_S400x2000_S2000x64_S400x64_1_0_0_1_n_n rfl rfl
    bitsLt_bf16_f32 shapeCasts_S400x64_S400x64 shapeCasts_S2000x64_S2000x64 reduces_S400x2000_S400 shapeCasts_S400_S400x1
    broadcasts_S400x1_S400x2000 (.inl rfl) rfl rfl x0 x1 x2 _ _ rfl rfl

end Cert.KernelIdeal.Hand

end
-- ==== Proof.KI.PayAtt3.lean ====
/-
  The attention kernel's stored value is the specification's attention, index by index.

  The value is a chain of operations on a block of query rows Q (M × D), the key rows H (N × D) and the block's adjacency
  words A (M × N):
  * the scores: the product of Q with the rows of H, entry (p, l) = ∑ k, Q (p, k) · H (l, k), kept where the adjacency word
    is positive as a signed integer and replaced by the large negative word elsewhere;
  * each row's maximum, taken over the lanes from the word of -∞, written as a column and spread back along the row;
  * the exponentials of the scores less their row's maximum;
  * each row's sum of those, written as a column and spread back along the row, and the quotient by it;
  * the product of the quotients with H, entry (p, j) = ∑ l, w (p, l) · H (l, j), and the maximum with zero.
  The narrowing of a product's operands changes nothing on the extended reals. Each step is read at an index: the two layout steps
  (a vector as a column, a column along the rows), the two lane reductions (a fold of max, a sum, over the lane coordinate),
  and the two products (their contraction index is one coordinate; the four operand-index facts of each are separate lemmas).
  The chain theorem is stated for every M, N, D; the region's theorem, last, is its instance at the region's sizes.
-/
import proofs.«123632_j87531433492498_2_alg».proof.Proof.Gen.KernelIdeal.Skeleton
import proofs.«123632_j87531433492498_2_alg».proof.Proof.Gat.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Gat.AttChain

/-! ## Layout: a vector as a column, a column along the rows -/

section Column
variable {α : Type}

/-- A length-a vector cast to a column reads, at (i, u), the operand at i. -/
theorem colCast3_apply {a : ℕ} (x : (Vc a).Idx → α) (h : (Vc a).ShapeCasts (Mat a 1)) (i : Fin a) (u : Fin 1) :
    shapeCast (Mat a 1) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column's entry at p. -/
theorem colSpread3_apply {a b : ℕ} (v : (Mat a 1).Idx → α) (h : (Mat a 1).Broadcasts (Mat a b)) (p : Fin a) (c : Fin b) :
    broadcastTo (Mat a b) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two lane reductions of a matrix: a row's maximum and a row's sum -/

/-- The index over row p with the lane coordinate l inserted is (p, l). -/
theorem liftRow3 {M N : ℕ} (h : (Mat M N).Reduces [1] (Vc M)) (p : Fin M) (l : Fin N) :
    h.lift (ix1 p) l = ix2 p l :=
  funext fun c => Fin.ext (by
    match c with
    | ⟨0, _⟩ => rfl
    | ⟨1, _⟩ => rfl)

/-- A lane maximum from the word of -∞ is the row's maximum. -/
theorem laneMax3_apply {M N : ℕ} (s : FVec Ideal (Mat M N) .f32) (h : (Mat M N).Reduces [1] (Vc M))
    (hφ : FKind.Formats .f32) (hacc : (0xFF800000#32 : BitVec 32) = FKind.maximumf.neutral .f32 hφ) (p : Fin M) :
    multiReduction (F := Ideal) .maximumf [1] (Vc M) s 0xFF800000#32 h hφ hacc (ix1 p) = rowMax s p := by
  refine (Ideal.multiReduction_maximumf_single s 0xFF800000#32 h hφ hacc (ix1 p)).trans ?_
  have e : (fun l : Fin N => s (h.lift (ix1 p) l)) = fun l => s (ix2 p l) := funext fun l => congrArg s (liftRow3 h p l)
  exact congrArg (fun f : Fin N → EReal => (Finset.univ : Finset (Fin N)).fold max negInf f) e

/-- A lane sum from the zero word is the row's sum. -/
theorem laneSum3_apply {M N : ℕ} (e : FVec Ideal (Mat M N) .f32) (h : (Mat M N).Reduces [1] (Vc M))
    (hφ : FKind.Formats .f32) (hacc : (0x00000000#32 : BitVec 32) = FKind.add.neutral .f32 hφ) (p : Fin M) :
    multiReduction (F := Ideal) .add [1] (Vc M) e 0x00000000#32 h hφ hacc (ix1 p) = ∑ l : Fin N, e (ix2 p l) := by
  refine (Ideal.multiReduction_add_single e 0x00000000#32 h hφ hacc (ix1 p)).trans ?_
  exact Finset.sum_congr rfl fun l _ => congrArg e (liftRow3 h p l)

/-- The row maximum as a column along the rows, read at (p, l). -/
theorem colMax3_apply {M N : ℕ} (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) (p : Fin M) (l : Fin N) :
    broadcastTo (Mat M N) (shapeCast (Mat M 1) (multiReduction (F := Ideal) .maximumf [1] (Vc M) s 0xFF800000#32 h hφ hacc) hcol) hbc (ix2 p l)
      = rowMax s p :=
  (colSpread3_apply _ hbc p l).trans ((colCast3_apply _ hcol p 0).trans (laneMax3_apply s h hφ hacc p))

/-- The row sum as a column along the rows, read at (p, l). -/
theorem colSum3_apply {M N : ℕ} (e : FVec Ideal (Mat M N) .f32) (h : (Mat M N).Reduces [1] (Vc M))
    (hcol : (Vc M).ShapeCasts (Mat M 1)) (hbc : (Mat M 1).Broadcasts (Mat M N))
    (hφ : FKind.Formats .f32) (hacc : (0x00000000#32 : BitVec 32) = FKind.add.neutral .f32 hφ) (p : Fin M) (l : Fin N) :
    broadcastTo (Mat M N) (shapeCast (Mat M 1) (multiReduction (F := Ideal) .add [1] (Vc M) e 0x00000000#32 h hφ hacc) hcol) hbc (ix2 p l)
      = ∑ l' : Fin N, e (ix2 p l') :=
  (colSpread3_apply _ hbc p l).trans ((colCast3_apply _ hcol p 0).trans (laneSum3_apply e h hφ hacc p))

/-! ## The two products: rows against rows, and rows against columns -/

section RowsByRows
variable {M K N : ℕ}

/-- Rows against rows: the left operand's row coordinate is the result's. -/
theorem trLhs3_ax0 (i : (Mat M N).Idx) (q : (DotDims.transposedRhs M K N).contr.Idx) :
    ((DotDims.transposedRhs M K N).lhsIdx i q 0).val = (i 0).val := by
  unfold DotDims.lhsIdx
  rw [dif_neg (show ¬(0 : Fin (Mat M K).rank) ∈ (DotDims.transposedRhs M K N).lhsBatch from List.not_mem_nil),
    dif_pos (show (0 : Fin (Mat M K).rank) ∈ (DotDims.transposedRhs M K N).lhsNonContracting from List.mem_singleton.mpr rfl)]
  rfl
/-- Its column coordinate is the contraction's. -/
theorem trLhs3_ax1 (i : (Mat M N).Idx) (q : (DotDims.transposedRhs M K N).contr.Idx) :
    ((DotDims.transposedRhs M K N).lhsIdx i q 1).val = (q ⟨0, Nat.one_pos⟩).val :=
  (DotDims.transposedRhs M K N).lhsIdx_val_of_single rfl i q
/-- The right operand's row coordinate is the result's column. -/
theorem trRhs3_ax0 (i : (Mat M N).Idx) (q : (DotDims.transposedRhs M K N).contr.Idx) :
    ((DotDims.transposedRhs M K N).rhsIdx i q 0).val = (i 1).val := by
  unfold DotDims.rhsIdx
  rw [dif_neg (show ¬(0 : Fin (Mat N K).rank) ∈ (DotDims.transposedRhs M K N).rhsBatch from List.not_mem_nil),
    dif_pos (show (0 : Fin (Mat N K).rank) ∈ (DotDims.transposedRhs M K N).rhsNonContracting from List.mem_singleton.mpr rfl)]
  rfl
/-- Its column coordinate is the contraction's. -/
theorem trRhs3_ax1 (i : (Mat M N).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The product of an M×K matrix with the rows of an N×K one, into zero: entry (p, l) is ∑ k, A (p, k) · B (l, k). -/
theorem rowsByRows3_apply {φ₁ φ₂ : FTy} (prec : Option ContractPrecision)
    (A : FVec Ideal (Mat M K) φ₁) (B : FVec Ideal (Mat N K) φ₂) (p : Fin M) (l : Fin N) :
    matmul (DotDims.transposedRhs M K N) prec A B (constant (F := Ideal) (Mat M N) .f32 0x00000000#32) (ix2 p l)
      = ∑ k : Fin K, A (ix2 p k) * B (ix2 l k) := by
  refine (Ideal.matmul_constant_zero_apply (DotDims.transposedRhs M K N) prec A B (ix2 p l)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p l) ((contrEquiv1 (DotDims.transposedRhs M K N) K rfl rfl).symm k) = ix2 p k :=
    funext fun a => Fin.ext (by
      match a with
      | ⟨0, _⟩ => exact trLhs3_ax0 _ _
      | ⟨1, _⟩ => exact (trLhs3_ax1 _ _).trans hk)
  have er : (DotDims.transposedRhs M K N).rhsIdx (ix2 p l) ((contrEquiv1 (DotDims.transposedRhs M K N) K rfl rfl).symm k) = ix2 l k :=
    funext fun a => Fin.ext (by
      match a with
      | ⟨0, _⟩ => exact trRhs3_ax0 _ _
      | ⟨1, _⟩ => exact (trRhs3_ax1 _ _).trans hk)
  rw [el, er]

end RowsByRows

section RowsByColumns
variable {M K N : ℕ}

/-- Rows against columns: the left operand's row coordinate is the result's. -/
theorem plLhs3_ax0 (i : (Mat M N).Idx) (q : (DotDims.plain M K N).contr.Idx) :
    ((DotDims.plain M K N).lhsIdx i q 0).val = (i 0).val := by
  unfold DotDims.lhsIdx
  rw [dif_neg (show ¬(0 : Fin (Mat M K).rank) ∈ (DotDims.plain M K N).lhsBatch from List.not_mem_nil),
    dif_pos (show (0 : Fin (Mat M K).rank) ∈ (DotDims.plain M K N).lhsNonContracting from List.mem_singleton.mpr rfl)]
  rfl
/-- Its column coordinate is the contraction's. -/
theorem plLhs3_ax1 (i : (Mat M N).Idx) (q : (DotDims.plain M K N).contr.Idx) :
    ((DotDims.plain M K N).lhsIdx i q 1).val = (q ⟨0, Nat.one_pos⟩).val :=
  (DotDims.plain M K N).lhsIdx_val_of_single rfl i q
/-- The right operand's row coordinate is the contraction's. -/
theorem plRhs3_ax0 (i : (Mat M N).Idx) (q : (DotDims.plain M K N).contr.Idx) :
    ((DotDims.plain M K N).rhsIdx i q 0).val = (q ⟨0, Nat.one_pos⟩).val :=
  (DotDims.plain M K N).rhsIdx_val_of_single rfl i q
/-- Its column coordinate is the result's. -/
theorem plRhs3_ax1 (i : (Mat M N).Idx) (q : (DotDims.plain M K N).contr.Idx) :
    ((DotDims.plain M K N).rhsIdx i q 1).val = (i 1).val := by
  unfold DotDims.rhsIdx
  rw [dif_neg (show ¬(1 : Fin (Mat K N).rank) ∈ (DotDims.plain M K N).rhsBatch from List.not_mem_nil),
    dif_pos (show (1 : Fin (Mat K N).rank) ∈ (DotDims.plain M K N).rhsNonContracting from List.mem_singleton.mpr rfl)]
  rfl

/-- The product of an M×K matrix with a K×N one, into zero: entry (p, j) is ∑ k, A (p, k) · B (k, j). -/
theorem rowsByCols3_apply {φ₁ φ₂ : FTy} (prec : Option ContractPrecision)
    (A : FVec Ideal (Mat M K) φ₁) (B : FVec Ideal (Mat K N) φ₂) (p : Fin M) (j : Fin N) :
    matmul (DotDims.plain M K N) prec A B (constant (F := Ideal) (Mat M N) .f32 0x00000000#32) (ix2 p j)
      = ∑ k : Fin K, A (ix2 p k) * B (ix2 k j) := by
  refine (Ideal.matmul_constant_zero_apply (DotDims.plain M K N) prec A B (ix2 p j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plLhs3_ax0 _ _
      | ⟨1, _⟩ => exact (plLhs3_ax1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plRhs3_ax0 _ _).trans hk
      | ⟨1, _⟩ => exact plRhs3_ax1 _ _)
  rw [el, er]

end RowsByColumns

end Cert.Gat.AttChain

namespace Cert.Gat.AttChain

/-! ## The attention chain -/

section Chain
variable {M N D : ℕ}

/-- The masked scores, operation by operation: the product of the query rows with the key rows, kept where the adjacency
    word is positive as a signed integer, the large negative word elsewhere. -/
theorem scoreChain3_eq (hlt : FTy.bits .bf16 < FTy.bits .f32) (hq : (Mat M D).ShapeCasts (Mat M D)) (hk : (Mat N D).ShapeCasts (Mat N D))
    (Q : FVec Ideal (Mat M D) .f32) (H : FVec Ideal (Mat N D) .f32) (A : IVec (Mat M N) 32) :
    select (cmpi .sgt A (broadcast (Mat M N) 0#32))
        (matmul (DotDims.transposedRhs M D N) none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32))
      = score Q H A := by
  funext i
  obtain ⟨p, l, rfl⟩ : ∃ (p : Fin M) (l : Fin N), i = ix2 p l := ⟨i 0, i 1, eq_ix2 i⟩
  rw [shapeCast_self Q hq, shapeCast_self H hk]
  show Scalar.select (adj (A (ix2 p l)))
      (matmul (DotDims.transposedRhs M D N) none (truncf .bf16 Q hlt) (truncf .bf16 H hlt) (constant (F := Ideal) (Mat M N) .f32 0x00000000#32) (ix2 p l)) negBig
    = Scalar.select (adj (A (ix2 p l))) (∑ k : Fin D, Q (ix2 p k) * H (ix2 l k)) negBig
  rw [rowsByRows3_apply]
  rfl

/-- The exponentials of the entries less their row's maximum, the maximum taken by a lane reduction and spread back as a column. -/
theorem expoChain3_eq (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) :
    exp (subf s (broadcastTo (Mat M N) (shapeCast (Mat M 1) (multiReduction (F := Ideal) .maximumf [1] (Vc M) s 0xFF800000#32 h hφ hacc) hcol) hbc))
      = expo s := by
  funext i
  obtain ⟨p, l, rfl⟩ : ∃ (p : Fin M) (l : Fin N), i = ix2 p l := ⟨i 0, i 1, eq_ix2 i⟩
  show Ideal.exp (s (ix2 p l)
      - broadcastTo (Mat M N) (shapeCast (Mat M 1) (multiReduction (F := Ideal) .maximumf [1] (Vc M) s 0xFF800000#32 h hφ hacc) hcol) hbc (ix2 p l))
    = Ideal.exp (s (ix2 p l) - rowMax s p)
  rw [colMax3_apply]

/-- THE CHAIN IS THE ATTENTION: scores S, their exponentials E less the row maximum, E over its row sum, that times the key
    rows' matrix, clamped at zero. -/
theorem attChain3_eq (d1 : DotDims (Mat M D) (Mat N D) (Mat M N)) (d2 : DotDims (Mat M N) (Mat N D) (Mat M D))
    (e1 : d1 = DotDims.transposedRhs M D N) (e2 : d2 = DotDims.plain M N D)
    (hlt : FTy.bits .bf16 < FTy.bits .f32) (hq : (Mat M D).ShapeCasts (Mat M D)) (hk : (Mat N D).ShapeCasts (Mat N D))
    (h : (Mat M N).Reduces [1] (Vc M)) (hcol : (Vc M).ShapeCasts (Mat M 1)) (hbc : (Mat M 1).Broadcasts (Mat M N))
    (hφ : FKind.Formats .f32) (hmax : (0xFF800000#32 : BitVec 32) = FKind.maximumf.neutral .f32 hφ)
    (hadd : (0x00000000#32 : BitVec 32) = FKind.add.neutral .f32 hφ)
    (Q : FVec Ideal (Mat M D) .f32) (H : FVec Ideal (Mat N D) .f32) (A : IVec (Mat M N) 32)
    (S E : FVec Ideal (Mat M N) .f32)
    (hS : S = select (cmpi .sgt A (broadcast (Mat M N) 0#32))
        (matmul d1 none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32)))
    (hE : E = exp (subf S (broadcastTo (Mat M N) (shapeCast (Mat M 1) (multiReduction (F := Ideal) .maximumf [1] (Vc M) S 0xFF800000#32 h hφ hmax) hcol) hbc))) :
    maximumf
        (matmul d2 none
          (truncf .bf16 (divf E (broadcastTo (Mat M N) (shapeCast (Mat M 1) (multiReduction (F := Ideal) .add [1] (Vc M) E 0x00000000#32 h hφ hadd) hcol) hbc)) hlt)
          (truncf .bf16 (shapeCast (Mat N D) H hk) hlt) (constant (F := Ideal) (Mat M D) .f32 0x00000000#32))
        (broadcast (Mat M D) (Scalar.ofBits .f32 0x00000000#32 : Ideal .f32))
      = att Q H A := by
  subst e1 e2
  have hS' : S = score Q H A := hS.trans (scoreChain3_eq hlt hq hk Q H A)
  subst hS'
  have hE' : E = expo (score Q H A) := hE.trans (expoChain3_eq (score Q H A) h hcol hbc hφ hmax)
  subst hE'
  funext i
  obtain ⟨p, j, rfl⟩ : ∃ (p : Fin M) (j : Fin D), i = ix2 p j := ⟨i 0, i 1, eq_ix2 i⟩
  rw [shapeCast_self H hk]
  show max (matmul (DotDims.plain M N D) none
        (truncf .bf16 (divf (expo (score Q H A))
          (broadcastTo (Mat M N) (shapeCast (Mat M 1) (multiReduction (F := Ideal) .add [1] (Vc M) (expo (score Q H A)) 0x00000000#32 h hφ hadd) hcol) hbc)) hlt)
        (truncf .bf16 H hlt) (constant (F := Ideal) (Mat M D) .f32 0x00000000#32) (ix2 p j)) zero
    = max (∑ l : Fin N, Ideal.div (expo (score Q H A) (ix2 p l)) (∑ l' : Fin N, expo (score Q H A) (ix2 p l')) * H (ix2 l j)) zero
  rw [rowsByCols3_apply]
  refine congrArg (fun x => max x zero) (Finset.sum_congr rfl fun l _ => ?_)
  show Ideal.div (expo (score Q H A) (ix2 p l))
      (broadcastTo (Mat M N) (shapeCast (Mat M 1) (multiReduction (F := Ideal) .add [1] (Vc M) (expo (score Q H A)) 0x00000000#32 h hφ hadd) hcol) hbc (ix2 p l))
      * H (ix2 l j) = _
  rw [colSum3_apply]

end Chain

end Cert.Gat.AttChain

namespace Cert.KernelIdeal.Hand

open Cert.KernelIdeal Cert.KernelIdeal.Gen

/-- Region 3's stored value is the attention of its block of query rows over the key rows. -/
theorem pay3_eq (x0 : Vec Ideal S400x3 .f32) (x1 : Vec Ideal S2000x3 .f32) (x2 : Vec Ideal S400x2000 .i32) :
    Cert.KernelIdeal.Gen.k3_pay1 (F := Ideal) x0 x1 x2 = Cert.Gat.att x0 x1 x2 := by
  unfold Cert.KernelIdeal.Gen.k3_pay1
  exact Cert.Gat.AttChain.attChain3_eq dot_S400x3_S2000x3_S400x2000_1_1_0_0_n_n dot_S400x2000_S2000x3_S400x3_1_0_0_1_n_n rfl rfl
    bitsLt_bf16_f32 shapeCasts_S400x3_S400x3 shapeCasts_S2000x3_S2000x3 reduces_S400x2000_S400 shapeCasts_S400_S400x1
    broadcasts_S400x1_S400x2000 (.inl rfl) rfl rfl x0 x1 x2 _ _ rfl rfl

end Cert.KernelIdeal.Hand

end
-- ==== Proof.KI.PayAtt5.lean ====
/-
  The attention kernel's stored value is the specification's attention, index by index.

  The value is a chain of operations on a block of query rows Q (M × D), the key rows H (N × D) and the block's adjacency
  words A (M × N):
  * the scores: the product of Q with the rows of H, entry (p, l) = ∑ k, Q (p, k) · H (l, k), kept where the adjacency word
    is positive as a signed integer and replaced by the large negative word elsewhere;
  * each row's maximum, taken over the lanes from the word of -∞, written as a column and spread back along the row;
  * the exponentials of the scores less their row's maximum;
  * each row's sum of those, written as a column and spread back along the row, and the quotient by it;
  * the product of the quotients with H, entry (p, j) = ∑ l, w (p, l) · H (l, j), and the maximum with zero.
  The narrowing of a product's operands changes nothing on the extended reals. Each step is read at an index: the two layout steps
  (a vector as a column, a column along the rows), the two lane reductions (a fold of max, a sum, over the lane coordinate),
  and the two products (their contraction index is one coordinate; the four operand-index facts of each are separate lemmas).
  The chain theorem is stated for every M, N, D; the region's theorem, last, is its instance at the region's sizes.
-/
import proofs.«123632_j87531433492498_2_alg».proof.Proof.Gen.KernelIdeal.Skeleton
import proofs.«123632_j87531433492498_2_alg».proof.Proof.Gat.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Gat.AttChain

/-! ## Layout: a vector as a column, a column along the rows -/

section Column
variable {α : Type}

/-- A length-a vector cast to a column reads, at (i, u), the operand at i. -/
theorem colCast5_apply {a : ℕ} (x : (Vc a).Idx → α) (h : (Vc a).ShapeCasts (Mat a 1)) (i : Fin a) (u : Fin 1) :
    shapeCast (Mat a 1) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column's entry at p. -/
theorem colSpread5_apply {a b : ℕ} (v : (Mat a 1).Idx → α) (h : (Mat a 1).Broadcasts (Mat a b)) (p : Fin a) (c : Fin b) :
    broadcastTo (Mat a b) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two lane reductions of a matrix: a row's maximum and a row's sum -/

/-- The index over row p with the lane coordinate l inserted is (p, l). -/
theorem liftRow5 {M N : ℕ} (h : (Mat M N).Reduces [1] (Vc M)) (p : Fin M) (l : Fin N) :
    h.lift (ix1 p) l = ix2 p l :=
  funext fun c => Fin.ext (by
    match c with
    | ⟨0, _⟩ => rfl
    | ⟨1, _⟩ => rfl)

/-- A lane maximum from the word of -∞ is the row's maximum. -/
theorem laneMax5_apply {M N : ℕ} (s : FVec Ideal (Mat M N) .f32) (h : (Mat M N).Reduces [1] (Vc M))
    (hφ : FKind.Formats .f32) (hacc : (0xFF800000#32 : BitVec 32) = FKind.maximumf.neutral .f32 hφ) (p : Fin M) :
    multiReduction (F := Ideal) .maximumf [1] (Vc M) s 0xFF800000#32 h hφ hacc (ix1 p) = rowMax s p := by
  refine (Ideal.multiReduction_maximumf_single s 0xFF800000#32 h hφ hacc (ix1 p)).trans ?_
  have e : (fun l : Fin N => s (h.lift (ix1 p) l)) = fun l => s (ix2 p l) := funext fun l => congrArg s (liftRow5 h p l)
  exact congrArg (fun f : Fin N → EReal => (Finset.univ : Finset (Fin N)).fold max negInf f) e

/-- A lane sum from the zero word is the row's sum. -/
theorem laneSum5_apply {M N : ℕ} (e : FVec Ideal (Mat M N) .f32) (h : (Mat M N).Reduces [1] (Vc M))
    (hφ : FKind.Formats .f32) (hacc : (0x00000000#32 : BitVec 32) = FKind.add.neutral .f32 hφ) (p : Fin M) :
    multiReduction (F := Ideal) .add [1] (Vc M) e 0x00000000#32 h hφ hacc (ix1 p) = ∑ l : Fin N, e (ix2 p l) := by
  refine (Ideal.multiReduction_add_single e 0x00000000#32 h hφ hacc (ix1 p)).trans ?_
  exact Finset.sum_congr rfl fun l _ => congrArg e (liftRow5 h p l)

/-- The row maximum as a column along the rows, read at (p, l). -/
theorem colMax5_apply {M N : ℕ} (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) (p : Fin M) (l : Fin N) :
    broadcastTo (Mat M N) (shapeCast (Mat M 1) (multiReduction (F := Ideal) .maximumf [1] (Vc M) s 0xFF800000#32 h hφ hacc) hcol) hbc (ix2 p l)
      = rowMax s p :=
  (colSpread5_apply _ hbc p l).trans ((colCast5_apply _ hcol p 0).trans (laneMax5_apply s h hφ hacc p))

/-- The row sum as a column along the rows, read at (p, l). -/
theorem colSum5_apply {M N : ℕ} (e : FVec Ideal (Mat M N) .f32) (h : (Mat M N).Reduces [1] (Vc M))
    (hcol : (Vc M).ShapeCasts (Mat M 1)) (hbc : (Mat M 1).Broadcasts (Mat M N))
    (hφ : FKind.Formats .f32) (hacc : (0x00000000#32 : BitVec 32) = FKind.add.neutral .f32 hφ) (p : Fin M) (l : Fin N) :
    broadcastTo (Mat M N) (shapeCast (Mat M 1) (multiReduction (F := Ideal) .add [1] (Vc M) e 0x00000000#32 h hφ hacc) hcol) hbc (ix2 p l)
      = ∑ l' : Fin N, e (ix2 p l') :=
  (colSpread5_apply _ hbc p l).trans ((colCast5_apply _ hcol p 0).trans (laneSum5_apply e h hφ hacc p))

/-! ## The two products: rows against rows, and rows against columns -/

section RowsByRows
variable {M K N : ℕ}

/-- Rows against rows: the left operand's row coordinate is the result's. -/
theorem trLhs5_ax0 (i : (Mat M N).Idx) (q : (DotDims.transposedRhs M K N).contr.Idx) :
    ((DotDims.transposedRhs M K N).lhsIdx i q 0).val = (i 0).val := by
  unfold DotDims.lhsIdx
  rw [dif_neg (show ¬(0 : Fin (Mat M K).rank) ∈ (DotDims.transposedRhs M K N).lhsBatch from List.not_mem_nil),
    dif_pos (show (0 : Fin (Mat M K).rank) ∈ (DotDims.transposedRhs M K N).lhsNonContracting from List.mem_singleton.mpr rfl)]
  rfl
/-- Its column coordinate is the contraction's. -/
theorem trLhs5_ax1 (i : (Mat M N).Idx) (q : (DotDims.transposedRhs M K N).contr.Idx) :
    ((DotDims.transposedRhs M K N).lhsIdx i q 1).val = (q ⟨0, Nat.one_pos⟩).val :=
  (DotDims.transposedRhs M K N).lhsIdx_val_of_single rfl i q
/-- The right operand's row coordinate is the result's column. -/
theorem trRhs5_ax0 (i : (Mat M N).Idx) (q : (DotDims.transposedRhs M K N).contr.Idx) :
    ((DotDims.transposedRhs M K N).rhsIdx i q 0).val = (i 1).val := by
  unfold DotDims.rhsIdx
  rw [dif_neg (show ¬(0 : Fin (Mat N K).rank) ∈ (DotDims.transposedRhs M K N).rhsBatch from List.not_mem_nil),
    dif_pos (show (0 : Fin (Mat N K).rank) ∈ (DotDims.transposedRhs M K N).rhsNonContracting from List.mem_singleton.mpr rfl)]
  rfl
/-- Its column coordinate is the contraction's. -/
theorem trRhs5_ax1 (i : (Mat M N).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The product of an M×K matrix with the rows of an N×K one, into zero: entry (p, l) is ∑ k, A (p, k) · B (l, k). -/
theorem rowsByRows5_apply {φ₁ φ₂ : FTy} (prec : Option ContractPrecision)
    (A : FVec Ideal (Mat M K) φ₁) (B : FVec Ideal (Mat N K) φ₂) (p : Fin M) (l : Fin N) :
    matmul (DotDims.transposedRhs M K N) prec A B (constant (F := Ideal) (Mat M N) .f32 0x00000000#32) (ix2 p l)
      = ∑ k : Fin K, A (ix2 p k) * B (ix2 l k) := by
  refine (Ideal.matmul_constant_zero_apply (DotDims.transposedRhs M K N) prec A B (ix2 p l)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p l) ((contrEquiv1 (DotDims.transposedRhs M K N) K rfl rfl).symm k) = ix2 p k :=
    funext fun a => Fin.ext (by
      match a with
      | ⟨0, _⟩ => exact trLhs5_ax0 _ _
      | ⟨1, _⟩ => exact (trLhs5_ax1 _ _).trans hk)
  have er : (DotDims.transposedRhs M K N).rhsIdx (ix2 p l) ((contrEquiv1 (DotDims.transposedRhs M K N) K rfl rfl).symm k) = ix2 l k :=
    funext fun a => Fin.ext (by
      match a with
      | ⟨0, _⟩ => exact trRhs5_ax0 _ _
      | ⟨1, _⟩ => exact (trRhs5_ax1 _ _).trans hk)
  rw [el, er]

end RowsByRows

section RowsByColumns
variable {M K N : ℕ}

/-- Rows against columns: the left operand's row coordinate is the result's. -/
theorem plLhs5_ax0 (i : (Mat M N).Idx) (q : (DotDims.plain M K N).contr.Idx) :
    ((DotDims.plain M K N).lhsIdx i q 0).val = (i 0).val := by
  unfold DotDims.lhsIdx
  rw [dif_neg (show ¬(0 : Fin (Mat M K).rank) ∈ (DotDims.plain M K N).lhsBatch from List.not_mem_nil),
    dif_pos (show (0 : Fin (Mat M K).rank) ∈ (DotDims.plain M K N).lhsNonContracting from List.mem_singleton.mpr rfl)]
  rfl
/-- Its column coordinate is the contraction's. -/
theorem plLhs5_ax1 (i : (Mat M N).Idx) (q : (DotDims.plain M K N).contr.Idx) :
    ((DotDims.plain M K N).lhsIdx i q 1).val = (q ⟨0, Nat.one_pos⟩).val :=
  (DotDims.plain M K N).lhsIdx_val_of_single rfl i q
/-- The right operand's row coordinate is the contraction's. -/
theorem plRhs5_ax0 (i : (Mat M N).Idx) (q : (DotDims.plain M K N).contr.Idx) :
    ((DotDims.plain M K N).rhsIdx i q 0).val = (q ⟨0, Nat.one_pos⟩).val :=
  (DotDims.plain M K N).rhsIdx_val_of_single rfl i q
/-- Its column coordinate is the result's. -/
theorem plRhs5_ax1 (i : (Mat M N).Idx) (q : (DotDims.plain M K N).contr.Idx) :
    ((DotDims.plain M K N).rhsIdx i q 1).val = (i 1).val := by
  unfold DotDims.rhsIdx
  rw [dif_neg (show ¬(1 : Fin (Mat K N).rank) ∈ (DotDims.plain M K N).rhsBatch from List.not_mem_nil),
    dif_pos (show (1 : Fin (Mat K N).rank) ∈ (DotDims.plain M K N).rhsNonContracting from List.mem_singleton.mpr rfl)]
  rfl

/-- The product of an M×K matrix with a K×N one, into zero: entry (p, j) is ∑ k, A (p, k) · B (k, j). -/
theorem rowsByCols5_apply {φ₁ φ₂ : FTy} (prec : Option ContractPrecision)
    (A : FVec Ideal (Mat M K) φ₁) (B : FVec Ideal (Mat K N) φ₂) (p : Fin M) (j : Fin N) :
    matmul (DotDims.plain M K N) prec A B (constant (F := Ideal) (Mat M N) .f32 0x00000000#32) (ix2 p j)
      = ∑ k : Fin K, A (ix2 p k) * B (ix2 k j) := by
  refine (Ideal.matmul_constant_zero_apply (DotDims.plain M K N) prec A B (ix2 p j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plLhs5_ax0 _ _
      | ⟨1, _⟩ => exact (plLhs5_ax1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plRhs5_ax0 _ _).trans hk
      | ⟨1, _⟩ => exact plRhs5_ax1 _ _)
  rw [el, er]

end RowsByColumns

end Cert.Gat.AttChain

namespace Cert.Gat.AttChain

/-! ## The attention chain -/

section Chain
variable {M N D : ℕ}

/-- The masked scores, operation by operation: the product of the query rows with the key rows, kept where the adjacency
    word is positive as a signed integer, the large negative word elsewhere. -/
theorem scoreChain5_eq (hlt : FTy.bits .bf16 < FTy.bits .f32) (hq : (Mat M D).ShapeCasts (Mat M D)) (hk : (Mat N D).ShapeCasts (Mat N D))
    (Q : FVec Ideal (Mat M D) .f32) (H : FVec Ideal (Mat N D) .f32) (A : IVec (Mat M N) 32) :
    select (cmpi .sgt A (broadcast (Mat M N) 0#32))
        (matmul (DotDims.transposedRhs M D N) none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32))
      = score Q H A := by
  funext i
  obtain ⟨p, l, rfl⟩ : ∃ (p : Fin M) (l : Fin N), i = ix2 p l := ⟨i 0, i 1, eq_ix2 i⟩
  rw [shapeCast_self Q hq, shapeCast_self H hk]
  show Scalar.select (adj (A (ix2 p l)))
      (matmul (DotDims.transposedRhs M D N) none (truncf .bf16 Q hlt) (truncf .bf16 H hlt) (constant (F := Ideal) (Mat M N) .f32 0x00000000#32) (ix2 p l)) negBig
    = Scalar.select (adj (A (ix2 p l))) (∑ k : Fin D, Q (ix2 p k) * H (ix2 l k)) negBig
  rw [rowsByRows5_apply]
  rfl

/-- The exponentials of the entries less their row's maximum, the maximum taken by a lane reduction and spread back as a column. -/
theorem expoChain5_eq (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) :
    exp (subf s (broadcastTo (Mat M N) (shapeCast (Mat M 1) (multiReduction (F := Ideal) .maximumf [1] (Vc M) s 0xFF800000#32 h hφ hacc) hcol) hbc))
      = expo s := by
  funext i
  obtain ⟨p, l, rfl⟩ : ∃ (p : Fin M) (l : Fin N), i = ix2 p l := ⟨i 0, i 1, eq_ix2 i⟩
  show Ideal.exp (s (ix2 p l)
      - broadcastTo (Mat M N) (shapeCast (Mat M 1) (multiReduction (F := Ideal) .maximumf [1] (Vc M) s 0xFF800000#32 h hφ hacc) hcol) hbc (ix2 p l))
    = Ideal.exp (s (ix2 p l) - rowMax s p)
  rw [colMax5_apply]

/-- THE CHAIN IS THE ATTENTION: scores S, their exponentials E less the row maximum, E over its row sum, that times the key
    rows' matrix, clamped at zero. -/
theorem attChain5_eq (d1 : DotDims (Mat M D) (Mat N D) (Mat M N)) (d2 : DotDims (Mat M N) (Mat N D) (Mat M D))
    (e1 : d1 = DotDims.transposedRhs M D N) (e2 : d2 = DotDims.plain M N D)
    (hlt : FTy.bits .bf16 < FTy.bits .f32) (hq : (Mat M D).ShapeCasts (Mat M D)) (hk : (Mat N D).ShapeCasts (Mat N D))
    (h : (Mat M N).Reduces [1] (Vc M)) (hcol : (Vc M).ShapeCasts (Mat M 1)) (hbc : (Mat M 1).Broadcasts (Mat M N))
    (hφ : FKind.Formats .f32) (hmax : (0xFF800000#32 : BitVec 32) = FKind.maximumf.neutral .f32 hφ)
    (hadd : (0x00000000#32 : BitVec 32) = FKind.add.neutral .f32 hφ)
    (Q : FVec Ideal (Mat M D) .f32) (H : FVec Ideal (Mat N D) .f32) (A : IVec (Mat M N) 32)
    (S E : FVec Ideal (Mat M N) .f32)
    (hS : S = select (cmpi .sgt A (broadcast (Mat M N) 0#32))
        (matmul d1 none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32)))
    (hE : E = exp (subf S (broadcastTo (Mat M N) (shapeCast (Mat M 1) (multiReduction (F := Ideal) .maximumf [1] (Vc M) S 0xFF800000#32 h hφ hmax) hcol) hbc))) :
    maximumf
        (matmul d2 none
          (truncf .bf16 (divf E (broadcastTo (Mat M N) (shapeCast (Mat M 1) (multiReduction (F := Ideal) .add [1] (Vc M) E 0x00000000#32 h hφ hadd) hcol) hbc)) hlt)
          (truncf .bf16 (shapeCast (Mat N D) H hk) hlt) (constant (F := Ideal) (Mat M D) .f32 0x00000000#32))
        (broadcast (Mat M D) (Scalar.ofBits .f32 0x00000000#32 : Ideal .f32))
      = att Q H A := by
  subst e1 e2
  have hS' : S = score Q H A := hS.trans (scoreChain5_eq hlt hq hk Q H A)
  subst hS'
  have hE' : E = expo (score Q H A) := hE.trans (expoChain5_eq (score Q H A) h hcol hbc hφ hmax)
  subst hE'
  funext i
  obtain ⟨p, j, rfl⟩ : ∃ (p : Fin M) (j : Fin D), i = ix2 p j := ⟨i 0, i 1, eq_ix2 i⟩
  rw [shapeCast_self H hk]
  show max (matmul (DotDims.plain M N D) none
        (truncf .bf16 (divf (expo (score Q H A))
          (broadcastTo (Mat M N) (shapeCast (Mat M 1) (multiReduction (F := Ideal) .add [1] (Vc M) (expo (score Q H A)) 0x00000000#32 h hφ hadd) hcol) hbc)) hlt)
        (truncf .bf16 H hlt) (constant (F := Ideal) (Mat M D) .f32 0x00000000#32) (ix2 p j)) zero
    = max (∑ l : Fin N, Ideal.div (expo (score Q H A) (ix2 p l)) (∑ l' : Fin N, expo (score Q H A) (ix2 p l')) * H (ix2 l j)) zero
  rw [rowsByCols5_apply]
  refine congrArg (fun x => max x zero) (Finset.sum_congr rfl fun l _ => ?_)
  show Ideal.div (expo (score Q H A) (ix2 p l))
      (broadcastTo (Mat M N) (shapeCast (Mat M 1) (multiReduction (F := Ideal) .add [1] (Vc M) (expo (score Q H A)) 0x00000000#32 h hφ hadd) hcol) hbc (ix2 p l))
      * H (ix2 l j) = _
  rw [colSum5_apply]

end Chain

end Cert.Gat.AttChain

namespace Cert.KernelIdeal.Hand

open Cert.KernelIdeal Cert.KernelIdeal.Gen

/-- Region 5's stored value is the attention of its block of query rows over the key rows. -/
theorem pay5_eq (x0 : Vec Ideal S200x64 .f32) (x1 : Vec Ideal S1000x64 .f32) (x2 : Vec Ideal S200x1000 .i32) :
    Cert.KernelIdeal.Gen.k5_pay1 (F := Ideal) x0 x1 x2 = Cert.Gat.att x0 x1 x2 := by
  unfold Cert.KernelIdeal.Gen.k5_pay1
  exact Cert.Gat.AttChain.attChain5_eq dot_S200x64_S1000x64_S200x1000_1_1_0_0_n_n dot_S200x1000_S1000x64_S200x64_1_0_0_1_n_n rfl rfl
    bitsLt_bf16_f32 shapeCasts_S200x64_S200x64 shapeCasts_S1000x64_S1000x64 reduces_S200x1000_S200 shapeCasts_S200_S200x1
    broadcasts_S200x1_S200x1000 (.inl rfl) rfl rfl x0 x1 x2 _ _ rfl rfl

end Cert.KernelIdeal.Hand

end
-- ==== Proof.KI.PayAtt7.lean ====
/-
  The attention kernel's stored value is the specification's attention, index by index.

  The value is a chain of operations on a block of query rows Q (M × D), the key rows H (N × D) and the block's adjacency
  words A (M × N):
  * the scores: the product of Q with the rows of H, entry (p, l) = ∑ k, Q (p, k) · H (l, k), kept where the adjacency word
    is positive as a signed integer and replaced by the large negative word elsewhere;
  * each row's maximum, taken over the lanes from the word of -∞, written as a column and spread back along the row;
  * the exponentials of the scores less their row's maximum;
  * each row's sum of those, written as a column and spread back along the row, and the quotient by it;
  * the product of the quotients with H, entry (p, j) = ∑ l, w (p, l) · H (l, j), and the maximum with zero.
  The narrowing of a product's operands changes nothing on the extended reals. Each step is read at an index: the two layout steps
  (a vector as a column, a column along the rows), the two lane reductions (a fold of max, a sum, over the lane coordinate),
  and the two products (their contraction index is one coordinate; the four operand-index facts of each are separate lemmas).
  The chain theorem is stated for every M, N, D; the region's theorem, last, is its instance at the region's sizes.
-/
import proofs.«123632_j87531433492498_2_alg».proof.Proof.Gen.KernelIdeal.Skeleton
import proofs.«123632_j87531433492498_2_alg».proof.Proof.Gat.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Gat.AttChain

/-! ## Layout: a vector as a column, a column along the rows -/

section Column
variable {α : Type}

/-- A length-a vector cast to a column reads, at (i, u), the operand at i. -/
theorem colCast7_apply {a : ℕ} (x : (Vc a).Idx → α) (h : (Vc a).ShapeCasts (Mat a 1)) (i : Fin a) (u : Fin 1) :
    shapeCast (Mat a 1) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column's entry at p. -/
theorem colSpread7_apply {a b : ℕ} (v : (Mat a 1).Idx → α) (h : (Mat a 1).Broadcasts (Mat a b)) (p : Fin a) (c : Fin b) :
    broadcastTo (Mat a b) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two lane reductions of a matrix: a row's maximum and a row's sum -/

/-- The index over row p with the lane coordinate l inserted is (p, l). -/
theorem liftRow7 {M N : ℕ} (h : (Mat M N).Reduces [1] (Vc M)) (p : Fin M) (l : Fin N) :
    h.lift (ix1 p) l = ix2 p l :=
  funext fun c => Fin.ext (by
    match c with
    | ⟨0, _⟩ => rfl
    | ⟨1, _⟩ => rfl)

/-- A lane maximum from the word of -∞ is the row's maximum. -/
theorem laneMax7_apply {M N : ℕ} (s : FVec Ideal (Mat M N) .f32) (h : (Mat M N).Reduces [1] (Vc M))
    (hφ : FKind.Formats .f32) (hacc : (0xFF800000#32 : BitVec 32) = FKind.maximumf.neutral .f32 hφ) (p : Fin M) :
    multiReduction (F := Ideal) .maximumf [1] (Vc M) s 0xFF800000#32 h hφ hacc (ix1 p) = rowMax s p := by
  refine (Ideal.multiReduction_maximumf_single s 0xFF800000#32 h hφ hacc (ix1 p)).trans ?_
  have e : (fun l : Fin N => s (h.lift (ix1 p) l)) = fun l => s (ix2 p l) := funext fun l => congrArg s (liftRow7 h p l)
  exact congrArg (fun f : Fin N → EReal => (Finset.univ : Finset (Fin N)).fold max negInf f) e

/-- A lane sum from the zero word is the row's sum. -/
theorem laneSum7_apply {M N : ℕ} (e : FVec Ideal (Mat M N) .f32) (h : (Mat M N).Reduces [1] (Vc M))
    (hφ : FKind.Formats .f32) (hacc : (0x00000000#32 : BitVec 32) = FKind.add.neutral .f32 hφ) (p : Fin M) :
    multiReduction (F := Ideal) .add [1] (Vc M) e 0x00000000#32 h hφ hacc (ix1 p) = ∑ l : Fin N, e (ix2 p l) := by
  refine (Ideal.multiReduction_add_single e 0x00000000#32 h hφ hacc (ix1 p)).trans ?_
  exact Finset.sum_congr rfl fun l _ => congrArg e (liftRow7 h p l)

/-- The row maximum as a column along the rows, read at (p, l). -/
theorem colMax7_apply {M N : ℕ} (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) (p : Fin M) (l : Fin N) :
    broadcastTo (Mat M N) (shapeCast (Mat M 1) (multiReduction (F := Ideal) .maximumf [1] (Vc M) s 0xFF800000#32 h hφ hacc) hcol) hbc (ix2 p l)
      = rowMax s p :=
  (colSpread7_apply _ hbc p l).trans ((colCast7_apply _ hcol p 0).trans (laneMax7_apply s h hφ hacc p))

/-- The row sum as a column along the rows, read at (p, l). -/
theorem colSum7_apply {M N : ℕ} (e : FVec Ideal (Mat M N) .f32) (h : (Mat M N).Reduces [1] (Vc M))
    (hcol : (Vc M).ShapeCasts (Mat M 1)) (hbc : (Mat M 1).Broadcasts (Mat M N))
    (hφ : FKind.Formats .f32) (hacc : (0x00000000#32 : BitVec 32) = FKind.add.neutral .f32 hφ) (p : Fin M) (l : Fin N) :
    broadcastTo (Mat M N) (shapeCast (Mat M 1) (multiReduction (F := Ideal) .add [1] (Vc M) e 0x00000000#32 h hφ hacc) hcol) hbc (ix2 p l)
      = ∑ l' : Fin N, e (ix2 p l') :=
  (colSpread7_apply _ hbc p l).trans ((colCast7_apply _ hcol p 0).trans (laneSum7_apply e h hφ hacc p))

/-! ## The two products: rows against rows, and rows against columns -/

section RowsByRows
variable {M K N : ℕ}

/-- Rows against rows: the left operand's row coordinate is the result's. -/
theorem trLhs7_ax0 (i : (Mat M N).Idx) (q : (DotDims.transposedRhs M K N).contr.Idx) :
    ((DotDims.transposedRhs M K N).lhsIdx i q 0).val = (i 0).val := by
  unfold DotDims.lhsIdx
  rw [dif_neg (show ¬(0 : Fin (Mat M K).rank) ∈ (DotDims.transposedRhs M K N).lhsBatch from List.not_mem_nil),
    dif_pos (show (0 : Fin (Mat M K).rank) ∈ (DotDims.transposedRhs M K N).lhsNonContracting from List.mem_singleton.mpr rfl)]
  rfl
/-- Its column coordinate is the contraction's. -/
theorem trLhs7_ax1 (i : (Mat M N).Idx) (q : (DotDims.transposedRhs M K N).contr.Idx) :
    ((DotDims.transposedRhs M K N).lhsIdx i q 1).val = (q ⟨0, Nat.one_pos⟩).val :=
  (DotDims.transposedRhs M K N).lhsIdx_val_of_single rfl i q
/-- The right operand's row coordinate is the result's column. -/
theorem trRhs7_ax0 (i : (Mat M N).Idx) (q : (DotDims.transposedRhs M K N).contr.Idx) :
    ((DotDims.transposedRhs M K N).rhsIdx i q 0).val = (i 1).val := by
  unfold DotDims.rhsIdx
  rw [dif_neg (show ¬(0 : Fin (Mat N K).rank) ∈ (DotDims.transposedRhs M K N).rhsBatch from List.not_mem_nil),
    dif_pos (show (0 : Fin (Mat N K).rank) ∈ (DotDims.transposedRhs M K N).rhsNonContracting from List.mem_singleton.mpr rfl)]
  rfl
/-- Its column coordinate is the contraction's. -/
theorem trRhs7_ax1 (i : (Mat M N).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The product of an M×K matrix with the rows of an N×K one, into zero: entry (p, l) is ∑ k, A (p, k) · B (l, k). -/
theorem rowsByRows7_apply {φ₁ φ₂ : FTy} (prec : Option ContractPrecision)
    (A : FVec Ideal (Mat M K) φ₁) (B : FVec Ideal (Mat N K) φ₂) (p : Fin M) (l : Fin N) :
    matmul (DotDims.transposedRhs M K N) prec A B (constant (F := Ideal) (Mat M N) .f32 0x00000000#32) (ix2 p l)
      = ∑ k : Fin K, A (ix2 p k) * B (ix2 l k) := by
  refine (Ideal.matmul_constant_zero_apply (DotDims.transposedRhs M K N) prec A B (ix2 p l)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p l) ((contrEquiv1 (DotDims.transposedRhs M K N) K rfl rfl).symm k) = ix2 p k :=
    funext fun a => Fin.ext (by
      match a with
      | ⟨0, _⟩ => exact trLhs7_ax0 _ _
      | ⟨1, _⟩ => exact (trLhs7_ax1 _ _).trans hk)
  have er : (DotDims.transposedRhs M K N).rhsIdx (ix2 p l) ((contrEquiv1 (DotDims.transposedRhs M K N) K rfl rfl).symm k) = ix2 l k :=
    funext fun a => Fin.ext (by
      match a with
      | ⟨0, _⟩ => exact trRhs7_ax0 _ _
      | ⟨1, _⟩ => exact (trRhs7_ax1 _ _).trans hk)
  rw [el, er]

end RowsByRows

section RowsByColumns
variable {M K N : ℕ}

/-- Rows against columns: the left operand's row coordinate is the result's. -/
theorem plLhs7_ax0 (i : (Mat M N).Idx) (q : (DotDims.plain M K N).contr.Idx) :
    ((DotDims.plain M K N).lhsIdx i q 0).val = (i 0).val := by
  unfold DotDims.lhsIdx
  rw [dif_neg (show ¬(0 : Fin (Mat M K).rank) ∈ (DotDims.plain M K N).lhsBatch from List.not_mem_nil),
    dif_pos (show (0 : Fin (Mat M K).rank) ∈ (DotDims.plain M K N).lhsNonContracting from List.mem_singleton.mpr rfl)]
  rfl
/-- Its column coordinate is the contraction's. -/
theorem plLhs7_ax1 (i : (Mat M N).Idx) (q : (DotDims.plain M K N).contr.Idx) :
    ((DotDims.plain M K N).lhsIdx i q 1).val = (q ⟨0, Nat.one_pos⟩).val :=
  (DotDims.plain M K N).lhsIdx_val_of_single rfl i q
/-- The right operand's row coordinate is the contraction's. -/
theorem plRhs7_ax0 (i : (Mat M N).Idx) (q : (DotDims.plain M K N).contr.Idx) :
    ((DotDims.plain M K N).rhsIdx i q 0).val = (q ⟨0, Nat.one_pos⟩).val :=
  (DotDims.plain M K N).rhsIdx_val_of_single rfl i q
/-- Its column coordinate is the result's. -/
theorem plRhs7_ax1 (i : (Mat M N).Idx) (q : (DotDims.plain M K N).contr.Idx) :
    ((DotDims.plain M K N).rhsIdx i q 1).val = (i 1).val := by
  unfold DotDims.rhsIdx
  rw [dif_neg (show ¬(1 : Fin (Mat K N).rank) ∈ (DotDims.plain M K N).rhsBatch from List.not_mem_nil),
    dif_pos (show (1 : Fin (Mat K N).rank) ∈ (DotDims.plain M K N).rhsNonContracting from List.mem_singleton.mpr rfl)]
  rfl

/-- The product of an M×K matrix with a K×N one, into zero: entry (p, j) is ∑ k, A (p, k) · B (k, j). -/
theorem rowsByCols7_apply {φ₁ φ₂ : FTy} (prec : Option ContractPrecision)
    (A : FVec Ideal (Mat M K) φ₁) (B : FVec Ideal (Mat K N) φ₂) (p : Fin M) (j : Fin N) :
    matmul (DotDims.plain M K N) prec A B (constant (F := Ideal) (Mat M N) .f32 0x00000000#32) (ix2 p j)
      = ∑ k : Fin K, A (ix2 p k) * B (ix2 k j) := by
  refine (Ideal.matmul_constant_zero_apply (DotDims.plain M K N) prec A B (ix2 p j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plLhs7_ax0 _ _
      | ⟨1, _⟩ => exact (plLhs7_ax1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plRhs7_ax0 _ _).trans hk
      | ⟨1, _⟩ => exact plRhs7_ax1 _ _)
  rw [el, er]

end RowsByColumns

end Cert.Gat.AttChain

namespace Cert.Gat.AttChain

/-! ## The attention chain -/

section Chain
variable {M N D : ℕ}

/-- The masked scores, operation by operation: the product of the query rows with the key rows, kept where the adjacency
    word is positive as a signed integer, the large negative word elsewhere. -/
theorem scoreChain7_eq (hlt : FTy.bits .bf16 < FTy.bits .f32) (hq : (Mat M D).ShapeCasts (Mat M D)) (hk : (Mat N D).ShapeCasts (Mat N D))
    (Q : FVec Ideal (Mat M D) .f32) (H : FVec Ideal (Mat N D) .f32) (A : IVec (Mat M N) 32) :
    select (cmpi .sgt A (broadcast (Mat M N) 0#32))
        (matmul (DotDims.transposedRhs M D N) none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32))
      = score Q H A := by
  funext i
  obtain ⟨p, l, rfl⟩ : ∃ (p : Fin M) (l : Fin N), i = ix2 p l := ⟨i 0, i 1, eq_ix2 i⟩
  rw [shapeCast_self Q hq, shapeCast_self H hk]
  show Scalar.select (adj (A (ix2 p l)))
      (matmul (DotDims.transposedRhs M D N) none (truncf .bf16 Q hlt) (truncf .bf16 H hlt) (constant (F := Ideal) (Mat M N) .f32 0x00000000#32) (ix2 p l)) negBig
    = Scalar.select (adj (A (ix2 p l))) (∑ k : Fin D, Q (ix2 p k) * H (ix2 l k)) negBig
  rw [rowsByRows7_apply]
  rfl

/-- The exponentials of the entries less their row's maximum, the maximum taken by a lane reduction and spread back as a column. -/
theorem expoChain7_eq (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) :
    exp (subf s (broadcastTo (Mat M N) (shapeCast (Mat M 1) (multiReduction (F := Ideal) .maximumf [1] (Vc M) s 0xFF800000#32 h hφ hacc) hcol) hbc))
      = expo s := by
  funext i
  obtain ⟨p, l, rfl⟩ : ∃ (p : Fin M) (l : Fin N), i = ix2 p l := ⟨i 0, i 1, eq_ix2 i⟩
  show Ideal.exp (s (ix2 p l)
      - broadcastTo (Mat M N) (shapeCast (Mat M 1) (multiReduction (F := Ideal) .maximumf [1] (Vc M) s 0xFF800000#32 h hφ hacc) hcol) hbc (ix2 p l))
    = Ideal.exp (s (ix2 p l) - rowMax s p)
  rw [colMax7_apply]

/-- THE CHAIN IS THE ATTENTION: scores S, their exponentials E less the row maximum, E over its row sum, that times the key
    rows' matrix, clamped at zero. -/
theorem attChain7_eq (d1 : DotDims (Mat M D) (Mat N D) (Mat M N)) (d2 : DotDims (Mat M N) (Mat N D) (Mat M D))
    (e1 : d1 = DotDims.transposedRhs M D N) (e2 : d2 = DotDims.plain M N D)
    (hlt : FTy.bits .bf16 < FTy.bits .f32) (hq : (Mat M D).ShapeCasts (Mat M D)) (hk : (Mat N D).ShapeCasts (Mat N D))
    (h : (Mat M N).Reduces [1] (Vc M)) (hcol : (Vc M).ShapeCasts (Mat M 1)) (hbc : (Mat M 1).Broadcasts (Mat M N))
    (hφ : FKind.Formats .f32) (hmax : (0xFF800000#32 : BitVec 32) = FKind.maximumf.neutral .f32 hφ)
    (hadd : (0x00000000#32 : BitVec 32) = FKind.add.neutral .f32 hφ)
    (Q : FVec Ideal (Mat M D) .f32) (H : FVec Ideal (Mat N D) .f32) (A : IVec (Mat M N) 32)
    (S E : FVec Ideal (Mat M N) .f32)
    (hS : S = select (cmpi .sgt A (broadcast (Mat M N) 0#32))
        (matmul d1 none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32)))
    (hE : E = exp (subf S (broadcastTo (Mat M N) (shapeCast (Mat M 1) (multiReduction (F := Ideal) .maximumf [1] (Vc M) S 0xFF800000#32 h hφ hmax) hcol) hbc))) :
    maximumf
        (matmul d2 none
          (truncf .bf16 (divf E (broadcastTo (Mat M N) (shapeCast (Mat M 1) (multiReduction (F := Ideal) .add [1] (Vc M) E 0x00000000#32 h hφ hadd) hcol) hbc)) hlt)
          (truncf .bf16 (shapeCast (Mat N D) H hk) hlt) (constant (F := Ideal) (Mat M D) .f32 0x00000000#32))
        (broadcast (Mat M D) (Scalar.ofBits .f32 0x00000000#32 : Ideal .f32))
      = att Q H A := by
  subst e1 e2
  have hS' : S = score Q H A := hS.trans (scoreChain7_eq hlt hq hk Q H A)
  subst hS'
  have hE' : E = expo (score Q H A) := hE.trans (expoChain7_eq (score Q H A) h hcol hbc hφ hmax)
  subst hE'
  funext i
  obtain ⟨p, j, rfl⟩ : ∃ (p : Fin M) (j : Fin D), i = ix2 p j := ⟨i 0, i 1, eq_ix2 i⟩
  rw [shapeCast_self H hk]
  show max (matmul (DotDims.plain M N D) none
        (truncf .bf16 (divf (expo (score Q H A))
          (broadcastTo (Mat M N) (shapeCast (Mat M 1) (multiReduction (F := Ideal) .add [1] (Vc M) (expo (score Q H A)) 0x00000000#32 h hφ hadd) hcol) hbc)) hlt)
        (truncf .bf16 H hlt) (constant (F := Ideal) (Mat M D) .f32 0x00000000#32) (ix2 p j)) zero
    = max (∑ l : Fin N, Ideal.div (expo (score Q H A) (ix2 p l)) (∑ l' : Fin N, expo (score Q H A) (ix2 p l')) * H (ix2 l j)) zero
  rw [rowsByCols7_apply]
  refine congrArg (fun x => max x zero) (Finset.sum_congr rfl fun l _ => ?_)
  show Ideal.div (expo (score Q H A) (ix2 p l))
      (broadcastTo (Mat M N) (shapeCast (Mat M 1) (multiReduction (F := Ideal) .add [1] (Vc M) (expo (score Q H A)) 0x00000000#32 h hφ hadd) hcol) hbc (ix2 p l))
      * H (ix2 l j) = _
  rw [colSum7_apply]

end Chain

end Cert.Gat.AttChain

namespace Cert.KernelIdeal.Hand

open Cert.KernelIdeal Cert.KernelIdeal.Gen

/-- Region 7's stored value is the attention of its block of query rows over the key rows. -/
theorem pay7_eq (x0 : Vec Ideal S200x3 .f32) (x1 : Vec Ideal S1000x3 .f32) (x2 : Vec Ideal S200x1000 .i32) :
    Cert.KernelIdeal.Gen.k7_pay1 (F := Ideal) x0 x1 x2 = Cert.Gat.att x0 x1 x2 := by
  unfold Cert.KernelIdeal.Gen.k7_pay1
  exact Cert.Gat.AttChain.attChain7_eq dot_S200x3_S1000x3_S200x1000_1_1_0_0_n_n dot_S200x1000_S1000x3_S200x3_1_0_0_1_n_n rfl rfl
    bitsLt_bf16_f32 shapeCasts_S200x3_S200x3 shapeCasts_S1000x3_S1000x3 reduces_S200x1000_S200 shapeCasts_S200_S200x1
    broadcasts_S200x1_S200x1000 (.inl rfl) rfl rfl x0 x1 x2 _ _ rfl rfl

end Cert.KernelIdeal.Hand

end
-- ==== Proof.KI.PayAtt9.lean ====
/-
  The attention kernel's stored value is the specification's attention, index by index.

  The value is a chain of operations on a block of query rows Q (M × D), the key rows H (N × D) and the block's adjacency
  words A (M × N):
  * the scores: the product of Q with the rows of H, entry (p, l) = ∑ k, Q (p, k) · H (l, k), kept where the adjacency word
    is positive as a signed integer and replaced by the large negative word elsewhere;
  * each row's maximum, taken over the lanes from the word of -∞, written as a column and spread back along the row;
  * the exponentials of the scores less their row's maximum;
  * each row's sum of those, written as a column and spread back along the row, and the quotient by it;
  * the product of the quotients with H, entry (p, j) = ∑ l, w (p, l) · H (l, j), and the maximum with zero.
  The narrowing of a product's operands changes nothing on the extended reals. Each step is read at an index: the two layout steps
  (a vector as a column, a column along the rows), the two lane reductions (a fold of max, a sum, over the lane coordinate),
  and the two products (their contraction index is one coordinate; the four operand-index facts of each are separate lemmas).
  The chain theorem is stated for every M, N, D; the region's theorem, last, is its instance at the region's sizes.
-/
import proofs.«123632_j87531433492498_2_alg».proof.Proof.Gen.KernelIdeal.Skeleton
import proofs.«123632_j87531433492498_2_alg».proof.Proof.Gat.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Gat.AttChain

/-! ## Layout: a vector as a column, a column along the rows -/

section Column
variable {α : Type}

/-- A length-a vector cast to a column reads, at (i, u), the operand at i. -/
theorem colCast9_apply {a : ℕ} (x : (Vc a).Idx → α) (h : (Vc a).ShapeCasts (Mat a 1)) (i : Fin a) (u : Fin 1) :
    shapeCast (Mat a 1) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column's entry at p. -/
theorem colSpread9_apply {a b : ℕ} (v : (Mat a 1).Idx → α) (h : (Mat a 1).Broadcasts (Mat a b)) (p : Fin a) (c : Fin b) :
    broadcastTo (Mat a b) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two lane reductions of a matrix: a row's maximum and a row's sum -/

/-- The index over row p with the lane coordinate l inserted is (p, l). -/
theorem liftRow9 {M N : ℕ} (h : (Mat M N).Reduces [1] (Vc M)) (p : Fin M) (l : Fin N) :
    h.lift (ix1 p) l = ix2 p l :=
  funext fun c => Fin.ext (by
    match c with
    | ⟨0, _⟩ => rfl
    | ⟨1, _⟩ => rfl)

/-- A lane maximum from the word of -∞ is the row's maximum. -/
theorem laneMax9_apply {M N : ℕ} (s : FVec Ideal (Mat M N) .f32) (h : (Mat M N).Reduces [1] (Vc M))
    (hφ : FKind.Formats .f32) (hacc : (0xFF800000#32 : BitVec 32) = FKind.maximumf.neutral .f32 hφ) (p : Fin M) :
    multiReduction (F := Ideal) .maximumf [1] (Vc M) s 0xFF800000#32 h hφ hacc (ix1 p) = rowMax s p := by
  refine (Ideal.multiReduction_maximumf_single s 0xFF800000#32 h hφ hacc (ix1 p)).trans ?_
  have e : (fun l : Fin N => s (h.lift (ix1 p) l)) = fun l => s (ix2 p l) := funext fun l => congrArg s (liftRow9 h p l)
  exact congrArg (fun f : Fin N → EReal => (Finset.univ : Finset (Fin N)).fold max negInf f) e

/-- A lane sum from the zero word is the row's sum. -/
theorem laneSum9_apply {M N : ℕ} (e : FVec Ideal (Mat M N) .f32) (h : (Mat M N).Reduces [1] (Vc M))
    (hφ : FKind.Formats .f32) (hacc : (0x00000000#32 : BitVec 32) = FKind.add.neutral .f32 hφ) (p : Fin M) :
    multiReduction (F := Ideal) .add [1] (Vc M) e 0x00000000#32 h hφ hacc (ix1 p) = ∑ l : Fin N, e (ix2 p l) := by
  refine (Ideal.multiReduction_add_single e 0x00000000#32 h hφ hacc (ix1 p)).trans ?_
  exact Finset.sum_congr rfl fun l _ => congrArg e (liftRow9 h p l)

/-- The row maximum as a column along the rows, read at (p, l). -/
theorem colMax9_apply {M N : ℕ} (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) (p : Fin M) (l : Fin N) :
    broadcastTo (Mat M N) (shapeCast (Mat M 1) (multiReduction (F := Ideal) .maximumf [1] (Vc M) s 0xFF800000#32 h hφ hacc) hcol) hbc (ix2 p l)
      = rowMax s p :=
  (colSpread9_apply _ hbc p l).trans ((colCast9_apply _ hcol p 0).trans (laneMax9_apply s h hφ hacc p))

/-- The row sum as a column along the rows, read at (p, l). -/
theorem colSum9_apply {M N : ℕ} (e : FVec Ideal (Mat M N) .f32) (h : (Mat M N).Reduces [1] (Vc M))
    (hcol : (Vc M).ShapeCasts (Mat M 1)) (hbc : (Mat M 1).Broadcasts (Mat M N))
    (hφ : FKind.Formats .f32) (hacc : (0x00000000#32 : BitVec 32) = FKind.add.neutral .f32 hφ) (p : Fin M) (l : Fin N) :
    broadcastTo (Mat M N) (shapeCast (Mat M 1) (multiReduction (F := Ideal) .add [1] (Vc M) e 0x00000000#32 h hφ hacc) hcol) hbc (ix2 p l)
      = ∑ l' : Fin N, e (ix2 p l') :=
  (colSpread9_apply _ hbc p l).trans ((colCast9_apply _ hcol p 0).trans (laneSum9_apply e h hφ hacc p))

/-! ## The two products: rows against rows, and rows against columns -/

section RowsByRows
variable {M K N : ℕ}

/-- Rows against rows: the left operand's row coordinate is the result's. -/
theorem trLhs9_ax0 (i : (Mat M N).Idx) (q : (DotDims.transposedRhs M K N).contr.Idx) :
    ((DotDims.transposedRhs M K N).lhsIdx i q 0).val = (i 0).val := by
  unfold DotDims.lhsIdx
  rw [dif_neg (show ¬(0 : Fin (Mat M K).rank) ∈ (DotDims.transposedRhs M K N).lhsBatch from List.not_mem_nil),
    dif_pos (show (0 : Fin (Mat M K).rank) ∈ (DotDims.transposedRhs M K N).lhsNonContracting from List.mem_singleton.mpr rfl)]
  rfl
/-- Its column coordinate is the contraction's. -/
theorem trLhs9_ax1 (i : (Mat M N).Idx) (q : (DotDims.transposedRhs M K N).contr.Idx) :
    ((DotDims.transposedRhs M K N).lhsIdx i q 1).val = (q ⟨0, Nat.one_pos⟩).val :=
  (DotDims.transposedRhs M K N).lhsIdx_val_of_single rfl i q
/-- The right operand's row coordinate is the result's column. -/
theorem trRhs9_ax0 (i : (Mat M N).Idx) (q : (DotDims.transposedRhs M K N).contr.Idx) :
    ((DotDims.transposedRhs M K N).rhsIdx i q 0).val = (i 1).val := by
  unfold DotDims.rhsIdx
  rw [dif_neg (show ¬(0 : Fin (Mat N K).rank) ∈ (DotDims.transposedRhs M K N).rhsBatch from List.not_mem_nil),
    dif_pos (show (0 : Fin (Mat N K).rank) ∈ (DotDims.transposedRhs M K N).rhsNonContracting from List.mem_singleton.mpr rfl)]
  rfl
/-- Its column coordinate is the contraction's. -/
theorem trRhs9_ax1 (i : (Mat M N).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The product of an M×K matrix with the rows of an N×K one, into zero: entry (p, l) is ∑ k, A (p, k) · B (l, k). -/
theorem rowsByRows9_apply {φ₁ φ₂ : FTy} (prec : Option ContractPrecision)
    (A : FVec Ideal (Mat M K) φ₁) (B : FVec Ideal (Mat N K) φ₂) (p : Fin M) (l : Fin N) :
    matmul (DotDims.transposedRhs M K N) prec A B (constant (F := Ideal) (Mat M N) .f32 0x00000000#32) (ix2 p l)
      = ∑ k : Fin K, A (ix2 p k) * B (ix2 l k) := by
  refine (Ideal.matmul_constant_zero_apply (DotDims.transposedRhs M K N) prec A B (ix2 p l)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p l) ((contrEquiv1 (DotDims.transposedRhs M K N) K rfl rfl).symm k) = ix2 p k :=
    funext fun a => Fin.ext (by
      match a with
      | ⟨0, _⟩ => exact trLhs9_ax0 _ _
      | ⟨1, _⟩ => exact (trLhs9_ax1 _ _).trans hk)
  have er : (DotDims.transposedRhs M K N).rhsIdx (ix2 p l) ((contrEquiv1 (DotDims.transposedRhs M K N) K rfl rfl).symm k) = ix2 l k :=
    funext fun a => Fin.ext (by
      match a with
      | ⟨0, _⟩ => exact trRhs9_ax0 _ _
      | ⟨1, _⟩ => exact (trRhs9_ax1 _ _).trans hk)
  rw [el, er]

end RowsByRows

section RowsByColumns
variable {M K N : ℕ}

/-- Rows against columns: the left operand's row coordinate is the result's. -/
theorem plLhs9_ax0 (i : (Mat M N).Idx) (q : (DotDims.plain M K N).contr.Idx) :
    ((DotDims.plain M K N).lhsIdx i q 0).val = (i 0).val := by
  unfold DotDims.lhsIdx
  rw [dif_neg (show ¬(0 : Fin (Mat M K).rank) ∈ (DotDims.plain M K N).lhsBatch from List.not_mem_nil),
    dif_pos (show (0 : Fin (Mat M K).rank) ∈ (DotDims.plain M K N).lhsNonContracting from List.mem_singleton.mpr rfl)]
  rfl
/-- Its column coordinate is the contraction's. -/
theorem plLhs9_ax1 (i : (Mat M N).Idx) (q : (DotDims.plain M K N).contr.Idx) :
    ((DotDims.plain M K N).lhsIdx i q 1).val = (q ⟨0, Nat.one_pos⟩).val :=
  (DotDims.plain M K N).lhsIdx_val_of_single rfl i q
/-- The right operand's row coordinate is the contraction's. -/
theorem plRhs9_ax0 (i : (Mat M N).Idx) (q : (DotDims.plain M K N).contr.Idx) :
    ((DotDims.plain M K N).rhsIdx i q 0).val = (q ⟨0, Nat.one_pos⟩).val :=
  (DotDims.plain M K N).rhsIdx_val_of_single rfl i q
/-- Its column coordinate is the result's. -/
theorem plRhs9_ax1 (i : (Mat M N).Idx) (q : (DotDims.plain M K N).contr.Idx) :
    ((DotDims.plain M K N).rhsIdx i q 1).val = (i 1).val := by
  unfold DotDims.rhsIdx
  rw [dif_neg (show ¬(1 : Fin (Mat K N).rank) ∈ (DotDims.plain M K N).rhsBatch from List.not_mem_nil),
    dif_pos (show (1 : Fin (Mat K N).rank) ∈ (DotDims.plain M K N).rhsNonContracting from List.mem_singleton.mpr rfl)]
  rfl

/-- The product of an M×K matrix with a K×N one, into zero: entry (p, j) is ∑ k, A (p, k) · B (k, j). -/
theorem rowsByCols9_apply {φ₁ φ₂ : FTy} (prec : Option ContractPrecision)
    (A : FVec Ideal (Mat M K) φ₁) (B : FVec Ideal (Mat K N) φ₂) (p : Fin M) (j : Fin N) :
    matmul (DotDims.plain M K N) prec A B (constant (F := Ideal) (Mat M N) .f32 0x00000000#32) (ix2 p j)
      = ∑ k : Fin K, A (ix2 p k) * B (ix2 k j) := by
  refine (Ideal.matmul_constant_zero_apply (DotDims.plain M K N) prec A B (ix2 p j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plLhs9_ax0 _ _
      | ⟨1, _⟩ => exact (plLhs9_ax1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plRhs9_ax0 _ _).trans hk
      | ⟨1, _⟩ => exact plRhs9_ax1 _ _)
  rw [el, er]

end RowsByColumns

end Cert.Gat.AttChain

namespace Cert.Gat.AttChain

/-! ## The attention chain -/

section Chain
variable {M N D : ℕ}

/-- The masked scores, operation by operation: the product of the query rows with the key rows, kept where the adjacency
    word is positive as a signed integer, the large negative word elsewhere. -/
theorem scoreChain9_eq (hlt : FTy.bits .bf16 < FTy.bits .f32) (hq : (Mat M D).ShapeCasts (Mat M D)) (hk : (Mat N D).ShapeCasts (Mat N D))
    (Q : FVec Ideal (Mat M D) .f32) (H : FVec Ideal (Mat N D) .f32) (A : IVec (Mat M N) 32) :
    select (cmpi .sgt A (broadcast (Mat M N) 0#32))
        (matmul (DotDims.transposedRhs M D N) none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32))
      = score Q H A := by
  funext i
  obtain ⟨p, l, rfl⟩ : ∃ (p : Fin M) (l : Fin N), i = ix2 p l := ⟨i 0, i 1, eq_ix2 i⟩
  rw [shapeCast_self Q hq, shapeCast_self H hk]
  show Scalar.select (adj (A (ix2 p l)))
      (matmul (DotDims.transposedRhs M D N) none (truncf .bf16 Q hlt) (truncf .bf16 H hlt) (constant (F := Ideal) (Mat M N) .f32 0x00000000#32) (ix2 p l)) negBig
    = Scalar.select (adj (A (ix2 p l))) (∑ k : Fin D, Q (ix2 p k) * H (ix2 l k)) negBig
  rw [rowsByRows9_apply]
  rfl

/-- The exponentials of the entries less their row's maximum, the maximum taken by a lane reduction and spread back as a column. -/
theorem expoChain9_eq (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) :
    exp (subf s (broadcastTo (Mat M N) (shapeCast (Mat M 1) (multiReduction (F := Ideal) .maximumf [1] (Vc M) s 0xFF800000#32 h hφ hacc) hcol) hbc))
      = expo s := by
  funext i
  obtain ⟨p, l, rfl⟩ : ∃ (p : Fin M) (l : Fin N), i = ix2 p l := ⟨i 0, i 1, eq_ix2 i⟩
  show Ideal.exp (s (ix2 p l)
      - broadcastTo (Mat M N) (shapeCast (Mat M 1) (multiReduction (F := Ideal) .maximumf [1] (Vc M) s 0xFF800000#32 h hφ hacc) hcol) hbc (ix2 p l))
    = Ideal.exp (s (ix2 p l) - rowMax s p)
  rw [colMax9_apply]

/-- THE CHAIN IS THE ATTENTION: scores S, their exponentials E less the row maximum, E over its row sum, that times the key
    rows' matrix, clamped at zero. -/
theorem attChain9_eq (d1 : DotDims (Mat M D) (Mat N D) (Mat M N)) (d2 : DotDims (Mat M N) (Mat N D) (Mat M D))
    (e1 : d1 = DotDims.transposedRhs M D N) (e2 : d2 = DotDims.plain M N D)
    (hlt : FTy.bits .bf16 < FTy.bits .f32) (hq : (Mat M D).ShapeCasts (Mat M D)) (hk : (Mat N D).ShapeCasts (Mat N D))
    (h : (Mat M N).Reduces [1] (Vc M)) (hcol : (Vc M).ShapeCasts (Mat M 1)) (hbc : (Mat M 1).Broadcasts (Mat M N))
    (hφ : FKind.Formats .f32) (hmax : (0xFF800000#32 : BitVec 32) = FKind.maximumf.neutral .f32 hφ)
    (hadd : (0x00000000#32 : BitVec 32) = FKind.add.neutral .f32 hφ)
    (Q : FVec Ideal (Mat M D) .f32) (H : FVec Ideal (Mat N D) .f32) (A : IVec (Mat M N) 32)
    (S E : FVec Ideal (Mat M N) .f32)
    (hS : S = select (cmpi .sgt A (broadcast (Mat M N) 0#32))
        (matmul d1 none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32)))
    (hE : E = exp (subf S (broadcastTo (Mat M N) (shapeCast (Mat M 1) (multiReduction (F := Ideal) .maximumf [1] (Vc M) S 0xFF800000#32 h hφ hmax) hcol) hbc))) :
    maximumf
        (matmul d2 none
          (truncf .bf16 (divf E (broadcastTo (Mat M N) (shapeCast (Mat M 1) (multiReduction (F := Ideal) .add [1] (Vc M) E 0x00000000#32 h hφ hadd) hcol) hbc)) hlt)
          (truncf .bf16 (shapeCast (Mat N D) H hk) hlt) (constant (F := Ideal) (Mat M D) .f32 0x00000000#32))
        (broadcast (Mat M D) (Scalar.ofBits .f32 0x00000000#32 : Ideal .f32))
      = att Q H A := by
  subst e1 e2
  have hS' : S = score Q H A := hS.trans (scoreChain9_eq hlt hq hk Q H A)
  subst hS'
  have hE' : E = expo (score Q H A) := hE.trans (expoChain9_eq (score Q H A) h hcol hbc hφ hmax)
  subst hE'
  funext i
  obtain ⟨p, j, rfl⟩ : ∃ (p : Fin M) (j : Fin D), i = ix2 p j := ⟨i 0, i 1, eq_ix2 i⟩
  rw [shapeCast_self H hk]
  show max (matmul (DotDims.plain M N D) none
        (truncf .bf16 (divf (expo (score Q H A))
          (broadcastTo (Mat M N) (shapeCast (Mat M 1) (multiReduction (F := Ideal) .add [1] (Vc M) (expo (score Q H A)) 0x00000000#32 h hφ hadd) hcol) hbc)) hlt)
        (truncf .bf16 H hlt) (constant (F := Ideal) (Mat M D) .f32 0x00000000#32) (ix2 p j)) zero
    = max (∑ l : Fin N, Ideal.div (expo (score Q H A) (ix2 p l)) (∑ l' : Fin N, expo (score Q H A) (ix2 p l')) * H (ix2 l j)) zero
  rw [rowsByCols9_apply]
  refine congrArg (fun x => max x zero) (Finset.sum_congr rfl fun l _ => ?_)
  show Ideal.div (expo (score Q H A) (ix2 p l))
      (broadcastTo (Mat M N) (shapeCast (Mat M 1) (multiReduction (F := Ideal) .add [1] (Vc M) (expo (score Q H A)) 0x00000000#32 h hφ hadd) hcol) hbc (ix2 p l))
      * H (ix2 l j) = _
  rw [colSum9_apply]

end Chain

end Cert.Gat.AttChain

namespace Cert.KernelIdeal.Hand

open Cert.KernelIdeal Cert.KernelIdeal.Gen

/-- Region 9's stored value is the attention of its block of query rows over the key rows. -/
theorem pay9_eq (x0 : Vec Ideal S500x64 .f32) (x1 : Vec Ideal S500x64 .f32) (x2 : Vec Ideal S500x500 .i32) :
    Cert.KernelIdeal.Gen.k9_pay1 (F := Ideal) x0 x1 x2 = Cert.Gat.att x0 x1 x2 := by
  unfold Cert.KernelIdeal.Gen.k9_pay1
  exact Cert.Gat.AttChain.attChain9_eq dot_S500x64_S500x64_S500x500_1_1_0_0_n_n dot_S500x500_S500x64_S500x64_1_0_0_1_n_n rfl rfl
    bitsLt_bf16_f32 shapeCasts_S500x64_S500x64 shapeCasts_S500x64_S500x64 reduces_S500x500_S500 shapeCasts_S500_S500x1
    broadcasts_S500x1_S500x500 (.inl rfl) rfl rfl x0 x1 x2 _ _ rfl rfl

end Cert.KernelIdeal.Hand

end
-- ==== Proof.KI.PayAtt11.lean ====
/-
  The attention kernel's stored value is the specification's attention, index by index.

  The value is a chain of operations on a block of query rows Q (M × D), the key rows H (N × D) and the block's adjacency
  words A (M × N):
  * the scores: the product of Q with the rows of H, entry (p, l) = ∑ k, Q (p, k) · H (l, k), kept where the adjacency word
    is positive as a signed integer and replaced by the large negative word elsewhere;
  * each row's maximum, taken over the lanes from the word of -∞, written as a column and spread back along the row;
  * the exponentials of the scores less their row's maximum;
  * each row's sum of those, written as a column and spread back along the row, and the quotient by it;
  * the product of the quotients with H, entry (p, j) = ∑ l, w (p, l) · H (l, j), and the maximum with zero.
  The narrowing of a product's operands changes nothing on the extended reals. Each step is read at an index: the two layout steps
  (a vector as a column, a column along the rows), the two lane reductions (a fold of max, a sum, over the lane coordinate),
  and the two products (their contraction index is one coordinate; the four operand-index facts of each are separate lemmas).
  The chain theorem is stated for every M, N, D; the region's theorem, last, is its instance at the region's sizes.
-/
import proofs.«123632_j87531433492498_2_alg».proof.Proof.Gen.KernelIdeal.Skeleton
import proofs.«123632_j87531433492498_2_alg».proof.Proof.Gat.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.Gat.AttChain

/-! ## Layout: a vector as a column, a column along the rows -/

section Column
variable {α : Type}

/-- A length-a vector cast to a column reads, at (i, u), the operand at i. -/
theorem colCast11_apply {a : ℕ} (x : (Vc a).Idx → α) (h : (Vc a).ShapeCasts (Mat a 1)) (i : Fin a) (u : Fin 1) :
    shapeCast (Mat a 1) x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column's entry at p. -/
theorem colSpread11_apply {a b : ℕ} (v : (Mat a 1).Idx → α) (h : (Mat a 1).Broadcasts (Mat a b)) (p : Fin a) (c : Fin b) :
    broadcastTo (Mat a b) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two lane reductions of a matrix: a row's maximum and a row's sum -/

/-- The index over row p with the lane coordinate l inserted is (p, l). -/
theorem liftRow11 {M N : ℕ} (h : (Mat M N).Reduces [1] (Vc M)) (p : Fin M) (l : Fin N) :
    h.lift (ix1 p) l = ix2 p l :=
  funext fun c => Fin.ext (by
    match c with
    | ⟨0, _⟩ => rfl
    | ⟨1, _⟩ => rfl)

/-- A lane maximum from the word of -∞ is the row's maximum. -/
theorem laneMax11_apply {M N : ℕ} (s : FVec Ideal (Mat M N) .f32) (h : (Mat M N).Reduces [1] (Vc M))
    (hφ : FKind.Formats .f32) (hacc : (0xFF800000#32 : BitVec 32) = FKind.maximumf.neutral .f32 hφ) (p : Fin M) :
    multiReduction (F := Ideal) .maximumf [1] (Vc M) s 0xFF800000#32 h hφ hacc (ix1 p) = rowMax s p := by
  refine (Ideal.multiReduction_maximumf_single s 0xFF800000#32 h hφ hacc (ix1 p)).trans ?_
  have e : (fun l : Fin N => s (h.lift (ix1 p) l)) = fun l => s (ix2 p l) := funext fun l => congrArg s (liftRow11 h p l)
  exact congrArg (fun f : Fin N → EReal => (Finset.univ : Finset (Fin N)).fold max negInf f) e

/-- A lane sum from the zero word is the row's sum. -/
theorem laneSum11_apply {M N : ℕ} (e : FVec Ideal (Mat M N) .f32) (h : (Mat M N).Reduces [1] (Vc M))
    (hφ : FKind.Formats .f32) (hacc : (0x00000000#32 : BitVec 32) = FKind.add.neutral .f32 hφ) (p : Fin M) :
    multiReduction (F := Ideal) .add [1] (Vc M) e 0x00000000#32 h hφ hacc (ix1 p) = ∑ l : Fin N, e (ix2 p l) := by
  refine (Ideal.multiReduction_add_single e 0x00000000#32 h hφ hacc (ix1 p)).trans ?_
  exact Finset.sum_congr rfl fun l _ => congrArg e (liftRow11 h p l)

/-- The row maximum as a column along the rows, read at (p, l). -/
theorem colMax11_apply {M N : ℕ} (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) (p : Fin M) (l : Fin N) :
    broadcastTo (Mat M N) (shapeCast (Mat M 1) (multiReduction (F := Ideal) .maximumf [1] (Vc M) s 0xFF800000#32 h hφ hacc) hcol) hbc (ix2 p l)
      = rowMax s p :=
  (colSpread11_apply _ hbc p l).trans ((colCast11_apply _ hcol p 0).trans (laneMax11_apply s h hφ hacc p))

/-- The row sum as a column along the rows, read at (p, l). -/
theorem colSum11_apply {M N : ℕ} (e : FVec Ideal (Mat M N) .f32) (h : (Mat M N).Reduces [1] (Vc M))
    (hcol : (Vc M).ShapeCasts (Mat M 1)) (hbc : (Mat M 1).Broadcasts (Mat M N))
    (hφ : FKind.Formats .f32) (hacc : (0x00000000#32 : BitVec 32) = FKind.add.neutral .f32 hφ) (p : Fin M) (l : Fin N) :
    broadcastTo (Mat M N) (shapeCast (Mat M 1) (multiReduction (F := Ideal) .add [1] (Vc M) e 0x00000000#32 h hφ hacc) hcol) hbc (ix2 p l)
      = ∑ l' : Fin N, e (ix2 p l') :=
  (colSpread11_apply _ hbc p l).trans ((colCast11_apply _ hcol p 0).trans (laneSum11_apply e h hφ hacc p))

/-! ## The two products: rows against rows, and rows against columns -/

section RowsByRows
variable {M K N : ℕ}

/-- Rows against rows: the left operand's row coordinate is the result's. -/
theorem trLhs11_ax0 (i : (Mat M N).Idx) (q : (DotDims.transposedRhs M K N).contr.Idx) :
    ((DotDims.transposedRhs M K N).lhsIdx i q 0).val = (i 0).val := by
  unfold DotDims.lhsIdx
  rw [dif_neg (show ¬(0 : Fin (Mat M K).rank) ∈ (DotDims.transposedRhs M K N).lhsBatch from List.not_mem_nil),
    dif_pos (show (0 : Fin (Mat M K).rank) ∈ (DotDims.transposedRhs M K N).lhsNonContracting from List.mem_singleton.mpr rfl)]
  rfl
/-- Its column coordinate is the contraction's. -/
theorem trLhs11_ax1 (i : (Mat M N).Idx) (q : (DotDims.transposedRhs M K N).contr.Idx) :
    ((DotDims.transposedRhs M K N).lhsIdx i q 1).val = (q ⟨0, Nat.one_pos⟩).val :=
  (DotDims.transposedRhs M K N).lhsIdx_val_of_single rfl i q
/-- The right operand's row coordinate is the result's column. -/
theorem trRhs11_ax0 (i : (Mat M N).Idx) (q : (DotDims.transposedRhs M K N).contr.Idx) :
    ((DotDims.transposedRhs M K N).rhsIdx i q 0).val = (i 1).val := by
  unfold DotDims.rhsIdx
  rw [dif_neg (show ¬(0 : Fin (Mat N K).rank) ∈ (DotDims.transposedRhs M K N).rhsBatch from List.not_mem_nil),
    dif_pos (show (0 : Fin (Mat N K).rank) ∈ (DotDims.transposedRhs M K N).rhsNonContracting from List.mem_singleton.mpr rfl)]
  rfl
/-- Its column coordinate is the contraction's. -/
theorem trRhs11_ax1 (i : (Mat M N).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The product of an M×K matrix with the rows of an N×K one, into zero: entry (p, l) is ∑ k, A (p, k) · B (l, k). -/
theorem rowsByRows11_apply {φ₁ φ₂ : FTy} (prec : Option ContractPrecision)
    (A : FVec Ideal (Mat M K) φ₁) (B : FVec Ideal (Mat N K) φ₂) (p : Fin M) (l : Fin N) :
    matmul (DotDims.transposedRhs M K N) prec A B (constant (F := Ideal) (Mat M N) .f32 0x00000000#32) (ix2 p l)
      = ∑ k : Fin K, A (ix2 p k) * B (ix2 l k) := by
  refine (Ideal.matmul_constant_zero_apply (DotDims.transposedRhs M K N) prec A B (ix2 p l)).trans ?_
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p l) ((contrEquiv1 (DotDims.transposedRhs M K N) K rfl rfl).symm k) = ix2 p k :=
    funext fun a => Fin.ext (by
      match a with
      | ⟨0, _⟩ => exact trLhs11_ax0 _ _
      | ⟨1, _⟩ => exact (trLhs11_ax1 _ _).trans hk)
  have er : (DotDims.transposedRhs M K N).rhsIdx (ix2 p l) ((contrEquiv1 (DotDims.transposedRhs M K N) K rfl rfl).symm k) = ix2 l k :=
    funext fun a => Fin.ext (by
      match a with
      | ⟨0, _⟩ => exact trRhs11_ax0 _ _
      | ⟨1, _⟩ => exact (trRhs11_ax1 _ _).trans hk)
  rw [el, er]

end RowsByRows

section RowsByColumns
variable {M K N : ℕ}

/-- Rows against columns: the left operand's row coordinate is the result's. -/
theorem plLhs11_ax0 (i : (Mat M N).Idx) (q : (DotDims.plain M K N).contr.Idx) :
    ((DotDims.plain M K N).lhsIdx i q 0).val = (i 0).val := by
  unfold DotDims.lhsIdx
  rw [dif_neg (show ¬(0 : Fin (Mat M K).rank) ∈ (DotDims.plain M K N).lhsBatch from List.not_mem_nil),
    dif_pos (show (0 : Fin (Mat M K).rank) ∈ (DotDims.plain M K N).lhsNonContracting from List.mem_singleton.mpr rfl)]
  rfl
/-- Its column coordinate is the contraction's. -/
theorem plLhs11_ax1 (i : (Mat M N).Idx) (q : (DotDims.plain M K N).contr.Idx) :
    ((DotDims.plain M K N).lhsIdx i q 1).val = (q ⟨0, Nat.one_pos⟩).val :=
  (DotDims.plain M K N).lhsIdx_val_of_single rfl i q
/-- The right operand's row coordinate is the contraction's. -/
theorem plRhs11_ax0 (i : (Mat M N).Idx) (q : (DotDims.plain M K N).contr.Idx) :
    ((DotDims.plain M K N).rhsIdx i q 0).val = (q ⟨0, Nat.one_pos⟩).val :=
  (DotDims.plain M K N).rhsIdx_val_of_single rfl i q
/-- Its column coordinate is the result's. -/
theorem plRhs11_ax1 (i : (Mat M N).Idx) (q : (DotDims.plain M K N).contr.Idx) :
    ((DotDims.plain M K N).rhsIdx i q 1).val = (i 1).val := by
  unfold DotDims.rhsIdx
  rw [dif_neg (show ¬(1 : Fin (Mat K N).rank) ∈ (DotDims.plain M K N).rhsBatch from List.not_mem_nil),
    dif_pos (show (1 : Fin (Mat K N).rank) ∈ (DotDims.plain M K N).rhsNonContracting from List.mem_singleton.mpr rfl)]
  rfl

/-- The product of an M×K matrix with a K×N one, into zero: entry (p, j) is ∑ k, A (p, k) · B (k, j). -/
theorem rowsByCols11_apply {φ₁ φ₂ : FTy} (prec : Option ContractPrecision)
    (A : FVec Ideal (Mat M K) φ₁) (B : FVec Ideal (Mat K N) φ₂) (p : Fin M) (j : Fin N) :
    matmul (DotDims.plain M K N) prec A B (constant (F := Ideal) (Mat M N) .f32 0x00000000#32) (ix2 p j)
      = ∑ k : Fin K, A (ix2 p k) * B (ix2 k j) := by
  refine (Ideal.matmul_constant_zero_apply (DotDims.plain M K N) prec A B (ix2 p j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plLhs11_ax0 _ _
      | ⟨1, _⟩ => exact (plLhs11_ax1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plRhs11_ax0 _ _).trans hk
      | ⟨1, _⟩ => exact plRhs11_ax1 _ _)
  rw [el, er]

end RowsByColumns

end Cert.Gat.AttChain

namespace Cert.Gat.AttChain

/-! ## The attention chain -/

section Chain
variable {M N D : ℕ}

/-- The masked scores, operation by operation: the product of the query rows with the key rows, kept where the adjacency
    word is positive as a signed integer, the large negative word elsewhere. -/
theorem scoreChain11_eq (hlt : FTy.bits .bf16 < FTy.bits .f32) (hq : (Mat M D).ShapeCasts (Mat M D)) (hk : (Mat N D).ShapeCasts (Mat N D))
    (Q : FVec Ideal (Mat M D) .f32) (H : FVec Ideal (Mat N D) .f32) (A : IVec (Mat M N) 32) :
    select (cmpi .sgt A (broadcast (Mat M N) 0#32))
        (matmul (DotDims.transposedRhs M D N) none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32))
      = score Q H A := by
  funext i
  obtain ⟨p, l, rfl⟩ : ∃ (p : Fin M) (l : Fin N), i = ix2 p l := ⟨i 0, i 1, eq_ix2 i⟩
  rw [shapeCast_self Q hq, shapeCast_self H hk]
  show Scalar.select (adj (A (ix2 p l)))
      (matmul (DotDims.transposedRhs M D N) none (truncf .bf16 Q hlt) (truncf .bf16 H hlt) (constant (F := Ideal) (Mat M N) .f32 0x00000000#32) (ix2 p l)) negBig
    = Scalar.select (adj (A (ix2 p l))) (∑ k : Fin D, Q (ix2 p k) * H (ix2 l k)) negBig
  rw [rowsByRows11_apply]
  rfl

/-- The exponentials of the entries less their row's maximum, the maximum taken by a lane reduction and spread back as a column. -/
theorem expoChain11_eq (s : FVec Ideal (Mat M N) .f32) (h : (Mat M N).Reduces [1] (Vc M))
    (hcol : (Vc M).ShapeCasts (Mat M 1)) (hbc : (Mat M 1).Broadcasts (Mat M N))
    (hφ : FKind.Formats .f32) (hacc : (0xFF800000#32 : BitVec 32) = FKind.maximumf.neutral .f32 hφ) :
    exp (subf s (broadcastTo (Mat M N) (shapeCast (Mat M 1) (multiReduction (F := Ideal) .maximumf [1] (Vc M) s 0xFF800000#32 h hφ hacc) hcol) hbc))
      = expo s := by
  funext i
  obtain ⟨p, l, rfl⟩ : ∃ (p : Fin M) (l : Fin N), i = ix2 p l := ⟨i 0, i 1, eq_ix2 i⟩
  show Ideal.exp (s (ix2 p l)
      - broadcastTo (Mat M N) (shapeCast (Mat M 1) (multiReduction (F := Ideal) .maximumf [1] (Vc M) s 0xFF800000#32 h hφ hacc) hcol) hbc (ix2 p l))
    = Ideal.exp (s (ix2 p l) - rowMax s p)
  rw [colMax11_apply]

/-- THE CHAIN IS THE ATTENTION: scores S, their exponentials E less the row maximum, E over its row sum, that times the key
    rows' matrix, clamped at zero. -/
theorem attChain11_eq (d1 : DotDims (Mat M D) (Mat N D) (Mat M N)) (d2 : DotDims (Mat M N) (Mat N D) (Mat M D))
    (e1 : d1 = DotDims.transposedRhs M D N) (e2 : d2 = DotDims.plain M N D)
    (hlt : FTy.bits .bf16 < FTy.bits .f32) (hq : (Mat M D).ShapeCasts (Mat M D)) (hk : (Mat N D).ShapeCasts (Mat N D))
    (h : (Mat M N).Reduces [1] (Vc M)) (hcol : (Vc M).ShapeCasts (Mat M 1)) (hbc : (Mat M 1).Broadcasts (Mat M N))
    (hφ : FKind.Formats .f32) (hmax : (0xFF800000#32 : BitVec 32) = FKind.maximumf.neutral .f32 hφ)
    (hadd : (0x00000000#32 : BitVec 32) = FKind.add.neutral .f32 hφ)
    (Q : FVec Ideal (Mat M D) .f32) (H : FVec Ideal (Mat N D) .f32) (A : IVec (Mat M N) 32)
    (S E : FVec Ideal (Mat M N) .f32)
    (hS : S = select (cmpi .sgt A (broadcast (Mat M N) 0#32))
        (matmul d1 none (truncf .bf16 (shapeCast (Mat M D) Q hq) hlt) (truncf .bf16 (shapeCast (Mat N D) H hk) hlt)
          (constant (F := Ideal) (Mat M N) .f32 0x00000000#32))
        (broadcast (Mat M N) (Scalar.ofBits .f32 0xCE6E6B28#32 : Ideal .f32)))
    (hE : E = exp (subf S (broadcastTo (Mat M N) (shapeCast (Mat M 1) (multiReduction (F := Ideal) .maximumf [1] (Vc M) S 0xFF800000#32 h hφ hmax) hcol) hbc))) :
    maximumf
        (matmul d2 none
          (truncf .bf16 (divf E (broadcastTo (Mat M N) (shapeCast (Mat M 1) (multiReduction (F := Ideal) .add [1] (Vc M) E 0x00000000#32 h hφ hadd) hcol) hbc)) hlt)
          (truncf .bf16 (shapeCast (Mat N D) H hk) hlt) (constant (F := Ideal) (Mat M D) .f32 0x00000000#32))
        (broadcast (Mat M D) (Scalar.ofBits .f32 0x00000000#32 : Ideal .f32))
      = att Q H A := by
  subst e1 e2
  have hS' : S = score Q H A := hS.trans (scoreChain11_eq hlt hq hk Q H A)
  subst hS'
  have hE' : E = expo (score Q H A) := hE.trans (expoChain11_eq (score Q H A) h hcol hbc hφ hmax)
  subst hE'
  funext i
  obtain ⟨p, j, rfl⟩ : ∃ (p : Fin M) (j : Fin D), i = ix2 p j := ⟨i 0, i 1, eq_ix2 i⟩
  rw [shapeCast_self H hk]
  show max (matmul (DotDims.plain M N D) none
        (truncf .bf16 (divf (expo (score Q H A))
          (broadcastTo (Mat M N) (shapeCast (Mat M 1) (multiReduction (F := Ideal) .add [1] (Vc M) (expo (score Q H A)) 0x00000000#32 h hφ hadd) hcol) hbc)) hlt)
        (truncf .bf16 H hlt) (constant (F := Ideal) (Mat M D) .f32 0x00000000#32) (ix2 p j)) zero
    = max (∑ l : Fin N, Ideal.div (expo (score Q H A) (ix2 p l)) (∑ l' : Fin N, expo (score Q H A) (ix2 p l')) * H (ix2 l j)) zero
  rw [rowsByCols11_apply]
  refine congrArg (fun x => max x zero) (Finset.sum_congr rfl fun l _ => ?_)
  show Ideal.div (expo (score Q H A) (ix2 p l))
      (broadcastTo (Mat M N) (shapeCast (Mat M 1) (multiReduction (F := Ideal) .add [1] (Vc M) (expo (score Q H A)) 0x00000000#32 h hφ hadd) hcol) hbc (ix2 p l))
      * H (ix2 l j) = _
  rw [colSum11_apply]

end Chain

end Cert.Gat.AttChain

namespace Cert.KernelIdeal.Hand

open Cert.KernelIdeal Cert.KernelIdeal.Gen

/-- Region 11's stored value is the attention of its block of query rows over the key rows. -/
theorem pay11_eq (x0 : Vec Ideal S500x3 .f32) (x1 : Vec Ideal S500x3 .f32) (x2 : Vec Ideal S500x500 .i32) :
    Cert.KernelIdeal.Gen.k11_pay1 (F := Ideal) x0 x1 x2 = Cert.Gat.att x0 x1 x2 := by
  unfold Cert.KernelIdeal.Gen.k11_pay1
  exact Cert.Gat.AttChain.attChain11_eq dot_S500x3_S500x3_S500x500_1_1_0_0_n_n dot_S500x500_S500x3_S500x3_1_0_0_1_n_n rfl rfl
    bitsLt_bf16_f32 shapeCasts_S500x3_S500x3 shapeCasts_S500x3_S500x3 reduces_S500x500_S500 shapeCasts_S500_S500x1
    broadcasts_S500x1_S500x500 (.inl rfl) rfl rfl x0 x1 x2 _ _ rfl rfl

end Cert.KernelIdeal.Hand

end
-- ==== Proof.KI.PayFuse.lean ====
/-
  The fuse kernel's value, index by index, is the specification's fuse: the three maps, each multiplied by one entry
  of the three-entry weight vector, added up.  An entry of the weight vector is read as the one element of a
  one-element slice of it taken at that entry's offset.
-/
import proofs.«123632_j87531433492498_2_alg».proof.Proof.Gen.KernelIdeal.Skeleton
import proofs.«123632_j87531433492498_2_alg».proof.Proof.Gat.Spec
import Idealize.ShloMosaic.Lib.Pipeline.Value
import Idealize.ShloMosaic.Lib.ValueIdx

noncomputable section

open Idealize.ShloMosaic Idealize.ShloMosaic.ValueIdx

namespace Cert.KernelIdeal.Hand

/-- The one element of the one-element slice at offset o of a vector is the vector's entry o. -/
theorem slice_entry {n : ℕ} (w : (Cert.Gat.Vc n).Idx → EReal) (o : ℕ) (ho : o < n)
    (hs : (Cert.Gat.Vc n).Slices ![o] (Cert.Gat.Vc 1)) (hp : ∀ a, (![0] : Fin 1 → ℕ) a < (Cert.Gat.Vc 1).size a) :
    extractAt ![0] (extractStridedSlice (Cert.Gat.Vc 1) ![o] w hs) hp = w (ix1 ⟨o, ho⟩) := by
  unfold extractAt
  refine extractStridedSlice_apply _ w hs _ (ix1 ⟨o, ho⟩) fun a => ?_
  match a with
  | ⟨0, _⟩ => rfl

/-- The fuse kernel's value is the fuse of the three maps with the weight vector's three entries. -/
theorem pay12_eq (w : Vec Ideal Cert.KernelIdeal.S3 .f32) (s0 s1 s2 : Vec Ideal Cert.KernelIdeal.S128x3072 .f32) :
    Cert.KernelIdeal.Gen.k12_pay1 (F := Ideal) w s0 s1 s2 = Cert.Gat.fuse s0 s1 s2 w := by
  funext i
  unfold Cert.KernelIdeal.Gen.k12_pay1
  simp only [addf_apply, mulf_apply, broadcast_apply, shapeCast_self]
  rw [slice_entry w 0 (by decide), slice_entry w 1 (by decide), slice_entry w 2 (by decide)]
  rfl

end Cert.KernelIdeal.Hand

end
-- ==== Proof.KI.Value.lean ====
/-
  The kernel side's values, region by region: after each region its output array holds the specification's function of the
  arrays the region read.

  The program runs thirteen regions between host stretches, on three graph scales and a final fuse. On each scale a dense
  layer of the node features gives the hidden rows, attention of the hidden rows over themselves under the scale's adjacency
  words follows, then a second dense layer and a second attention; the last region fuses three maps with three weights. The
  contents of a core's buffers after each item are written out item by item (the contents `U j`); here each region's output
  array is read off them: it is the region's proof data's array after the last point, which is the layer, attention or fuse of
  the region's entry contents; and a buffer the region reads is either an earlier region's output, read where that region
  left it, or a launch buffer no item has written. For the latter: one item leaves every buffer it does not write as it was,
  so a buffer outside the list of all buffers written so far still holds the launch contents.
-/
import proofs.«123632_j87531433492498_2_alg».proof.Proof.KI.Vals
import proofs.«123632_j87531433492498_2_alg».proof.Proof.KI.Val0
import proofs.«123632_j87531433492498_2_alg».proof.Proof.KI.Val1
import proofs.«123632_j87531433492498_2_alg».proof.Proof.KI.Val2
import proofs.«123632_j87531433492498_2_alg».proof.Proof.KI.Val3
import proofs.«123632_j87531433492498_2_alg».proof.Proof.KI.Val4
import proofs.«123632_j87531433492498_2_alg».proof.Proof.KI.Val5
import proofs.«123632_j87531433492498_2_alg».proof.Proof.KI.Val6
import proofs.«123632_j87531433492498_2_alg».proof.Proof.KI.Val7
import proofs.«123632_j87531433492498_2_alg».proof.Proof.KI.Val8
import proofs.«123632_j87531433492498_2_alg».proof.Proof.KI.Val9
import proofs.«123632_j87531433492498_2_alg».proof.Proof.KI.Val10
import proofs.«123632_j87531433492498_2_alg».proof.Proof.KI.Val11
import proofs.«123632_j87531433492498_2_alg».proof.Proof.KI.Val12
import proofs.«123632_j87531433492498_2_alg».proof.Proof.KI.PayLin0
import proofs.«123632_j87531433492498_2_alg».proof.Proof.KI.PayLin2
import proofs.«123632_j87531433492498_2_alg».proof.Proof.KI.PayLin4
import proofs.«123632_j87531433492498_2_alg».proof.Proof.KI.PayLin6
import proofs.«123632_j87531433492498_2_alg».proof.Proof.KI.PayLin8
import proofs.«123632_j87531433492498_2_alg».proof.Proof.KI.PayLin10
import proofs.«123632_j87531433492498_2_alg».proof.Proof.KI.PayAtt1
import proofs.«123632_j87531433492498_2_alg».proof.Proof.KI.PayAtt3
import proofs.«123632_j87531433492498_2_alg».proof.Proof.KI.PayAtt5
import proofs.«123632_j87531433492498_2_alg».proof.Proof.KI.PayAtt7
import proofs.«123632_j87531433492498_2_alg».proof.Proof.KI.PayAtt9
import proofs.«123632_j87531433492498_2_alg».proof.Proof.KI.PayAtt11
import proofs.«123632_j87531433492498_2_alg».proof.Proof.KI.PayFuse
import proofs.«123632_j87531433492498_2_alg».proof.Proof.Gat.Spec

set_option maxRecDepth 16384

noncomputable section

namespace Cert.KernelIdeal.Hand.ValueAux

open Cert.KernelIdeal Cert.KernelIdeal.Gen Cert.KernelIdeal.Hand
open Idealize.ShloMosaic Idealize.ShloMosaic.TcCoe
open Idealize.SL.Sem

variable (m : (ℓ : Loc nD τ sig) → Buf (Elt Ideal) ℓ)

/-! ## What one item leaves unchanged

A region changes its output array alone; a host stretch changes the buffers it writes alone. -/

theorem stay1 (c : Dev nD) (r : Ref sig .tc) (h : r ≠ main_v0) : U1 m c r = U0 m c r := by
  unfold U1; exact Function.update_of_ne (StableHlo.devRef_ne_of_ne h) _ _
theorem stay2 (c : Dev nD) (r : Ref sig .tc) (h : r ≠ main_v1) : U2 m c r = U1 m c r := by
  unfold U2; exact Function.update_of_ne (StableHlo.devRef_ne_of_ne h) _ _
theorem stay3 (c : Dev nD) (r : Ref sig .tc) (h : r ≠ main_v2) : U3 m c r = U2 m c r := by
  unfold U3; exact Function.update_of_ne (StableHlo.devRef_ne_of_ne h) _ _
theorem stay4 (c : Dev nD) (r : Ref sig .tc) (h : r ≠ main_v3) : U4 m c r = U3 m c r := by
  unfold U4; exact Function.update_of_ne (StableHlo.devRef_ne_of_ne h) _ _
theorem stay5 (c : Dev nD) (r : Ref sig .tc) (h : r ∉ hostOps4_W) : U5 m c r = U4 m c r :=
  StableHlo.after_of_writes_sub hostOps4 _ hostOps4_writes h
theorem stay6 (c : Dev nD) (r : Ref sig .tc) (h : r ∉ hostOps4_1_W) : U6 m c r = U5 m c r :=
  StableHlo.after_of_writes_sub hostOps4_1 _ hostOps4_1_writes h
theorem stay7 (c : Dev nD) (r : Ref sig .tc) (h : r ≠ main_v23) : U7 m c r = U6 m c r := by
  unfold U7; exact Function.update_of_ne (StableHlo.devRef_ne_of_ne h) _ _
theorem stay8 (c : Dev nD) (r : Ref sig .tc) (h : r ≠ main_v24) : U8 m c r = U7 m c r := by
  unfold U8; exact Function.update_of_ne (StableHlo.devRef_ne_of_ne h) _ _
theorem stay9 (c : Dev nD) (r : Ref sig .tc) (h : r ≠ main_v25) : U9 m c r = U8 m c r := by
  unfold U9; exact Function.update_of_ne (StableHlo.devRef_ne_of_ne h) _ _
theorem stay10 (c : Dev nD) (r : Ref sig .tc) (h : r ≠ main_v26) : U10 m c r = U9 m c r := by
  unfold U10; exact Function.update_of_ne (StableHlo.devRef_ne_of_ne h) _ _
theorem stay11 (c : Dev nD) (r : Ref sig .tc) (h : r ∉ hostOps8_W) : U11 m c r = U10 m c r :=
  StableHlo.after_of_writes_sub hostOps8 _ hostOps8_writes h
theorem stay12 (c : Dev nD) (r : Ref sig .tc) (h : r ∉ hostOps8_1_W) : U12 m c r = U11 m c r :=
  StableHlo.after_of_writes_sub hostOps8_1 _ hostOps8_1_writes h
theorem stay13 (c : Dev nD) (r : Ref sig .tc) (h : r ≠ main_v46) : U13 m c r = U12 m c r := by
  unfold U13; exact Function.update_of_ne (StableHlo.devRef_ne_of_ne h) _ _
theorem stay14 (c : Dev nD) (r : Ref sig .tc) (h : r ≠ main_v47) : U14 m c r = U13 m c r := by
  unfold U14; exact Function.update_of_ne (StableHlo.devRef_ne_of_ne h) _ _
theorem stay15 (c : Dev nD) (r : Ref sig .tc) (h : r ≠ main_v48) : U15 m c r = U14 m c r := by
  unfold U15; exact Function.update_of_ne (StableHlo.devRef_ne_of_ne h) _ _
theorem stay16 (c : Dev nD) (r : Ref sig .tc) (h : r ≠ main_v49) : U16 m c r = U15 m c r := by
  unfold U16; exact Function.update_of_ne (StableHlo.devRef_ne_of_ne h) _ _
theorem stay17 (c : Dev nD) (r : Ref sig .tc) (h : r ∉ hostOps12_W) : U17 m c r = U16 m c r :=
  StableHlo.after_of_writes_sub hostOps12 _ hostOps12_writes h
theorem stay18 (c : Dev nD) (r : Ref sig .tc) (h : r ∉ hostOps12_1_W) : U18 m c r = U17 m c r :=
  StableHlo.after_of_writes_sub hostOps12_1 _ hostOps12_1_writes h

/-! ## A buffer no item so far writes still holds the launch contents

`WrUpTo j` lists the buffers items 1 to j write; off it, the contents after item j are the launch's. -/

abbrev WrUpTo0 : List (Ref sig .tc) := []
theorem asLaunched0 (c : Dev nD) (r : Ref sig .tc) (h : r ∉ WrUpTo0) : U0 m c r = m (c, r) := rfl

abbrev WrUpTo1 : List (Ref sig .tc) := main_v0 :: WrUpTo0
theorem asLaunched1 (c : Dev nD) (r : Ref sig .tc) (h : r ∉ WrUpTo1) : U1 m c r = m (c, r) :=
  (stay1 m c r (List.ne_of_not_mem_cons h)).trans (asLaunched0 m c r (List.not_mem_of_not_mem_cons h))
abbrev WrUpTo2 : List (Ref sig .tc) := main_v1 :: WrUpTo1
theorem asLaunched2 (c : Dev nD) (r : Ref sig .tc) (h : r ∉ WrUpTo2) : U2 m c r = m (c, r) :=
  (stay2 m c r (List.ne_of_not_mem_cons h)).trans (asLaunched1 m c r (List.not_mem_of_not_mem_cons h))
abbrev WrUpTo3 : List (Ref sig .tc) := main_v2 :: WrUpTo2
theorem asLaunched3 (c : Dev nD) (r : Ref sig .tc) (h : r ∉ WrUpTo3) : U3 m c r = m (c, r) :=
  (stay3 m c r (List.ne_of_not_mem_cons h)).trans (asLaunched2 m c r (List.not_mem_of_not_mem_cons h))
abbrev WrUpTo4 : List (Ref sig .tc) := main_v3 :: WrUpTo3
theorem asLaunched4 (c : Dev nD) (r : Ref sig .tc) (h : r ∉ WrUpTo4) : U4 m c r = m (c, r) :=
  (stay4 m c r (List.ne_of_not_mem_cons h)).trans (asLaunched3 m c r (List.not_mem_of_not_mem_cons h))
abbrev WrUpTo5 : List (Ref sig .tc) := hostOps4_W ++ WrUpTo4
theorem asLaunched5 (c : Dev nD) (r : Ref sig .tc) (h : r ∉ WrUpTo5) : U5 m c r = m (c, r) :=
  (stay5 m c r (fun hm => h (List.mem_append_left _ hm))).trans (asLaunched4 m c r (fun hm => h (List.mem_append_right _ hm)))
abbrev WrUpTo6 : List (Ref sig .tc) := hostOps4_1_W ++ WrUpTo5
theorem asLaunched6 (c : Dev nD) (r : Ref sig .tc) (h : r ∉ WrUpTo6) : U6 m c r = m (c, r) :=
  (stay6 m c r (fun hm => h (List.mem_append_left _ hm))).trans (asLaunched5 m c r (fun hm => h (List.mem_append_right _ hm)))
abbrev WrUpTo7 : List (Ref sig .tc) := main_v23 :: WrUpTo6
theorem asLaunched7 (c : Dev nD) (r : Ref sig .tc) (h : r ∉ WrUpTo7) : U7 m c r = m (c, r) :=
  (stay7 m c r (List.ne_of_not_mem_cons h)).trans (asLaunched6 m c r (List.not_mem_of_not_mem_cons h))
abbrev WrUpTo8 : List (Ref sig .tc) := main_v24 :: WrUpTo7
theorem asLaunched8 (c : Dev nD) (r : Ref sig .tc) (h : r ∉ WrUpTo8) : U8 m c r = m (c, r) :=
  (stay8 m c r (List.ne_of_not_mem_cons h)).trans (asLaunched7 m c r (List.not_mem_of_not_mem_cons h))
abbrev WrUpTo9 : List (Ref sig .tc) := main_v25 :: WrUpTo8
theorem asLaunched9 (c : Dev nD) (r : Ref sig .tc) (h : r ∉ WrUpTo9) : U9 m c r = m (c, r) :=
  (stay9 m c r (List.ne_of_not_mem_cons h)).trans (asLaunched8 m c r (List.not_mem_of_not_mem_cons h))
abbrev WrUpTo10 : List (Ref sig .tc) := main_v26 :: WrUpTo9
theorem asLaunched10 (c : Dev nD) (r : Ref sig .tc) (h : r ∉ WrUpTo10) : U10 m c r = m (c, r) :=
  (stay10 m c r (List.ne_of_not_mem_cons h)).trans (asLaunched9 m c r (List.not_mem_of_not_mem_cons h))
abbrev WrUpTo11 : List (Ref sig .tc) := hostOps8_W ++ WrUpTo10
theorem asLaunched11 (c : Dev nD) (r : Ref sig .tc) (h : r ∉ WrUpTo11) : U11 m c r = m (c, r) :=
  (stay11 m c r (fun hm => h (List.mem_append_left _ hm))).trans (asLaunched10 m c r (fun hm => h (List.mem_append_right _ hm)))
abbrev WrUpTo12 : List (Ref sig .tc) := hostOps8_1_W ++ WrUpTo11
theorem asLaunched12 (c : Dev nD) (r : Ref sig .tc) (h : r ∉ WrUpTo12) : U12 m c r = m (c, r) :=
  (stay12 m c r (fun hm => h (List.mem_append_left _ hm))).trans (asLaunched11 m c r (fun hm => h (List.mem_append_right _ hm)))
abbrev WrUpTo13 : List (Ref sig .tc) := main_v46 :: WrUpTo12
theorem asLaunched13 (c : Dev nD) (r : Ref sig .tc) (h : r ∉ WrUpTo13) : U13 m c r = m (c, r) :=
  (stay13 m c r (List.ne_of_not_mem_cons h)).trans (asLaunched12 m c r (List.not_mem_of_not_mem_cons h))
abbrev WrUpTo14 : List (Ref sig .tc) := main_v47 :: WrUpTo13
theorem asLaunched14 (c : Dev nD) (r : Ref sig .tc) (h : r ∉ WrUpTo14) : U14 m c r = m (c, r) :=
  (stay14 m c r (List.ne_of_not_mem_cons h)).trans (asLaunched13 m c r (List.not_mem_of_not_mem_cons h))
abbrev WrUpTo15 : List (Ref sig .tc) := main_v48 :: WrUpTo14
theorem asLaunched15 (c : Dev nD) (r : Ref sig .tc) (h : r ∉ WrUpTo15) : U15 m c r = m (c, r) :=
  (stay15 m c r (List.ne_of_not_mem_cons h)).trans (asLaunched14 m c r (List.not_mem_of_not_mem_cons h))
abbrev WrUpTo16 : List (Ref sig .tc) := main_v49 :: WrUpTo15
theorem asLaunched16 (c : Dev nD) (r : Ref sig .tc) (h : r ∉ WrUpTo16) : U16 m c r = m (c, r) :=
  (stay16 m c r (List.ne_of_not_mem_cons h)).trans (asLaunched15 m c r (List.not_mem_of_not_mem_cons h))
abbrev WrUpTo17 : List (Ref sig .tc) := hostOps12_W ++ WrUpTo16
theorem asLaunched17 (c : Dev nD) (r : Ref sig .tc) (h : r ∉ WrUpTo17) : U17 m c r = m (c, r) :=
  (stay17 m c r (fun hm => h (List.mem_append_left _ hm))).trans (asLaunched16 m c r (fun hm => h (List.mem_append_right _ hm)))
abbrev WrUpTo18 : List (Ref sig .tc) := hostOps12_1_W ++ WrUpTo17
theorem asLaunched18 (c : Dev nD) (r : Ref sig .tc) (h : r ∉ WrUpTo18) : U18 m c r = m (c, r) :=
  (stay18 m c r (fun hm => h (List.mem_append_left _ hm))).trans (asLaunched17 m c r (fun hm => h (List.mem_append_right _ hm)))

end Cert.KernelIdeal.Hand.ValueAux

namespace Cert.KernelIdeal.Hand

open Cert.KernelIdeal Cert.KernelIdeal.Gen Cert.KernelIdeal.Hand.ValueAux
open Idealize.ShloMosaic Idealize.ShloMosaic.TcCoe
open Idealize.SL.Sem

variable (m : (ℓ : Loc nD τ sig) → Buf (Elt Ideal) ℓ)

/-! ## The chain of values

Each region's output array, after the region, is the specification's function of the buffers the region read: those an
earlier region wrote are read where that region left them, the others are the launch's. -/

/-- After region 0, `main_v0` is the dense layer of `main_arg0`, `main_arg9`, `main_arg10`. -/
theorem u1_v0 (c : Dev nD) :
    U1 m c main_v0 = Cert.Gat.lin (m (c, main_arg0)) (m (c, main_arg9)) (m (c, main_arg10)) := by
  unfold U1
  rw [Function.update_self]
  exact val0 (fun c b => U0 m c b) c pay0_eq

/-- After region 1, `main_v1` is the attention of `main_v0` over itself under the adjacency `main_arg3`. -/
theorem u2_v1 (c : Dev nD) :
    U2 m c main_v1 = Cert.Gat.att (U1 m c main_v0) (U1 m c main_v0) (m (c, main_arg3)) := by
  unfold U2
  rw [Function.update_self, val1 (fun c b => U1 m c b) c pay1_eq]
  rw [asLaunched1 m c main_arg3 (by decide)]

/-- After region 2, `main_v2` is the dense layer of `main_v1`, `main_arg11`, `main_arg12`. -/
theorem u3_v2 (c : Dev nD) :
    U3 m c main_v2 = Cert.Gat.lin (U2 m c main_v1) (m (c, main_arg11)) (m (c, main_arg12)) := by
  unfold U3
  rw [Function.update_self, val2 (fun c b => U2 m c b) c pay2_eq]
  rw [asLaunched2 m c main_arg11 (by decide), asLaunched2 m c main_arg12 (by decide)]

/-- After region 3, `main_v3` is the attention of `main_v2` over itself under the adjacency `main_arg3`. -/
theorem u4_v3 (c : Dev nD) :
    U4 m c main_v3 = Cert.Gat.att (U3 m c main_v2) (U3 m c main_v2) (m (c, main_arg3)) := by
  unfold U4
  rw [Function.update_self, val3 (fun c b => U3 m c b) c pay3_eq]
  rw [asLaunched3 m c main_arg3 (by decide)]

/-- After region 4, `main_v23` is the dense layer of `main_arg1`, `main_arg13`, `main_arg14`. -/
theorem u7_v23 (c : Dev nD) :
    U7 m c main_v23 = Cert.Gat.lin (m (c, main_arg1)) (m (c, main_arg13)) (m (c, main_arg14)) := by
  unfold U7
  rw [Function.update_self, val4 (fun c b => U6 m c b) c pay4_eq]
  rw [asLaunched6 m c main_arg1 (by decide), asLaunched6 m c main_arg13 (by decide), asLaunched6 m c main_arg14 (by decide)]

/-- After region 5, `main_v24` is the attention of `main_v23` over itself under the adjacency `main_arg4`. -/
theorem u8_v24 (c : Dev nD) :
    U8 m c main_v24 = Cert.Gat.att (U7 m c main_v23) (U7 m c main_v23) (m (c, main_arg4)) := by
  unfold U8
  rw [Function.update_self, val5 (fun c b => U7 m c b) c pay5_eq]
  rw [asLaunched7 m c main_arg4 (by decide)]

/-- After region 6, `main_v25` is the dense layer of `main_v24`, `main_arg15`, `main_arg16`. -/
theorem u9_v25 (c : Dev nD) :
    U9 m c main_v25 = Cert.Gat.lin (U8 m c main_v24) (m (c, main_arg15)) (m (c, main_arg16)) := by
  unfold U9
  rw [Function.update_self, val6 (fun c b => U8 m c b) c pay6_eq]
  rw [asLaunched8 m c main_arg15 (by decide), asLaunched8 m c main_arg16 (by decide)]

/-- After region 7, `main_v26` is the attention of `main_v25` over itself under the adjacency `main_arg4`. -/
theorem u10_v26 (c : Dev nD) :
    U10 m c main_v26 = Cert.Gat.att (U9 m c main_v25) (U9 m c main_v25) (m (c, main_arg4)) := by
  unfold U10
  rw [Function.update_self, val7 (fun c b => U9 m c b) c pay7_eq]
  rw [asLaunched9 m c main_arg4 (by decide)]

/-- After region 8, `main_v46` is the dense layer of `main_arg2`, `main_arg17`, `main_arg18`. -/
theorem u13_v46 (c : Dev nD) :
    U13 m c main_v46 = Cert.Gat.lin (m (c, main_arg2)) (m (c, main_arg17)) (m (c, main_arg18)) := by
  unfold U13
  rw [Function.update_self, val8 (fun c b => U12 m c b) c pay8_eq]
  rw [asLaunched12 m c main_arg2 (by decide), asLaunched12 m c main_arg17 (by decide), asLaunched12 m c main_arg18 (by decide)]

/-- After region 9, `main_v47` is the attention of `main_v46` over itself under the adjacency `main_arg5`. -/
theorem u14_v47 (c : Dev nD) :
    U14 m c main_v47 = Cert.Gat.att (U13 m c main_v46) (U13 m c main_v46) (m (c, main_arg5)) := by
  unfold U14
  rw [Function.update_self, val9 (fun c b => U13 m c b) c pay9_eq]
  rw [asLaunched13 m c main_arg5 (by decide)]

/-- After region 10, `main_v48` is the dense layer of `main_v47`, `main_arg19`, `main_arg20`. -/
theorem u15_v48 (c : Dev nD) :
    U15 m c main_v48 = Cert.Gat.lin (U14 m c main_v47) (m (c, main_arg19)) (m (c, main_arg20)) := by
  unfold U15
  rw [Function.update_self, val10 (fun c b => U14 m c b) c pay10_eq]
  rw [asLaunched14 m c main_arg19 (by decide), asLaunched14 m c main_arg20 (by decide)]

/-- After region 11, `main_v49` is the attention of `main_v48` over itself under the adjacency `main_arg5`. -/
theorem u16_v49 (c : Dev nD) :
    U16 m c main_v49 = Cert.Gat.att (U15 m c main_v48) (U15 m c main_v48) (m (c, main_arg5)) := by
  unfold U16
  rw [Function.update_self, val11 (fun c b => U15 m c b) c pay11_eq]
  rw [asLaunched15 m c main_arg5 (by decide)]

/-- After region 12, `main_v82` is the fuse of `main_v79`, `main_v80`, `main_v81` with the weights `main_v78`. -/
theorem u19_v82 (c : Dev nD) :
    U19 m c main_v82 = Cert.Gat.fuse (U18 m c main_v79) (U18 m c main_v80) (U18 m c main_v81) (U18 m c main_v78) := by
  unfold U19
  rw [Function.update_self, val12 (fun c b => U18 m c b) c pay12_eq]

end Cert.KernelIdeal.Hand

end
-- ==== Proof.KI.HostK.lean ====
/-
  The host stretches of the program read as functions of what they read.

  * At each of the three scales (2000, 1000, 500 nodes) the stretch after the attention block takes the block's output, a
    map of nodes × 3, clamps it at zero, takes the softmax over its 3 columns (the row maximum from -∞, the maximum with
    -∞, the difference, the exponential, the row sum from 0, the quotient), reads the segment map's node index (a negative
    index counted from the end), and gathers: the result at (r, w, e) is the softmax's entry (index (r, w), e).
  * The three scale weights pass through the same softmax, over their one axis.
  * The three gathered maps are laid out as 1024 × 3072, entry (r, 3·w + e) being the entry (r, w, e), for the fuse; its
    output is laid back as 1024 × 1024 × 3.
  So the final map at (r, w, e) is the fuse of the three gathered maps at (r, w, e) with the three softmaxed weights.
-/
import proofs.«123632_j87531433492498_2_alg».proof.Proof.KI.Vals
import proofs.«123632_j87531433492498_2_alg».proof.Proof.Gat.Spec
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ)

/-! ## The stretches as functions -/

/-- A map of 2000 × 3 clamped at zero: the maximum with the zero word broadcast. -/
def krelu0 (x : FVec Ideal S2000x3 .f32) : FVec Ideal S2000x3 .f32 :=
  maximumf x (broadcastInDim S2000x3 ![] bcast_S_S2000x3 (constant (F := Ideal) S_ .f32 0x00000000#32))
/-- A map of 1000 × 3 clamped at zero. -/
def krelu1 (x : FVec Ideal S1000x3 .f32) : FVec Ideal S1000x3 .f32 :=
  maximumf x (broadcastInDim S1000x3 ![] bcast_S_S1000x3 (constant (F := Ideal) S_ .f32 0x00000000#32))
/-- A map of 500 × 3 clamped at zero. -/
def krelu2 (x : FVec Ideal S500x3 .f32) : FVec Ideal S500x3 .f32 :=
  maximumf x (broadcastInDim S500x3 ![] bcast_S_S500x3 (constant (F := Ideal) S_ .f32 0x00000000#32))

/-- The softmax over the 3 columns of a 2000 × 3 map: the exponentials of the entries less their row's maximum (taken from
    -∞, then once more against -∞), over their row's sum (taken from 0). -/
def ksoft0 (x : FVec Ideal S2000x3 .f32) : FVec Ideal S2000x3 .f32 :=
  let e : FVec Ideal S2000x3 .f32 :=
    Host.exp (F := Ideal) (subf x
      (broadcastInDim S2000x3 ![0, 1] bcast_S2000x1_S2000x3_0_1
        (broadcastInDim S2000x1 ![0] bcast_S2000_S2000x1_0
          (maximumf (broadcastInDim S2000 ![] bcast_S_S2000 (constant (F := Ideal) S_ .f32 0xFF800000#32))
            (Host.reduce (FloatOps.maximumf (F := Ideal) (φ := .f32)) x (constant (F := Ideal) S_ .f32 0xFF800000#32)
              reducesTo_S2000x3_S2000_d1 h_S_)))))
  Host.divf (F := Ideal) e
    (broadcastInDim S2000x3 ![0, 1] bcast_S2000x1_S2000x3_0_1
      (broadcastInDim S2000x1 ![0] bcast_S2000_S2000x1_0
        (Host.reduceAdd (F := Ideal) e (constant (F := Ideal) S_ .f32 0x00000000#32) reducesTo_S2000x3_S2000_d1 h_S_)))
/-- The softmax over the 3 columns of a 1000 × 3 map. -/
def ksoft1 (x : FVec Ideal S1000x3 .f32) : FVec Ideal S1000x3 .f32 :=
  let e : FVec Ideal S1000x3 .f32 :=
    Host.exp (F := Ideal) (subf x
      (broadcastInDim S1000x3 ![0, 1] bcast_S1000x1_S1000x3_0_1
        (broadcastInDim S1000x1 ![0] bcast_S1000_S1000x1_0
          (maximumf (broadcastInDim S1000 ![] bcast_S_S1000 (constant (F := Ideal) S_ .f32 0xFF800000#32))
            (Host.reduce (FloatOps.maximumf (F := Ideal) (φ := .f32)) x (constant (F := Ideal) S_ .f32 0xFF800000#32)
              reducesTo_S1000x3_S1000_d1 h_S_)))))
  Host.divf (F := Ideal) e
    (broadcastInDim S1000x3 ![0, 1] bcast_S1000x1_S1000x3_0_1
      (broadcastInDim S1000x1 ![0] bcast_S1000_S1000x1_0
        (Host.reduceAdd (F := Ideal) e (constant (F := Ideal) S_ .f32 0x00000000#32) reducesTo_S1000x3_S1000_d1 h_S_)))
/-- The softmax over the 3 columns of a 500 × 3 map. -/
def ksoft2 (x : FVec Ideal S500x3 .f32) : FVec Ideal S500x3 .f32 :=
  let e : FVec Ideal S500x3 .f32 :=
    Host.exp (F := Ideal) (subf x
      (broadcastInDim S500x3 ![0, 1] bcast_S500x1_S500x3_0_1
        (broadcastInDim S500x1 ![0] bcast_S500_S500x1_0
          (maximumf (broadcastInDim S500 ![] bcast_S_S500 (constant (F := Ideal) S_ .f32 0xFF800000#32))
            (Host.reduce (FloatOps.maximumf (F := Ideal) (φ := .f32)) x (constant (F := Ideal) S_ .f32 0xFF800000#32)
              reducesTo_S500x3_S500_d1 h_S_)))))
  Host.divf (F := Ideal) e
    (broadcastInDim S500x3 ![0, 1] bcast_S500x1_S500x3_0_1
      (broadcastInDim S500x1 ![0] bcast_S500_S500x1_0
        (Host.reduceAdd (F := Ideal) e (constant (F := Ideal) S_ .f32 0x00000000#32) reducesTo_S500x3_S500_d1 h_S_)))

/-- The segment map's node index made non-negative: an index below zero has the node count n added; laid out with a
    trailing unit axis. -/
def knorm (n : BitVec 32) (seg : IVec S1024x1024 32) : IVec S1024x1024x1 32 :=
  broadcastInDim S1024x1024x1 ![0, 1] bcast_S1024x1024_S1024x1024x1_0_1
    (select (cmpi .slt seg (broadcastInDim S1024x1024 ![] bcast_S_S1024x1024 (constantI S_ 32 0#32)))
      (addi seg (broadcastInDim S1024x1024 ![] bcast_S_S1024x1024 (constantI S_ 32 n))) seg)

/-- Scale 0 after its attention block: clamp at zero, softmax over the columns, gather the rows the segment map names. -/
def ktail0 (x : FVec Ideal S2000x3 .f32) (seg : IVec S1024x1024 32) : FVec Ideal S1024x1024x3 .f32 :=
  Host.gather gather_S2000x3_S1024x1024x1_S1024x1024x3_2_0_n_n_0_2_13 (ksoft0 (krelu0 x)) (knorm 2000#32 seg)
/-- Scale 1 after its attention block. -/
def ktail1 (x : FVec Ideal S1000x3 .f32) (seg : IVec S1024x1024 32) : FVec Ideal S1024x1024x3 .f32 :=
  Host.gather gather_S1000x3_S1024x1024x1_S1024x1024x3_2_0_n_n_0_2_13 (ksoft1 (krelu1 x)) (knorm 1000#32 seg)
/-- Scale 2 after its attention block. -/
def ktail2 (x : FVec Ideal S500x3 .f32) (seg : IVec S1024x1024 32) : FVec Ideal S1024x1024x3 .f32 :=
  Host.gather gather_S500x3_S1024x1024x1_S1024x1024x3_2_0_n_n_0_2_13 (ksoft2 (krelu2 x)) (knorm 500#32 seg)

/-- The softmax of the three scale weights. -/
def kwsoft (sw : FVec Ideal S3 .f32) : FVec Ideal S3 .f32 :=
  let e : FVec Ideal S3 .f32 :=
    Host.exp (F := Ideal) (subf sw
      (broadcastInDim S3 ![0] bcast_S1_S3_0
        (broadcastInDim S1 ![] bcast_S_S1
          (maximumf (constant (F := Ideal) S_ .f32 0xFF800000#32)
            (Host.reduce (FloatOps.maximumf (F := Ideal) (φ := .f32)) sw (constant (F := Ideal) S_ .f32 0xFF800000#32)
              reducesTo_S3_S_d0 h_S_)))))
  Host.divf (F := Ideal) e
    (broadcastInDim S3 ![0] bcast_S1_S3_0
      (broadcastInDim S1 ![] bcast_S_S1
        (Host.reduceAdd (F := Ideal) e (constant (F := Ideal) S_ .f32 0x00000000#32) reducesTo_S3_S_d0 h_S_)))

/-- A 1024 × 1024 × 3 map laid out as 1024 × 3072, in row-major order. -/
def kflat {α : Type} (s : S1024x1024x3.Idx → α) : S1024x3072.Idx → α :=
  shapeCast S1024x3072 s shapeCasts_S1024x1024x3_S1024x3072
/-- A 1024 × 3072 map laid out as 1024 × 1024 × 3, in row-major order. -/
def kunflat {α : Type} (t : S1024x3072.Idx → α) : S1024x1024x3.Idx → α :=
  shapeCast S1024x1024x3 t shapeCasts_S1024x3072_S1024x1024x3

theorem kflat_eq {α : Type} (s : S1024x1024x3.Idx → α) :
    kflat s = shapeCast S1024x3072 s shapeCasts_S1024x1024x3_S1024x3072 := rfl
theorem kunflat_eq {α : Type} (t : S1024x3072.Idx → α) :
    kunflat t = shapeCast S1024x1024x3 t shapeCasts_S1024x3072_S1024x1024x3 := rfl

/-! ## What each item leaves unchanged -/

section Keep
variable (c : Dev nD) (r : Ref sig .tc)

theorem U1_of (h : r ≠ main_v0) : U1 m c r = U0 m c r := Function.update_of_ne (StableHlo.devRef_ne_of_ne h) _ _
theorem U2_of (h : r ≠ main_v1) : U2 m c r = U1 m c r := Function.update_of_ne (StableHlo.devRef_ne_of_ne h) _ _
theorem U3_of (h : r ≠ main_v2) : U3 m c r = U2 m c r := Function.update_of_ne (StableHlo.devRef_ne_of_ne h) _ _
theorem U4_of (h : r ≠ main_v3) : U4 m c r = U3 m c r := Function.update_of_ne (StableHlo.devRef_ne_of_ne h) _ _
theorem U5_of (h : r ∉ hostOps4_W) : U5 m c r = U4 m c r := StableHlo.after_of_writes_sub hostOps4 _ hostOps4_writes h
theorem U6_of (h : r ∉ hostOps4_1_W) : U6 m c r = U5 m c r := StableHlo.after_of_writes_sub hostOps4_1 _ hostOps4_1_writes h
theorem U7_of (h : r ≠ main_v23) : U7 m c r = U6 m c r := Function.update_of_ne (StableHlo.devRef_ne_of_ne h) _ _
theorem U8_of (h : r ≠ main_v24) : U8 m c r = U7 m c r := Function.update_of_ne (StableHlo.devRef_ne_of_ne h) _ _
theorem U9_of (h : r ≠ main_v25) : U9 m c r = U8 m c r := Function.update_of_ne (StableHlo.devRef_ne_of_ne h) _ _
theorem U10_of (h : r ≠ main_v26) : U10 m c r = U9 m c r := Function.update_of_ne (StableHlo.devRef_ne_of_ne h) _ _
theorem U11_of (h : r ∉ hostOps8_W) : U11 m c r = U10 m c r := StableHlo.after_of_writes_sub hostOps8 _ hostOps8_writes h
theorem U12_of (h : r ∉ hostOps8_1_W) : U12 m c r = U11 m c r := StableHlo.after_of_writes_sub hostOps8_1 _ hostOps8_1_writes h
theorem U13_of (h : r ≠ main_v46) : U13 m c r = U12 m c r := Function.update_of_ne (StableHlo.devRef_ne_of_ne h) _ _
theorem U14_of (h : r ≠ main_v47) : U14 m c r = U13 m c r := Function.update_of_ne (StableHlo.devRef_ne_of_ne h) _ _
theorem U15_of (h : r ≠ main_v48) : U15 m c r = U14 m c r := Function.update_of_ne (StableHlo.devRef_ne_of_ne h) _ _
theorem U16_of (h : r ≠ main_v49) : U16 m c r = U15 m c r := Function.update_of_ne (StableHlo.devRef_ne_of_ne h) _ _
theorem U17_of (h : r ∉ hostOps12_W) : U17 m c r = U16 m c r := StableHlo.after_of_writes_sub hostOps12 _ hostOps12_writes h
theorem U18_of (h : r ∉ hostOps12_1_W) : U18 m c r = U17 m c r := StableHlo.after_of_writes_sub hostOps12_1 _ hostOps12_1_writes h
theorem U19_of (h : r ≠ main_v82) : U19 m c r = U18 m c r := Function.update_of_ne (StableHlo.devRef_ne_of_ne h) _ _
theorem U20_of (h : r ∉ hostOps13_W) : U20 m c r = U19 m c r := StableHlo.after_of_writes_sub hostOps13 _ hostOps13_writes h

/-- The first attention block's four regions leave a buffer that is none of their outputs as launched. -/
theorem U4_launch (h0 : r ≠ main_v0) (h1 : r ≠ main_v1) (h2 : r ≠ main_v2) (h3 : r ≠ main_v3) : U4 m c r = m (c, r) :=
  (U4_of m c r h3).trans ((U3_of m c r h2).trans ((U2_of m c r h1).trans (U1_of m c r h0)))
/-- The second block's four regions leave a buffer that is none of their outputs as it was. -/
theorem U10_U6 (h0 : r ≠ main_v23) (h1 : r ≠ main_v24) (h2 : r ≠ main_v25) (h3 : r ≠ main_v26) : U10 m c r = U6 m c r :=
  (U10_of m c r h3).trans ((U9_of m c r h2).trans ((U8_of m c r h1).trans (U7_of m c r h0)))
/-- The third block's four regions leave a buffer that is none of their outputs as it was. -/
theorem U16_U12 (h0 : r ≠ main_v46) (h1 : r ≠ main_v47) (h2 : r ≠ main_v48) (h3 : r ≠ main_v49) : U16 m c r = U12 m c r :=
  (U16_of m c r h3).trans ((U15_of m c r h2).trans ((U14_of m c r h1).trans (U13_of m c r h0)))

end Keep

/-! ## The buffers a later item reads, as an earlier item left them -/

theorem U5_arg6 (c : Dev nD) : U5 m c main_arg6 = m (c, main_arg6) :=
  (U5_of m c main_arg6 (by decide)).trans (U4_launch m c main_arg6 (by decide) (by decide) (by decide) (by decide))
theorem U6_launch (c : Dev nD) (r : Ref sig .tc) (h0 : r ≠ main_v0) (h1 : r ≠ main_v1) (h2 : r ≠ main_v2) (h3 : r ≠ main_v3)
    (h4 : r ∉ hostOps4_W) (h5 : r ∉ hostOps4_1_W) : U6 m c r = m (c, r) :=
  (U6_of m c r h5).trans ((U5_of m c r h4).trans (U4_launch m c r h0 h1 h2 h3))
theorem U11_arg7 (c : Dev nD) : U11 m c main_arg7 = m (c, main_arg7) :=
  (U11_of m c main_arg7 (by decide)).trans ((U10_U6 m c main_arg7 (by decide) (by decide) (by decide) (by decide)).trans
    (U6_launch m c main_arg7 (by decide) (by decide) (by decide) (by decide) (by decide) (by decide)))
theorem U12_launch (c : Dev nD) (r : Ref sig .tc) (h0 : r ≠ main_v0) (h1 : r ≠ main_v1) (h2 : r ≠ main_v2) (h3 : r ≠ main_v3)
    (h4 : r ∉ hostOps4_W) (h5 : r ∉ hostOps4_1_W) (h6 : r ≠ main_v23) (h7 : r ≠ main_v24) (h8 : r ≠ main_v25) (h9 : r ≠ main_v26)
    (h10 : r ∉ hostOps8_W) (h11 : r ∉ hostOps8_1_W) : U12 m c r = m (c, r) :=
  (U12_of m c r h11).trans ((U11_of m c r h10).trans ((U10_U6 m c r h6 h7 h8 h9).trans (U6_launch m c r h0 h1 h2 h3 h4 h5)))
theorem U17_launch (c : Dev nD) (r : Ref sig .tc) (h0 : r ≠ main_v0) (h1 : r ≠ main_v1) (h2 : r ≠ main_v2) (h3 : r ≠ main_v3)
    (h4 : r ∉ hostOps4_W) (h5 : r ∉ hostOps4_1_W) (h6 : r ≠ main_v23) (h7 : r ≠ main_v24) (h8 : r ≠ main_v25) (h9 : r ≠ main_v26)
    (h10 : r ∉ hostOps8_W) (h11 : r ∉ hostOps8_1_W) (h12 : r ≠ main_v46) (h13 : r ≠ main_v47) (h14 : r ≠ main_v48) (h15 : r ≠ main_v49)
    (h16 : r ∉ hostOps12_W) : U17 m c r = m (c, r) :=
  (U17_of m c r h16).trans ((U16_U12 m c r h12 h13 h14 h15).trans (U12_launch m c r h0 h1 h2 h3 h4 h5 h6 h7 h8 h9 h10 h11))
theorem U17_arg8 (c : Dev nD) : U17 m c main_arg8 = m (c, main_arg8) :=
  U17_launch m c main_arg8 (by decide) (by decide) (by decide) (by decide) (by decide) (by decide) (by decide) (by decide) (by decide)
    (by decide) (by decide) (by decide) (by decide) (by decide) (by decide) (by decide) (by decide)
theorem U17_arg21 (c : Dev nD) : U17 m c main_arg21 = m (c, main_arg21) :=
  U17_launch m c main_arg21 (by decide) (by decide) (by decide) (by decide) (by decide) (by decide) (by decide) (by decide) (by decide)
    (by decide) (by decide) (by decide) (by decide) (by decide) (by decide) (by decide) (by decide)

/-- Scale 0's gathered map is still there when the last stretch begins. -/
theorem U17_v22 (c : Dev nD) : U17 m c main_v22 = U6 m c main_v22 :=
  (U17_of m c main_v22 (by decide)).trans ((U16_U12 m c main_v22 (by decide) (by decide) (by decide) (by decide)).trans
    ((U12_of m c main_v22 (by decide)).trans ((U11_of m c main_v22 (by decide)).trans
      (U10_U6 m c main_v22 (by decide) (by decide) (by decide) (by decide)))))
/-- Scale 1's gathered map is still there when the last stretch begins. -/
theorem U17_v45 (c : Dev nD) : U17 m c main_v45 = U12 m c main_v45 :=
  (U17_of m c main_v45 (by decide)).trans (U16_U12 m c main_v45 (by decide) (by decide) (by decide) (by decide))
/-- The last stretch does not write scale 0's gathered map. -/
theorem kept_v22 (c : Dev nD) : U18 m c main_v22 = U6 m c main_v22 :=
  (U18_of m c main_v22 (by decide)).trans (U17_v22 m c)
/-- The last stretch does not write scale 1's gathered map. -/
theorem kept_v45 (c : Dev nD) : U18 m c main_v45 = U12 m c main_v45 :=
  (U18_of m c main_v45 (by decide)).trans (U17_v45 m c)

/-! ## The stretches read -/

/-- The clamp of scale 0. -/
theorem relu0_eq (c : Dev nD) : U5 m c main_v4 = krelu0 (U4 m c main_v3) := by
  unfold U5 krelu0
  dsimp only [hostOps4]
  after_results
  rfl
/-- The clamp of scale 1. -/
theorem relu1_eq (c : Dev nD) : U11 m c main_v27 = krelu1 (U10 m c main_v26) := by
  unfold U11 krelu1
  dsimp only [hostOps8]
  after_results
  rfl
/-- The clamp of scale 2. -/
theorem relu2_eq (c : Dev nD) : U17 m c main_v50 = krelu2 (U16 m c main_v49) := by
  unfold U17 krelu2
  dsimp only [hostOps12]
  after_results
  rfl

/-- Scale 0's softmax and gather, over what the stretch reads. -/
theorem gath0_eq (c : Dev nD) :
    U6 m c main_v22 = Host.gather gather_S2000x3_S1024x1024x1_S1024x1024x3_2_0_n_n_0_2_13 (ksoft0 (U5 m c main_v4))
      (knorm 2000#32 (U5 m c main_arg6)) := by
  unfold U6 ksoft0 knorm
  dsimp only [hostOps4_1]
  after_results_simp
/-- Scale 1's softmax and gather, over what the stretch reads. -/
theorem gath1_eq (c : Dev nD) :
    U12 m c main_v45 = Host.gather gather_S1000x3_S1024x1024x1_S1024x1024x3_2_0_n_n_0_2_13 (ksoft1 (U11 m c main_v27))
      (knorm 1000#32 (U11 m c main_arg7)) := by
  unfold U12 ksoft1 knorm
  dsimp only [hostOps8_1]
  after_results_simp
/-- Scale 2's softmax and gather, over what the stretch reads. -/
theorem gath2_eq (c : Dev nD) :
    U18 m c main_v68 = Host.gather gather_S500x3_S1024x1024x1_S1024x1024x3_2_0_n_n_0_2_13 (ksoft2 (U17 m c main_v50))
      (knorm 500#32 (U17 m c main_arg8)) := by
  unfold U18 ksoft2 knorm
  dsimp only [hostOps12_1]
  after_results_simp

theorem tail0_eq (c : Dev nD) : U6 m c main_v22 = ktail0 (U4 m c main_v3) (m (c, main_arg6)) := by
  rw [gath0_eq, relu0_eq, U5_arg6]; rfl
theorem tail1_eq (c : Dev nD) : U12 m c main_v45 = ktail1 (U10 m c main_v26) (m (c, main_arg7)) := by
  rw [gath1_eq, relu1_eq, U11_arg7]; rfl
theorem tail2_eq (c : Dev nD) : U18 m c main_v68 = ktail2 (U16 m c main_v49) (m (c, main_arg8)) := by
  rw [gath2_eq, relu2_eq, U17_arg8]; rfl

/-- The softmax of the scale weights, over what the stretch reads. -/
theorem wsoft_eq' (c : Dev nD) : U18 m c main_v78 = kwsoft (U17 m c main_arg21) := by
  unfold U18 kwsoft
  dsimp only [hostOps12_1]
  after_results_simp
theorem wsoft_eq (c : Dev nD) : U18 m c main_v78 = kwsoft (m (c, main_arg21)) := by
  rw [wsoft_eq', U17_arg21]

/-- Scale 0's gathered map laid out for the fuse. -/
theorem flat0_eq (c : Dev nD) : U18 m c main_v79 = kflat (U6 m c main_v22) := by
  rw [← U17_v22 m c]
  unfold U18 kflat
  dsimp only [hostOps12_1]
  after_results_simp
  rfl
/-- Scale 1's gathered map laid out for the fuse. -/
theorem flat1_eq (c : Dev nD) : U18 m c main_v80 = kflat (U12 m c main_v45) := by
  rw [← U17_v45 m c]
  unfold U18 kflat
  dsimp only [hostOps12_1]
  after_results_simp
  rfl
/-- Scale 2's gathered map laid out for the fuse. -/
theorem flat2_eq (c : Dev nD) : U18 m c main_v81 = kflat (U18 m c main_v68) := by
  unfold U18 kflat
  dsimp only [hostOps12_1]
  after_results_simp
  rfl

/-- The fuse's output laid back as 1024 × 1024 × 3. -/
theorem result_eq (c : Dev nD) : U20 m c main_v83 = kunflat (U19 m c main_v82) := by
  unfold U20 kunflat
  dsimp only [hostOps13]
  after_results
  rfl

/-! ## The two layouts at an index -/

/-- The 1024 × 3072 layout at (r, 3·w + e) is the map at (r, w, e). -/
theorem kflat_apply {α : Type} (s : S1024x1024x3.Idx → α) (r w : Fin 1024) (e : Fin 3) (q : Fin 3072)
    (hq : q.val = 3 * w.val + e.val) : kflat s (ix2 r q) = s (ix3 r w e) :=
  shapeCast_apply s shapeCasts_S1024x1024x3_S1024x3072 (ix2 r q) (ix3 r w e) (by
    rw [Shape.rowMajor_val_three, Shape.rowMajor_val_two]
    show (r.val * 1024 + w.val) * 3 + e.val = r.val * 3072 + q.val
    omega)

/-- The 1024 × 1024 × 3 layout at (r, w, e) is the map at (r, 3·w + e). -/
theorem kunflat_apply {α : Type} (t : S1024x3072.Idx → α) (r w : Fin 1024) (e : Fin 3) (q : Fin 3072)
    (hq : q.val = 3 * w.val + e.val) : kunflat t (ix3 r w e) = t (ix2 r q) :=
  shapeCast_apply t shapeCasts_S1024x3072_S1024x1024x3 (ix3 r w e) (ix2 r q) (by
    rw [Shape.rowMajor_val_three, Shape.rowMajor_val_two]
    show r.val * 3072 + q.val = (r.val * 1024 + w.val) * 3 + e.val
    omega)

/-- Laying a map out and back is the map. -/
theorem kunflat_kflat_apply {α : Type} (s : S1024x1024x3.Idx → α) (i : S1024x1024x3.Idx) : kunflat (kflat s) i = s i := by
  obtain ⟨r, w, e, rfl⟩ : ∃ (r w : Fin 1024) (e : Fin 3), i = ix3 r w e := ⟨i 0, i 1, i 2, eq_ix3 i⟩
  have hq : 3 * w.val + e.val < 3072 := by have := w.isLt; have := e.isLt; omega
  rw [kunflat_apply (kflat s) r w e ⟨3 * w.val + e.val, hq⟩ rfl, kflat_apply s r w e ⟨3 * w.val + e.val, hq⟩ rfl]

/-! ## The program's result at an index -/

/-- With the fuse region's output the fuse of the three laid-out maps and the softmaxed weights, the program's result at
    (r, w, e) is the fuse of the three gathered maps at (r, w, e). -/
theorem result_apply (c : Dev nD) (i : S1024x1024x3.Idx)
    (hfuse : U19 m c main_v82 = Cert.Gat.fuse (U18 m c main_v79) (U18 m c main_v80) (U18 m c main_v81) (U18 m c main_v78)) :
    U20 m c main_v83 i = ktail0 (U4 m c main_v3) (m (c, main_arg6)) i * kwsoft (m (c, main_arg21)) (ix1 0)
                       + ktail1 (U10 m c main_v26) (m (c, main_arg7)) i * kwsoft (m (c, main_arg21)) (ix1 1)
                       + ktail2 (U16 m c main_v49) (m (c, main_arg8)) i * kwsoft (m (c, main_arg21)) (ix1 2) := by
  obtain ⟨r, w, e, rfl⟩ : ∃ (r w : Fin 1024) (e : Fin 3), i = ix3 r w e := ⟨i 0, i 1, i 2, eq_ix3 i⟩
  have hq : 3 * w.val + e.val < 3072 := by have := w.isLt; have := e.isLt; omega
  rw [result_eq, kunflat_apply _ r w e ⟨3 * w.val + e.val, hq⟩ rfl, hfuse]
  unfold Cert.Gat.fuse
  rw [flat0_eq, flat1_eq, flat2_eq, kflat_apply _ r w e ⟨3 * w.val + e.val, hq⟩ rfl,
    kflat_apply _ r w e ⟨3 * w.val + e.val, hq⟩ rfl, kflat_apply _ r w e ⟨3 * w.val + e.val, hq⟩ rfl,
    wsoft_eq, tail0_eq, tail1_eq, tail2_eq]

end Cert.KernelIdeal.Hand
end
-- ==== Proof.Alg.lean ====
/-
  The two programs compute one function at the extended reals.

  Each scale's two attention layers in sequence are one function  B  of the scale's features, adjacency, and the two layers'
  weights and biases (a dense layer, attention of its rows over themselves, a dense layer, attention). After them both
  programs apply the same tail to  B  and the scale's segment map (clamp at zero, softmax over the three columns, the rows the
  segment map names), and the same softmax to the three scale weights. The kernel program then lays the three maps out,
  fuses them with the weights and lays the result back; the reference stacks the three maps, multiplies by the weights and
  sums over the stack. Read at an index (r, w, e) both are

      t0 (r, w, e) · w 0  +  t1 (r, w, e) · w 1  +  t2 (r, w, e) · w 2 ,

  the t's the three tails and  w  the softmaxed weights. So from memories that agree on the 22 arguments the two results
  are equal, entry by entry.
-/
import proofs.«123632_j87531433492498_2_alg».proof.Defs
import proofs.«123632_j87531433492498_2_alg».proof.Proof.KI.Run
import proofs.«123632_j87531433492498_2_alg».proof.Proof.KI.Value
import proofs.«123632_j87531433492498_2_alg».proof.Proof.KI.HostK
import proofs.«123632_j87531433492498_2_alg».proof.Proof.RefRunP
import proofs.«123632_j87531433492498_2_alg».proof.Proof.Ref.Conv
import proofs.«123632_j87531433492498_2_alg».proof.Proof.Ref.Tail
import proofs.«123632_j87531433492498_2_alg».proof.Proof.Ref.Run
import proofs.«123632_j87531433492498_2_alg».proof.Proof.Gat.Spec
import Idealize.ShloMosaic.Lib.ValueIdx

set_option maxRecDepth 16384

noncomputable section

namespace Cert.Proof.Alg

open Idealize.ShloMosaic Idealize.ShloMosaic.TcCoe Idealize.ShloMosaic.ValueIdx Idealize.SL.Sem
open Cert.Gat (Mat Vc)
open Cert.KernelIdeal.Hand (ktail0 ktail1 ktail2 kwsoft)
open Cert.Proof.Ref (rtail0 rtail1 rtail2 rwsoft)

/-- One scale's two attention layers in sequence: a dense layer, attention of its rows over themselves under the adjacency,
    a second dense layer, attention again. -/
def B {N : ℕ} (x : (Mat N 156).Idx → EReal) (A : (Mat N N).Idx → BitVec 32) (W1 : (Mat 156 64).Idx → EReal)
    (b1 : (Vc 64).Idx → EReal) (W2 : (Mat 64 3).Idx → EReal) (b2 : (Vc 3).Idx → EReal) : (Mat N 3).Idx → EReal :=
  Cert.Gat.att (Cert.Gat.lin (Cert.Gat.att (Cert.Gat.lin x W1 b1) (Cert.Gat.lin x W1 b1) A) W2 b2)
    (Cert.Gat.lin (Cert.Gat.att (Cert.Gat.lin x W1 b1) (Cert.Gat.lin x W1 b1) A) W2 b2) A

/-! ## The two programs' tails are the same functions -/

/-- Scale 0's tail: the same chain of operations in both programs. -/
theorem tail0_join : ktail0 = rtail0 := rfl
/-- Scale 1's tail. -/
theorem tail1_join : ktail1 = rtail1 := rfl
/-- Scale 2's tail. -/
theorem tail2_join : ktail2 = rtail2 := rfl
/-- The softmax of the scale weights. -/
theorem wsoft_join : kwsoft = rwsoft := rfl

/-- With equal arguments, the reference's three tails times its softmaxed weights, summed, is the kernel program's. -/
theorem fuse_join
    {x0 x0' : (Mat 2000 156).Idx → EReal} {x1 x1' : (Mat 1000 156).Idx → EReal} {x2 x2' : (Mat 500 156).Idx → EReal}
    {x3 x3' : (Mat 2000 2000).Idx → BitVec 32} {x4 x4' : (Mat 1000 1000).Idx → BitVec 32} {x5 x5' : (Mat 500 500).Idx → BitVec 32}
    {x6 x6' x7 x7' x8 x8' : (Mat 1024 1024).Idx → BitVec 32}
    {x9 x9' x13 x13' x17 x17' : (Mat 156 64).Idx → EReal} {x10 x10' x14 x14' x18 x18' : (Vc 64).Idx → EReal}
    {x11 x11' x15 x15' x19 x19' : (Mat 64 3).Idx → EReal} {x12 x12' x16 x16' x20 x20' x21 x21' : (Vc 3).Idx → EReal}
    (h0 : x0' = x0) (h1 : x1' = x1) (h2 : x2' = x2) (h3 : x3' = x3) (h4 : x4' = x4) (h5 : x5' = x5) (h6 : x6' = x6)
    (h7 : x7' = x7) (h8 : x8' = x8) (h9 : x9' = x9) (h10 : x10' = x10) (h11 : x11' = x11) (h12 : x12' = x12)
    (h13 : x13' = x13) (h14 : x14' = x14) (h15 : x15' = x15) (h16 : x16' = x16) (h17 : x17' = x17) (h18 : x18' = x18)
    (h19 : x19' = x19) (h20 : x20' = x20) (h21 : x21' = x21) (i : Cert.KernelIdeal.S1024x1024x3.Idx) :
    rtail0 (B x0' x3' x9' x10' x11' x12') x6' i * rwsoft x21' (ix1 0)
      + rtail1 (B x1' x4' x13' x14' x15' x16') x7' i * rwsoft x21' (ix1 1)
      + rtail2 (B x2' x5' x17' x18' x19' x20') x8' i * rwsoft x21' (ix1 2)
    = ktail0 (B x0 x3 x9 x10 x11 x12) x6 i * kwsoft x21 (ix1 0)
      + ktail1 (B x1 x4 x13 x14 x15 x16) x7 i * kwsoft x21 (ix1 1)
      + ktail2 (B x2 x5 x17 x18 x19 x20) x8 i * kwsoft x21 (ix1 2) := by
  subst h0 h1 h2 h3 h4 h5 h6 h7 h8 h9 h10 h11 h12 h13 h14 h15 h16 h17 h18 h19 h20 h21
  rw [tail0_join, tail1_join, tail2_join, wsoft_join]

/-! ## The kernel program's result -/

/-- The kernel program's result at an index: the three tails of the three scales' layers there, each times its softmaxed
    weight, summed. -/
theorem kernel_value (m : (ℓ : Loc Cert.KernelIdeal.nD Cert.KernelIdeal.τ Cert.KernelIdeal.sig) → Buf (Elt Ideal) ℓ) (c : Dev Cert.KernelIdeal.nD) (i : Cert.KernelIdeal.S1024x1024x3.Idx) :
    Cert.KernelIdeal.Hand.U20 m c Cert.KernelIdeal.main_v83 i
      = ktail0 (B (m (c, (Cert.KernelIdeal.main_arg0 : DevRef Cert.KernelIdeal.τ Cert.KernelIdeal.sig))) (m (c, (Cert.KernelIdeal.main_arg3 : DevRef Cert.KernelIdeal.τ Cert.KernelIdeal.sig))) (m (c, (Cert.KernelIdeal.main_arg9 : DevRef Cert.KernelIdeal.τ Cert.KernelIdeal.sig))) (m (c, (Cert.KernelIdeal.main_arg10 : DevRef Cert.KernelIdeal.τ Cert.KernelIdeal.sig))) (m (c, (Cert.KernelIdeal.main_arg11 : DevRef Cert.KernelIdeal.τ Cert.KernelIdeal.sig))) (m (c, (Cert.KernelIdeal.main_arg12 : DevRef Cert.KernelIdeal.τ Cert.KernelIdeal.sig)))) (m (c, (Cert.KernelIdeal.main_arg6 : DevRef Cert.KernelIdeal.τ Cert.KernelIdeal.sig))) i * kwsoft (m (c, (Cert.KernelIdeal.main_arg21 : DevRef Cert.KernelIdeal.τ Cert.KernelIdeal.sig))) (ix1 0)
      + ktail1 (B (m (c, (Cert.KernelIdeal.main_arg1 : DevRef Cert.KernelIdeal.τ Cert.KernelIdeal.sig))) (m (c, (Cert.KernelIdeal.main_arg4 : DevRef Cert.KernelIdeal.τ Cert.KernelIdeal.sig))) (m (c, (Cert.KernelIdeal.main_arg13 : DevRef Cert.KernelIdeal.τ Cert.KernelIdeal.sig))) (m (c, (Cert.KernelIdeal.main_arg14 : DevRef Cert.KernelIdeal.τ Cert.KernelIdeal.sig))) (m (c, (Cert.KernelIdeal.main_arg15 : DevRef Cert.KernelIdeal.τ Cert.KernelIdeal.sig))) (m (c, (Cert.KernelIdeal.main_arg16 : DevRef Cert.KernelIdeal.τ Cert.KernelIdeal.sig)))) (m (c, (Cert.KernelIdeal.main_arg7 : DevRef Cert.KernelIdeal.τ Cert.KernelIdeal.sig))) i * kwsoft (m (c, (Cert.KernelIdeal.main_arg21 : DevRef Cert.KernelIdeal.τ Cert.KernelIdeal.sig))) (ix1 1)
      + ktail2 (B (m (c, (Cert.KernelIdeal.main_arg2 : DevRef Cert.KernelIdeal.τ Cert.KernelIdeal.sig))) (m (c, (Cert.KernelIdeal.main_arg5 : DevRef Cert.KernelIdeal.τ Cert.KernelIdeal.sig))) (m (c, (Cert.KernelIdeal.main_arg17 : DevRef Cert.KernelIdeal.τ Cert.KernelIdeal.sig))) (m (c, (Cert.KernelIdeal.main_arg18 : DevRef Cert.KernelIdeal.τ Cert.KernelIdeal.sig))) (m (c, (Cert.KernelIdeal.main_arg19 : DevRef Cert.KernelIdeal.τ Cert.KernelIdeal.sig))) (m (c, (Cert.KernelIdeal.main_arg20 : DevRef Cert.KernelIdeal.τ Cert.KernelIdeal.sig)))) (m (c, (Cert.KernelIdeal.main_arg8 : DevRef Cert.KernelIdeal.τ Cert.KernelIdeal.sig))) i * kwsoft (m (c, (Cert.KernelIdeal.main_arg21 : DevRef Cert.KernelIdeal.τ Cert.KernelIdeal.sig))) (ix1 2) := by
  rw [Cert.KernelIdeal.Hand.result_apply m c i (Cert.KernelIdeal.Hand.u19_v82 m c),
    Cert.KernelIdeal.Hand.u4_v3, Cert.KernelIdeal.Hand.u3_v2, Cert.KernelIdeal.Hand.u2_v1, Cert.KernelIdeal.Hand.u1_v0,
    Cert.KernelIdeal.Hand.u10_v26, Cert.KernelIdeal.Hand.u9_v25, Cert.KernelIdeal.Hand.u8_v24, Cert.KernelIdeal.Hand.u7_v23,
    Cert.KernelIdeal.Hand.u16_v49, Cert.KernelIdeal.Hand.u15_v48, Cert.KernelIdeal.Hand.u14_v47, Cert.KernelIdeal.Hand.u13_v46]
  rfl

/-! ## The reference's result -/

/-- The reference's result at an index: the three tails of the three scales' layers there, each times its softmaxed weight,
    summed. -/
theorem ref_value (m' : (ℓ : Loc Cert.ReferenceIdeal.nD Cert.ReferenceIdeal.τ Cert.ReferenceIdeal.sig) → Buf (Elt Ideal) ℓ) (c : Dev Cert.ReferenceIdeal.nD) (i : Cert.ReferenceIdeal.S1024x1024x3.Idx) :
    StableHlo.after (Cert.ReferenceIdeal.Value.ops (F := Ideal)) (StableHlo.launchContents m' c) (Proc.devRef .tc Cert.ReferenceIdeal.main_v206) i
      = rtail0 (B (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))) (m' ((c.tc : Thread Cert.ReferenceIdeal.nD Cert.ReferenceIdeal.τ).loc Cert.ReferenceIdeal.main_arg6)) i * rwsoft (m' ((c.tc : Thread Cert.ReferenceIdeal.nD Cert.ReferenceIdeal.τ).loc Cert.ReferenceIdeal.main_arg21)) (ix1 0)
      + rtail1 (B (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))) (m' ((c.tc : Thread Cert.ReferenceIdeal.nD Cert.ReferenceIdeal.τ).loc Cert.ReferenceIdeal.main_arg7)) i * rwsoft (m' ((c.tc : Thread Cert.ReferenceIdeal.nD Cert.ReferenceIdeal.τ).loc Cert.ReferenceIdeal.main_arg21)) (ix1 1)
      + rtail2 (B (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20))) (m' ((c.tc : Thread Cert.ReferenceIdeal.nD Cert.ReferenceIdeal.τ).loc Cert.ReferenceIdeal.main_arg8)) i * rwsoft (m' ((c.tc : Thread Cert.ReferenceIdeal.nD Cert.ReferenceIdeal.τ).loc Cert.ReferenceIdeal.main_arg21)) (ix1 2) := by
  rw [Cert.Proof.Ref.ref_after, Cert.Proof.Ref.rfin_apply, Cert.Proof.Ref.branch0, Cert.Proof.Ref.branch1, Cert.Proof.Ref.branch2]
  rfl

/-! ## The claim -/

/-- From memories agreeing on the arguments both programs run, end with equal results and leave their arguments unchanged. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Hand.U20 m c Cert.KernelIdeal.main_v83, Cert.KernelIdeal.Hand.run (F := Ideal) m ρ, ?_⟩
  refine (θ_run (Cert.ReferenceIdeal.defs (F := Ideal)) _ _).mono (fun r h c => ⟨(h c Cert.ReferenceIdeal.main_v206).trans ?res, ?args⟩)
    (Cert.ReferenceIdeal.Value.run_after (F := Ideal) m' ρ')
  case res =>
    refine funext fun (i : Cert.KernelIdeal.S1024x1024x3.Idx) => ?_
    obtain ⟨e0, e1, e2, e3, e4, e5, e6, e7, e8, e9, e10, e11, e12, e13, e14, e15, e16, e17, e18, e19, e20, e21⟩ := hagree c
    exact (ref_value m' c i).trans
      ((fuse_join e0 e1 e2 e3 e4 e5 e6 e7 e8 e9 e10 e11 e12 e13 e14 e15 e16 e17 e18 e19 e20 e21 i).trans
        (kernel_value m c i).symm)
  case args =>
    exact ⟨(h c Cert.ReferenceIdeal.main_arg0).trans (Cert.Proof.Ref.ref_args (StableHlo.launchContents m' c) Cert.ReferenceIdeal.main_arg0 (by decide)),
      (h c Cert.ReferenceIdeal.main_arg1).trans (Cert.Proof.Ref.ref_args (StableHlo.launchContents m' c) Cert.ReferenceIdeal.main_arg1 (by decide)),
      (h c Cert.ReferenceIdeal.main_arg2).trans (Cert.Proof.Ref.ref_args (StableHlo.launchContents m' c) Cert.ReferenceIdeal.main_arg2 (by decide)),
      (h c Cert.ReferenceIdeal.main_arg3).trans (Cert.Proof.Ref.ref_args (StableHlo.launchContents m' c) Cert.ReferenceIdeal.main_arg3 (by decide)),
      (h c Cert.ReferenceIdeal.main_arg4).trans (Cert.Proof.Ref.ref_args (StableHlo.launchContents m' c) Cert.ReferenceIdeal.main_arg4 (by decide)),
      (h c Cert.ReferenceIdeal.main_arg5).trans (Cert.Proof.Ref.ref_args (StableHlo.launchContents m' c) Cert.ReferenceIdeal.main_arg5 (by decide)),
      (h c Cert.ReferenceIdeal.main_arg6).trans (Cert.Proof.Ref.ref_args (StableHlo.launchContents m' c) Cert.ReferenceIdeal.main_arg6 (by decide)),
      (h c Cert.ReferenceIdeal.main_arg7).trans (Cert.Proof.Ref.ref_args (StableHlo.launchContents m' c) Cert.ReferenceIdeal.main_arg7 (by decide)),
      (h c Cert.ReferenceIdeal.main_arg8).trans (Cert.Proof.Ref.ref_args (StableHlo.launchContents m' c) Cert.ReferenceIdeal.main_arg8 (by decide)),
      (h c Cert.ReferenceIdeal.main_arg9).trans (Cert.Proof.Ref.ref_args (StableHlo.launchContents m' c) Cert.ReferenceIdeal.main_arg9 (by decide)),
      (h c Cert.ReferenceIdeal.main_arg10).trans (Cert.Proof.Ref.ref_args (StableHlo.launchContents m' c) Cert.ReferenceIdeal.main_arg10 (by decide)),
      (h c Cert.ReferenceIdeal.main_arg11).trans (Cert.Proof.Ref.ref_args (StableHlo.launchContents m' c) Cert.ReferenceIdeal.main_arg11 (by decide)),
      (h c Cert.ReferenceIdeal.main_arg12).trans (Cert.Proof.Ref.ref_args (StableHlo.launchContents m' c) Cert.ReferenceIdeal.main_arg12 (by decide)),
      (h c Cert.ReferenceIdeal.main_arg13).trans (Cert.Proof.Ref.ref_args (StableHlo.launchContents m' c) Cert.ReferenceIdeal.main_arg13 (by decide)),
      (h c Cert.ReferenceIdeal.main_arg14).trans (Cert.Proof.Ref.ref_args (StableHlo.launchContents m' c) Cert.ReferenceIdeal.main_arg14 (by decide)),
      (h c Cert.ReferenceIdeal.main_arg15).trans (Cert.Proof.Ref.ref_args (StableHlo.launchContents m' c) Cert.ReferenceIdeal.main_arg15 (by decide)),
      (h c Cert.ReferenceIdeal.main_arg16).trans (Cert.Proof.Ref.ref_args (StableHlo.launchContents m' c) Cert.ReferenceIdeal.main_arg16 (by decide)),
      (h c Cert.ReferenceIdeal.main_arg17).trans (Cert.Proof.Ref.ref_args (StableHlo.launchContents m' c) Cert.ReferenceIdeal.main_arg17 (by decide)),
      (h c Cert.ReferenceIdeal.main_arg18).trans (Cert.Proof.Ref.ref_args (StableHlo.launchContents m' c) Cert.ReferenceIdeal.main_arg18 (by decide)),
      (h c Cert.ReferenceIdeal.main_arg19).trans (Cert.Proof.Ref.ref_args (StableHlo.launchContents m' c) Cert.ReferenceIdeal.main_arg19 (by decide)),
      (h c Cert.ReferenceIdeal.main_arg20).trans (Cert.Proof.Ref.ref_args (StableHlo.launchContents m' c) Cert.ReferenceIdeal.main_arg20 (by decide)),
      (h c Cert.ReferenceIdeal.main_arg21).trans (Cert.Proof.Ref.ref_args (StableHlo.launchContents m' c) Cert.ReferenceIdeal.main_arg21 (by decide))⟩

end Cert.Proof.Alg

end
-- ==== Proof.lean ====
/- The certificate of a three-scale dense graph-attention encoder against its plain reference.

   Per scale the kernel program runs four regions — a dense layer X·W + b, attention over it (scores of a block of query rows
   against all rows, masked by the adjacency, normalised row by row, multiplied into all rows, clamped at zero), a second dense
   layer and a second attention — then, on the host, a softmax over the three columns and a gather by the segment map; a last
   region adds the three gathered maps with the softmax of the three scale weights. The reference computes the same with
   whole-array host operations and a stacked sum.

   The frames: each kernel program's run is the launch theorem for a program of several regions applied to one record per
   region (the body's triple, the proof data, and the thread state around the region; an attention region reads one buffer
   through two windows, each holding half of it); the reference's run is its operation list read as a fold. The idealization
   changes nothing, so `preserves` is trivial. For the algebraic conjunct both results are read, index by index, as
   t0·w0 + t1·w1 + t2·w2 with t_k the gathered softmax of the k-th scale's two-layer attention: on the kernel side from the
   regions' block values through the covers of their grids, on the reference side from the operation list cut into one chunk
   per layer and per tail; the two sums differ only in grouping and a leading zero. -/
import proofs.«123632_j87531433492498_2_alg».proof.Defs
import proofs.«123632_j87531433492498_2_alg».proof.Proof.Gen.Kernel
import proofs.«123632_j87531433492498_2_alg».proof.Proof.Gen.KernelIdeal
import proofs.«123632_j87531433492498_2_alg».proof.Proof.Gen.ReferenceIdeal
import proofs.«123632_j87531433492498_2_alg».proof.Proof.Gen.Pre_finite_inputs
import proofs.«123632_j87531433492498_2_alg».proof.Proof.K.Run
import proofs.«123632_j87531433492498_2_alg».proof.Proof.KI.Run
import proofs.«123632_j87531433492498_2_alg».proof.Proof.Ref.Run
import proofs.«123632_j87531433492498_2_alg».proof.Proof.Ref.Model
import proofs.«123632_j87531433492498_2_alg».proof.Proof.Alg
import Idealize.ShloMosaic.Adequacy
import Idealize.ShloMosaic.Init

noncomputable section

namespace Cert.Proof

open Idealize.ShloMosaic Idealize.SL.Sem

/-- The printed kernel runs to the end, faults nowhere and leaves its arguments as launched: its run with the result forgotten. -/
theorem frame_k : Cert.frame_Kernel := fun m ρ _ =>
  (θ_run Cert.Kernel.defs _ _).mono (fun _ h c => (h c).2) (Cert.Kernel.Hand.run (F := Bits) m ρ)

/-- The same for the idealized kernel. -/
theorem frame_ki : Cert.frame_KernelIdeal := fun m ρ _ =>
  (θ_run Cert.KernelIdeal.defs _ _).mono (fun _ h c => (h c).2) (Cert.KernelIdeal.Hand.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, Cert.Proof.Ref.frame_ri, trivial, Cert.Proof.Alg.algebraic⟩

end Cert.Proof

end
